-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S2x8192 : Shape := ⟨2, ![2, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x8192 : S_.BroadcastsInDim S2x8192 (![] : Fin 0 → Fin S2x8192.rank)
  reducesTo_S2x8192_S_d0_1 : S2x8192.ReducesTo [0, 1] S_

variable [Facts]

def fn_part5 {F : FTy → Type} [FloatOps F] (main_arg2 : IVec S2x8192 32) (main_v83 : IVec S_ 1) (main_v84 : IVec S2x8192 32) : IVec S_ 1 :=
  let main_v85 : IVec S2x8192 1 := cmpi .sge main_arg2 main_v84
  let main_c_33 : IVec S_ 32 := constantI S_ 32 8192#32
  let main_v86 : IVec S2x8192 32 := broadcastInDim S2x8192 ![] bcast_S_S2x8192 main_c_33
  let main_v87 : IVec S2x8192 1 := cmpi .slt main_arg2 main_v86
  let main_v88 : IVec S2x8192 1 := andi main_v85 main_v87
  let main_c_34 : IVec S_ 1 := constantI S_ 1 1#1
  let main_v89 : IVec S_ 1 := (fun x v => Host.reduce IntOp.andi x v reducesTo_S2x8192_S_d0_1 h_S_) main_v88 main_c_34
  let main_v90 : IVec S_ 1 := andi main_v83 main_v89
  main_v90

def fn_part4 {F : FTy → Type} [FloatOps F] (main_arg2 : IVec S2x8192 32) (main_arg15 : FVec F S256x1 .f32) (main_arg16 : FVec F S1 .f32) (main_arg17 : FVec F S1 .f32) (main_v63 : IVec S_ 1) (main_v67 : IVec S_ 1) : IVec S_ 1 :=
  let main_v68 : IVec S_ 1 := andi main_v63 main_v67
  let main_v69 : FVec F S256x1 .f32 := Host.absf main_arg15
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 0#32
  let main_v84 : IVec S2x8192 32 := broadcastInDim S2x8192 ![] bcast_S_S2x8192 main_c_32
  fn_part5 (F := F) main_arg2 main_v83 main_v84

def fn_part3 {F : FTy → Type} [FloatOps F] (main_arg2 : IVec S2x8192 32) (main_arg12 : FVec F S256 .f32) (main_arg13 : FVec F S256x256 .f32) (main_arg14 : FVec F S256 .f32) (main_arg15 : FVec F S256x1 .f32) (main_arg16 : FVec F S1 .f32) (main_arg17 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg15 main_arg16 main_arg17 main_v63 main_v67

def fn_part2 {F : FTy → Type} [FloatOps F] (main_arg2 : IVec S2x8192 32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x1 .f32) (main_arg16 : FVec F S1 .f32) (main_arg17 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg2 main_arg12 main_arg13 main_arg14 main_arg15 main_arg16 main_arg17 main_v48 main_v49 main_v50

def fn_part1 {F : FTy → Type} [FloatOps F] (main_arg2 : IVec S2x8192 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x1 .f32) (main_arg16 : FVec F S1 .f32) (main_arg17 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_v33

def fn {F : FTy → Type} [FloatOps F] (main_arg0 : FVec F S8192x256 .f32) (main_arg1 : FVec F S8192x8192 .f32) (main_arg2 : IVec S2x8192 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x1 .f32) (main_arg16 : FVec F S1 .f32) (main_arg17 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_arg13 main_arg14 main_arg15 main_arg16 main_arg17 main_v13 main_v16
-- ==== Kernel.lean ====
abbrev S8192x256 : Shape := ⟨2, ![8192, 256]⟩
abbrev S8192x8192 : Shape := ⟨2, ![8192, 8192]⟩
abbrev S2x8192 : Shape := ⟨2, ![2, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x8192 : Shape := ⟨2, ![1, 8192]⟩
abbrev S8192 : Shape := ⟨1, ![8192]⟩
abbrev S1x256 : Shape := ⟨2, ![1, 256]⟩
abbrev S1024x256 : Shape := ⟨2, ![1024, 256]⟩
abbrev S1x1 : Shape := ⟨2, ![1, 1]⟩
abbrev S8192x1 : Shape := ⟨2, ![8192, 1]⟩
abbrev S64x1 : Shape := ⟨2, ![64, 1]⟩
abbrev S64x8192 : Shape := ⟨2, ![64, 8192]⟩
abbrev S64x256 : Shape := ⟨2, ![64, 256]⟩
abbrev S16 : Shape := ⟨1, ![16]⟩
abbrev S_ : Shape := ⟨0, ![]⟩

abbrev nBuf : Space → Nat
  | .hbm => 30
  | .vmem => 27
  | .smem => 2
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x8192, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x1, .f32⟩
  | .hbm, ⟨16, _⟩ => ⟨S1, .f32⟩
  | .hbm, ⟨17, _⟩ => ⟨S1, .f32⟩
  | .hbm, ⟨18, _⟩ => ⟨S1x8192, .i32⟩
  | .hbm, ⟨19, _⟩ => ⟨S1x8192, .i32⟩
  | .hbm, ⟨20, _⟩ => ⟨S1x256, .f32⟩
  | .hbm, ⟨21, _⟩ => ⟨S1x256, .f32⟩
  | .hbm, ⟨22, _⟩ => ⟨S8192x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x1, .f32⟩
  | .hbm, ⟨28, _⟩ => ⟨S1x1, .f32⟩
  | .hbm, ⟨29, _⟩ => ⟨S8192x1, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S8192x256, .f32⟩
  | .local _ .vmem, ⟨9, _⟩ => ⟨S8192x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x1, .f32⟩
  | .local _ .vmem, ⟨19, _⟩ => ⟨S1x1, .f32⟩
  | .local _ .vmem, ⟨20, _⟩ => ⟨S1x1, .f32⟩
  | .local _ .vmem, ⟨21, _⟩ => ⟨S64x1, .f32⟩
  | .local _ .vmem, ⟨22, _⟩ => ⟨S64x1, .f32⟩
  | .local _ .vmem, ⟨23, _⟩ => ⟨S64x8192, .f32⟩
  | .local _ .vmem, ⟨24, _⟩ => ⟨S64x8192, .f32⟩
  | .local _ .vmem, ⟨25, _⟩ => ⟨S64x256, .f32⟩
  | .local _ .vmem, ⟨26, _⟩ => ⟨S64x256, .f32⟩
  | .local _ .smem, ⟨0, _⟩ => ⟨S8192, .i32⟩
  | .local _ .smem, ⟨1, _⟩ => ⟨S8192, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v1 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg13_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc1_scratch3 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem13_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

abbrev pre1 : Pipeline.Prefetch sig := ⟨2, ![main_v1.idx, main_v3.idx], fun | 0 => main_v1.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_4 : BitVec 32 := 0#32
  ![v3.toNat, 0]

def k1_off3 (v6 : BitVec 32) : Fin 2 → Nat :=
  let c0_i32_8 : BitVec 32 := 0#32
  ![v6.toNat, 0]

def k1_off4 (v3 : BitVec 32) : Fin 2 → Nat :=
  let v19 : Index := Scalar.indexCast v3
  let c0 : Index := 0#32
  ![v19.toNat, 0]

def k1_chk1 (v3 : BitVec 32) : Prop :=
  (∀ a, (k1_off2 v3) a + S1x8192.size a ≤ S8192x8192.size a) ∧
  (∀ a, (k1_off4 v3) a + S1x256.size a ≤ S8192x256.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x8192.size a ≤ S8192x8192.size a := fun v3 k1_hw1 => k1_hw1.1
theorem k1_off4_inb : ∀ (v3 : BitVec 32) (k1_hw1 : k1_chk1 v3), ∀ a, (k1_off4 v3) a + S1x256.size a ≤ S8192x256.size a := fun v3 k1_hw1 => k1_hw1.2

def k1_off5 (v6 : BitVec 32) : Fin 2 → Nat :=
  let v25 : Index := Scalar.indexCast v6
  let c0_11 : Index := 0#32
  ![v25.toNat, 0]

def k1_chk2 (v6 : BitVec 32) : Prop :=
  (∀ a, (k1_off3 v6) a + S1x8192.size a ≤ S8192x8192.size a) ∧
  (∀ a, (k1_off5 v6) a + S1x256.size a ≤ S8192x256.size a)
instance k1_chk2.dec : ∀ (v6 : BitVec 32), Decidable (k1_chk2 v6) := fun v6 => decidable_of_iff' _ (Iff.of_eq (k1_chk2.eq_1 v6))
theorem k1_off3_inb : ∀ (v6 : BitVec 32) (k1_hw2 : k1_chk2 v6), ∀ a, (k1_off3 v6) a + S1x8192.size a ≤ S8192x8192.size a := fun v6 k1_hw2 => k1_hw2.1
theorem k1_off5_inb : ∀ (v6 : BitVec 32) (k1_hw2 : k1_chk2 v6), ∀ a, (k1_off5 v6) a + S1x256.size a ≤ S8192x256.size a := fun v6 k1_hw2 => k1_hw2.2

def k1_off6 (i : grid1.Coords) : Fin 1 → Nat :=
  let arg0 : BitVec 32 := BitVec.ofNat 32 (i 0).val
  let c64_i32 : BitVec 32 := 64#32
  let v0 : BitVec 32 := Scalar.muli arg0 c64_i32
  let c1_i32 : BitVec 32 := 1#32
  let v31 : BitVec 32 := Scalar.addi v0 c1_i32
  let v32 : Index := Scalar.indexCast v31
  ![v32.toNat]
def k1_off7 (v33 : BitVec 32) : Fin 2 → Nat :=
  let c0_i32_18 : BitVec 32 := 0#32
  ![v33.toNat, 0]

def k1_off8 (v36 : BitVec 32) : Fin 2 → Nat :=
  let c0_i32_22 : BitVec 32 := 0#32
  ![v36.toNat, 0]

def k1_off9 (v33 : BitVec 32) : Fin 2 → Nat :=
  let v49 : Index := Scalar.indexCast v33
  let c0_23 : Index := 0#32
  ![v49.toNat, 0]

def k1_chk3 (v33 : BitVec 32) : Prop :=
  (∀ a, (k1_off7 v33) a + S1x8192.size a ≤ S8192x8192.size a) ∧
  (∀ a, (k1_off9 v33) a + S1x256.size a ≤ S8192x256.size a)
instance k1_chk3.dec : ∀ (v33 : BitVec 32), Decidable (k1_chk3 v33) := fun v33 => decidable_of_iff' _ (Iff.of_eq (k1_chk3.eq_1 v33))
theorem k1_off7_inb : ∀ (v33 : BitVec 32) (k1_hw3 : k1_chk3 v33), ∀ a, (k1_off7 v33) a + S1x8192.size a ≤ S8192x8192.size a := fun v33 k1_hw3 => k1_hw3.1
theorem k1_off9_inb : ∀ (v33 : BitVec 32) (k1_hw3 : k1_chk3 v33), ∀ a, (k1_off9 v33) a + S1x256.size a ≤ S8192x256.size a := fun v33 k1_hw3 => k1_hw3.2

def k1_off10 (v36 : BitVec 32) : Fin 2 → Nat :=
  let v55 : Index := Scalar.indexCast v36
  let c0_25 : Index := 0#32
  ![v55.toNat, 0]

def k1_chk4 (v36 : BitVec 32) : Prop :=
  (∀ a, (k1_off8 v36) a + S1x8192.size a ≤ S8192x8192.size a) ∧
  (∀ a, (k1_off10 v36) a + S1x256.size a ≤ S8192x256.size a)
instance k1_chk4.dec : ∀ (v36 : BitVec 32), Decidable (k1_chk4 v36) := fun v36 => decidable_of_iff' _ (Iff.of_eq (k1_chk4.eq_1 v36))
theorem k1_off8_inb : ∀ (v36 : BitVec 32) (k1_hw4 : k1_chk4 v36), ∀ a, (k1_off8 v36) a + S1x8192.size a ≤ S8192x8192.size a := fun v36 k1_hw4 => k1_hw4.1
theorem k1_off10_inb : ∀ (v36 : BitVec 32) (k1_hw4 : k1_chk4 v36), ∀ a, (k1_off10 v36) a + S1x256.size a ≤ S8192x256.size a := fun v36 k1_hw4 => k1_hw4.2

def k1_off11 (i : grid1.Coords) : Fin 1 → Nat :=
  let arg0 : BitVec 32 := BitVec.ofNat 32 (i 0).val
  let c64_i32 : BitVec 32 := 64#32
  let v0 : BitVec 32 := Scalar.muli arg0 c64_i32
  let c2_i32 : BitVec 32 := 2#32
  let v61 : BitVec 32 := Scalar.addi v0 c2_i32
  let v62 : Index := Scalar.indexCast v61
  ![v62.toNat]
def k1_off12 (v63 : BitVec 32) : Fin 2 → Nat :=
  let c0_i32_32 : BitVec 32 := 0#32
  ![v63.toNat, 0]

def k1_off13 (v66 : BitVec 32) : Fin 2 → Nat :=
  let c0_i32_36 : BitVec 32 := 0#32
  ![v66.toNat, 0]

def k1_off14 (v63 : BitVec 32) : Fin 2 → Nat :=
  let v79 : Index := Scalar.indexCast v63
  let c0_37 : Index := 0#32
  ![v79.toNat, 0]

def k1_chk5 (v63 : BitVec 32) : Prop :=
  (∀ a, (k1_off12 v63) a + S1x8192.size a ≤ S8192x8192.size a) ∧
  (∀ a, (k1_off14 v63) a + S1x256.size a ≤ S8192x256.size a)
instance k1_chk5.dec : ∀ (v63 : BitVec 32), Decidable (k1_chk5 v63) := fun v63 => decidable_of_iff' _ (Iff.of_eq (k1_chk5.eq_1 v63))
theorem k1_off12_inb : ∀ (v63 : BitVec 32) (k1_hw5 : k1_chk5 v63), ∀ a, (k1_off12 v63) a + S1x8192.size a ≤ S8192x8192.size a := fun v63 k1_hw5 => k1_hw5.1
theorem k1_off14_inb : ∀ (v63 : BitVec 32) (k1_hw5 : k1_chk5 v63), ∀ a, (k1_off14 v63) a + S1x256.size a ≤ S8192x256.size a := fun v63 k1_hw5 => k1_hw5.2

def k1_off15 (v66 : BitVec 32) : Fin 2 → Nat :=
  let v85 : Index := Scalar.indexCast v66
  let c0_39 : Index := 0#32
  ![v85.toNat, 0]

def k1_chk6 (v66 : BitVec 32) : Prop :=
  (∀ a, (k1_off13 v66) a + S1x8192.size a ≤ S8192x8192.size a) ∧
  (∀ a, (k1_off15 v66) a + S1x256.size a ≤ S8192x256.size a)
instance k1_chk6.dec : ∀ (v66 : BitVec 32), Decidable (k1_chk6 v66) := fun v66 => decidable_of_iff' _ (Iff.of_eq (k1_chk6.eq_1 v66))
theorem k1_off13_inb : ∀ (v66 : BitVec 32) (k1_hw6 : k1_chk6 v66), ∀ a, (k1_off13 v66) a + S1x8192.size a ≤ S8192x8192.size a := fun v66 k1_hw6 => k1_hw6.1
theorem k1_off15_inb : ∀ (v66 : BitVec 32) (k1_hw6 : k1_chk6 v66), ∀ a, (k1_off15 v66) a + S1x256.size a ≤ S8192x256.size a := fun v66 k1_hw6 => k1_hw6.2

def k1_off16 (i : grid1.Coords) : Fin 1 → Nat :=
  let arg0 : BitVec 32 := BitVec.ofNat 32 (i 0).val
  let c64_i32 : BitVec 32 := 64#32
  let v0 : BitVec 32 := Scalar.muli arg0 c64_i32
  let c3_i32 : BitVec 32 := 3#32
  let v91 : BitVec 32 := Scalar.addi v0 c3_i32
  let v92 : Index := Scalar.indexCast v91
  ![v92.toNat]
def k1_off17 (v93 : BitVec 32) : Fin 2 → Nat :=
  let c0_i32_46 : BitVec 32 := 0#32
  ![v93.toNat, 0]

def k1_off18 (v96 : BitVec 32) : Fin 2 → Nat :=
  let c0_i32_50 : BitVec 32 := 0#32
  ![v96.toNat, 0]

def k1_off19 (v93 : BitVec 32) : Fin 2 → Nat :=
  let v109 : Index := Scalar.indexCast v93
  let c0_51 : Index := 0#32
  ![v109.toNat, 0]

def k1_chk7 (v93 : BitVec 32) : Prop :=
  (∀ a, (k1_off17 v93) a + S1x8192.size a ≤ S8192x8192.size a) ∧
  (∀ a, (k1_off19 v93) a + S1x256.size a ≤ S8192x256.size a)
instance k1_chk7.dec : ∀ (v93 : BitVec 32), Decidable (k1_chk7 v93) := fun v93 => decidable_of_iff' _ (Iff.of_eq (k1_chk7.eq_1 v93))
theorem k1_off17_inb : ∀ (v93 : BitVec 32) (k1_hw7 : k1_chk7 v93), ∀ a, (k1_off17 v93) a + S1x8192.size a ≤ S8192x8192.size a := fun v93 k1_hw7 => k1_hw7.1
theorem k1_off19_inb : ∀ (v93 : BitVec 32) (k1_hw7 : k1_chk7 v93), ∀ a, (k1_off19 v93) a + S1x256.size a ≤ S8192x256.size a := fun v93 k1_hw7 => k1_hw7.2

def k1_off20 (v96 : BitVec 32) : Fin 2 → Nat :=
  let v115 : Index := Scalar.indexCast v96
  let c0_53 : Index := 0#32
  ![v115.toNat, 0]

def k1_chk8 (v96 : BitVec 32) : Prop :=
  (∀ a, (k1_off18 v96) a + S1x8192.size a ≤ S8192x8192.size a) ∧
  (∀ a, (k1_off20 v96) a + S1x256.size a ≤ S8192x256.size a)
instance k1_chk8.dec : ∀ (v96 : BitVec 32), Decidable (k1_chk8 v96) := fun v96 => decidable_of_iff' _ (Iff.of_eq (k1_chk8.eq_1 v96))
theorem k1_off18_inb : ∀ (v96 : BitVec 32) (k1_hw8 : k1_chk8 v96), ∀ a, (k1_off18 v96) a + S1x8192.size a ≤ S8192x8192.size a := fun v96 k1_hw8 => k1_hw8.1
theorem k1_off20_inb : ∀ (v96 : BitVec 32) (k1_hw8 : k1_chk8 v96), ∀ a, (k1_off20 v96) a + S1x256.size a ≤ S8192x256.size a := fun v96 k1_hw8 => k1_hw8.2

def k1_off21 (i : grid1.Coords) : Fin 1 → Nat :=
  let arg0 : BitVec 32 := BitVec.ofNat 32 (i 0).val
  let c64_i32 : BitVec 32 := 64#32
  let v0 : BitVec 32 := Scalar.muli arg0 c64_i32
  let c4_i32 : BitVec 32 := 4#32
  let v121 : BitVec 32 := Scalar.addi v0 c4_i32
  let v122 : Index := Scalar.indexCast v121
  ![v122.toNat]
def k1_off22 (v123 : BitVec 32) : Fin 2 → Nat :=
  let c0_i32_60 : BitVec 32 := 0#32
  ![v123.toNat, 0]

def k1_off23 (v126 : BitVec 32) : Fin 2 → Nat :=
  let c0_i32_64 : BitVec 32 := 0#32
  ![v126.toNat, 0]

def k1_off24 (v123 : BitVec 32) : Fin 2 → Nat :=
  let v139 : Index := Scalar.indexCast v123
  let c0_65 : Index := 0#32
  ![v139.toNat, 0]

def k1_chk9 (v123 : BitVec 32) : Prop :=
  (∀ a, (k1_off22 v123) a + S1x8192.size a ≤ S8192x8192.size a) ∧
  (∀ a, (k1_off24 v123) a + S1x256.size a ≤ S8192x256.size a)
instance k1_chk9.dec : ∀ (v123 : BitVec 32), Decidable (k1_chk9 v123) := fun v123 => decidable_of_iff' _ (Iff.of_eq (k1_chk9.eq_1 v123))
theorem k1_off22_inb : ∀ (v123 : BitVec 32) (k1_hw9 : k1_chk9 v123), ∀ a, (k1_off22 v123) a + S1x8192.size a ≤ S8192x8192.size a := fun v123 k1_hw9 => k1_hw9.1
theorem k1_off24_inb : ∀ (v123 : BitVec 32) (k1_hw9 : k1_chk9 v123), ∀ a, (k1_off24 v123) a + S1x256.size a ≤ S8192x256.size a := fun v123 k1_hw9 => k1_hw9.2

def k1_off25 (v126 : BitVec 32) : Fin 2 → Nat :=
  let v145 : Index := Scalar.indexCast v126
  let c0_67 : Index := 0#32
  ![v145.toNat, 0]

def k1_chk10 (v126 : BitVec 32) : Prop :=
  (∀ a, (k1_off23 v126) a + S1x8192.size a ≤ S8192x8192.size a) ∧
  (∀ a, (k1_off25 v126) a + S1x256.size a ≤ S8192x256.size a)
instance k1_chk10.dec : ∀ (v126 : BitVec 32), Decidable (k1_chk10 v126) := fun v126 => decidable_of_iff' _ (Iff.of_eq (k1_chk10.eq_1 v126))
theorem k1_off23_inb : ∀ (v126 : BitVec 32) (k1_hw10 : k1_chk10 v126), ∀ a, (k1_off23 v126) a + S1x8192.size a ≤ S8192x8192.size a := fun v126 k1_hw10 => k1_hw10.1
theorem k1_off25_inb : ∀ (v126 : BitVec 32) (k1_hw10 : k1_chk10 v126), ∀ a, (k1_off25 v126) a + S1x256.size a ≤ S8192x256.size a := fun v126 k1_hw10 => k1_hw10.2

def k1_off26 (i : grid1.Coords) : Fin 1 → Nat :=
  let arg0 : BitVec 32 := BitVec.ofNat 32 (i 0).val
  let c64_i32 : BitVec 32 := 64#32
  let v0 : BitVec 32 := Scalar.muli arg0 c64_i32
  let c5_i32 : BitVec 32 := 5#32
  let v151 : BitVec 32 := Scalar.addi v0 c5_i32
  let v152 : Index := Scalar.indexCast v151
  ![v152.toNat]
def k1_off27 (v153 : BitVec 32) : Fin 2 → Nat :=
  let c0_i32_74 : BitVec 32 := 0#32
  ![v153.toNat, 0]

def k1_off28 (v156 : BitVec 32) : Fin 2 → Nat :=
  let c0_i32_78 : BitVec 32 := 0#32
  ![v156.toNat, 0]

def k1_off29 (v153 : BitVec 32) : Fin 2 → Nat :=
  let v169 : Index := Scalar.indexCast v153
  let c0_79 : Index := 0#32
  ![v169.toNat, 0]

def k1_chk11 (v153 : BitVec 32) : Prop :=
  (∀ a, (k1_off27 v153) a + S1x8192.size a ≤ S8192x8192.size a) ∧
  (∀ a, (k1_off29 v153) a + S1x256.size a ≤ S8192x256.size a)
instance k1_chk11.dec : ∀ (v153 : BitVec 32), Decidable (k1_chk11 v153) := fun v153 => decidable_of_iff' _ (Iff.of_eq (k1_chk11.eq_1 v153))
theorem k1_off27_inb : ∀ (v153 : BitVec 32) (k1_hw11 : k1_chk11 v153), ∀ a, (k1_off27 v153) a + S1x8192.size a ≤ S8192x8192.size a := fun v153 k1_hw11 => k1_hw11.1
theorem k1_off29_inb : ∀ (v153 : BitVec 32) (k1_hw11 : k1_chk11 v153), ∀ a, (k1_off29 v153) a + S1x256.size a ≤ S8192x256.size a := fun v153 k1_hw11 => k1_hw11.2

def k1_off30 (v156 : BitVec 32) : Fin 2 → Nat :=
  let v175 : Index := Scalar.indexCast v156
  let c0_81 : Index := 0#32
  ![v175.toNat, 0]

def k1_chk12 (v156 : BitVec 32) : Prop :=
  (∀ a, (k1_off28 v156) a + S1x8192.size a ≤ S8192x8192.size a) ∧
  (∀ a, (k1_off30 v156) a + S1x256.size a ≤ S8192x256.size a)
instance k1_chk12.dec : ∀ (v156 : BitVec 32), Decidable (k1_chk12 v156) := fun v156 => decidable_of_iff' _ (Iff.of_eq (k1_chk12.eq_1 v156))
theorem k1_off28_inb : ∀ (v156 : BitVec 32) (k1_hw12 : k1_chk12 v156), ∀ a, (k1_off28 v156) a + S1x8192.size a ≤ S8192x8192.size a := fun v156 k1_hw12 => k1_hw12.1
theorem k1_off30_inb : ∀ (v156 : BitVec 32) (k1_hw12 : k1_chk12 v156), ∀ a, (k1_off30 v156) a + S1x256.size a ≤ S8192x256.size a := fun v156 k1_hw12 => k1_hw12.2

def k1_off31 (i : grid1.Coords) : Fin 1 → Nat :=
  let arg0 : BitVec 32 := BitVec.ofNat 32 (i 0).val
  let c64_i32 : BitVec 32 := 64#32
  let v0 : BitVec 32 := Scalar.muli arg0 c64_i32
  let c6_i32 : BitVec 32 := 6#32
  let v181 : BitVec 32 := Scalar.addi v0 c6_i32
  let v182 : Index := Scalar.indexCast v181
  ![v182.toNat]
def k1_off32 (v183 : BitVec 32) : Fin 2 → Nat :=
  let c0_i32_88 : BitVec 32 := 0#32
  ![v183.toNat, 0]

def k1_off33 (v186 : BitVec 32) : Fin 2 → Nat :=
  let c0_i32_92 : BitVec 32 := 0#32
  ![v186.toNat, 0]

def k1_off34 (v183 : BitVec 32) : Fin 2 → Nat :=
  let v199 : Index := Scalar.indexCast v183
  let c0_93 : Index := 0#32
  ![v199.toNat, 0]

def k1_chk13 (v183 : BitVec 32) : Prop :=
  (∀ a, (k1_off32 v183) a + S1x8192.size a ≤ S8192x8192.size a) ∧
  (∀ a, (k1_off34 v183) a + S1x256.size a ≤ S8192x256.size a)
instance k1_chk13.dec : ∀ (v183 : BitVec 32), Decidable (k1_chk13 v183) := fun v183 => decidable_of_iff' _ (Iff.of_eq (k1_chk13.eq_1 v183))
theorem k1_off32_inb : ∀ (v183 : BitVec 32) (k1_hw13 : k1_chk13 v183), ∀ a, (k1_off32 v183) a + S1x8192.size a ≤ S8192x8192.size a := fun v183 k1_hw13 => k1_hw13.1
theorem k1_off34_inb : ∀ (v183 : BitVec 32) (k1_hw13 : k1_chk13 v183), ∀ a, (k1_off34 v183) a + S1x256.size a ≤ S8192x256.size a := fun v183 k1_hw13 => k1_hw13.2

def k1_off35 (v186 : BitVec 32) : Fin 2 → Nat :=
  let v205 : Index := Scalar.indexCast v186
  let c0_95 : Index := 0#32
  ![v205.toNat, 0]

def k1_chk14 (v186 : BitVec 32) : Prop :=
  (∀ a, (k1_off33 v186) a + S1x8192.size a ≤ S8192x8192.size a) ∧
  (∀ a, (k1_off35 v186) a + S1x256.size a ≤ S8192x256.size a)
instance k1_chk14.dec : ∀ (v186 : BitVec 32), Decidable (k1_chk14 v186) := fun v186 => decidable_of_iff' _ (Iff.of_eq (k1_chk14.eq_1 v186))
theorem k1_off33_inb : ∀ (v186 : BitVec 32) (k1_hw14 : k1_chk14 v186), ∀ a, (k1_off33 v186) a + S1x8192.size a ≤ S8192x8192.size a := fun v186 k1_hw14 => k1_hw14.1
theorem k1_off35_inb : ∀ (v186 : BitVec 32) (k1_hw14 : k1_chk14 v186), ∀ a, (k1_off35 v186) a + S1x256.size a ≤ S8192x256.size a := fun v186 k1_hw14 => k1_hw14.2

def k1_off36 (i : grid1.Coords) : Fin 1 → Nat :=
  let arg0 : BitVec 32 := BitVec.ofNat 32 (i 0).val
  let c64_i32 : BitVec 32 := 64#32
  let v0 : BitVec 32 := Scalar.muli arg0 c64_i32
  let c7_i32 : BitVec 32 := 7#32
  let v211 : BitVec 32 := Scalar.addi v0 c7_i32
  let v212 : Index := Scalar.indexCast v211
  ![v212.toNat]
def k1_off37 (v213 : BitVec 32) : Fin 2 → Nat :=
  let c0_i32_102 : BitVec 32 := 0#32
  ![v213.toNat, 0]

def k1_off38 (v216 : BitVec 32) : Fin 2 → Nat :=
  let c0_i32_106 : BitVec 32 := 0#32
  ![v216.toNat, 0]

def k1_off39 (v213 : BitVec 32) : Fin 2 → Nat :=
  let v229 : Index := Scalar.indexCast v213
  let c0_107 : Index := 0#32
  ![v229.toNat, 0]

def k1_chk15 (v213 : BitVec 32) : Prop :=
  (∀ a, (k1_off37 v213) a + S1x8192.size a ≤ S8192x8192.size a) ∧
  (∀ a, (k1_off39 v213) a + S1x256.size a ≤ S8192x256.size a)
instance k1_chk15.dec : ∀ (v213 : BitVec 32), Decidable (k1_chk15 v213) := fun v213 => decidable_of_iff' _ (Iff.of_eq (k1_chk15.eq_1 v213))
theorem k1_off37_inb : ∀ (v213 : BitVec 32) (k1_hw15 : k1_chk15 v213), ∀ a, (k1_off37 v213) a + S1x8192.size a ≤ S8192x8192.size a := fun v213 k1_hw15 => k1_hw15.1
theorem k1_off39_inb : ∀ (v213 : BitVec 32) (k1_hw15 : k1_chk15 v213), ∀ a, (k1_off39 v213) a + S1x256.size a ≤ S8192x256.size a := fun v213 k1_hw15 => k1_hw15.2

def k1_off40 (v216 : BitVec 32) : Fin 2 → Nat :=
  let v235 : Index := Scalar.indexCast v216
  let c0_109 : Index := 0#32
  ![v235.toNat, 0]

def k1_chk16 (v216 : BitVec 32) : Prop :=
  (∀ a, (k1_off38 v216) a + S1x8192.size a ≤ S8192x8192.size a) ∧
  (∀ a, (k1_off40 v216) a + S1x256.size a ≤ S8192x256.size a)
instance k1_chk16.dec : ∀ (v216 : BitVec 32), Decidable (k1_chk16 v216) := fun v216 => decidable_of_iff' _ (Iff.of_eq (k1_chk16.eq_1 v216))
theorem k1_off38_inb : ∀ (v216 : BitVec 32) (k1_hw16 : k1_chk16 v216), ∀ a, (k1_off38 v216) a + S1x8192.size a ≤ S8192x8192.size a := fun v216 k1_hw16 => k1_hw16.1
theorem k1_off40_inb : ∀ (v216 : BitVec 32) (k1_hw16 : k1_chk16 v216), ∀ a, (k1_off40 v216) a + S1x256.size a ≤ S8192x256.size a := fun v216 k1_hw16 => k1_hw16.2

def k1_off41 (i : grid1.Coords) : Fin 1 → Nat :=
  let arg0 : BitVec 32 := BitVec.ofNat 32 (i 0).val
  let c64_i32 : BitVec 32 := 64#32
  let v0 : BitVec 32 := Scalar.muli arg0 c64_i32
  let c8_i32 : BitVec 32 := 8#32
  let v241 : BitVec 32 := Scalar.addi v0 c8_i32
  let v242 : Index := Scalar.indexCast v241
  ![v242.toNat]
def k1_off42 (v243 : BitVec 32) : Fin 2 → Nat :=
  let c0_i32_116 : BitVec 32 := 0#32
  ![v243.toNat, 0]

def k1_off43 (v246 : BitVec 32) : Fin 2 → Nat :=
  let c0_i32_120 : BitVec 32 := 0#32
  ![v246.toNat, 0]

def k1_off44 (v243 : BitVec 32) : Fin 2 → Nat :=
  let v259 : Index := Scalar.indexCast v243
  let c0_121 : Index := 0#32
  ![v259.toNat, 0]

def k1_chk17 (v243 : BitVec 32) : Prop :=
  (∀ a, (k1_off42 v243) a + S1x8192.size a ≤ S8192x8192.size a) ∧
  (∀ a, (k1_off44 v243) a + S1x256.size a ≤ S8192x256.size a)
instance k1_chk17.dec : ∀ (v243 : BitVec 32), Decidable (k1_chk17 v243) := fun v243 => decidable_of_iff' _ (Iff.of_eq (k1_chk17.eq_1 v243))
theorem k1_off42_inb : ∀ (v243 : BitVec 32) (k1_hw17 : k1_chk17 v243), ∀ a, (k1_off42 v243) a + S1x8192.size a ≤ S8192x8192.size a := fun v243 k1_hw17 => k1_hw17.1
theorem k1_off44_inb : ∀ (v243 : BitVec 32) (k1_hw17 : k1_chk17 v243), ∀ a, (k1_off44 v243) a + S1x256.size a ≤ S8192x256.size a := fun v243 k1_hw17 => k1_hw17.2

def k1_off45 (v246 : BitVec 32) : Fin 2 → Nat :=
  let v265 : Index := Scalar.indexCast v246
  let c0_123 : Index := 0#32
  ![v265.toNat, 0]

def k1_chk18 (v246 : BitVec 32) : Prop :=
  (∀ a, (k1_off43 v246) a + S1x8192.size a ≤ S8192x8192.size a) ∧
  (∀ a, (k1_off45 v246) a + S1x256.size a ≤ S8192x256.size a)
instance k1_chk18.dec : ∀ (v246 : BitVec 32), Decidable (k1_chk18 v246) := fun v246 => decidable_of_iff' _ (Iff.of_eq (k1_chk18.eq_1 v246))
theorem k1_off43_inb : ∀ (v246 : BitVec 32) (k1_hw18 : k1_chk18 v246), ∀ a, (k1_off43 v246) a + S1x8192.size a ≤ S8192x8192.size a := fun v246 k1_hw18 => k1_hw18.1
theorem k1_off45_inb : ∀ (v246 : BitVec 32) (k1_hw18 : k1_chk18 v246), ∀ a, (k1_off45 v246) a + S1x256.size a ≤ S8192x256.size a := fun v246 k1_hw18 => k1_hw18.2

def k1_off46 (i : grid1.Coords) : Fin 1 → Nat :=
  let arg0 : BitVec 32 := BitVec.ofNat 32 (i 0).val
  let c64_i32 : BitVec 32 := 64#32
  let v0 : BitVec 32 := Scalar.muli arg0 c64_i32
  let c9_i32 : BitVec 32 := 9#32
  let v271 : BitVec 32 := Scalar.addi v0 c9_i32
  let v272 : Index := Scalar.indexCast v271
  ![v272.toNat]
def k1_off47 (v273 : BitVec 32) : Fin 2 → Nat :=
  let c0_i32_130 : BitVec 32 := 0#32
  ![v273.toNat, 0]

def k1_off48 (v276 : BitVec 32) : Fin 2 → Nat :=
  let c0_i32_134 : BitVec 32 := 0#32
  ![v276.toNat, 0]

def k1_off49 (v273 : BitVec 32) : Fin 2 → Nat :=
  let v289 : Index := Scalar.indexCast v273
  let c0_135 : Index := 0#32
  ![v289.toNat, 0]

def k1_chk19 (v273 : BitVec 32) : Prop :=
  (∀ a, (k1_off47 v273) a + S1x8192.size a ≤ S8192x8192.size a) ∧
  (∀ a, (k1_off49 v273) a + S1x256.size a ≤ S8192x256.size a)
instance k1_chk19.dec : ∀ (v273 : BitVec 32), Decidable (k1_chk19 v273) := fun v273 => decidable_of_iff' _ (Iff.of_eq (k1_chk19.eq_1 v273))
theorem k1_off47_inb : ∀ (v273 : BitVec 32) (k1_hw19 : k1_chk19 v273), ∀ a, (k1_off47 v273) a + S1x8192.size a ≤ S8192x8192.size a := fun v273 k1_hw19 => k1_hw19.1
theorem k1_off49_inb : ∀ (v273 : BitVec 32) (k1_hw19 : k1_chk19 v273), ∀ a, (k1_off49 v273) a + S1x256.size a ≤ S8192x256.size a := fun v273 k1_hw19 => k1_hw19.2

def k1_off50 (v276 : BitVec 32) : Fin 2 → Nat :=
  let v295 : Index := Scalar.indexCast v276
  let c0_137 : Index := 0#32
  ![v295.toNat, 0]

def k1_chk20 (v276 : BitVec 32) : Prop :=
  (∀ a, (k1_off48 v276) a + S1x8192.size a ≤ S8192x8192.size a) ∧
  (∀ a, (k1_off50 v276) a + S1x256.size a ≤ S8192x256.size a)
instance k1_chk20.dec : ∀ (v276 : BitVec 32), Decidable (k1_chk20 v276) := fun v276 => decidable_of_iff' _ (Iff.of_eq (k1_chk20.eq_1 v276))
theorem k1_off48_inb : ∀ (v276 : BitVec 32) (k1_hw20 : k1_chk20 v276), ∀ a, (k1_off48 v276) a + S1x8192.size a ≤ S8192x8192.size a := fun v276 k1_hw20 => k1_hw20.1
theorem k1_off50_inb : ∀ (v276 : BitVec 32) (k1_hw20 : k1_chk20 v276), ∀ a, (k1_off50 v276) a + S1x256.size a ≤ S8192x256.size a := fun v276 k1_hw20 => k1_hw20.2

def k1_off51 (i : grid1.Coords) : Fin 1 → Nat :=
  let arg0 : BitVec 32 := BitVec.ofNat 32 (i 0).val
  let c64_i32 : BitVec 32 := 64#32
  let v0 : BitVec 32 := Scalar.muli arg0 c64_i32
  let c10_i32 : BitVec 32 := 10#32
  let v301 : BitVec 32 := Scalar.addi v0 c10_i32
  let v302 : Index := Scalar.indexCast v301
  ![v302.toNat]
def k1_off52 (v303 : BitVec 32) : Fin 2 → Nat :=
  let c0_i32_144 : BitVec 32 := 0#32
  ![v303.toNat, 0]

def k1_off53 (v306 : BitVec 32) : Fin 2 → Nat :=
  let c0_i32_148 : BitVec 32 := 0#32
  ![v306.toNat, 0]

def k1_off54 (v303 : BitVec 32) : Fin 2 → Nat :=
  let v319 : Index := Scalar.indexCast v303
  let c0_149 : Index := 0#32
  ![v319.toNat, 0]

def k1_chk21 (v303 : BitVec 32) : Prop :=
  (∀ a, (k1_off52 v303) a + S1x8192.size a ≤ S8192x8192.size a) ∧
  (∀ a, (k1_off54 v303) a + S1x256.size a ≤ S8192x256.size a)
instance k1_chk21.dec : ∀ (v303 : BitVec 32), Decidable (k1_chk21 v303) := fun v303 => decidable_of_iff' _ (Iff.of_eq (k1_chk21.eq_1 v303))
theorem k1_off52_inb : ∀ (v303 : BitVec 32) (k1_hw21 : k1_chk21 v303), ∀ a, (k1_off52 v303) a + S1x8192.size a ≤ S8192x8192.size a := fun v303 k1_hw21 => k1_hw21.1
theorem k1_off54_inb : ∀ (v303 : BitVec 32) (k1_hw21 : k1_chk21 v303), ∀ a, (k1_off54 v303) a + S1x256.size a ≤ S8192x256.size a := fun v303 k1_hw21 => k1_hw21.2

def k1_off55 (v306 : BitVec 32) : Fin 2 → Nat :=
  let v325 : Index := Scalar.indexCast v306
  let c0_151 : Index := 0#32
  ![v325.toNat, 0]

def k1_chk22 (v306 : BitVec 32) : Prop :=
  (∀ a, (k1_off53 v306) a + S1x8192.size a ≤ S8192x8192.size a) ∧
  (∀ a, (k1_off55 v306) a + S1x256.size a ≤ S8192x256.size a)
instance k1_chk22.dec : ∀ (v306 : BitVec 32), Decidable (k1_chk22 v306) := fun v306 => decidable_of_iff' _ (Iff.of_eq (k1_chk22.eq_1 v306))
theorem k1_off53_inb : ∀ (v306 : BitVec 32) (k1_hw22 : k1_chk22 v306), ∀ a, (k1_off53 v306) a + S1x8192.size a ≤ S8192x8192.size a := fun v306 k1_hw22 => k1_hw22.1
theorem k1_off55_inb : ∀ (v306 : BitVec 32) (k1_hw22 : k1_chk22 v306), ∀ a, (k1_off55 v306) a + S1x256.size a ≤ S8192x256.size a := fun v306 k1_hw22 => k1_hw22.2

def k1_off56 (i : grid1.Coords) : Fin 1 → Nat :=
  let arg0 : BitVec 32 := BitVec.ofNat 32 (i 0).val
  let c64_i32 : BitVec 32 := 64#32
  let v0 : BitVec 32 := Scalar.muli arg0 c64_i32
  let c11_i32 : BitVec 32 := 11#32
  let v331 : BitVec 32 := Scalar.addi v0 c11_i32
  let v332 : Index := Scalar.indexCast v331
  ![v332.toNat]
def k1_off57 (v333 : BitVec 32) : Fin 2 → Nat :=
  let c0_i32_158 : BitVec 32 := 0#32
  ![v333.toNat, 0]

def k1_off58 (v336 : BitVec 32) : Fin 2 → Nat :=
  let c0_i32_162 : BitVec 32 := 0#32
  ![v336.toNat, 0]

def k1_off59 (v333 : BitVec 32) : Fin 2 → Nat :=
  let v349 : Index := Scalar.indexCast v333
  let c0_163 : Index := 0#32
  ![v349.toNat, 0]

def k1_chk23 (v333 : BitVec 32) : Prop :=
  (∀ a, (k1_off57 v333) a + S1x8192.size a ≤ S8192x8192.size a) ∧
  (∀ a, (k1_off59 v333) a + S1x256.size a ≤ S8192x256.size a)
instance k1_chk23.dec : ∀ (v333 : BitVec 32), Decidable (k1_chk23 v333) := fun v333 => decidable_of_iff' _ (Iff.of_eq (k1_chk23.eq_1 v333))
theorem k1_off57_inb : ∀ (v333 : BitVec 32) (k1_hw23 : k1_chk23 v333), ∀ a, (k1_off57 v333) a + S1x8192.size a ≤ S8192x8192.size a := fun v333 k1_hw23 => k1_hw23.1
theorem k1_off59_inb : ∀ (v333 : BitVec 32) (k1_hw23 : k1_chk23 v333), ∀ a, (k1_off59 v333) a + S1x256.size a ≤ S8192x256.size a := fun v333 k1_hw23 => k1_hw23.2

def k1_off60 (v336 : BitVec 32) : Fin 2 → Nat :=
  let v355 : Index := Scalar.indexCast v336
  let c0_165 : Index := 0#32
  ![v355.toNat, 0]

def k1_chk24 (v336 : BitVec 32) : Prop :=
  (∀ a, (k1_off58 v336) a + S1x8192.size a ≤ S8192x8192.size a) ∧
  (∀ a, (k1_off60 v336) a + S1x256.size a ≤ S8192x256.size a)
instance k1_chk24.dec : ∀ (v336 : BitVec 32), Decidable (k1_chk24 v336) := fun v336 => decidable_of_iff' _ (Iff.of_eq (k1_chk24.eq_1 v336))
theorem k1_off58_inb : ∀ (v336 : BitVec 32) (k1_hw24 : k1_chk24 v336), ∀ a, (k1_off58 v336) a + S1x8192.size a ≤ S8192x8192.size a := fun v336 k1_hw24 => k1_hw24.1
theorem k1_off60_inb : ∀ (v336 : BitVec 32) (k1_hw24 : k1_chk24 v336), ∀ a, (k1_off60 v336) a + S1x256.size a ≤ S8192x256.size a := fun v336 k1_hw24 => k1_hw24.2

def k1_off61 (i : grid1.Coords) : Fin 1 → Nat :=
  let arg0 : BitVec 32 := BitVec.ofNat 32 (i 0).val
  let c64_i32 : BitVec 32 := 64#32
  let v0 : BitVec 32 := Scalar.muli arg0 c64_i32
  let c12_i32 : BitVec 32 := 12#32
  let v361 : BitVec 32 := Scalar.addi v0 c12_i32
  let v362 : Index := Scalar.indexCast v361
  ![v362.toNat]
def k1_off62 (v363 : BitVec 32) : Fin 2 → Nat :=
  let c0_i32_172 : BitVec 32 := 0#32
  ![v363.toNat, 0]

def k1_off63 (v366 : BitVec 32) : Fin 2 → Nat :=
  let c0_i32_176 : BitVec 32 := 0#32
  ![v366.toNat, 0]

def k1_off64 (v363 : BitVec 32) : Fin 2 → Nat :=
  let v379 : Index := Scalar.indexCast v363
  let c0_177 : Index := 0#32
  ![v379.toNat, 0]

def k1_chk25 (v363 : BitVec 32) : Prop :=
  (∀ a, (k1_off62 v363) a + S1x8192.size a ≤ S8192x8192.size a) ∧
  (∀ a, (k1_off64 v363) a + S1x256.size a ≤ S8192x256.size a)
instance k1_chk25.dec : ∀ (v363 : BitVec 32), Decidable (k1_chk25 v363) := fun v363 => decidable_of_iff' _ (Iff.of_eq (k1_chk25.eq_1 v363))
theorem k1_off62_inb : ∀ (v363 : BitVec 32) (k1_hw25 : k1_chk25 v363), ∀ a, (k1_off62 v363) a + S1x8192.size a ≤ S8192x8192.size a := fun v363 k1_hw25 => k1_hw25.1
theorem k1_off64_inb : ∀ (v363 : BitVec 32) (k1_hw25 : k1_chk25 v363), ∀ a, (k1_off64 v363) a + S1x256.size a ≤ S8192x256.size a := fun v363 k1_hw25 => k1_hw25.2

def k1_off65 (v366 : BitVec 32) : Fin 2 → Nat :=
  let v385 : Index := Scalar.indexCast v366
  let c0_179 : Index := 0#32
  ![v385.toNat, 0]

def k1_chk26 (v366 : BitVec 32) : Prop :=
  (∀ a, (k1_off63 v366) a + S1x8192.size a ≤ S8192x8192.size a) ∧
  (∀ a, (k1_off65 v366) a + S1x256.size a ≤ S8192x256.size a)
instance k1_chk26.dec : ∀ (v366 : BitVec 32), Decidable (k1_chk26 v366) := fun v366 => decidable_of_iff' _ (Iff.of_eq (k1_chk26.eq_1 v366))
theorem k1_off63_inb : ∀ (v366 : BitVec 32) (k1_hw26 : k1_chk26 v366), ∀ a, (k1_off63 v366) a + S1x8192.size a ≤ S8192x8192.size a := fun v366 k1_hw26 => k1_hw26.1
theorem k1_off65_inb : ∀ (v366 : BitVec 32) (k1_hw26 : k1_chk26 v366), ∀ a, (k1_off65 v366) a + S1x256.size a ≤ S8192x256.size a := fun v366 k1_hw26 => k1_hw26.2

def k1_off66 (i : grid1.Coords) : Fin 1 → Nat :=
  let arg0 : BitVec 32 := BitVec.ofNat 32 (i 0).val
  let c64_i32 : BitVec 32 := 64#32
  let v0 : BitVec 32 := Scalar.muli arg0 c64_i32
  let c13_i32 : BitVec 32 := 13#32
  let v391 : BitVec 32 := Scalar.addi v0 c13_i32
  let v392 : Index := Scalar.indexCast v391
  ![v392.toNat]
def k1_off67 (v393 : BitVec 32) : Fin 2 → Nat :=
  let c0_i32_186 : BitVec 32 := 0#32
  ![v393.toNat, 0]

def k1_off68 (v396 : BitVec 32) : Fin 2 → Nat :=
  let c0_i32_190 : BitVec 32 := 0#32
  ![v396.toNat, 0]

def k1_off69 (v393 : BitVec 32) : Fin 2 → Nat :=
  let v409 : Index := Scalar.indexCast v393
  let c0_191 : Index := 0#32
  ![v409.toNat, 0]

def k1_chk27 (v393 : BitVec 32) : Prop :=
  (∀ a, (k1_off67 v393) a + S1x8192.size a ≤ S8192x8192.size a) ∧
  (∀ a, (k1_off69 v393) a + S1x256.size a ≤ S8192x256.size a)
instance k1_chk27.dec : ∀ (v393 : BitVec 32), Decidable (k1_chk27 v393) := fun v393 => decidable_of_iff' _ (Iff.of_eq (k1_chk27.eq_1 v393))
theorem k1_off67_inb : ∀ (v393 : BitVec 32) (k1_hw27 : k1_chk27 v393), ∀ a, (k1_off67 v393) a + S1x8192.size a ≤ S8192x8192.size a := fun v393 k1_hw27 => k1_hw27.1
theorem k1_off69_inb : ∀ (v393 : BitVec 32) (k1_hw27 : k1_chk27 v393), ∀ a, (k1_off69 v393) a + S1x256.size a ≤ S8192x256.size a := fun v393 k1_hw27 => k1_hw27.2

def k1_off70 (v396 : BitVec 32) : Fin 2 → Nat :=
  let v415 : Index := Scalar.indexCast v396
  let c0_193 : Index := 0#32
  ![v415.toNat, 0]

def k1_chk28 (v396 : BitVec 32) : Prop :=
  (∀ a, (k1_off68 v396) a + S1x8192.size a ≤ S8192x8192.size a) ∧
  (∀ a, (k1_off70 v396) a + S1x256.size a ≤ S8192x256.size a)
instance k1_chk28.dec : ∀ (v396 : BitVec 32), Decidable (k1_chk28 v396) := fun v396 => decidable_of_iff' _ (Iff.of_eq (k1_chk28.eq_1 v396))
theorem k1_off68_inb : ∀ (v396 : BitVec 32) (k1_hw28 : k1_chk28 v396), ∀ a, (k1_off68 v396) a + S1x8192.size a ≤ S8192x8192.size a := fun v396 k1_hw28 => k1_hw28.1
theorem k1_off70_inb : ∀ (v396 : BitVec 32) (k1_hw28 : k1_chk28 v396), ∀ a, (k1_off70 v396) a + S1x256.size a ≤ S8192x256.size a := fun v396 k1_hw28 => k1_hw28.2

def k1_off71 (i : grid1.Coords) : Fin 1 → Nat :=
  let arg0 : BitVec 32 := BitVec.ofNat 32 (i 0).val
  let c64_i32 : BitVec 32 := 64#32
  let v0 : BitVec 32 := Scalar.muli arg0 c64_i32
  let c14_i32 : BitVec 32 := 14#32
  let v421 : BitVec 32 := Scalar.addi v0 c14_i32
  let v422 : Index := Scalar.indexCast v421
  ![v422.toNat]
def k1_off72 (v423 : BitVec 32) : Fin 2 → Nat :=
  let c0_i32_200 : BitVec 32 := 0#32
  ![v423.toNat, 0]

def k1_off73 (v426 : BitVec 32) : Fin 2 → Nat :=
  let c0_i32_204 : BitVec 32 := 0#32
  ![v426.toNat, 0]

def k1_off74 (v423 : BitVec 32) : Fin 2 → Nat :=
  let v439 : Index := Scalar.indexCast v423
  let c0_205 : Index := 0#32
  ![v439.toNat, 0]

def k1_chk29 (v423 : BitVec 32) : Prop :=
  (∀ a, (k1_off72 v423) a + S1x8192.size a ≤ S8192x8192.size a) ∧
  (∀ a, (k1_off74 v423) a + S1x256.size a ≤ S8192x256.size a)
instance k1_chk29.dec : ∀ (v423 : BitVec 32), Decidable (k1_chk29 v423) := fun v423 => decidable_of_iff' _ (Iff.of_eq (k1_chk29.eq_1 v423))
theorem k1_off72_inb : ∀ (v423 : BitVec 32) (k1_hw29 : k1_chk29 v423), ∀ a, (k1_off72 v423) a + S1x8192.size a ≤ S8192x8192.size a := fun v423 k1_hw29 => k1_hw29.1
theorem k1_off74_inb : ∀ (v423 : BitVec 32) (k1_hw29 : k1_chk29 v423), ∀ a, (k1_off74 v423) a + S1x256.size a ≤ S8192x256.size a := fun v423 k1_hw29 => k1_hw29.2

def k1_off75 (v426 : BitVec 32) : Fin 2 → Nat :=
  let v445 : Index := Scalar.indexCast v426
  let c0_207 : Index := 0#32
  ![v445.toNat, 0]

def k1_chk30 (v426 : BitVec 32) : Prop :=
  (∀ a, (k1_off73 v426) a + S1x8192.size a ≤ S8192x8192.size a) ∧
  (∀ a, (k1_off75 v426) a + S1x256.size a ≤ S8192x256.size a)
instance k1_chk30.dec : ∀ (v426 : BitVec 32), Decidable (k1_chk30 v426) := fun v426 => decidable_of_iff' _ (Iff.of_eq (k1_chk30.eq_1 v426))
theorem k1_off73_inb : ∀ (v426 : BitVec 32) (k1_hw30 : k1_chk30 v426), ∀ a, (k1_off73 v426) a + S1x8192.size a ≤ S8192x8192.size a := fun v426 k1_hw30 => k1_hw30.1
theorem k1_off75_inb : ∀ (v426 : BitVec 32) (k1_hw30 : k1_chk30 v426), ∀ a, (k1_off75 v426) a + S1x256.size a ≤ S8192x256.size a := fun v426 k1_hw30 => k1_hw30.2

def k1_off76 (i : grid1.Coords) : Fin 1 → Nat :=
  let arg0 : BitVec 32 := BitVec.ofNat 32 (i 0).val
  let c64_i32 : BitVec 32 := 64#32
  let v0 : BitVec 32 := Scalar.muli arg0 c64_i32
  let c15_i32 : BitVec 32 := 15#32
  let v451 : BitVec 32 := Scalar.addi v0 c15_i32
  let v452 : Index := Scalar.indexCast v451
  ![v452.toNat]
def k1_off77 (v453 : BitVec 32) : Fin 2 → Nat :=
  let c0_i32_214 : BitVec 32 := 0#32
  ![v453.toNat, 0]

def k1_off78 (v456 : BitVec 32) : Fin 2 → Nat :=
  let c0_i32_218 : BitVec 32 := 0#32
  ![v456.toNat, 0]

def k1_off79 (v453 : BitVec 32) : Fin 2 → Nat :=
  let v469 : Index := Scalar.indexCast v453
  let c0_219 : Index := 0#32
  ![v469.toNat, 0]

def k1_chk31 (v453 : BitVec 32) : Prop :=
  (∀ a, (k1_off77 v453) a + S1x8192.size a ≤ S8192x8192.size a) ∧
  (∀ a, (k1_off79 v453) a + S1x256.size a ≤ S8192x256.size a)
instance k1_chk31.dec : ∀ (v453 : BitVec 32), Decidable (k1_chk31 v453) := fun v453 => decidable_of_iff' _ (Iff.of_eq (k1_chk31.eq_1 v453))
theorem k1_off77_inb : ∀ (v453 : BitVec 32) (k1_hw31 : k1_chk31 v453), ∀ a, (k1_off77 v453) a + S1x8192.size a ≤ S8192x8192.size a := fun v453 k1_hw31 => k1_hw31.1
theorem k1_off79_inb : ∀ (v453 : BitVec 32) (k1_hw31 : k1_chk31 v453), ∀ a, (k1_off79 v453) a + S1x256.size a ≤ S8192x256.size a := fun v453 k1_hw31 => k1_hw31.2

def k1_off80 (v456 : BitVec 32) : Fin 2 → Nat :=
  let v475 : Index := Scalar.indexCast v456
  let c0_221 : Index := 0#32
  ![v475.toNat, 0]

def k1_chk32 (v456 : BitVec 32) : Prop :=
  (∀ a, (k1_off78 v456) a + S1x8192.size a ≤ S8192x8192.size a) ∧
  (∀ a, (k1_off80 v456) a + S1x256.size a ≤ S8192x256.size a)
instance k1_chk32.dec : ∀ (v456 : BitVec 32), Decidable (k1_chk32 v456) := fun v456 => decidable_of_iff' _ (Iff.of_eq (k1_chk32.eq_1 v456))
theorem k1_off78_inb : ∀ (v456 : BitVec 32) (k1_hw32 : k1_chk32 v456), ∀ a, (k1_off78 v456) a + S1x8192.size a ≤ S8192x8192.size a := fun v456 k1_hw32 => k1_hw32.1
theorem k1_off80_inb : ∀ (v456 : BitVec 32) (k1_hw32 : k1_chk32 v456), ∀ a, (k1_off80 v456) a + S1x256.size a ≤ S8192x256.size a := fun v456 k1_hw32 => k1_hw32.2

def k1_off81 (i : grid1.Coords) : Fin 1 → Nat :=
  let arg0 : BitVec 32 := BitVec.ofNat 32 (i 0).val
  let c64_i32 : BitVec 32 := 64#32
  let v0 : BitVec 32 := Scalar.muli arg0 c64_i32
  let c16_i32 : BitVec 32 := 16#32
  let v673 : BitVec 32 := Scalar.addi v0 c16_i32
  let v674 : Index := Scalar.indexCast v673
  ![v674.toNat]
def k1_off82 (v675 : BitVec 32) : Fin 2 → Nat :=
  let c0_i32_388 : BitVec 32 := 0#32
  ![v675.toNat, 0]

def k1_off83 (v678 : BitVec 32) : Fin 2 → Nat :=
  let c0_i32_392 : BitVec 32 := 0#32
  ![v678.toNat, 0]

def k1_off84 (v675 : BitVec 32) : Fin 2 → Nat :=
  let v691 : Index := Scalar.indexCast v675
  let c0_393 : Index := 0#32
  ![v691.toNat, 0]

def k1_chk33 (v675 : BitVec 32) : Prop :=
  (∀ a, (k1_off82 v675) a + S1x8192.size a ≤ S8192x8192.size a) ∧
  (∀ a, (k1_off84 v675) a + S1x256.size a ≤ S8192x256.size a)
instance k1_chk33.dec : ∀ (v675 : BitVec 32), Decidable (k1_chk33 v675) := fun v675 => decidable_of_iff' _ (Iff.of_eq (k1_chk33.eq_1 v675))
theorem k1_off82_inb : ∀ (v675 : BitVec 32) (k1_hw33 : k1_chk33 v675), ∀ a, (k1_off82 v675) a + S1x8192.size a ≤ S8192x8192.size a := fun v675 k1_hw33 => k1_hw33.1
theorem k1_off84_inb : ∀ (v675 : BitVec 32) (k1_hw33 : k1_chk33 v675), ∀ a, (k1_off84 v675) a + S1x256.size a ≤ S8192x256.size a := fun v675 k1_hw33 => k1_hw33.2

def k1_off85 (v678 : BitVec 32) : Fin 2 → Nat :=
  let v697 : Index := Scalar.indexCast v678
  let c0_395 : Index := 0#32
  ![v697.toNat, 0]

def k1_chk34 (v678 : BitVec 32) : Prop :=
  (∀ a, (k1_off83 v678) a + S1x8192.size a ≤ S8192x8192.size a) ∧
  (∀ a, (k1_off85 v678) a + S1x256.size a ≤ S8192x256.size a)
instance k1_chk34.dec : ∀ (v678 : BitVec 32), Decidable (k1_chk34 v678) := fun v678 => decidable_of_iff' _ (Iff.of_eq (k1_chk34.eq_1 v678))
theorem k1_off83_inb : ∀ (v678 : BitVec 32) (k1_hw34 : k1_chk34 v678), ∀ a, (k1_off83 v678) a + S1x8192.size a ≤ S8192x8192.size a := fun v678 k1_hw34 => k1_hw34.1
theorem k1_off85_inb : ∀ (v678 : BitVec 32) (k1_hw34 : k1_chk34 v678), ∀ a, (k1_off85 v678) a + S1x256.size a ≤ S8192x256.size a := fun v678 k1_hw34 => k1_hw34.2

def k1_off86 (i : grid1.Coords) : Fin 1 → Nat :=
  let arg0 : BitVec 32 := BitVec.ofNat 32 (i 0).val
  let c64_i32 : BitVec 32 := 64#32
  let v0 : BitVec 32 := Scalar.muli arg0 c64_i32
  let c17_i32 : BitVec 32 := 17#32
  let v703 : BitVec 32 := Scalar.addi v0 c17_i32
  let v704 : Index := Scalar.indexCast v703
  ![v704.toNat]
def k1_off87 (v705 : BitVec 32) : Fin 2 → Nat :=
  let c0_i32_402 : BitVec 32 := 0#32
  ![v705.toNat, 0]

def k1_off88 (v708 : BitVec 32) : Fin 2 → Nat :=
  let c0_i32_406 : BitVec 32 := 0#32
  ![v708.toNat, 0]

def k1_off89 (v705 : BitVec 32) : Fin 2 → Nat :=
  let v721 : Index := Scalar.indexCast v705
  let c0_407 : Index := 0#32
  ![v721.toNat, 0]

def k1_chk35 (v705 : BitVec 32) : Prop :=
  (∀ a, (k1_off87 v705) a + S1x8192.size a ≤ S8192x8192.size a) ∧
  (∀ a, (k1_off89 v705) a + S1x256.size a ≤ S8192x256.size a)
instance k1_chk35.dec : ∀ (v705 : BitVec 32), Decidable (k1_chk35 v705) := fun v705 => decidable_of_iff' _ (Iff.of_eq (k1_chk35.eq_1 v705))
theorem k1_off87_inb : ∀ (v705 : BitVec 32) (k1_hw35 : k1_chk35 v705), ∀ a, (k1_off87 v705) a + S1x8192.size a ≤ S8192x8192.size a := fun v705 k1_hw35 => k1_hw35.1
theorem k1_off89_inb : ∀ (v705 : BitVec 32) (k1_hw35 : k1_chk35 v705), ∀ a, (k1_off89 v705) a + S1x256.size a ≤ S8192x256.size a := fun v705 k1_hw35 => k1_hw35.2

def k1_off90 (v708 : BitVec 32) : Fin 2 → Nat :=
  let v727 : Index := Scalar.indexCast v708
  let c0_409 : Index := 0#32
  ![v727.toNat, 0]

def k1_chk36 (v708 : BitVec 32) : Prop :=
  (∀ a, (k1_off88 v708) a + S1x8192.size a ≤ S8192x8192.size a) ∧
  (∀ a, (k1_off90 v708) a + S1x256.size a ≤ S8192x256.size a)
instance k1_chk36.dec : ∀ (v708 : BitVec 32), Decidable (k1_chk36 v708) := fun v708 => decidable_of_iff' _ (Iff.of_eq (k1_chk36.eq_1 v708))
theorem k1_off88_inb : ∀ (v708 : BitVec 32) (k1_hw36 : k1_chk36 v708), ∀ a, (k1_off88 v708) a + S1x8192.size a ≤ S8192x8192.size a := fun v708 k1_hw36 => k1_hw36.1
theorem k1_off90_inb : ∀ (v708 : BitVec 32) (k1_hw36 : k1_chk36 v708), ∀ a, (k1_off90 v708) a + S1x256.size a ≤ S8192x256.size a := fun v708 k1_hw36 => k1_hw36.2

def k1_off91 (i : grid1.Coords) : Fin 1 → Nat :=
  let arg0 : BitVec 32 := BitVec.ofNat 32 (i 0).val
  let c64_i32 : BitVec 32 := 64#32
  let v0 : BitVec 32 := Scalar.muli arg0 c64_i32
  let c18_i32 : BitVec 32 := 18#32
  let v733 : BitVec 32 := Scalar.addi v0 c18_i32
  let v734 : Index := Scalar.indexCast v733
  ![v734.toNat]
def k1_off92 (v735 : BitVec 32) : Fin 2 → Nat :=
  let c0_i32_416 : BitVec 32 := 0#32
  ![v735.toNat, 0]

def k1_off93 (v738 : BitVec 32) : Fin 2 → Nat :=
  let c0_i32_420 : BitVec 32 := 0#32
  ![v738.toNat, 0]

def k1_off94 (v735 : BitVec 32) : Fin 2 → Nat :=
  let v751 : Index := Scalar.indexCast v735
  let c0_421 : Index := 0#32
  ![v751.toNat, 0]

def k1_chk37 (v735 : BitVec 32) : Prop :=
  (∀ a, (k1_off92 v735) a + S1x8192.size a ≤ S8192x8192.size a) ∧
  (∀ a, (k1_off94 v735) a + S1x256.size a ≤ S8192x256.size a)
instance k1_chk37.dec : ∀ (v735 : BitVec 32), Decidable (k1_chk37 v735) := fun v735 => decidable_of_iff' _ (Iff.of_eq (k1_chk37.eq_1 v735))
theorem k1_off92_inb : ∀ (v735 : BitVec 32) (k1_hw37 : k1_chk37 v735), ∀ a, (k1_off92 v735) a + S1x8192.size a ≤ S8192x8192.size a := fun v735 k1_hw37 => k1_hw37.1
theorem k1_off94_inb : ∀ (v735 : BitVec 32) (k1_hw37 : k1_chk37 v735), ∀ a, (k1_off94 v735) a + S1x256.size a ≤ S8192x256.size a := fun v735 k1_hw37 => k1_hw37.2

def k1_off95 (v738 : BitVec 32) : Fin 2 → Nat :=
  let v757 : Index := Scalar.indexCast v738
  let c0_423 : Index := 0#32
  ![v757.toNat, 0]

def k1_chk38 (v738 : BitVec 32) : Prop :=
  (∀ a, (k1_off93 v738) a + S1x8192.size a ≤ S8192x8192.size a) ∧
  (∀ a, (k1_off95 v738) a + S1x256.size a ≤ S8192x256.size a)
instance k1_chk38.dec : ∀ (v738 : BitVec 32), Decidable (k1_chk38 v738) := fun v738 => decidable_of_iff' _ (Iff.of_eq (k1_chk38.eq_1 v738))
theorem k1_off93_inb : ∀ (v738 : BitVec 32) (k1_hw38 : k1_chk38 v738), ∀ a, (k1_off93 v738) a + S1x8192.size a ≤ S8192x8192.size a := fun v738 k1_hw38 => k1_hw38.1
theorem k1_off95_inb : ∀ (v738 : BitVec 32) (k1_hw38 : k1_chk38 v738), ∀ a, (k1_off95 v738) a + S1x256.size a ≤ S8192x256.size a := fun v738 k1_hw38 => k1_hw38.2

def k1_off96 (i : grid1.Coords) : Fin 1 → Nat :=
  let arg0 : BitVec 32 := BitVec.ofNat 32 (i 0).val
  let c64_i32 : BitVec 32 := 64#32
  let v0 : BitVec 32 := Scalar.muli arg0 c64_i32
  let c19_i32 : BitVec 32 := 19#32
  let v763 : BitVec 32 := Scalar.addi v0 c19_i32
  let v764 : Index := Scalar.indexCast v763
  ![v764.toNat]
def k1_off97 (v765 : BitVec 32) : Fin 2 → Nat :=
  let c0_i32_430 : BitVec 32 := 0#32
  ![v765.toNat, 0]

def k1_off98 (v768 : BitVec 32) : Fin 2 → Nat :=
  let c0_i32_434 : BitVec 32 := 0#32
  ![v768.toNat, 0]

def k1_off99 (v765 : BitVec 32) : Fin 2 → Nat :=
  let v781 : Index := Scalar.indexCast v765
  let c0_435 : Index := 0#32
  ![v781.toNat, 0]

def k1_chk39 (v765 : BitVec 32) : Prop :=
  (∀ a, (k1_off97 v765) a + S1x8192.size a ≤ S8192x8192.size a) ∧
  (∀ a, (k1_off99 v765) a + S1x256.size a ≤ S8192x256.size a)
instance k1_chk39.dec : ∀ (v765 : BitVec 32), Decidable (k1_chk39 v765) := fun v765 => decidable_of_iff' _ (Iff.of_eq (k1_chk39.eq_1 v765))
theorem k1_off97_inb : ∀ (v765 : BitVec 32) (k1_hw39 : k1_chk39 v765), ∀ a, (k1_off97 v765) a + S1x8192.size a ≤ S8192x8192.size a := fun v765 k1_hw39 => k1_hw39.1
theorem k1_off99_inb : ∀ (v765 : BitVec 32) (k1_hw39 : k1_chk39 v765), ∀ a, (k1_off99 v765) a + S1x256.size a ≤ S8192x256.size a := fun v765 k1_hw39 => k1_hw39.2

def k1_off100 (v768 : BitVec 32) : Fin 2 → Nat :=
  let v787 : Index := Scalar.indexCast v768
  let c0_437 : Index := 0#32
  ![v787.toNat, 0]

def k1_chk40 (v768 : BitVec 32) : Prop :=
  (∀ a, (k1_off98 v768) a + S1x8192.size a ≤ S8192x8192.size a) ∧
  (∀ a, (k1_off100 v768) a + S1x256.size a ≤ S8192x256.size a)
instance k1_chk40.dec : ∀ (v768 : BitVec 32), Decidable (k1_chk40 v768) := fun v768 => decidable_of_iff' _ (Iff.of_eq (k1_chk40.eq_1 v768))
theorem k1_off98_inb : ∀ (v768 : BitVec 32) (k1_hw40 : k1_chk40 v768), ∀ a, (k1_off98 v768) a + S1x8192.size a ≤ S8192x8192.size a := fun v768 k1_hw40 => k1_hw40.1
theorem k1_off100_inb : ∀ (v768 : BitVec 32) (k1_hw40 : k1_chk40 v768), ∀ a, (k1_off100 v768) a + S1x256.size a ≤ S8192x256.size a := fun v768 k1_hw40 => k1_hw40.2

def k1_off101 (i : grid1.Coords) : Fin 1 → Nat :=
  let arg0 : BitVec 32 := BitVec.ofNat 32 (i 0).val
  let c64_i32 : BitVec 32 := 64#32
  let v0 : BitVec 32 := Scalar.muli arg0 c64_i32
  let c20_i32 : BitVec 32 := 20#32
  let v793 : BitVec 32 := Scalar.addi v0 c20_i32
  let v794 : Index := Scalar.indexCast v793
  ![v794.toNat]
def k1_off102 (v795 : BitVec 32) : Fin 2 → Nat :=
  let c0_i32_444 : BitVec 32 := 0#32
  ![v795.toNat, 0]

def k1_off103 (v798 : BitVec 32) : Fin 2 → Nat :=
  let c0_i32_448 : BitVec 32 := 0#32
  ![v798.toNat, 0]

def k1_off104 (v795 : BitVec 32) : Fin 2 → Nat :=
  let v811 : Index := Scalar.indexCast v795
  let c0_449 : Index := 0#32
  ![v811.toNat, 0]

def k1_chk41 (v795 : BitVec 32) : Prop :=
  (∀ a, (k1_off102 v795) a + S1x8192.size a ≤ S8192x8192.size a) ∧
  (∀ a, (k1_off104 v795) a + S1x256.size a ≤ S8192x256.size a)
instance k1_chk41.dec : ∀ (v795 : BitVec 32), Decidable (k1_chk41 v795) := fun v795 => decidable_of_iff' _ (Iff.of_eq (k1_chk41.eq_1 v795))
theorem k1_off102_inb : ∀ (v795 : BitVec 32) (k1_hw41 : k1_chk41 v795), ∀ a, (k1_off102 v795) a + S1x8192.size a ≤ S8192x8192.size a := fun v795 k1_hw41 => k1_hw41.1
theorem k1_off104_inb : ∀ (v795 : BitVec 32) (k1_hw41 : k1_chk41 v795), ∀ a, (k1_off104 v795) a + S1x256.size a ≤ S8192x256.size a := fun v795 k1_hw41 => k1_hw41.2

def k1_off105 (v798 : BitVec 32) : Fin 2 → Nat :=
  let v817 : Index := Scalar.indexCast v798
  let c0_451 : Index := 0#32
  ![v817.toNat, 0]

def k1_chk42 (v798 : BitVec 32) : Prop :=
  (∀ a, (k1_off103 v798) a + S1x8192.size a ≤ S8192x8192.size a) ∧
  (∀ a, (k1_off105 v798) a + S1x256.size a ≤ S8192x256.size a)
instance k1_chk42.dec : ∀ (v798 : BitVec 32), Decidable (k1_chk42 v798) := fun v798 => decidable_of_iff' _ (Iff.of_eq (k1_chk42.eq_1 v798))
theorem k1_off103_inb : ∀ (v798 : BitVec 32) (k1_hw42 : k1_chk42 v798), ∀ a, (k1_off103 v798) a + S1x8192.size a ≤ S8192x8192.size a := fun v798 k1_hw42 => k1_hw42.1
theorem k1_off105_inb : ∀ (v798 : BitVec 32) (k1_hw42 : k1_chk42 v798), ∀ a, (k1_off105 v798) a + S1x256.size a ≤ S8192x256.size a := fun v798 k1_hw42 => k1_hw42.2

def k1_off106 (i : grid1.Coords) : Fin 1 → Nat :=
  let arg0 : BitVec 32 := BitVec.ofNat 32 (i 0).val
  let c64_i32 : BitVec 32 := 64#32
  let v0 : BitVec 32 := Scalar.muli arg0 c64_i32
  let c21_i32 : BitVec 32 := 21#32
  let v823 : BitVec 32 := Scalar.addi v0 c21_i32
  let v824 : Index := Scalar.indexCast v823
  ![v824.toNat]
def k1_off107 (v825 : BitVec 32) : Fin 2 → Nat :=
  let c0_i32_458 : BitVec 32 := 0#32
  ![v825.toNat, 0]

def k1_off108 (v828 : BitVec 32) : Fin 2 → Nat :=
  let c0_i32_462 : BitVec 32 := 0#32
  ![v828.toNat, 0]

def k1_off109 (v825 : BitVec 32) : Fin 2 → Nat :=
  let v841 : Index := Scalar.indexCast v825
  let c0_463 : Index := 0#32
  ![v841.toNat, 0]

def k1_chk43 (v825 : BitVec 32) : Prop :=
  (∀ a, (k1_off107 v825) a + S1x8192.size a ≤ S8192x8192.size a) ∧
  (∀ a, (k1_off109 v825) a + S1x256.size a ≤ S8192x256.size a)
instance k1_chk43.dec : ∀ (v825 : BitVec 32), Decidable (k1_chk43 v825) := fun v825 => decidable_of_iff' _ (Iff.of_eq (k1_chk43.eq_1 v825))
theorem k1_off107_inb : ∀ (v825 : BitVec 32) (k1_hw43 : k1_chk43 v825), ∀ a, (k1_off107 v825) a + S1x8192.size a ≤ S8192x8192.size a := fun v825 k1_hw43 => k1_hw43.1
theorem k1_off109_inb : ∀ (v825 : BitVec 32) (k1_hw43 : k1_chk43 v825), ∀ a, (k1_off109 v825) a + S1x256.size a ≤ S8192x256.size a := fun v825 k1_hw43 => k1_hw43.2

def k1_off110 (v828 : BitVec 32) : Fin 2 → Nat :=
  let v847 : Index := Scalar.indexCast v828
  let c0_465 : Index := 0#32
  ![v847.toNat, 0]

def k1_chk44 (v828 : BitVec 32) : Prop :=
  (∀ a, (k1_off108 v828) a + S1x8192.size a ≤ S8192x8192.size a) ∧
  (∀ a, (k1_off110 v828) a + S1x256.size a ≤ S8192x256.size a)
instance k1_chk44.dec : ∀ (v828 : BitVec 32), Decidable (k1_chk44 v828) := fun v828 => decidable_of_iff' _ (Iff.of_eq (k1_chk44.eq_1 v828))
theorem k1_off108_inb : ∀ (v828 : BitVec 32) (k1_hw44 : k1_chk44 v828), ∀ a, (k1_off108 v828) a + S1x8192.size a ≤ S8192x8192.size a := fun v828 k1_hw44 => k1_hw44.1
theorem k1_off110_inb : ∀ (v828 : BitVec 32) (k1_hw44 : k1_chk44 v828), ∀ a, (k1_off110 v828) a + S1x256.size a ≤ S8192x256.size a := fun v828 k1_hw44 => k1_hw44.2

def k1_off111 (i : grid1.Coords) : Fin 1 → Nat :=
  let arg0 : BitVec 32 := BitVec.ofNat 32 (i 0).val
  let c64_i32 : BitVec 32 := 64#32
  let v0 : BitVec 32 := Scalar.muli arg0 c64_i32
  let c22_i32 : BitVec 32 := 22#32
  let v853 : BitVec 32 := Scalar.addi v0 c22_i32
  let v854 : Index := Scalar.indexCast v853
  ![v854.toNat]
def k1_off112 (v855 : BitVec 32) : Fin 2 → Nat :=
  let c0_i32_472 : BitVec 32 := 0#32
  ![v855.toNat, 0]

def k1_off113 (v858 : BitVec 32) : Fin 2 → Nat :=
  let c0_i32_476 : BitVec 32 := 0#32
  ![v858.toNat, 0]

def k1_off114 (v855 : BitVec 32) : Fin 2 → Nat :=
  let v871 : Index := Scalar.indexCast v855
  let c0_477 : Index := 0#32
  ![v871.toNat, 0]

def k1_chk45 (v855 : BitVec 32) : Prop :=
  (∀ a, (k1_off112 v855) a + S1x8192.size a ≤ S8192x8192.size a) ∧
  (∀ a, (k1_off114 v855) a + S1x256.size a ≤ S8192x256.size a)
instance k1_chk45.dec : ∀ (v855 : BitVec 32), Decidable (k1_chk45 v855) := fun v855 => decidable_of_iff' _ (Iff.of_eq (k1_chk45.eq_1 v855))
theorem k1_off112_inb : ∀ (v855 : BitVec 32) (k1_hw45 : k1_chk45 v855), ∀ a, (k1_off112 v855) a + S1x8192.size a ≤ S8192x8192.size a := fun v855 k1_hw45 => k1_hw45.1
theorem k1_off114_inb : ∀ (v855 : BitVec 32) (k1_hw45 : k1_chk45 v855), ∀ a, (k1_off114 v855) a + S1x256.size a ≤ S8192x256.size a := fun v855 k1_hw45 => k1_hw45.2

def k1_off115 (v858 : BitVec 32) : Fin 2 → Nat :=
  let v877 : Index := Scalar.indexCast v858
  let c0_479 : Index := 0#32
  ![v877.toNat, 0]

def k1_chk46 (v858 : BitVec 32) : Prop :=
  (∀ a, (k1_off113 v858) a + S1x8192.size a ≤ S8192x8192.size a) ∧
  (∀ a, (k1_off115 v858) a + S1x256.size a ≤ S8192x256.size a)
instance k1_chk46.dec : ∀ (v858 : BitVec 32), Decidable (k1_chk46 v858) := fun v858 => decidable_of_iff' _ (Iff.of_eq (k1_chk46.eq_1 v858))
theorem k1_off113_inb : ∀ (v858 : BitVec 32) (k1_hw46 : k1_chk46 v858), ∀ a, (k1_off113 v858) a + S1x8192.size a ≤ S8192x8192.size a := fun v858 k1_hw46 => k1_hw46.1
theorem k1_off115_inb : ∀ (v858 : BitVec 32) (k1_hw46 : k1_chk46 v858), ∀ a, (k1_off115 v858) a + S1x256.size a ≤ S8192x256.size a := fun v858 k1_hw46 => k1_hw46.2

def k1_off116 (i : grid1.Coords) : Fin 1 → Nat :=
  let arg0 : BitVec 32 := BitVec.ofNat 32 (i 0).val
  let c64_i32 : BitVec 32 := 64#32
  let v0 : BitVec 32 := Scalar.muli arg0 c64_i32
  let c23_i32 : BitVec 32 := 23#32
  let v883 : BitVec 32 := Scalar.addi v0 c23_i32
  let v884 : Index := Scalar.indexCast v883
  ![v884.toNat]
def k1_off117 (v885 : BitVec 32) : Fin 2 → Nat :=
  let c0_i32_486 : BitVec 32 := 0#32
  ![v885.toNat, 0]

def k1_off118 (v888 : BitVec 32) : Fin 2 → Nat :=
  let c0_i32_490 : BitVec 32 := 0#32
  ![v888.toNat, 0]

def k1_off119 (v885 : BitVec 32) : Fin 2 → Nat :=
  let v901 : Index := Scalar.indexCast v885
  let c0_491 : Index := 0#32
  ![v901.toNat, 0]

def k1_chk47 (v885 : BitVec 32) : Prop :=
  (∀ a, (k1_off117 v885) a + S1x8192.size a ≤ S8192x8192.size a) ∧
  (∀ a, (k1_off119 v885) a + S1x256.size a ≤ S8192x256.size a)
instance k1_chk47.dec : ∀ (v885 : BitVec 32), Decidable (k1_chk47 v885) := fun v885 => decidable_of_iff' _ (Iff.of_eq (k1_chk47.eq_1 v885))
theorem k1_off117_inb : ∀ (v885 : BitVec 32) (k1_hw47 : k1_chk47 v885), ∀ a, (k1_off117 v885) a + S1x8192.size a ≤ S8192x8192.size a := fun v885 k1_hw47 => k1_hw47.1
theorem k1_off119_inb : ∀ (v885 : BitVec 32) (k1_hw47 : k1_chk47 v885), ∀ a, (k1_off119 v885) a + S1x256.size a ≤ S8192x256.size a := fun v885 k1_hw47 => k1_hw47.2

def k1_off120 (v888 : BitVec 32) : Fin 2 → Nat :=
  let v907 : Index := Scalar.indexCast v888
  let c0_493 : Index := 0#32
  ![v907.toNat, 0]

def k1_chk48 (v888 : BitVec 32) : Prop :=
  (∀ a, (k1_off118 v888) a + S1x8192.size a ≤ S8192x8192.size a) ∧
  (∀ a, (k1_off120 v888) a + S1x256.size a ≤ S8192x256.size a)
instance k1_chk48.dec : ∀ (v888 : BitVec 32), Decidable (k1_chk48 v888) := fun v888 => decidable_of_iff' _ (Iff.of_eq (k1_chk48.eq_1 v888))
theorem k1_off118_inb : ∀ (v888 : BitVec 32) (k1_hw48 : k1_chk48 v888), ∀ a, (k1_off118 v888) a + S1x8192.size a ≤ S8192x8192.size a := fun v888 k1_hw48 => k1_hw48.1
theorem k1_off120_inb : ∀ (v888 : BitVec 32) (k1_hw48 : k1_chk48 v888), ∀ a, (k1_off120 v888) a + S1x256.size a ≤ S8192x256.size a := fun v888 k1_hw48 => k1_hw48.2

def k1_off121 (i : grid1.Coords) : Fin 1 → Nat :=
  let arg0 : BitVec 32 := BitVec.ofNat 32 (i 0).val
  let c64_i32 : BitVec 32 := 64#32
  let v0 : BitVec 32 := Scalar.muli arg0 c64_i32
  let c24_i32 : BitVec 32 := 24#32
  let v913 : BitVec 32 := Scalar.addi v0 c24_i32
  let v914 : Index := Scalar.indexCast v913
  ![v914.toNat]
def k1_off122 (v915 : BitVec 32) : Fin 2 → Nat :=
  let c0_i32_500 : BitVec 32 := 0#32
  ![v915.toNat, 0]

def k1_off123 (v918 : BitVec 32) : Fin 2 → Nat :=
  let c0_i32_504 : BitVec 32 := 0#32
  ![v918.toNat, 0]

def k1_off124 (v915 : BitVec 32) : Fin 2 → Nat :=
  let v931 : Index := Scalar.indexCast v915
  let c0_505 : Index := 0#32
  ![v931.toNat, 0]

def k1_chk49 (v915 : BitVec 32) : Prop :=
  (∀ a, (k1_off122 v915) a + S1x8192.size a ≤ S8192x8192.size a) ∧
  (∀ a, (k1_off124 v915) a + S1x256.size a ≤ S8192x256.size a)
instance k1_chk49.dec : ∀ (v915 : BitVec 32), Decidable (k1_chk49 v915) := fun v915 => decidable_of_iff' _ (Iff.of_eq (k1_chk49.eq_1 v915))
theorem k1_off122_inb : ∀ (v915 : BitVec 32) (k1_hw49 : k1_chk49 v915), ∀ a, (k1_off122 v915) a + S1x8192.size a ≤ S8192x8192.size a := fun v915 k1_hw49 => k1_hw49.1
theorem k1_off124_inb : ∀ (v915 : BitVec 32) (k1_hw49 : k1_chk49 v915), ∀ a, (k1_off124 v915) a + S1x256.size a ≤ S8192x256.size a := fun v915 k1_hw49 => k1_hw49.2

def k1_off125 (v918 : BitVec 32) : Fin 2 → Nat :=
  let v937 : Index := Scalar.indexCast v918
  let c0_507 : Index := 0#32
  ![v937.toNat, 0]

def k1_chk50 (v918 : BitVec 32) : Prop :=
  (∀ a, (k1_off123 v918) a + S1x8192.size a ≤ S8192x8192.size a) ∧
  (∀ a, (k1_off125 v918) a + S1x256.size a ≤ S8192x256.size a)
instance k1_chk50.dec : ∀ (v918 : BitVec 32), Decidable (k1_chk50 v918) := fun v918 => decidable_of_iff' _ (Iff.of_eq (k1_chk50.eq_1 v918))
theorem k1_off123_inb : ∀ (v918 : BitVec 32) (k1_hw50 : k1_chk50 v918), ∀ a, (k1_off123 v918) a + S1x8192.size a ≤ S8192x8192.size a := fun v918 k1_hw50 => k1_hw50.1
theorem k1_off125_inb : ∀ (v918 : BitVec 32) (k1_hw50 : k1_chk50 v918), ∀ a, (k1_off125 v918) a + S1x256.size a ≤ S8192x256.size a := fun v918 k1_hw50 => k1_hw50.2

def k1_off126 (i : grid1.Coords) : Fin 1 → Nat :=
  let arg0 : BitVec 32 := BitVec.ofNat 32 (i 0).val
  let c64_i32 : BitVec 32 := 64#32
  let v0 : BitVec 32 := Scalar.muli arg0 c64_i32
  let c25_i32 : BitVec 32 := 25#32
  let v943 : BitVec 32 := Scalar.addi v0 c25_i32
  let v944 : Index := Scalar.indexCast v943
  ![v944.toNat]
def k1_off127 (v945 : BitVec 32) : Fin 2 → Nat :=
  let c0_i32_514 : BitVec 32 := 0#32
  ![v945.toNat, 0]

def k1_off128 (v948 : BitVec 32) : Fin 2 → Nat :=
  let c0_i32_518 : BitVec 32 := 0#32
  ![v948.toNat, 0]

def k1_off129 (v945 : BitVec 32) : Fin 2 → Nat :=
  let v961 : Index := Scalar.indexCast v945
  let c0_519 : Index := 0#32
  ![v961.toNat, 0]

def k1_chk51 (v945 : BitVec 32) : Prop :=
  (∀ a, (k1_off127 v945) a + S1x8192.size a ≤ S8192x8192.size a) ∧
  (∀ a, (k1_off129 v945) a + S1x256.size a ≤ S8192x256.size a)
instance k1_chk51.dec : ∀ (v945 : BitVec 32), Decidable (k1_chk51 v945) := fun v945 => decidable_of_iff' _ (Iff.of_eq (k1_chk51.eq_1 v945))
theorem k1_off127_inb : ∀ (v945 : BitVec 32) (k1_hw51 : k1_chk51 v945), ∀ a, (k1_off127 v945) a + S1x8192.size a ≤ S8192x8192.size a := fun v945 k1_hw51 => k1_hw51.1
theorem k1_off129_inb : ∀ (v945 : BitVec 32) (k1_hw51 : k1_chk51 v945), ∀ a, (k1_off129 v945) a + S1x256.size a ≤ S8192x256.size a := fun v945 k1_hw51 => k1_hw51.2

def k1_off130 (v948 : BitVec 32) : Fin 2 → Nat :=
  let v967 : Index := Scalar.indexCast v948
  let c0_521 : Index := 0#32
  ![v967.toNat, 0]

def k1_chk52 (v948 : BitVec 32) : Prop :=
  (∀ a, (k1_off128 v948) a + S1x8192.size a ≤ S8192x8192.size a) ∧
  (∀ a, (k1_off130 v948) a + S1x256.size a ≤ S8192x256.size a)
instance k1_chk52.dec : ∀ (v948 : BitVec 32), Decidable (k1_chk52 v948) := fun v948 => decidable_of_iff' _ (Iff.of_eq (k1_chk52.eq_1 v948))
theorem k1_off128_inb : ∀ (v948 : BitVec 32) (k1_hw52 : k1_chk52 v948), ∀ a, (k1_off128 v948) a + S1x8192.size a ≤ S8192x8192.size a := fun v948 k1_hw52 => k1_hw52.1
theorem k1_off130_inb : ∀ (v948 : BitVec 32) (k1_hw52 : k1_chk52 v948), ∀ a, (k1_off130 v948) a + S1x256.size a ≤ S8192x256.size a := fun v948 k1_hw52 => k1_hw52.2

def k1_off131 (i : grid1.Coords) : Fin 1 → Nat :=
  let arg0 : BitVec 32 := BitVec.ofNat 32 (i 0).val
  let c64_i32 : BitVec 32 := 64#32
  let v0 : BitVec 32 := Scalar.muli arg0 c64_i32
  let c26_i32 : BitVec 32 := 26#32
  let v973 : BitVec 32 := Scalar.addi v0 c26_i32
  let v974 : Index := Scalar.indexCast v973
  ![v974.toNat]
def k1_off132 (v975 : BitVec 32) : Fin 2 → Nat :=
  let c0_i32_528 : BitVec 32 := 0#32
  ![v975.toNat, 0]

def k1_off133 (v978 : BitVec 32) : Fin 2 → Nat :=
  let c0_i32_532 : BitVec 32 := 0#32
  ![v978.toNat, 0]

def k1_off134 (v975 : BitVec 32) : Fin 2 → Nat :=
  let v991 : Index := Scalar.indexCast v975
  let c0_533 : Index := 0#32
  ![v991.toNat, 0]

def k1_chk53 (v975 : BitVec 32) : Prop :=
  (∀ a, (k1_off132 v975) a + S1x8192.size a ≤ S8192x8192.size a) ∧
  (∀ a, (k1_off134 v975) a + S1x256.size a ≤ S8192x256.size a)
instance k1_chk53.dec : ∀ (v975 : BitVec 32), Decidable (k1_chk53 v975) := fun v975 => decidable_of_iff' _ (Iff.of_eq (k1_chk53.eq_1 v975))
theorem k1_off132_inb : ∀ (v975 : BitVec 32) (k1_hw53 : k1_chk53 v975), ∀ a, (k1_off132 v975) a + S1x8192.size a ≤ S8192x8192.size a := fun v975 k1_hw53 => k1_hw53.1
theorem k1_off134_inb : ∀ (v975 : BitVec 32) (k1_hw53 : k1_chk53 v975), ∀ a, (k1_off134 v975) a + S1x256.size a ≤ S8192x256.size a := fun v975 k1_hw53 => k1_hw53.2

def k1_off135 (v978 : BitVec 32) : Fin 2 → Nat :=
  let v997 : Index := Scalar.indexCast v978
  let c0_535 : Index := 0#32
  ![v997.toNat, 0]

def k1_chk54 (v978 : BitVec 32) : Prop :=
  (∀ a, (k1_off133 v978) a + S1x8192.size a ≤ S8192x8192.size a) ∧
  (∀ a, (k1_off135 v978) a + S1x256.size a ≤ S8192x256.size a)
instance k1_chk54.dec : ∀ (v978 : BitVec 32), Decidable (k1_chk54 v978) := fun v978 => decidable_of_iff' _ (Iff.of_eq (k1_chk54.eq_1 v978))
theorem k1_off133_inb : ∀ (v978 : BitVec 32) (k1_hw54 : k1_chk54 v978), ∀ a, (k1_off133 v978) a + S1x8192.size a ≤ S8192x8192.size a := fun v978 k1_hw54 => k1_hw54.1
theorem k1_off135_inb : ∀ (v978 : BitVec 32) (k1_hw54 : k1_chk54 v978), ∀ a, (k1_off135 v978) a + S1x256.size a ≤ S8192x256.size a := fun v978 k1_hw54 => k1_hw54.2

def k1_off136 (i : grid1.Coords) : Fin 1 → Nat :=
  let arg0 : BitVec 32 := BitVec.ofNat 32 (i 0).val
  let c64_i32 : BitVec 32 := 64#32
  let v0 : BitVec 32 := Scalar.muli arg0 c64_i32
  let c27_i32 : BitVec 32 := 27#32
  let v1003 : BitVec 32 := Scalar.addi v0 c27_i32
  let v1004 : Index := Scalar.indexCast v1003
  ![v1004.toNat]
def k1_off137 (v1005 : BitVec 32) : Fin 2 → Nat :=
  let c0_i32_542 : BitVec 32 := 0#32
  ![v1005.toNat, 0]

def k1_off138 (v1008 : BitVec 32) : Fin 2 → Nat :=
  let c0_i32_546 : BitVec 32 := 0#32
  ![v1008.toNat, 0]

def k1_off139 (v1005 : BitVec 32) : Fin 2 → Nat :=
  let v1021 : Index := Scalar.indexCast v1005
  let c0_547 : Index := 0#32
  ![v1021.toNat, 0]

def k1_chk55 (v1005 : BitVec 32) : Prop :=
  (∀ a, (k1_off137 v1005) a + S1x8192.size a ≤ S8192x8192.size a) ∧
  (∀ a, (k1_off139 v1005) a + S1x256.size a ≤ S8192x256.size a)
instance k1_chk55.dec : ∀ (v1005 : BitVec 32), Decidable (k1_chk55 v1005) := fun v1005 => decidable_of_iff' _ (Iff.of_eq (k1_chk55.eq_1 v1005))
theorem k1_off137_inb : ∀ (v1005 : BitVec 32) (k1_hw55 : k1_chk55 v1005), ∀ a, (k1_off137 v1005) a + S1x8192.size a ≤ S8192x8192.size a := fun v1005 k1_hw55 => k1_hw55.1
theorem k1_off139_inb : ∀ (v1005 : BitVec 32) (k1_hw55 : k1_chk55 v1005), ∀ a, (k1_off139 v1005) a + S1x256.size a ≤ S8192x256.size a := fun v1005 k1_hw55 => k1_hw55.2

def k1_off140 (v1008 : BitVec 32) : Fin 2 → Nat :=
  let v1027 : Index := Scalar.indexCast v1008
  let c0_549 : Index := 0#32
  ![v1027.toNat, 0]

def k1_chk56 (v1008 : BitVec 32) : Prop :=
  (∀ a, (k1_off138 v1008) a + S1x8192.size a ≤ S8192x8192.size a) ∧
  (∀ a, (k1_off140 v1008) a + S1x256.size a ≤ S8192x256.size a)
instance k1_chk56.dec : ∀ (v1008 : BitVec 32), Decidable (k1_chk56 v1008) := fun v1008 => decidable_of_iff' _ (Iff.of_eq (k1_chk56.eq_1 v1008))
theorem k1_off138_inb : ∀ (v1008 : BitVec 32) (k1_hw56 : k1_chk56 v1008), ∀ a, (k1_off138 v1008) a + S1x8192.size a ≤ S8192x8192.size a := fun v1008 k1_hw56 => k1_hw56.1
theorem k1_off140_inb : ∀ (v1008 : BitVec 32) (k1_hw56 : k1_chk56 v1008), ∀ a, (k1_off140 v1008) a + S1x256.size a ≤ S8192x256.size a := fun v1008 k1_hw56 => k1_hw56.2

def k1_off141 (i : grid1.Coords) : Fin 1 → Nat :=
  let arg0 : BitVec 32 := BitVec.ofNat 32 (i 0).val
  let c64_i32 : BitVec 32 := 64#32
  let v0 : BitVec 32 := Scalar.muli arg0 c64_i32
  let c28_i32 : BitVec 32 := 28#32
  let v1033 : BitVec 32 := Scalar.addi v0 c28_i32
  let v1034 : Index := Scalar.indexCast v1033
  ![v1034.toNat]
def k1_off142 (v1035 : BitVec 32) : Fin 2 → Nat :=
  let c0_i32_556 : BitVec 32 := 0#32
  ![v1035.toNat, 0]

def k1_off143 (v1038 : BitVec 32) : Fin 2 → Nat :=
  let c0_i32_560 : BitVec 32 := 0#32
  ![v1038.toNat, 0]

def k1_off144 (v1035 : BitVec 32) : Fin 2 → Nat :=
  let v1051 : Index := Scalar.indexCast v1035
  let c0_561 : Index := 0#32
  ![v1051.toNat, 0]

def k1_chk57 (v1035 : BitVec 32) : Prop :=
  (∀ a, (k1_off142 v1035) a + S1x8192.size a ≤ S8192x8192.size a) ∧
  (∀ a, (k1_off144 v1035) a + S1x256.size a ≤ S8192x256.size a)
instance k1_chk57.dec : ∀ (v1035 : BitVec 32), Decidable (k1_chk57 v1035) := fun v1035 => decidable_of_iff' _ (Iff.of_eq (k1_chk57.eq_1 v1035))
theorem k1_off142_inb : ∀ (v1035 : BitVec 32) (k1_hw57 : k1_chk57 v1035), ∀ a, (k1_off142 v1035) a + S1x8192.size a ≤ S8192x8192.size a := fun v1035 k1_hw57 => k1_hw57.1
theorem k1_off144_inb : ∀ (v1035 : BitVec 32) (k1_hw57 : k1_chk57 v1035), ∀ a, (k1_off144 v1035) a + S1x256.size a ≤ S8192x256.size a := fun v1035 k1_hw57 => k1_hw57.2

def k1_off145 (v1038 : BitVec 32) : Fin 2 → Nat :=
  let v1057 : Index := Scalar.indexCast v1038
  let c0_563 : Index := 0#32
  ![v1057.toNat, 0]

def k1_chk58 (v1038 : BitVec 32) : Prop :=
  (∀ a, (k1_off143 v1038) a + S1x8192.size a ≤ S8192x8192.size a) ∧
  (∀ a, (k1_off145 v1038) a + S1x256.size a ≤ S8192x256.size a)
instance k1_chk58.dec : ∀ (v1038 : BitVec 32), Decidable (k1_chk58 v1038) := fun v1038 => decidable_of_iff' _ (Iff.of_eq (k1_chk58.eq_1 v1038))
theorem k1_off143_inb : ∀ (v1038 : BitVec 32) (k1_hw58 : k1_chk58 v1038), ∀ a, (k1_off143 v1038) a + S1x8192.size a ≤ S8192x8192.size a := fun v1038 k1_hw58 => k1_hw58.1
theorem k1_off145_inb : ∀ (v1038 : BitVec 32) (k1_hw58 : k1_chk58 v1038), ∀ a, (k1_off145 v1038) a + S1x256.size a ≤ S8192x256.size a := fun v1038 k1_hw58 => k1_hw58.2

def k1_off146 (i : grid1.Coords) : Fin 1 → Nat :=
  let arg0 : BitVec 32 := BitVec.ofNat 32 (i 0).val
  let c64_i32 : BitVec 32 := 64#32
  let v0 : BitVec 32 := Scalar.muli arg0 c64_i32
  let c29_i32 : BitVec 32 := 29#32
  let v1063 : BitVec 32 := Scalar.addi v0 c29_i32
  let v1064 : Index := Scalar.indexCast v1063
  ![v1064.toNat]
def k1_off147 (v1065 : BitVec 32) : Fin 2 → Nat :=
  let c0_i32_570 : BitVec 32 := 0#32
  ![v1065.toNat, 0]

def k1_off148 (v1068 : BitVec 32) : Fin 2 → Nat :=
  let c0_i32_574 : BitVec 32 := 0#32
  ![v1068.toNat, 0]

def k1_off149 (v1065 : BitVec 32) : Fin 2 → Nat :=
  let v1081 : Index := Scalar.indexCast v1065
  let c0_575 : Index := 0#32
  ![v1081.toNat, 0]

def k1_chk59 (v1065 : BitVec 32) : Prop :=
  (∀ a, (k1_off147 v1065) a + S1x8192.size a ≤ S8192x8192.size a) ∧
  (∀ a, (k1_off149 v1065) a + S1x256.size a ≤ S8192x256.size a)
instance k1_chk59.dec : ∀ (v1065 : BitVec 32), Decidable (k1_chk59 v1065) := fun v1065 => decidable_of_iff' _ (Iff.of_eq (k1_chk59.eq_1 v1065))
theorem k1_off147_inb : ∀ (v1065 : BitVec 32) (k1_hw59 : k1_chk59 v1065), ∀ a, (k1_off147 v1065) a + S1x8192.size a ≤ S8192x8192.size a := fun v1065 k1_hw59 => k1_hw59.1
theorem k1_off149_inb : ∀ (v1065 : BitVec 32) (k1_hw59 : k1_chk59 v1065), ∀ a, (k1_off149 v1065) a + S1x256.size a ≤ S8192x256.size a := fun v1065 k1_hw59 => k1_hw59.2

def k1_off150 (v1068 : BitVec 32) : Fin 2 → Nat :=
  let v1087 : Index := Scalar.indexCast v1068
  let c0_577 : Index := 0#32
  ![v1087.toNat, 0]

def k1_chk60 (v1068 : BitVec 32) : Prop :=
  (∀ a, (k1_off148 v1068) a + S1x8192.size a ≤ S8192x8192.size a) ∧
  (∀ a, (k1_off150 v1068) a + S1x256.size a ≤ S8192x256.size a)
instance k1_chk60.dec : ∀ (v1068 : BitVec 32), Decidable (k1_chk60 v1068) := fun v1068 => decidable_of_iff' _ (Iff.of_eq (k1_chk60.eq_1 v1068))
theorem k1_off148_inb : ∀ (v1068 : BitVec 32) (k1_hw60 : k1_chk60 v1068), ∀ a, (k1_off148 v1068) a + S1x8192.size a ≤ S8192x8192.size a := fun v1068 k1_hw60 => k1_hw60.1
theorem k1_off150_inb : ∀ (v1068 : BitVec 32) (k1_hw60 : k1_chk60 v1068), ∀ a, (k1_off150 v1068) a + S1x256.size a ≤ S8192x256.size a := fun v1068 k1_hw60 => k1_hw60.2

def k1_off151 (i : grid1.Coords) : Fin 1 → Nat :=
  let arg0 : BitVec 32 := BitVec.ofNat 32 (i 0).val
  let c64_i32 : BitVec 32 := 64#32
  let v0 : BitVec 32 := Scalar.muli arg0 c64_i32
  let c30_i32 : BitVec 32 := 30#32
  let v1093 : BitVec 32 := Scalar.addi v0 c30_i32
  let v1094 : Index := Scalar.indexCast v1093
  ![v1094.toNat]
def k1_off152 (v1095 : BitVec 32) : Fin 2 → Nat :=
  let c0_i32_584 : BitVec 32 := 0#32
  ![v1095.toNat, 0]

def k1_off153 (v1098 : BitVec 32) : Fin 2 → Nat :=
  let c0_i32_588 : BitVec 32 := 0#32
  ![v1098.toNat, 0]

def k1_off154 (v1095 : BitVec 32) : Fin 2 → Nat :=
  let v1111 : Index := Scalar.indexCast v1095
  let c0_589 : Index := 0#32
  ![v1111.toNat, 0]

def k1_chk61 (v1095 : BitVec 32) : Prop :=
  (∀ a, (k1_off152 v1095) a + S1x8192.size a ≤ S8192x8192.size a) ∧
  (∀ a, (k1_off154 v1095) a + S1x256.size a ≤ S8192x256.size a)
instance k1_chk61.dec : ∀ (v1095 : BitVec 32), Decidable (k1_chk61 v1095) := fun v1095 => decidable_of_iff' _ (Iff.of_eq (k1_chk61.eq_1 v1095))
theorem k1_off152_inb : ∀ (v1095 : BitVec 32) (k1_hw61 : k1_chk61 v1095), ∀ a, (k1_off152 v1095) a + S1x8192.size a ≤ S8192x8192.size a := fun v1095 k1_hw61 => k1_hw61.1
theorem k1_off154_inb : ∀ (v1095 : BitVec 32) (k1_hw61 : k1_chk61 v1095), ∀ a, (k1_off154 v1095) a + S1x256.size a ≤ S8192x256.size a := fun v1095 k1_hw61 => k1_hw61.2

def k1_off155 (v1098 : BitVec 32) : Fin 2 → Nat :=
  let v1117 : Index := Scalar.indexCast v1098
  let c0_591 : Index := 0#32
  ![v1117.toNat, 0]

def k1_chk62 (v1098 : BitVec 32) : Prop :=
  (∀ a, (k1_off153 v1098) a + S1x8192.size a ≤ S8192x8192.size a) ∧
  (∀ a, (k1_off155 v1098) a + S1x256.size a ≤ S8192x256.size a)
instance k1_chk62.dec : ∀ (v1098 : BitVec 32), Decidable (k1_chk62 v1098) := fun v1098 => decidable_of_iff' _ (Iff.of_eq (k1_chk62.eq_1 v1098))
theorem k1_off153_inb : ∀ (v1098 : BitVec 32) (k1_hw62 : k1_chk62 v1098), ∀ a, (k1_off153 v1098) a + S1x8192.size a ≤ S8192x8192.size a := fun v1098 k1_hw62 => k1_hw62.1
theorem k1_off155_inb : ∀ (v1098 : BitVec 32) (k1_hw62 : k1_chk62 v1098), ∀ a, (k1_off155 v1098) a + S1x256.size a ≤ S8192x256.size a := fun v1098 k1_hw62 => k1_hw62.2

def k1_off156 (i : grid1.Coords) : Fin 1 → Nat :=
  let arg0 : BitVec 32 := BitVec.ofNat 32 (i 0).val
  let c64_i32 : BitVec 32 := 64#32
  let v0 : BitVec 32 := Scalar.muli arg0 c64_i32
  let c31_i32 : BitVec 32 := 31#32
  let v1123 : BitVec 32 := Scalar.addi v0 c31_i32
  let v1124 : Index := Scalar.indexCast v1123
  ![v1124.toNat]
def k1_off157 (v1125 : BitVec 32) : Fin 2 → Nat :=
  let c0_i32_598 : BitVec 32 := 0#32
  ![v1125.toNat, 0]

def k1_off158 (v1128 : BitVec 32) : Fin 2 → Nat :=
  let c0_i32_602 : BitVec 32 := 0#32
  ![v1128.toNat, 0]

def k1_off159 (v1125 : BitVec 32) : Fin 2 → Nat :=
  let v1141 : Index := Scalar.indexCast v1125
  let c0_603 : Index := 0#32
  ![v1141.toNat, 0]

def k1_chk63 (v1125 : BitVec 32) : Prop :=
  (∀ a, (k1_off157 v1125) a + S1x8192.size a ≤ S8192x8192.size a) ∧
  (∀ a, (k1_off159 v1125) a + S1x256.size a ≤ S8192x256.size a)
instance k1_chk63.dec : ∀ (v1125 : BitVec 32), Decidable (k1_chk63 v1125) := fun v1125 => decidable_of_iff' _ (Iff.of_eq (k1_chk63.eq_1 v1125))
theorem k1_off157_inb : ∀ (v1125 : BitVec 32) (k1_hw63 : k1_chk63 v1125), ∀ a, (k1_off157 v1125) a + S1x8192.size a ≤ S8192x8192.size a := fun v1125 k1_hw63 => k1_hw63.1
theorem k1_off159_inb : ∀ (v1125 : BitVec 32) (k1_hw63 : k1_chk63 v1125), ∀ a, (k1_off159 v1125) a + S1x256.size a ≤ S8192x256.size a := fun v1125 k1_hw63 => k1_hw63.2

def k1_off160 (v1128 : BitVec 32) : Fin 2 → Nat :=
  let v1147 : Index := Scalar.indexCast v1128
  let c0_605 : Index := 0#32
  ![v1147.toNat, 0]

def k1_chk64 (v1128 : BitVec 32) : Prop :=
  (∀ a, (k1_off158 v1128) a + S1x8192.size a ≤ S8192x8192.size a) ∧
  (∀ a, (k1_off160 v1128) a + S1x256.size a ≤ S8192x256.size a)
instance k1_chk64.dec : ∀ (v1128 : BitVec 32), Decidable (k1_chk64 v1128) := fun v1128 => decidable_of_iff' _ (Iff.of_eq (k1_chk64.eq_1 v1128))
theorem k1_off158_inb : ∀ (v1128 : BitVec 32) (k1_hw64 : k1_chk64 v1128), ∀ a, (k1_off158 v1128) a + S1x8192.size a ≤ S8192x8192.size a := fun v1128 k1_hw64 => k1_hw64.1
theorem k1_off160_inb : ∀ (v1128 : BitVec 32) (k1_hw64 : k1_chk64 v1128), ∀ a, (k1_off160 v1128) a + S1x256.size a ≤ S8192x256.size a := fun v1128 k1_hw64 => k1_hw64.2

def k1_off161 (i : grid1.Coords) : Fin 1 → Nat :=
  let arg0 : BitVec 32 := BitVec.ofNat 32 (i 0).val
  let c64_i32 : BitVec 32 := 64#32
  let v0 : BitVec 32 := Scalar.muli arg0 c64_i32
  let c32_i32 : BitVec 32 := 32#32
  let v1345 : BitVec 32 := Scalar.addi v0 c32_i32
  let v1346 : Index := Scalar.indexCast v1345
  ![v1346.toNat]
def k1_off162 (v1347 : BitVec 32) : Fin 2 → Nat :=
  let c0_i32_772 : BitVec 32 := 0#32
  ![v1347.toNat, 0]

def k1_off163 (v1350 : BitVec 32) : Fin 2 → Nat :=
  let c0_i32_776 : BitVec 32 := 0#32
  ![v1350.toNat, 0]

def k1_off164 (v1347 : BitVec 32) : Fin 2 → Nat :=
  let v1363 : Index := Scalar.indexCast v1347
  let c0_777 : Index := 0#32
  ![v1363.toNat, 0]

def k1_chk65 (v1347 : BitVec 32) : Prop :=
  (∀ a, (k1_off162 v1347) a + S1x8192.size a ≤ S8192x8192.size a) ∧
  (∀ a, (k1_off164 v1347) a + S1x256.size a ≤ S8192x256.size a)
instance k1_chk65.dec : ∀ (v1347 : BitVec 32), Decidable (k1_chk65 v1347) := fun v1347 => decidable_of_iff' _ (Iff.of_eq (k1_chk65.eq_1 v1347))
theorem k1_off162_inb : ∀ (v1347 : BitVec 32) (k1_hw65 : k1_chk65 v1347), ∀ a, (k1_off162 v1347) a + S1x8192.size a ≤ S8192x8192.size a := fun v1347 k1_hw65 => k1_hw65.1
theorem k1_off164_inb : ∀ (v1347 : BitVec 32) (k1_hw65 : k1_chk65 v1347), ∀ a, (k1_off164 v1347) a + S1x256.size a ≤ S8192x256.size a := fun v1347 k1_hw65 => k1_hw65.2

def k1_off165 (v1350 : BitVec 32) : Fin 2 → Nat :=
  let v1369 : Index := Scalar.indexCast v1350
  let c0_779 : Index := 0#32
  ![v1369.toNat, 0]

def k1_chk66 (v1350 : BitVec 32) : Prop :=
  (∀ a, (k1_off163 v1350) a + S1x8192.size a ≤ S8192x8192.size a) ∧
  (∀ a, (k1_off165 v1350) a + S1x256.size a ≤ S8192x256.size a)
instance k1_chk66.dec : ∀ (v1350 : BitVec 32), Decidable (k1_chk66 v1350) := fun v1350 => decidable_of_iff' _ (Iff.of_eq (k1_chk66.eq_1 v1350))
theorem k1_off163_inb : ∀ (v1350 : BitVec 32) (k1_hw66 : k1_chk66 v1350), ∀ a, (k1_off163 v1350) a + S1x8192.size a ≤ S8192x8192.size a := fun v1350 k1_hw66 => k1_hw66.1
theorem k1_off165_inb : ∀ (v1350 : BitVec 32) (k1_hw66 : k1_chk66 v1350), ∀ a, (k1_off165 v1350) a + S1x256.size a ≤ S8192x256.size a := fun v1350 k1_hw66 => k1_hw66.2

def k1_off166 (i : grid1.Coords) : Fin 1 → Nat :=
  let arg0 : BitVec 32 := BitVec.ofNat 32 (i 0).val
  let c64_i32 : BitVec 32 := 64#32
  let v0 : BitVec 32 := Scalar.muli arg0 c64_i32
  let c33_i32 : BitVec 32 := 33#32
  let v1375 : BitVec 32 := Scalar.addi v0 c33_i32
  let v1376 : Index := Scalar.indexCast v1375
  ![v1376.toNat]
def k1_off167 (v1377 : BitVec 32) : Fin 2 → Nat :=
  let c0_i32_786 : BitVec 32 := 0#32
  ![v1377.toNat, 0]

def k1_off168 (v1380 : BitVec 32) : Fin 2 → Nat :=
  let c0_i32_790 : BitVec 32 := 0#32
  ![v1380.toNat, 0]

def k1_off169 (v1377 : BitVec 32) : Fin 2 → Nat :=
  let v1393 : Index := Scalar.indexCast v1377
  let c0_791 : Index := 0#32
  ![v1393.toNat, 0]

def k1_chk67 (v1377 : BitVec 32) : Prop :=
  (∀ a, (k1_off167 v1377) a + S1x8192.size a ≤ S8192x8192.size a) ∧
  (∀ a, (k1_off169 v1377) a + S1x256.size a ≤ S8192x256.size a)
instance k1_chk67.dec : ∀ (v1377 : BitVec 32), Decidable (k1_chk67 v1377) := fun v1377 => decidable_of_iff' _ (Iff.of_eq (k1_chk67.eq_1 v1377))
theorem k1_off167_inb : ∀ (v1377 : BitVec 32) (k1_hw67 : k1_chk67 v1377), ∀ a, (k1_off167 v1377) a + S1x8192.size a ≤ S8192x8192.size a := fun v1377 k1_hw67 => k1_hw67.1
theorem k1_off169_inb : ∀ (v1377 : BitVec 32) (k1_hw67 : k1_chk67 v1377), ∀ a, (k1_off169 v1377) a + S1x256.size a ≤ S8192x256.size a := fun v1377 k1_hw67 => k1_hw67.2

def k1_off170 (v1380 : BitVec 32) : Fin 2 → Nat :=
  let v1399 : Index := Scalar.indexCast v1380
  let c0_793 : Index := 0#32
  ![v1399.toNat, 0]

def k1_chk68 (v1380 : BitVec 32) : Prop :=
  (∀ a, (k1_off168 v1380) a + S1x8192.size a ≤ S8192x8192.size a) ∧
  (∀ a, (k1_off170 v1380) a + S1x256.size a ≤ S8192x256.size a)
instance k1_chk68.dec : ∀ (v1380 : BitVec 32), Decidable (k1_chk68 v1380) := fun v1380 => decidable_of_iff' _ (Iff.of_eq (k1_chk68.eq_1 v1380))
theorem k1_off168_inb : ∀ (v1380 : BitVec 32) (k1_hw68 : k1_chk68 v1380), ∀ a, (k1_off168 v1380) a + S1x8192.size a ≤ S8192x8192.size a := fun v1380 k1_hw68 => k1_hw68.1
theorem k1_off170_inb : ∀ (v1380 : BitVec 32) (k1_hw68 : k1_chk68 v1380), ∀ a, (k1_off170 v1380) a + S1x256.size a ≤ S8192x256.size a := fun v1380 k1_hw68 => k1_hw68.2

def k1_off171 (i : grid1.Coords) : Fin 1 → Nat :=
  let arg0 : BitVec 32 := BitVec.ofNat 32 (i 0).val
  let c64_i32 : BitVec 32 := 64#32
  let v0 : BitVec 32 := Scalar.muli arg0 c64_i32
  let c34_i32 : BitVec 32 := 34#32
  let v1405 : BitVec 32 := Scalar.addi v0 c34_i32
  let v1406 : Index := Scalar.indexCast v1405
  ![v1406.toNat]
def k1_off172 (v1407 : BitVec 32) : Fin 2 → Nat :=
  let c0_i32_800 : BitVec 32 := 0#32
  ![v1407.toNat, 0]

def k1_off173 (v1410 : BitVec 32) : Fin 2 → Nat :=
  let c0_i32_804 : BitVec 32 := 0#32
  ![v1410.toNat, 0]

def k1_off174 (v1407 : BitVec 32) : Fin 2 → Nat :=
  let v1423 : Index := Scalar.indexCast v1407
  let c0_805 : Index := 0#32
  ![v1423.toNat, 0]

def k1_chk69 (v1407 : BitVec 32) : Prop :=
  (∀ a, (k1_off172 v1407) a + S1x8192.size a ≤ S8192x8192.size a) ∧
  (∀ a, (k1_off174 v1407) a + S1x256.size a ≤ S8192x256.size a)
instance k1_chk69.dec : ∀ (v1407 : BitVec 32), Decidable (k1_chk69 v1407) := fun v1407 => decidable_of_iff' _ (Iff.of_eq (k1_chk69.eq_1 v1407))
theorem k1_off172_inb : ∀ (v1407 : BitVec 32) (k1_hw69 : k1_chk69 v1407), ∀ a, (k1_off172 v1407) a + S1x8192.size a ≤ S8192x8192.size a := fun v1407 k1_hw69 => k1_hw69.1
theorem k1_off174_inb : ∀ (v1407 : BitVec 32) (k1_hw69 : k1_chk69 v1407), ∀ a, (k1_off174 v1407) a + S1x256.size a ≤ S8192x256.size a := fun v1407 k1_hw69 => k1_hw69.2

def k1_off175 (v1410 : BitVec 32) : Fin 2 → Nat :=
  let v1429 : Index := Scalar.indexCast v1410
  let c0_807 : Index := 0#32
  ![v1429.toNat, 0]

def k1_chk70 (v1410 : BitVec 32) : Prop :=
  (∀ a, (k1_off173 v1410) a + S1x8192.size a ≤ S8192x8192.size a) ∧
  (∀ a, (k1_off175 v1410) a + S1x256.size a ≤ S8192x256.size a)
instance k1_chk70.dec : ∀ (v1410 : BitVec 32), Decidable (k1_chk70 v1410) := fun v1410 => decidable_of_iff' _ (Iff.of_eq (k1_chk70.eq_1 v1410))
theorem k1_off173_inb : ∀ (v1410 : BitVec 32) (k1_hw70 : k1_chk70 v1410), ∀ a, (k1_off173 v1410) a + S1x8192.size a ≤ S8192x8192.size a := fun v1410 k1_hw70 => k1_hw70.1
theorem k1_off175_inb : ∀ (v1410 : BitVec 32) (k1_hw70 : k1_chk70 v1410), ∀ a, (k1_off175 v1410) a + S1x256.size a ≤ S8192x256.size a := fun v1410 k1_hw70 => k1_hw70.2

def k1_off176 (i : grid1.Coords) : Fin 1 → Nat :=
  let arg0 : BitVec 32 := BitVec.ofNat 32 (i 0).val
  let c64_i32 : BitVec 32 := 64#32
  let v0 : BitVec 32 := Scalar.muli arg0 c64_i32
  let c35_i32 : BitVec 32 := 35#32
  let v1435 : BitVec 32 := Scalar.addi v0 c35_i32
  let v1436 : Index := Scalar.indexCast v1435
  ![v1436.toNat]
def k1_off177 (v1437 : BitVec 32) : Fin 2 → Nat :=
  let c0_i32_814 : BitVec 32 := 0#32
  ![v1437.toNat, 0]

def k1_off178 (v1440 : BitVec 32) : Fin 2 → Nat :=
  let c0_i32_818 : BitVec 32 := 0#32
  ![v1440.toNat, 0]

def k1_off179 (v1437 : BitVec 32) : Fin 2 → Nat :=
  let v1453 : Index := Scalar.indexCast v1437
  let c0_819 : Index := 0#32
  ![v1453.toNat, 0]

def k1_chk71 (v1437 : BitVec 32) : Prop :=
  (∀ a, (k1_off177 v1437) a + S1x8192.size a ≤ S8192x8192.size a) ∧
  (∀ a, (k1_off179 v1437) a + S1x256.size a ≤ S8192x256.size a)
instance k1_chk71.dec : ∀ (v1437 : BitVec 32), Decidable (k1_chk71 v1437) := fun v1437 => decidable_of_iff' _ (Iff.of_eq (k1_chk71.eq_1 v1437))
theorem k1_off177_inb : ∀ (v1437 : BitVec 32) (k1_hw71 : k1_chk71 v1437), ∀ a, (k1_off177 v1437) a + S1x8192.size a ≤ S8192x8192.size a := fun v1437 k1_hw71 => k1_hw71.1
theorem k1_off179_inb : ∀ (v1437 : BitVec 32) (k1_hw71 : k1_chk71 v1437), ∀ a, (k1_off179 v1437) a + S1x256.size a ≤ S8192x256.size a := fun v1437 k1_hw71 => k1_hw71.2

def k1_off180 (v1440 : BitVec 32) : Fin 2 → Nat :=
  let v1459 : Index := Scalar.indexCast v1440
  let c0_821 : Index := 0#32
  ![v1459.toNat, 0]

def k1_chk72 (v1440 : BitVec 32) : Prop :=
  (∀ a, (k1_off178 v1440) a + S1x8192.size a ≤ S8192x8192.size a) ∧
  (∀ a, (k1_off180 v1440) a + S1x256.size a ≤ S8192x256.size a)
instance k1_chk72.dec : ∀ (v1440 : BitVec 32), Decidable (k1_chk72 v1440) := fun v1440 => decidable_of_iff' _ (Iff.of_eq (k1_chk72.eq_1 v1440))
theorem k1_off178_inb : ∀ (v1440 : BitVec 32) (k1_hw72 : k1_chk72 v1440), ∀ a, (k1_off178 v1440) a + S1x8192.size a ≤ S8192x8192.size a := fun v1440 k1_hw72 => k1_hw72.1
theorem k1_off180_inb : ∀ (v1440 : BitVec 32) (k1_hw72 : k1_chk72 v1440), ∀ a, (k1_off180 v1440) a + S1x256.size a ≤ S8192x256.size a := fun v1440 k1_hw72 => k1_hw72.2

def k1_off181 (i : grid1.Coords) : Fin 1 → Nat :=
  let arg0 : BitVec 32 := BitVec.ofNat 32 (i 0).val
  let c64_i32 : BitVec 32 := 64#32
  let v0 : BitVec 32 := Scalar.muli arg0 c64_i32
  let c36_i32 : BitVec 32 := 36#32
  let v1465 : BitVec 32 := Scalar.addi v0 c36_i32
  let v1466 : Index := Scalar.indexCast v1465
  ![v1466.toNat]
def k1_off182 (v1467 : BitVec 32) : Fin 2 → Nat :=
  let c0_i32_828 : BitVec 32 := 0#32
  ![v1467.toNat, 0]

def k1_off183 (v1470 : BitVec 32) : Fin 2 → Nat :=
  let c0_i32_832 : BitVec 32 := 0#32
  ![v1470.toNat, 0]

def k1_off184 (v1467 : BitVec 32) : Fin 2 → Nat :=
  let v1483 : Index := Scalar.indexCast v1467
  let c0_833 : Index := 0#32
  ![v1483.toNat, 0]

def k1_chk73 (v1467 : BitVec 32) : Prop :=
  (∀ a, (k1_off182 v1467) a + S1x8192.size a ≤ S8192x8192.size a) ∧
  (∀ a, (k1_off184 v1467) a + S1x256.size a ≤ S8192x256.size a)
instance k1_chk73.dec : ∀ (v1467 : BitVec 32), Decidable (k1_chk73 v1467) := fun v1467 => decidable_of_iff' _ (Iff.of_eq (k1_chk73.eq_1 v1467))
theorem k1_off182_inb : ∀ (v1467 : BitVec 32) (k1_hw73 : k1_chk73 v1467), ∀ a, (k1_off182 v1467) a + S1x8192.size a ≤ S8192x8192.size a := fun v1467 k1_hw73 => k1_hw73.1
theorem k1_off184_inb : ∀ (v1467 : BitVec 32) (k1_hw73 : k1_chk73 v1467), ∀ a, (k1_off184 v1467) a + S1x256.size a ≤ S8192x256.size a := fun v1467 k1_hw73 => k1_hw73.2

def k1_off185 (v1470 : BitVec 32) : Fin 2 → Nat :=
  let v1489 : Index := Scalar.indexCast v1470
  let c0_835 : Index := 0#32
  ![v1489.toNat, 0]

def k1_chk74 (v1470 : BitVec 32) : Prop :=
  (∀ a, (k1_off183 v1470) a + S1x8192.size a ≤ S8192x8192.size a) ∧
  (∀ a, (k1_off185 v1470) a + S1x256.size a ≤ S8192x256.size a)
instance k1_chk74.dec : ∀ (v1470 : BitVec 32), Decidable (k1_chk74 v1470) := fun v1470 => decidable_of_iff' _ (Iff.of_eq (k1_chk74.eq_1 v1470))
theorem k1_off183_inb : ∀ (v1470 : BitVec 32) (k1_hw74 : k1_chk74 v1470), ∀ a, (k1_off183 v1470) a + S1x8192.size a ≤ S8192x8192.size a := fun v1470 k1_hw74 => k1_hw74.1
theorem k1_off185_inb : ∀ (v1470 : BitVec 32) (k1_hw74 : k1_chk74 v1470), ∀ a, (k1_off185 v1470) a + S1x256.size a ≤ S8192x256.size a := fun v1470 k1_hw74 => k1_hw74.2

def k1_off186 (i : grid1.Coords) : Fin 1 → Nat :=
  let arg0 : BitVec 32 := BitVec.ofNat 32 (i 0).val
  let c64_i32 : BitVec 32 := 64#32
  let v0 : BitVec 32 := Scalar.muli arg0 c64_i32
  let c37_i32 : BitVec 32 := 37#32
  let v1495 : BitVec 32 := Scalar.addi v0 c37_i32
  let v1496 : Index := Scalar.indexCast v1495
  ![v1496.toNat]
def k1_off187 (v1497 : BitVec 32) : Fin 2 → Nat :=
  let c0_i32_842 : BitVec 32 := 0#32
  ![v1497.toNat, 0]

def k1_off188 (v1500 : BitVec 32) : Fin 2 → Nat :=
  let c0_i32_846 : BitVec 32 := 0#32
  ![v1500.toNat, 0]

def k1_off189 (v1497 : BitVec 32) : Fin 2 → Nat :=
  let v1513 : Index := Scalar.indexCast v1497
  let c0_847 : Index := 0#32
  ![v1513.toNat, 0]

def k1_chk75 (v1497 : BitVec 32) : Prop :=
  (∀ a, (k1_off187 v1497) a + S1x8192.size a ≤ S8192x8192.size a) ∧
  (∀ a, (k1_off189 v1497) a + S1x256.size a ≤ S8192x256.size a)
instance k1_chk75.dec : ∀ (v1497 : BitVec 32), Decidable (k1_chk75 v1497) := fun v1497 => decidable_of_iff' _ (Iff.of_eq (k1_chk75.eq_1 v1497))
theorem k1_off187_inb : ∀ (v1497 : BitVec 32) (k1_hw75 : k1_chk75 v1497), ∀ a, (k1_off187 v1497) a + S1x8192.size a ≤ S8192x8192.size a := fun v1497 k1_hw75 => k1_hw75.1
theorem k1_off189_inb : ∀ (v1497 : BitVec 32) (k1_hw75 : k1_chk75 v1497), ∀ a, (k1_off189 v1497) a + S1x256.size a ≤ S8192x256.size a := fun v1497 k1_hw75 => k1_hw75.2

def k1_off190 (v1500 : BitVec 32) : Fin 2 → Nat :=
  let v1519 : Index := Scalar.indexCast v1500
  let c0_849 : Index := 0#32
  ![v1519.toNat, 0]

def k1_chk76 (v1500 : BitVec 32) : Prop :=
  (∀ a, (k1_off188 v1500) a + S1x8192.size a ≤ S8192x8192.size a) ∧
  (∀ a, (k1_off190 v1500) a + S1x256.size a ≤ S8192x256.size a)
instance k1_chk76.dec : ∀ (v1500 : BitVec 32), Decidable (k1_chk76 v1500) := fun v1500 => decidable_of_iff' _ (Iff.of_eq (k1_chk76.eq_1 v1500))
theorem k1_off188_inb : ∀ (v1500 : BitVec 32) (k1_hw76 : k1_chk76 v1500), ∀ a, (k1_off188 v1500) a + S1x8192.size a ≤ S8192x8192.size a := fun v1500 k1_hw76 => k1_hw76.1
theorem k1_off190_inb : ∀ (v1500 : BitVec 32) (k1_hw76 : k1_chk76 v1500), ∀ a, (k1_off190 v1500) a + S1x256.size a ≤ S8192x256.size a := fun v1500 k1_hw76 => k1_hw76.2

def k1_off191 (i : grid1.Coords) : Fin 1 → Nat :=
  let arg0 : BitVec 32 := BitVec.ofNat 32 (i 0).val
  let c64_i32 : BitVec 32 := 64#32
  let v0 : BitVec 32 := Scalar.muli arg0 c64_i32
  let c38_i32 : BitVec 32 := 38#32
  let v1525 : BitVec 32 := Scalar.addi v0 c38_i32
  let v1526 : Index := Scalar.indexCast v1525
  ![v1526.toNat]
def k1_off192 (v1527 : BitVec 32) : Fin 2 → Nat :=
  let c0_i32_856 : BitVec 32 := 0#32
  ![v1527.toNat, 0]

def k1_off193 (v1530 : BitVec 32) : Fin 2 → Nat :=
  let c0_i32_860 : BitVec 32 := 0#32
  ![v1530.toNat, 0]

def k1_off194 (v1527 : BitVec 32) : Fin 2 → Nat :=
  let v1543 : Index := Scalar.indexCast v1527
  let c0_861 : Index := 0#32
  ![v1543.toNat, 0]

def k1_chk77 (v1527 : BitVec 32) : Prop :=
  (∀ a, (k1_off192 v1527) a + S1x8192.size a ≤ S8192x8192.size a) ∧
  (∀ a, (k1_off194 v1527) a + S1x256.size a ≤ S8192x256.size a)
instance k1_chk77.dec : ∀ (v1527 : BitVec 32), Decidable (k1_chk77 v1527) := fun v1527 => decidable_of_iff' _ (Iff.of_eq (k1_chk77.eq_1 v1527))
theorem k1_off192_inb : ∀ (v1527 : BitVec 32) (k1_hw77 : k1_chk77 v1527), ∀ a, (k1_off192 v1527) a + S1x8192.size a ≤ S8192x8192.size a := fun v1527 k1_hw77 => k1_hw77.1
theorem k1_off194_inb : ∀ (v1527 : BitVec 32) (k1_hw77 : k1_chk77 v1527), ∀ a, (k1_off194 v1527) a + S1x256.size a ≤ S8192x256.size a := fun v1527 k1_hw77 => k1_hw77.2

def k1_off195 (v1530 : BitVec 32) : Fin 2 → Nat :=
  let v1549 : Index := Scalar.indexCast v1530
  let c0_863 : Index := 0#32
  ![v1549.toNat, 0]

def k1_chk78 (v1530 : BitVec 32) : Prop :=
  (∀ a, (k1_off193 v1530) a + S1x8192.size a ≤ S8192x8192.size a) ∧
  (∀ a, (k1_off195 v1530) a + S1x256.size a ≤ S8192x256.size a)
instance k1_chk78.dec : ∀ (v1530 : BitVec 32), Decidable (k1_chk78 v1530) := fun v1530 => decidable_of_iff' _ (Iff.of_eq (k1_chk78.eq_1 v1530))
theorem k1_off193_inb : ∀ (v1530 : BitVec 32) (k1_hw78 : k1_chk78 v1530), ∀ a, (k1_off193 v1530) a + S1x8192.size a ≤ S8192x8192.size a := fun v1530 k1_hw78 => k1_hw78.1
theorem k1_off195_inb : ∀ (v1530 : BitVec 32) (k1_hw78 : k1_chk78 v1530), ∀ a, (k1_off195 v1530) a + S1x256.size a ≤ S8192x256.size a := fun v1530 k1_hw78 => k1_hw78.2

def k1_off196 (i : grid1.Coords) : Fin 1 → Nat :=
  let arg0 : BitVec 32 := BitVec.ofNat 32 (i 0).val
  let c64_i32 : BitVec 32 := 64#32
  let v0 : BitVec 32 := Scalar.muli arg0 c64_i32
  let c39_i32 : BitVec 32 := 39#32
  let v1555 : BitVec 32 := Scalar.addi v0 c39_i32
  let v1556 : Index := Scalar.indexCast v1555
  ![v1556.toNat]
def k1_off197 (v1557 : BitVec 32) : Fin 2 → Nat :=
  let c0_i32_870 : BitVec 32 := 0#32
  ![v1557.toNat, 0]

def k1_off198 (v1560 : BitVec 32) : Fin 2 → Nat :=
  let c0_i32_874 : BitVec 32 := 0#32
  ![v1560.toNat, 0]

def k1_off199 (v1557 : BitVec 32) : Fin 2 → Nat :=
  let v1573 : Index := Scalar.indexCast v1557
  let c0_875 : Index := 0#32
  ![v1573.toNat, 0]

def k1_chk79 (v1557 : BitVec 32) : Prop :=
  (∀ a, (k1_off197 v1557) a + S1x8192.size a ≤ S8192x8192.size a) ∧
  (∀ a, (k1_off199 v1557) a + S1x256.size a ≤ S8192x256.size a)
instance k1_chk79.dec : ∀ (v1557 : BitVec 32), Decidable (k1_chk79 v1557) := fun v1557 => decidable_of_iff' _ (Iff.of_eq (k1_chk79.eq_1 v1557))
theorem k1_off197_inb : ∀ (v1557 : BitVec 32) (k1_hw79 : k1_chk79 v1557), ∀ a, (k1_off197 v1557) a + S1x8192.size a ≤ S8192x8192.size a := fun v1557 k1_hw79 => k1_hw79.1
theorem k1_off199_inb : ∀ (v1557 : BitVec 32) (k1_hw79 : k1_chk79 v1557), ∀ a, (k1_off199 v1557) a + S1x256.size a ≤ S8192x256.size a := fun v1557 k1_hw79 => k1_hw79.2

def k1_off200 (v1560 : BitVec 32) : Fin 2 → Nat :=
  let v1579 : Index := Scalar.indexCast v1560
  let c0_877 : Index := 0#32
  ![v1579.toNat, 0]

def k1_chk80 (v1560 : BitVec 32) : Prop :=
  (∀ a, (k1_off198 v1560) a + S1x8192.size a ≤ S8192x8192.size a) ∧
  (∀ a, (k1_off200 v1560) a + S1x256.size a ≤ S8192x256.size a)
instance k1_chk80.dec : ∀ (v1560 : BitVec 32), Decidable (k1_chk80 v1560) := fun v1560 => decidable_of_iff' _ (Iff.of_eq (k1_chk80.eq_1 v1560))
theorem k1_off198_inb : ∀ (v1560 : BitVec 32) (k1_hw80 : k1_chk80 v1560), ∀ a, (k1_off198 v1560) a + S1x8192.size a ≤ S8192x8192.size a := fun v1560 k1_hw80 => k1_hw80.1
theorem k1_off200_inb : ∀ (v1560 : BitVec 32) (k1_hw80 : k1_chk80 v1560), ∀ a, (k1_off200 v1560) a + S1x256.size a ≤ S8192x256.size a := fun v1560 k1_hw80 => k1_hw80.2

def k1_off201 (i : grid1.Coords) : Fin 1 → Nat :=
  let arg0 : BitVec 32 := BitVec.ofNat 32 (i 0).val
  let c64_i32 : BitVec 32 := 64#32
  let v0 : BitVec 32 := Scalar.muli arg0 c64_i32
  let c40_i32 : BitVec 32 := 40#32
  let v1585 : BitVec 32 := Scalar.addi v0 c40_i32
  let v1586 : Index := Scalar.indexCast v1585
  ![v1586.toNat]
def k1_off202 (v1587 : BitVec 32) : Fin 2 → Nat :=
  let c0_i32_884 : BitVec 32 := 0#32
  ![v1587.toNat, 0]

def k1_off203 (v1590 : BitVec 32) : Fin 2 → Nat :=
  let c0_i32_888 : BitVec 32 := 0#32
  ![v1590.toNat, 0]

def k1_off204 (v1587 : BitVec 32) : Fin 2 → Nat :=
  let v1603 : Index := Scalar.indexCast v1587
  let c0_889 : Index := 0#32
  ![v1603.toNat, 0]

def k1_chk81 (v1587 : BitVec 32) : Prop :=
  (∀ a, (k1_off202 v1587) a + S1x8192.size a ≤ S8192x8192.size a) ∧
  (∀ a, (k1_off204 v1587) a + S1x256.size a ≤ S8192x256.size a)
instance k1_chk81.dec : ∀ (v1587 : BitVec 32), Decidable (k1_chk81 v1587) := fun v1587 => decidable_of_iff' _ (Iff.of_eq (k1_chk81.eq_1 v1587))
theorem k1_off202_inb : ∀ (v1587 : BitVec 32) (k1_hw81 : k1_chk81 v1587), ∀ a, (k1_off202 v1587) a + S1x8192.size a ≤ S8192x8192.size a := fun v1587 k1_hw81 => k1_hw81.1
theorem k1_off204_inb : ∀ (v1587 : BitVec 32) (k1_hw81 : k1_chk81 v1587), ∀ a, (k1_off204 v1587) a + S1x256.size a ≤ S8192x256.size a := fun v1587 k1_hw81 => k1_hw81.2

def k1_off205 (v1590 : BitVec 32) : Fin 2 → Nat :=
  let v1609 : Index := Scalar.indexCast v1590
  let c0_891 : Index := 0#32
  ![v1609.toNat, 0]

def k1_chk82 (v1590 : BitVec 32) : Prop :=
  (∀ a, (k1_off203 v1590) a + S1x8192.size a ≤ S8192x8192.size a) ∧
  (∀ a, (k1_off205 v1590) a + S1x256.size a ≤ S8192x256.size a)
instance k1_chk82.dec : ∀ (v1590 : BitVec 32), Decidable (k1_chk82 v1590) := fun v1590 => decidable_of_iff' _ (Iff.of_eq (k1_chk82.eq_1 v1590))
theorem k1_off203_inb : ∀ (v1590 : BitVec 32) (k1_hw82 : k1_chk82 v1590), ∀ a, (k1_off203 v1590) a + S1x8192.size a ≤ S8192x8192.size a := fun v1590 k1_hw82 => k1_hw82.1
theorem k1_off205_inb : ∀ (v1590 : BitVec 32) (k1_hw82 : k1_chk82 v1590), ∀ a, (k1_off205 v1590) a + S1x256.size a ≤ S8192x256.size a := fun v1590 k1_hw82 => k1_hw82.2

def k1_off206 (i : grid1.Coords) : Fin 1 → Nat :=
  let arg0 : BitVec 32 := BitVec.ofNat 32 (i 0).val
  let c64_i32 : BitVec 32 := 64#32
  let v0 : BitVec 32 := Scalar.muli arg0 c64_i32
  let c41_i32 : BitVec 32 := 41#32
  let v1615 : BitVec 32 := Scalar.addi v0 c41_i32
  let v1616 : Index := Scalar.indexCast v1615
  ![v1616.toNat]
def k1_off207 (v1617 : BitVec 32) : Fin 2 → Nat :=
  let c0_i32_898 : BitVec 32 := 0#32
  ![v1617.toNat, 0]

def k1_off208 (v1620 : BitVec 32) : Fin 2 → Nat :=
  let c0_i32_902 : BitVec 32 := 0#32
  ![v1620.toNat, 0]

def k1_off209 (v1617 : BitVec 32) : Fin 2 → Nat :=
  let v1633 : Index := Scalar.indexCast v1617
  let c0_903 : Index := 0#32
  ![v1633.toNat, 0]

def k1_chk83 (v1617 : BitVec 32) : Prop :=
  (∀ a, (k1_off207 v1617) a + S1x8192.size a ≤ S8192x8192.size a) ∧
  (∀ a, (k1_off209 v1617) a + S1x256.size a ≤ S8192x256.size a)
instance k1_chk83.dec : ∀ (v1617 : BitVec 32), Decidable (k1_chk83 v1617) := fun v1617 => decidable_of_iff' _ (Iff.of_eq (k1_chk83.eq_1 v1617))
theorem k1_off207_inb : ∀ (v1617 : BitVec 32) (k1_hw83 : k1_chk83 v1617), ∀ a, (k1_off207 v1617) a + S1x8192.size a ≤ S8192x8192.size a := fun v1617 k1_hw83 => k1_hw83.1
theorem k1_off209_inb : ∀ (v1617 : BitVec 32) (k1_hw83 : k1_chk83 v1617), ∀ a, (k1_off209 v1617) a + S1x256.size a ≤ S8192x256.size a := fun v1617 k1_hw83 => k1_hw83.2

def k1_off210 (v1620 : BitVec 32) : Fin 2 → Nat :=
  let v1639 : Index := Scalar.indexCast v1620
  let c0_905 : Index := 0#32
  ![v1639.toNat, 0]

def k1_chk84 (v1620 : BitVec 32) : Prop :=
  (∀ a, (k1_off208 v1620) a + S1x8192.size a ≤ S8192x8192.size a) ∧
  (∀ a, (k1_off210 v1620) a + S1x256.size a ≤ S8192x256.size a)
instance k1_chk84.dec : ∀ (v1620 : BitVec 32), Decidable (k1_chk84 v1620) := fun v1620 => decidable_of_iff' _ (Iff.of_eq (k1_chk84.eq_1 v1620))
theorem k1_off208_inb : ∀ (v1620 : BitVec 32) (k1_hw84 : k1_chk84 v1620), ∀ a, (k1_off208 v1620) a + S1x8192.size a ≤ S8192x8192.size a := fun v1620 k1_hw84 => k1_hw84.1
theorem k1_off210_inb : ∀ (v1620 : BitVec 32) (k1_hw84 : k1_chk84 v1620), ∀ a, (k1_off210 v1620) a + S1x256.size a ≤ S8192x256.size a := fun v1620 k1_hw84 => k1_hw84.2

def k1_off211 (i : grid1.Coords) : Fin 1 → Nat :=
  let arg0 : BitVec 32 := BitVec.ofNat 32 (i 0).val
  let c64_i32 : BitVec 32 := 64#32
  let v0 : BitVec 32 := Scalar.muli arg0 c64_i32
  let c42_i32 : BitVec 32 := 42#32
  let v1645 : BitVec 32 := Scalar.addi v0 c42_i32
  let v1646 : Index := Scalar.indexCast v1645
  ![v1646.toNat]
def k1_off212 (v1647 : BitVec 32) : Fin 2 → Nat :=
  let c0_i32_912 : BitVec 32 := 0#32
  ![v1647.toNat, 0]

def k1_off213 (v1650 : BitVec 32) : Fin 2 → Nat :=
  let c0_i32_916 : BitVec 32 := 0#32
  ![v1650.toNat, 0]

def k1_off214 (v1647 : BitVec 32) : Fin 2 → Nat :=
  let v1663 : Index := Scalar.indexCast v1647
  let c0_917 : Index := 0#32
  ![v1663.toNat, 0]

def k1_chk85 (v1647 : BitVec 32) : Prop :=
  (∀ a, (k1_off212 v1647) a + S1x8192.size a ≤ S8192x8192.size a) ∧
  (∀ a, (k1_off214 v1647) a + S1x256.size a ≤ S8192x256.size a)
instance k1_chk85.dec : ∀ (v1647 : BitVec 32), Decidable (k1_chk85 v1647) := fun v1647 => decidable_of_iff' _ (Iff.of_eq (k1_chk85.eq_1 v1647))
theorem k1_off212_inb : ∀ (v1647 : BitVec 32) (k1_hw85 : k1_chk85 v1647), ∀ a, (k1_off212 v1647) a + S1x8192.size a ≤ S8192x8192.size a := fun v1647 k1_hw85 => k1_hw85.1
theorem k1_off214_inb : ∀ (v1647 : BitVec 32) (k1_hw85 : k1_chk85 v1647), ∀ a, (k1_off214 v1647) a + S1x256.size a ≤ S8192x256.size a := fun v1647 k1_hw85 => k1_hw85.2

def k1_off215 (v1650 : BitVec 32) : Fin 2 → Nat :=
  let v1669 : Index := Scalar.indexCast v1650
  let c0_919 : Index := 0#32
  ![v1669.toNat, 0]

def k1_chk86 (v1650 : BitVec 32) : Prop :=
  (∀ a, (k1_off213 v1650) a + S1x8192.size a ≤ S8192x8192.size a) ∧
  (∀ a, (k1_off215 v1650) a + S1x256.size a ≤ S8192x256.size a)
instance k1_chk86.dec : ∀ (v1650 : BitVec 32), Decidable (k1_chk86 v1650) := fun v1650 => decidable_of_iff' _ (Iff.of_eq (k1_chk86.eq_1 v1650))
theorem k1_off213_inb : ∀ (v1650 : BitVec 32) (k1_hw86 : k1_chk86 v1650), ∀ a, (k1_off213 v1650) a + S1x8192.size a ≤ S8192x8192.size a := fun v1650 k1_hw86 => k1_hw86.1
theorem k1_off215_inb : ∀ (v1650 : BitVec 32) (k1_hw86 : k1_chk86 v1650), ∀ a, (k1_off215 v1650) a + S1x256.size a ≤ S8192x256.size a := fun v1650 k1_hw86 => k1_hw86.2

def k1_off216 (i : grid1.Coords) : Fin 1 → Nat :=
  let arg0 : BitVec 32 := BitVec.ofNat 32 (i 0).val
  let c64_i32 : BitVec 32 := 64#32
  let v0 : BitVec 32 := Scalar.muli arg0 c64_i32
  let c43_i32 : BitVec 32 := 43#32
  let v1675 : BitVec 32 := Scalar.addi v0 c43_i32
  let v1676 : Index := Scalar.indexCast v1675
  ![v1676.toNat]
def k1_off217 (v1677 : BitVec 32) : Fin 2 → Nat :=
  let c0_i32_926 : BitVec 32 := 0#32
  ![v1677.toNat, 0]

def k1_off218 (v1680 : BitVec 32) : Fin 2 → Nat :=
  let c0_i32_930 : BitVec 32 := 0#32
  ![v1680.toNat, 0]

def k1_off219 (v1677 : BitVec 32) : Fin 2 → Nat :=
  let v1693 : Index := Scalar.indexCast v1677
  let c0_931 : Index := 0#32
  ![v1693.toNat, 0]

def k1_chk87 (v1677 : BitVec 32) : Prop :=
  (∀ a, (k1_off217 v1677) a + S1x8192.size a ≤ S8192x8192.size a) ∧
  (∀ a, (k1_off219 v1677) a + S1x256.size a ≤ S8192x256.size a)
instance k1_chk87.dec : ∀ (v1677 : BitVec 32), Decidable (k1_chk87 v1677) := fun v1677 => decidable_of_iff' _ (Iff.of_eq (k1_chk87.eq_1 v1677))
theorem k1_off217_inb : ∀ (v1677 : BitVec 32) (k1_hw87 : k1_chk87 v1677), ∀ a, (k1_off217 v1677) a + S1x8192.size a ≤ S8192x8192.size a := fun v1677 k1_hw87 => k1_hw87.1
theorem k1_off219_inb : ∀ (v1677 : BitVec 32) (k1_hw87 : k1_chk87 v1677), ∀ a, (k1_off219 v1677) a + S1x256.size a ≤ S8192x256.size a := fun v1677 k1_hw87 => k1_hw87.2

def k1_off220 (v1680 : BitVec 32) : Fin 2 → Nat :=
  let v1699 : Index := Scalar.indexCast v1680
  let c0_933 : Index := 0#32
  ![v1699.toNat, 0]

def k1_chk88 (v1680 : BitVec 32) : Prop :=
  (∀ a, (k1_off218 v1680) a + S1x8192.size a ≤ S8192x8192.size a) ∧
  (∀ a, (k1_off220 v1680) a + S1x256.size a ≤ S8192x256.size a)
instance k1_chk88.dec : ∀ (v1680 : BitVec 32), Decidable (k1_chk88 v1680) := fun v1680 => decidable_of_iff' _ (Iff.of_eq (k1_chk88.eq_1 v1680))
theorem k1_off218_inb : ∀ (v1680 : BitVec 32) (k1_hw88 : k1_chk88 v1680), ∀ a, (k1_off218 v1680) a + S1x8192.size a ≤ S8192x8192.size a := fun v1680 k1_hw88 => k1_hw88.1
theorem k1_off220_inb : ∀ (v1680 : BitVec 32) (k1_hw88 : k1_chk88 v1680), ∀ a, (k1_off220 v1680) a + S1x256.size a ≤ S8192x256.size a := fun v1680 k1_hw88 => k1_hw88.2

def k1_off221 (i : grid1.Coords) : Fin 1 → Nat :=
  let arg0 : BitVec 32 := BitVec.ofNat 32 (i 0).val
  let c64_i32 : BitVec 32 := 64#32
  let v0 : BitVec 32 := Scalar.muli arg0 c64_i32
  let c44_i32 : BitVec 32 := 44#32
  let v1705 : BitVec 32 := Scalar.addi v0 c44_i32
  let v1706 : Index := Scalar.indexCast v1705
  ![v1706.toNat]
def k1_off222 (v1707 : BitVec 32) : Fin 2 → Nat :=
  let c0_i32_940 : BitVec 32 := 0#32
  ![v1707.toNat, 0]

def k1_off223 (v1710 : BitVec 32) : Fin 2 → Nat :=
  let c0_i32_944 : BitVec 32 := 0#32
  ![v1710.toNat, 0]

def k1_off224 (v1707 : BitVec 32) : Fin 2 → Nat :=
  let v1723 : Index := Scalar.indexCast v1707
  let c0_945 : Index := 0#32
  ![v1723.toNat, 0]

def k1_chk89 (v1707 : BitVec 32) : Prop :=
  (∀ a, (k1_off222 v1707) a + S1x8192.size a ≤ S8192x8192.size a) ∧
  (∀ a, (k1_off224 v1707) a + S1x256.size a ≤ S8192x256.size a)
instance k1_chk89.dec : ∀ (v1707 : BitVec 32), Decidable (k1_chk89 v1707) := fun v1707 => decidable_of_iff' _ (Iff.of_eq (k1_chk89.eq_1 v1707))
theorem k1_off222_inb : ∀ (v1707 : BitVec 32) (k1_hw89 : k1_chk89 v1707), ∀ a, (k1_off222 v1707) a + S1x8192.size a ≤ S8192x8192.size a := fun v1707 k1_hw89 => k1_hw89.1
theorem k1_off224_inb : ∀ (v1707 : BitVec 32) (k1_hw89 : k1_chk89 v1707), ∀ a, (k1_off224 v1707) a + S1x256.size a ≤ S8192x256.size a := fun v1707 k1_hw89 => k1_hw89.2

def k1_off225 (v1710 : BitVec 32) : Fin 2 → Nat :=
  let v1729 : Index := Scalar.indexCast v1710
  let c0_947 : Index := 0#32
  ![v1729.toNat, 0]

def k1_chk90 (v1710 : BitVec 32) : Prop :=
  (∀ a, (k1_off223 v1710) a + S1x8192.size a ≤ S8192x8192.size a) ∧
  (∀ a, (k1_off225 v1710) a + S1x256.size a ≤ S8192x256.size a)
instance k1_chk90.dec : ∀ (v1710 : BitVec 32), Decidable (k1_chk90 v1710) := fun v1710 => decidable_of_iff' _ (Iff.of_eq (k1_chk90.eq_1 v1710))
theorem k1_off223_inb : ∀ (v1710 : BitVec 32) (k1_hw90 : k1_chk90 v1710), ∀ a, (k1_off223 v1710) a + S1x8192.size a ≤ S8192x8192.size a := fun v1710 k1_hw90 => k1_hw90.1
theorem k1_off225_inb : ∀ (v1710 : BitVec 32) (k1_hw90 : k1_chk90 v1710), ∀ a, (k1_off225 v1710) a + S1x256.size a ≤ S8192x256.size a := fun v1710 k1_hw90 => k1_hw90.2

def k1_off226 (i : grid1.Coords) : Fin 1 → Nat :=
  let arg0 : BitVec 32 := BitVec.ofNat 32 (i 0).val
  let c64_i32 : BitVec 32 := 64#32
  let v0 : BitVec 32 := Scalar.muli arg0 c64_i32
  let c45_i32 : BitVec 32 := 45#32
  let v1735 : BitVec 32 := Scalar.addi v0 c45_i32
  let v1736 : Index := Scalar.indexCast v1735
  ![v1736.toNat]
def k1_off227 (v1737 : BitVec 32) : Fin 2 → Nat :=
  let c0_i32_954 : BitVec 32 := 0#32
  ![v1737.toNat, 0]

def k1_off228 (v1740 : BitVec 32) : Fin 2 → Nat :=
  let c0_i32_958 : BitVec 32 := 0#32
  ![v1740.toNat, 0]

def k1_off229 (v1737 : BitVec 32) : Fin 2 → Nat :=
  let v1753 : Index := Scalar.indexCast v1737
  let c0_959 : Index := 0#32
  ![v1753.toNat, 0]

def k1_chk91 (v1737 : BitVec 32) : Prop :=
  (∀ a, (k1_off227 v1737) a + S1x8192.size a ≤ S8192x8192.size a) ∧
  (∀ a, (k1_off229 v1737) a + S1x256.size a ≤ S8192x256.size a)
instance k1_chk91.dec : ∀ (v1737 : BitVec 32), Decidable (k1_chk91 v1737) := fun v1737 => decidable_of_iff' _ (Iff.of_eq (k1_chk91.eq_1 v1737))
theorem k1_off227_inb : ∀ (v1737 : BitVec 32) (k1_hw91 : k1_chk91 v1737), ∀ a, (k1_off227 v1737) a + S1x8192.size a ≤ S8192x8192.size a := fun v1737 k1_hw91 => k1_hw91.1
theorem k1_off229_inb : ∀ (v1737 : BitVec 32) (k1_hw91 : k1_chk91 v1737), ∀ a, (k1_off229 v1737) a + S1x256.size a ≤ S8192x256.size a := fun v1737 k1_hw91 => k1_hw91.2

def k1_off230 (v1740 : BitVec 32) : Fin 2 → Nat :=
  let v1759 : Index := Scalar.indexCast v1740
  let c0_961 : Index := 0#32
  ![v1759.toNat, 0]

def k1_chk92 (v1740 : BitVec 32) : Prop :=
  (∀ a, (k1_off228 v1740) a + S1x8192.size a ≤ S8192x8192.size a) ∧
  (∀ a, (k1_off230 v1740) a + S1x256.size a ≤ S8192x256.size a)
instance k1_chk92.dec : ∀ (v1740 : BitVec 32), Decidable (k1_chk92 v1740) := fun v1740 => decidable_of_iff' _ (Iff.of_eq (k1_chk92.eq_1 v1740))
theorem k1_off228_inb : ∀ (v1740 : BitVec 32) (k1_hw92 : k1_chk92 v1740), ∀ a, (k1_off228 v1740) a + S1x8192.size a ≤ S8192x8192.size a := fun v1740 k1_hw92 => k1_hw92.1
theorem k1_off230_inb : ∀ (v1740 : BitVec 32) (k1_hw92 : k1_chk92 v1740), ∀ a, (k1_off230 v1740) a + S1x256.size a ≤ S8192x256.size a := fun v1740 k1_hw92 => k1_hw92.2

def k1_off231 (i : grid1.Coords) : Fin 1 → Nat :=
  let arg0 : BitVec 32 := BitVec.ofNat 32 (i 0).val
  let c64_i32 : BitVec 32 := 64#32
  let v0 : BitVec 32 := Scalar.muli arg0 c64_i32
  let c46_i32 : BitVec 32 := 46#32
  let v1765 : BitVec 32 := Scalar.addi v0 c46_i32
  let v1766 : Index := Scalar.indexCast v1765
  ![v1766.toNat]
def k1_off232 (v1767 : BitVec 32) : Fin 2 → Nat :=
  let c0_i32_968 : BitVec 32 := 0#32
  ![v1767.toNat, 0]

def k1_off233 (v1770 : BitVec 32) : Fin 2 → Nat :=
  let c0_i32_972 : BitVec 32 := 0#32
  ![v1770.toNat, 0]

def k1_off234 (v1767 : BitVec 32) : Fin 2 → Nat :=
  let v1783 : Index := Scalar.indexCast v1767
  let c0_973 : Index := 0#32
  ![v1783.toNat, 0]

def k1_chk93 (v1767 : BitVec 32) : Prop :=
  (∀ a, (k1_off232 v1767) a + S1x8192.size a ≤ S8192x8192.size a) ∧
  (∀ a, (k1_off234 v1767) a + S1x256.size a ≤ S8192x256.size a)
instance k1_chk93.dec : ∀ (v1767 : BitVec 32), Decidable (k1_chk93 v1767) := fun v1767 => decidable_of_iff' _ (Iff.of_eq (k1_chk93.eq_1 v1767))
theorem k1_off232_inb : ∀ (v1767 : BitVec 32) (k1_hw93 : k1_chk93 v1767), ∀ a, (k1_off232 v1767) a + S1x8192.size a ≤ S8192x8192.size a := fun v1767 k1_hw93 => k1_hw93.1
theorem k1_off234_inb : ∀ (v1767 : BitVec 32) (k1_hw93 : k1_chk93 v1767), ∀ a, (k1_off234 v1767) a + S1x256.size a ≤ S8192x256.size a := fun v1767 k1_hw93 => k1_hw93.2

def k1_off235 (v1770 : BitVec 32) : Fin 2 → Nat :=
  let v1789 : Index := Scalar.indexCast v1770
  let c0_975 : Index := 0#32
  ![v1789.toNat, 0]

def k1_chk94 (v1770 : BitVec 32) : Prop :=
  (∀ a, (k1_off233 v1770) a + S1x8192.size a ≤ S8192x8192.size a) ∧
  (∀ a, (k1_off235 v1770) a + S1x256.size a ≤ S8192x256.size a)
instance k1_chk94.dec : ∀ (v1770 : BitVec 32), Decidable (k1_chk94 v1770) := fun v1770 => decidable_of_iff' _ (Iff.of_eq (k1_chk94.eq_1 v1770))
theorem k1_off233_inb : ∀ (v1770 : BitVec 32) (k1_hw94 : k1_chk94 v1770), ∀ a, (k1_off233 v1770) a + S1x8192.size a ≤ S8192x8192.size a := fun v1770 k1_hw94 => k1_hw94.1
theorem k1_off235_inb : ∀ (v1770 : BitVec 32) (k1_hw94 : k1_chk94 v1770), ∀ a, (k1_off235 v1770) a + S1x256.size a ≤ S8192x256.size a := fun v1770 k1_hw94 => k1_hw94.2

def k1_off236 (i : grid1.Coords) : Fin 1 → Nat :=
  let arg0 : BitVec 32 := BitVec.ofNat 32 (i 0).val
  let c64_i32 : BitVec 32 := 64#32
  let v0 : BitVec 32 := Scalar.muli arg0 c64_i32
  let c47_i32 : BitVec 32 := 47#32
  let v1795 : BitVec 32 := Scalar.addi v0 c47_i32
  let v1796 : Index := Scalar.indexCast v1795
  ![v1796.toNat]
def k1_off237 (v1797 : BitVec 32) : Fin 2 → Nat :=
  let c0_i32_982 : BitVec 32 := 0#32
  ![v1797.toNat, 0]

def k1_off238 (v1800 : BitVec 32) : Fin 2 → Nat :=
  let c0_i32_986 : BitVec 32 := 0#32
  ![v1800.toNat, 0]

def k1_off239 (v1797 : BitVec 32) : Fin 2 → Nat :=
  let v1813 : Index := Scalar.indexCast v1797
  let c0_987 : Index := 0#32
  ![v1813.toNat, 0]

def k1_chk95 (v1797 : BitVec 32) : Prop :=
  (∀ a, (k1_off237 v1797) a + S1x8192.size a ≤ S8192x8192.size a) ∧
  (∀ a, (k1_off239 v1797) a + S1x256.size a ≤ S8192x256.size a)
instance k1_chk95.dec : ∀ (v1797 : BitVec 32), Decidable (k1_chk95 v1797) := fun v1797 => decidable_of_iff' _ (Iff.of_eq (k1_chk95.eq_1 v1797))
theorem k1_off237_inb : ∀ (v1797 : BitVec 32) (k1_hw95 : k1_chk95 v1797), ∀ a, (k1_off237 v1797) a + S1x8192.size a ≤ S8192x8192.size a := fun v1797 k1_hw95 => k1_hw95.1
theorem k1_off239_inb : ∀ (v1797 : BitVec 32) (k1_hw95 : k1_chk95 v1797), ∀ a, (k1_off239 v1797) a + S1x256.size a ≤ S8192x256.size a := fun v1797 k1_hw95 => k1_hw95.2

def k1_off240 (v1800 : BitVec 32) : Fin 2 → Nat :=
  let v1819 : Index := Scalar.indexCast v1800
  let c0_989 : Index := 0#32
  ![v1819.toNat, 0]

def k1_chk96 (v1800 : BitVec 32) : Prop :=
  (∀ a, (k1_off238 v1800) a + S1x8192.size a ≤ S8192x8192.size a) ∧
  (∀ a, (k1_off240 v1800) a + S1x256.size a ≤ S8192x256.size a)
instance k1_chk96.dec : ∀ (v1800 : BitVec 32), Decidable (k1_chk96 v1800) := fun v1800 => decidable_of_iff' _ (Iff.of_eq (k1_chk96.eq_1 v1800))
theorem k1_off238_inb : ∀ (v1800 : BitVec 32) (k1_hw96 : k1_chk96 v1800), ∀ a, (k1_off238 v1800) a + S1x8192.size a ≤ S8192x8192.size a := fun v1800 k1_hw96 => k1_hw96.1
theorem k1_off240_inb : ∀ (v1800 : BitVec 32) (k1_hw96 : k1_chk96 v1800), ∀ a, (k1_off240 v1800) a + S1x256.size a ≤ S8192x256.size a := fun v1800 k1_hw96 => k1_hw96.2

def k1_off241 (i : grid1.Coords) : Fin 1 → Nat :=
  let arg0 : BitVec 32 := BitVec.ofNat 32 (i 0).val
  let c64_i32 : BitVec 32 := 64#32
  let v0 : BitVec 32 := Scalar.muli arg0 c64_i32
  let c48_i32 : BitVec 32 := 48#32
  let v2017 : BitVec 32 := Scalar.addi v0 c48_i32
  let v2018 : Index := Scalar.indexCast v2017
  ![v2018.toNat]
def k1_off242 (v2019 : BitVec 32) : Fin 2 → Nat :=
  let c0_i32_1156 : BitVec 32 := 0#32
  ![v2019.toNat, 0]

def k1_off243 (v2022 : BitVec 32) : Fin 2 → Nat :=
  let c0_i32_1160 : BitVec 32 := 0#32
  ![v2022.toNat, 0]

def k1_off244 (v2019 : BitVec 32) : Fin 2 → Nat :=
  let v2035 : Index := Scalar.indexCast v2019
  let c0_1161 : Index := 0#32
  ![v2035.toNat, 0]

def k1_chk97 (v2019 : BitVec 32) : Prop :=
  (∀ a, (k1_off242 v2019) a + S1x8192.size a ≤ S8192x8192.size a) ∧
  (∀ a, (k1_off244 v2019) a + S1x256.size a ≤ S8192x256.size a)
instance k1_chk97.dec : ∀ (v2019 : BitVec 32), Decidable (k1_chk97 v2019) := fun v2019 => decidable_of_iff' _ (Iff.of_eq (k1_chk97.eq_1 v2019))
theorem k1_off242_inb : ∀ (v2019 : BitVec 32) (k1_hw97 : k1_chk97 v2019), ∀ a, (k1_off242 v2019) a + S1x8192.size a ≤ S8192x8192.size a := fun v2019 k1_hw97 => k1_hw97.1
theorem k1_off244_inb : ∀ (v2019 : BitVec 32) (k1_hw97 : k1_chk97 v2019), ∀ a, (k1_off244 v2019) a + S1x256.size a ≤ S8192x256.size a := fun v2019 k1_hw97 => k1_hw97.2

def k1_off245 (v2022 : BitVec 32) : Fin 2 → Nat :=
  let v2041 : Index := Scalar.indexCast v2022
  let c0_1163 : Index := 0#32
  ![v2041.toNat, 0]

def k1_chk98 (v2022 : BitVec 32) : Prop :=
  (∀ a, (k1_off243 v2022) a + S1x8192.size a ≤ S8192x8192.size a) ∧
  (∀ a, (k1_off245 v2022) a + S1x256.size a ≤ S8192x256.size a)
instance k1_chk98.dec : ∀ (v2022 : BitVec 32), Decidable (k1_chk98 v2022) := fun v2022 => decidable_of_iff' _ (Iff.of_eq (k1_chk98.eq_1 v2022))
theorem k1_off243_inb : ∀ (v2022 : BitVec 32) (k1_hw98 : k1_chk98 v2022), ∀ a, (k1_off243 v2022) a + S1x8192.size a ≤ S8192x8192.size a := fun v2022 k1_hw98 => k1_hw98.1
theorem k1_off245_inb : ∀ (v2022 : BitVec 32) (k1_hw98 : k1_chk98 v2022), ∀ a, (k1_off245 v2022) a + S1x256.size a ≤ S8192x256.size a := fun v2022 k1_hw98 => k1_hw98.2

def k1_off246 (i : grid1.Coords) : Fin 1 → Nat :=
  let arg0 : BitVec 32 := BitVec.ofNat 32 (i 0).val
  let c64_i32 : BitVec 32 := 64#32
  let v0 : BitVec 32 := Scalar.muli arg0 c64_i32
  let c49_i32 : BitVec 32 := 49#32
  let v2047 : BitVec 32 := Scalar.addi v0 c49_i32
  let v2048 : Index := Scalar.indexCast v2047
  ![v2048.toNat]
def k1_off247 (v2049 : BitVec 32) : Fin 2 → Nat :=
  let c0_i32_1170 : BitVec 32 := 0#32
  ![v2049.toNat, 0]

def k1_off248 (v2052 : BitVec 32) : Fin 2 → Nat :=
  let c0_i32_1174 : BitVec 32 := 0#32
  ![v2052.toNat, 0]

def k1_off249 (v2049 : BitVec 32) : Fin 2 → Nat :=
  let v2065 : Index := Scalar.indexCast v2049
  let c0_1175 : Index := 0#32
  ![v2065.toNat, 0]

def k1_chk99 (v2049 : BitVec 32) : Prop :=
  (∀ a, (k1_off247 v2049) a + S1x8192.size a ≤ S8192x8192.size a) ∧
  (∀ a, (k1_off249 v2049) a + S1x256.size a ≤ S8192x256.size a)
instance k1_chk99.dec : ∀ (v2049 : BitVec 32), Decidable (k1_chk99 v2049) := fun v2049 => decidable_of_iff' _ (Iff.of_eq (k1_chk99.eq_1 v2049))
theorem k1_off247_inb : ∀ (v2049 : BitVec 32) (k1_hw99 : k1_chk99 v2049), ∀ a, (k1_off247 v2049) a + S1x8192.size a ≤ S8192x8192.size a := fun v2049 k1_hw99 => k1_hw99.1
theorem k1_off249_inb : ∀ (v2049 : BitVec 32) (k1_hw99 : k1_chk99 v2049), ∀ a, (k1_off249 v2049) a + S1x256.size a ≤ S8192x256.size a := fun v2049 k1_hw99 => k1_hw99.2

def k1_off250 (v2052 : BitVec 32) : Fin 2 → Nat :=
  let v2071 : Index := Scalar.indexCast v2052
  let c0_1177 : Index := 0#32
  ![v2071.toNat, 0]

def k1_chk100 (v2052 : BitVec 32) : Prop :=
  (∀ a, (k1_off248 v2052) a + S1x8192.size a ≤ S8192x8192.size a) ∧
  (∀ a, (k1_off250 v2052) a + S1x256.size a ≤ S8192x256.size a)
instance k1_chk100.dec : ∀ (v2052 : BitVec 32), Decidable (k1_chk100 v2052) := fun v2052 => decidable_of_iff' _ (Iff.of_eq (k1_chk100.eq_1 v2052))
theorem k1_off248_inb : ∀ (v2052 : BitVec 32) (k1_hw100 : k1_chk100 v2052), ∀ a, (k1_off248 v2052) a + S1x8192.size a ≤ S8192x8192.size a := fun v2052 k1_hw100 => k1_hw100.1
theorem k1_off250_inb : ∀ (v2052 : BitVec 32) (k1_hw100 : k1_chk100 v2052), ∀ a, (k1_off250 v2052) a + S1x256.size a ≤ S8192x256.size a := fun v2052 k1_hw100 => k1_hw100.2

def k1_off251 (i : grid1.Coords) : Fin 1 → Nat :=
  let arg0 : BitVec 32 := BitVec.ofNat 32 (i 0).val
  let c64_i32 : BitVec 32 := 64#32
  let v0 : BitVec 32 := Scalar.muli arg0 c64_i32
  let c50_i32 : BitVec 32 := 50#32
  let v2077 : BitVec 32 := Scalar.addi v0 c50_i32
  let v2078 : Index := Scalar.indexCast v2077
  ![v2078.toNat]
def k1_off252 (v2079 : BitVec 32) : Fin 2 → Nat :=
  let c0_i32_1184 : BitVec 32 := 0#32
  ![v2079.toNat, 0]

def k1_off253 (v2082 : BitVec 32) : Fin 2 → Nat :=
  let c0_i32_1188 : BitVec 32 := 0#32
  ![v2082.toNat, 0]

def k1_off254 (v2079 : BitVec 32) : Fin 2 → Nat :=
  let v2095 : Index := Scalar.indexCast v2079
  let c0_1189 : Index := 0#32
  ![v2095.toNat, 0]

def k1_chk101 (v2079 : BitVec 32) : Prop :=
  (∀ a, (k1_off252 v2079) a + S1x8192.size a ≤ S8192x8192.size a) ∧
  (∀ a, (k1_off254 v2079) a + S1x256.size a ≤ S8192x256.size a)
instance k1_chk101.dec : ∀ (v2079 : BitVec 32), Decidable (k1_chk101 v2079) := fun v2079 => decidable_of_iff' _ (Iff.of_eq (k1_chk101.eq_1 v2079))
theorem k1_off252_inb : ∀ (v2079 : BitVec 32) (k1_hw101 : k1_chk101 v2079), ∀ a, (k1_off252 v2079) a + S1x8192.size a ≤ S8192x8192.size a := fun v2079 k1_hw101 => k1_hw101.1
theorem k1_off254_inb : ∀ (v2079 : BitVec 32) (k1_hw101 : k1_chk101 v2079), ∀ a, (k1_off254 v2079) a + S1x256.size a ≤ S8192x256.size a := fun v2079 k1_hw101 => k1_hw101.2

def k1_off255 (v2082 : BitVec 32) : Fin 2 → Nat :=
  let v2101 : Index := Scalar.indexCast v2082
  let c0_1191 : Index := 0#32
  ![v2101.toNat, 0]

def k1_chk102 (v2082 : BitVec 32) : Prop :=
  (∀ a, (k1_off253 v2082) a + S1x8192.size a ≤ S8192x8192.size a) ∧
  (∀ a, (k1_off255 v2082) a + S1x256.size a ≤ S8192x256.size a)
instance k1_chk102.dec : ∀ (v2082 : BitVec 32), Decidable (k1_chk102 v2082) := fun v2082 => decidable_of_iff' _ (Iff.of_eq (k1_chk102.eq_1 v2082))
theorem k1_off253_inb : ∀ (v2082 : BitVec 32) (k1_hw102 : k1_chk102 v2082), ∀ a, (k1_off253 v2082) a + S1x8192.size a ≤ S8192x8192.size a := fun v2082 k1_hw102 => k1_hw102.1
theorem k1_off255_inb : ∀ (v2082 : BitVec 32) (k1_hw102 : k1_chk102 v2082), ∀ a, (k1_off255 v2082) a + S1x256.size a ≤ S8192x256.size a := fun v2082 k1_hw102 => k1_hw102.2

def k1_off256 (i : grid1.Coords) : Fin 1 → Nat :=
  let arg0 : BitVec 32 := BitVec.ofNat 32 (i 0).val
  let c64_i32 : BitVec 32 := 64#32
  let v0 : BitVec 32 := Scalar.muli arg0 c64_i32
  let c51_i32 : BitVec 32 := 51#32
  let v2107 : BitVec 32 := Scalar.addi v0 c51_i32
  let v2108 : Index := Scalar.indexCast v2107
  ![v2108.toNat]
def k1_off257 (v2109 : BitVec 32) : Fin 2 → Nat :=
  let c0_i32_1198 : BitVec 32 := 0#32
  ![v2109.toNat, 0]

def k1_off258 (v2112 : BitVec 32) : Fin 2 → Nat :=
  let c0_i32_1202 : BitVec 32 := 0#32
  ![v2112.toNat, 0]

def k1_off259 (v2109 : BitVec 32) : Fin 2 → Nat :=
  let v2125 : Index := Scalar.indexCast v2109
  let c0_1203 : Index := 0#32
  ![v2125.toNat, 0]

def k1_chk103 (v2109 : BitVec 32) : Prop :=
  (∀ a, (k1_off257 v2109) a + S1x8192.size a ≤ S8192x8192.size a) ∧
  (∀ a, (k1_off259 v2109) a + S1x256.size a ≤ S8192x256.size a)
instance k1_chk103.dec : ∀ (v2109 : BitVec 32), Decidable (k1_chk103 v2109) := fun v2109 => decidable_of_iff' _ (Iff.of_eq (k1_chk103.eq_1 v2109))
theorem k1_off257_inb : ∀ (v2109 : BitVec 32) (k1_hw103 : k1_chk103 v2109), ∀ a, (k1_off257 v2109) a + S1x8192.size a ≤ S8192x8192.size a := fun v2109 k1_hw103 => k1_hw103.1
theorem k1_off259_inb : ∀ (v2109 : BitVec 32) (k1_hw103 : k1_chk103 v2109), ∀ a, (k1_off259 v2109) a + S1x256.size a ≤ S8192x256.size a := fun v2109 k1_hw103 => k1_hw103.2

def k1_off260 (v2112 : BitVec 32) : Fin 2 → Nat :=
  let v2131 : Index := Scalar.indexCast v2112
  let c0_1205 : Index := 0#32
  ![v2131.toNat, 0]

def k1_chk104 (v2112 : BitVec 32) : Prop :=
  (∀ a, (k1_off258 v2112) a + S1x8192.size a ≤ S8192x8192.size a) ∧
  (∀ a, (k1_off260 v2112) a + S1x256.size a ≤ S8192x256.size a)
instance k1_chk104.dec : ∀ (v2112 : BitVec 32), Decidable (k1_chk104 v2112) := fun v2112 => decidable_of_iff' _ (Iff.of_eq (k1_chk104.eq_1 v2112))
theorem k1_off258_inb : ∀ (v2112 : BitVec 32) (k1_hw104 : k1_chk104 v2112), ∀ a, (k1_off258 v2112) a + S1x8192.size a ≤ S8192x8192.size a := fun v2112 k1_hw104 => k1_hw104.1
theorem k1_off260_inb : ∀ (v2112 : BitVec 32) (k1_hw104 : k1_chk104 v2112), ∀ a, (k1_off260 v2112) a + S1x256.size a ≤ S8192x256.size a := fun v2112 k1_hw104 => k1_hw104.2

def k1_off261 (i : grid1.Coords) : Fin 1 → Nat :=
  let arg0 : BitVec 32 := BitVec.ofNat 32 (i 0).val
  let c64_i32 : BitVec 32 := 64#32
  let v0 : BitVec 32 := Scalar.muli arg0 c64_i32
  let c52_i32 : BitVec 32 := 52#32
  let v2137 : BitVec 32 := Scalar.addi v0 c52_i32
  let v2138 : Index := Scalar.indexCast v2137
  ![v2138.toNat]
def k1_off262 (v2139 : BitVec 32) : Fin 2 → Nat :=
  let c0_i32_1212 : BitVec 32 := 0#32
  ![v2139.toNat, 0]

def k1_off263 (v2142 : BitVec 32) : Fin 2 → Nat :=
  let c0_i32_1216 : BitVec 32 := 0#32
  ![v2142.toNat, 0]

def k1_off264 (v2139 : BitVec 32) : Fin 2 → Nat :=
  let v2155 : Index := Scalar.indexCast v2139
  let c0_1217 : Index := 0#32
  ![v2155.toNat, 0]

def k1_chk105 (v2139 : BitVec 32) : Prop :=
  (∀ a, (k1_off262 v2139) a + S1x8192.size a ≤ S8192x8192.size a) ∧
  (∀ a, (k1_off264 v2139) a + S1x256.size a ≤ S8192x256.size a)
instance k1_chk105.dec : ∀ (v2139 : BitVec 32), Decidable (k1_chk105 v2139) := fun v2139 => decidable_of_iff' _ (Iff.of_eq (k1_chk105.eq_1 v2139))
theorem k1_off262_inb : ∀ (v2139 : BitVec 32) (k1_hw105 : k1_chk105 v2139), ∀ a, (k1_off262 v2139) a + S1x8192.size a ≤ S8192x8192.size a := fun v2139 k1_hw105 => k1_hw105.1
theorem k1_off264_inb : ∀ (v2139 : BitVec 32) (k1_hw105 : k1_chk105 v2139), ∀ a, (k1_off264 v2139) a + S1x256.size a ≤ S8192x256.size a := fun v2139 k1_hw105 => k1_hw105.2

def k1_off265 (v2142 : BitVec 32) : Fin 2 → Nat :=
  let v2161 : Index := Scalar.indexCast v2142
  let c0_1219 : Index := 0#32
  ![v2161.toNat, 0]

def k1_chk106 (v2142 : BitVec 32) : Prop :=
  (∀ a, (k1_off263 v2142) a + S1x8192.size a ≤ S8192x8192.size a) ∧
  (∀ a, (k1_off265 v2142) a + S1x256.size a ≤ S8192x256.size a)
instance k1_chk106.dec : ∀ (v2142 : BitVec 32), Decidable (k1_chk106 v2142) := fun v2142 => decidable_of_iff' _ (Iff.of_eq (k1_chk106.eq_1 v2142))
theorem k1_off263_inb : ∀ (v2142 : BitVec 32) (k1_hw106 : k1_chk106 v2142), ∀ a, (k1_off263 v2142) a + S1x8192.size a ≤ S8192x8192.size a := fun v2142 k1_hw106 => k1_hw106.1
theorem k1_off265_inb : ∀ (v2142 : BitVec 32) (k1_hw106 : k1_chk106 v2142), ∀ a, (k1_off265 v2142) a + S1x256.size a ≤ S8192x256.size a := fun v2142 k1_hw106 => k1_hw106.2

def k1_off266 (i : grid1.Coords) : Fin 1 → Nat :=
  let arg0 : BitVec 32 := BitVec.ofNat 32 (i 0).val
  let c64_i32 : BitVec 32 := 64#32
  let v0 : BitVec 32 := Scalar.muli arg0 c64_i32
  let c53_i32 : BitVec 32 := 53#32
  let v2167 : BitVec 32 := Scalar.addi v0 c53_i32
  let v2168 : Index := Scalar.indexCast v2167
  ![v2168.toNat]
def k1_off267 (v2169 : BitVec 32) : Fin 2 → Nat :=
  let c0_i32_1226 : BitVec 32 := 0#32
  ![v2169.toNat, 0]

def k1_off268 (v2172 : BitVec 32) : Fin 2 → Nat :=
  let c0_i32_1230 : BitVec 32 := 0#32
  ![v2172.toNat, 0]

def k1_off269 (v2169 : BitVec 32) : Fin 2 → Nat :=
  let v2185 : Index := Scalar.indexCast v2169
  let c0_1231 : Index := 0#32
  ![v2185.toNat, 0]

def k1_chk107 (v2169 : BitVec 32) : Prop :=
  (∀ a, (k1_off267 v2169) a + S1x8192.size a ≤ S8192x8192.size a) ∧
  (∀ a, (k1_off269 v2169) a + S1x256.size a ≤ S8192x256.size a)
instance k1_chk107.dec : ∀ (v2169 : BitVec 32), Decidable (k1_chk107 v2169) := fun v2169 => decidable_of_iff' _ (Iff.of_eq (k1_chk107.eq_1 v2169))
theorem k1_off267_inb : ∀ (v2169 : BitVec 32) (k1_hw107 : k1_chk107 v2169), ∀ a, (k1_off267 v2169) a + S1x8192.size a ≤ S8192x8192.size a := fun v2169 k1_hw107 => k1_hw107.1
theorem k1_off269_inb : ∀ (v2169 : BitVec 32) (k1_hw107 : k1_chk107 v2169), ∀ a, (k1_off269 v2169) a + S1x256.size a ≤ S8192x256.size a := fun v2169 k1_hw107 => k1_hw107.2

def k1_off270 (v2172 : BitVec 32) : Fin 2 → Nat :=
  let v2191 : Index := Scalar.indexCast v2172
  let c0_1233 : Index := 0#32
  ![v2191.toNat, 0]

def k1_chk108 (v2172 : BitVec 32) : Prop :=
  (∀ a, (k1_off268 v2172) a + S1x8192.size a ≤ S8192x8192.size a) ∧
  (∀ a, (k1_off270 v2172) a + S1x256.size a ≤ S8192x256.size a)
instance k1_chk108.dec : ∀ (v2172 : BitVec 32), Decidable (k1_chk108 v2172) := fun v2172 => decidable_of_iff' _ (Iff.of_eq (k1_chk108.eq_1 v2172))
theorem k1_off268_inb : ∀ (v2172 : BitVec 32) (k1_hw108 : k1_chk108 v2172), ∀ a, (k1_off268 v2172) a + S1x8192.size a ≤ S8192x8192.size a := fun v2172 k1_hw108 => k1_hw108.1
theorem k1_off270_inb : ∀ (v2172 : BitVec 32) (k1_hw108 : k1_chk108 v2172), ∀ a, (k1_off270 v2172) a + S1x256.size a ≤ S8192x256.size a := fun v2172 k1_hw108 => k1_hw108.2

def k1_off271 (i : grid1.Coords) : Fin 1 → Nat :=
  let arg0 : BitVec 32 := BitVec.ofNat 32 (i 0).val
  let c64_i32 : BitVec 32 := 64#32
  let v0 : BitVec 32 := Scalar.muli arg0 c64_i32
  let c54_i32 : BitVec 32 := 54#32
  let v2197 : BitVec 32 := Scalar.addi v0 c54_i32
  let v2198 : Index := Scalar.indexCast v2197
  ![v2198.toNat]
def k1_off272 (v2199 : BitVec 32) : Fin 2 → Nat :=
  let c0_i32_1240 : BitVec 32 := 0#32
  ![v2199.toNat, 0]

def k1_off273 (v2202 : BitVec 32) : Fin 2 → Nat :=
  let c0_i32_1244 : BitVec 32 := 0#32
  ![v2202.toNat, 0]

def k1_off274 (v2199 : BitVec 32) : Fin 2 → Nat :=
  let v2215 : Index := Scalar.indexCast v2199
  let c0_1245 : Index := 0#32
  ![v2215.toNat, 0]

def k1_chk109 (v2199 : BitVec 32) : Prop :=
  (∀ a, (k1_off272 v2199) a + S1x8192.size a ≤ S8192x8192.size a) ∧
  (∀ a, (k1_off274 v2199) a + S1x256.size a ≤ S8192x256.size a)
instance k1_chk109.dec : ∀ (v2199 : BitVec 32), Decidable (k1_chk109 v2199) := fun v2199 => decidable_of_iff' _ (Iff.of_eq (k1_chk109.eq_1 v2199))
theorem k1_off272_inb : ∀ (v2199 : BitVec 32) (k1_hw109 : k1_chk109 v2199), ∀ a, (k1_off272 v2199) a + S1x8192.size a ≤ S8192x8192.size a := fun v2199 k1_hw109 => k1_hw109.1
theorem k1_off274_inb : ∀ (v2199 : BitVec 32) (k1_hw109 : k1_chk109 v2199), ∀ a, (k1_off274 v2199) a + S1x256.size a ≤ S8192x256.size a := fun v2199 k1_hw109 => k1_hw109.2

def k1_off275 (v2202 : BitVec 32) : Fin 2 → Nat :=
  let v2221 : Index := Scalar.indexCast v2202
  let c0_1247 : Index := 0#32
  ![v2221.toNat, 0]

def k1_chk110 (v2202 : BitVec 32) : Prop :=
  (∀ a, (k1_off273 v2202) a + S1x8192.size a ≤ S8192x8192.size a) ∧
  (∀ a, (k1_off275 v2202) a + S1x256.size a ≤ S8192x256.size a)
instance k1_chk110.dec : ∀ (v2202 : BitVec 32), Decidable (k1_chk110 v2202) := fun v2202 => decidable_of_iff' _ (Iff.of_eq (k1_chk110.eq_1 v2202))
theorem k1_off273_inb : ∀ (v2202 : BitVec 32) (k1_hw110 : k1_chk110 v2202), ∀ a, (k1_off273 v2202) a + S1x8192.size a ≤ S8192x8192.size a := fun v2202 k1_hw110 => k1_hw110.1
theorem k1_off275_inb : ∀ (v2202 : BitVec 32) (k1_hw110 : k1_chk110 v2202), ∀ a, (k1_off275 v2202) a + S1x256.size a ≤ S8192x256.size a := fun v2202 k1_hw110 => k1_hw110.2

def k1_off276 (i : grid1.Coords) : Fin 1 → Nat :=
  let arg0 : BitVec 32 := BitVec.ofNat 32 (i 0).val
  let c64_i32 : BitVec 32 := 64#32
  let v0 : BitVec 32 := Scalar.muli arg0 c64_i32
  let c55_i32 : BitVec 32 := 55#32
  let v2227 : BitVec 32 := Scalar.addi v0 c55_i32
  let v2228 : Index := Scalar.indexCast v2227
  ![v2228.toNat]
def k1_off277 (v2229 : BitVec 32) : Fin 2 → Nat :=
  let c0_i32_1254 : BitVec 32 := 0#32
  ![v2229.toNat, 0]

def k1_off278 (v2232 : BitVec 32) : Fin 2 → Nat :=
  let c0_i32_1258 : BitVec 32 := 0#32
  ![v2232.toNat, 0]

def k1_off279 (v2229 : BitVec 32) : Fin 2 → Nat :=
  let v2245 : Index := Scalar.indexCast v2229
  let c0_1259 : Index := 0#32
  ![v2245.toNat, 0]

def k1_chk111 (v2229 : BitVec 32) : Prop :=
  (∀ a, (k1_off277 v2229) a + S1x8192.size a ≤ S8192x8192.size a) ∧
  (∀ a, (k1_off279 v2229) a + S1x256.size a ≤ S8192x256.size a)
instance k1_chk111.dec : ∀ (v2229 : BitVec 32), Decidable (k1_chk111 v2229) := fun v2229 => decidable_of_iff' _ (Iff.of_eq (k1_chk111.eq_1 v2229))
theorem k1_off277_inb : ∀ (v2229 : BitVec 32) (k1_hw111 : k1_chk111 v2229), ∀ a, (k1_off277 v2229) a + S1x8192.size a ≤ S8192x8192.size a := fun v2229 k1_hw111 => k1_hw111.1
theorem k1_off279_inb : ∀ (v2229 : BitVec 32) (k1_hw111 : k1_chk111 v2229), ∀ a, (k1_off279 v2229) a + S1x256.size a ≤ S8192x256.size a := fun v2229 k1_hw111 => k1_hw111.2

def k1_off280 (v2232 : BitVec 32) : Fin 2 → Nat :=
  let v2251 : Index := Scalar.indexCast v2232
  let c0_1261 : Index := 0#32
  ![v2251.toNat, 0]

def k1_chk112 (v2232 : BitVec 32) : Prop :=
  (∀ a, (k1_off278 v2232) a + S1x8192.size a ≤ S8192x8192.size a) ∧
  (∀ a, (k1_off280 v2232) a + S1x256.size a ≤ S8192x256.size a)
instance k1_chk112.dec : ∀ (v2232 : BitVec 32), Decidable (k1_chk112 v2232) := fun v2232 => decidable_of_iff' _ (Iff.of_eq (k1_chk112.eq_1 v2232))
theorem k1_off278_inb : ∀ (v2232 : BitVec 32) (k1_hw112 : k1_chk112 v2232), ∀ a, (k1_off278 v2232) a + S1x8192.size a ≤ S8192x8192.size a := fun v2232 k1_hw112 => k1_hw112.1
theorem k1_off280_inb : ∀ (v2232 : BitVec 32) (k1_hw112 : k1_chk112 v2232), ∀ a, (k1_off280 v2232) a + S1x256.size a ≤ S8192x256.size a := fun v2232 k1_hw112 => k1_hw112.2

def k1_off281 (i : grid1.Coords) : Fin 1 → Nat :=
  let arg0 : BitVec 32 := BitVec.ofNat 32 (i 0).val
  let c64_i32 : BitVec 32 := 64#32
  let v0 : BitVec 32 := Scalar.muli arg0 c64_i32
  let c56_i32 : BitVec 32 := 56#32
  let v2257 : BitVec 32 := Scalar.addi v0 c56_i32
  let v2258 : Index := Scalar.indexCast v2257
  ![v2258.toNat]
def k1_off282 (v2259 : BitVec 32) : Fin 2 → Nat :=
  let c0_i32_1268 : BitVec 32 := 0#32
  ![v2259.toNat, 0]

def k1_off283 (v2262 : BitVec 32) : Fin 2 → Nat :=
  let c0_i32_1272 : BitVec 32 := 0#32
  ![v2262.toNat, 0]

def k1_off284 (v2259 : BitVec 32) : Fin 2 → Nat :=
  let v2275 : Index := Scalar.indexCast v2259
  let c0_1273 : Index := 0#32
  ![v2275.toNat, 0]

def k1_chk113 (v2259 : BitVec 32) : Prop :=
  (∀ a, (k1_off282 v2259) a + S1x8192.size a ≤ S8192x8192.size a) ∧
  (∀ a, (k1_off284 v2259) a + S1x256.size a ≤ S8192x256.size a)
instance k1_chk113.dec : ∀ (v2259 : BitVec 32), Decidable (k1_chk113 v2259) := fun v2259 => decidable_of_iff' _ (Iff.of_eq (k1_chk113.eq_1 v2259))
theorem k1_off282_inb : ∀ (v2259 : BitVec 32) (k1_hw113 : k1_chk113 v2259), ∀ a, (k1_off282 v2259) a + S1x8192.size a ≤ S8192x8192.size a := fun v2259 k1_hw113 => k1_hw113.1
theorem k1_off284_inb : ∀ (v2259 : BitVec 32) (k1_hw113 : k1_chk113 v2259), ∀ a, (k1_off284 v2259) a + S1x256.size a ≤ S8192x256.size a := fun v2259 k1_hw113 => k1_hw113.2

def k1_off285 (v2262 : BitVec 32) : Fin 2 → Nat :=
  let v2281 : Index := Scalar.indexCast v2262
  let c0_1275 : Index := 0#32
  ![v2281.toNat, 0]

def k1_chk114 (v2262 : BitVec 32) : Prop :=
  (∀ a, (k1_off283 v2262) a + S1x8192.size a ≤ S8192x8192.size a) ∧
  (∀ a, (k1_off285 v2262) a + S1x256.size a ≤ S8192x256.size a)
instance k1_chk114.dec : ∀ (v2262 : BitVec 32), Decidable (k1_chk114 v2262) := fun v2262 => decidable_of_iff' _ (Iff.of_eq (k1_chk114.eq_1 v2262))
theorem k1_off283_inb : ∀ (v2262 : BitVec 32) (k1_hw114 : k1_chk114 v2262), ∀ a, (k1_off283 v2262) a + S1x8192.size a ≤ S8192x8192.size a := fun v2262 k1_hw114 => k1_hw114.1
theorem k1_off285_inb : ∀ (v2262 : BitVec 32) (k1_hw114 : k1_chk114 v2262), ∀ a, (k1_off285 v2262) a + S1x256.size a ≤ S8192x256.size a := fun v2262 k1_hw114 => k1_hw114.2

def k1_off286 (i : grid1.Coords) : Fin 1 → Nat :=
  let arg0 : BitVec 32 := BitVec.ofNat 32 (i 0).val
  let c64_i32 : BitVec 32 := 64#32
  let v0 : BitVec 32 := Scalar.muli arg0 c64_i32
  let c57_i32 : BitVec 32 := 57#32
  let v2287 : BitVec 32 := Scalar.addi v0 c57_i32
  let v2288 : Index := Scalar.indexCast v2287
  ![v2288.toNat]
def k1_off287 (v2289 : BitVec 32) : Fin 2 → Nat :=
  let c0_i32_1282 : BitVec 32 := 0#32
  ![v2289.toNat, 0]

def k1_off288 (v2292 : BitVec 32) : Fin 2 → Nat :=
  let c0_i32_1286 : BitVec 32 := 0#32
  ![v2292.toNat, 0]

def k1_off289 (v2289 : BitVec 32) : Fin 2 → Nat :=
  let v2305 : Index := Scalar.indexCast v2289
  let c0_1287 : Index := 0#32
  ![v2305.toNat, 0]

def k1_chk115 (v2289 : BitVec 32) : Prop :=
  (∀ a, (k1_off287 v2289) a + S1x8192.size a ≤ S8192x8192.size a) ∧
  (∀ a, (k1_off289 v2289) a + S1x256.size a ≤ S8192x256.size a)
instance k1_chk115.dec : ∀ (v2289 : BitVec 32), Decidable (k1_chk115 v2289) := fun v2289 => decidable_of_iff' _ (Iff.of_eq (k1_chk115.eq_1 v2289))
theorem k1_off287_inb : ∀ (v2289 : BitVec 32) (k1_hw115 : k1_chk115 v2289), ∀ a, (k1_off287 v2289) a + S1x8192.size a ≤ S8192x8192.size a := fun v2289 k1_hw115 => k1_hw115.1
theorem k1_off289_inb : ∀ (v2289 : BitVec 32) (k1_hw115 : k1_chk115 v2289), ∀ a, (k1_off289 v2289) a + S1x256.size a ≤ S8192x256.size a := fun v2289 k1_hw115 => k1_hw115.2

def k1_off290 (v2292 : BitVec 32) : Fin 2 → Nat :=
  let v2311 : Index := Scalar.indexCast v2292
  let c0_1289 : Index := 0#32
  ![v2311.toNat, 0]

def k1_chk116 (v2292 : BitVec 32) : Prop :=
  (∀ a, (k1_off288 v2292) a + S1x8192.size a ≤ S8192x8192.size a) ∧
  (∀ a, (k1_off290 v2292) a + S1x256.size a ≤ S8192x256.size a)
instance k1_chk116.dec : ∀ (v2292 : BitVec 32), Decidable (k1_chk116 v2292) := fun v2292 => decidable_of_iff' _ (Iff.of_eq (k1_chk116.eq_1 v2292))
theorem k1_off288_inb : ∀ (v2292 : BitVec 32) (k1_hw116 : k1_chk116 v2292), ∀ a, (k1_off288 v2292) a + S1x8192.size a ≤ S8192x8192.size a := fun v2292 k1_hw116 => k1_hw116.1
theorem k1_off290_inb : ∀ (v2292 : BitVec 32) (k1_hw116 : k1_chk116 v2292), ∀ a, (k1_off290 v2292) a + S1x256.size a ≤ S8192x256.size a := fun v2292 k1_hw116 => k1_hw116.2

def k1_off291 (i : grid1.Coords) : Fin 1 → Nat :=
  let arg0 : BitVec 32 := BitVec.ofNat 32 (i 0).val
  let c64_i32 : BitVec 32 := 64#32
  let v0 : BitVec 32 := Scalar.muli arg0 c64_i32
  let c58_i32 : BitVec 32 := 58#32
  let v2317 : BitVec 32 := Scalar.addi v0 c58_i32
  let v2318 : Index := Scalar.indexCast v2317
  ![v2318.toNat]
def k1_off292 (v2319 : BitVec 32) : Fin 2 → Nat :=
  let c0_i32_1296 : BitVec 32 := 0#32
  ![v2319.toNat, 0]

def k1_off293 (v2322 : BitVec 32) : Fin 2 → Nat :=
  let c0_i32_1300 : BitVec 32 := 0#32
  ![v2322.toNat, 0]

def k1_off294 (v2319 : BitVec 32) : Fin 2 → Nat :=
  let v2335 : Index := Scalar.indexCast v2319
  let c0_1301 : Index := 0#32
  ![v2335.toNat, 0]

def k1_chk117 (v2319 : BitVec 32) : Prop :=
  (∀ a, (k1_off292 v2319) a + S1x8192.size a ≤ S8192x8192.size a) ∧
  (∀ a, (k1_off294 v2319) a + S1x256.size a ≤ S8192x256.size a)
instance k1_chk117.dec : ∀ (v2319 : BitVec 32), Decidable (k1_chk117 v2319) := fun v2319 => decidable_of_iff' _ (Iff.of_eq (k1_chk117.eq_1 v2319))
theorem k1_off292_inb : ∀ (v2319 : BitVec 32) (k1_hw117 : k1_chk117 v2319), ∀ a, (k1_off292 v2319) a + S1x8192.size a ≤ S8192x8192.size a := fun v2319 k1_hw117 => k1_hw117.1
theorem k1_off294_inb : ∀ (v2319 : BitVec 32) (k1_hw117 : k1_chk117 v2319), ∀ a, (k1_off294 v2319) a + S1x256.size a ≤ S8192x256.size a := fun v2319 k1_hw117 => k1_hw117.2

def k1_off295 (v2322 : BitVec 32) : Fin 2 → Nat :=
  let v2341 : Index := Scalar.indexCast v2322
  let c0_1303 : Index := 0#32
  ![v2341.toNat, 0]

def k1_chk118 (v2322 : BitVec 32) : Prop :=
  (∀ a, (k1_off293 v2322) a + S1x8192.size a ≤ S8192x8192.size a) ∧
  (∀ a, (k1_off295 v2322) a + S1x256.size a ≤ S8192x256.size a)
instance k1_chk118.dec : ∀ (v2322 : BitVec 32), Decidable (k1_chk118 v2322) := fun v2322 => decidable_of_iff' _ (Iff.of_eq (k1_chk118.eq_1 v2322))
theorem k1_off293_inb : ∀ (v2322 : BitVec 32) (k1_hw118 : k1_chk118 v2322), ∀ a, (k1_off293 v2322) a + S1x8192.size a ≤ S8192x8192.size a := fun v2322 k1_hw118 => k1_hw118.1
theorem k1_off295_inb : ∀ (v2322 : BitVec 32) (k1_hw118 : k1_chk118 v2322), ∀ a, (k1_off295 v2322) a + S1x256.size a ≤ S8192x256.size a := fun v2322 k1_hw118 => k1_hw118.2

def k1_off296 (i : grid1.Coords) : Fin 1 → Nat :=
  let arg0 : BitVec 32 := BitVec.ofNat 32 (i 0).val
  let c64_i32 : BitVec 32 := 64#32
  let v0 : BitVec 32 := Scalar.muli arg0 c64_i32
  let c59_i32 : BitVec 32 := 59#32
  let v2347 : BitVec 32 := Scalar.addi v0 c59_i32
  let v2348 : Index := Scalar.indexCast v2347
  ![v2348.toNat]
def k1_off297 (v2349 : BitVec 32) : Fin 2 → Nat :=
  let c0_i32_1310 : BitVec 32 := 0#32
  ![v2349.toNat, 0]

def k1_off298 (v2352 : BitVec 32) : Fin 2 → Nat :=
  let c0_i32_1314 : BitVec 32 := 0#32
  ![v2352.toNat, 0]

def k1_off299 (v2349 : BitVec 32) : Fin 2 → Nat :=
  let v2365 : Index := Scalar.indexCast v2349
  let c0_1315 : Index := 0#32
  ![v2365.toNat, 0]

def k1_chk119 (v2349 : BitVec 32) : Prop :=
  (∀ a, (k1_off297 v2349) a + S1x8192.size a ≤ S8192x8192.size a) ∧
  (∀ a, (k1_off299 v2349) a + S1x256.size a ≤ S8192x256.size a)
instance k1_chk119.dec : ∀ (v2349 : BitVec 32), Decidable (k1_chk119 v2349) := fun v2349 => decidable_of_iff' _ (Iff.of_eq (k1_chk119.eq_1 v2349))
theorem k1_off297_inb : ∀ (v2349 : BitVec 32) (k1_hw119 : k1_chk119 v2349), ∀ a, (k1_off297 v2349) a + S1x8192.size a ≤ S8192x8192.size a := fun v2349 k1_hw119 => k1_hw119.1
theorem k1_off299_inb : ∀ (v2349 : BitVec 32) (k1_hw119 : k1_chk119 v2349), ∀ a, (k1_off299 v2349) a + S1x256.size a ≤ S8192x256.size a := fun v2349 k1_hw119 => k1_hw119.2

def k1_off300 (v2352 : BitVec 32) : Fin 2 → Nat :=
  let v2371 : Index := Scalar.indexCast v2352
  let c0_1317 : Index := 0#32
  ![v2371.toNat, 0]

def k1_chk120 (v2352 : BitVec 32) : Prop :=
  (∀ a, (k1_off298 v2352) a + S1x8192.size a ≤ S8192x8192.size a) ∧
  (∀ a, (k1_off300 v2352) a + S1x256.size a ≤ S8192x256.size a)
instance k1_chk120.dec : ∀ (v2352 : BitVec 32), Decidable (k1_chk120 v2352) := fun v2352 => decidable_of_iff' _ (Iff.of_eq (k1_chk120.eq_1 v2352))
theorem k1_off298_inb : ∀ (v2352 : BitVec 32) (k1_hw120 : k1_chk120 v2352), ∀ a, (k1_off298 v2352) a + S1x8192.size a ≤ S8192x8192.size a := fun v2352 k1_hw120 => k1_hw120.1
theorem k1_off300_inb : ∀ (v2352 : BitVec 32) (k1_hw120 : k1_chk120 v2352), ∀ a, (k1_off300 v2352) a + S1x256.size a ≤ S8192x256.size a := fun v2352 k1_hw120 => k1_hw120.2

def k1_off301 (i : grid1.Coords) : Fin 1 → Nat :=
  let arg0 : BitVec 32 := BitVec.ofNat 32 (i 0).val
  let c64_i32 : BitVec 32 := 64#32
  let v0 : BitVec 32 := Scalar.muli arg0 c64_i32
  let c60_i32 : BitVec 32 := 60#32
  let v2377 : BitVec 32 := Scalar.addi v0 c60_i32
  let v2378 : Index := Scalar.indexCast v2377
  ![v2378.toNat]
def k1_off302 (v2379 : BitVec 32) : Fin 2 → Nat :=
  let c0_i32_1324 : BitVec 32 := 0#32
  ![v2379.toNat, 0]

def k1_off303 (v2382 : BitVec 32) : Fin 2 → Nat :=
  let c0_i32_1328 : BitVec 32 := 0#32
  ![v2382.toNat, 0]

def k1_off304 (v2379 : BitVec 32) : Fin 2 → Nat :=
  let v2395 : Index := Scalar.indexCast v2379
  let c0_1329 : Index := 0#32
  ![v2395.toNat, 0]

def k1_chk121 (v2379 : BitVec 32) : Prop :=
  (∀ a, (k1_off302 v2379) a + S1x8192.size a ≤ S8192x8192.size a) ∧
  (∀ a, (k1_off304 v2379) a + S1x256.size a ≤ S8192x256.size a)
instance k1_chk121.dec : ∀ (v2379 : BitVec 32), Decidable (k1_chk121 v2379) := fun v2379 => decidable_of_iff' _ (Iff.of_eq (k1_chk121.eq_1 v2379))
theorem k1_off302_inb : ∀ (v2379 : BitVec 32) (k1_hw121 : k1_chk121 v2379), ∀ a, (k1_off302 v2379) a + S1x8192.size a ≤ S8192x8192.size a := fun v2379 k1_hw121 => k1_hw121.1
theorem k1_off304_inb : ∀ (v2379 : BitVec 32) (k1_hw121 : k1_chk121 v2379), ∀ a, (k1_off304 v2379) a + S1x256.size a ≤ S8192x256.size a := fun v2379 k1_hw121 => k1_hw121.2

def k1_off305 (v2382 : BitVec 32) : Fin 2 → Nat :=
  let v2401 : Index := Scalar.indexCast v2382
  let c0_1331 : Index := 0#32
  ![v2401.toNat, 0]

def k1_chk122 (v2382 : BitVec 32) : Prop :=
  (∀ a, (k1_off303 v2382) a + S1x8192.size a ≤ S8192x8192.size a) ∧
  (∀ a, (k1_off305 v2382) a + S1x256.size a ≤ S8192x256.size a)
instance k1_chk122.dec : ∀ (v2382 : BitVec 32), Decidable (k1_chk122 v2382) := fun v2382 => decidable_of_iff' _ (Iff.of_eq (k1_chk122.eq_1 v2382))
theorem k1_off303_inb : ∀ (v2382 : BitVec 32) (k1_hw122 : k1_chk122 v2382), ∀ a, (k1_off303 v2382) a + S1x8192.size a ≤ S8192x8192.size a := fun v2382 k1_hw122 => k1_hw122.1
theorem k1_off305_inb : ∀ (v2382 : BitVec 32) (k1_hw122 : k1_chk122 v2382), ∀ a, (k1_off305 v2382) a + S1x256.size a ≤ S8192x256.size a := fun v2382 k1_hw122 => k1_hw122.2

def k1_off306 (i : grid1.Coords) : Fin 1 → Nat :=
  let arg0 : BitVec 32 := BitVec.ofNat 32 (i 0).val
  let c64_i32 : BitVec 32 := 64#32
  let v0 : BitVec 32 := Scalar.muli arg0 c64_i32
  let c61_i32 : BitVec 32 := 61#32
  let v2407 : BitVec 32 := Scalar.addi v0 c61_i32
  let v2408 : Index := Scalar.indexCast v2407
  ![v2408.toNat]
def k1_off307 (v2409 : BitVec 32) : Fin 2 → Nat :=
  let c0_i32_1338 : BitVec 32 := 0#32
  ![v2409.toNat, 0]

def k1_off308 (v2412 : BitVec 32) : Fin 2 → Nat :=
  let c0_i32_1342 : BitVec 32 := 0#32
  ![v2412.toNat, 0]

def k1_off309 (v2409 : BitVec 32) : Fin 2 → Nat :=
  let v2425 : Index := Scalar.indexCast v2409
  let c0_1343 : Index := 0#32
  ![v2425.toNat, 0]

def k1_chk123 (v2409 : BitVec 32) : Prop :=
  (∀ a, (k1_off307 v2409) a + S1x8192.size a ≤ S8192x8192.size a) ∧
  (∀ a, (k1_off309 v2409) a + S1x256.size a ≤ S8192x256.size a)
instance k1_chk123.dec : ∀ (v2409 : BitVec 32), Decidable (k1_chk123 v2409) := fun v2409 => decidable_of_iff' _ (Iff.of_eq (k1_chk123.eq_1 v2409))
theorem k1_off307_inb : ∀ (v2409 : BitVec 32) (k1_hw123 : k1_chk123 v2409), ∀ a, (k1_off307 v2409) a + S1x8192.size a ≤ S8192x8192.size a := fun v2409 k1_hw123 => k1_hw123.1
theorem k1_off309_inb : ∀ (v2409 : BitVec 32) (k1_hw123 : k1_chk123 v2409), ∀ a, (k1_off309 v2409) a + S1x256.size a ≤ S8192x256.size a := fun v2409 k1_hw123 => k1_hw123.2

def k1_off310 (v2412 : BitVec 32) : Fin 2 → Nat :=
  let v2431 : Index := Scalar.indexCast v2412
  let c0_1345 : Index := 0#32
  ![v2431.toNat, 0]

def k1_chk124 (v2412 : BitVec 32) : Prop :=
  (∀ a, (k1_off308 v2412) a + S1x8192.size a ≤ S8192x8192.size a) ∧
  (∀ a, (k1_off310 v2412) a + S1x256.size a ≤ S8192x256.size a)
instance k1_chk124.dec : ∀ (v2412 : BitVec 32), Decidable (k1_chk124 v2412) := fun v2412 => decidable_of_iff' _ (Iff.of_eq (k1_chk124.eq_1 v2412))
theorem k1_off308_inb : ∀ (v2412 : BitVec 32) (k1_hw124 : k1_chk124 v2412), ∀ a, (k1_off308 v2412) a + S1x8192.size a ≤ S8192x8192.size a := fun v2412 k1_hw124 => k1_hw124.1
theorem k1_off310_inb : ∀ (v2412 : BitVec 32) (k1_hw124 : k1_chk124 v2412), ∀ a, (k1_off310 v2412) a + S1x256.size a ≤ S8192x256.size a := fun v2412 k1_hw124 => k1_hw124.2

def k1_off311 (i : grid1.Coords) : Fin 1 → Nat :=
  let arg0 : BitVec 32 := BitVec.ofNat 32 (i 0).val
  let c64_i32 : BitVec 32 := 64#32
  let v0 : BitVec 32 := Scalar.muli arg0 c64_i32
  let c62_i32 : BitVec 32 := 62#32
  let v2437 : BitVec 32 := Scalar.addi v0 c62_i32
  let v2438 : Index := Scalar.indexCast v2437
  ![v2438.toNat]
def k1_off312 (v2439 : BitVec 32) : Fin 2 → Nat :=
  let c0_i32_1352 : BitVec 32 := 0#32
  ![v2439.toNat, 0]

def k1_off313 (v2442 : BitVec 32) : Fin 2 → Nat :=
  let c0_i32_1356 : BitVec 32 := 0#32
  ![v2442.toNat, 0]

def k1_off314 (v2439 : BitVec 32) : Fin 2 → Nat :=
  let v2455 : Index := Scalar.indexCast v2439
  let c0_1357 : Index := 0#32
  ![v2455.toNat, 0]

def k1_chk125 (v2439 : BitVec 32) : Prop :=
  (∀ a, (k1_off312 v2439) a + S1x8192.size a ≤ S8192x8192.size a) ∧
  (∀ a, (k1_off314 v2439) a + S1x256.size a ≤ S8192x256.size a)
instance k1_chk125.dec : ∀ (v2439 : BitVec 32), Decidable (k1_chk125 v2439) := fun v2439 => decidable_of_iff' _ (Iff.of_eq (k1_chk125.eq_1 v2439))
theorem k1_off312_inb : ∀ (v2439 : BitVec 32) (k1_hw125 : k1_chk125 v2439), ∀ a, (k1_off312 v2439) a + S1x8192.size a ≤ S8192x8192.size a := fun v2439 k1_hw125 => k1_hw125.1
theorem k1_off314_inb : ∀ (v2439 : BitVec 32) (k1_hw125 : k1_chk125 v2439), ∀ a, (k1_off314 v2439) a + S1x256.size a ≤ S8192x256.size a := fun v2439 k1_hw125 => k1_hw125.2

def k1_off315 (v2442 : BitVec 32) : Fin 2 → Nat :=
  let v2461 : Index := Scalar.indexCast v2442
  let c0_1359 : Index := 0#32
  ![v2461.toNat, 0]

def k1_chk126 (v2442 : BitVec 32) : Prop :=
  (∀ a, (k1_off313 v2442) a + S1x8192.size a ≤ S8192x8192.size a) ∧
  (∀ a, (k1_off315 v2442) a + S1x256.size a ≤ S8192x256.size a)
instance k1_chk126.dec : ∀ (v2442 : BitVec 32), Decidable (k1_chk126 v2442) := fun v2442 => decidable_of_iff' _ (Iff.of_eq (k1_chk126.eq_1 v2442))
theorem k1_off313_inb : ∀ (v2442 : BitVec 32) (k1_hw126 : k1_chk126 v2442), ∀ a, (k1_off313 v2442) a + S1x8192.size a ≤ S8192x8192.size a := fun v2442 k1_hw126 => k1_hw126.1
theorem k1_off315_inb : ∀ (v2442 : BitVec 32) (k1_hw126 : k1_chk126 v2442), ∀ a, (k1_off315 v2442) a + S1x256.size a ≤ S8192x256.size a := fun v2442 k1_hw126 => k1_hw126.2

def k1_off316 (i : grid1.Coords) : Fin 1 → Nat :=
  let arg0 : BitVec 32 := BitVec.ofNat 32 (i 0).val
  let c64_i32 : BitVec 32 := 64#32
  let v0 : BitVec 32 := Scalar.muli arg0 c64_i32
  let c63_i32 : BitVec 32 := 63#32
  let v2467 : BitVec 32 := Scalar.addi v0 c63_i32
  let v2468 : Index := Scalar.indexCast v2467
  ![v2468.toNat]
def k1_off317 (v2469 : BitVec 32) : Fin 2 → Nat :=
  let c0_i32_1366 : BitVec 32 := 0#32
  ![v2469.toNat, 0]

def k1_off318 (v2472 : BitVec 32) : Fin 2 → Nat :=
  let c0_i32_1370 : BitVec 32 := 0#32
  ![v2472.toNat, 0]

def k1_off319 (v2469 : BitVec 32) : Fin 2 → Nat :=
  let v2485 : Index := Scalar.indexCast v2469
  let c0_1371 : Index := 0#32
  ![v2485.toNat, 0]

def k1_chk127 (v2469 : BitVec 32) : Prop :=
  (∀ a, (k1_off317 v2469) a + S1x8192.size a ≤ S8192x8192.size a) ∧
  (∀ a, (k1_off319 v2469) a + S1x256.size a ≤ S8192x256.size a)
instance k1_chk127.dec : ∀ (v2469 : BitVec 32), Decidable (k1_chk127 v2469) := fun v2469 => decidable_of_iff' _ (Iff.of_eq (k1_chk127.eq_1 v2469))
theorem k1_off317_inb : ∀ (v2469 : BitVec 32) (k1_hw127 : k1_chk127 v2469), ∀ a, (k1_off317 v2469) a + S1x8192.size a ≤ S8192x8192.size a := fun v2469 k1_hw127 => k1_hw127.1
theorem k1_off319_inb : ∀ (v2469 : BitVec 32) (k1_hw127 : k1_chk127 v2469), ∀ a, (k1_off319 v2469) a + S1x256.size a ≤ S8192x256.size a := fun v2469 k1_hw127 => k1_hw127.2

def k1_off320 (v2472 : BitVec 32) : Fin 2 → Nat :=
  let v2491 : Index := Scalar.indexCast v2472
  let c0_1373 : Index := 0#32
  ![v2491.toNat, 0]

def k1_chk128 (v2472 : BitVec 32) : Prop :=
  (∀ a, (k1_off318 v2472) a + S1x8192.size a ≤ S8192x8192.size a) ∧
  (∀ a, (k1_off320 v2472) a + S1x256.size a ≤ S8192x256.size a)
instance k1_chk128.dec : ∀ (v2472 : BitVec 32), Decidable (k1_chk128 v2472) := fun v2472 => decidable_of_iff' _ (Iff.of_eq (k1_chk128.eq_1 v2472))
theorem k1_off318_inb : ∀ (v2472 : BitVec 32) (k1_hw128 : k1_chk128 v2472), ∀ a, (k1_off318 v2472) a + S1x8192.size a ≤ S8192x8192.size a := fun v2472 k1_hw128 => k1_hw128.1
theorem k1_off320_inb : ∀ (v2472 : BitVec 32) (k1_hw128 : k1_chk128 v2472), ∀ a, (k1_off320 v2472) a + S1x256.size a ≤ S8192x256.size a := fun v2472 k1_hw128 => k1_hw128.2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S64x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x8192_S1x8192_0_0 : S2x8192.Slices ![0, 0] S1x8192
  shapeCasts_S1x8192_S8192 : S1x8192.ShapeCasts S8192
  slices_S2x8192_S1x8192_1_0 : S2x8192.Slices ![1, 0] S1x8192
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1_S1x1 : S1.ShapeCasts S1x1
  numel1_S1 : S1.numel = 1
  inb_S16_S1_0 : ∀ a, (![0] : Fin 1 → Nat) a + S1.size a ≤ S16.size a
  squeezes_S1_S_ : S1.Squeezes S_
  inb_S64x8192_S1x8192_0_0 : ∀ a, (![0, 0] : Fin 2 → Nat) a + S1x8192.size a ≤ S64x8192.size a
  squeezes_S1x8192_S8192 : S1x8192.Squeezes S8192
  shapeCasts_S1x256_S256 : S1x256.ShapeCasts S256
  inb_S64x256_S1x256_0_0 : ∀ a, (![0, 0] : Fin 2 → Nat) a + S1x256.size a ≤ S64x256.size a
  inb_S16_S1_1 : ∀ a, (![1] : Fin 1 → Nat) a + S1.size a ≤ S16.size a
  inb_S64x8192_S1x8192_1_0 : ∀ a, (![1, 0] : Fin 2 → Nat) a + S1x8192.size a ≤ S64x8192.size a
  inb_S64x256_S1x256_1_0 : ∀ a, (![1, 0] : Fin 2 → Nat) a + S1x256.size a ≤ S64x256.size a
  inb_S16_S1_2 : ∀ a, (![2] : Fin 1 → Nat) a + S1.size a ≤ S16.size a
  inb_S64x8192_S1x8192_2_0 : ∀ a, (![2, 0] : Fin 2 → Nat) a + S1x8192.size a ≤ S64x8192.size a
  inb_S64x256_S1x256_2_0 : ∀ a, (![2, 0] : Fin 2 → Nat) a + S1x256.size a ≤ S64x256.size a
  inb_S16_S1_3 : ∀ a, (![3] : Fin 1 → Nat) a + S1.size a ≤ S16.size a
  inb_S64x8192_S1x8192_3_0 : ∀ a, (![3, 0] : Fin 2 → Nat) a + S1x8192.size a ≤ S64x8192.size a
  inb_S64x256_S1x256_3_0 : ∀ a, (![3, 0] : Fin 2 → Nat) a + S1x256.size a ≤ S64x256.size a
  inb_S16_S1_4 : ∀ a, (![4] : Fin 1 → Nat) a + S1.size a ≤ S16.size a
  inb_S64x8192_S1x8192_4_0 : ∀ a, (![4, 0] : Fin 2 → Nat) a + S1x8192.size a ≤ S64x8192.size a
  inb_S64x256_S1x256_4_0 : ∀ a, (![4, 0] : Fin 2 → Nat) a + S1x256.size a ≤ S64x256.size a
  inb_S16_S1_5 : ∀ a, (![5] : Fin 1 → Nat) a + S1.size a ≤ S16.size a
  inb_S64x8192_S1x8192_5_0 : ∀ a, (![5, 0] : Fin 2 → Nat) a + S1x8192.size a ≤ S64x8192.size a
  inb_S64x256_S1x256_5_0 : ∀ a, (![5, 0] : Fin 2 → Nat) a + S1x256.size a ≤ S64x256.size a
  inb_S16_S1_6 : ∀ a, (![6] : Fin 1 → Nat) a + S1.size a ≤ S16.size a
  inb_S64x8192_S1x8192_6_0 : ∀ a, (![6, 0] : Fin 2 → Nat) a + S1x8192.size a ≤ S64x8192.size a
  inb_S64x256_S1x256_6_0 : ∀ a, (![6, 0] : Fin 2 → Nat) a + S1x256.size a ≤ S64x256.size a
  inb_S16_S1_7 : ∀ a, (![7] : Fin 1 → Nat) a + S1.size a ≤ S16.size a
  inb_S64x8192_S1x8192_7_0 : ∀ a, (![7, 0] : Fin 2 → Nat) a + S1x8192.size a ≤ S64x8192.size a
  inb_S64x256_S1x256_7_0 : ∀ a, (![7, 0] : Fin 2 → Nat) a + S1x256.size a ≤ S64x256.size a
  inb_S16_S1_8 : ∀ a, (![8] : Fin 1 → Nat) a + S1.size a ≤ S16.size a
  inb_S64x8192_S1x8192_8_0 : ∀ a, (![8, 0] : Fin 2 → Nat) a + S1x8192.size a ≤ S64x8192.size a
  inb_S64x256_S1x256_8_0 : ∀ a, (![8, 0] : Fin 2 → Nat) a + S1x256.size a ≤ S64x256.size a
  inb_S16_S1_9 : ∀ a, (![9] : Fin 1 → Nat) a + S1.size a ≤ S16.size a
  inb_S64x8192_S1x8192_9_0 : ∀ a, (![9, 0] : Fin 2 → Nat) a + S1x8192.size a ≤ S64x8192.size a
  inb_S64x256_S1x256_9_0 : ∀ a, (![9, 0] : Fin 2 → Nat) a + S1x256.size a ≤ S64x256.size a
  inb_S16_S1_10 : ∀ a, (![10] : Fin 1 → Nat) a + S1.size a ≤ S16.size a
  inb_S64x8192_S1x8192_10_0 : ∀ a, (![10, 0] : Fin 2 → Nat) a + S1x8192.size a ≤ S64x8192.size a
  inb_S64x256_S1x256_10_0 : ∀ a, (![10, 0] : Fin 2 → Nat) a + S1x256.size a ≤ S64x256.size a
  inb_S16_S1_11 : ∀ a, (![11] : Fin 1 → Nat) a + S1.size a ≤ S16.size a
  inb_S64x8192_S1x8192_11_0 : ∀ a, (![11, 0] : Fin 2 → Nat) a + S1x8192.size a ≤ S64x8192.size a
  inb_S64x256_S1x256_11_0 : ∀ a, (![11, 0] : Fin 2 → Nat) a + S1x256.size a ≤ S64x256.size a
  inb_S16_S1_12 : ∀ a, (![12] : Fin 1 → Nat) a + S1.size a ≤ S16.size a
  inb_S64x8192_S1x8192_12_0 : ∀ a, (![12, 0] : Fin 2 → Nat) a + S1x8192.size a ≤ S64x8192.size a
  inb_S64x256_S1x256_12_0 : ∀ a, (![12, 0] : Fin 2 → Nat) a + S1x256.size a ≤ S64x256.size a
  inb_S16_S1_13 : ∀ a, (![13] : Fin 1 → Nat) a + S1.size a ≤ S16.size a
  inb_S64x8192_S1x8192_13_0 : ∀ a, (![13, 0] : Fin 2 → Nat) a + S1x8192.size a ≤ S64x8192.size a
  inb_S64x256_S1x256_13_0 : ∀ a, (![13, 0] : Fin 2 → Nat) a + S1x256.size a ≤ S64x256.size a
  inb_S16_S1_14 : ∀ a, (![14] : Fin 1 → Nat) a + S1.size a ≤ S16.size a
  inb_S64x8192_S1x8192_14_0 : ∀ a, (![14, 0] : Fin 2 → Nat) a + S1x8192.size a ≤ S64x8192.size a
  inb_S64x256_S1x256_14_0 : ∀ a, (![14, 0] : Fin 2 → Nat) a + S1x256.size a ≤ S64x256.size a
  inb_S16_S1_15 : ∀ a, (![15] : Fin 1 → Nat) a + S1.size a ≤ S16.size a
  inb_S64x8192_S1x8192_15_0 : ∀ a, (![15, 0] : Fin 2 → Nat) a + S1x8192.size a ≤ S64x8192.size a
  inb_S64x256_S1x256_15_0 : ∀ a, (![15, 0] : Fin 2 → Nat) a + S1x256.size a ≤ S64x256.size a
  inb_S8192x8192_S1x8192_0_0 : ∀ a, (![0, 0] : Fin 2 → Nat) a + S1x8192.size a ≤ S8192x8192.size a
  inb_S64x8192_S1x8192_16_0 : ∀ a, (![16, 0] : Fin 2 → Nat) a + S1x8192.size a ≤ S64x8192.size a
  inb_S64x256_S1x256_16_0 : ∀ a, (![16, 0] : Fin 2 → Nat) a + S1x256.size a ≤ S64x256.size a
  inb_S64x8192_S1x8192_17_0 : ∀ a, (![17, 0] : Fin 2 → Nat) a + S1x8192.size a ≤ S64x8192.size a
  inb_S64x256_S1x256_17_0 : ∀ a, (![17, 0] : Fin 2 → Nat) a + S1x256.size a ≤ S64x256.size a
  inb_S64x8192_S1x8192_18_0 : ∀ a, (![18, 0] : Fin 2 → Nat) a + S1x8192.size a ≤ S64x8192.size a
  inb_S64x256_S1x256_18_0 : ∀ a, (![18, 0] : Fin 2 → Nat) a + S1x256.size a ≤ S64x256.size a
  inb_S64x8192_S1x8192_19_0 : ∀ a, (![19, 0] : Fin 2 → Nat) a + S1x8192.size a ≤ S64x8192.size a
  inb_S64x256_S1x256_19_0 : ∀ a, (![19, 0] : Fin 2 → Nat) a + S1x256.size a ≤ S64x256.size a
  inb_S64x8192_S1x8192_20_0 : ∀ a, (![20, 0] : Fin 2 → Nat) a + S1x8192.size a ≤ S64x8192.size a
  inb_S64x256_S1x256_20_0 : ∀ a, (![20, 0] : Fin 2 → Nat) a + S1x256.size a ≤ S64x256.size a
  inb_S64x8192_S1x8192_21_0 : ∀ a, (![21, 0] : Fin 2 → Nat) a + S1x8192.size a ≤ S64x8192.size a
  inb_S64x256_S1x256_21_0 : ∀ a, (![21, 0] : Fin 2 → Nat) a + S1x256.size a ≤ S64x256.size a
  inb_S64x8192_S1x8192_22_0 : ∀ a, (![22, 0] : Fin 2 → Nat) a + S1x8192.size a ≤ S64x8192.size a
  inb_S64x256_S1x256_22_0 : ∀ a, (![22, 0] : Fin 2 → Nat) a + S1x256.size a ≤ S64x256.size a
  inb_S64x8192_S1x8192_23_0 : ∀ a, (![23, 0] : Fin 2 → Nat) a + S1x8192.size a ≤ S64x8192.size a
  inb_S64x256_S1x256_23_0 : ∀ a, (![23, 0] : Fin 2 → Nat) a + S1x256.size a ≤ S64x256.size a
  inb_S64x8192_S1x8192_24_0 : ∀ a, (![24, 0] : Fin 2 → Nat) a + S1x8192.size a ≤ S64x8192.size a
  inb_S64x256_S1x256_24_0 : ∀ a, (![24, 0] : Fin 2 → Nat) a + S1x256.size a ≤ S64x256.size a
  inb_S64x8192_S1x8192_25_0 : ∀ a, (![25, 0] : Fin 2 → Nat) a + S1x8192.size a ≤ S64x8192.size a
  inb_S64x256_S1x256_25_0 : ∀ a, (![25, 0] : Fin 2 → Nat) a + S1x256.size a ≤ S64x256.size a
  inb_S64x8192_S1x8192_26_0 : ∀ a, (![26, 0] : Fin 2 → Nat) a + S1x8192.size a ≤ S64x8192.size a
  inb_S64x256_S1x256_26_0 : ∀ a, (![26, 0] : Fin 2 → Nat) a + S1x256.size a ≤ S64x256.size a
  inb_S64x8192_S1x8192_27_0 : ∀ a, (![27, 0] : Fin 2 → Nat) a + S1x8192.size a ≤ S64x8192.size a
  inb_S64x256_S1x256_27_0 : ∀ a, (![27, 0] : Fin 2 → Nat) a + S1x256.size a ≤ S64x256.size a
  inb_S64x8192_S1x8192_28_0 : ∀ a, (![28, 0] : Fin 2 → Nat) a + S1x8192.size a ≤ S64x8192.size a
  inb_S64x256_S1x256_28_0 : ∀ a, (![28, 0] : Fin 2 → Nat) a + S1x256.size a ≤ S64x256.size a
  inb_S64x8192_S1x8192_29_0 : ∀ a, (![29, 0] : Fin 2 → Nat) a + S1x8192.size a ≤ S64x8192.size a
  inb_S64x256_S1x256_29_0 : ∀ a, (![29, 0] : Fin 2 → Nat) a + S1x256.size a ≤ S64x256.size a
  inb_S64x8192_S1x8192_30_0 : ∀ a, (![30, 0] : Fin 2 → Nat) a + S1x8192.size a ≤ S64x8192.size a
  inb_S64x256_S1x256_30_0 : ∀ a, (![30, 0] : Fin 2 → Nat) a + S1x256.size a ≤ S64x256.size a
  inb_S64x8192_S1x8192_31_0 : ∀ a, (![31, 0] : Fin 2 → Nat) a + S1x8192.size a ≤ S64x8192.size a
  inb_S64x256_S1x256_31_0 : ∀ a, (![31, 0] : Fin 2 → Nat) a + S1x256.size a ≤ S64x256.size a
  inb_S64x8192_S1x8192_32_0 : ∀ a, (![32, 0] : Fin 2 → Nat) a + S1x8192.size a ≤ S64x8192.size a
  inb_S64x256_S1x256_32_0 : ∀ a, (![32, 0] : Fin 2 → Nat) a + S1x256.size a ≤ S64x256.size a
  inb_S64x8192_S1x8192_33_0 : ∀ a, (![33, 0] : Fin 2 → Nat) a + S1x8192.size a ≤ S64x8192.size a
  inb_S64x256_S1x256_33_0 : ∀ a, (![33, 0] : Fin 2 → Nat) a + S1x256.size a ≤ S64x256.size a
  inb_S64x8192_S1x8192_34_0 : ∀ a, (![34, 0] : Fin 2 → Nat) a + S1x8192.size a ≤ S64x8192.size a
  inb_S64x256_S1x256_34_0 : ∀ a, (![34, 0] : Fin 2 → Nat) a + S1x256.size a ≤ S64x256.size a
  inb_S64x8192_S1x8192_35_0 : ∀ a, (![35, 0] : Fin 2 → Nat) a + S1x8192.size a ≤ S64x8192.size a
  inb_S64x256_S1x256_35_0 : ∀ a, (![35, 0] : Fin 2 → Nat) a + S1x256.size a ≤ S64x256.size a
  inb_S64x8192_S1x8192_36_0 : ∀ a, (![36, 0] : Fin 2 → Nat) a + S1x8192.size a ≤ S64x8192.size a
  inb_S64x256_S1x256_36_0 : ∀ a, (![36, 0] : Fin 2 → Nat) a + S1x256.size a ≤ S64x256.size a
  inb_S64x8192_S1x8192_37_0 : ∀ a, (![37, 0] : Fin 2 → Nat) a + S1x8192.size a ≤ S64x8192.size a
  inb_S64x256_S1x256_37_0 : ∀ a, (![37, 0] : Fin 2 → Nat) a + S1x256.size a ≤ S64x256.size a
  inb_S64x8192_S1x8192_38_0 : ∀ a, (![38, 0] : Fin 2 → Nat) a + S1x8192.size a ≤ S64x8192.size a
  inb_S64x256_S1x256_38_0 : ∀ a, (![38, 0] : Fin 2 → Nat) a + S1x256.size a ≤ S64x256.size a
  inb_S64x8192_S1x8192_39_0 : ∀ a, (![39, 0] : Fin 2 → Nat) a + S1x8192.size a ≤ S64x8192.size a
  inb_S64x256_S1x256_39_0 : ∀ a, (![39, 0] : Fin 2 → Nat) a + S1x256.size a ≤ S64x256.size a
  inb_S64x8192_S1x8192_40_0 : ∀ a, (![40, 0] : Fin 2 → Nat) a + S1x8192.size a ≤ S64x8192.size a
  inb_S64x256_S1x256_40_0 : ∀ a, (![40, 0] : Fin 2 → Nat) a + S1x256.size a ≤ S64x256.size a
  inb_S64x8192_S1x8192_41_0 : ∀ a, (![41, 0] : Fin 2 → Nat) a + S1x8192.size a ≤ S64x8192.size a
  inb_S64x256_S1x256_41_0 : ∀ a, (![41, 0] : Fin 2 → Nat) a + S1x256.size a ≤ S64x256.size a
  inb_S64x8192_S1x8192_42_0 : ∀ a, (![42, 0] : Fin 2 → Nat) a + S1x8192.size a ≤ S64x8192.size a
  inb_S64x256_S1x256_42_0 : ∀ a, (![42, 0] : Fin 2 → Nat) a + S1x256.size a ≤ S64x256.size a
  inb_S64x8192_S1x8192_43_0 : ∀ a, (![43, 0] : Fin 2 → Nat) a + S1x8192.size a ≤ S64x8192.size a
  inb_S64x256_S1x256_43_0 : ∀ a, (![43, 0] : Fin 2 → Nat) a + S1x256.size a ≤ S64x256.size a
  inb_S64x8192_S1x8192_44_0 : ∀ a, (![44, 0] : Fin 2 → Nat) a + S1x8192.size a ≤ S64x8192.size a
  inb_S64x256_S1x256_44_0 : ∀ a, (![44, 0] : Fin 2 → Nat) a + S1x256.size a ≤ S64x256.size a
  inb_S64x8192_S1x8192_45_0 : ∀ a, (![45, 0] : Fin 2 → Nat) a + S1x8192.size a ≤ S64x8192.size a
  inb_S64x256_S1x256_45_0 : ∀ a, (![45, 0] : Fin 2 → Nat) a + S1x256.size a ≤ S64x256.size a
  inb_S64x8192_S1x8192_46_0 : ∀ a, (![46, 0] : Fin 2 → Nat) a + S1x8192.size a ≤ S64x8192.size a
  inb_S64x256_S1x256_46_0 : ∀ a, (![46, 0] : Fin 2 → Nat) a + S1x256.size a ≤ S64x256.size a
  inb_S64x8192_S1x8192_47_0 : ∀ a, (![47, 0] : Fin 2 → Nat) a + S1x8192.size a ≤ S64x8192.size a
  inb_S64x256_S1x256_47_0 : ∀ a, (![47, 0] : Fin 2 → Nat) a + S1x256.size a ≤ S64x256.size a
  inb_S64x8192_S1x8192_48_0 : ∀ a, (![48, 0] : Fin 2 → Nat) a + S1x8192.size a ≤ S64x8192.size a
  inb_S64x256_S1x256_48_0 : ∀ a, (![48, 0] : Fin 2 → Nat) a + S1x256.size a ≤ S64x256.size a
  inb_S64x8192_S1x8192_49_0 : ∀ a, (![49, 0] : Fin 2 → Nat) a + S1x8192.size a ≤ S64x8192.size a
  inb_S64x256_S1x256_49_0 : ∀ a, (![49, 0] : Fin 2 → Nat) a + S1x256.size a ≤ S64x256.size a
  inb_S64x8192_S1x8192_50_0 : ∀ a, (![50, 0] : Fin 2 → Nat) a + S1x8192.size a ≤ S64x8192.size a
  inb_S64x256_S1x256_50_0 : ∀ a, (![50, 0] : Fin 2 → Nat) a + S1x256.size a ≤ S64x256.size a
  inb_S64x8192_S1x8192_51_0 : ∀ a, (![51, 0] : Fin 2 → Nat) a + S1x8192.size a ≤ S64x8192.size a
  inb_S64x256_S1x256_51_0 : ∀ a, (![51, 0] : Fin 2 → Nat) a + S1x256.size a ≤ S64x256.size a
  inb_S64x8192_S1x8192_52_0 : ∀ a, (![52, 0] : Fin 2 → Nat) a + S1x8192.size a ≤ S64x8192.size a
  inb_S64x256_S1x256_52_0 : ∀ a, (![52, 0] : Fin 2 → Nat) a + S1x256.size a ≤ S64x256.size a
  inb_S64x8192_S1x8192_53_0 : ∀ a, (![53, 0] : Fin 2 → Nat) a + S1x8192.size a ≤ S64x8192.size a
  inb_S64x256_S1x256_53_0 : ∀ a, (![53, 0] : Fin 2 → Nat) a + S1x256.size a ≤ S64x256.size a
  inb_S64x8192_S1x8192_54_0 : ∀ a, (![54, 0] : Fin 2 → Nat) a + S1x8192.size a ≤ S64x8192.size a
  inb_S64x256_S1x256_54_0 : ∀ a, (![54, 0] : Fin 2 → Nat) a + S1x256.size a ≤ S64x256.size a
  inb_S64x8192_S1x8192_55_0 : ∀ a, (![55, 0] : Fin 2 → Nat) a + S1x8192.size a ≤ S64x8192.size a
  inb_S64x256_S1x256_55_0 : ∀ a, (![55, 0] : Fin 2 → Nat) a + S1x256.size a ≤ S64x256.size a
  inb_S64x8192_S1x8192_56_0 : ∀ a, (![56, 0] : Fin 2 → Nat) a + S1x8192.size a ≤ S64x8192.size a
  inb_S64x256_S1x256_56_0 : ∀ a, (![56, 0] : Fin 2 → Nat) a + S1x256.size a ≤ S64x256.size a
  inb_S64x8192_S1x8192_57_0 : ∀ a, (![57, 0] : Fin 2 → Nat) a + S1x8192.size a ≤ S64x8192.size a
  inb_S64x256_S1x256_57_0 : ∀ a, (![57, 0] : Fin 2 → Nat) a + S1x256.size a ≤ S64x256.size a
  inb_S64x8192_S1x8192_58_0 : ∀ a, (![58, 0] : Fin 2 → Nat) a + S1x8192.size a ≤ S64x8192.size a
  inb_S64x256_S1x256_58_0 : ∀ a, (![58, 0] : Fin 2 → Nat) a + S1x256.size a ≤ S64x256.size a
  inb_S64x8192_S1x8192_59_0 : ∀ a, (![59, 0] : Fin 2 → Nat) a + S1x8192.size a ≤ S64x8192.size a
  inb_S64x256_S1x256_59_0 : ∀ a, (![59, 0] : Fin 2 → Nat) a + S1x256.size a ≤ S64x256.size a
  inb_S64x8192_S1x8192_60_0 : ∀ a, (![60, 0] : Fin 2 → Nat) a + S1x8192.size a ≤ S64x8192.size a
  inb_S64x256_S1x256_60_0 : ∀ a, (![60, 0] : Fin 2 → Nat) a + S1x256.size a ≤ S64x256.size a
  inb_S64x8192_S1x8192_61_0 : ∀ a, (![61, 0] : Fin 2 → Nat) a + S1x8192.size a ≤ S64x8192.size a
  inb_S64x256_S1x256_61_0 : ∀ a, (![61, 0] : Fin 2 → Nat) a + S1x256.size a ≤ S64x256.size a
  inb_S64x8192_S1x8192_62_0 : ∀ a, (![62, 0] : Fin 2 → Nat) a + S1x8192.size a ≤ S64x8192.size a
  inb_S64x256_S1x256_62_0 : ∀ a, (![62, 0] : Fin 2 → Nat) a + S1x256.size a ≤ S64x256.size a
  inb_S64x8192_S1x8192_63_0 : ∀ a, (![63, 0] : Fin 2 → Nat) a + S1x8192.size a ≤ S64x8192.size a
  inb_S64x256_S1x256_63_0 : ∀ a, (![63, 0] : Fin 2 → Nat) a + S1x256.size a ≤ S64x256.size a
  inb_S64x8192_S64x8192_0_0 : ∀ a, (![0, 0] : Fin 2 → Nat) a + S64x8192.size a ≤ S64x8192.size a
  h_S64x8192 : 0 < S64x8192.numel
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S64x256_S64x256_0_0 : ∀ a, (![0, 0] : Fin 2 → Nat) a + S64x256.size a ≤ S64x256.size a
  h_S64x256 : 0 < S64x256.numel
  broadcasts_S1x256_S64x256 : S1x256.Broadcasts S64x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x1_S256x1_0_0 : ∀ a, (![0, 0] : Fin 2 → Nat) a + S256x1.size a ≤ S256x1.size a
  h_S256x1 : 0 < S256x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  dot_S1024x256_S256x256_S1024x256_1_0_0_1_n_n_wf : DotDims.WF S1024x256 S256x256 S1024x256 [1] [0] [0] [1] [] []
  dot_S64x8192_S8192x256_S64x256_1_0_0_1_n_n_wf : DotDims.WF S64x8192 S8192x256 S64x256 [1] [0] [0] [1] [] []
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []
  hcc1_scratch4 : 23 + S16.numel ≤ 55
  hcc1_scratch5 : 39 + S16.numel ≤ 55
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)
  hrank1 : 0 < grid1.rank
  k1_off1_inb : ∀ i : grid1.Coords, ∀ a, (k1_off1 i) a + S1.size a ≤ S8192.size a
  k1_off6_inb : ∀ i : grid1.Coords, ∀ a, (k1_off6 i) a + S1.size a ≤ S8192.size a
  k1_off11_inb : ∀ i : grid1.Coords, ∀ a, (k1_off11 i) a + S1.size a ≤ S8192.size a
  k1_off16_inb : ∀ i : grid1.Coords, ∀ a, (k1_off16 i) a + S1.size a ≤ S8192.size a
  k1_off21_inb : ∀ i : grid1.Coords, ∀ a, (k1_off21 i) a + S1.size a ≤ S8192.size a
  k1_off26_inb : ∀ i : grid1.Coords, ∀ a, (k1_off26 i) a + S1.size a ≤ S8192.size a
  k1_off31_inb : ∀ i : grid1.Coords, ∀ a, (k1_off31 i) a + S1.size a ≤ S8192.size a
  k1_off36_inb : ∀ i : grid1.Coords, ∀ a, (k1_off36 i) a + S1.size a ≤ S8192.size a
  k1_off41_inb : ∀ i : grid1.Coords, ∀ a, (k1_off41 i) a + S1.size a ≤ S8192.size a
  k1_off46_inb : ∀ i : grid1.Coords, ∀ a, (k1_off46 i) a + S1.size a ≤ S8192.size a
  k1_off51_inb : ∀ i : grid1.Coords, ∀ a, (k1_off51 i) a + S1.size a ≤ S8192.size a
  k1_off56_inb : ∀ i : grid1.Coords, ∀ a, (k1_off56 i) a + S1.size a ≤ S8192.size a
  k1_off61_inb : ∀ i : grid1.Coords, ∀ a, (k1_off61 i) a + S1.size a ≤ S8192.size a
  k1_off66_inb : ∀ i : grid1.Coords, ∀ a, (k1_off66 i) a + S1.size a ≤ S8192.size a
  k1_off71_inb : ∀ i : grid1.Coords, ∀ a, (k1_off71 i) a + S1.size a ≤ S8192.size a
  k1_off76_inb : ∀ i : grid1.Coords, ∀ a, (k1_off76 i) a + S1.size a ≤ S8192.size a
  k1_off81_inb : ∀ i : grid1.Coords, ∀ a, (k1_off81 i) a + S1.size a ≤ S8192.size a
  k1_off86_inb : ∀ i : grid1.Coords, ∀ a, (k1_off86 i) a + S1.size a ≤ S8192.size a
  k1_off91_inb : ∀ i : grid1.Coords, ∀ a, (k1_off91 i) a + S1.size a ≤ S8192.size a
  k1_off96_inb : ∀ i : grid1.Coords, ∀ a, (k1_off96 i) a + S1.size a ≤ S8192.size a
  k1_off101_inb : ∀ i : grid1.Coords, ∀ a, (k1_off101 i) a + S1.size a ≤ S8192.size a
  k1_off106_inb : ∀ i : grid1.Coords, ∀ a, (k1_off106 i) a + S1.size a ≤ S8192.size a
  k1_off111_inb : ∀ i : grid1.Coords, ∀ a, (k1_off111 i) a + S1.size a ≤ S8192.size a
  k1_off116_inb : ∀ i : grid1.Coords, ∀ a, (k1_off116 i) a + S1.size a ≤ S8192.size a
  k1_off121_inb : ∀ i : grid1.Coords, ∀ a, (k1_off121 i) a + S1.size a ≤ S8192.size a
  k1_off126_inb : ∀ i : grid1.Coords, ∀ a, (k1_off126 i) a + S1.size a ≤ S8192.size a
  k1_off131_inb : ∀ i : grid1.Coords, ∀ a, (k1_off131 i) a + S1.size a ≤ S8192.size a
  k1_off136_inb : ∀ i : grid1.Coords, ∀ a, (k1_off136 i) a + S1.size a ≤ S8192.size a
  k1_off141_inb : ∀ i : grid1.Coords, ∀ a, (k1_off141 i) a + S1.size a ≤ S8192.size a
  k1_off146_inb : ∀ i : grid1.Coords, ∀ a, (k1_off146 i) a + S1.size a ≤ S8192.size a
  k1_off151_inb : ∀ i : grid1.Coords, ∀ a, (k1_off151 i) a + S1.size a ≤ S8192.size a
  k1_off156_inb : ∀ i : grid1.Coords, ∀ a, (k1_off156 i) a + S1.size a ≤ S8192.size a
  k1_off161_inb : ∀ i : grid1.Coords, ∀ a, (k1_off161 i) a + S1.size a ≤ S8192.size a
  k1_off166_inb : ∀ i : grid1.Coords, ∀ a, (k1_off166 i) a + S1.size a ≤ S8192.size a
  k1_off171_inb : ∀ i : grid1.Coords, ∀ a, (k1_off171 i) a + S1.size a ≤ S8192.size a
  k1_off176_inb : ∀ i : grid1.Coords, ∀ a, (k1_off176 i) a + S1.size a ≤ S8192.size a
  k1_off181_inb : ∀ i : grid1.Coords, ∀ a, (k1_off181 i) a + S1.size a ≤ S8192.size a
  k1_off186_inb : ∀ i : grid1.Coords, ∀ a, (k1_off186 i) a + S1.size a ≤ S8192.size a
  k1_off191_inb : ∀ i : grid1.Coords, ∀ a, (k1_off191 i) a + S1.size a ≤ S8192.size a
  k1_off196_inb : ∀ i : grid1.Coords, ∀ a, (k1_off196 i) a + S1.size a ≤ S8192.size a
  k1_off201_inb : ∀ i : grid1.Coords, ∀ a, (k1_off201 i) a + S1.size a ≤ S8192.size a
  k1_off206_inb : ∀ i : grid1.Coords, ∀ a, (k1_off206 i) a + S1.size a ≤ S8192.size a
  k1_off211_inb : ∀ i : grid1.Coords, ∀ a, (k1_off211 i) a + S1.size a ≤ S8192.size a
  k1_off216_inb : ∀ i : grid1.Coords, ∀ a, (k1_off216 i) a + S1.size a ≤ S8192.size a
  k1_off221_inb : ∀ i : grid1.Coords, ∀ a, (k1_off221 i) a + S1.size a ≤ S8192.size a
  k1_off226_inb : ∀ i : grid1.Coords, ∀ a, (k1_off226 i) a + S1.size a ≤ S8192.size a
  k1_off231_inb : ∀ i : grid1.Coords, ∀ a, (k1_off231 i) a + S1.size a ≤ S8192.size a
  k1_off236_inb : ∀ i : grid1.Coords, ∀ a, (k1_off236 i) a + S1.size a ≤ S8192.size a
  k1_off241_inb : ∀ i : grid1.Coords, ∀ a, (k1_off241 i) a + S1.size a ≤ S8192.size a
  k1_off246_inb : ∀ i : grid1.Coords, ∀ a, (k1_off246 i) a + S1.size a ≤ S8192.size a
  k1_off251_inb : ∀ i : grid1.Coords, ∀ a, (k1_off251 i) a + S1.size a ≤ S8192.size a
  k1_off256_inb : ∀ i : grid1.Coords, ∀ a, (k1_off256 i) a + S1.size a ≤ S8192.size a
  k1_off261_inb : ∀ i : grid1.Coords, ∀ a, (k1_off261 i) a + S1.size a ≤ S8192.size a
  k1_off266_inb : ∀ i : grid1.Coords, ∀ a, (k1_off266 i) a + S1.size a ≤ S8192.size a
  k1_off271_inb : ∀ i : grid1.Coords, ∀ a, (k1_off271 i) a + S1.size a ≤ S8192.size a
  k1_off276_inb : ∀ i : grid1.Coords, ∀ a, (k1_off276 i) a + S1.size a ≤ S8192.size a
  k1_off281_inb : ∀ i : grid1.Coords, ∀ a, (k1_off281 i) a + S1.size a ≤ S8192.size a
  k1_off286_inb : ∀ i : grid1.Coords, ∀ a, (k1_off286 i) a + S1.size a ≤ S8192.size a
  k1_off291_inb : ∀ i : grid1.Coords, ∀ a, (k1_off291 i) a + S1.size a ≤ S8192.size a
  k1_off296_inb : ∀ i : grid1.Coords, ∀ a, (k1_off296 i) a + S1.size a ≤ S8192.size a
  k1_off301_inb : ∀ i : grid1.Coords, ∀ a, (k1_off301 i) a + S1.size a ≤ S8192.size a
  k1_off306_inb : ∀ i : grid1.Coords, ∀ a, (k1_off306 i) a + S1.size a ≤ S8192.size a
  k1_off311_inb : ∀ i : grid1.Coords, ∀ a, (k1_off311 i) a + S1.size a ≤ S8192.size a
  k1_off316_inb : ∀ i : grid1.Coords, ∀ a, (k1_off316 i) a + S1.size a ≤ S8192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .f32 = 32 ∨ (Rect.block (s := S8192x256) S8192x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_3 i = cc1_transform_3 i'
  hinb1_2 : ∀ (i : grid1.Coords) a, (cc1_transform_3 i a + 1) * S256x256.size a ≤ S256x256.size a
  hwx1_2 : ∀ i : grid1.Coords, EltTy.bits .f32 = 32 ∨ (Rect.block (s := S256x256) S256x256.size (cc1_transform_3 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_4 i = cc1_transform_4 i'
  hinb1_3 : ∀ (i : grid1.Coords) a, (cc1_transform_4 i a + 1) * S1x256.size a ≤ S1x256.size a
  hwx1_3 : ∀ i : grid1.Coords, EltTy.bits .f32 = 32 ∨ (Rect.block (s := S1x256) S1x256.size (cc1_transform_4 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_5 i = cc1_transform_5 i'
  hinb1_4 : ∀ (i : grid1.Coords) a, (cc1_transform_5 i a + 1) * S256x256.size a ≤ S256x256.size a
  hwx1_4 : ∀ i : grid1.Coords, EltTy.bits .f32 = 32 ∨ (Rect.block (s := S256x256) S256x256.size (cc1_transform_5 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_6 i = cc1_transform_6 i'
  hinb1_5 : ∀ (i : grid1.Coords) a, (cc1_transform_6 i a + 1) * S1x256.size a ≤ S1x256.size a
  hwx1_5 : ∀ i : grid1.Coords, EltTy.bits .f32 = 32 ∨ (Rect.block (s := S1x256) S1x256.size (cc1_transform_6 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_7 i = cc1_transform_7 i'
  hinb1_6 : ∀ (i : grid1.Coords) a, (cc1_transform_7 i a + 1) * S256x256.size a ≤ S256x256.size a
  hwx1_6 : ∀ i : grid1.Coords, EltTy.bits .f32 = 32 ∨ (Rect.block (s := S256x256) S256x256.size (cc1_transform_7 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_8 i = cc1_transform_8 i'
  hinb1_7 : ∀ (i : grid1.Coords) a, (cc1_transform_8 i a + 1) * S1x256.size a ≤ S1x256.size a
  hwx1_7 : ∀ i : grid1.Coords, EltTy.bits .f32 = 32 ∨ (Rect.block (s := S1x256) S1x256.size (cc1_transform_8 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_9 i = cc1_transform_9 i'
  hinb1_8 : ∀ (i : grid1.Coords) a, (cc1_transform_9 i a + 1) * S256x256.size a ≤ S256x256.size a
  hwx1_8 : ∀ i : grid1.Coords, EltTy.bits .f32 = 32 ∨ (Rect.block (s := S256x256) S256x256.size (cc1_transform_9 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_10 i = cc1_transform_10 i'
  hinb1_9 : ∀ (i : grid1.Coords) a, (cc1_transform_10 i a + 1) * S1x256.size a ≤ S1x256.size a
  hwx1_9 : ∀ i : grid1.Coords, EltTy.bits .f32 = 32 ∨ (Rect.block (s := S1x256) S1x256.size (cc1_transform_10 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_11 i = cc1_transform_11 i'
  hinb1_10 : ∀ (i : grid1.Coords) a, (cc1_transform_11 i a + 1) * S256x1.size a ≤ S256x1.size a
  hwx1_10 : ∀ i : grid1.Coords, EltTy.bits .f32 = 32 ∨ (Rect.block (s := S256x1) S256x1.size (cc1_transform_11 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_12 i = cc1_transform_12 i'
  hinb1_11 : ∀ (i : grid1.Coords) a, (cc1_transform_12 i a + 1) * S1x1.size a ≤ S1x1.size a
  hwx1_11 : ∀ i : grid1.Coords, EltTy.bits .f32 = 32 ∨ (Rect.block (s := S1x1) S1x1.size (cc1_transform_12 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_13 i = cc1_transform_13 i'
  hinb1_12 : ∀ (i : grid1.Coords) a, (cc1_transform_13 i a + 1) * S1x1.size a ≤ S1x1.size a
  hwx1_12 : ∀ i : grid1.Coords, EltTy.bits .f32 = 32 ∨ (Rect.block (s := S1x1) S1x1.size (cc1_transform_13 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_14 i = cc1_transform_14 i'
  hinb1_13 : ∀ (i : grid1.Coords) a, (cc1_transform_14 i a + 1) * S64x1.size a ≤ S8192x1.size a
  hwx1_13 : ∀ i : grid1.Coords, EltTy.bits .f32 = 32 ∨ (Rect.block (s := S8192x1) S64x1.size (cc1_transform_14 i) (hinb1_13 i)).WholeWords (EltTy.packing .f32)

variable [Facts₀]

abbrev cc1_scratch4 : DmaSems sig S16 := SemArray.consecutive 23 S16 hcc1_scratch4
abbrev cc1_scratch5 : DmaSems sig S16 := SemArray.consecutive 39 S16 hcc1_scratch5
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev spec1_0 : Pipeline.WinSpec sig grid1.rank :=
  Pipeline.WinSpec.ofSpec (Memref.whole main_arg0) S8192x256.size reads1_0 false true 1 stage1_0 sem1_0 nbuf1_0 hstage1_0

abbrev spec1_1 : Pipeline.WinSpec sig grid1.rank :=
  Pipeline.WinSpec.ofSpec (Memref.whole main_v6) S8192x256.size reads1_1 false true 1 stage1_1 sem1_1 nbuf1_1 hstage1_1

abbrev spec1_2 : Pipeline.WinSpec sig grid1.rank :=
  Pipeline.WinSpec.ofSpec (Memref.whole main_arg11) S256x256.size reads1_2 false true 1 stage1_2 sem1_2 nbuf1_2 hstage1_2

abbrev spec1_3 : Pipeline.WinSpec sig grid1.rank :=
  Pipeline.WinSpec.ofSpec (Memref.whole main_v7) S1x256.size reads1_3 false true 1 stage1_3 sem1_3 nbuf1_3 hstage1_3

abbrev spec1_4 : Pipeline.WinSpec sig grid1.rank :=
  Pipeline.WinSpec.ofSpec (Memref.whole main_arg7) S256x256.size reads1_4 false true 1 stage1_4 sem1_4 nbuf1_4 hstage1_4

abbrev spec1_5 : Pipeline.WinSpec sig grid1.rank :=
  Pipeline.WinSpec.ofSpec (Memref.whole main_v8) S1x256.size reads1_5 false true 1 stage1_5 sem1_5 nbuf1_5 hstage1_5

abbrev spec1_6 : Pipeline.WinSpec sig grid1.rank :=
  Pipeline.WinSpec.ofSpec (Memref.whole main_arg9) S256x256.size reads1_6 false true 1 stage1_6 sem1_6 nbuf1_6 hstage1_6

abbrev spec1_7 : Pipeline.WinSpec sig grid1.rank :=
  Pipeline.WinSpec.ofSpec (Memref.whole main_v9) S1x256.size reads1_7 false true 1 stage1_7 sem1_7 nbuf1_7 hstage1_7

abbrev spec1_8 : Pipeline.WinSpec sig grid1.rank :=
  Pipeline.WinSpec.ofSpec (Memref.whole main_arg13) S256x256.size reads1_8 false true 1 stage1_8 sem1_8 nbuf1_8 hstage1_8

abbrev spec1_9 : Pipeline.WinSpec sig grid1.rank :=
  Pipeline.WinSpec.ofSpec (Memref.whole main_v10) S1x256.size reads1_9 false true 1 stage1_9 sem1_9 nbuf1_9 hstage1_9

abbrev spec1_10 : Pipeline.WinSpec sig grid1.rank :=
  Pipeline.WinSpec.ofSpec (Memref.whole main_arg15) S256x1.size reads1_10 false true 1 stage1_10 sem1_10 nbuf1_10 hstage1_10

abbrev spec1_11 : Pipeline.WinSpec sig grid1.rank :=
  Pipeline.WinSpec.ofSpec (Memref.whole main_v11) S1x1.size reads1_11 false true 1 stage1_11 sem1_11 nbuf1_11 hstage1_11

abbrev spec1_12 : Pipeline.WinSpec sig grid1.rank :=
  Pipeline.WinSpec.ofSpec (Memref.whole main_v12) S1x1.size reads1_12 false true 1 stage1_12 sem1_12 nbuf1_12 hstage1_12

abbrev spec1_13 : Pipeline.WinSpec sig grid1.rank :=
  Pipeline.WinSpec.ofSpec (Memref.whole main_v13) S64x1.size reads1_13 true false 2 stage1_13 sem1_13 nbuf1_13 hstage1_13

abbrev spec1 : Fin 14 → Pipeline.WinSpec sig grid1.rank := fun | 0 => spec1_0 | 1 => spec1_1 | 2 => spec1_2 | 3 => spec1_3 | 4 => spec1_4 | 5 => spec1_5 | 6 => spec1_6 | 7 => spec1_7 | 8 => spec1_8 | 9 => spec1_9 | 10 => spec1_10 | 11 => spec1_11 | 12 => spec1_12 | 13 => spec1_13 | ⟨_ + 14, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | 7 => nbuf1_7 | 8 => nbuf1_8 | 9 => nbuf1_9 | 10 => nbuf1_10 | 11 => nbuf1_11 | 12 => nbuf1_12 | 13 => nbuf1_13 | ⟨_ + 14, h⟩ => absurd h (Nat.not_lt.2 (Nat.le_add_left _ _))
abbrev ix1 (pf : pre1.Contents (Elt F)) : (w : Fin 14) → grid1.Coords → Fin (spec1 w).shape.rank → Nat := fun | 0 => cc1_transform_0 | 1 => cc1_transform_1 | 2 => cc1_transform_3 | 3 => cc1_transform_4 | 4 => cc1_transform_5 | 5 => cc1_transform_6 | 6 => cc1_transform_7 | 7 => cc1_transform_8 | 8 => cc1_transform_9 | 9 => cc1_transform_10 | 10 => cc1_transform_11 | 11 => cc1_transform_12 | 12 => cc1_transform_13 | 13 => cc1_transform_14 | ⟨_ + 14, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | 6 => hreads1_6 | 7 => hreads1_7 | 8 => hreads1_8 | 9 => hreads1_9 | 10 => hreads1_10 | 11 => hreads1_11 | 12 => hreads1_12 | 13 => hreads1_13 | ⟨_ + 14, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | 6 => hinb1_6 | 7 => hinb1_7 | 8 => hinb1_8 | 9 => hinb1_9 | 10 => hinb1_10 | 11 => hinb1_11 | 12 => hinb1_12 | 13 => hinb1_13 | ⟨_ + 14, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | 6 => hwx1_6 | 7 => hwx1_7 | 8 => hwx1_8 | 9 => hwx1_9 | 10 => hwx1_10 | 11 => hwx1_11 | 12 => hwx1_12 | 13 => hwx1_13 | ⟨_ + 14, h⟩ => absurd h (Nat.not_lt.2 (Nat.le_add_left _ _))

class Facts : Prop extends Facts₀ where
  harr1 : ∀ w, (spec1 w).arr.IsWhole

variable [Facts]
-- ==== ReferenceIdeal.lean ====
abbrev S8192x256 : Shape := ⟨2, ![8192, 256]⟩
abbrev S8192x8192 : Shape := ⟨2, ![8192, 8192]⟩
abbrev S2x8192 : Shape := ⟨2, ![2, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x8192 : Shape := ⟨2, ![1, 8192]⟩
abbrev S8192 : Shape := ⟨1, ![8192]⟩
abbrev S_ : Shape := ⟨0, ![]⟩
abbrev S8192x1 : Shape := ⟨2, ![8192, 1]⟩
abbrev S1x256 : Shape := ⟨2, ![1, 256]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x8192, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x1, .f32⟩
  | .hbm, ⟨16, _⟩ => ⟨S1, .f32⟩
  | .hbm, ⟨17, _⟩ => ⟨S1, .f32⟩
  | .hbm, ⟨18, _⟩ => ⟨S1x8192, .i32⟩
  | .hbm, ⟨19, _⟩ => ⟨S8192, .i32⟩
  | .hbm, ⟨20, _⟩ => ⟨S1x8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S8192x256, .f32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192x256, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S1x256, .f32⟩
  | .hbm, ⟨49, _⟩ => ⟨S8192x256, .f32⟩
  | .hbm, ⟨50, _⟩ => ⟨S8192x256, .f32⟩
  | .hbm, ⟨51, _⟩ => ⟨S_, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S8192x1, .i32⟩
  | .hbm, ⟨63, _⟩ => ⟨S8192x8192, .f32⟩
  | .hbm, ⟨64, _⟩ => ⟨S_, .i32⟩
  | .hbm, ⟨65, _⟩ => ⟨S8192, .i32⟩
  | .hbm, ⟨66, _⟩ => ⟨S8192, .i1⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .i32⟩
  | .hbm, ⟨71, _⟩ => ⟨S8192x1, .i32⟩
  | .hbm, ⟨72, _⟩ => ⟨S8192x8192, .f32⟩
  | .hbm, ⟨73, _⟩ => ⟨S8192x8192, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S1x256, .f32⟩
  | .hbm, ⟨78, _⟩ => ⟨S8192x256, .f32⟩
  | .hbm, ⟨79, _⟩ => ⟨S8192x256, .f32⟩
  | .hbm, ⟨80, _⟩ => ⟨S_, .f32⟩
  | .hbm, ⟨81, _⟩ => ⟨S8192x256, .f32⟩
  | .hbm, ⟨82, _⟩ => ⟨S8192x256, .f32⟩
  | .hbm, ⟨83, _⟩ => ⟨S8192x256, .f32⟩
  | .hbm, ⟨84, _⟩ => ⟨S1x256, .f32⟩
  | .hbm, ⟨85, _⟩ => ⟨S8192x256, .f32⟩
  | .hbm, ⟨86, _⟩ => ⟨S8192x256, .f32⟩
  | .hbm, ⟨87, _⟩ => ⟨S_, .f32⟩
  | .hbm, ⟨88, _⟩ => ⟨S8192x256, .f32⟩
  | .hbm, ⟨89, _⟩ => ⟨S8192x256, .f32⟩
  | .hbm, ⟨90, _⟩ => ⟨S8192x256, .f32⟩
  | .hbm, ⟨91, _⟩ => ⟨S1x256, .f32⟩
  | .hbm, ⟨92, _⟩ => ⟨S8192x256, .f32⟩
  | .hbm, ⟨93, _⟩ => ⟨S8192x256, .f32⟩
  | .hbm, ⟨94, _⟩ => ⟨S_, .f32⟩
  | .hbm, ⟨95, _⟩ => ⟨S8192x256, .f32⟩
  | .hbm, ⟨96, _⟩ => ⟨S8192x256, .f32⟩
  | .hbm, ⟨97, _⟩ => ⟨S1x1, .f32⟩
  | .hbm, ⟨98, _⟩ => ⟨S8192x256, .f32⟩
  | .hbm, ⟨99, _⟩ => ⟨S8192x256, .f32⟩
  | .hbm, ⟨100, _⟩ => ⟨S8192x256, .f32⟩
  | .hbm, ⟨101, _⟩ => ⟨S8192x256, .f32⟩
  | .hbm, ⟨102, _⟩ => ⟨S1x256, .f32⟩
  | .hbm, ⟨103, _⟩ => ⟨S8192x256, .f32⟩
  | .hbm, ⟨104, _⟩ => ⟨S8192x256, .f32⟩
  | .hbm, ⟨105, _⟩ => ⟨S_, .f32⟩
  | .hbm, ⟨106, _⟩ => ⟨S8192x256, .f32⟩
  | .hbm, ⟨107, _⟩ => ⟨S8192x256, .f32⟩
  | .hbm, ⟨108, _⟩ => ⟨S8192x1, .f32⟩
  | .hbm, ⟨109, _⟩ => ⟨S1x1, .f32⟩
  | .hbm, ⟨110, _⟩ => ⟨S8192x1, .f32⟩
  | .hbm, ⟨111, _⟩ => ⟨S8192x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call0_cst : Ref sig .tc := ⟨.hbm, 44, rfl⟩
abbrev main_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_v28 : Ref sig .tc := ⟨.hbm, 54, rfl⟩
abbrev main_c_3 : Ref sig .tc := ⟨.hbm, 55, rfl⟩
abbrev main_v29 : Ref sig .tc := ⟨.hbm, 56, rfl⟩
abbrev main_v30 : Ref sig .tc := ⟨.hbm, 57, rfl⟩
abbrev main_c_4 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call2_cst : Ref sig .tc := ⟨.hbm, 80, rfl⟩
abbrev main_call2_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call3_cst : Ref sig .tc := ⟨.hbm, 87, rfl⟩
abbrev main_call3_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call4_cst : Ref sig .tc := ⟨.hbm, 94, rfl⟩
abbrev main_call4_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call5_cst : Ref sig .tc := ⟨.hbm, 105, rfl⟩
abbrev main_call5_v0 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩

abbrev nD : Nat := 1
abbrev τ : Topo := Topo.v7x

variable {F : FTy → Type} [FloatOps F]

class Facts₀ : Prop where
  slices_S2x8192_S1x8192_0_0 : S2x8192.Slices ![0, 0] S1x8192
  shapeCasts_S1x8192_S8192 : S1x8192.ShapeCasts S8192
  slices_S2x8192_S1x8192_1_0 : S2x8192.Slices ![1, 0] S1x8192
  bcast_S_S8192 : S_.BroadcastsInDim S8192 (![] : Fin 0 → Fin S8192.rank)
  bcast_S8192_S8192x1_0 : S8192.BroadcastsInDim S8192x1 (![0] : Fin 1 → Fin S8192x1.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1_S1x1_1 : S1.BroadcastsInDim S1x1 (![1] : Fin 1 → Fin S1x1.rank)
  bcast_S1x1_S8192x256_0_1 : S1x1.BroadcastsInDim S8192x256 (![0, 1] : Fin 2 → Fin S8192x256.rank)
  bcast_S1x1_S8192x1_0_1 : S1x1.BroadcastsInDim S8192x1 (![0, 1] : Fin 2 → Fin S8192x1.rank)
  gather_S8192x256_S8192x1_S8192x256_1_0_n_n_0_1_1256_wf : GatherDims.WF S8192x256 S8192x1 S8192x256 [1] [0] [] [0] [] 1 ![1, 256]
  dot_S8192x256_S256x256_S8192x256_1_0_0_1_n_n_wf : DotDims.WF S8192x256 S256x256 S8192x256 [1] [0] [0] [1] [] []
  gather_S8192x8192_S8192x1_S8192x8192_1_0_n_n_0_1_18192_wf : GatherDims.WF S8192x8192 S8192x1 S8192x8192 [1] [0] [] [0] [] 1 ![1, 8192]
  dot_S8192x8192_S8192x256_S8192x256_1_0_0_1_n_n_wf : DotDims.WF S8192x8192 S8192x256 S8192x256 [1] [0] [0] [1] [] []
  dot_S8192x256_S256x1_S8192x1_1_0_0_1_n_n_wf : DotDims.WF S8192x256 S256x1 S8192x1 [1] [0] [0] [1] [] []

variable [Facts₀]

def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x8192_S8192x1_S8192x8192_1_0_n_n_0_1_18192 : GatherDims S8192x8192 S8192x1 S8192x8192 where
  offsetDims := [1]
  collapsedSliceDims := [0]
  operandBatchingDims := []
  startIndicesBatchingDims := []
  startIndexMap := [0]
  indexVectorDim := 1
  sliceSizes := ![1, 8192]
  wf := gather_S8192x8192_S8192x1_S8192x8192_1_0_n_n_0_1_18192_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.RefFrame.lean ====
/-
  The reference program's frame: its run, read back as the composition of its host operations, terminates
  without a fault and leaves every argument array as launched; dropping the statement about the result
  array gives the frame claim.
-/
import proofs.«428817_j39556648796289_1_alg».proof.Defs
import proofs.«428817_j39556648796289_1_alg».proof.Proof.Gen.Pre_finite_inputs
import proofs.«428817_j39556648796289_1_alg».proof.Proof.Gen.ReferenceIdeal.Run
import proofs.«428817_j39556648796289_1_alg».proof.Proof.Gen.ReferenceIdeal.Read

noncomputable section

open Idealize.ShloMosaic Idealize.ShloMosaic.TcCoe Idealize.SL.Sem

namespace Cert.Proof.RefFrame

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  The result of the common-neighbour link predictor as ONE function of its argument arrays, element by element over
  the literal shapes, on the extended reals (every float operation exact). Nothing here names a program.

  Rows of the node table are addressed by the words of the edge table (two rows of 8192 words: the first the source
  node of each edge, the second its target); a word below 8192 names the row of that number.

  For a node row r and a channel d
      h(r, d)   = x(r, d) + relu(dense(relu(dense(x(r, ·), w1, b1)), w2, b2)(d)),
  where dense(a, w, b)(d) = (∑ k, a(k) * w(k, d)) + b(d) and relu(t) = max(t, 0).  For an edge e with end nodes
  i = i(e), j = j(e):
      cn(e, k)  = adj(i, k) * adj(j, k)                       (the common-neighbour indicator)
      xcn(e, d) = ∑ k, cn(e, k) * h(k, d)
      xij(e, d) = relu(dense(x(i, ·) * x(j, ·), xij_w, xij_b)(d))
      xcn1, xcn2: two relu-dense layers over xcn(e, ·)
      z(e, d)   = xcn2(e, d) * beta + xij(e, d)
      z1        = a relu-dense layer over z(e, ·)
      out(e)    = (∑ k, z1(e, k) * lin_w2(k, 0)) + lin_b2.
  Every product keeps the factor of the left operand on the left and every sum is over the contracted coordinate, so
  that either side of a comparison reaches these terms without commuting a product.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes -/

/-- Node features, and every per-edge feature array: 8192 rows of 256 channels. -/
abbrev SFeat : Shape := ⟨2, ![8192, 256]⟩
/-- The dense adjacency: 8192 × 8192. -/
abbrev SAdj : Shape := ⟨2, ![8192, 8192]⟩
/-- The edge table: row 0 the first end node of each edge, row 1 the second. -/
abbrev SEdges : Shape := ⟨2, ![2, 8192]⟩
/-- A square weight: 256 × 256. -/
abbrev SW : Shape := ⟨2, ![256, 256]⟩
/-- A bias: 256. -/
abbrev SB : Shape := ⟨1, ![256]⟩
/-- The last layer's weight: 256 × 1. -/
abbrev SWOut : Shape := ⟨2, ![256, 1]⟩
/-- A single scalar kept as a vector of one element. -/
abbrev SOne : Shape := ⟨1, ![1]⟩
/-- The result: one score per edge, 8192 × 1. -/
abbrev SOut : Shape := ⟨2, ![8192, 1]⟩

/-! ## Rows named by table words -/

/-- The row number a table word names: its value as an unsigned word. -/
def rowOf (w : BitVec 32) : Nat := w.toNat

/-- The row of the 8192-row tables a word names (a word of 8192 or more, which no admitted input holds, names the
    last row). -/
def rowIx (w : BitVec 32) : Fin 8192 := ⟨min (rowOf w) 8191, by omega⟩

theorem rowIx_val (w : BitVec 32) : (rowIx w).val = min w.toNat 8191 := rfl

/-- A word below 8192 names the row of its value. -/
theorem rowIx_of_lt {w : BitVec 32} (h : w.toNat < 8192) : rowIx w = ⟨w.toNat, h⟩ :=
  Fin.ext (by show min w.toNat 8191 = w.toNat; omega)

/-- The first end node of edge `e`. -/
def endI (tar : IVec SEdges 32) (e : Fin 8192) : Fin 8192 := rowIx (tar (ix2 (0 : Fin 2) e))
/-- The second end node of edge `e`. -/
def endJ (tar : IVec SEdges 32) (e : Fin 8192) : Fin 8192 := rowIx (tar (ix2 (1 : Fin 2) e))

/-! ## The layers -/

/-- The rectifier: the maximum with zero. -/
def relu (t : EReal) : EReal := max t (Ideal.ofBits .f32 0x00000000#32)

/-- One dense layer at output channel `d` of the row `a`: the row times column `d` of the weight, plus the bias. -/
def dense (a : Fin 256 → EReal) (w : FVec Ideal SW .f32) (b : FVec Ideal SB .f32) (d : Fin 256) : EReal :=
  (∑ k : Fin 256, a k * w (ix2 k d)) + b (ix1 d)

/-- The residual block on node row `r`, channel `d`: `x + relu(dense(relu(dense(x))))`. -/
def hAt (x : FVec Ideal SFeat .f32) (w1 : FVec Ideal SW .f32) (b1 : FVec Ideal SB .f32) (w2 : FVec Ideal SW .f32)
    (b2 : FVec Ideal SB .f32) (r : Fin 8192) (d : Fin 256) : EReal :=
  x (ix2 r d) + relu (dense (fun k => relu (dense (fun k' => x (ix2 r k')) w1 b1 k)) w2 b2 d)

/-- The residual block as an array. -/
def hArr (x : FVec Ideal SFeat .f32) (w1 : FVec Ideal SW .f32) (b1 : FVec Ideal SB .f32) (w2 : FVec Ideal SW .f32)
    (b2 : FVec Ideal SB .f32) : FVec Ideal SFeat .f32 :=
  fun i => hAt x w1 b1 w2 b2 (i 0) (i 1)

/-- The common-neighbour indicator of edge `e` at node `k`: the product of the two end nodes' adjacency rows. -/
def cnAt (adj : FVec Ideal SAdj .f32) (tar : IVec SEdges 32) (e k : Fin 8192) : EReal :=
  adj (ix2 (endI tar e) k) * adj (ix2 (endJ tar e) k)

/-- The common neighbours' features summed: `∑ k, cn(e, k) * h(k, d)`. -/
def xcnAt (x : FVec Ideal SFeat .f32) (adj : FVec Ideal SAdj .f32) (tar : IVec SEdges 32)
    (w1 : FVec Ideal SW .f32) (b1 : FVec Ideal SB .f32) (w2 : FVec Ideal SW .f32) (b2 : FVec Ideal SB .f32)
    (e : Fin 8192) (d : Fin 256) : EReal :=
  ∑ k : Fin 8192, cnAt adj tar e k * hAt x w1 b1 w2 b2 k d

/-- The pair head: a relu-dense layer over the product of the two end nodes' features. -/
def xijAt (x : FVec Ideal SFeat .f32) (tar : IVec SEdges 32) (xij_w : FVec Ideal SW .f32) (xij_b : FVec Ideal SB .f32)
    (e : Fin 8192) (d : Fin 256) : EReal :=
  relu (dense (fun k => x (ix2 (endI tar e) k) * x (ix2 (endJ tar e) k)) xij_w xij_b d)

/-- The first common-neighbour layer. -/
def xcn1At (x : FVec Ideal SFeat .f32) (adj : FVec Ideal SAdj .f32) (tar : IVec SEdges 32)
    (w1 : FVec Ideal SW .f32) (b1 : FVec Ideal SB .f32) (w2 : FVec Ideal SW .f32) (b2 : FVec Ideal SB .f32)
    (xcn_w1 : FVec Ideal SW .f32) (xcn_b1 : FVec Ideal SB .f32) (e : Fin 8192) (d : Fin 256) : EReal :=
  relu (dense (fun k => xcnAt x adj tar w1 b1 w2 b2 e k) xcn_w1 xcn_b1 d)

/-- The second common-neighbour layer. -/
def xcn2At (x : FVec Ideal SFeat .f32) (adj : FVec Ideal SAdj .f32) (tar : IVec SEdges 32)
    (w1 : FVec Ideal SW .f32) (b1 : FVec Ideal SB .f32) (w2 : FVec Ideal SW .f32) (b2 : FVec Ideal SB .f32)
    (xcn_w1 : FVec Ideal SW .f32) (xcn_b1 : FVec Ideal SB .f32) (xcn_w2 : FVec Ideal SW .f32) (xcn_b2 : FVec Ideal SB .f32)
    (e : Fin 8192) (d : Fin 256) : EReal :=
  relu (dense (fun k => xcn1At x adj tar w1 b1 w2 b2 xcn_w1 xcn_b1 e k) xcn_w2 xcn_b2 d)

/-- The two heads combined: `xcn2 * beta + xij`. -/
def zAt (x : FVec Ideal SFeat .f32) (adj : FVec Ideal SAdj .f32) (tar : IVec SEdges 32)
    (w1 : FVec Ideal SW .f32) (b1 : FVec Ideal SB .f32) (w2 : FVec Ideal SW .f32) (b2 : FVec Ideal SB .f32)
    (xcn_w1 : FVec Ideal SW .f32) (xcn_b1 : FVec Ideal SB .f32) (xcn_w2 : FVec Ideal SW .f32) (xcn_b2 : FVec Ideal SB .f32)
    (xij_w : FVec Ideal SW .f32) (xij_b : FVec Ideal SB .f32) (beta : FVec Ideal SOne .f32)
    (e : Fin 8192) (d : Fin 256) : EReal :=
  xcn2At x adj tar w1 b1 w2 b2 xcn_w1 xcn_b1 xcn_w2 xcn_b2 e d * beta (ix1 (0 : Fin 1)) + xijAt x tar xij_w xij_b e d

/-- The hidden layer of the output head. -/
def z1At (x : FVec Ideal SFeat .f32) (adj : FVec Ideal SAdj .f32) (tar : IVec SEdges 32)
    (w1 : FVec Ideal SW .f32) (b1 : FVec Ideal SB .f32) (w2 : FVec Ideal SW .f32) (b2 : FVec Ideal SB .f32)
    (xcn_w1 : FVec Ideal SW .f32) (xcn_b1 : FVec Ideal SB .f32) (xcn_w2 : FVec Ideal SW .f32) (xcn_b2 : FVec Ideal SB .f32)
    (xij_w : FVec Ideal SW .f32) (xij_b : FVec Ideal SB .f32) (lin_w1 : FVec Ideal SW .f32) (lin_b1 : FVec Ideal SB .f32)
    (beta : FVec Ideal SOne .f32) (e : Fin 8192) (d : Fin 256) : EReal :=
  relu (dense (fun k => zAt x adj tar w1 b1 w2 b2 xcn_w1 xcn_b1 xcn_w2 xcn_b2 xij_w xij_b beta e k) lin_w1 lin_b1 d)

/-- The score of edge `e`. -/
def outAt (x : FVec Ideal SFeat .f32) (adj : FVec Ideal SAdj .f32) (tar : IVec SEdges 32)
    (w1 : FVec Ideal SW .f32) (b1 : FVec Ideal SB .f32) (w2 : FVec Ideal SW .f32) (b2 : FVec Ideal SB .f32)
    (xcn_w1 : FVec Ideal SW .f32) (xcn_b1 : FVec Ideal SB .f32) (xcn_w2 : FVec Ideal SW .f32) (xcn_b2 : FVec Ideal SB .f32)
    (xij_w : FVec Ideal SW .f32) (xij_b : FVec Ideal SB .f32) (lin_w1 : FVec Ideal SW .f32) (lin_b1 : FVec Ideal SB .f32)
    (lin_w2 : FVec Ideal SWOut .f32) (lin_b2 : FVec Ideal SOne .f32) (beta : FVec Ideal SOne .f32) (e : Fin 8192) : EReal :=
  (∑ k : Fin 256, z1At x adj tar w1 b1 w2 b2 xcn_w1 xcn_b1 xcn_w2 xcn_b2 xij_w xij_b lin_w1 lin_b1 beta e k
      * lin_w2 (ix2 k (0 : Fin 1))) + lin_b2 (ix1 (0 : Fin 1))

/-! ## The result -/

/-- THE RESULT: the score of every edge, as the 8192 × 1 array both programs end with. The arguments are in the
    order of the reference function's parameters. -/
def G (x : FVec Ideal SFeat .f32) (adj : FVec Ideal SAdj .f32) (tar_ei : IVec SEdges 32)
    (xlin_w1 : FVec Ideal SW .f32) (xlin_b1 : FVec Ideal SB .f32) (xlin_w2 : FVec Ideal SW .f32) (xlin_b2 : FVec Ideal SB .f32)
    (xcn_w1 : FVec Ideal SW .f32) (xcn_b1 : FVec Ideal SB .f32) (xcn_w2 : FVec Ideal SW .f32) (xcn_b2 : FVec Ideal SB .f32)
    (xij_w : FVec Ideal SW .f32) (xij_b : FVec Ideal SB .f32)
    (lin_w1 : FVec Ideal SW .f32) (lin_b1 : FVec Ideal SB .f32) (lin_w2 : FVec Ideal SWOut .f32) (lin_b2 : FVec Ideal SOne .f32)
    (beta : FVec Ideal SOne .f32) : FVec Ideal SOut .f32 :=
  fun i => outAt x adj tar_ei xlin_w1 xlin_b1 xlin_w2 xlin_b2 xcn_w1 xcn_b1 xcn_w2 xcn_b2 xij_w xij_b lin_w1 lin_b1
    lin_w2 lin_b2 beta (i 0)

end Cert.Spec

end
-- ==== Proof.RefIsSpec.lean ====
/-
  The reference side of the value claim: the reference program's result term, read one element at a time through its
  host operations, is the specification `Cert.Spec.G` of the same argument arrays, provided every word of the edge
  table names a row (is below 8192).

  The steps. An edge-table word below 8192 is non-negative as a signed word, so the index normalisation the
  reference applies to it (add 8192 where negative) leaves it as it is, and the gather's clamp into [0, 8191] reads
  the row the word names: a row gather of a table by a column of such words is the table's row of that number. Each
  dense layer is a contraction over the 256 channels plus a bias broadcast along the rows, under a maximum with the
  zero word: the layer of the specification with the same factors in the same order. The large contraction sums the
  product of the two gathered adjacency rows against the residual block over the 8192 nodes.
-/
import proofs.«428817_j39556648796289_1_alg».proof.Proof.Gen.ReferenceIdeal.Read
import proofs.«428817_j39556648796289_1_alg».proof.Proof.Spec
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two index functions of a rank-2 shape agree when their coordinates do. -/
local macro "idx2" : tactic => `(tactic| (funext a; match a with | ⟨0, _⟩ => rfl | ⟨1, _⟩ => rfl))
/-- The same for a rank-1 shape. -/
local macro "idx1" : tactic => `(tactic| (funext a; match a with | ⟨0, _⟩ => rfl))

/-! ## A row gather read at an element -/

/-- The dimension numbers of `table[rows]` for a table `[N, C]` and a column `[R, 1]` of row numbers: the row axis
    collapsed and start-indexed, the channel axis the one offset axis, whole rows as slices. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element `(e, c)` of a row gather is the table at channel `c` of the row that the column's word `e` names,
    the word read signed and clamped into `[0, N - 1]`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowDims N C R wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    -- the row axis: the clamped start, no batching and no offset coordinate
    show (rowDims N C R wf).start (ix2 e c) idx 0 + (rowDims N C R wf).batchCoord (ix2 e c) 0
      + (rowDims N C R wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e c) ⟨List.idxOf (0 : Fin 2) (rowDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the channel axis: no start, no batching, the result's own channel as the offset
    show (rowDims N C R wf).start (ix2 e c) idx 1 + (rowDims N C R wf).batchCoord (ix2 e c) 1
      + (rowDims N C R wf).offCoord (ix2 e c) 1 = c.val
    rw [GatherDims.batchCoord_eq_zero _ _ _ List.not_mem_nil]
    have hs : (rowDims N C R wf).start (ix2 e c) idx 1 = 0 := by
      unfold GatherDims.start
      have hn : ¬ (1 : Fin 2) ∈ (rowDims N C R wf).startIndexMap := by
        show ¬ (1 : Fin 2) ∈ ([0] : List (Fin 2)); decide
      rw [dif_neg hn]
    rw [hs]
    simp only [Nat.add_zero, Nat.zero_add]
    unfold GatherDims.offCoord
    have hk : (1 : Fin 2) ∈ (rowDims N C R wf).sKept :=
      (GatherDims.mem_sKept _ _).mpr ⟨by show ¬ (1 : Fin 2) ∈ ([0] : List (Fin 2)); decide, List.not_mem_nil⟩
    rw [dif_pos hk]
    rfl

/-! ## Edge-table words -/

/-- On a word that names a row, "add the row count where negative" changes nothing. -/
theorem select_neg_id (w a : BitVec 32) (h : w.toNat < 8192) :
    Scalar.select (IntOp.cmpi .slt w 0#32) a w = w := by
  have h0 : IntOp.cmpi .slt w 0#32 = 0#1 := eq_zero_of_ne_one (fun h1 => by
    have hlt : w.toNat < (0#32 : BitVec 32).toNat :=
      (Predicate.slt_iff_toNat (a := w) (b := 0#32) (by omega) (by decide)).mp h1
    exact Nat.not_lt_zero _ hlt)
  rw [h0, select_zero]

/-- The row the gather's clamp reads for a word that names a row is the specification's row of that word. -/
theorem clamp_row (w : BitVec 32) (h : w.toNat < 8192) (hb : min w.toInt.toNat (8192 - 1) < 8192) :
    (⟨min w.toInt.toNat (8192 - 1), hb⟩ : Fin 8192) = Cert.Spec.rowIx w := by
  refine Fin.ext ?_
  show min w.toInt.toNat (8192 - 1) = min w.toNat 8191
  rw [Predicate.toInt_eq_toNat_of_lt (by omega), Int.toNat_natCast]

/-- The same, for a word known by an equation. -/
theorem clamp_row_of (w w' : BitVec 32) (hw : w = w') (h : w'.toNat < 8192) (hb : min w.toInt.toNat (8192 - 1) < 8192) :
    (⟨min w.toInt.toNat (8192 - 1), hb⟩ : Fin 8192) = Cert.Spec.rowIx w' := by
  subst hw
  exact clamp_row w h hb

variable (x0 : (⟨S8192x256, .f32⟩ : BufTy).Contents (Elt Ideal)) (x1 : (⟨S8192x8192, .f32⟩ : BufTy).Contents (Elt Ideal))
  (x2 : (⟨S2x8192, .i32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S256x256, .f32⟩ : BufTy).Contents (Elt Ideal)) (x10 : (⟨S256, .f32⟩ : BufTy).Contents (Elt Ideal))
  (x11 : (⟨S256x256, .f32⟩ : BufTy).Contents (Elt Ideal)) (x12 : (⟨S256, .f32⟩ : BufTy).Contents (Elt Ideal))
  (x13 : (⟨S256x256, .f32⟩ : BufTy).Contents (Elt Ideal)) (x14 : (⟨S256, .f32⟩ : BufTy).Contents (Elt Ideal))
  (x15 : (⟨S256x1, .f32⟩ : BufTy).Contents (Elt Ideal)) (x16 x17 : (⟨S1, .f32⟩ : BufTy).Contents (Elt Ideal))

/-- Entry `e` of the edge table's first row, as the reference slices and flattens it. -/
theorem row0_at (e : Fin 8192) : val_main_v1 (F := Ideal) x2 (ix1 e) = x2 (ix2 (0 : Fin 2) e) := by
  rw [val_main_v1_apply, val_main_v0_apply]
  refine congrArg x2 ?_
  funext a
  match a with
  | ⟨0, _⟩ => rfl
  | ⟨1, _⟩ => exact Fin.ext (by show e.val % 8192 = e.val; exact Nat.mod_eq_of_lt e.isLt)

/-- Entry `e` of its second row. -/
theorem row1_at (e : Fin 8192) : val_main_v3 (F := Ideal) x2 (ix1 e) = x2 (ix2 (1 : Fin 2) e) := by
  rw [val_main_v3_apply, val_main_v2_apply]
  refine congrArg x2 ?_
  funext a
  match a with
  | ⟨0, _⟩ => rfl
  | ⟨1, _⟩ => exact Fin.ext (by show e.val % 8192 = e.val; exact Nat.mod_eq_of_lt e.isLt)

section Words
variable (h : ∀ i, (x2 i).toNat < 8192)
include h

/-- The four normalised index columns are the table's words. -/
theorem iword_feat (e : Fin 8192) : val_main_v8 (F := Ideal) x2 (ix1 e) = x2 (ix2 (0 : Fin 2) e) := by
  rw [val_main_v8_apply, val_main_v5_apply, val_main_v4_apply, val_main_c_apply, row0_at]
  exact select_neg_id _ _ (h _)
theorem jword_feat (e : Fin 8192) : val_main_v15 (F := Ideal) x2 (ix1 e) = x2 (ix2 (1 : Fin 2) e) := by
  rw [val_main_v15_apply, val_main_v12_apply, val_main_v11_apply, val_main_c_1_apply, row1_at]
  exact select_neg_id _ _ (h _)
theorem iword_adj (e : Fin 8192) : val_main_v33 (F := Ideal) x2 (ix1 e) = x2 (ix2 (0 : Fin 2) e) := by
  rw [val_main_v33_apply, val_main_v30_apply, val_main_v29_apply, val_main_c_3_apply, row0_at]
  exact select_neg_id _ _ (h _)
theorem jword_adj (e : Fin 8192) : val_main_v40 (F := Ideal) x2 (ix1 e) = x2 (ix2 (1 : Fin 2) e) := by
  rw [val_main_v40_apply, val_main_v37_apply, val_main_v36_apply, val_main_c_5_apply, row1_at]
  exact select_neg_id _ _ (h _)

/-! ## The four gathers -/

/-- The first end node's feature row. -/
theorem xi_at (e : Fin 8192) (c : Fin 256) :
    val_main_v10 (F := Ideal) x0 x2 (ix2 e c) = x0 (ix2 (Cert.Spec.endI x2 e) c) := by
  have hg : val_main_v10 (F := Ideal) x0 x2 (ix2 e c)
      = Host.gather (rowDims 8192 256 8192 Facts₀.gather_S8192x256_S8192x1_S8192x256_1_0_n_n_0_1_1256_wf) x0
          (val_main_v9 (F := Ideal) x2) (ix2 e c) := rfl
  rw [hg, gather_rows_apply (by decide)]
  have hw : val_main_v9 (F := Ideal) x2 (ix2 e (0 : Fin 1)) = x2 (ix2 (0 : Fin 2) e) := by
    rw [val_main_v9_apply, show idx_main_v9 (ix2 e (0 : Fin 1)) = ix1 e from by idx1, iword_feat x2 h e]
  exact congrArg (fun r => x0 (ix2 r c)) (clamp_row_of _ _ hw (h _) _)
/-- The second end node's feature row. -/
theorem xj_at (e : Fin 8192) (c : Fin 256) :
    val_main_v17 (F := Ideal) x0 x2 (ix2 e c) = x0 (ix2 (Cert.Spec.endJ x2 e) c) := by
  have hg : val_main_v17 (F := Ideal) x0 x2 (ix2 e c)
      = Host.gather (rowDims 8192 256 8192 Facts₀.gather_S8192x256_S8192x1_S8192x256_1_0_n_n_0_1_1256_wf) x0
          (val_main_v16 (F := Ideal) x2) (ix2 e c) := rfl
  rw [hg, gather_rows_apply (by decide)]
  have hw : val_main_v16 (F := Ideal) x2 (ix2 e (0 : Fin 1)) = x2 (ix2 (1 : Fin 2) e) := by
    rw [val_main_v16_apply, show idx_main_v16 (ix2 e (0 : Fin 1)) = ix1 e from by idx1, jword_feat x2 h e]
  exact congrArg (fun r => x0 (ix2 r c)) (clamp_row_of _ _ hw (h _) _)
/-- The first end node's adjacency row. -/
theorem ai_at (e k : Fin 8192) :
    val_main_v35 (F := Ideal) x1 x2 (ix2 e k) = x1 (ix2 (Cert.Spec.endI x2 e) k) := by
  have hg : val_main_v35 (F := Ideal) x1 x2 (ix2 e k)
      = Host.gather (rowDims 8192 8192 8192 Facts₀.gather_S8192x8192_S8192x1_S8192x8192_1_0_n_n_0_1_18192_wf) x1
          (val_main_v34 (F := Ideal) x2) (ix2 e k) := rfl
  rw [hg, gather_rows_apply (by decide)]
  have hw : val_main_v34 (F := Ideal) x2 (ix2 e (0 : Fin 1)) = x2 (ix2 (0 : Fin 2) e) := by
    rw [val_main_v34_apply, show idx_main_v34 (ix2 e (0 : Fin 1)) = ix1 e from by idx1, iword_adj x2 h e]
  exact congrArg (fun r => x1 (ix2 r k)) (clamp_row_of _ _ hw (h _) _)
/-- The second end node's adjacency row. -/
theorem aj_at (e k : Fin 8192) :
    val_main_v42 (F := Ideal) x1 x2 (ix2 e k) = x1 (ix2 (Cert.Spec.endJ x2 e) k) := by
  have hg : val_main_v42 (F := Ideal) x1 x2 (ix2 e k)
      = Host.gather (rowDims 8192 8192 8192 Facts₀.gather_S8192x8192_S8192x1_S8192x8192_1_0_n_n_0_1_18192_wf) x1
          (val_main_v41 (F := Ideal) x2) (ix2 e k) := rfl
  rw [hg, gather_rows_apply (by decide)]
  have hw : val_main_v41 (F := Ideal) x2 (ix2 e (0 : Fin 1)) = x2 (ix2 (1 : Fin 2) e) := by
    rw [val_main_v41_apply, show idx_main_v41 (ix2 e (0 : Fin 1)) = ix1 e from by idx1, jword_adj x2 h e]
  exact congrArg (fun r => x1 (ix2 r k)) (clamp_row_of _ _ hw (h _) _)

end Words

/-! ## A dense layer under the rectifier, read at an element -/

/-- A contraction over the 256 channels whose terms are the row's entries times a weight column, plus the bias entry,
    under the maximum with the zero word, is the specification's rectified dense layer. -/
theorem relu_dense_read {f : Fin 256 → EReal} {bv : EReal} (a : Fin 256 → EReal) (w : FVec Ideal Cert.Spec.SW .f32)
    (b : FVec Ideal Cert.Spec.SB .f32) (d : Fin 256) (hf : ∀ k, f k = a k * w (ix2 k d)) (hb : bv = b (ix1 d)) :
    FloatOps.maximumf (F := Ideal) (φ := .f32) (FloatOps.addf (F := Ideal) (φ := .f32) (∑ k : Fin 256, f k) bv)
        (FloatOps.ofBits (F := Ideal) .f32 0x00000000#32)
      = Cert.Spec.relu (Cert.Spec.dense a w b d) := by
  subst hb
  rw [Finset.sum_congr rfl (fun k _ => hf k)]
  rfl

/-! ## The residual block -/

/-- The first layer of the residual block. -/
theorem xlin1_at (r : Fin 8192) (d : Fin 256) :
    val_main_v22 (F := Ideal) x0 x3 x4 (ix2 r d)
      = Cert.Spec.relu (Cert.Spec.dense (fun k => x0 (ix2 r k)) x3 x4 d) := by
  rw [val_main_v22_apply, val_main_v21_apply, val_main_v18_apply, val_main_v20_apply, val_main_v19_apply,
    val_main_call0_v0_apply, val_main_call0_cst_apply]
  refine relu_dense_read _ _ _ _ (fun k => ?_) (congrArg x4 (by idx1))
  rw [show lidx_main_v18 (ix2 r d) k = ix2 r k from by idx2, show ridx_main_v18 (ix2 r d) k = ix2 k d from by idx2]

/-- Its second layer. -/
theorem xlin2_at (r : Fin 8192) (d : Fin 256) :
    val_main_v27 (F := Ideal) x0 x3 x4 x5 x6 (ix2 r d)
      = Cert.Spec.relu (Cert.Spec.dense (fun k => Cert.Spec.relu (Cert.Spec.dense (fun k' => x0 (ix2 r k')) x3 x4 k)) x5 x6 d) := by
  rw [val_main_v27_apply, val_main_v26_apply, val_main_v23_apply, val_main_v25_apply, val_main_v24_apply,
    val_main_call1_v0_apply, val_main_call1_cst_apply]
  refine relu_dense_read _ _ _ _ (fun k => ?_) (congrArg x6 (by idx1))
  rw [show lidx_main_v23 (ix2 r d) k = ix2 r k from by idx2, show ridx_main_v23 (ix2 r d) k = ix2 k d from by idx2,
    xlin1_at]

/-- The residual block. -/
theorem h_at (r : Fin 8192) (d : Fin 256) :
    val_main_v28 (F := Ideal) x0 x3 x4 x5 x6 (ix2 r d) = Cert.Spec.hAt x0 x3 x4 x5 x6 r d := by
  rw [val_main_v28_apply, xlin2_at]
  rfl

section Edges
variable (h : ∀ i, (x2 i).toNat < 8192)
include h

/-! ## The common-neighbour branch -/

/-- The common-neighbour indicator. -/
theorem cn_at (e k : Fin 8192) : val_main_v43 (F := Ideal) x1 x2 (ix2 e k) = Cert.Spec.cnAt x1 x2 e k := by
  rw [val_main_v43_apply, ai_at x1 x2 h, aj_at x1 x2 h]
  rfl

/-- The large contraction: the indicator against the residual block, over the nodes. -/
theorem xcn_at (e : Fin 8192) (d : Fin 256) :
    val_main_v44 (F := Ideal) x0 x1 x2 x3 x4 x5 x6 (ix2 e d) = Cert.Spec.xcnAt x0 x1 x2 x3 x4 x5 x6 e d := by
  rw [val_main_v44_apply]
  unfold Cert.Spec.xcnAt
  refine Finset.sum_congr rfl fun k _ => ?_
  rw [show lidx_main_v44 (ix2 e d) k = ix2 e k from by idx2, show ridx_main_v44 (ix2 e d) k = ix2 k d from by idx2,
    cn_at x1 x2 h, h_at]

/-- The first layer over it. -/
theorem xcn1_at (e : Fin 8192) (d : Fin 256) :
    val_main_v55 (F := Ideal) x0 x1 x2 x3 x4 x5 x6 x7 x8 (ix2 e d) = Cert.Spec.xcn1At x0 x1 x2 x3 x4 x5 x6 x7 x8 e d := by
  unfold Cert.Spec.xcn1At
  rw [val_main_v55_apply, val_main_v54_apply, val_main_v51_apply, val_main_v53_apply, val_main_v52_apply,
    val_main_call3_v0_apply, val_main_call3_cst_apply]
  refine relu_dense_read _ _ _ _ (fun k => ?_) (congrArg x8 (by idx1))
  rw [show lidx_main_v51 (ix2 e d) k = ix2 e k from by idx2, show ridx_main_v51 (ix2 e d) k = ix2 k d from by idx2,
    xcn_at x0 x1 x2 x3 x4 x5 x6 h]

/-- The second layer. -/
theorem xcn2_at (e : Fin 8192) (d : Fin 256) :
    val_main_v60 (F := Ideal) x0 x1 x2 x3 x4 x5 x6 x7 x8 x9 x10 (ix2 e d) = Cert.Spec.xcn2At x0 x1 x2 x3 x4 x5 x6 x7 x8 x9 x10 e d := by
  unfold Cert.Spec.xcn2At
  rw [val_main_v60_apply, val_main_v59_apply, val_main_v56_apply, val_main_v58_apply, val_main_v57_apply,
    val_main_call4_v0_apply, val_main_call4_cst_apply]
  refine relu_dense_read _ _ _ _ (fun k => ?_) (congrArg x10 (by idx1))
  rw [show lidx_main_v56 (ix2 e d) k = ix2 e k from by idx2, show ridx_main_v56 (ix2 e d) k = ix2 k d from by idx2,
    xcn1_at x0 x1 x2 x3 x4 x5 x6 x7 x8 h]

/-! ## The pair branch -/

/-- The rectified dense layer over the product of the two end nodes' features. -/
theorem xij_at (e : Fin 8192) (d : Fin 256) :
    val_main_v50 (F := Ideal) x0 x2 x11 x12 (ix2 e d) = Cert.Spec.xijAt x0 x2 x11 x12 e d := by
  unfold Cert.Spec.xijAt
  rw [val_main_v50_apply, val_main_v49_apply, val_main_v46_apply, val_main_v48_apply, val_main_v47_apply,
    val_main_call2_v0_apply, val_main_call2_cst_apply]
  refine relu_dense_read _ _ _ _ (fun k => ?_) (congrArg x12 (by idx1))
  rw [show lidx_main_v46 (ix2 e d) k = ix2 e k from by idx2, show ridx_main_v46 (ix2 e d) k = ix2 k d from by idx2,
    val_main_v45_apply, xi_at x0 x2 h, xj_at x0 x2 h]
  rfl

/-! ## The output head -/

/-- The two branches combined. -/
theorem z_at (e : Fin 8192) (d : Fin 256) :
    val_main_v64 (F := Ideal) x0 x1 x2 x3 x4 x5 x6 x7 x8 x9 x10 x11 x12 x17 (ix2 e d)
      = Cert.Spec.zAt x0 x1 x2 x3 x4 x5 x6 x7 x8 x9 x10 x11 x12 x17 e d := by
  rw [val_main_v64_apply, val_main_v63_apply, val_main_v62_apply, val_main_v61_apply,
    show idx_main_v61 (idx_main_v62 (ix2 e d)) = ix1 (0 : Fin 1) from by idx1,
    xcn2_at x0 x1 x2 x3 x4 x5 x6 x7 x8 x9 x10 h, xij_at x0 x2 x11 x12 h]
  rfl

/-- The hidden layer of the head. -/
theorem z1_at (e : Fin 8192) (d : Fin 256) :
    val_main_v69 (F := Ideal) x0 x1 x2 x3 x4 x5 x6 x7 x8 x9 x10 x11 x12 x13 x14 x17 (ix2 e d)
      = Cert.Spec.z1At x0 x1 x2 x3 x4 x5 x6 x7 x8 x9 x10 x11 x12 x13 x14 x17 e d := by
  unfold Cert.Spec.z1At
  rw [val_main_v69_apply, val_main_v68_apply, val_main_v65_apply, val_main_v67_apply, val_main_v66_apply,
    val_main_call5_v0_apply, val_main_call5_cst_apply]
  refine relu_dense_read _ _ _ _ (fun k => ?_) (congrArg x14 (by idx1))
  rw [show lidx_main_v65 (ix2 e d) k = ix2 e k from by idx2, show ridx_main_v65 (ix2 e d) k = ix2 k d from by idx2,
    z_at x0 x1 x2 x3 x4 x5 x6 x7 x8 x9 x10 x11 x12 x17 h]

/-! ## The reference's result -/

/-- THE REFERENCE IS THE SPECIFICATION: on an edge table whose every word names a row, the reference run's result
    term is `Cert.Spec.G` of the argument arrays. -/
theorem ref_eq_G :
    val_main_v73 (F := Ideal) x0 x1 x2 x3 x4 x5 x6 x7 x8 x9 x10 x11 x12 x13 x14 x15 x16 x17
      = Cert.Spec.G x0 x1 x2 x3 x4 x5 x6 x7 x8 x9 x10 x11 x12 x13 x14 x15 x16 x17 := by
  funext i
  have h1 : @Eq (Fin 1) (i 1) 0 := Subsingleton.elim _ _
  obtain ⟨e, rfl⟩ : ∃ e : Fin 8192, i = ix2 e (0 : Fin 1) :=
    ⟨i 0, (eq_ix2 i).trans (congrArg (fun b : Fin 1 => ix2 (i 0) b) h1)⟩
  have hk : ∀ k : Fin 256,
      val_main_v69 (F := Ideal) x0 x1 x2 x3 x4 x5 x6 x7 x8 x9 x10 x11 x12 x13 x14 x17 (lidx_main_v70 (ix2 e (0 : Fin 1)) k) * x15 (ridx_main_v70 (ix2 e (0 : Fin 1)) k)
        = Cert.Spec.z1At x0 x1 x2 x3 x4 x5 x6 x7 x8 x9 x10 x11 x12 x13 x14 x17 e k * x15 (ix2 k (0 : Fin 1)) := fun k => by
    rw [show lidx_main_v70 (ix2 e (0 : Fin 1)) k = ix2 e k from by idx2,
      show ridx_main_v70 (ix2 e (0 : Fin 1)) k = ix2 k (0 : Fin 1) from by idx2,
      z1_at x0 x1 x2 x3 x4 x5 x6 x7 x8 x9 x10 x11 x12 x13 x14 x17 h]
  rw [val_main_v73_apply, val_main_v70_apply, val_main_v72_apply, val_main_v71_apply,
    show idx_main_v71 (idx_main_v72 (ix2 e (0 : Fin 1))) = ix1 (0 : Fin 1) from by idx1,
    Finset.sum_congr rfl (fun k _ => hk k)]
  rfl

end Edges

end Cert.ReferenceIdeal.RefValue

end
-- ==== Proof.K.R0.lean ====
import proofs.«428817_j39556648796289_1_alg».proof.Proof.Gen.Kernel.Launch
import proofs.«428817_j39556648796289_1_alg».proof.Proof.Gen.Kernel.Skeleton
import proofs.«428817_j39556648796289_1_alg».proof.Proof.Gen.Kernel.Points
import Idealize.ShloMosaic.Lib.Pipeline.FrameBody
import Idealize.ShloMosaic.Lib.Pipeline.Regions
import Idealize.ShloMosaic.Lib.Pipeline.Frame
import Idealize.ShloMosaic.Lib.Ring
import Idealize.ShloMosaic.Lib.Tactic

/-! # Region 0: the residual two-layer perceptron on one block of rows

At grid point `t` the body reads a block of 1024 rows of `x` (window 0), the two weight matrices (windows 1, 3)
and the two bias rows (windows 2, 4), and writes `x + relu (relu (x · w₁ + b₁) · w₂ + b₂)` over the block of the
output (window 5). Everything here is stated at a parameter `V`: the contents of the core's buffers when the
region is entered. -/

-- membership of an index in a rectangle of 1024 × 256: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each a whole buffer -/

abbrev rX : Rect S1024x256 := Rect.unit (s := S1024x256) ![0, 0] S1024x256.size inb_S1024x256_S1024x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-! ## What the body leaves in the output window's buffer -/

/-- The output buffer after the body, from the five input blocks: the one store, whose payload is the residual
    perceptron of the five whole-buffer reads. -/
def out0_5 (x0 : Vec F S1024x256 .f32) (x1 : Vec F S256x256 .f32) (x2 : Vec F S1x256 .f32) (x3 : Vec F S256x256 .f32) (x4 : Vec F S1x256 .f32) : Vec F S1024x256 .f32 :=
  View.canon [⟨rX, k0_pay1 (View.ld x0 rX) (View.ld x1 rW) (View.ld x2 rB) (View.ld x3 rW) (View.ld x4 rB)⟩]

/-! ## The invariant and the proof data -/

/-- What rides through every point untouched: the core's scoped buffers that are no staging buffer of this
    pipeline, each at some contents, and the generator register at some state. -/
def Φ0 (c : Dev nD) : sProp 𝕄 :=
  iprop(Pipeline.scopedRest (Ix := Unit) (Name := ℕ) (U := Pipeline.UD sig nD τ) (Lvl := ℕ) (Val := Elt F) spec0 c ∗ (∃ r, prngReg c r))

/-- The proof data on core `c`: the arrays as the region finds them; after the body at point `t` each input's
    buffer still at its block and the output's at `out0_5` of the five input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Φ0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What the body finds in each input window's buffer

An input window's current staging buffer holds that window's block at every point, whether the pipeline fetched it
there or not: where it did not, the block index has not moved since the last fetch, and the body left the block in
place. Window 0 is fetched at every point, windows 1 to 4 at the first point only; the one library lemma covers both. -/

theorem finds0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem finds0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem finds0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem finds0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem finds0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body's triple -/

/-- The one store is the whole output buffer, so it covers it. -/
theorem covers0_5 (p : Vec F S1024x256 .f32) (y : S1024x256.Idx) :
    ∃ pc ∈ ([⟨rX, p⟩] : List (View.Piece (Elt F) S1024x256 .f32)), y ∈ pc.1.set :=
  View.cover_of_tiled [⟨rX, p⟩] S1024x256.size (by rfl) y

set_option maxHeartbeats 1000000 in
/-- The body on whole staging memrefs, the five inputs' reading `x0 … x4` and the output's anything, runs to a
    continuation that holds the inputs' as they were and the output's at `out0_5 x0 … x4`: five whole-buffer loads
    feed the payload, a sixth load of the output's buffer is unused, and the one store overwrites that buffer whole. -/
theorem kernel0_triple (c : Dev nD) (E : Set ℕ) (i : grid0.Coords)
    (a1 : Memref sig .tc .vmem S1024x256 .f32) (h1 : a1.IsWhole) (a2 : Memref sig .tc .vmem S256x256 .f32) (h2 : a2.IsWhole)
    (a3 : Memref sig .tc .vmem S1x256 .f32) (h3 : a3.IsWhole) (a4 : Memref sig .tc .vmem S256x256 .f32) (h4 : a4.IsWhole)
    (a5 : Memref sig .tc .vmem S1x256 .f32) (h5 : a5.IsWhole) (a6 : Memref sig .tc .vmem S1024x256 .f32) (h6 : a6.IsWhole)
    (x0 : Vec F S1024x256 .f32) (x1 : Vec F S256x256 .f32) (x2 : Vec F S1x256 .f32) (x3 : Vec F S256x256 .f32) (x4 : Vec F S1x256 .f32)
    (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__h_kernel i a1 h1 a2 h2 a3 h3 a4 h4 a5 h5 a6 h6) K := by
  simp only [cc0__h_kernel_eq_skeleton]; unfold cc0__h_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers0_5 _)

/-! ## The body obligation, at a generic point -/

/-- What the body is called with at point `t`: the invariant, the core's tallies, and each window's current
    staging buffer at what the pipeline left there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same, each buffer at what the proof data say the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`finds0_W`), so the body's triple applies at the
    five blocks; the invariant and the tallies pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [finds0_0, finds0_1, finds0_2, finds0_3, finds0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernel0_triple c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: its two conjunctions over the six windows written out. -/
theorem body_obligation0 (c : Dev nD) : BodyObligation (dat0 (F := F) V c) (defs₀ (F := F)) Variants.none () Set.univ := fun t => by
  rw [bigSep_W0, bigSep_W0]
  exact body0_at V c t

end Cert.Kernel.Hand

end
-- ==== Proof.K.R1Run.lean ====
/- Region 1's body, run whole on any staging memrefs. The body owns its thirteen input blocks (read only), its output block, four scratch
  buffers, the two index tables at half share, thirty-two semaphore cells at zero and the adjacency array left in main memory; for each
  of the tile's 64 edges it reads the two endpoint words, starts one row copy per endpoint on that edge's pair of cells, and copies the
  endpoints' feature rows; after each group of sixteen edges it waits once on each cell, so every cell carries at most one copy at a
  time and is back at zero when the arithmetic begins. Each word is assumed to name a row (the hypotheses k1_hwN): under them every
  copy and load is in bounds. The run ends with the inputs, tables, cells and the adjacency array as they were and the output block
  overwritten by one whole store, recorded as the list of pieces the subtype carries. The four scratch buffers come in at named
  contents: the row copies land through one-row views, so the stored value is written as a term over those contents (every row is
  overwritten before it is read, so the value does not depend on them). -/
import proofs.«428817_j39556648796289_1_alg».proof.Proof.Gen.Kernel.Launch
import proofs.«428817_j39556648796289_1_alg».proof.Proof.Gen.Kernel.Skeleton
import proofs.«428817_j39556648796289_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two index tables as the body is handed them: whole scalar-memory buffers. -/
abbrev tbM1_0 : Memref sig .tc .smem S8192 .i32 := Memref.whole main_v1
abbrev htbM1_0 : tbM1_0.IsWhole := Memref.isWhole_whole _
abbrev tbM1_1 : Memref sig .tc .smem S8192 .i32 := Memref.whole main_v3
abbrev htbM1_1 : tbM1_1.IsWhole := Memref.isWhole_whole _
/-- A table's buffer on a core, and it held at half the full share (read only). -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare.right} f
/-- The four scratch buffers and the adjacency array left in main memory, whole. -/
abbrev scM1_0 : Memref sig .tc .vmem S64x8192 .f32 := Memref.whole cc1_scratch0
abbrev scM1_1 : Memref sig .tc .vmem S64x8192 .f32 := Memref.whole cc1_scratch1
abbrev scM1_2 : Memref sig .tc .vmem S64x256 .f32 := Memref.whole cc1_scratch2
abbrev scM1_3 : Memref sig .tc .vmem S64x256 .f32 := Memref.whole cc1_scratch3
abbrev hbM1_0 : Memref sig .tc .hbm S8192x8192 .f32 := Memref.whole main_arg1
abbrev hscM1_0 : scM1_0.IsWhole := Memref.isWhole_whole _
abbrev hscM1_1 : scM1_1.IsWhole := Memref.isWhole_whole _
abbrev hscM1_2 : scM1_2.IsWhole := Memref.isWhole_whole _
abbrev hscM1_3 : scM1_3.IsWhole := Memref.isWhole_whole _
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f
/-- One read share of the adjacency array per semaphore cell: the copy completing on cell n borrows share n, so that the
    two rows of one edge, and the rows of sixteen edges, may be in flight together. -/
abbrev hbTok1 (c : Dev nD) (n : ℕ) (f : HbBuf1 (F := F) c hbM1_0) : sProp 𝕄 :=
  hbM1_0.view.loc (c : Thread nD τ) ↦{Transfers.shareTokN fullShare n} f

set_option maxHeartbeats 0 in set_option sl_exec.dmaWindow true in set_option sl_exec.dmaWindowSet true in
/-- The pieces the body's one store leaves in the output block, with the proof that the body runs to its continuation. -/
noncomputable def kernelRun1 (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 : Vec F S64x8192 .f32) (xs2 xs3 : Vec F S64x256 .f32) (xt0 : TbBuf1 (F := F) c tbM1_0) (xt1 : TbBuf1 (F := F) c tbM1_1) (fh0 : HbBuf1 (F := F) c hbM1_0)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    { L13 : List (View.Piece (Elt F) S64x1 .f32) //
      ∀ (W : Waits sig Unit) (K : PUnit → sProp 𝕄),
        iprop(owns (c : Thread nD τ) arg3 fullShare x0 ∗ owns (c : Thread nD τ) arg4 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ (∃ d, owns (c : Thread nD τ) arg17 fullShare d) ∗ owns (c : Thread nD τ) scM1_0 fullShare xs0 ∗ owns (c : Thread nD τ) scM1_1 fullShare xs1 ∗ owns (c : Thread nD τ) scM1_2 fullShare xs2 ∗ owns (c : Thread nD τ) scM1_3 fullShare xs3 ∗ tbPt1 c tbM1_0 xt0 ∗ tbPt1 c tbM1_1 xt1 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ hbTok1 c 23 fh0 ∗ hbTok1 c 24 fh0 ∗ hbTok1 c 25 fh0 ∗ hbTok1 c 26 fh0 ∗ hbTok1 c 27 fh0 ∗ hbTok1 c 28 fh0 ∗ hbTok1 c 29 fh0 ∗ hbTok1 c 30 fh0 ∗ hbTok1 c 31 fh0 ∗ hbTok1 c 32 fh0 ∗ hbTok1 c 33 fh0 ∗ hbTok1 c 34 fh0 ∗ hbTok1 c 35 fh0 ∗ hbTok1 c 36 fh0 ∗ hbTok1 c 37 fh0 ∗ hbTok1 c 38 fh0 ∗ hbTok1 c 39 fh0 ∗ hbTok1 c 40 fh0 ∗ hbTok1 c 41 fh0 ∗ hbTok1 c 42 fh0 ∗ hbTok1 c 43 fh0 ∗ hbTok1 c 44 fh0 ∗ hbTok1 c 45 fh0 ∗ hbTok1 c 46 fh0 ∗ hbTok1 c 47 fh0 ∗ hbTok1 c 48 fh0 ∗ hbTok1 c 49 fh0 ∗ hbTok1 c 50 fh0 ∗ hbTok1 c 51 fh0 ∗ hbTok1 c 52 fh0 ∗ hbTok1 c 53 fh0 ∗ hbTok1 c 54 fh0 ∗ owes (c : Thread nD τ) 0 W
            ∗ (iprop(owns (c : Thread nD τ) arg3 fullShare x0 ∗ owns (c : Thread nD τ) arg4 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ (∃ f, arg17.view.loc (c : Thread nD τ) ↦[arg17.view.set]{fullShare} arg17.view.writes (Elt F) f L13) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ tbPt1 c tbM1_0 xt0 ∗ tbPt1 c tbM1_1 xt1 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ hbTok1 c 23 fh0 ∗ hbTok1 c 24 fh0 ∗ hbTok1 c 25 fh0 ∗ hbTok1 c 26 fh0 ∗ hbTok1 c 27 fh0 ∗ hbTok1 c 28 fh0 ∗ hbTok1 c 29 fh0 ∗ hbTok1 c 30 fh0 ∗ hbTok1 c 31 fh0 ∗ hbTok1 c 32 fh0 ∗ hbTok1 c 33 fh0 ∗ hbTok1 c 34 fh0 ∗ hbTok1 c 35 fh0 ∗ hbTok1 c 36 fh0 ∗ hbTok1 c 37 fh0 ∗ hbTok1 c 38 fh0 ∗ hbTok1 c 39 fh0 ∗ hbTok1 c 40 fh0 ∗ hbTok1 c 41 fh0 ∗ hbTok1 c 42 fh0 ∗ hbTok1 c 43 fh0 ∗ hbTok1 c 44 fh0 ∗ hbTok1 c 45 fh0 ∗ hbTok1 c 46 fh0 ∗ hbTok1 c 47 fh0 ∗ hbTok1 c 48 fh0 ∗ hbTok1 c 49 fh0 ∗ hbTok1 c 50 fh0 ∗ hbTok1 c 51 fh0 ∗ hbTok1 c 52 fh0 ∗ hbTok1 c 53 fh0 ∗ hbTok1 c 54 fh0 ∗ (∃ W', owes (c : Thread nD τ) 0 W')) -∗ K ⟨⟩))
          ⊢ wp frame (wpE (defs₀ (F := F)) Variants.none c none) Set.univ (cc1__main_kernel i tbM1_0 htbM1_0 tbM1_1 htbM1_1 arg3 harg3 arg4 harg4 hbM1_0 (Memref.isWhole_whole _) arg6 harg6 arg7 harg7 arg8 harg8 arg9 harg9 arg10 harg10 arg11 harg11 arg12 harg12 arg13 harg13 arg14 harg14 arg15 harg15 arg16 harg16 arg17 harg17 scM1_0 (Memref.isWhole_whole _) scM1_1 (Memref.isWhole_whole _) scM1_2 (Memref.isWhole_whole _) scM1_3 (Memref.isWhole_whole _) cc1_scratch4 cc1_scratch5) K } := by
  refine ⟨?_, fun W K => ?run⟩
  case run =>
    simp only [cc1__main_kernel_eq_skeleton]; unfold cc1__main_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%fs1, %hfs1, HS1⟩, ⟨%fs2, %hfs2, HS2⟩, ⟨%fs3, %hfs3, HS3⟩, HT0, HT1, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, HW, Hk⟩
    obtain rfl := harg3.eq_unread hf0; obtain rfl := harg4.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11; obtain rfl := harg16.eq_unread hf12
    obtain rfl := hscM1_0.eq_unread hfs0; obtain rfl := hscM1_1.eq_unread hfs1; obtain rfl := hscM1_2.eq_unread hfs2; obtain rfl := hscM1_3.eq_unread hfs3
    sl_exec (disch := first | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16 | sl_exact k1_hw17 | sl_exact k1_hw18 | sl_exact k1_hw19 | sl_exact k1_hw20 | sl_exact k1_hw21 | sl_exact k1_hw22 | sl_exact k1_hw23 | sl_exact k1_hw24 | sl_exact k1_hw25 | sl_exact k1_hw26 | sl_exact k1_hw27 | sl_exact k1_hw28 | sl_exact k1_hw29 | sl_exact k1_hw30 | sl_exact k1_hw31 | sl_exact k1_hw32 | sl_exact k1_hw33 | sl_exact k1_hw34 | sl_exact k1_hw35 | sl_exact k1_hw36 | sl_exact k1_hw37 | sl_exact k1_hw38 | sl_exact k1_hw39 | sl_exact k1_hw40 | sl_exact k1_hw41 | sl_exact k1_hw42 | sl_exact k1_hw43 | sl_exact k1_hw44 | sl_exact k1_hw45 | sl_exact k1_hw46 | sl_exact k1_hw47 | sl_exact k1_hw48 | sl_exact k1_hw49 | sl_exact k1_hw50 | sl_exact k1_hw51 | sl_exact k1_hw52 | sl_exact k1_hw53 | sl_exact k1_hw54 | sl_exact k1_hw55 | sl_exact k1_hw56 | sl_exact k1_hw57 | sl_exact k1_hw58 | sl_exact k1_hw59 | sl_exact k1_hw60 | sl_exact k1_hw61 | sl_exact k1_hw62 | sl_exact k1_hw63 | sl_exact k1_hw64 | sl_exact k1_hw65 | sl_exact k1_hw66 | sl_exact k1_hw67 | sl_exact k1_hw68 | sl_exact k1_hw69 | sl_exact k1_hw70 | sl_exact k1_hw71 | sl_exact k1_hw72 | sl_exact k1_hw73 | sl_exact k1_hw74 | sl_exact k1_hw75 | sl_exact k1_hw76 | sl_exact k1_hw77 | sl_exact k1_hw78 | sl_exact k1_hw79 | sl_exact k1_hw80 | sl_exact k1_hw81 | sl_exact k1_hw82 | sl_exact k1_hw83 | sl_exact k1_hw84 | sl_exact k1_hw85 | sl_exact k1_hw86 | sl_exact k1_hw87 | sl_exact k1_hw88 | sl_exact k1_hw89 | sl_exact k1_hw90 | sl_exact k1_hw91 | sl_exact k1_hw92 | sl_exact k1_hw93 | sl_exact k1_hw94 | sl_exact k1_hw95 | sl_exact k1_hw96 | sl_exact k1_hw97 | sl_exact k1_hw98 | sl_exact k1_hw99 | sl_exact k1_hw100 | sl_exact k1_hw101 | sl_exact k1_hw102 | sl_exact k1_hw103 | sl_exact k1_hw104 | sl_exact k1_hw105 | sl_exact k1_hw106 | sl_exact k1_hw107 | sl_exact k1_hw108 | sl_exact k1_hw109 | sl_exact k1_hw110 | sl_exact k1_hw111 | sl_exact k1_hw112 | sl_exact k1_hw113 | sl_exact k1_hw114 | sl_exact k1_hw115 | sl_exact k1_hw116 | sl_exact k1_hw117 | sl_exact k1_hw118 | sl_exact k1_hw119 | sl_exact k1_hw120 | sl_exact k1_hw121 | sl_exact k1_hw122 | sl_exact k1_hw123 | sl_exact k1_hw124 | sl_exact k1_hw125 | sl_exact k1_hw126 | sl_exact k1_hw127 | sl_exact k1_hw128)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]
    · iexists _; isplitr; · ipureintro; exact harg15.read_unread _
      iexact H11
    isplitl [H12]
    · iexists _; isplitr; · ipureintro; exact harg16.read_unread _
      iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HT0]; · iexact HT0
    isplitl [HT1]; · iexact HT1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    isplitl [Hh23]; · iexact Hh23
    isplitl [Hh24]; · iexact Hh24
    isplitl [Hh25]; · iexact Hh25
    isplitl [Hh26]; · iexact Hh26
    isplitl [Hh27]; · iexact Hh27
    isplitl [Hh28]; · iexact Hh28
    isplitl [Hh29]; · iexact Hh29
    isplitl [Hh30]; · iexact Hh30
    isplitl [Hh31]; · iexact Hh31
    iexists _; iexact HW

end Cert.Kernel.Hand

end
-- ==== Proof.K.R1Mem.lean ====
import proofs.«428817_j39556648796289_1_alg».proof.Proof.Gen.Kernel.Skeleton
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.WholeRead

/-! # Region 1's scratch buffers, read back

The body fills four scratch buffers of 64 rows, one row per edge of the tile. The two adjacency buffers (64 × 8192)
are filled by row copies out of the adjacency array: once every copy has been waited for, such a buffer is its entry
contents overwritten row by row through the one-row views the copies name. The two feature buffers (64 × 256) are
filled by row stores of rows of the node table. Either way the buffer, read whole, holds at row `r` what landed in
row `r`. Generic in the values. -/

noncomputable section

namespace Cert.Kernel.Hand

open Cert.Kernel Cert.Kernel.Gen
open Idealize.ShloMosaic
open Idealize.ShloMosaic.ValueIdx

variable {F : FTy → Type} [FloatOps F]
variable {Val : EltTy → Type} {sig' : RefSig} {κ : Kind} {sp : Space}

/-! ## One row of a two-axis buffer, as a vector

A row is named by slicing the buffer at `![n, 0]` to one row and dropping the unit axis. Through that view, element
`k` is the buffer's element `(n, k)`. Stated over any row count `A` and row length `B`, any offsets equal to `![n, 0]`. -/

/-- A one-row view's element `k` is the parent's element `(n, k)`. -/
theorem rowView_emb {A B : Nat} (M : Memref sig' κ sp ⟨2, ![A, B]⟩ .f32) (off : Fin 2 → Nat) (n : Nat) (hn : n < A) (hoff : off = ![n, 0])
    (inb : ∀ a, off a + (⟨2, ![1, B]⟩ : Shape).size a ≤ (⟨2, ![A, B]⟩ : Shape).size a) (hr) (hq : (⟨2, ![1, B]⟩ : Shape).Squeezes ⟨1, ![B]⟩) (k : Fin B) :
    ((M.slice (Rect.unit (s := ⟨2, ![A, B]⟩) off (⟨2, ![1, B]⟩ : Shape).size inb) hr).squeeze ⟨1, ![B]⟩ hq).view.emb (ValueIdx.ix1 k)
      = M.view.emb (ix2 (⟨n, hn⟩ : Fin A) k) := by
  subst hoff
  have h1 : ((M.slice (Rect.unit (s := ⟨2, ![A, B]⟩) ![n, 0] (⟨2, ![1, B]⟩ : Shape).size inb) hr).squeeze ⟨1, ![B]⟩ hq).view.emb (ValueIdx.ix1 k)
      = M.view.emb ((Rect.unit (s := ⟨2, ![A, B]⟩) ![n, 0] (⟨2, ![1, B]⟩ : Shape).size inb).emb (Shape.reshapeEquiv hq.numel_eq (ValueIdx.ix1 k))) := rfl
  rw [h1, Shape.reshapeEquiv_cons_one]
  refine congrArg M.view.emb (funext fun a => Fin.ext ?_)
  rw [Rect.emb_apply]
  match a with
  | ⟨0, _⟩ => show n + 1 * 0 = n; omega
  | ⟨1, _⟩ => show 0 + 1 * k.val = k.val; omega

/-- Reading through a one-row view is reading the parent at that row. -/
theorem rowView_read {A B : Nat} (M : Memref sig' κ sp ⟨2, ![A, B]⟩ .f32) (off : Fin 2 → Nat) (n : Nat) (hn : n < A) (hoff : off = ![n, 0])
    (inb : ∀ a, off a + (⟨2, ![1, B]⟩ : Shape).size a ≤ (⟨2, ![A, B]⟩ : Shape).size a) (hr) (hq : (⟨2, ![1, B]⟩ : Shape).Squeezes ⟨1, ![B]⟩)
    (f : M.view.ty.Contents Val) (k : Fin B) :
    ((M.slice (Rect.unit (s := ⟨2, ![A, B]⟩) off (⟨2, ![1, B]⟩ : Shape).size inb) hr).squeeze ⟨1, ![B]⟩ hq).view.read Val f (ValueIdx.ix1 k)
      = M.view.read Val f (ix2 (⟨n, hn⟩ : Fin A) k) := by
  rw [View.read_apply, View.read_apply, rowView_emb M off n hn hoff inb hr hq k]

/-- A row written whole through its one-row view, read back through the parent at that row: what was written. -/
theorem rowWrite_hit {A B : Nat} (M : Memref sig' κ sp ⟨2, ![A, B]⟩ .f32) (off : Fin 2 → Nat) (n : Nat) (hn : n < A) (hoff : off = ![n, 0])
    (inb : ∀ a, off a + (⟨2, ![1, B]⟩ : Shape).size a ≤ (⟨2, ![A, B]⟩ : Shape).size a) (hr) (hq : (⟨2, ![1, B]⟩ : Shape).Squeezes ⟨1, ![B]⟩)
    (f : M.view.ty.Contents Val) (w : (⟨1, ![B]⟩ : Shape).Idx → Val .f32) (k : Fin B) :
    M.view.read Val (((M.slice (Rect.unit (s := ⟨2, ![A, B]⟩) off (⟨2, ![1, B]⟩ : Shape).size inb) hr).squeeze ⟨1, ![B]⟩ hq).view.write Val f w Finset.univ)
        (ix2 (⟨n, hn⟩ : Fin A) k) = w (ValueIdx.ix1 k) := by
  rw [← rowView_read M off n hn hoff inb hr hq _ k]
  exact View.read_write_of_mem (v := ((M.slice (Rect.unit (s := ⟨2, ![A, B]⟩) off (⟨2, ![1, B]⟩ : Shape).size inb) hr).squeeze ⟨1, ![B]⟩ hq).view) f w (Finset.mem_univ _)

/-- and at another row: what the buffer held before. -/
theorem rowWrite_miss {A B : Nat} (M : Memref sig' κ sp ⟨2, ![A, B]⟩ .f32) (off : Fin 2 → Nat) (n : Nat) (hoff : off = ![n, 0])
    (inb : ∀ a, off a + (⟨2, ![1, B]⟩ : Shape).size a ≤ (⟨2, ![A, B]⟩ : Shape).size a) (hr) (hq : (⟨2, ![1, B]⟩ : Shape).Squeezes ⟨1, ![B]⟩)
    (f : M.view.ty.Contents Val) (w : (⟨1, ![B]⟩ : Shape).Idx → Val .f32) (Ms : Finset (⟨1, ![B]⟩ : Shape).Idx) (r : Fin A) (hne : r.val ≠ n) (k : Fin B) :
    M.view.read Val (((M.slice (Rect.unit (s := ⟨2, ![A, B]⟩) off (⟨2, ![1, B]⟩ : Shape).size inb) hr).squeeze ⟨1, ![B]⟩ hq).view.write Val f w Ms) (ix2 r k)
      = M.view.read Val f (ix2 r k) := by
  subst hoff
  apply View.read_congr_at
  apply View.write_of_not_mem
  intro hm
  obtain ⟨x, _, hx⟩ := Finset.mem_map.mp hm
  have e : ((M.slice (Rect.unit (s := ⟨2, ![A, B]⟩) ![n, 0] (⟨2, ![1, B]⟩ : Shape).size inb) hr).squeeze ⟨1, ![B]⟩ hq).view.emb x
      = M.view.emb ((Rect.unit (s := ⟨2, ![A, B]⟩) ![n, 0] (⟨2, ![1, B]⟩ : Shape).size inb).emb (Shape.reshapeEquiv hq.numel_eq x)) := rfl
  rw [e, Shape.reshapeEquiv_cons_one] at hx
  have h := M.view.emb.injective hx
  have h0 := congrArg (fun i : (⟨2, ![A, B]⟩ : Shape).Idx => (i 0 : ℕ)) h
  simp only [Rect.emb_apply] at h0
  have h4 : n + 1 * 0 = r.val := h0
  exact hne (by omega)

/-! ## A 64-row buffer after its rows have landed

The copies' destinations are the one-row views of the 64 × 8192 scratch buffer at literal rows; after the waits the
buffer is its entry contents with one whole-row write per landed row, the first waited innermost. As a function of the
list of (row, landed values), newest first: -/

/-- The one-row view of row `R` of a 64 × 8192 buffer, as the body's copies and waits name it. -/
abbrev rowOf (M : Memref sig' κ sp S64x8192 .f32) (R : Fin 64) : Memref sig' κ sp S8192 .f32 :=
  (M.slice (Rect.unit (s := S64x8192) ![R.val, 0] S1x8192.size (fun a => by
      match a with
      | ⟨0, _⟩ => show R.val + 1 ≤ 64; have := R.isLt; omega
      | ⟨1, _⟩ => show 0 + 8192 ≤ 8192; omega)) (fun _ => rfl)).squeeze S8192 squeezes_S1x8192_S8192

/-- The buffer after the rows of `L` (newest first) were written whole over `base`. -/
def landRows (M : Memref sig' κ sp S64x8192 .f32) (base : M.view.ty.Contents Val) :
    List (Fin 64 × (S8192.Idx → Val .f32)) → M.view.ty.Contents Val
  | [] => base
  | (R, v) :: L => (rowOf M R).view.write Val (landRows M base L) v Finset.univ

/-- With every row written at most once, the buffer holds at row `R` what landed there. -/
theorem read_landRows (M : Memref sig' κ sp S64x8192 .f32) (base : M.view.ty.Contents Val) :
    ∀ (L : List (Fin 64 × (S8192.Idx → Val .f32))), (L.map Prod.fst).Nodup →
      ∀ (R : Fin 64) (v : S8192.Idx → Val .f32), (R, v) ∈ L → ∀ k : Fin 8192,
        M.view.read Val (landRows M base L) (ix2 R k) = v (ValueIdx.ix1 k)
  | [], _, _, _, hm, _ => absurd hm List.not_mem_nil
  | (R', v') :: L, hnd, R, v, hm, k => by
    rw [List.map_cons, List.nodup_cons] at hnd
    show M.view.read Val ((rowOf M R').view.write Val (landRows M base L) v' Finset.univ) (ix2 R k) = v (ValueIdx.ix1 k)
    rcases List.mem_cons.mp hm with heq | hin
    · obtain ⟨rfl, rfl⟩ := Prod.mk.injEq .. ▸ heq
      exact rowWrite_hit M ![R.val, 0] R.val R.isLt rfl _ _ squeezes_S1x8192_S8192 _ v k
    · have hne : R.val ≠ R'.val := fun e => hnd.1 (by
        have : R = R' := Fin.ext e
        exact this ▸ List.mem_map.mpr ⟨(R, v), hin, rfl⟩)
      rw [rowWrite_miss M ![R'.val, 0] R'.val rfl _ _ squeezes_S1x8192_S8192 _ v' Finset.univ R hne k]
      exact read_landRows M base L hnd.2 R v hin k

/-- A whole-buffer load reads the buffer. -/
theorem readAt_whole64 {B : Nat} (v : View sig' κ sp ⟨2, ![64, B]⟩ .f32) (off : Fin 2 → Nat) (hoff : off = fun _ => 0)
    (inb : ∀ a, off a + (⟨2, ![64, B]⟩ : Shape).size a ≤ (⟨2, ![64, B]⟩ : Shape).size a) (f : v.ty.Contents Val) :
    v.readAt Val (Rect.unit (s := ⟨2, ![64, B]⟩) off (⟨2, ![64, B]⟩ : Shape).size inb).toLoadRect f = v.read Val f := by
  rw [View.readAt_eq_ld, View.ld_unit_zero hoff]

/-! ## A row of the adjacency array, and a row of the node table -/

/-- What a row copy lands: the source's elements as they are. -/
theorem landed_same {s : Shape} {e : EltTy} (x : s.Idx → Val e) : (ReadAs.same (s := s) (e := e)).apply x = x := rfl

/-- The copy's source: row `n` of the adjacency array left whole in main memory, read as a vector, is the array's row `n`. -/
theorem adjRow_read (off : Fin 2 → Nat) (n : Nat) (hn : n < 8192) (hoff : off = ![n, 0]) (inb : ∀ a, off a + S1x8192.size a ≤ S8192x8192.size a) (hr)
    (f : (Memref.whole (sig := sig) main_arg1 : Memref sig .tc .hbm S8192x8192 .f32).view.ty.Contents Val) (k : Fin 8192) :
    (((Memref.whole (sig := sig) main_arg1 : Memref sig .tc .hbm S8192x8192 .f32).slice (Rect.unit (s := S8192x8192) off S1x8192.size inb) hr).squeeze S8192
        squeezes_S1x8192_S8192).view.read Val f (ValueIdx.ix1 k) = f (ix2 (⟨n, hn⟩ : Fin 8192) k) :=
  rowView_read (Memref.whole (sig := sig) main_arg1 : Memref sig .tc .hbm S8192x8192 .f32) off n hn hoff inb hr squeezes_S1x8192_S8192 f k

/-- A row of the node table loaded through a whole window at read contents `x0`: row `n` of `x0`. -/
theorem xRow_read (arg3 : Memref sig' κ sp S8192x256 .f32) (harg3 : arg3.IsWhole) (x0 : S8192x256.Idx → Val .f32)
    (off : Fin 2 → Nat) (n : Nat) (hn : n < 8192) (hoff : off = ![n, 0]) (inb : ∀ a, off a + S1x256.size a ≤ S8192x256.size a) (k : Fin 256) :
    View.readAt Val arg3.view (Rect.unit (s := S8192x256) off S1x256.size inb).toLoadRect (harg3.unread x0) (ix2 (0 : Fin 1) k)
      = x0 (ix2 (⟨n, hn⟩ : Fin 8192) k) := by
  subst hoff
  rw [harg3.readAt_unread x0]
  refine congrArg x0 (funext fun a => Fin.ext ?_)
  match a with
  | ⟨0, _⟩ => show n + 1 * 0 = n; omega
  | ⟨1, _⟩ => show 0 + 1 * k.val = k.val; omega

/-- Where a one-row store of a 64 × 256 buffer puts channel `k`: row `R`, channel `k`. -/
theorem rowPiece_emb (off : Fin 2 → Nat) (R : Fin 64) (hoff : off = ![R.val, 0]) (inb : ∀ a, off a + S1x256.size a ≤ S64x256.size a) (k : Fin 256) :
    (Rect.unit (s := S64x256) off S1x256.size inb).emb (ix2 (0 : Fin 1) k) = ix2 R k := by
  subst hoff
  refine funext fun a => Fin.ext ?_
  rw [Rect.emb_apply]
  match a with
  | ⟨0, _⟩ => show R.val + 1 * 0 = R.val; omega
  | ⟨1, _⟩ => show 0 + 1 * k.val = k.val; omega

/-- An index of a one-row piece is `(0, k)`. -/
theorem rowIdx_eq (x : S1x256.Idx) : x = ix2 (0 : Fin 1) (x 1) := by
  refine funext fun a => Fin.ext ?_
  match a with
  | ⟨0, _⟩ => show (x 0).val = 0; have h1 : (x 0).val < 1 := (x 0).isLt; omega
  | ⟨1, _⟩ => rfl

/-! ## The row copies' payloads are the rows

Between the load of a table row and its store the body only casts the shape to a vector and back. -/

theorem k1_pay2_id (v : Vec F S1x256 .f32) : k1_pay2 (F := F) v = v := shapeCast_shapeCast v _ _
theorem k1_pay3_id (v : Vec F S1x256 .f32) : k1_pay3 (F := F) v = v := shapeCast_shapeCast v _ _
theorem k1_pay4_id (v : Vec F S1x256 .f32) : k1_pay4 (F := F) v = v := shapeCast_shapeCast v _ _
theorem k1_pay5_id (v : Vec F S1x256 .f32) : k1_pay5 (F := F) v = v := shapeCast_shapeCast v _ _
theorem k1_pay6_id (v : Vec F S1x256 .f32) : k1_pay6 (F := F) v = v := shapeCast_shapeCast v _ _
theorem k1_pay7_id (v : Vec F S1x256 .f32) : k1_pay7 (F := F) v = v := shapeCast_shapeCast v _ _
theorem k1_pay8_id (v : Vec F S1x256 .f32) : k1_pay8 (F := F) v = v := shapeCast_shapeCast v _ _
theorem k1_pay9_id (v : Vec F S1x256 .f32) : k1_pay9 (F := F) v = v := shapeCast_shapeCast v _ _
theorem k1_pay10_id (v : Vec F S1x256 .f32) : k1_pay10 (F := F) v = v := shapeCast_shapeCast v _ _
theorem k1_pay11_id (v : Vec F S1x256 .f32) : k1_pay11 (F := F) v = v := shapeCast_shapeCast v _ _
theorem k1_pay14_id (v : Vec F S1x256 .f32) : k1_pay14 (F := F) v = v := shapeCast_shapeCast v _ _
theorem k1_pay15_id (v : Vec F S1x256 .f32) : k1_pay15 (F := F) v = v := shapeCast_shapeCast v _ _
theorem k1_pay16_id (v : Vec F S1x256 .f32) : k1_pay16 (F := F) v = v := shapeCast_shapeCast v _ _
theorem k1_pay17_id (v : Vec F S1x256 .f32) : k1_pay17 (F := F) v = v := shapeCast_shapeCast v _ _
theorem k1_pay18_id (v : Vec F S1x256 .f32) : k1_pay18 (F := F) v = v := shapeCast_shapeCast v _ _
theorem k1_pay19_id (v : Vec F S1x256 .f32) : k1_pay19 (F := F) v = v := shapeCast_shapeCast v _ _
theorem k1_pay20_id (v : Vec F S1x256 .f32) : k1_pay20 (F := F) v = v := shapeCast_shapeCast v _ _
theorem k1_pay21_id (v : Vec F S1x256 .f32) : k1_pay21 (F := F) v = v := shapeCast_shapeCast v _ _
theorem k1_pay22_id (v : Vec F S1x256 .f32) : k1_pay22 (F := F) v = v := shapeCast_shapeCast v _ _
theorem k1_pay23_id (v : Vec F S1x256 .f32) : k1_pay23 (F := F) v = v := shapeCast_shapeCast v _ _
theorem k1_pay24_id (v : Vec F S1x256 .f32) : k1_pay24 (F := F) v = v := shapeCast_shapeCast v _ _
theorem k1_pay25_id (v : Vec F S1x256 .f32) : k1_pay25 (F := F) v = v := shapeCast_shapeCast v _ _
theorem k1_pay26_id (v : Vec F S1x256 .f32) : k1_pay26 (F := F) v = v := shapeCast_shapeCast v _ _
theorem k1_pay27_id (v : Vec F S1x256 .f32) : k1_pay27 (F := F) v = v := shapeCast_shapeCast v _ _
theorem k1_pay28_id (v : Vec F S1x256 .f32) : k1_pay28 (F := F) v = v := shapeCast_shapeCast v _ _
theorem k1_pay29_id (v : Vec F S1x256 .f32) : k1_pay29 (F := F) v = v := shapeCast_shapeCast v _ _
theorem k1_pay30_id (v : Vec F S1x256 .f32) : k1_pay30 (F := F) v = v := shapeCast_shapeCast v _ _
theorem k1_pay31_id (v : Vec F S1x256 .f32) : k1_pay31 (F := F) v = v := shapeCast_shapeCast v _ _
theorem k1_pay34_id (v : Vec F S1x256 .f32) : k1_pay34 (F := F) v = v := shapeCast_shapeCast v _ _
theorem k1_pay35_id (v : Vec F S1x256 .f32) : k1_pay35 (F := F) v = v := shapeCast_shapeCast v _ _
theorem k1_pay36_id (v : Vec F S1x256 .f32) : k1_pay36 (F := F) v = v := shapeCast_shapeCast v _ _
theorem k1_pay37_id (v : Vec F S1x256 .f32) : k1_pay37 (F := F) v = v := shapeCast_shapeCast v _ _
theorem k1_pay38_id (v : Vec F S1x256 .f32) : k1_pay38 (F := F) v = v := shapeCast_shapeCast v _ _
theorem k1_pay41_id (v : Vec F S1x256 .f32) : k1_pay41 (F := F) v = v := shapeCast_shapeCast v _ _
theorem k1_pay42_id (v : Vec F S1x256 .f32) : k1_pay42 (F := F) v = v := shapeCast_shapeCast v _ _
theorem k1_pay43_id (v : Vec F S1x256 .f32) : k1_pay43 (F := F) v = v := shapeCast_shapeCast v _ _
theorem k1_pay44_id (v : Vec F S1x256 .f32) : k1_pay44 (F := F) v = v := shapeCast_shapeCast v _ _
theorem k1_pay45_id (v : Vec F S1x256 .f32) : k1_pay45 (F := F) v = v := shapeCast_shapeCast v _ _
theorem k1_pay46_id (v : Vec F S1x256 .f32) : k1_pay46 (F := F) v = v := shapeCast_shapeCast v _ _
theorem k1_pay47_id (v : Vec F S1x256 .f32) : k1_pay47 (F := F) v = v := shapeCast_shapeCast v _ _
theorem k1_pay48_id (v : Vec F S1x256 .f32) : k1_pay48 (F := F) v = v := shapeCast_shapeCast v _ _
theorem k1_pay49_id (v : Vec F S1x256 .f32) : k1_pay49 (F := F) v = v := shapeCast_shapeCast v _ _
theorem k1_pay50_id (v : Vec F S1x256 .f32) : k1_pay50 (F := F) v = v := shapeCast_shapeCast v _ _
theorem k1_pay53_id (v : Vec F S1x256 .f32) : k1_pay53 (F := F) v = v := shapeCast_shapeCast v _ _
theorem k1_pay54_id (v : Vec F S1x256 .f32) : k1_pay54 (F := F) v = v := shapeCast_shapeCast v _ _
theorem k1_pay55_id (v : Vec F S1x256 .f32) : k1_pay55 (F := F) v = v := shapeCast_shapeCast v _ _
theorem k1_pay56_id (v : Vec F S1x256 .f32) : k1_pay56 (F := F) v = v := shapeCast_shapeCast v _ _
theorem k1_pay57_id (v : Vec F S1x256 .f32) : k1_pay57 (F := F) v = v := shapeCast_shapeCast v _ _
theorem k1_pay58_id (v : Vec F S1x256 .f32) : k1_pay58 (F := F) v = v := shapeCast_shapeCast v _ _
theorem k1_pay59_id (v : Vec F S1x256 .f32) : k1_pay59 (F := F) v = v := shapeCast_shapeCast v _ _
theorem k1_pay60_id (v : Vec F S1x256 .f32) : k1_pay60 (F := F) v = v := shapeCast_shapeCast v _ _
theorem k1_pay61_id (v : Vec F S1x256 .f32) : k1_pay61 (F := F) v = v := shapeCast_shapeCast v _ _
theorem k1_pay62_id (v : Vec F S1x256 .f32) : k1_pay62 (F := F) v = v := shapeCast_shapeCast v _ _
theorem k1_pay63_id (v : Vec F S1x256 .f32) : k1_pay63 (F := F) v = v := shapeCast_shapeCast v _ _
theorem k1_pay64_id (v : Vec F S1x256 .f32) : k1_pay64 (F := F) v = v := shapeCast_shapeCast v _ _
theorem k1_pay65_id (v : Vec F S1x256 .f32) : k1_pay65 (F := F) v = v := shapeCast_shapeCast v _ _
theorem k1_pay66_id (v : Vec F S1x256 .f32) : k1_pay66 (F := F) v = v := shapeCast_shapeCast v _ _
theorem k1_pay67_id (v : Vec F S1x256 .f32) : k1_pay67 (F := F) v = v := shapeCast_shapeCast v _ _
theorem k1_pay68_id (v : Vec F S1x256 .f32) : k1_pay68 (F := F) v = v := shapeCast_shapeCast v _ _
theorem k1_pay69_id (v : Vec F S1x256 .f32) : k1_pay69 (F := F) v = v := shapeCast_shapeCast v _ _
theorem k1_pay70_id (v : Vec F S1x256 .f32) : k1_pay70 (F := F) v = v := shapeCast_shapeCast v _ _
theorem k1_pay71_id (v : Vec F S1x256 .f32) : k1_pay71 (F := F) v = v := shapeCast_shapeCast v _ _
theorem k1_pay72_id (v : Vec F S1x256 .f32) : k1_pay72 (F := F) v = v := shapeCast_shapeCast v _ _
theorem k1_pay73_id (v : Vec F S1x256 .f32) : k1_pay73 (F := F) v = v := shapeCast_shapeCast v _ _
theorem k1_pay74_id (v : Vec F S1x256 .f32) : k1_pay74 (F := F) v = v := shapeCast_shapeCast v _ _
theorem k1_pay75_id (v : Vec F S1x256 .f32) : k1_pay75 (F := F) v = v := shapeCast_shapeCast v _ _
theorem k1_pay76_id (v : Vec F S1x256 .f32) : k1_pay76 (F := F) v = v := shapeCast_shapeCast v _ _
theorem k1_pay79_id (v : Vec F S1x256 .f32) : k1_pay79 (F := F) v = v := shapeCast_shapeCast v _ _
theorem k1_pay80_id (v : Vec F S1x256 .f32) : k1_pay80 (F := F) v = v := shapeCast_shapeCast v _ _
theorem k1_pay81_id (v : Vec F S1x256 .f32) : k1_pay81 (F := F) v = v := shapeCast_shapeCast v _ _
theorem k1_pay82_id (v : Vec F S1x256 .f32) : k1_pay82 (F := F) v = v := shapeCast_shapeCast v _ _
theorem k1_pay83_id (v : Vec F S1x256 .f32) : k1_pay83 (F := F) v = v := shapeCast_shapeCast v _ _
theorem k1_pay84_id (v : Vec F S1x256 .f32) : k1_pay84 (F := F) v = v := shapeCast_shapeCast v _ _
theorem k1_pay85_id (v : Vec F S1x256 .f32) : k1_pay85 (F := F) v = v := shapeCast_shapeCast v _ _
theorem k1_pay86_id (v : Vec F S1x256 .f32) : k1_pay86 (F := F) v = v := shapeCast_shapeCast v _ _
theorem k1_pay87_id (v : Vec F S1x256 .f32) : k1_pay87 (F := F) v = v := shapeCast_shapeCast v _ _
theorem k1_pay88_id (v : Vec F S1x256 .f32) : k1_pay88 (F := F) v = v := shapeCast_shapeCast v _ _
theorem k1_pay91_id (v : Vec F S1x256 .f32) : k1_pay91 (F := F) v = v := shapeCast_shapeCast v _ _
theorem k1_pay92_id (v : Vec F S1x256 .f32) : k1_pay92 (F := F) v = v := shapeCast_shapeCast v _ _
theorem k1_pay93_id (v : Vec F S1x256 .f32) : k1_pay93 (F := F) v = v := shapeCast_shapeCast v _ _
theorem k1_pay94_id (v : Vec F S1x256 .f32) : k1_pay94 (F := F) v = v := shapeCast_shapeCast v _ _
theorem k1_pay95_id (v : Vec F S1x256 .f32) : k1_pay95 (F := F) v = v := shapeCast_shapeCast v _ _
theorem k1_pay96_id (v : Vec F S1x256 .f32) : k1_pay96 (F := F) v = v := shapeCast_shapeCast v _ _
theorem k1_pay97_id (v : Vec F S1x256 .f32) : k1_pay97 (F := F) v = v := shapeCast_shapeCast v _ _
theorem k1_pay98_id (v : Vec F S1x256 .f32) : k1_pay98 (F := F) v = v := shapeCast_shapeCast v _ _
theorem k1_pay99_id (v : Vec F S1x256 .f32) : k1_pay99 (F := F) v = v := shapeCast_shapeCast v _ _
theorem k1_pay100_id (v : Vec F S1x256 .f32) : k1_pay100 (F := F) v = v := shapeCast_shapeCast v _ _
theorem k1_pay101_id (v : Vec F S1x256 .f32) : k1_pay101 (F := F) v = v := shapeCast_shapeCast v _ _
theorem k1_pay102_id (v : Vec F S1x256 .f32) : k1_pay102 (F := F) v = v := shapeCast_shapeCast v _ _
theorem k1_pay103_id (v : Vec F S1x256 .f32) : k1_pay103 (F := F) v = v := shapeCast_shapeCast v _ _
theorem k1_pay104_id (v : Vec F S1x256 .f32) : k1_pay104 (F := F) v = v := shapeCast_shapeCast v _ _
theorem k1_pay105_id (v : Vec F S1x256 .f32) : k1_pay105 (F := F) v = v := shapeCast_shapeCast v _ _
theorem k1_pay106_id (v : Vec F S1x256 .f32) : k1_pay106 (F := F) v = v := shapeCast_shapeCast v _ _
theorem k1_pay107_id (v : Vec F S1x256 .f32) : k1_pay107 (F := F) v = v := shapeCast_shapeCast v _ _
theorem k1_pay108_id (v : Vec F S1x256 .f32) : k1_pay108 (F := F) v = v := shapeCast_shapeCast v _ _
theorem k1_pay109_id (v : Vec F S1x256 .f32) : k1_pay109 (F := F) v = v := shapeCast_shapeCast v _ _
theorem k1_pay110_id (v : Vec F S1x256 .f32) : k1_pay110 (F := F) v = v := shapeCast_shapeCast v _ _
theorem k1_pay111_id (v : Vec F S1x256 .f32) : k1_pay111 (F := F) v = v := shapeCast_shapeCast v _ _
theorem k1_pay112_id (v : Vec F S1x256 .f32) : k1_pay112 (F := F) v = v := shapeCast_shapeCast v _ _
theorem k1_pay113_id (v : Vec F S1x256 .f32) : k1_pay113 (F := F) v = v := shapeCast_shapeCast v _ _
theorem k1_pay114_id (v : Vec F S1x256 .f32) : k1_pay114 (F := F) v = v := shapeCast_shapeCast v _ _
theorem k1_pay117_id (v : Vec F S1x256 .f32) : k1_pay117 (F := F) v = v := shapeCast_shapeCast v _ _
theorem k1_pay118_id (v : Vec F S1x256 .f32) : k1_pay118 (F := F) v = v := shapeCast_shapeCast v _ _
theorem k1_pay119_id (v : Vec F S1x256 .f32) : k1_pay119 (F := F) v = v := shapeCast_shapeCast v _ _
theorem k1_pay120_id (v : Vec F S1x256 .f32) : k1_pay120 (F := F) v = v := shapeCast_shapeCast v _ _
theorem k1_pay121_id (v : Vec F S1x256 .f32) : k1_pay121 (F := F) v = v := shapeCast_shapeCast v _ _
theorem k1_pay122_id (v : Vec F S1x256 .f32) : k1_pay122 (F := F) v = v := shapeCast_shapeCast v _ _
theorem k1_pay123_id (v : Vec F S1x256 .f32) : k1_pay123 (F := F) v = v := shapeCast_shapeCast v _ _
theorem k1_pay124_id (v : Vec F S1x256 .f32) : k1_pay124 (F := F) v = v := shapeCast_shapeCast v _ _
theorem k1_pay125_id (v : Vec F S1x256 .f32) : k1_pay125 (F := F) v = v := shapeCast_shapeCast v _ _
theorem k1_pay126_id (v : Vec F S1x256 .f32) : k1_pay126 (F := F) v = v := shapeCast_shapeCast v _ _
theorem k1_pay129_id (v : Vec F S1x256 .f32) : k1_pay129 (F := F) v = v := shapeCast_shapeCast v _ _
theorem k1_pay130_id (v : Vec F S1x256 .f32) : k1_pay130 (F := F) v = v := shapeCast_shapeCast v _ _
theorem k1_pay131_id (v : Vec F S1x256 .f32) : k1_pay131 (F := F) v = v := shapeCast_shapeCast v _ _
theorem k1_pay132_id (v : Vec F S1x256 .f32) : k1_pay132 (F := F) v = v := shapeCast_shapeCast v _ _
theorem k1_pay133_id (v : Vec F S1x256 .f32) : k1_pay133 (F := F) v = v := shapeCast_shapeCast v _ _
theorem k1_pay134_id (v : Vec F S1x256 .f32) : k1_pay134 (F := F) v = v := shapeCast_shapeCast v _ _
theorem k1_pay135_id (v : Vec F S1x256 .f32) : k1_pay135 (F := F) v = v := shapeCast_shapeCast v _ _
theorem k1_pay136_id (v : Vec F S1x256 .f32) : k1_pay136 (F := F) v = v := shapeCast_shapeCast v _ _
theorem k1_pay137_id (v : Vec F S1x256 .f32) : k1_pay137 (F := F) v = v := shapeCast_shapeCast v _ _

/-- Eight rows are cast to a vector at the end of one stretch of the body and back to a row at the start of the next. -/
theorem k1_pay13_pay12 (v : Vec F S1x256 .f32) : k1_pay13 (F := F) (k1_pay12 v) = v := shapeCast_shapeCast v _ _
theorem k1_pay33_pay32 (v : Vec F S1x256 .f32) : k1_pay33 (F := F) (k1_pay32 v) = v := shapeCast_shapeCast v _ _
theorem k1_pay40_pay39 (v : Vec F S1x256 .f32) : k1_pay40 (F := F) (k1_pay39 v) = v := shapeCast_shapeCast v _ _
theorem k1_pay52_pay51 (v : Vec F S1x256 .f32) : k1_pay52 (F := F) (k1_pay51 v) = v := shapeCast_shapeCast v _ _
theorem k1_pay78_pay77 (v : Vec F S1x256 .f32) : k1_pay78 (F := F) (k1_pay77 v) = v := shapeCast_shapeCast v _ _
theorem k1_pay90_pay89 (v : Vec F S1x256 .f32) : k1_pay90 (F := F) (k1_pay89 v) = v := shapeCast_shapeCast v _ _
theorem k1_pay116_pay115 (v : Vec F S1x256 .f32) : k1_pay116 (F := F) (k1_pay115 v) = v := shapeCast_shapeCast v _ _
theorem k1_pay128_pay127 (v : Vec F S1x256 .f32) : k1_pay128 (F := F) (k1_pay127 v) = v := shapeCast_shapeCast v _ _

end Cert.Kernel.Hand

end
-- ==== Proof.K.R1Rows.lean ====
import proofs.«428817_j39556648796289_1_alg».proof.Proof.K.R1Mem
import proofs.«428817_j39556648796289_1_alg».proof.Proof.Spec
import Idealize.ShloMosaic.Lib.Writes
import Idealize.ShloMosaic.Lib.Pipeline.FrameBody
import Idealize.ShloMosaic.Lib.Pipeline.Value
import Idealize.ShloMosaic.Lib.ValueIdx
import Idealize.ShloMosaic.Lib.WholeRead

/-! # Region 1's rows, named by the tables' words

For each edge of a tile the body reads one word off each table and uses it as a row number: of the adjacency array
(the row it copies into the adjacency buffer) and of the node table (the row it stores into the feature buffer). Here
each such row is read in terms of the table's word, and the two kinds of 64-row buffer are read at a row given as a
variable, from the rows' contents given as a function of the row. Generic in the values. -/

noncomputable section

namespace Cert.Kernel.Hand

open Cert.Kernel Cert.Kernel.Gen
open Idealize.ShloMosaic
open Idealize.ShloMosaic.ValueIdx

variable {Val : EltTy → Type} {sig' : RefSig} {κ : Kind} {sp : Space}

/-! ## The word read off a table -/

/-- The one word a one-element load at position `e` of the first table reads is the table's word `e`. -/
theorem tableWord_v1 (x : S8192.Idx → Val .i32) (off : Fin 1 → Nat) (e : Fin 8192) (hoff : off 0 = e.val)
    (inb : ∀ a, off a + S1.size a ≤ S8192.size a) (h1 : 0 < S1.numel) :
    (Memref.whole (sig := sig) main_v1).view.readAt Val (Rect.unit (s := S8192) off S1.size inb).toLoadRect x (Shape.Idx.first h1)
      = x (ValueIdx.ix1 e) := by
  show x ((Rect.unit (s := S8192) off S1.size inb).toLoadRect.idx (Shape.Idx.first h1)) = x (ValueIdx.ix1 e)
  refine congrArg x (funext fun a => Fin.ext ?_)
  match a with
  | ⟨0, _⟩ => show off 0 + 1 * 0 = e.val; omega

/-- The same for the second table. -/
theorem tableWord_v3 (x : S8192.Idx → Val .i32) (off : Fin 1 → Nat) (e : Fin 8192) (hoff : off 0 = e.val)
    (inb : ∀ a, off a + S1.size a ≤ S8192.size a) (h1 : 0 < S1.numel) :
    (Memref.whole (sig := sig) main_v3).view.readAt Val (Rect.unit (s := S8192) off S1.size inb).toLoadRect x (Shape.Idx.first h1)
      = x (ValueIdx.ix1 e) := by
  show x ((Rect.unit (s := S8192) off S1.size inb).toLoadRect.idx (Shape.Idx.first h1)) = x (ValueIdx.ix1 e)
  refine congrArg x (funext fun a => Fin.ext ?_)
  match a with
  | ⟨0, _⟩ => show off 0 + 1 * 0 = e.val; omega

/-! ## The rows a word names -/

/-- What a row copy out of the adjacency array lands, at channel `k`: the array at the row the word names. -/
theorem landedRow_eq (f : (Memref.whole (sig := sig) main_arg1 : Memref sig .tc .hbm S8192x8192 .f32).view.ty.Contents Val)
    (w : BitVec 32) (hw : w.toNat < 8192) (off : Fin 2 → Nat) (hoff : off = ![w.toNat, 0])
    (inb : ∀ a, off a + S1x8192.size a ≤ S8192x8192.size a) (hr) (k : Fin 8192) :
    (ReadAs.same (s := S8192) (e := .f32)).apply
        ((((Memref.whole (sig := sig) main_arg1 : Memref sig .tc .hbm S8192x8192 .f32).slice (Rect.unit (s := S8192x8192) off S1x8192.size inb) hr).squeeze S8192
          squeezes_S1x8192_S8192).view.read Val f) (ValueIdx.ix1 k)
      = f (ix2 (Cert.Spec.rowIx w) k) := by
  rw [landed_same, adjRow_read off w.toNat hw hoff inb hr f k, Cert.Spec.rowIx_of_lt hw]

/-- The row of the node table a word names, loaded through a whole window at read contents `x0`, at channel `k`. -/
theorem xRowAt_eq (arg3 : Memref sig' κ sp S8192x256 .f32) (harg3 : arg3.IsWhole) (x0 : S8192x256.Idx → Val .f32)
    (w : BitVec 32) (hw : w.toNat < 8192) (off : Fin 2 → Nat) (hoff : off = ![w.toNat, 0])
    (inb : ∀ a, off a + S1x256.size a ≤ S8192x256.size a) (k : Fin 256) :
    View.readAt Val arg3.view (Rect.unit (s := S8192x256) off S1x256.size inb).toLoadRect (harg3.unread x0) (ix2 (0 : Fin 1) k)
      = x0 (ix2 (Cert.Spec.rowIx w) k) := by
  rw [xRow_read arg3 harg3 x0 off w.toNat hw hoff inb k, Cert.Spec.rowIx_of_lt hw]

/-! ## A 64-row buffer read at a variable row -/

/-- The adjacency buffer after its rows landed in the order `order` (newest first), each row's contents a function of
    the row: at row `r` it holds that function at `r`. -/
theorem read_landRows_map (M : Memref sig' κ sp S64x8192 .f32) (base : M.view.ty.Contents Val) (order : List (Fin 64)) (hnd : order.Nodup)
    (vals : Fin 64 → S8192.Idx → Val .f32) (r : Fin 64) (hr : r ∈ order) (k : Fin 8192) :
    M.view.read Val (landRows M base (order.map fun R => (R, vals R))) (ix2 r k) = vals r (ValueIdx.ix1 k) :=
  read_landRows M base _ (by rw [List.map_map]; simpa [Function.comp_def] using hnd) r (vals r) (List.mem_map.mpr ⟨r, hr, rfl⟩) k

/-- The one-row rectangle of row `R` of a 64 × 256 buffer, as the body's row stores name it. -/
abbrev rowRect (R : Fin 64) : Rect S64x256 :=
  Rect.unit (s := S64x256) ![R.val, 0] S1x256.size (fun a => by
    match a with
    | ⟨0, _⟩ => show R.val + 1 ≤ 64; have := R.isLt; omega
    | ⟨1, _⟩ => show 0 + 256 ≤ 256; omega)

/-- Where a one-row store of a 64 × 256 buffer puts its index `x`: row `R`, channel `x 1`. -/
theorem rowRect_emb (R : Fin 64) (x : S1x256.Idx) : (rowRect R).emb x = ix2 R (x 1) := by
  refine funext fun a => Fin.ext ?_
  rw [Rect.emb_apply]
  match a with
  | ⟨0, _⟩ => show R.val + 1 * (x 0).val = R.val; have h1 : (x 0).val < 1 := (x 0).isLt; omega
  | ⟨1, _⟩ => show 0 + 1 * (x 1).val = (x 1).val; omega

/-- The feature buffer after one row store per row of `order`, each row's payload a function of the row: at row `r`
    it holds that payload. -/
theorem read_rowPieces_map (v : View sig' κ sp S64x256 .f32) (f : v.ty.Contents Val) (order : List (Fin 64))
    (pv : Fin 64 → S1x256.Idx → Val .f32) (r : Fin 64) (hr : r ∈ order) (k : Fin 256) :
    v.read Val (v.writes Val f (order.map fun R => (⟨rowRect R, pv R⟩ : View.Piece Val S64x256 .f32))) (ix2 r k)
      = pv r (ix2 (0 : Fin 1) k) :=
  View.read_writes_apply_of_pieces (v := v) (f := f) (fun i : S64x256.Idx => pv (i 0) (ix2 (0 : Fin 1) (i 1)))
    (order.map fun R => (⟨rowRect R, pv R⟩ : View.Piece Val S64x256 .f32))
    (fun p hp x => by
      obtain ⟨R, -, rfl⟩ := List.mem_map.mp hp
      have he : (rowRect R).emb x = ix2 R (x 1) := rowRect_emb R x
      have h1 : pv (((rowRect R).emb x) 0) (ix2 (0 : Fin 1) (((rowRect R).emb x) 1))
          = pv ((ix2 R (x 1) : S64x256.Idx) 0) (ix2 (0 : Fin 1) ((ix2 R (x 1) : S64x256.Idx) 1)) :=
        congrArg (fun z : S64x256.Idx => pv (z 0) (ix2 (0 : Fin 1) (z 1))) he
      exact (congrArg (pv R) (rowIdx_eq x)).trans h1.symm)
    (ix2 r k)
    ⟨⟨rowRect r, pv r⟩, List.mem_map.mpr ⟨r, hr, rfl⟩, by
      show ix2 r k ∈ (rowRect r).set
      rw [Rect.mem_set_unit]
      intro a
      match a with
      | ⟨0, _⟩ => exact ⟨le_refl _, by show r.val < r.val + 1; omega⟩
      | ⟨1, _⟩ => exact ⟨Nat.zero_le _, by show k.val < 0 + 256; have := k.isLt; omega⟩⟩

/-! ## A 64-row buffer loaded whole after every row was written

When every row is written, the whole-buffer load is the rows' contents as a function of the index: what the buffer
held before is read nowhere. -/

/-- The adjacency buffer, every row landed. -/
theorem readAt_landRows_all (M : Memref sig' κ sp S64x8192 .f32) (base : M.view.ty.Contents Val) (order : List (Fin 64)) (hnd : order.Nodup)
    (hall : ∀ r : Fin 64, r ∈ order) (vals : Fin 64 → S8192.Idx → Val .f32) (off : Fin 2 → Nat) (hoff : off = fun _ => 0)
    (inb : ∀ a, off a + S64x8192.size a ≤ S64x8192.size a) :
    View.readAt Val M.view (Rect.unit (s := S64x8192) off S64x8192.size inb).toLoadRect (landRows M base (order.map fun R => (R, vals R)))
      = fun (j : S64x8192.Idx) => vals (j 0) (ValueIdx.ix1 (j 1)) := by
  rw [readAt_whole64 M.view off hoff inb]
  refine funext fun (j : S64x8192.Idx) => ?_
  exact (congrArg (M.view.read Val (landRows M base (order.map fun R => (R, vals R)))) (eq_ix2 j)).trans
    (read_landRows_map M base order hnd vals (j 0) (hall _) (j 1))

/-- The feature buffer, every row stored, loaded after the stores. -/
theorem readAt_rowPieces_all (v : View sig' κ sp S64x256 .f32) (f : v.ty.Contents Val) (order : List (Fin 64)) (hall : ∀ r : Fin 64, r ∈ order)
    (pv : Fin 64 → S1x256.Idx → Val .f32) (off : Fin 2 → Nat) (hoff : off = fun _ => 0)
    (inb : ∀ a, off a + S64x256.size a ≤ S64x256.size a) :
    View.readAt Val v (Rect.unit (s := S64x256) off S64x256.size inb).toLoadRect
        (v.writes Val f (order.map fun R => (⟨rowRect R, pv R⟩ : View.Piece Val S64x256 .f32)))
      = fun (j : S64x256.Idx) => pv (j 0) (ix2 (0 : Fin 1) (j 1)) := by
  rw [readAt_whole64 v off hoff inb]
  refine funext fun (j : S64x256.Idx) => ?_
  exact (congrArg (v.read Val (v.writes Val f (order.map fun R => (⟨rowRect R, pv R⟩ : View.Piece Val S64x256 .f32)))) (eq_ix2 j)).trans
    (read_rowPieces_map v f order pv (j 0) (hall _) (j 1))

/-- The same when the load is read off the stores alone (a covered load names no prior contents). -/
theorem readCov_rowPieces_all [∀ e, Nonempty (Val e)] (v : View sig' κ sp S64x256 .f32) (order : List (Fin 64)) (hall : ∀ r : Fin 64, r ∈ order)
    (pv : Fin 64 → S1x256.Idx → Val .f32) (off : Fin 2 → Nat) (hoff : off = fun _ => 0)
    (inb : ∀ a, off a + S64x256.size a ≤ S64x256.size a) :
    v.readCov (order.map fun R => (⟨rowRect R, pv R⟩ : View.Piece Val S64x256 .f32)) (Rect.unit (s := S64x256) off S64x256.size inb).toLoadRect
      = fun (j : S64x256.Idx) => pv (j 0) (ix2 (0 : Fin 1) (j 1)) :=
  (View.readCov_eq_canon' v _ _).trans
    ((View.readAt_writes_junk_eq_canon v _ _).symm.trans (readAt_rowPieces_all v v.junk order hall pv off hoff inb))

/-! ## The same, between two prior contents

Stated on the list of rows itself: when every row occurs in it, two buffers that differ only in what they held before
the rows were written load the same. -/

/-- At a row that was written, the two buffers agree. -/
theorem read_landRows_indep (M : Memref sig' κ sp S64x8192 .f32) (base base' : M.view.ty.Contents Val)
    (L : List (Fin 64 × (S8192.Idx → Val .f32))) (hnd : (L.map Prod.fst).Nodup) (R : Fin 64) (hR : R ∈ L.map Prod.fst) (k : Fin 8192) :
    M.view.read Val (landRows M base L) (ix2 R k) = M.view.read Val (landRows M base' L) (ix2 R k) := by
  obtain ⟨⟨R', v⟩, hm, rfl⟩ := List.mem_map.mp hR
  exact (read_landRows M base L hnd R' v hm k).trans (read_landRows M base' L hnd R' v hm k).symm

/-- With every row written, the whole loads agree. -/
theorem readAt_landRows_indep (M : Memref sig' κ sp S64x8192 .f32) (base base' : M.view.ty.Contents Val)
    (L : List (Fin 64 × (S8192.Idx → Val .f32))) (hnd : (L.map Prod.fst).Nodup) (hall : ∀ r : Fin 64, r ∈ L.map Prod.fst)
    (off : Fin 2 → Nat) (hoff : off = fun _ => 0) (inb : ∀ a, off a + S64x8192.size a ≤ S64x8192.size a) :
    View.readAt Val M.view (Rect.unit (s := S64x8192) off S64x8192.size inb).toLoadRect (landRows M base L)
      = View.readAt Val M.view (Rect.unit (s := S64x8192) off S64x8192.size inb).toLoadRect (landRows M base' L) := by
  rw [readAt_whole64 M.view off hoff inb, readAt_whole64 M.view off hoff inb]
  refine funext fun (j : S64x8192.Idx) => ?_
  exact (congrArg (M.view.read Val (landRows M base L)) (eq_ix2 j)).trans
    ((read_landRows_indep M base base' L hnd (j 0) (hall _) (j 1)).trans (congrArg (M.view.read Val (landRows M base' L)) (eq_ix2 j)).symm)

/-- A buffer whose listed stores cover it loads the same whatever it held before them. -/
theorem readAt_writes_indep {S : Shape} (v : View sig' κ sp S .f32) (f f' : v.ty.Contents Val) (L : List (View.Piece Val S .f32))
    (hcov : ∀ y : S.Idx, ∃ p ∈ L, y ∈ p.1.set) (B : LoadRect S) :
    View.readAt Val v B (v.writes Val f L) = View.readAt Val v B (v.writes Val f' L) :=
  funext fun x => by
    rw [View.readAt_apply, View.readAt_apply]
    exact View.read_writes_apply_eq (v := v) (f := f) v f' (B.idx x) L (hcov _)

end Cert.Kernel.Hand

end
-- ==== Proof.K.Tables.lean ====
/-
  The index facts of the link-predictor kernel, generic in the float instance (an i32 element is a 32-bit word at
  every instance).
  (i)  The precondition's last conjunct, all(0 ≤ tar ∧ tar < 8192), read back: every word of the edge table is below
       8192 as a natural number.
  (ii) The two prefetched tables of the second region are rows 0 and 1 of the edge table: the host stretch slices a
       row and flattens it, so word e of a table is the edge table at (row, e).
  (iii) A word below 8192 names a row of the 8192×8192 adjacency and of the 8192×256 feature array: the one-row
       blocks at that row fit, which is what each side condition of the body asks of a word.
  (iv) The table position the body reads at grid point t for its r-th edge is 64·t + r (no wrap: t < 128, r < 64).
-/
import proofs.«428817_j39556648796289_1_alg».proof.Defs
import proofs.«428817_j39556648796289_1_alg».proof.Proof.Gen.Kernel.Launch
import proofs.«428817_j39556648796289_1_alg».proof.Proof.Gen.Kernel.Regions
import proofs.«428817_j39556648796289_1_alg».proof.Proof.Gen.Pre_finite_inputs
import Idealize.ShloMosaic.Lib.ReduceAll
import Idealize.ShloMosaic.Lib.StableHlo.Predicate
import Idealize.ShloMosaic.Lib.StableHlo.Run
import Idealize.ShloMosaic.Lib.ValueIdx
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## (i) The edge table's words are below 8192 -/

/-- A word in [0, 8192) as a signed number is below 8192 as a natural number. -/
theorem toNat_lt_of_signed (w : BitVec 32) (h0 : IntOp.cmpi .sge w (0#32) = 1#1) (h1 : IntOp.cmpi .slt w (8192#32) = 1#1) :
    w.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  have hw := w.isLt
  rw [BitVec.toInt_eq_toNat_cond] at h0 h1
  split at h0 <;> omega

/-- The precondition's last conjunct: all(0 ≤ tar ∧ tar < 8192) came out 1, so every word of the edge table is below 8192. -/
theorem tar_lt_of_pre [hP : Cert.Pre_finite_inputs.Facts]
    (a0 : FVec F Cert.Pre_finite_inputs.S8192x256 .f32) (a1 : FVec F Cert.Pre_finite_inputs.S8192x8192 .f32)
    (tar : IVec Cert.Pre_finite_inputs.S2x8192 32)
    (a3 : FVec F Cert.Pre_finite_inputs.S256x256 .f32) (a4 : FVec F Cert.Pre_finite_inputs.S256 .f32)
    (a5 : FVec F Cert.Pre_finite_inputs.S256x256 .f32) (a6 : FVec F Cert.Pre_finite_inputs.S256 .f32)
    (a7 : FVec F Cert.Pre_finite_inputs.S256x256 .f32) (a8 : FVec F Cert.Pre_finite_inputs.S256 .f32)
    (a9 : FVec F Cert.Pre_finite_inputs.S256x256 .f32) (a10 : FVec F Cert.Pre_finite_inputs.S256 .f32)
    (a11 : FVec F Cert.Pre_finite_inputs.S256x256 .f32) (a12 : FVec F Cert.Pre_finite_inputs.S256 .f32)
    (a13 : FVec F Cert.Pre_finite_inputs.S256x256 .f32) (a14 : FVec F Cert.Pre_finite_inputs.S256 .f32)
    (a15 : FVec F Cert.Pre_finite_inputs.S256x1 .f32) (a16 : FVec F Cert.Pre_finite_inputs.S1 .f32)
    (a17 : FVec F Cert.Pre_finite_inputs.S1 .f32)
    (h : Cert.Pre_finite_inputs.fn (F := F) a0 a1 tar a3 a4 a5 a6 a7 a8 a9 a10 a11 a12 a13 a14 a15 a16 a17 = (fun _ => 1#1)) :
    ∀ (s : Fin 2) (e : Fin 8192), (tar (ValueIdx.ix2 s e)).toNat < 8192 := by
  intro s e
  -- the scalar shape has one index
  haveI : Subsingleton Cert.Pre_finite_inputs.S_.Idx := ⟨fun a b => funext fun d => d.elim0⟩
  -- the whole conjunction at the scalar's one index is the last part's result
  have h5 : Cert.Pre_finite_inputs.fn_part5 (F := F) tar _ _ ValueIdx.ix0 = 1#1 := congrFun h ValueIdx.ix0
  -- its last conjunct is the reduction by "and" of the elementwise test
  have hall := (IntOp.andi_eq_one.1 h5).2
  -- a reduction by "and" over all axes that is 1 met a 1 at every index
  have hel := Host.reduce_andi_all _ _ _ _ ValueIdx.ix0 hall (ValueIdx.ix2 s e)
  obtain ⟨hge, hlt⟩ := IntOp.andi_eq_one.1 hel
  exact toNat_lt_of_signed _ hge hlt

/-! ## (ii) The prefetched tables are the edge table's rows -/

variable (m : (ℓ : Loc nD τ sig) → Buf (Elt F) ℓ)

/-- Row ρ of the edge table, sliced off and flattened, read at e is the edge table at (ρ, e). -/
theorem flat_row_apply (x : S2x8192.Idx → BitVec 32) (ρ : Fin 2) (off : Fin 2 → Nat) (hoff0 : off 0 = ρ.val) (hoff1 : off 1 = 0)
    (hs : S2x8192.Slices off S1x8192) (hc : S1x8192.ShapeCasts S8192) (e : Fin 8192) :
    shapeCast S8192 (extractStridedSlice S1x8192 off x hs) hc (ValueIdx.ix1 e) = x (ValueIdx.ix2 ρ e) := by
  refine (shapeCast_apply _ hc (ValueIdx.ix1 e) (ValueIdx.ix2 (0 : Fin 1) e) ?_).trans ?_
  · rw [Shape.rowMajor_val_two, Shape.rowMajor_val_one]
    show 0 * 8192 + e.val = e.val
    omega
  · refine extractStridedSlice_apply off x hs _ (ValueIdx.ix2 ρ e) fun a => ?_
    match a with
    | ⟨0, _⟩ => show ρ.val = off 0 + 0; omega
    | ⟨1, _⟩ => show e.val = off 1 + e.val; omega

/-- The first table: word e is the edge table at (0, e). -/
theorem V1_main_v1_apply (c : Dev nD) (e : Fin 8192) :
    (Gen.V1 m c main_v1 : S8192.Idx → BitVec 32) (ValueIdx.ix1 e) = m ((c : Thread nD τ).loc main_arg2) (ValueIdx.ix2 0 e) := by
  have hv : (Gen.V1 m c main_v1 : S8192.Idx → BitVec 32)
      = shapeCast S8192 (extractStridedSlice S1x8192 ![0, 0] (m ((c : Thread nD τ).loc main_arg2)) slices_S2x8192_S1x8192_0_0) shapeCasts_S1x8192_S8192 := by
    dsimp only [Gen.V1, Gen.V0, Gen.hostOps0]; after_results; rfl
  rw [hv]
  exact flat_row_apply _ 0 ![0, 0] rfl rfl _ _ e

/-- The second table: word e is the edge table at (1, e). -/
theorem V1_main_v3_apply (c : Dev nD) (e : Fin 8192) :
    (Gen.V1 m c main_v3 : S8192.Idx → BitVec 32) (ValueIdx.ix1 e) = m ((c : Thread nD τ).loc main_arg2) (ValueIdx.ix2 1 e) := by
  have hv : (Gen.V1 m c main_v3 : S8192.Idx → BitVec 32)
      = shapeCast S8192 (extractStridedSlice S1x8192 ![1, 0] (m ((c : Thread nD τ).loc main_arg2)) slices_S2x8192_S1x8192_1_0) shapeCasts_S1x8192_S8192 := by
    dsimp only [Gen.V1, Gen.V0, Gen.hostOps0]; after_results; rfl
  rw [hv]
  exact flat_row_apply _ 1 ![1, 0] rfl rfl _ _ e

/-! ## (iii) A word below 8192 passes the body's side conditions -/

/-- The one-row blocks at row w of the adjacency and of the feature array fit when w < 8192. -/
theorem row_blocks_fit (w : BitVec 32) (h : w.toNat < 8192) :
    (∀ a, (![w.toNat, 0] : Fin 2 → Nat) a + S1x8192.size a ≤ S8192x8192.size a) ∧
    (∀ a, (![(Scalar.indexCast w).toNat, 0] : Fin 2 → Nat) a + S1x256.size a ≤ S8192x256.size a) := by
  have hc : (Scalar.indexCast w).toNat = w.toNat := rfl
  refine ⟨fun a => ?_, fun a => ?_⟩
  · match a with
    | ⟨0, _⟩ => show w.toNat + 1 ≤ 8192; omega
    | ⟨1, _⟩ => show 0 + 8192 ≤ 8192; omega
  · match a with
    | ⟨0, _⟩ => show (Scalar.indexCast w).toNat + 1 ≤ 8192; omega
    | ⟨1, _⟩ => show 0 + 256 ≤ 256; omega

/-! ## (iv) The table position read at grid point t for edge r of the tile -/

/-- 64·t + r computed in 32-bit words does not wrap for t < 128 and r < 64. -/
theorem table_pos (t : Nat) (ht : t < 128) (r : Nat) (hr : r < 64) :
    (Scalar.indexCast (Scalar.addi (Scalar.muli (BitVec.ofNat 32 t) (64#32)) (BitVec.ofNat 32 r))).toNat = 64 * t + r := by
  show (BitVec.ofNat 32 t * 64#32 + BitVec.ofNat 32 r).toNat = 64 * t + r
  rw [BitVec.toNat_add, BitVec.toNat_mul, BitVec.toNat_ofNat, BitVec.toNat_ofNat, BitVec.toNat_ofNat]
  omega

/-- A point's coordinate of the second region's grid is below 128. -/
theorem coord_lt (i : grid1.Coords) : (i 0).val < 128 := (i 0).isLt

end Cert.Kernel.Hand

end
-- ==== Proof.K.TablesCases.lean ====
/-
  The side conditions of the body, one per word it reads, and the table positions of its reads, one per edge of a tile:
  each side condition is row_blocks_fit at its own pair of offset functions, each position is table_pos at its own edge number.
-/
import proofs.«428817_j39556648796289_1_alg».proof.Proof.K.Tables

noncomputable section

namespace Cert.Kernel.Hand

open Cert.Kernel Cert.Kernel.Gen
open Idealize.ShloMosaic

/-! ## A word below 8192 passes each side condition -/

theorem chk_of_lt_1 (w : BitVec 32) (h : w.toNat < 8192) : k1_chk1 w := row_blocks_fit w h
theorem chk_of_lt_2 (w : BitVec 32) (h : w.toNat < 8192) : k1_chk2 w := row_blocks_fit w h
theorem chk_of_lt_3 (w : BitVec 32) (h : w.toNat < 8192) : k1_chk3 w := row_blocks_fit w h
theorem chk_of_lt_4 (w : BitVec 32) (h : w.toNat < 8192) : k1_chk4 w := row_blocks_fit w h
theorem chk_of_lt_5 (w : BitVec 32) (h : w.toNat < 8192) : k1_chk5 w := row_blocks_fit w h
theorem chk_of_lt_6 (w : BitVec 32) (h : w.toNat < 8192) : k1_chk6 w := row_blocks_fit w h
theorem chk_of_lt_7 (w : BitVec 32) (h : w.toNat < 8192) : k1_chk7 w := row_blocks_fit w h
theorem chk_of_lt_8 (w : BitVec 32) (h : w.toNat < 8192) : k1_chk8 w := row_blocks_fit w h
theorem chk_of_lt_9 (w : BitVec 32) (h : w.toNat < 8192) : k1_chk9 w := row_blocks_fit w h
theorem chk_of_lt_10 (w : BitVec 32) (h : w.toNat < 8192) : k1_chk10 w := row_blocks_fit w h
theorem chk_of_lt_11 (w : BitVec 32) (h : w.toNat < 8192) : k1_chk11 w := row_blocks_fit w h
theorem chk_of_lt_12 (w : BitVec 32) (h : w.toNat < 8192) : k1_chk12 w := row_blocks_fit w h
theorem chk_of_lt_13 (w : BitVec 32) (h : w.toNat < 8192) : k1_chk13 w := row_blocks_fit w h
theorem chk_of_lt_14 (w : BitVec 32) (h : w.toNat < 8192) : k1_chk14 w := row_blocks_fit w h
theorem chk_of_lt_15 (w : BitVec 32) (h : w.toNat < 8192) : k1_chk15 w := row_blocks_fit w h
theorem chk_of_lt_16 (w : BitVec 32) (h : w.toNat < 8192) : k1_chk16 w := row_blocks_fit w h
theorem chk_of_lt_17 (w : BitVec 32) (h : w.toNat < 8192) : k1_chk17 w := row_blocks_fit w h
theorem chk_of_lt_18 (w : BitVec 32) (h : w.toNat < 8192) : k1_chk18 w := row_blocks_fit w h
theorem chk_of_lt_19 (w : BitVec 32) (h : w.toNat < 8192) : k1_chk19 w := row_blocks_fit w h
theorem chk_of_lt_20 (w : BitVec 32) (h : w.toNat < 8192) : k1_chk20 w := row_blocks_fit w h
theorem chk_of_lt_21 (w : BitVec 32) (h : w.toNat < 8192) : k1_chk21 w := row_blocks_fit w h
theorem chk_of_lt_22 (w : BitVec 32) (h : w.toNat < 8192) : k1_chk22 w := row_blocks_fit w h
theorem chk_of_lt_23 (w : BitVec 32) (h : w.toNat < 8192) : k1_chk23 w := row_blocks_fit w h
theorem chk_of_lt_24 (w : BitVec 32) (h : w.toNat < 8192) : k1_chk24 w := row_blocks_fit w h
theorem chk_of_lt_25 (w : BitVec 32) (h : w.toNat < 8192) : k1_chk25 w := row_blocks_fit w h
theorem chk_of_lt_26 (w : BitVec 32) (h : w.toNat < 8192) : k1_chk26 w := row_blocks_fit w h
theorem chk_of_lt_27 (w : BitVec 32) (h : w.toNat < 8192) : k1_chk27 w := row_blocks_fit w h
theorem chk_of_lt_28 (w : BitVec 32) (h : w.toNat < 8192) : k1_chk28 w := row_blocks_fit w h
theorem chk_of_lt_29 (w : BitVec 32) (h : w.toNat < 8192) : k1_chk29 w := row_blocks_fit w h
theorem chk_of_lt_30 (w : BitVec 32) (h : w.toNat < 8192) : k1_chk30 w := row_blocks_fit w h
theorem chk_of_lt_31 (w : BitVec 32) (h : w.toNat < 8192) : k1_chk31 w := row_blocks_fit w h
theorem chk_of_lt_32 (w : BitVec 32) (h : w.toNat < 8192) : k1_chk32 w := row_blocks_fit w h
theorem chk_of_lt_33 (w : BitVec 32) (h : w.toNat < 8192) : k1_chk33 w := row_blocks_fit w h
theorem chk_of_lt_34 (w : BitVec 32) (h : w.toNat < 8192) : k1_chk34 w := row_blocks_fit w h
theorem chk_of_lt_35 (w : BitVec 32) (h : w.toNat < 8192) : k1_chk35 w := row_blocks_fit w h
theorem chk_of_lt_36 (w : BitVec 32) (h : w.toNat < 8192) : k1_chk36 w := row_blocks_fit w h
theorem chk_of_lt_37 (w : BitVec 32) (h : w.toNat < 8192) : k1_chk37 w := row_blocks_fit w h
theorem chk_of_lt_38 (w : BitVec 32) (h : w.toNat < 8192) : k1_chk38 w := row_blocks_fit w h
theorem chk_of_lt_39 (w : BitVec 32) (h : w.toNat < 8192) : k1_chk39 w := row_blocks_fit w h
theorem chk_of_lt_40 (w : BitVec 32) (h : w.toNat < 8192) : k1_chk40 w := row_blocks_fit w h
theorem chk_of_lt_41 (w : BitVec 32) (h : w.toNat < 8192) : k1_chk41 w := row_blocks_fit w h
theorem chk_of_lt_42 (w : BitVec 32) (h : w.toNat < 8192) : k1_chk42 w := row_blocks_fit w h
theorem chk_of_lt_43 (w : BitVec 32) (h : w.toNat < 8192) : k1_chk43 w := row_blocks_fit w h
theorem chk_of_lt_44 (w : BitVec 32) (h : w.toNat < 8192) : k1_chk44 w := row_blocks_fit w h
theorem chk_of_lt_45 (w : BitVec 32) (h : w.toNat < 8192) : k1_chk45 w := row_blocks_fit w h
theorem chk_of_lt_46 (w : BitVec 32) (h : w.toNat < 8192) : k1_chk46 w := row_blocks_fit w h
theorem chk_of_lt_47 (w : BitVec 32) (h : w.toNat < 8192) : k1_chk47 w := row_blocks_fit w h
theorem chk_of_lt_48 (w : BitVec 32) (h : w.toNat < 8192) : k1_chk48 w := row_blocks_fit w h
theorem chk_of_lt_49 (w : BitVec 32) (h : w.toNat < 8192) : k1_chk49 w := row_blocks_fit w h
theorem chk_of_lt_50 (w : BitVec 32) (h : w.toNat < 8192) : k1_chk50 w := row_blocks_fit w h
theorem chk_of_lt_51 (w : BitVec 32) (h : w.toNat < 8192) : k1_chk51 w := row_blocks_fit w h
theorem chk_of_lt_52 (w : BitVec 32) (h : w.toNat < 8192) : k1_chk52 w := row_blocks_fit w h
theorem chk_of_lt_53 (w : BitVec 32) (h : w.toNat < 8192) : k1_chk53 w := row_blocks_fit w h
theorem chk_of_lt_54 (w : BitVec 32) (h : w.toNat < 8192) : k1_chk54 w := row_blocks_fit w h
theorem chk_of_lt_55 (w : BitVec 32) (h : w.toNat < 8192) : k1_chk55 w := row_blocks_fit w h
theorem chk_of_lt_56 (w : BitVec 32) (h : w.toNat < 8192) : k1_chk56 w := row_blocks_fit w h
theorem chk_of_lt_57 (w : BitVec 32) (h : w.toNat < 8192) : k1_chk57 w := row_blocks_fit w h
theorem chk_of_lt_58 (w : BitVec 32) (h : w.toNat < 8192) : k1_chk58 w := row_blocks_fit w h
theorem chk_of_lt_59 (w : BitVec 32) (h : w.toNat < 8192) : k1_chk59 w := row_blocks_fit w h
theorem chk_of_lt_60 (w : BitVec 32) (h : w.toNat < 8192) : k1_chk60 w := row_blocks_fit w h
theorem chk_of_lt_61 (w : BitVec 32) (h : w.toNat < 8192) : k1_chk61 w := row_blocks_fit w h
theorem chk_of_lt_62 (w : BitVec 32) (h : w.toNat < 8192) : k1_chk62 w := row_blocks_fit w h
theorem chk_of_lt_63 (w : BitVec 32) (h : w.toNat < 8192) : k1_chk63 w := row_blocks_fit w h
theorem chk_of_lt_64 (w : BitVec 32) (h : w.toNat < 8192) : k1_chk64 w := row_blocks_fit w h
theorem chk_of_lt_65 (w : BitVec 32) (h : w.toNat < 8192) : k1_chk65 w := row_blocks_fit w h
theorem chk_of_lt_66 (w : BitVec 32) (h : w.toNat < 8192) : k1_chk66 w := row_blocks_fit w h
theorem chk_of_lt_67 (w : BitVec 32) (h : w.toNat < 8192) : k1_chk67 w := row_blocks_fit w h
theorem chk_of_lt_68 (w : BitVec 32) (h : w.toNat < 8192) : k1_chk68 w := row_blocks_fit w h
theorem chk_of_lt_69 (w : BitVec 32) (h : w.toNat < 8192) : k1_chk69 w := row_blocks_fit w h
theorem chk_of_lt_70 (w : BitVec 32) (h : w.toNat < 8192) : k1_chk70 w := row_blocks_fit w h
theorem chk_of_lt_71 (w : BitVec 32) (h : w.toNat < 8192) : k1_chk71 w := row_blocks_fit w h
theorem chk_of_lt_72 (w : BitVec 32) (h : w.toNat < 8192) : k1_chk72 w := row_blocks_fit w h
theorem chk_of_lt_73 (w : BitVec 32) (h : w.toNat < 8192) : k1_chk73 w := row_blocks_fit w h
theorem chk_of_lt_74 (w : BitVec 32) (h : w.toNat < 8192) : k1_chk74 w := row_blocks_fit w h
theorem chk_of_lt_75 (w : BitVec 32) (h : w.toNat < 8192) : k1_chk75 w := row_blocks_fit w h
theorem chk_of_lt_76 (w : BitVec 32) (h : w.toNat < 8192) : k1_chk76 w := row_blocks_fit w h
theorem chk_of_lt_77 (w : BitVec 32) (h : w.toNat < 8192) : k1_chk77 w := row_blocks_fit w h
theorem chk_of_lt_78 (w : BitVec 32) (h : w.toNat < 8192) : k1_chk78 w := row_blocks_fit w h
theorem chk_of_lt_79 (w : BitVec 32) (h : w.toNat < 8192) : k1_chk79 w := row_blocks_fit w h
theorem chk_of_lt_80 (w : BitVec 32) (h : w.toNat < 8192) : k1_chk80 w := row_blocks_fit w h
theorem chk_of_lt_81 (w : BitVec 32) (h : w.toNat < 8192) : k1_chk81 w := row_blocks_fit w h
theorem chk_of_lt_82 (w : BitVec 32) (h : w.toNat < 8192) : k1_chk82 w := row_blocks_fit w h
theorem chk_of_lt_83 (w : BitVec 32) (h : w.toNat < 8192) : k1_chk83 w := row_blocks_fit w h
theorem chk_of_lt_84 (w : BitVec 32) (h : w.toNat < 8192) : k1_chk84 w := row_blocks_fit w h
theorem chk_of_lt_85 (w : BitVec 32) (h : w.toNat < 8192) : k1_chk85 w := row_blocks_fit w h
theorem chk_of_lt_86 (w : BitVec 32) (h : w.toNat < 8192) : k1_chk86 w := row_blocks_fit w h
theorem chk_of_lt_87 (w : BitVec 32) (h : w.toNat < 8192) : k1_chk87 w := row_blocks_fit w h
theorem chk_of_lt_88 (w : BitVec 32) (h : w.toNat < 8192) : k1_chk88 w := row_blocks_fit w h
theorem chk_of_lt_89 (w : BitVec 32) (h : w.toNat < 8192) : k1_chk89 w := row_blocks_fit w h
theorem chk_of_lt_90 (w : BitVec 32) (h : w.toNat < 8192) : k1_chk90 w := row_blocks_fit w h
theorem chk_of_lt_91 (w : BitVec 32) (h : w.toNat < 8192) : k1_chk91 w := row_blocks_fit w h
theorem chk_of_lt_92 (w : BitVec 32) (h : w.toNat < 8192) : k1_chk92 w := row_blocks_fit w h
theorem chk_of_lt_93 (w : BitVec 32) (h : w.toNat < 8192) : k1_chk93 w := row_blocks_fit w h
theorem chk_of_lt_94 (w : BitVec 32) (h : w.toNat < 8192) : k1_chk94 w := row_blocks_fit w h
theorem chk_of_lt_95 (w : BitVec 32) (h : w.toNat < 8192) : k1_chk95 w := row_blocks_fit w h
theorem chk_of_lt_96 (w : BitVec 32) (h : w.toNat < 8192) : k1_chk96 w := row_blocks_fit w h
theorem chk_of_lt_97 (w : BitVec 32) (h : w.toNat < 8192) : k1_chk97 w := row_blocks_fit w h
theorem chk_of_lt_98 (w : BitVec 32) (h : w.toNat < 8192) : k1_chk98 w := row_blocks_fit w h
theorem chk_of_lt_99 (w : BitVec 32) (h : w.toNat < 8192) : k1_chk99 w := row_blocks_fit w h
theorem chk_of_lt_100 (w : BitVec 32) (h : w.toNat < 8192) : k1_chk100 w := row_blocks_fit w h
theorem chk_of_lt_101 (w : BitVec 32) (h : w.toNat < 8192) : k1_chk101 w := row_blocks_fit w h
theorem chk_of_lt_102 (w : BitVec 32) (h : w.toNat < 8192) : k1_chk102 w := row_blocks_fit w h
theorem chk_of_lt_103 (w : BitVec 32) (h : w.toNat < 8192) : k1_chk103 w := row_blocks_fit w h
theorem chk_of_lt_104 (w : BitVec 32) (h : w.toNat < 8192) : k1_chk104 w := row_blocks_fit w h
theorem chk_of_lt_105 (w : BitVec 32) (h : w.toNat < 8192) : k1_chk105 w := row_blocks_fit w h
theorem chk_of_lt_106 (w : BitVec 32) (h : w.toNat < 8192) : k1_chk106 w := row_blocks_fit w h
theorem chk_of_lt_107 (w : BitVec 32) (h : w.toNat < 8192) : k1_chk107 w := row_blocks_fit w h
theorem chk_of_lt_108 (w : BitVec 32) (h : w.toNat < 8192) : k1_chk108 w := row_blocks_fit w h
theorem chk_of_lt_109 (w : BitVec 32) (h : w.toNat < 8192) : k1_chk109 w := row_blocks_fit w h
theorem chk_of_lt_110 (w : BitVec 32) (h : w.toNat < 8192) : k1_chk110 w := row_blocks_fit w h
theorem chk_of_lt_111 (w : BitVec 32) (h : w.toNat < 8192) : k1_chk111 w := row_blocks_fit w h
theorem chk_of_lt_112 (w : BitVec 32) (h : w.toNat < 8192) : k1_chk112 w := row_blocks_fit w h
theorem chk_of_lt_113 (w : BitVec 32) (h : w.toNat < 8192) : k1_chk113 w := row_blocks_fit w h
theorem chk_of_lt_114 (w : BitVec 32) (h : w.toNat < 8192) : k1_chk114 w := row_blocks_fit w h
theorem chk_of_lt_115 (w : BitVec 32) (h : w.toNat < 8192) : k1_chk115 w := row_blocks_fit w h
theorem chk_of_lt_116 (w : BitVec 32) (h : w.toNat < 8192) : k1_chk116 w := row_blocks_fit w h
theorem chk_of_lt_117 (w : BitVec 32) (h : w.toNat < 8192) : k1_chk117 w := row_blocks_fit w h
theorem chk_of_lt_118 (w : BitVec 32) (h : w.toNat < 8192) : k1_chk118 w := row_blocks_fit w h
theorem chk_of_lt_119 (w : BitVec 32) (h : w.toNat < 8192) : k1_chk119 w := row_blocks_fit w h
theorem chk_of_lt_120 (w : BitVec 32) (h : w.toNat < 8192) : k1_chk120 w := row_blocks_fit w h
theorem chk_of_lt_121 (w : BitVec 32) (h : w.toNat < 8192) : k1_chk121 w := row_blocks_fit w h
theorem chk_of_lt_122 (w : BitVec 32) (h : w.toNat < 8192) : k1_chk122 w := row_blocks_fit w h
theorem chk_of_lt_123 (w : BitVec 32) (h : w.toNat < 8192) : k1_chk123 w := row_blocks_fit w h
theorem chk_of_lt_124 (w : BitVec 32) (h : w.toNat < 8192) : k1_chk124 w := row_blocks_fit w h
theorem chk_of_lt_125 (w : BitVec 32) (h : w.toNat < 8192) : k1_chk125 w := row_blocks_fit w h
theorem chk_of_lt_126 (w : BitVec 32) (h : w.toNat < 8192) : k1_chk126 w := row_blocks_fit w h
theorem chk_of_lt_127 (w : BitVec 32) (h : w.toNat < 8192) : k1_chk127 w := row_blocks_fit w h
theorem chk_of_lt_128 (w : BitVec 32) (h : w.toNat < 8192) : k1_chk128 w := row_blocks_fit w h

/-! ## The table position of edge r of tile t is 64·t + r -/

theorem k1_off1_zero (i : grid1.Coords) : (k1_off1 i) 0 = 64 * (i 0).val + 0 := table_pos _ (coord_lt i) 0 (by omega)
theorem k1_off6_zero (i : grid1.Coords) : (k1_off6 i) 0 = 64 * (i 0).val + 1 := table_pos _ (coord_lt i) 1 (by omega)
theorem k1_off11_zero (i : grid1.Coords) : (k1_off11 i) 0 = 64 * (i 0).val + 2 := table_pos _ (coord_lt i) 2 (by omega)
theorem k1_off16_zero (i : grid1.Coords) : (k1_off16 i) 0 = 64 * (i 0).val + 3 := table_pos _ (coord_lt i) 3 (by omega)
theorem k1_off21_zero (i : grid1.Coords) : (k1_off21 i) 0 = 64 * (i 0).val + 4 := table_pos _ (coord_lt i) 4 (by omega)
theorem k1_off26_zero (i : grid1.Coords) : (k1_off26 i) 0 = 64 * (i 0).val + 5 := table_pos _ (coord_lt i) 5 (by omega)
theorem k1_off31_zero (i : grid1.Coords) : (k1_off31 i) 0 = 64 * (i 0).val + 6 := table_pos _ (coord_lt i) 6 (by omega)
theorem k1_off36_zero (i : grid1.Coords) : (k1_off36 i) 0 = 64 * (i 0).val + 7 := table_pos _ (coord_lt i) 7 (by omega)
theorem k1_off41_zero (i : grid1.Coords) : (k1_off41 i) 0 = 64 * (i 0).val + 8 := table_pos _ (coord_lt i) 8 (by omega)
theorem k1_off46_zero (i : grid1.Coords) : (k1_off46 i) 0 = 64 * (i 0).val + 9 := table_pos _ (coord_lt i) 9 (by omega)
theorem k1_off51_zero (i : grid1.Coords) : (k1_off51 i) 0 = 64 * (i 0).val + 10 := table_pos _ (coord_lt i) 10 (by omega)
theorem k1_off56_zero (i : grid1.Coords) : (k1_off56 i) 0 = 64 * (i 0).val + 11 := table_pos _ (coord_lt i) 11 (by omega)
theorem k1_off61_zero (i : grid1.Coords) : (k1_off61 i) 0 = 64 * (i 0).val + 12 := table_pos _ (coord_lt i) 12 (by omega)
theorem k1_off66_zero (i : grid1.Coords) : (k1_off66 i) 0 = 64 * (i 0).val + 13 := table_pos _ (coord_lt i) 13 (by omega)
theorem k1_off71_zero (i : grid1.Coords) : (k1_off71 i) 0 = 64 * (i 0).val + 14 := table_pos _ (coord_lt i) 14 (by omega)
theorem k1_off76_zero (i : grid1.Coords) : (k1_off76 i) 0 = 64 * (i 0).val + 15 := table_pos _ (coord_lt i) 15 (by omega)
theorem k1_off81_zero (i : grid1.Coords) : (k1_off81 i) 0 = 64 * (i 0).val + 16 := table_pos _ (coord_lt i) 16 (by omega)
theorem k1_off86_zero (i : grid1.Coords) : (k1_off86 i) 0 = 64 * (i 0).val + 17 := table_pos _ (coord_lt i) 17 (by omega)
theorem k1_off91_zero (i : grid1.Coords) : (k1_off91 i) 0 = 64 * (i 0).val + 18 := table_pos _ (coord_lt i) 18 (by omega)
theorem k1_off96_zero (i : grid1.Coords) : (k1_off96 i) 0 = 64 * (i 0).val + 19 := table_pos _ (coord_lt i) 19 (by omega)
theorem k1_off101_zero (i : grid1.Coords) : (k1_off101 i) 0 = 64 * (i 0).val + 20 := table_pos _ (coord_lt i) 20 (by omega)
theorem k1_off106_zero (i : grid1.Coords) : (k1_off106 i) 0 = 64 * (i 0).val + 21 := table_pos _ (coord_lt i) 21 (by omega)
theorem k1_off111_zero (i : grid1.Coords) : (k1_off111 i) 0 = 64 * (i 0).val + 22 := table_pos _ (coord_lt i) 22 (by omega)
theorem k1_off116_zero (i : grid1.Coords) : (k1_off116 i) 0 = 64 * (i 0).val + 23 := table_pos _ (coord_lt i) 23 (by omega)
theorem k1_off121_zero (i : grid1.Coords) : (k1_off121 i) 0 = 64 * (i 0).val + 24 := table_pos _ (coord_lt i) 24 (by omega)
theorem k1_off126_zero (i : grid1.Coords) : (k1_off126 i) 0 = 64 * (i 0).val + 25 := table_pos _ (coord_lt i) 25 (by omega)
theorem k1_off131_zero (i : grid1.Coords) : (k1_off131 i) 0 = 64 * (i 0).val + 26 := table_pos _ (coord_lt i) 26 (by omega)
theorem k1_off136_zero (i : grid1.Coords) : (k1_off136 i) 0 = 64 * (i 0).val + 27 := table_pos _ (coord_lt i) 27 (by omega)
theorem k1_off141_zero (i : grid1.Coords) : (k1_off141 i) 0 = 64 * (i 0).val + 28 := table_pos _ (coord_lt i) 28 (by omega)
theorem k1_off146_zero (i : grid1.Coords) : (k1_off146 i) 0 = 64 * (i 0).val + 29 := table_pos _ (coord_lt i) 29 (by omega)
theorem k1_off151_zero (i : grid1.Coords) : (k1_off151 i) 0 = 64 * (i 0).val + 30 := table_pos _ (coord_lt i) 30 (by omega)
theorem k1_off156_zero (i : grid1.Coords) : (k1_off156 i) 0 = 64 * (i 0).val + 31 := table_pos _ (coord_lt i) 31 (by omega)
theorem k1_off161_zero (i : grid1.Coords) : (k1_off161 i) 0 = 64 * (i 0).val + 32 := table_pos _ (coord_lt i) 32 (by omega)
theorem k1_off166_zero (i : grid1.Coords) : (k1_off166 i) 0 = 64 * (i 0).val + 33 := table_pos _ (coord_lt i) 33 (by omega)
theorem k1_off171_zero (i : grid1.Coords) : (k1_off171 i) 0 = 64 * (i 0).val + 34 := table_pos _ (coord_lt i) 34 (by omega)
theorem k1_off176_zero (i : grid1.Coords) : (k1_off176 i) 0 = 64 * (i 0).val + 35 := table_pos _ (coord_lt i) 35 (by omega)
theorem k1_off181_zero (i : grid1.Coords) : (k1_off181 i) 0 = 64 * (i 0).val + 36 := table_pos _ (coord_lt i) 36 (by omega)
theorem k1_off186_zero (i : grid1.Coords) : (k1_off186 i) 0 = 64 * (i 0).val + 37 := table_pos _ (coord_lt i) 37 (by omega)
theorem k1_off191_zero (i : grid1.Coords) : (k1_off191 i) 0 = 64 * (i 0).val + 38 := table_pos _ (coord_lt i) 38 (by omega)
theorem k1_off196_zero (i : grid1.Coords) : (k1_off196 i) 0 = 64 * (i 0).val + 39 := table_pos _ (coord_lt i) 39 (by omega)
theorem k1_off201_zero (i : grid1.Coords) : (k1_off201 i) 0 = 64 * (i 0).val + 40 := table_pos _ (coord_lt i) 40 (by omega)
theorem k1_off206_zero (i : grid1.Coords) : (k1_off206 i) 0 = 64 * (i 0).val + 41 := table_pos _ (coord_lt i) 41 (by omega)
theorem k1_off211_zero (i : grid1.Coords) : (k1_off211 i) 0 = 64 * (i 0).val + 42 := table_pos _ (coord_lt i) 42 (by omega)
theorem k1_off216_zero (i : grid1.Coords) : (k1_off216 i) 0 = 64 * (i 0).val + 43 := table_pos _ (coord_lt i) 43 (by omega)
theorem k1_off221_zero (i : grid1.Coords) : (k1_off221 i) 0 = 64 * (i 0).val + 44 := table_pos _ (coord_lt i) 44 (by omega)
theorem k1_off226_zero (i : grid1.Coords) : (k1_off226 i) 0 = 64 * (i 0).val + 45 := table_pos _ (coord_lt i) 45 (by omega)
theorem k1_off231_zero (i : grid1.Coords) : (k1_off231 i) 0 = 64 * (i 0).val + 46 := table_pos _ (coord_lt i) 46 (by omega)
theorem k1_off236_zero (i : grid1.Coords) : (k1_off236 i) 0 = 64 * (i 0).val + 47 := table_pos _ (coord_lt i) 47 (by omega)
theorem k1_off241_zero (i : grid1.Coords) : (k1_off241 i) 0 = 64 * (i 0).val + 48 := table_pos _ (coord_lt i) 48 (by omega)
theorem k1_off246_zero (i : grid1.Coords) : (k1_off246 i) 0 = 64 * (i 0).val + 49 := table_pos _ (coord_lt i) 49 (by omega)
theorem k1_off251_zero (i : grid1.Coords) : (k1_off251 i) 0 = 64 * (i 0).val + 50 := table_pos _ (coord_lt i) 50 (by omega)
theorem k1_off256_zero (i : grid1.Coords) : (k1_off256 i) 0 = 64 * (i 0).val + 51 := table_pos _ (coord_lt i) 51 (by omega)
theorem k1_off261_zero (i : grid1.Coords) : (k1_off261 i) 0 = 64 * (i 0).val + 52 := table_pos _ (coord_lt i) 52 (by omega)
theorem k1_off266_zero (i : grid1.Coords) : (k1_off266 i) 0 = 64 * (i 0).val + 53 := table_pos _ (coord_lt i) 53 (by omega)
theorem k1_off271_zero (i : grid1.Coords) : (k1_off271 i) 0 = 64 * (i 0).val + 54 := table_pos _ (coord_lt i) 54 (by omega)
theorem k1_off276_zero (i : grid1.Coords) : (k1_off276 i) 0 = 64 * (i 0).val + 55 := table_pos _ (coord_lt i) 55 (by omega)
theorem k1_off281_zero (i : grid1.Coords) : (k1_off281 i) 0 = 64 * (i 0).val + 56 := table_pos _ (coord_lt i) 56 (by omega)
theorem k1_off286_zero (i : grid1.Coords) : (k1_off286 i) 0 = 64 * (i 0).val + 57 := table_pos _ (coord_lt i) 57 (by omega)
theorem k1_off291_zero (i : grid1.Coords) : (k1_off291 i) 0 = 64 * (i 0).val + 58 := table_pos _ (coord_lt i) 58 (by omega)
theorem k1_off296_zero (i : grid1.Coords) : (k1_off296 i) 0 = 64 * (i 0).val + 59 := table_pos _ (coord_lt i) 59 (by omega)
theorem k1_off301_zero (i : grid1.Coords) : (k1_off301 i) 0 = 64 * (i 0).val + 60 := table_pos _ (coord_lt i) 60 (by omega)
theorem k1_off306_zero (i : grid1.Coords) : (k1_off306 i) 0 = 64 * (i 0).val + 61 := table_pos _ (coord_lt i) 61 (by omega)
theorem k1_off311_zero (i : grid1.Coords) : (k1_off311 i) 0 = 64 * (i 0).val + 62 := table_pos _ (coord_lt i) 62 (by omega)
theorem k1_off316_zero (i : grid1.Coords) : (k1_off316 i) 0 = 64 * (i 0).val + 63 := table_pos _ (coord_lt i) 63 (by omega)

end Cert.Kernel.Hand

end
-- ==== Proof.K.R1TileRows.lean ====
import proofs.«428817_j39556648796289_1_alg».proof.Proof.Gen.Kernel.Skeleton
import proofs.«428817_j39556648796289_1_alg».proof.Proof.K.R1Rows
import proofs.«428817_j39556648796289_1_alg».proof.Proof.K.TablesCases
import proofs.«428817_j39556648796289_1_alg».proof.Proof.Spec

/-! # The four scratch buffers of a tile, row by row

For edge `R` of the tile at grid point `i` the body reads word `64 i + R` of each table, copies the adjacency array's
row of that number into row `R` of an adjacency buffer, and stores the node table's row of that number into row `R`
of a feature buffer. Here are those 64 rows of each of the four buffers as functions of `R`, each equal to the row
the table's word names, and each buffer read at a row `r` given as a variable. The tables' words are assumed below
8192, which makes every row copy and row load in bounds. -/

set_option maxRecDepth 16384

noncomputable section

namespace Cert.Kernel.Hand

open Cert.Kernel Cert.Kernel.Gen
open Idealize.ShloMosaic
open Idealize.ShloMosaic.ValueIdx

variable {F : FTy → Type} [FloatOps F]

/-- The table position of edge `R` of the tile at point `i`. -/
def edgeOf (i : grid1.Coords) (R : Fin 64) : Fin 8192 :=
  ⟨64 * (i 0).val + R.val, by have h1 := coord_lt i; have h2 := R.isLt; omega⟩

/-- The one word a one-element load at `off` reads off the first table, and off the second. -/
abbrev wd0 (xt0 : S8192.Idx → BitVec 32) (off : Fin 1 → Nat) (inb : ∀ a, off a + S1.size a ≤ S8192.size a) : BitVec 32 :=
  (Memref.whole (sig := sig) main_v1 : Memref sig .tc .smem S8192 .i32).view.readAt (Elt F) (Rect.unit (s := S8192) off S1.size inb).toLoadRect xt0
    (Shape.Idx.first (numel1_S1.symm ▸ Nat.one_pos))
abbrev wd1 (xt1 : S8192.Idx → BitVec 32) (off : Fin 1 → Nat) (inb : ∀ a, off a + S1.size a ≤ S8192.size a) : BitVec 32 :=
  (Memref.whole (sig := sig) main_v3 : Memref sig .tc .smem S8192 .i32).view.readAt (Elt F) (Rect.unit (s := S8192) off S1.size inb).toLoadRect xt1
    (Shape.Idx.first (numel1_S1.symm ▸ Nat.one_pos))

/-- What a copy of the one-row view at `off` of the adjacency array lands. -/
abbrev adjSrc (fh0 : S8192x8192.Idx → Elt F .f32) (off : Fin 2 → Nat) (inb : ∀ a, off a + S1x8192.size a ≤ S8192x8192.size a) : S8192.Idx → Elt F .f32 :=
  (ReadAs.same (s := S8192) (e := .f32)).apply
    ((((Memref.whole (sig := sig) main_arg1 : Memref sig .tc .hbm S8192x8192 .f32).slice (Rect.unit (s := S8192x8192) off S1x8192.size inb) (fun _ => rfl)).squeeze S8192
      squeezes_S1x8192_S8192).view.read (Elt F) fh0)

/-- What a one-row load at `off` reads through a whole window of the node table at read contents `x0`. -/
abbrev xLoad (arg3 : Memref sig .tc .vmem S8192x256 .f32) (harg3 : arg3.IsWhole) (x0 : Vec F S8192x256 .f32) (off : Fin 2 → Nat)
    (inb : ∀ a, off a + S1x256.size a ≤ S8192x256.size a) : S1x256.Idx → Elt F .f32 :=
  View.readAt (Elt F) arg3.view (Rect.unit (s := S8192x256) off S1x256.size inb).toLoadRect (harg3.unread x0)

/-! ## Which of the body's functions belong to edge `R`

Per edge the body has its own printed offset functions (the table position, the two adjacency rows, the two table rows)
and its own row payloads. These tables pick them by `R`; beside each, the one fact used of it. -/

/-- The table position's offset function of edge `R`. -/
def tabOff : Fin 64 → grid1.Coords → Fin 1 → Nat
  | ⟨0, _⟩ => k1_off1
  | ⟨1, _⟩ => k1_off6
  | ⟨2, _⟩ => k1_off11
  | ⟨3, _⟩ => k1_off16
  | ⟨4, _⟩ => k1_off21
  | ⟨5, _⟩ => k1_off26
  | ⟨6, _⟩ => k1_off31
  | ⟨7, _⟩ => k1_off36
  | ⟨8, _⟩ => k1_off41
  | ⟨9, _⟩ => k1_off46
  | ⟨10, _⟩ => k1_off51
  | ⟨11, _⟩ => k1_off56
  | ⟨12, _⟩ => k1_off61
  | ⟨13, _⟩ => k1_off66
  | ⟨14, _⟩ => k1_off71
  | ⟨15, _⟩ => k1_off76
  | ⟨16, _⟩ => k1_off81
  | ⟨17, _⟩ => k1_off86
  | ⟨18, _⟩ => k1_off91
  | ⟨19, _⟩ => k1_off96
  | ⟨20, _⟩ => k1_off101
  | ⟨21, _⟩ => k1_off106
  | ⟨22, _⟩ => k1_off111
  | ⟨23, _⟩ => k1_off116
  | ⟨24, _⟩ => k1_off121
  | ⟨25, _⟩ => k1_off126
  | ⟨26, _⟩ => k1_off131
  | ⟨27, _⟩ => k1_off136
  | ⟨28, _⟩ => k1_off141
  | ⟨29, _⟩ => k1_off146
  | ⟨30, _⟩ => k1_off151
  | ⟨31, _⟩ => k1_off156
  | ⟨32, _⟩ => k1_off161
  | ⟨33, _⟩ => k1_off166
  | ⟨34, _⟩ => k1_off171
  | ⟨35, _⟩ => k1_off176
  | ⟨36, _⟩ => k1_off181
  | ⟨37, _⟩ => k1_off186
  | ⟨38, _⟩ => k1_off191
  | ⟨39, _⟩ => k1_off196
  | ⟨40, _⟩ => k1_off201
  | ⟨41, _⟩ => k1_off206
  | ⟨42, _⟩ => k1_off211
  | ⟨43, _⟩ => k1_off216
  | ⟨44, _⟩ => k1_off221
  | ⟨45, _⟩ => k1_off226
  | ⟨46, _⟩ => k1_off231
  | ⟨47, _⟩ => k1_off236
  | ⟨48, _⟩ => k1_off241
  | ⟨49, _⟩ => k1_off246
  | ⟨50, _⟩ => k1_off251
  | ⟨51, _⟩ => k1_off256
  | ⟨52, _⟩ => k1_off261
  | ⟨53, _⟩ => k1_off266
  | ⟨54, _⟩ => k1_off271
  | ⟨55, _⟩ => k1_off276
  | ⟨56, _⟩ => k1_off281
  | ⟨57, _⟩ => k1_off286
  | ⟨58, _⟩ => k1_off291
  | ⟨59, _⟩ => k1_off296
  | ⟨60, _⟩ => k1_off301
  | ⟨61, _⟩ => k1_off306
  | ⟨62, _⟩ => k1_off311
  | ⟨63, _⟩ => k1_off316
  | ⟨n + 64, h⟩ => absurd h (by omega)
theorem tabOff_zero : ∀ (R : Fin 64) (i : grid1.Coords), tabOff R i 0 = 64 * (i 0).val + R.val
  | ⟨0, _⟩, i => k1_off1_zero i
  | ⟨1, _⟩, i => k1_off6_zero i
  | ⟨2, _⟩, i => k1_off11_zero i
  | ⟨3, _⟩, i => k1_off16_zero i
  | ⟨4, _⟩, i => k1_off21_zero i
  | ⟨5, _⟩, i => k1_off26_zero i
  | ⟨6, _⟩, i => k1_off31_zero i
  | ⟨7, _⟩, i => k1_off36_zero i
  | ⟨8, _⟩, i => k1_off41_zero i
  | ⟨9, _⟩, i => k1_off46_zero i
  | ⟨10, _⟩, i => k1_off51_zero i
  | ⟨11, _⟩, i => k1_off56_zero i
  | ⟨12, _⟩, i => k1_off61_zero i
  | ⟨13, _⟩, i => k1_off66_zero i
  | ⟨14, _⟩, i => k1_off71_zero i
  | ⟨15, _⟩, i => k1_off76_zero i
  | ⟨16, _⟩, i => k1_off81_zero i
  | ⟨17, _⟩, i => k1_off86_zero i
  | ⟨18, _⟩, i => k1_off91_zero i
  | ⟨19, _⟩, i => k1_off96_zero i
  | ⟨20, _⟩, i => k1_off101_zero i
  | ⟨21, _⟩, i => k1_off106_zero i
  | ⟨22, _⟩, i => k1_off111_zero i
  | ⟨23, _⟩, i => k1_off116_zero i
  | ⟨24, _⟩, i => k1_off121_zero i
  | ⟨25, _⟩, i => k1_off126_zero i
  | ⟨26, _⟩, i => k1_off131_zero i
  | ⟨27, _⟩, i => k1_off136_zero i
  | ⟨28, _⟩, i => k1_off141_zero i
  | ⟨29, _⟩, i => k1_off146_zero i
  | ⟨30, _⟩, i => k1_off151_zero i
  | ⟨31, _⟩, i => k1_off156_zero i
  | ⟨32, _⟩, i => k1_off161_zero i
  | ⟨33, _⟩, i => k1_off166_zero i
  | ⟨34, _⟩, i => k1_off171_zero i
  | ⟨35, _⟩, i => k1_off176_zero i
  | ⟨36, _⟩, i => k1_off181_zero i
  | ⟨37, _⟩, i => k1_off186_zero i
  | ⟨38, _⟩, i => k1_off191_zero i
  | ⟨39, _⟩, i => k1_off196_zero i
  | ⟨40, _⟩, i => k1_off201_zero i
  | ⟨41, _⟩, i => k1_off206_zero i
  | ⟨42, _⟩, i => k1_off211_zero i
  | ⟨43, _⟩, i => k1_off216_zero i
  | ⟨44, _⟩, i => k1_off221_zero i
  | ⟨45, _⟩, i => k1_off226_zero i
  | ⟨46, _⟩, i => k1_off231_zero i
  | ⟨47, _⟩, i => k1_off236_zero i
  | ⟨48, _⟩, i => k1_off241_zero i
  | ⟨49, _⟩, i => k1_off246_zero i
  | ⟨50, _⟩, i => k1_off251_zero i
  | ⟨51, _⟩, i => k1_off256_zero i
  | ⟨52, _⟩, i => k1_off261_zero i
  | ⟨53, _⟩, i => k1_off266_zero i
  | ⟨54, _⟩, i => k1_off271_zero i
  | ⟨55, _⟩, i => k1_off276_zero i
  | ⟨56, _⟩, i => k1_off281_zero i
  | ⟨57, _⟩, i => k1_off286_zero i
  | ⟨58, _⟩, i => k1_off291_zero i
  | ⟨59, _⟩, i => k1_off296_zero i
  | ⟨60, _⟩, i => k1_off301_zero i
  | ⟨61, _⟩, i => k1_off306_zero i
  | ⟨62, _⟩, i => k1_off311_zero i
  | ⟨63, _⟩, i => k1_off316_zero i
  | ⟨n + 64, h⟩, _ => absurd h (by omega)
theorem tabOff_inb (R : Fin 64) (i : grid1.Coords) : ∀ a, tabOff R i a + S1.size a ≤ S8192.size a := fun a => by
  match a with
  | ⟨0, _⟩ => show tabOff R i 0 + 1 ≤ 8192; rw [tabOff_zero]; have h1 := coord_lt i; have h2 := R.isLt; omega

/-- The offset function of edge `R`'s row of the adjacency array, for the first table's word; it is `![w, 0]`. -/
def adjOff0 : Fin 64 → BitVec 32 → Fin 2 → Nat
  | ⟨0, _⟩ => k1_off2
  | ⟨1, _⟩ => k1_off7
  | ⟨2, _⟩ => k1_off12
  | ⟨3, _⟩ => k1_off17
  | ⟨4, _⟩ => k1_off22
  | ⟨5, _⟩ => k1_off27
  | ⟨6, _⟩ => k1_off32
  | ⟨7, _⟩ => k1_off37
  | ⟨8, _⟩ => k1_off42
  | ⟨9, _⟩ => k1_off47
  | ⟨10, _⟩ => k1_off52
  | ⟨11, _⟩ => k1_off57
  | ⟨12, _⟩ => k1_off62
  | ⟨13, _⟩ => k1_off67
  | ⟨14, _⟩ => k1_off72
  | ⟨15, _⟩ => k1_off77
  | ⟨16, _⟩ => k1_off82
  | ⟨17, _⟩ => k1_off87
  | ⟨18, _⟩ => k1_off92
  | ⟨19, _⟩ => k1_off97
  | ⟨20, _⟩ => k1_off102
  | ⟨21, _⟩ => k1_off107
  | ⟨22, _⟩ => k1_off112
  | ⟨23, _⟩ => k1_off117
  | ⟨24, _⟩ => k1_off122
  | ⟨25, _⟩ => k1_off127
  | ⟨26, _⟩ => k1_off132
  | ⟨27, _⟩ => k1_off137
  | ⟨28, _⟩ => k1_off142
  | ⟨29, _⟩ => k1_off147
  | ⟨30, _⟩ => k1_off152
  | ⟨31, _⟩ => k1_off157
  | ⟨32, _⟩ => k1_off162
  | ⟨33, _⟩ => k1_off167
  | ⟨34, _⟩ => k1_off172
  | ⟨35, _⟩ => k1_off177
  | ⟨36, _⟩ => k1_off182
  | ⟨37, _⟩ => k1_off187
  | ⟨38, _⟩ => k1_off192
  | ⟨39, _⟩ => k1_off197
  | ⟨40, _⟩ => k1_off202
  | ⟨41, _⟩ => k1_off207
  | ⟨42, _⟩ => k1_off212
  | ⟨43, _⟩ => k1_off217
  | ⟨44, _⟩ => k1_off222
  | ⟨45, _⟩ => k1_off227
  | ⟨46, _⟩ => k1_off232
  | ⟨47, _⟩ => k1_off237
  | ⟨48, _⟩ => k1_off242
  | ⟨49, _⟩ => k1_off247
  | ⟨50, _⟩ => k1_off252
  | ⟨51, _⟩ => k1_off257
  | ⟨52, _⟩ => k1_off262
  | ⟨53, _⟩ => k1_off267
  | ⟨54, _⟩ => k1_off272
  | ⟨55, _⟩ => k1_off277
  | ⟨56, _⟩ => k1_off282
  | ⟨57, _⟩ => k1_off287
  | ⟨58, _⟩ => k1_off292
  | ⟨59, _⟩ => k1_off297
  | ⟨60, _⟩ => k1_off302
  | ⟨61, _⟩ => k1_off307
  | ⟨62, _⟩ => k1_off312
  | ⟨63, _⟩ => k1_off317
  | ⟨n + 64, h⟩ => absurd h (by omega)
theorem adjOff0_eq : ∀ (R : Fin 64) (w : BitVec 32), adjOff0 R w = ![w.toNat, 0]
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨23, _⟩, _ => rfl
  | ⟨24, _⟩, _ => rfl
  | ⟨25, _⟩, _ => rfl
  | ⟨26, _⟩, _ => rfl
  | ⟨27, _⟩, _ => rfl
  | ⟨28, _⟩, _ => rfl
  | ⟨29, _⟩, _ => rfl
  | ⟨30, _⟩, _ => rfl
  | ⟨31, _⟩, _ => rfl
  | ⟨32, _⟩, _ => rfl
  | ⟨33, _⟩, _ => rfl
  | ⟨34, _⟩, _ => rfl
  | ⟨35, _⟩, _ => rfl
  | ⟨36, _⟩, _ => rfl
  | ⟨37, _⟩, _ => rfl
  | ⟨38, _⟩, _ => rfl
  | ⟨39, _⟩, _ => rfl
  | ⟨40, _⟩, _ => rfl
  | ⟨41, _⟩, _ => rfl
  | ⟨42, _⟩, _ => rfl
  | ⟨43, _⟩, _ => rfl
  | ⟨44, _⟩, _ => rfl
  | ⟨45, _⟩, _ => rfl
  | ⟨46, _⟩, _ => rfl
  | ⟨47, _⟩, _ => rfl
  | ⟨48, _⟩, _ => rfl
  | ⟨49, _⟩, _ => rfl
  | ⟨50, _⟩, _ => rfl
  | ⟨51, _⟩, _ => rfl
  | ⟨52, _⟩, _ => rfl
  | ⟨53, _⟩, _ => rfl
  | ⟨54, _⟩, _ => rfl
  | ⟨55, _⟩, _ => rfl
  | ⟨56, _⟩, _ => rfl
  | ⟨57, _⟩, _ => rfl
  | ⟨58, _⟩, _ => rfl
  | ⟨59, _⟩, _ => rfl
  | ⟨60, _⟩, _ => rfl
  | ⟨61, _⟩, _ => rfl
  | ⟨62, _⟩, _ => rfl
  | ⟨63, _⟩, _ => rfl
  | ⟨n + 64, h⟩, _ => absurd h (by omega)
theorem adjOff0_inb (R : Fin 64) (w : BitVec 32) (hw : w.toNat < 8192) : ∀ a, adjOff0 R w a + S1x8192.size a ≤ S8192x8192.size a := fun a => by
  rw [adjOff0_eq]
  match a with
  | ⟨0, _⟩ => show w.toNat + 1 ≤ 8192; omega
  | ⟨1, _⟩ => show 0 + 8192 ≤ 8192; omega

/-- The offset function of edge `R`'s row of the node table, for the first table's word; it is `![w, 0]`. -/
def xOff0 : Fin 64 → BitVec 32 → Fin 2 → Nat
  | ⟨0, _⟩ => k1_off4
  | ⟨1, _⟩ => k1_off9
  | ⟨2, _⟩ => k1_off14
  | ⟨3, _⟩ => k1_off19
  | ⟨4, _⟩ => k1_off24
  | ⟨5, _⟩ => k1_off29
  | ⟨6, _⟩ => k1_off34
  | ⟨7, _⟩ => k1_off39
  | ⟨8, _⟩ => k1_off44
  | ⟨9, _⟩ => k1_off49
  | ⟨10, _⟩ => k1_off54
  | ⟨11, _⟩ => k1_off59
  | ⟨12, _⟩ => k1_off64
  | ⟨13, _⟩ => k1_off69
  | ⟨14, _⟩ => k1_off74
  | ⟨15, _⟩ => k1_off79
  | ⟨16, _⟩ => k1_off84
  | ⟨17, _⟩ => k1_off89
  | ⟨18, _⟩ => k1_off94
  | ⟨19, _⟩ => k1_off99
  | ⟨20, _⟩ => k1_off104
  | ⟨21, _⟩ => k1_off109
  | ⟨22, _⟩ => k1_off114
  | ⟨23, _⟩ => k1_off119
  | ⟨24, _⟩ => k1_off124
  | ⟨25, _⟩ => k1_off129
  | ⟨26, _⟩ => k1_off134
  | ⟨27, _⟩ => k1_off139
  | ⟨28, _⟩ => k1_off144
  | ⟨29, _⟩ => k1_off149
  | ⟨30, _⟩ => k1_off154
  | ⟨31, _⟩ => k1_off159
  | ⟨32, _⟩ => k1_off164
  | ⟨33, _⟩ => k1_off169
  | ⟨34, _⟩ => k1_off174
  | ⟨35, _⟩ => k1_off179
  | ⟨36, _⟩ => k1_off184
  | ⟨37, _⟩ => k1_off189
  | ⟨38, _⟩ => k1_off194
  | ⟨39, _⟩ => k1_off199
  | ⟨40, _⟩ => k1_off204
  | ⟨41, _⟩ => k1_off209
  | ⟨42, _⟩ => k1_off214
  | ⟨43, _⟩ => k1_off219
  | ⟨44, _⟩ => k1_off224
  | ⟨45, _⟩ => k1_off229
  | ⟨46, _⟩ => k1_off234
  | ⟨47, _⟩ => k1_off239
  | ⟨48, _⟩ => k1_off244
  | ⟨49, _⟩ => k1_off249
  | ⟨50, _⟩ => k1_off254
  | ⟨51, _⟩ => k1_off259
  | ⟨52, _⟩ => k1_off264
  | ⟨53, _⟩ => k1_off269
  | ⟨54, _⟩ => k1_off274
  | ⟨55, _⟩ => k1_off279
  | ⟨56, _⟩ => k1_off284
  | ⟨57, _⟩ => k1_off289
  | ⟨58, _⟩ => k1_off294
  | ⟨59, _⟩ => k1_off299
  | ⟨60, _⟩ => k1_off304
  | ⟨61, _⟩ => k1_off309
  | ⟨62, _⟩ => k1_off314
  | ⟨63, _⟩ => k1_off319
  | ⟨n + 64, h⟩ => absurd h (by omega)
theorem xOff0_eq : ∀ (R : Fin 64) (w : BitVec 32), xOff0 R w = ![w.toNat, 0]
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨23, _⟩, _ => rfl
  | ⟨24, _⟩, _ => rfl
  | ⟨25, _⟩, _ => rfl
  | ⟨26, _⟩, _ => rfl
  | ⟨27, _⟩, _ => rfl
  | ⟨28, _⟩, _ => rfl
  | ⟨29, _⟩, _ => rfl
  | ⟨30, _⟩, _ => rfl
  | ⟨31, _⟩, _ => rfl
  | ⟨32, _⟩, _ => rfl
  | ⟨33, _⟩, _ => rfl
  | ⟨34, _⟩, _ => rfl
  | ⟨35, _⟩, _ => rfl
  | ⟨36, _⟩, _ => rfl
  | ⟨37, _⟩, _ => rfl
  | ⟨38, _⟩, _ => rfl
  | ⟨39, _⟩, _ => rfl
  | ⟨40, _⟩, _ => rfl
  | ⟨41, _⟩, _ => rfl
  | ⟨42, _⟩, _ => rfl
  | ⟨43, _⟩, _ => rfl
  | ⟨44, _⟩, _ => rfl
  | ⟨45, _⟩, _ => rfl
  | ⟨46, _⟩, _ => rfl
  | ⟨47, _⟩, _ => rfl
  | ⟨48, _⟩, _ => rfl
  | ⟨49, _⟩, _ => rfl
  | ⟨50, _⟩, _ => rfl
  | ⟨51, _⟩, _ => rfl
  | ⟨52, _⟩, _ => rfl
  | ⟨53, _⟩, _ => rfl
  | ⟨54, _⟩, _ => rfl
  | ⟨55, _⟩, _ => rfl
  | ⟨56, _⟩, _ => rfl
  | ⟨57, _⟩, _ => rfl
  | ⟨58, _⟩, _ => rfl
  | ⟨59, _⟩, _ => rfl
  | ⟨60, _⟩, _ => rfl
  | ⟨61, _⟩, _ => rfl
  | ⟨62, _⟩, _ => rfl
  | ⟨63, _⟩, _ => rfl
  | ⟨n + 64, h⟩, _ => absurd h (by omega)
theorem xOff0_inb (R : Fin 64) (w : BitVec 32) (hw : w.toNat < 8192) : ∀ a, xOff0 R w a + S1x256.size a ≤ S8192x256.size a := fun a => by
  rw [xOff0_eq]
  match a with
  | ⟨0, _⟩ => show w.toNat + 1 ≤ 8192; omega
  | ⟨1, _⟩ => show 0 + 256 ≤ 256; omega

/-- The payload of edge `R`'s row store into the first feature buffer; it is the row itself. -/
def xPay0 : Fin 64 → Vec F S1x256 .f32 → FVec F S1x256 .f32
  | ⟨0, _⟩ => fun v => k1_pay2 (F := F) v
  | ⟨1, _⟩ => fun v => k1_pay4 (F := F) v
  | ⟨2, _⟩ => fun v => k1_pay6 (F := F) v
  | ⟨3, _⟩ => fun v => k1_pay8 (F := F) v
  | ⟨4, _⟩ => fun v => k1_pay10 (F := F) v
  | ⟨5, _⟩ => fun v => k1_pay13 (F := F) (k1_pay12 (F := F) v)
  | ⟨6, _⟩ => fun v => k1_pay15 (F := F) v
  | ⟨7, _⟩ => fun v => k1_pay17 (F := F) v
  | ⟨8, _⟩ => fun v => k1_pay19 (F := F) v
  | ⟨9, _⟩ => fun v => k1_pay21 (F := F) v
  | ⟨10, _⟩ => fun v => k1_pay23 (F := F) v
  | ⟨11, _⟩ => fun v => k1_pay25 (F := F) v
  | ⟨12, _⟩ => fun v => k1_pay27 (F := F) v
  | ⟨13, _⟩ => fun v => k1_pay29 (F := F) v
  | ⟨14, _⟩ => fun v => k1_pay31 (F := F) v
  | ⟨15, _⟩ => fun v => k1_pay34 (F := F) v
  | ⟨16, _⟩ => fun v => k1_pay36 (F := F) v
  | ⟨17, _⟩ => fun v => k1_pay38 (F := F) v
  | ⟨18, _⟩ => fun v => k1_pay41 (F := F) v
  | ⟨19, _⟩ => fun v => k1_pay43 (F := F) v
  | ⟨20, _⟩ => fun v => k1_pay45 (F := F) v
  | ⟨21, _⟩ => fun v => k1_pay47 (F := F) v
  | ⟨22, _⟩ => fun v => k1_pay49 (F := F) v
  | ⟨23, _⟩ => fun v => k1_pay52 (F := F) (k1_pay51 (F := F) v)
  | ⟨24, _⟩ => fun v => k1_pay54 (F := F) v
  | ⟨25, _⟩ => fun v => k1_pay56 (F := F) v
  | ⟨26, _⟩ => fun v => k1_pay58 (F := F) v
  | ⟨27, _⟩ => fun v => k1_pay60 (F := F) v
  | ⟨28, _⟩ => fun v => k1_pay62 (F := F) v
  | ⟨29, _⟩ => fun v => k1_pay64 (F := F) v
  | ⟨30, _⟩ => fun v => k1_pay66 (F := F) v
  | ⟨31, _⟩ => fun v => k1_pay68 (F := F) v
  | ⟨32, _⟩ => fun v => k1_pay70 (F := F) v
  | ⟨33, _⟩ => fun v => k1_pay72 (F := F) v
  | ⟨34, _⟩ => fun v => k1_pay74 (F := F) v
  | ⟨35, _⟩ => fun v => k1_pay76 (F := F) v
  | ⟨36, _⟩ => fun v => k1_pay79 (F := F) v
  | ⟨37, _⟩ => fun v => k1_pay81 (F := F) v
  | ⟨38, _⟩ => fun v => k1_pay83 (F := F) v
  | ⟨39, _⟩ => fun v => k1_pay85 (F := F) v
  | ⟨40, _⟩ => fun v => k1_pay87 (F := F) v
  | ⟨41, _⟩ => fun v => k1_pay90 (F := F) (k1_pay89 (F := F) v)
  | ⟨42, _⟩ => fun v => k1_pay92 (F := F) v
  | ⟨43, _⟩ => fun v => k1_pay94 (F := F) v
  | ⟨44, _⟩ => fun v => k1_pay96 (F := F) v
  | ⟨45, _⟩ => fun v => k1_pay98 (F := F) v
  | ⟨46, _⟩ => fun v => k1_pay100 (F := F) v
  | ⟨47, _⟩ => fun v => k1_pay102 (F := F) v
  | ⟨48, _⟩ => fun v => k1_pay104 (F := F) v
  | ⟨49, _⟩ => fun v => k1_pay106 (F := F) v
  | ⟨50, _⟩ => fun v => k1_pay108 (F := F) v
  | ⟨51, _⟩ => fun v => k1_pay110 (F := F) v
  | ⟨52, _⟩ => fun v => k1_pay112 (F := F) v
  | ⟨53, _⟩ => fun v => k1_pay114 (F := F) v
  | ⟨54, _⟩ => fun v => k1_pay117 (F := F) v
  | ⟨55, _⟩ => fun v => k1_pay119 (F := F) v
  | ⟨56, _⟩ => fun v => k1_pay121 (F := F) v
  | ⟨57, _⟩ => fun v => k1_pay123 (F := F) v
  | ⟨58, _⟩ => fun v => k1_pay125 (F := F) v
  | ⟨59, _⟩ => fun v => k1_pay128 (F := F) (k1_pay127 (F := F) v)
  | ⟨60, _⟩ => fun v => k1_pay130 (F := F) v
  | ⟨61, _⟩ => fun v => k1_pay132 (F := F) v
  | ⟨62, _⟩ => fun v => k1_pay134 (F := F) v
  | ⟨63, _⟩ => fun v => k1_pay136 (F := F) v
  | ⟨n + 64, h⟩ => absurd h (by omega)
theorem xPay0_id : ∀ (R : Fin 64) (v : Vec F S1x256 .f32), xPay0 (F := F) R v = v
  | ⟨0, _⟩, v => k1_pay2_id v
  | ⟨1, _⟩, v => k1_pay4_id v
  | ⟨2, _⟩, v => k1_pay6_id v
  | ⟨3, _⟩, v => k1_pay8_id v
  | ⟨4, _⟩, v => k1_pay10_id v
  | ⟨5, _⟩, v => k1_pay13_pay12 v
  | ⟨6, _⟩, v => k1_pay15_id v
  | ⟨7, _⟩, v => k1_pay17_id v
  | ⟨8, _⟩, v => k1_pay19_id v
  | ⟨9, _⟩, v => k1_pay21_id v
  | ⟨10, _⟩, v => k1_pay23_id v
  | ⟨11, _⟩, v => k1_pay25_id v
  | ⟨12, _⟩, v => k1_pay27_id v
  | ⟨13, _⟩, v => k1_pay29_id v
  | ⟨14, _⟩, v => k1_pay31_id v
  | ⟨15, _⟩, v => k1_pay34_id v
  | ⟨16, _⟩, v => k1_pay36_id v
  | ⟨17, _⟩, v => k1_pay38_id v
  | ⟨18, _⟩, v => k1_pay41_id v
  | ⟨19, _⟩, v => k1_pay43_id v
  | ⟨20, _⟩, v => k1_pay45_id v
  | ⟨21, _⟩, v => k1_pay47_id v
  | ⟨22, _⟩, v => k1_pay49_id v
  | ⟨23, _⟩, v => k1_pay52_pay51 v
  | ⟨24, _⟩, v => k1_pay54_id v
  | ⟨25, _⟩, v => k1_pay56_id v
  | ⟨26, _⟩, v => k1_pay58_id v
  | ⟨27, _⟩, v => k1_pay60_id v
  | ⟨28, _⟩, v => k1_pay62_id v
  | ⟨29, _⟩, v => k1_pay64_id v
  | ⟨30, _⟩, v => k1_pay66_id v
  | ⟨31, _⟩, v => k1_pay68_id v
  | ⟨32, _⟩, v => k1_pay70_id v
  | ⟨33, _⟩, v => k1_pay72_id v
  | ⟨34, _⟩, v => k1_pay74_id v
  | ⟨35, _⟩, v => k1_pay76_id v
  | ⟨36, _⟩, v => k1_pay79_id v
  | ⟨37, _⟩, v => k1_pay81_id v
  | ⟨38, _⟩, v => k1_pay83_id v
  | ⟨39, _⟩, v => k1_pay85_id v
  | ⟨40, _⟩, v => k1_pay87_id v
  | ⟨41, _⟩, v => k1_pay90_pay89 v
  | ⟨42, _⟩, v => k1_pay92_id v
  | ⟨43, _⟩, v => k1_pay94_id v
  | ⟨44, _⟩, v => k1_pay96_id v
  | ⟨45, _⟩, v => k1_pay98_id v
  | ⟨46, _⟩, v => k1_pay100_id v
  | ⟨47, _⟩, v => k1_pay102_id v
  | ⟨48, _⟩, v => k1_pay104_id v
  | ⟨49, _⟩, v => k1_pay106_id v
  | ⟨50, _⟩, v => k1_pay108_id v
  | ⟨51, _⟩, v => k1_pay110_id v
  | ⟨52, _⟩, v => k1_pay112_id v
  | ⟨53, _⟩, v => k1_pay114_id v
  | ⟨54, _⟩, v => k1_pay117_id v
  | ⟨55, _⟩, v => k1_pay119_id v
  | ⟨56, _⟩, v => k1_pay121_id v
  | ⟨57, _⟩, v => k1_pay123_id v
  | ⟨58, _⟩, v => k1_pay125_id v
  | ⟨59, _⟩, v => k1_pay128_pay127 v
  | ⟨60, _⟩, v => k1_pay130_id v
  | ⟨61, _⟩, v => k1_pay132_id v
  | ⟨62, _⟩, v => k1_pay134_id v
  | ⟨63, _⟩, v => k1_pay136_id v
  | ⟨n + 64, h⟩, _ => absurd h (by omega)

/-- The offset function of edge `R`'s row of the adjacency array, for the second table's word; it is `![w, 0]`. -/
def adjOff1 : Fin 64 → BitVec 32 → Fin 2 → Nat
  | ⟨0, _⟩ => k1_off3
  | ⟨1, _⟩ => k1_off8
  | ⟨2, _⟩ => k1_off13
  | ⟨3, _⟩ => k1_off18
  | ⟨4, _⟩ => k1_off23
  | ⟨5, _⟩ => k1_off28
  | ⟨6, _⟩ => k1_off33
  | ⟨7, _⟩ => k1_off38
  | ⟨8, _⟩ => k1_off43
  | ⟨9, _⟩ => k1_off48
  | ⟨10, _⟩ => k1_off53
  | ⟨11, _⟩ => k1_off58
  | ⟨12, _⟩ => k1_off63
  | ⟨13, _⟩ => k1_off68
  | ⟨14, _⟩ => k1_off73
  | ⟨15, _⟩ => k1_off78
  | ⟨16, _⟩ => k1_off83
  | ⟨17, _⟩ => k1_off88
  | ⟨18, _⟩ => k1_off93
  | ⟨19, _⟩ => k1_off98
  | ⟨20, _⟩ => k1_off103
  | ⟨21, _⟩ => k1_off108
  | ⟨22, _⟩ => k1_off113
  | ⟨23, _⟩ => k1_off118
  | ⟨24, _⟩ => k1_off123
  | ⟨25, _⟩ => k1_off128
  | ⟨26, _⟩ => k1_off133
  | ⟨27, _⟩ => k1_off138
  | ⟨28, _⟩ => k1_off143
  | ⟨29, _⟩ => k1_off148
  | ⟨30, _⟩ => k1_off153
  | ⟨31, _⟩ => k1_off158
  | ⟨32, _⟩ => k1_off163
  | ⟨33, _⟩ => k1_off168
  | ⟨34, _⟩ => k1_off173
  | ⟨35, _⟩ => k1_off178
  | ⟨36, _⟩ => k1_off183
  | ⟨37, _⟩ => k1_off188
  | ⟨38, _⟩ => k1_off193
  | ⟨39, _⟩ => k1_off198
  | ⟨40, _⟩ => k1_off203
  | ⟨41, _⟩ => k1_off208
  | ⟨42, _⟩ => k1_off213
  | ⟨43, _⟩ => k1_off218
  | ⟨44, _⟩ => k1_off223
  | ⟨45, _⟩ => k1_off228
  | ⟨46, _⟩ => k1_off233
  | ⟨47, _⟩ => k1_off238
  | ⟨48, _⟩ => k1_off243
  | ⟨49, _⟩ => k1_off248
  | ⟨50, _⟩ => k1_off253
  | ⟨51, _⟩ => k1_off258
  | ⟨52, _⟩ => k1_off263
  | ⟨53, _⟩ => k1_off268
  | ⟨54, _⟩ => k1_off273
  | ⟨55, _⟩ => k1_off278
  | ⟨56, _⟩ => k1_off283
  | ⟨57, _⟩ => k1_off288
  | ⟨58, _⟩ => k1_off293
  | ⟨59, _⟩ => k1_off298
  | ⟨60, _⟩ => k1_off303
  | ⟨61, _⟩ => k1_off308
  | ⟨62, _⟩ => k1_off313
  | ⟨63, _⟩ => k1_off318
  | ⟨n + 64, h⟩ => absurd h (by omega)
theorem adjOff1_eq : ∀ (R : Fin 64) (w : BitVec 32), adjOff1 R w = ![w.toNat, 0]
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨23, _⟩, _ => rfl
  | ⟨24, _⟩, _ => rfl
  | ⟨25, _⟩, _ => rfl
  | ⟨26, _⟩, _ => rfl
  | ⟨27, _⟩, _ => rfl
  | ⟨28, _⟩, _ => rfl
  | ⟨29, _⟩, _ => rfl
  | ⟨30, _⟩, _ => rfl
  | ⟨31, _⟩, _ => rfl
  | ⟨32, _⟩, _ => rfl
  | ⟨33, _⟩, _ => rfl
  | ⟨34, _⟩, _ => rfl
  | ⟨35, _⟩, _ => rfl
  | ⟨36, _⟩, _ => rfl
  | ⟨37, _⟩, _ => rfl
  | ⟨38, _⟩, _ => rfl
  | ⟨39, _⟩, _ => rfl
  | ⟨40, _⟩, _ => rfl
  | ⟨41, _⟩, _ => rfl
  | ⟨42, _⟩, _ => rfl
  | ⟨43, _⟩, _ => rfl
  | ⟨44, _⟩, _ => rfl
  | ⟨45, _⟩, _ => rfl
  | ⟨46, _⟩, _ => rfl
  | ⟨47, _⟩, _ => rfl
  | ⟨48, _⟩, _ => rfl
  | ⟨49, _⟩, _ => rfl
  | ⟨50, _⟩, _ => rfl
  | ⟨51, _⟩, _ => rfl
  | ⟨52, _⟩, _ => rfl
  | ⟨53, _⟩, _ => rfl
  | ⟨54, _⟩, _ => rfl
  | ⟨55, _⟩, _ => rfl
  | ⟨56, _⟩, _ => rfl
  | ⟨57, _⟩, _ => rfl
  | ⟨58, _⟩, _ => rfl
  | ⟨59, _⟩, _ => rfl
  | ⟨60, _⟩, _ => rfl
  | ⟨61, _⟩, _ => rfl
  | ⟨62, _⟩, _ => rfl
  | ⟨63, _⟩, _ => rfl
  | ⟨n + 64, h⟩, _ => absurd h (by omega)
theorem adjOff1_inb (R : Fin 64) (w : BitVec 32) (hw : w.toNat < 8192) : ∀ a, adjOff1 R w a + S1x8192.size a ≤ S8192x8192.size a := fun a => by
  rw [adjOff1_eq]
  match a with
  | ⟨0, _⟩ => show w.toNat + 1 ≤ 8192; omega
  | ⟨1, _⟩ => show 0 + 8192 ≤ 8192; omega

/-- The offset function of edge `R`'s row of the node table, for the second table's word; it is `![w, 0]`. -/
def xOff1 : Fin 64 → BitVec 32 → Fin 2 → Nat
  | ⟨0, _⟩ => k1_off5
  | ⟨1, _⟩ => k1_off10
  | ⟨2, _⟩ => k1_off15
  | ⟨3, _⟩ => k1_off20
  | ⟨4, _⟩ => k1_off25
  | ⟨5, _⟩ => k1_off30
  | ⟨6, _⟩ => k1_off35
  | ⟨7, _⟩ => k1_off40
  | ⟨8, _⟩ => k1_off45
  | ⟨9, _⟩ => k1_off50
  | ⟨10, _⟩ => k1_off55
  | ⟨11, _⟩ => k1_off60
  | ⟨12, _⟩ => k1_off65
  | ⟨13, _⟩ => k1_off70
  | ⟨14, _⟩ => k1_off75
  | ⟨15, _⟩ => k1_off80
  | ⟨16, _⟩ => k1_off85
  | ⟨17, _⟩ => k1_off90
  | ⟨18, _⟩ => k1_off95
  | ⟨19, _⟩ => k1_off100
  | ⟨20, _⟩ => k1_off105
  | ⟨21, _⟩ => k1_off110
  | ⟨22, _⟩ => k1_off115
  | ⟨23, _⟩ => k1_off120
  | ⟨24, _⟩ => k1_off125
  | ⟨25, _⟩ => k1_off130
  | ⟨26, _⟩ => k1_off135
  | ⟨27, _⟩ => k1_off140
  | ⟨28, _⟩ => k1_off145
  | ⟨29, _⟩ => k1_off150
  | ⟨30, _⟩ => k1_off155
  | ⟨31, _⟩ => k1_off160
  | ⟨32, _⟩ => k1_off165
  | ⟨33, _⟩ => k1_off170
  | ⟨34, _⟩ => k1_off175
  | ⟨35, _⟩ => k1_off180
  | ⟨36, _⟩ => k1_off185
  | ⟨37, _⟩ => k1_off190
  | ⟨38, _⟩ => k1_off195
  | ⟨39, _⟩ => k1_off200
  | ⟨40, _⟩ => k1_off205
  | ⟨41, _⟩ => k1_off210
  | ⟨42, _⟩ => k1_off215
  | ⟨43, _⟩ => k1_off220
  | ⟨44, _⟩ => k1_off225
  | ⟨45, _⟩ => k1_off230
  | ⟨46, _⟩ => k1_off235
  | ⟨47, _⟩ => k1_off240
  | ⟨48, _⟩ => k1_off245
  | ⟨49, _⟩ => k1_off250
  | ⟨50, _⟩ => k1_off255
  | ⟨51, _⟩ => k1_off260
  | ⟨52, _⟩ => k1_off265
  | ⟨53, _⟩ => k1_off270
  | ⟨54, _⟩ => k1_off275
  | ⟨55, _⟩ => k1_off280
  | ⟨56, _⟩ => k1_off285
  | ⟨57, _⟩ => k1_off290
  | ⟨58, _⟩ => k1_off295
  | ⟨59, _⟩ => k1_off300
  | ⟨60, _⟩ => k1_off305
  | ⟨61, _⟩ => k1_off310
  | ⟨62, _⟩ => k1_off315
  | ⟨63, _⟩ => k1_off320
  | ⟨n + 64, h⟩ => absurd h (by omega)
theorem xOff1_eq : ∀ (R : Fin 64) (w : BitVec 32), xOff1 R w = ![w.toNat, 0]
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨23, _⟩, _ => rfl
  | ⟨24, _⟩, _ => rfl
  | ⟨25, _⟩, _ => rfl
  | ⟨26, _⟩, _ => rfl
  | ⟨27, _⟩, _ => rfl
  | ⟨28, _⟩, _ => rfl
  | ⟨29, _⟩, _ => rfl
  | ⟨30, _⟩, _ => rfl
  | ⟨31, _⟩, _ => rfl
  | ⟨32, _⟩, _ => rfl
  | ⟨33, _⟩, _ => rfl
  | ⟨34, _⟩, _ => rfl
  | ⟨35, _⟩, _ => rfl
  | ⟨36, _⟩, _ => rfl
  | ⟨37, _⟩, _ => rfl
  | ⟨38, _⟩, _ => rfl
  | ⟨39, _⟩, _ => rfl
  | ⟨40, _⟩, _ => rfl
  | ⟨41, _⟩, _ => rfl
  | ⟨42, _⟩, _ => rfl
  | ⟨43, _⟩, _ => rfl
  | ⟨44, _⟩, _ => rfl
  | ⟨45, _⟩, _ => rfl
  | ⟨46, _⟩, _ => rfl
  | ⟨47, _⟩, _ => rfl
  | ⟨48, _⟩, _ => rfl
  | ⟨49, _⟩, _ => rfl
  | ⟨50, _⟩, _ => rfl
  | ⟨51, _⟩, _ => rfl
  | ⟨52, _⟩, _ => rfl
  | ⟨53, _⟩, _ => rfl
  | ⟨54, _⟩, _ => rfl
  | ⟨55, _⟩, _ => rfl
  | ⟨56, _⟩, _ => rfl
  | ⟨57, _⟩, _ => rfl
  | ⟨58, _⟩, _ => rfl
  | ⟨59, _⟩, _ => rfl
  | ⟨60, _⟩, _ => rfl
  | ⟨61, _⟩, _ => rfl
  | ⟨62, _⟩, _ => rfl
  | ⟨63, _⟩, _ => rfl
  | ⟨n + 64, h⟩, _ => absurd h (by omega)
theorem xOff1_inb (R : Fin 64) (w : BitVec 32) (hw : w.toNat < 8192) : ∀ a, xOff1 R w a + S1x256.size a ≤ S8192x256.size a := fun a => by
  rw [xOff1_eq]
  match a with
  | ⟨0, _⟩ => show w.toNat + 1 ≤ 8192; omega
  | ⟨1, _⟩ => show 0 + 256 ≤ 256; omega

/-- The payload of edge `R`'s row store into the second feature buffer; it is the row itself. -/
def xPay1 : Fin 64 → Vec F S1x256 .f32 → FVec F S1x256 .f32
  | ⟨0, _⟩ => fun v => k1_pay3 (F := F) v
  | ⟨1, _⟩ => fun v => k1_pay5 (F := F) v
  | ⟨2, _⟩ => fun v => k1_pay7 (F := F) v
  | ⟨3, _⟩ => fun v => k1_pay9 (F := F) v
  | ⟨4, _⟩ => fun v => k1_pay11 (F := F) v
  | ⟨5, _⟩ => fun v => k1_pay14 (F := F) v
  | ⟨6, _⟩ => fun v => k1_pay16 (F := F) v
  | ⟨7, _⟩ => fun v => k1_pay18 (F := F) v
  | ⟨8, _⟩ => fun v => k1_pay20 (F := F) v
  | ⟨9, _⟩ => fun v => k1_pay22 (F := F) v
  | ⟨10, _⟩ => fun v => k1_pay24 (F := F) v
  | ⟨11, _⟩ => fun v => k1_pay26 (F := F) v
  | ⟨12, _⟩ => fun v => k1_pay28 (F := F) v
  | ⟨13, _⟩ => fun v => k1_pay30 (F := F) v
  | ⟨14, _⟩ => fun v => k1_pay33 (F := F) (k1_pay32 (F := F) v)
  | ⟨15, _⟩ => fun v => k1_pay35 (F := F) v
  | ⟨16, _⟩ => fun v => k1_pay37 (F := F) v
  | ⟨17, _⟩ => fun v => k1_pay40 (F := F) (k1_pay39 (F := F) v)
  | ⟨18, _⟩ => fun v => k1_pay42 (F := F) v
  | ⟨19, _⟩ => fun v => k1_pay44 (F := F) v
  | ⟨20, _⟩ => fun v => k1_pay46 (F := F) v
  | ⟨21, _⟩ => fun v => k1_pay48 (F := F) v
  | ⟨22, _⟩ => fun v => k1_pay50 (F := F) v
  | ⟨23, _⟩ => fun v => k1_pay53 (F := F) v
  | ⟨24, _⟩ => fun v => k1_pay55 (F := F) v
  | ⟨25, _⟩ => fun v => k1_pay57 (F := F) v
  | ⟨26, _⟩ => fun v => k1_pay59 (F := F) v
  | ⟨27, _⟩ => fun v => k1_pay61 (F := F) v
  | ⟨28, _⟩ => fun v => k1_pay63 (F := F) v
  | ⟨29, _⟩ => fun v => k1_pay65 (F := F) v
  | ⟨30, _⟩ => fun v => k1_pay67 (F := F) v
  | ⟨31, _⟩ => fun v => k1_pay69 (F := F) v
  | ⟨32, _⟩ => fun v => k1_pay71 (F := F) v
  | ⟨33, _⟩ => fun v => k1_pay73 (F := F) v
  | ⟨34, _⟩ => fun v => k1_pay75 (F := F) v
  | ⟨35, _⟩ => fun v => k1_pay78 (F := F) (k1_pay77 (F := F) v)
  | ⟨36, _⟩ => fun v => k1_pay80 (F := F) v
  | ⟨37, _⟩ => fun v => k1_pay82 (F := F) v
  | ⟨38, _⟩ => fun v => k1_pay84 (F := F) v
  | ⟨39, _⟩ => fun v => k1_pay86 (F := F) v
  | ⟨40, _⟩ => fun v => k1_pay88 (F := F) v
  | ⟨41, _⟩ => fun v => k1_pay91 (F := F) v
  | ⟨42, _⟩ => fun v => k1_pay93 (F := F) v
  | ⟨43, _⟩ => fun v => k1_pay95 (F := F) v
  | ⟨44, _⟩ => fun v => k1_pay97 (F := F) v
  | ⟨45, _⟩ => fun v => k1_pay99 (F := F) v
  | ⟨46, _⟩ => fun v => k1_pay101 (F := F) v
  | ⟨47, _⟩ => fun v => k1_pay103 (F := F) v
  | ⟨48, _⟩ => fun v => k1_pay105 (F := F) v
  | ⟨49, _⟩ => fun v => k1_pay107 (F := F) v
  | ⟨50, _⟩ => fun v => k1_pay109 (F := F) v
  | ⟨51, _⟩ => fun v => k1_pay111 (F := F) v
  | ⟨52, _⟩ => fun v => k1_pay113 (F := F) v
  | ⟨53, _⟩ => fun v => k1_pay116 (F := F) (k1_pay115 (F := F) v)
  | ⟨54, _⟩ => fun v => k1_pay118 (F := F) v
  | ⟨55, _⟩ => fun v => k1_pay120 (F := F) v
  | ⟨56, _⟩ => fun v => k1_pay122 (F := F) v
  | ⟨57, _⟩ => fun v => k1_pay124 (F := F) v
  | ⟨58, _⟩ => fun v => k1_pay126 (F := F) v
  | ⟨59, _⟩ => fun v => k1_pay129 (F := F) v
  | ⟨60, _⟩ => fun v => k1_pay131 (F := F) v
  | ⟨61, _⟩ => fun v => k1_pay133 (F := F) v
  | ⟨62, _⟩ => fun v => k1_pay135 (F := F) v
  | ⟨63, _⟩ => fun v => k1_pay137 (F := F) v
  | ⟨n + 64, h⟩ => absurd h (by omega)
theorem xPay1_id : ∀ (R : Fin 64) (v : Vec F S1x256 .f32), xPay1 (F := F) R v = v
  | ⟨0, _⟩, v => k1_pay3_id v
  | ⟨1, _⟩, v => k1_pay5_id v
  | ⟨2, _⟩, v => k1_pay7_id v
  | ⟨3, _⟩, v => k1_pay9_id v
  | ⟨4, _⟩, v => k1_pay11_id v
  | ⟨5, _⟩, v => k1_pay14_id v
  | ⟨6, _⟩, v => k1_pay16_id v
  | ⟨7, _⟩, v => k1_pay18_id v
  | ⟨8, _⟩, v => k1_pay20_id v
  | ⟨9, _⟩, v => k1_pay22_id v
  | ⟨10, _⟩, v => k1_pay24_id v
  | ⟨11, _⟩, v => k1_pay26_id v
  | ⟨12, _⟩, v => k1_pay28_id v
  | ⟨13, _⟩, v => k1_pay30_id v
  | ⟨14, _⟩, v => k1_pay33_pay32 v
  | ⟨15, _⟩, v => k1_pay35_id v
  | ⟨16, _⟩, v => k1_pay37_id v
  | ⟨17, _⟩, v => k1_pay40_pay39 v
  | ⟨18, _⟩, v => k1_pay42_id v
  | ⟨19, _⟩, v => k1_pay44_id v
  | ⟨20, _⟩, v => k1_pay46_id v
  | ⟨21, _⟩, v => k1_pay48_id v
  | ⟨22, _⟩, v => k1_pay50_id v
  | ⟨23, _⟩, v => k1_pay53_id v
  | ⟨24, _⟩, v => k1_pay55_id v
  | ⟨25, _⟩, v => k1_pay57_id v
  | ⟨26, _⟩, v => k1_pay59_id v
  | ⟨27, _⟩, v => k1_pay61_id v
  | ⟨28, _⟩, v => k1_pay63_id v
  | ⟨29, _⟩, v => k1_pay65_id v
  | ⟨30, _⟩, v => k1_pay67_id v
  | ⟨31, _⟩, v => k1_pay69_id v
  | ⟨32, _⟩, v => k1_pay71_id v
  | ⟨33, _⟩, v => k1_pay73_id v
  | ⟨34, _⟩, v => k1_pay75_id v
  | ⟨35, _⟩, v => k1_pay78_pay77 v
  | ⟨36, _⟩, v => k1_pay80_id v
  | ⟨37, _⟩, v => k1_pay82_id v
  | ⟨38, _⟩, v => k1_pay84_id v
  | ⟨39, _⟩, v => k1_pay86_id v
  | ⟨40, _⟩, v => k1_pay88_id v
  | ⟨41, _⟩, v => k1_pay91_id v
  | ⟨42, _⟩, v => k1_pay93_id v
  | ⟨43, _⟩, v => k1_pay95_id v
  | ⟨44, _⟩, v => k1_pay97_id v
  | ⟨45, _⟩, v => k1_pay99_id v
  | ⟨46, _⟩, v => k1_pay101_id v
  | ⟨47, _⟩, v => k1_pay103_id v
  | ⟨48, _⟩, v => k1_pay105_id v
  | ⟨49, _⟩, v => k1_pay107_id v
  | ⟨50, _⟩, v => k1_pay109_id v
  | ⟨51, _⟩, v => k1_pay111_id v
  | ⟨52, _⟩, v => k1_pay113_id v
  | ⟨53, _⟩, v => k1_pay116_pay115 v
  | ⟨54, _⟩, v => k1_pay118_id v
  | ⟨55, _⟩, v => k1_pay120_id v
  | ⟨56, _⟩, v => k1_pay122_id v
  | ⟨57, _⟩, v => k1_pay124_id v
  | ⟨58, _⟩, v => k1_pay126_id v
  | ⟨59, _⟩, v => k1_pay129_id v
  | ⟨60, _⟩, v => k1_pay131_id v
  | ⟨61, _⟩, v => k1_pay133_id v
  | ⟨62, _⟩, v => k1_pay135_id v
  | ⟨63, _⟩, v => k1_pay137_id v
  | ⟨n + 64, h⟩, _ => absurd h (by omega)

/-! ## The first table's rows -/

/-- The word the body reads off the first table for edge `R` at point `i`; it is the table's word `64 i + R`. -/
def wordOf0 (i : grid1.Coords) (xt0 : S8192.Idx → BitVec 32) (R : Fin 64) : BitVec 32 :=
  wd0 (F := F) xt0 (tabOff R i) (tabOff_inb R i)
theorem wordOf0_eq (i : grid1.Coords) (xt0 : S8192.Idx → BitVec 32) (R : Fin 64) :
    wordOf0 (F := F) i xt0 R = xt0 (ValueIdx.ix1 (edgeOf i R)) := by
  unfold wordOf0
  exact tableWord_v1 (Val := Elt F) xt0 (tabOff R i) (edgeOf i R) (tabOff_zero R i) _ _

/-- What lands in row `R` of the first adjacency buffer: the adjacency array's row the word names, as the copy reads it. -/
def aiVals (i : grid1.Coords) (xt0 : S8192.Idx → BitVec 32) (hx0 : ∀ e : S8192.Idx, (xt0 e).toNat < 8192)
    (fh0 : S8192x8192.Idx → Elt F .f32) (R : Fin 64) : S8192.Idx → Elt F .f32 :=
  adjSrc fh0 (adjOff0 R (wordOf0 (F := F) i xt0 R)) (adjOff0_inb R _ (hx0 _))

theorem aiVals_eq (i : grid1.Coords) (xt0 : S8192.Idx → BitVec 32) (hx0 : ∀ e : S8192.Idx, (xt0 e).toNat < 8192)
    (fh0 : S8192x8192.Idx → Elt F .f32) (R : Fin 64) (k : Fin 8192) :
    aiVals i xt0 hx0 fh0 R (ValueIdx.ix1 k) = fh0 (ix2 (Cert.Spec.rowIx (xt0 (ValueIdx.ix1 (edgeOf i R)))) k) :=
  (landedRow_eq fh0 (wordOf0 (F := F) i xt0 R) (hx0 _) (adjOff0 R (wordOf0 (F := F) i xt0 R)) (adjOff0_eq R _) _ _ k).trans
    (congrArg (fun w => fh0 (ix2 (Cert.Spec.rowIx w) k)) (wordOf0_eq (F := F) i xt0 R))

/-- The first adjacency buffer after its rows landed, at a row `r`. -/
theorem aiBuf_read (M : Memref sig .tc .vmem S64x8192 .f32) (base : M.view.ty.Contents (Elt F)) (order : List (Fin 64)) (hnd : order.Nodup)
    (i : grid1.Coords) (xt0 : S8192.Idx → BitVec 32) (hx0 : ∀ e : S8192.Idx, (xt0 e).toNat < 8192) (fh0 : S8192x8192.Idx → Elt F .f32)
    (r : Fin 64) (hr : r ∈ order) (k : Fin 8192) :
    M.view.read (Elt F) (landRows M base (order.map fun R => (R, aiVals i xt0 hx0 fh0 R))) (ix2 r k)
      = fh0 (ix2 (Cert.Spec.rowIx (xt0 (ValueIdx.ix1 (edgeOf i r)))) k) :=
  (read_landRows_map M base order hnd _ r hr k).trans (aiVals_eq i xt0 hx0 fh0 r k)

/-- What the body stores in row `R` of the first feature buffer: the node table's row the word names, cast to a vector and back. -/
def xiPay (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32) (R : Fin 64) : S1x256.Idx → Elt F .f32 :=
  xPay0 (F := F) R (xLoad arg3 harg3 x0 (xOff0 R (wordOf0 (F := F) i xt0 R)) (xOff0_inb R _ (hx0 _)))

theorem xiPay_eq (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32) (R : Fin 64) (k : Fin 256) :
    xiPay i xt0 hx0 arg3 harg3 x0 R (ix2 (0 : Fin 1) k) = x0 (ix2 (Cert.Spec.rowIx (xt0 (ValueIdx.ix1 (edgeOf i R)))) k) :=
  (congrFun (xPay0_id (F := F) R _) (ix2 (0 : Fin 1) k)).trans
    ((xRowAt_eq arg3 harg3 x0 (wordOf0 (F := F) i xt0 R) (hx0 _) (xOff0 R (wordOf0 (F := F) i xt0 R)) (xOff0_eq R _) _ k).trans
      (congrArg (fun w => x0 (ix2 (Cert.Spec.rowIx w) k)) (wordOf0_eq (F := F) i xt0 R)))

/-- The first feature buffer after its row stores, at a row `r`. -/
theorem xiBuf_read (v : View sig .tc .vmem S64x256 .f32) (f : v.ty.Contents (Elt F)) (order : List (Fin 64))
    (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32)
    (r : Fin 64) (hr : r ∈ order) (k : Fin 256) :
    v.read (Elt F) (v.writes (Elt F) f (order.map fun R => (⟨rowRect R, xiPay i xt0 hx0 arg3 harg3 x0 R⟩ : View.Piece (Elt F) S64x256 .f32))) (ix2 r k)
      = x0 (ix2 (Cert.Spec.rowIx (xt0 (ValueIdx.ix1 (edgeOf i r)))) k) :=
  (read_rowPieces_map v f order _ r hr k).trans (xiPay_eq i xt0 hx0 arg3 harg3 x0 r k)

/-! ## The second table's rows -/

/-- The word the body reads off the second table for edge `R` at point `i`; it is the table's word `64 i + R`. -/
def wordOf1 (i : grid1.Coords) (xt1 : S8192.Idx → BitVec 32) (R : Fin 64) : BitVec 32 :=
  wd1 (F := F) xt1 (tabOff R i) (tabOff_inb R i)
theorem wordOf1_eq (i : grid1.Coords) (xt1 : S8192.Idx → BitVec 32) (R : Fin 64) :
    wordOf1 (F := F) i xt1 R = xt1 (ValueIdx.ix1 (edgeOf i R)) := by
  unfold wordOf1
  exact tableWord_v3 (Val := Elt F) xt1 (tabOff R i) (edgeOf i R) (tabOff_zero R i) _ _

/-- What lands in row `R` of the second adjacency buffer: the adjacency array's row the word names, as the copy reads it. -/
def ajVals (i : grid1.Coords) (xt1 : S8192.Idx → BitVec 32) (hx1 : ∀ e : S8192.Idx, (xt1 e).toNat < 8192)
    (fh0 : S8192x8192.Idx → Elt F .f32) (R : Fin 64) : S8192.Idx → Elt F .f32 :=
  adjSrc fh0 (adjOff1 R (wordOf1 (F := F) i xt1 R)) (adjOff1_inb R _ (hx1 _))

theorem ajVals_eq (i : grid1.Coords) (xt1 : S8192.Idx → BitVec 32) (hx1 : ∀ e : S8192.Idx, (xt1 e).toNat < 8192)
    (fh0 : S8192x8192.Idx → Elt F .f32) (R : Fin 64) (k : Fin 8192) :
    ajVals i xt1 hx1 fh0 R (ValueIdx.ix1 k) = fh0 (ix2 (Cert.Spec.rowIx (xt1 (ValueIdx.ix1 (edgeOf i R)))) k) :=
  (landedRow_eq fh0 (wordOf1 (F := F) i xt1 R) (hx1 _) (adjOff1 R (wordOf1 (F := F) i xt1 R)) (adjOff1_eq R _) _ _ k).trans
    (congrArg (fun w => fh0 (ix2 (Cert.Spec.rowIx w) k)) (wordOf1_eq (F := F) i xt1 R))

/-- The second adjacency buffer after its rows landed, at a row `r`. -/
theorem ajBuf_read (M : Memref sig .tc .vmem S64x8192 .f32) (base : M.view.ty.Contents (Elt F)) (order : List (Fin 64)) (hnd : order.Nodup)
    (i : grid1.Coords) (xt1 : S8192.Idx → BitVec 32) (hx1 : ∀ e : S8192.Idx, (xt1 e).toNat < 8192) (fh0 : S8192x8192.Idx → Elt F .f32)
    (r : Fin 64) (hr : r ∈ order) (k : Fin 8192) :
    M.view.read (Elt F) (landRows M base (order.map fun R => (R, ajVals i xt1 hx1 fh0 R))) (ix2 r k)
      = fh0 (ix2 (Cert.Spec.rowIx (xt1 (ValueIdx.ix1 (edgeOf i r)))) k) :=
  (read_landRows_map M base order hnd _ r hr k).trans (ajVals_eq i xt1 hx1 fh0 r k)

/-- What the body stores in row `R` of the second feature buffer: the node table's row the word names, cast to a vector and back. -/
def xjPay (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32) (R : Fin 64) : S1x256.Idx → Elt F .f32 :=
  xPay1 (F := F) R (xLoad arg3 harg3 x0 (xOff1 R (wordOf1 (F := F) i xt1 R)) (xOff1_inb R _ (hx1 _)))

theorem xjPay_eq (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32) (R : Fin 64) (k : Fin 256) :
    xjPay i xt1 hx1 arg3 harg3 x0 R (ix2 (0 : Fin 1) k) = x0 (ix2 (Cert.Spec.rowIx (xt1 (ValueIdx.ix1 (edgeOf i R)))) k) :=
  (congrFun (xPay1_id (F := F) R _) (ix2 (0 : Fin 1) k)).trans
    ((xRowAt_eq arg3 harg3 x0 (wordOf1 (F := F) i xt1 R) (hx1 _) (xOff1 R (wordOf1 (F := F) i xt1 R)) (xOff1_eq R _) _ k).trans
      (congrArg (fun w => x0 (ix2 (Cert.Spec.rowIx w) k)) (wordOf1_eq (F := F) i xt1 R)))

/-- The second feature buffer after its row stores, at a row `r`. -/
theorem xjBuf_read (v : View sig .tc .vmem S64x256 .f32) (f : v.ty.Contents (Elt F)) (order : List (Fin 64))
    (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32)
    (r : Fin 64) (hr : r ∈ order) (k : Fin 256) :
    v.read (Elt F) (v.writes (Elt F) f (order.map fun R => (⟨rowRect R, xjPay i xt1 hx1 arg3 harg3 x0 R⟩ : View.Piece (Elt F) S64x256 .f32))) (ix2 r k)
      = x0 (ix2 (Cert.Spec.rowIx (xt1 (ValueIdx.ix1 (edgeOf i r)))) k) :=
  (read_rowPieces_map v f order _ r hr k).trans (xjPay_eq i xt1 hx1 arg3 harg3 x0 r k)

/-! ## The four buffers as functions of the index, and the tile's payload from them

With every row written, each buffer is one function of its index that names no prior contents; the tile's one store is
the body's arithmetic of those four, the residual table and the weights. -/

/-- The first adjacency buffer with every row landed, as one function of the index. -/
def aiFull (i : grid1.Coords) (xt0 : S8192.Idx → BitVec 32) (hx0 : ∀ e : S8192.Idx, (xt0 e).toNat < 8192)
    (fh0 : S8192x8192.Idx → Elt F .f32) : Vec F S64x8192 .f32 :=
  fun j => aiVals i xt0 hx0 fh0 (j 0) (ValueIdx.ix1 (j 1))
theorem aiFull_at (i : grid1.Coords) (xt0 : S8192.Idx → BitVec 32) (hx0 : ∀ e : S8192.Idx, (xt0 e).toNat < 8192)
    (fh0 : S8192x8192.Idx → Elt F .f32) (r : Fin 64) (k : Fin 8192) :
    aiFull i xt0 hx0 fh0 (ix2 r k) = fh0 (ix2 (Cert.Spec.rowIx (xt0 (ValueIdx.ix1 (edgeOf i r)))) k) :=
  aiVals_eq i xt0 hx0 fh0 r k
/-- A whole load of it is that function, whatever the buffer held before the copies. -/
theorem aiLoad_eq (M : Memref sig .tc .vmem S64x8192 .f32) (base : M.view.ty.Contents (Elt F)) (order : List (Fin 64)) (hnd : order.Nodup)
    (hall : ∀ r : Fin 64, r ∈ order) (i : grid1.Coords) (xt0 : S8192.Idx → BitVec 32) (hx0 : ∀ e : S8192.Idx, (xt0 e).toNat < 8192)
    (fh0 : S8192x8192.Idx → Elt F .f32) (off : Fin 2 → Nat) (hoff : off = fun _ => 0) (inb : ∀ a, off a + S64x8192.size a ≤ S64x8192.size a) :
    View.readAt (Elt F) M.view (Rect.unit (s := S64x8192) off S64x8192.size inb).toLoadRect
        (landRows M base (order.map fun R => (R, aiVals i xt0 hx0 fh0 R)))
      = aiFull i xt0 hx0 fh0 :=
  readAt_landRows_all M base order hnd hall (aiVals i xt0 hx0 fh0) off hoff inb

/-- The first feature buffer with every row stored, as one function of the index. -/
def xiFull (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32) : Vec F S64x256 .f32 :=
  fun j => xiPay i xt0 hx0 arg3 harg3 x0 (j 0) (ix2 (0 : Fin 1) (j 1))
theorem xiFull_at (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32) (r : Fin 64) (k : Fin 256) :
    xiFull i xt0 hx0 arg3 harg3 x0 (ix2 r k) = x0 (ix2 (Cert.Spec.rowIx (xt0 (ValueIdx.ix1 (edgeOf i r)))) k) :=
  xiPay_eq i xt0 hx0 arg3 harg3 x0 r k
/-- A whole load of it after the stores is that function, whatever the buffer held before them; -/
theorem xiLoad_eq (v : View sig .tc .vmem S64x256 .f32) (f : v.ty.Contents (Elt F)) (order : List (Fin 64)) (hall : ∀ r : Fin 64, r ∈ order)
    (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32)
    (off : Fin 2 → Nat) (hoff : off = fun _ => 0) (inb : ∀ a, off a + S64x256.size a ≤ S64x256.size a) :
    View.readAt (Elt F) v (Rect.unit (s := S64x256) off S64x256.size inb).toLoadRect
        (v.writes (Elt F) f (order.map fun R => (⟨rowRect R, xiPay i xt0 hx0 arg3 harg3 x0 R⟩ : View.Piece (Elt F) S64x256 .f32)))
      = xiFull i xt0 hx0 arg3 harg3 x0 :=
  readAt_rowPieces_all v f order hall (xiPay i xt0 hx0 arg3 harg3 x0) off hoff inb
/-- and likewise when the load is read off the stores alone. -/
theorem xiCov_eq (v : View sig .tc .vmem S64x256 .f32) (order : List (Fin 64)) (hall : ∀ r : Fin 64, r ∈ order)
    (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32)
    (off : Fin 2 → Nat) (hoff : off = fun _ => 0) (inb : ∀ a, off a + S64x256.size a ≤ S64x256.size a) :
    v.readCov (order.map fun R => (⟨rowRect R, xiPay i xt0 hx0 arg3 harg3 x0 R⟩ : View.Piece (Elt F) S64x256 .f32))
        (Rect.unit (s := S64x256) off S64x256.size inb).toLoadRect
      = xiFull i xt0 hx0 arg3 harg3 x0 :=
  readCov_rowPieces_all v order hall (xiPay i xt0 hx0 arg3 harg3 x0) off hoff inb

/-- The second adjacency buffer with every row landed, as one function of the index. -/
def ajFull (i : grid1.Coords) (xt1 : S8192.Idx → BitVec 32) (hx1 : ∀ e : S8192.Idx, (xt1 e).toNat < 8192)
    (fh0 : S8192x8192.Idx → Elt F .f32) : Vec F S64x8192 .f32 :=
  fun j => ajVals i xt1 hx1 fh0 (j 0) (ValueIdx.ix1 (j 1))
theorem ajFull_at (i : grid1.Coords) (xt1 : S8192.Idx → BitVec 32) (hx1 : ∀ e : S8192.Idx, (xt1 e).toNat < 8192)
    (fh0 : S8192x8192.Idx → Elt F .f32) (r : Fin 64) (k : Fin 8192) :
    ajFull i xt1 hx1 fh0 (ix2 r k) = fh0 (ix2 (Cert.Spec.rowIx (xt1 (ValueIdx.ix1 (edgeOf i r)))) k) :=
  ajVals_eq i xt1 hx1 fh0 r k
/-- A whole load of it is that function, whatever the buffer held before the copies. -/
theorem ajLoad_eq (M : Memref sig .tc .vmem S64x8192 .f32) (base : M.view.ty.Contents (Elt F)) (order : List (Fin 64)) (hnd : order.Nodup)
    (hall : ∀ r : Fin 64, r ∈ order) (i : grid1.Coords) (xt1 : S8192.Idx → BitVec 32) (hx1 : ∀ e : S8192.Idx, (xt1 e).toNat < 8192)
    (fh0 : S8192x8192.Idx → Elt F .f32) (off : Fin 2 → Nat) (hoff : off = fun _ => 0) (inb : ∀ a, off a + S64x8192.size a ≤ S64x8192.size a) :
    View.readAt (Elt F) M.view (Rect.unit (s := S64x8192) off S64x8192.size inb).toLoadRect
        (landRows M base (order.map fun R => (R, ajVals i xt1 hx1 fh0 R)))
      = ajFull i xt1 hx1 fh0 :=
  readAt_landRows_all M base order hnd hall (ajVals i xt1 hx1 fh0) off hoff inb

/-- The second feature buffer with every row stored, as one function of the index. -/
def xjFull (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32) : Vec F S64x256 .f32 :=
  fun j => xjPay i xt1 hx1 arg3 harg3 x0 (j 0) (ix2 (0 : Fin 1) (j 1))
theorem xjFull_at (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32) (r : Fin 64) (k : Fin 256) :
    xjFull i xt1 hx1 arg3 harg3 x0 (ix2 r k) = x0 (ix2 (Cert.Spec.rowIx (xt1 (ValueIdx.ix1 (edgeOf i r)))) k) :=
  xjPay_eq i xt1 hx1 arg3 harg3 x0 r k
/-- A whole load of it after the stores is that function, whatever the buffer held before them; -/
theorem xjLoad_eq (v : View sig .tc .vmem S64x256 .f32) (f : v.ty.Contents (Elt F)) (order : List (Fin 64)) (hall : ∀ r : Fin 64, r ∈ order)
    (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32)
    (off : Fin 2 → Nat) (hoff : off = fun _ => 0) (inb : ∀ a, off a + S64x256.size a ≤ S64x256.size a) :
    View.readAt (Elt F) v (Rect.unit (s := S64x256) off S64x256.size inb).toLoadRect
        (v.writes (Elt F) f (order.map fun R => (⟨rowRect R, xjPay i xt1 hx1 arg3 harg3 x0 R⟩ : View.Piece (Elt F) S64x256 .f32)))
      = xjFull i xt1 hx1 arg3 harg3 x0 :=
  readAt_rowPieces_all v f order hall (xjPay i xt1 hx1 arg3 harg3 x0) off hoff inb
/-- and likewise when the load is read off the stores alone. -/
theorem xjCov_eq (v : View sig .tc .vmem S64x256 .f32) (order : List (Fin 64)) (hall : ∀ r : Fin 64, r ∈ order)
    (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32)
    (off : Fin 2 → Nat) (hoff : off = fun _ => 0) (inb : ∀ a, off a + S64x256.size a ≤ S64x256.size a) :
    v.readCov (order.map fun R => (⟨rowRect R, xjPay i xt1 hx1 arg3 harg3 x0 R⟩ : View.Piece (Elt F) S64x256 .f32))
        (Rect.unit (s := S64x256) off S64x256.size inb).toLoadRect
      = xjFull i xt1 hx1 arg3 harg3 x0 :=
  readCov_rowPieces_all v order hall (xjPay i xt1 hx1 arg3 harg3 x0) off hoff inb

/-- Every row: the rows 63 down to 0, each once. -/
def allRows : List (Fin 64) := [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
theorem allRows_nodup : allRows.Nodup := by decide
theorem mem_allRows : ∀ r : Fin 64, r ∈ allRows := by decide

end Cert.Kernel.Hand

end
-- ==== Proof.K.R1Indep.lean ====
import proofs.«428817_j39556648796289_1_alg».proof.Proof.K.R1Run
import proofs.«428817_j39556648796289_1_alg».proof.Proof.K.R1Rows
import proofs.«428817_j39556648796289_1_alg».proof.Proof.K.R1TileRows
import Idealize.ShloMosaic.Lib.Pipeline.FrameBody
import Idealize.ShloMosaic.Lib.Pipeline.Value
import Idealize.ShloMosaic.Lib.Tactic

/-! # The run of the second region's body does not depend on what its scratch buffers held

The body overwrites every one of the 64 rows of each of its four scratch buffers before it loads them whole: the two
adjacency buffers row by row by copies out of the adjacency array, the two feature buffers row by row by stores of rows of
the node table. So the one piece it stores into the output block is the same whatever the four buffers held when the body
started. Generic in the values. -/

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The one piece, first as the run leaves it, then in a form that names no scratch contents -/

/-- A whole-buffer load of a staging memref at read contents `x` reads `x`. -/
theorem wholeLoad2 {a b : Nat} (m : Memref sig .tc .vmem ⟨2, ![a, b]⟩ .f32) (hm : m.IsWhole) (x : (⟨2, ![a, b]⟩ : Shape).Idx → Elt F .f32)
    (inb : ∀ q, (![0, 0] : Fin 2 → Nat) q + (⟨2, ![a, b]⟩ : Shape).size q ≤ (⟨2, ![a, b]⟩ : Shape).size q) :
    View.readAt (Elt F) m.view (Rect.unit (s := ⟨2, ![a, b]⟩) ![0, 0] (⟨2, ![a, b]⟩ : Shape).size inb).toLoadRect (hm.unread x) = x := by
  rw [View.readAt_eq_ld, hm.read_unread, View.ld_unit_zero (funext fun q => by fin_cases q <;> rfl)]

/-- What the body stores for the tile: its arithmetic of the four scratch buffers with every row written (each a function of
    the index that names no prior contents), the residual table and the weights as the windows read them. -/
def tilePay (i : grid1.Coords) (xt0 xt1 : S8192.Idx → BitVec 32) (hx0 : ∀ e : S8192.Idx, (xt0 e).toNat < 8192) (hx1 : ∀ e : S8192.Idx, (xt1 e).toNat < 8192)
    (fh0 : S8192x8192.Idx → Elt F .f32) (arg3 : Memref sig .tc .vmem S8192x256 .f32) (harg3 : arg3.IsWhole)
    (x0 : Vec F S8192x256 .f32) (x1 : Vec F S8192x256 .f32) (x2 : Vec F S256x256 .f32) (x3 : Vec F S1x256 .f32) (x4 : Vec F S256x256 .f32) (x5 : Vec F S1x256 .f32)
    (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) :
    FVec F S64x1 .f32 :=
  k1_pay1 (k1_pay140 (k1_pay138 (xiFull i xt0 hx0 arg3 harg3 x0) (xjFull i xt1 hx1 arg3 harg3 x0) x2 x3)
      (k1_pay139 (aiFull i xt0 hx0 fh0) (ajFull i xt1 hx1 fh0) x1 x4 x5) x6 x7 x12 x8 x9 x10) x11

set_option maxHeartbeats 8000000 in
/-- The run's one piece as the run leaves it: the whole output block; the two adjacency buffers loaded whole after their 64
    rows landed over what they held, the two feature buffers read off their 64 row stores, the thirteen windows loaded whole.
    The run's own names opened, nothing else. -/
theorem kernelRun1_pieces_raw (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 : Vec F S64x8192 .f32) (xs2 xs3 : Vec F S64x256 .f32) (xt0 : TbBuf1 (F := F) c tbM1_0) (xt1 : TbBuf1 (F := F) c tbM1_1) (fh0 : HbBuf1 (F := F) c hbM1_0)
    (hx0 : ∀ e : S8192.Idx, ((xt0 : S8192.Idx → BitVec 32) e).toNat < 8192) (hx1 : ∀ e : S8192.Idx, ((xt1 : S8192.Idx → BitVec 32) e).toNat < 8192)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1
      = [(⟨Rect.unit (s := S64x1) ![0, 0] S64x1.size inb_S64x1_S64x1_0_0,
        k1_pay1 (k1_pay140
          (k1_pay138
            (scM1_2.view.readCov (allRows.map fun R => (⟨rowRect R, xiPay i (xt0 : S8192.Idx → BitVec 32) hx0 arg3 harg3 x0 R⟩ : View.Piece (Elt F) S64x256 .f32))
              (Rect.unit (s := S64x256) ![0, 0] S64x256.size inb_S64x256_S64x256_0_0).toLoadRect)
            (scM1_3.view.readCov (allRows.map fun R => (⟨rowRect R, xjPay i (xt1 : S8192.Idx → BitVec 32) hx1 arg3 harg3 x0 R⟩ : View.Piece (Elt F) S64x256 .f32))
              (Rect.unit (s := S64x256) ![0, 0] S64x256.size inb_S64x256_S64x256_0_0).toLoadRect)
            (View.readAt (Elt F) arg6.view (Rect.unit (s := S256x256) ![0, 0] S256x256.size inb_S256x256_S256x256_0_0).toLoadRect (harg6.unread x2)) (View.readAt (Elt F) arg7.view (Rect.unit (s := S1x256) ![0, 0] S1x256.size inb_S1x256_S1x256_0_0).toLoadRect (harg7.unread x3)))
          (k1_pay139
            (View.readAt (Elt F) scM1_0.view (Rect.unit (s := S64x8192) ![0, 0] S64x8192.size inb_S64x8192_S64x8192_0_0).toLoadRect
              (landRows scM1_0 ((Memref.isWhole_whole _ : scM1_0.IsWhole).unread xs0) (allRows.map fun R => (R, aiVals i (xt0 : S8192.Idx → BitVec 32) hx0 (fh0 : S8192x8192.Idx → Elt F .f32) R))))
            (View.readAt (Elt F) scM1_1.view (Rect.unit (s := S64x8192) ![0, 0] S64x8192.size inb_S64x8192_S64x8192_0_0).toLoadRect
              (landRows scM1_1 ((Memref.isWhole_whole _ : scM1_1.IsWhole).unread xs1) (allRows.map fun R => (R, ajVals i (xt1 : S8192.Idx → BitVec 32) hx1 (fh0 : S8192x8192.Idx → Elt F .f32) R))))
            (View.readAt (Elt F) arg4.view (Rect.unit (s := S8192x256) ![0, 0] S8192x256.size inb_S8192x256_S8192x256_0_0).toLoadRect (harg4.unread x1)) (View.readAt (Elt F) arg8.view (Rect.unit (s := S256x256) ![0, 0] S256x256.size inb_S256x256_S256x256_0_0).toLoadRect (harg8.unread x4)) (View.readAt (Elt F) arg9.view (Rect.unit (s := S1x256) ![0, 0] S1x256.size inb_S1x256_S1x256_0_0).toLoadRect (harg9.unread x5)))
          (View.readAt (Elt F) arg10.view (Rect.unit (s := S256x256) ![0, 0] S256x256.size inb_S256x256_S256x256_0_0).toLoadRect (harg10.unread x6)) (View.readAt (Elt F) arg11.view (Rect.unit (s := S1x256) ![0, 0] S1x256.size inb_S1x256_S1x256_0_0).toLoadRect (harg11.unread x7)) (View.readAt (Elt F) arg16.view (Rect.unit (s := S1x1) ![0, 0] S1x1.size inb_S1x1_S1x1_0_0).toLoadRect (harg16.unread x12)) (View.readAt (Elt F) arg12.view (Rect.unit (s := S256x256) ![0, 0] S256x256.size inb_S256x256_S256x256_0_0).toLoadRect (harg12.unread x8)) (View.readAt (Elt F) arg13.view (Rect.unit (s := S1x256) ![0, 0] S1x256.size inb_S1x256_S1x256_0_0).toLoadRect (harg13.unread x9)) (View.readAt (Elt F) arg14.view (Rect.unit (s := S256x1) ![0, 0] S256x1.size inb_S256x1_S256x1_0_0).toLoadRect (harg14.unread x10)))
        (View.readAt (Elt F) arg15.view (Rect.unit (s := S1x1) ![0, 0] S1x1.size inb_S1x1_S1x1_0_0).toLoadRect (harg15.unread x11))⟩ : View.Piece (Elt F) S64x1 .f32)] := by
  unfold kernelRun1
  dsimp only
  sl_unfold_run_names
  rfl

/-- THE RUN'S ONE PIECE: the whole output block, holding `tilePay`. -/
theorem kernelRun1_pieces (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 : Vec F S64x8192 .f32) (xs2 xs3 : Vec F S64x256 .f32) (xt0 : TbBuf1 (F := F) c tbM1_0) (xt1 : TbBuf1 (F := F) c tbM1_1) (fh0 : HbBuf1 (F := F) c hbM1_0)
    (hx0 : ∀ e : S8192.Idx, ((xt0 : S8192.Idx → BitVec 32) e).toNat < 8192) (hx1 : ∀ e : S8192.Idx, ((xt1 : S8192.Idx → BitVec 32) e).toNat < 8192)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1
      = [(⟨Rect.unit (s := S64x1) ![0, 0] S64x1.size inb_S64x1_S64x1_0_0,
          tilePay i (xt0 : S8192.Idx → BitVec 32) (xt1 : S8192.Idx → BitVec 32) hx0 hx1 (fh0 : S8192x8192.Idx → Elt F .f32) arg3 harg3 x0 x1 x2 x3 x4 x5 x6 x7 x8 x9 x10 x11 x12⟩ : View.Piece (Elt F) S64x1 .f32)] := by
  rw [kernelRun1_pieces_raw c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 hx0 hx1 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128]
  rw [aiLoad_eq scM1_0 _ allRows allRows_nodup mem_allRows i (xt0 : S8192.Idx → BitVec 32) hx0 (fh0 : S8192x8192.Idx → Elt F .f32) ![0, 0] (funext fun q => by fin_cases q <;> rfl) inb_S64x8192_S64x8192_0_0,
    ajLoad_eq scM1_1 _ allRows allRows_nodup mem_allRows i (xt1 : S8192.Idx → BitVec 32) hx1 (fh0 : S8192x8192.Idx → Elt F .f32) ![0, 0] (funext fun q => by fin_cases q <;> rfl) inb_S64x8192_S64x8192_0_0,
    xiCov_eq scM1_2.view allRows mem_allRows i (xt0 : S8192.Idx → BitVec 32) hx0 arg3 harg3 x0 ![0, 0] (funext fun q => by fin_cases q <;> rfl) inb_S64x256_S64x256_0_0,
    xjCov_eq scM1_3.view allRows mem_allRows i (xt1 : S8192.Idx → BitVec 32) hx1 arg3 harg3 x0 ![0, 0] (funext fun q => by fin_cases q <;> rfl) inb_S64x256_S64x256_0_0]
  rw [wholeLoad2 arg4 harg4 x1 inb_S8192x256_S8192x256_0_0,
    wholeLoad2 arg6 harg6 x2 inb_S256x256_S256x256_0_0,
    wholeLoad2 arg7 harg7 x3 inb_S1x256_S1x256_0_0,
    wholeLoad2 arg8 harg8 x4 inb_S256x256_S256x256_0_0,
    wholeLoad2 arg9 harg9 x5 inb_S1x256_S1x256_0_0,
    wholeLoad2 arg10 harg10 x6 inb_S256x256_S256x256_0_0,
    wholeLoad2 arg11 harg11 x7 inb_S1x256_S1x256_0_0,
    wholeLoad2 arg12 harg12 x8 inb_S256x256_S256x256_0_0,
    wholeLoad2 arg13 harg13 x9 inb_S1x256_S1x256_0_0,
    wholeLoad2 arg14 harg14 x10 inb_S256x1_S256x1_0_0,
    wholeLoad2 arg15 harg15 x11 inb_S1x1_S1x1_0_0,
    wholeLoad2 arg16 harg16 x12 inb_S1x1_S1x1_0_0]
  rfl

set_option maxHeartbeats 4000000 in
/-- The pieces the run leaves in the output block are the same at any two contents of the four scratch buffers. -/
theorem kernelRun1_indep (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 xs0' xs1' : Vec F S64x8192 .f32) (xs2 xs3 xs2' xs3' : Vec F S64x256 .f32) (xt0 : TbBuf1 (F := F) c tbM1_0) (xt1 : TbBuf1 (F := F) c tbM1_1) (fh0 : HbBuf1 (F := F) c hbM1_0)
    (hx0 : ∀ e : S8192.Idx, ((xt0 : S8192.Idx → BitVec 32) e).toNat < 8192) (hx1 : ∀ e : S8192.Idx, ((xt1 : S8192.Idx → BitVec 32) e).toNat < 8192)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1
      = (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0' xs1' xs2' xs3' xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1 := by
  exact (kernelRun1_pieces c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 hx0 hx1 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).trans (kernelRun1_pieces c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0' xs1' xs2' xs3' xt0 xt1 fh0 hx0 hx1 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).symm

end Cert.Kernel.Hand

end
-- ==== Proof.K.TablesWords.lean ====
/-
  The words the second region's body reads off its two prefetched tables are below 8192 under the precondition:
  the precondition bounds the edge table's words, the tables are its two rows, and a read through any rectangle of a
  view returns one of the words the view reads.
-/
import proofs.«428817_j39556648796289_1_alg».proof.Proof.K.Tables

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

/-! ## The tables' words under the precondition -/

/-- The precondition as the claim states it, at any instance: the printed test of the launch contents is all ones on
    every core. -/
def PreAt [hP : Cert.Pre_finite_inputs.Facts] : Prop :=
  ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) = (fun _ => 1#1)

variable [hP : Cert.Pre_finite_inputs.Facts]

/-- Every word of the launch's edge table is below 8192. -/
theorem edge_word_lt (h : PreAt m) (c : Dev nD) (s : Fin 2) (e : Fin 8192) :
    (m ((c : Thread nD τ).loc main_arg2) (ValueIdx.ix2 s e)).toNat < 8192 :=
  tar_lt_of_pre _ _ _ _ _ _ _ _ _ _ _ _ _ _ _ _ _ _ (h c) s e

/-- Every word of the launch's edge table is below 8192, at any index. -/
theorem tar_word_lt (h : PreAt m) (c : Dev nD) (i : S2x8192.Idx) :
    (m ((c : Thread nD τ).loc main_arg2) i).toNat < 8192 :=
  lt_of_eq_of_lt
    (congrArg BitVec.toNat (congrArg (m ((c : Thread nD τ).loc main_arg2) : S2x8192.Idx → BitVec 32) (ValueIdx.eq_ix2 i)))
    (edge_word_lt m h c (i 0) (i 1))

/-- Every word of the first table (row 0 of the edge table) is below 8192. -/
theorem V1_main_v1_lt (h : PreAt m) (c : Dev nD) (e : S8192.Idx) :
    ((Gen.V1 m c main_v1 : S8192.Idx → BitVec 32) e).toNat < 8192 := by
  have key : (Gen.V1 m c main_v1 : S8192.Idx → BitVec 32) e = m ((c : Thread nD τ).loc main_arg2) (ValueIdx.ix2 0 (e 0)) :=
    (congrArg (Gen.V1 m c main_v1 : S8192.Idx → BitVec 32) (ValueIdx.eq_ix1 e)).trans (V1_main_v1_apply m c (e 0))
  exact lt_of_eq_of_lt (congrArg BitVec.toNat key) (edge_word_lt m h c 0 (e 0))

/-- Every word of the second table (row 1 of the edge table) is below 8192. -/
theorem V1_main_v3_lt (h : PreAt m) (c : Dev nD) (e : S8192.Idx) :
    ((Gen.V1 m c main_v3 : S8192.Idx → BitVec 32) e).toNat < 8192 := by
  have key : (Gen.V1 m c main_v3 : S8192.Idx → BitVec 32) e = m ((c : Thread nD τ).loc main_arg2) (ValueIdx.ix2 1 (e 0)) :=
    (congrArg (Gen.V1 m c main_v3 : S8192.Idx → BitVec 32) (ValueIdx.eq_ix1 e)).trans (V1_main_v3_apply m c (e 0))
  exact lt_of_eq_of_lt (congrArg BitVec.toNat key) (edge_word_lt m h c 1 (e 0))

/-! ## A read returns one of the words read -/

/-- A load through any rectangle of a view of a table returns, at each index, one of the words the view reads: a bound
    on all of them bounds it. -/
theorem readAt_lt {κ : Kind} {sp : Space} (v : View sig κ sp S8192 .i32) (f : v.ty.Contents (Elt F))
    (hx : ∀ e : S8192.Idx, (v.read (Elt F) f e : BitVec 32).toNat < 8192) (r : LoadRect S8192) (y : r.shape.Idx) :
    (v.readAt (Elt F) r f y : BitVec 32).toNat < 8192 := hx (r.idx y)

/-- The one word the body reads off the first table at any position is below 8192 when all the table's words are. -/
theorem word_lt_v1 (x : S8192.Idx → BitVec 32) (hx : ∀ e : S8192.Idx, (x e).toNat < 8192) (off : Fin 1 → Nat)
    (inb : ∀ a, off a + S1.size a ≤ S8192.size a) (h1 : 0 < S1.numel) :
    ((Memref.whole (sig := sig) main_v1).view.readAt (Elt F) (Rect.unit (s := S8192) off S1.size inb).toLoadRect x (Shape.Idx.first h1) : BitVec 32).toNat < 8192 :=
  hx _

/-- The same for the second table. -/
theorem word_lt_v3 (x : S8192.Idx → BitVec 32) (hx : ∀ e : S8192.Idx, (x e).toNat < 8192) (off : Fin 1 → Nat)
    (inb : ∀ a, off a + S1.size a ≤ S8192.size a) (h1 : 0 < S1.numel) :
    ((Memref.whole (sig := sig) main_v3).view.readAt (Elt F) (Rect.unit (s := S8192) off S1.size inb).toLoadRect x (Shape.Idx.first h1) : BitVec 32).toNat < 8192 :=
  hx _

end Cert.Kernel.Hand

end
-- ==== Proof.K.R1.lean ====
/- Region 1 at a generic grid point: what its body is handed and what it hands back. Between points the region holds: the core's scoped
  buffers that are no staging buffer of this pipeline, each at some contents (the other pipeline's eight staging buffers ride through
  unread, the four scratch buffers are the body's to overwrite); the generator register at some state; the body's thirty-two semaphore
  cells at zero; the adjacency array whole at the contents the region found; and the two index tables at half share. At a point the body
  reads thirteen whole input blocks and the tables' words — each of which names a row when every word of both tables is below 8192 —,
  copies rows of the adjacency array with up to thirty-two copies in flight, one per cell, and overwrites the output block whole. One
  points-to cannot be lent to two copies at once, so the array's full share is halved fifty-five times: share n (the right half after n
  halvings) goes to the copy completing on cell n, for n = 23 … 54; shares 0 … 22 and the remainder stay aside; after the run the
  fifty-six parts compose to the full share again. -/
import proofs.«428817_j39556648796289_1_alg».proof.Proof.K.R1Run
import proofs.«428817_j39556648796289_1_alg».proof.Proof.K.R1Indep
import proofs.«428817_j39556648796289_1_alg».proof.Proof.K.TablesCases
import proofs.«428817_j39556648796289_1_alg».proof.Proof.K.TablesWords
import Idealize.ShloMosaic.Lib.Pipeline.FrameBody
import Idealize.ShloMosaic.Lib.Pipeline.Frame
import Idealize.ShloMosaic.Lib.Ring
import Idealize.ShloMosaic.Lib.Tactic

-- indices range over rectangles with long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered, and the tables' admissible contents the pipeline runs at
variable (V : (c : Dev nD) → (b : Ref sig .tc) → Buf (Elt F) ((c : Thread nD τ).loc b)) (a1 : (pcfg1 (F := F)).Adm)

/-! ## The body's own semaphore cells -/

/-- The thirty-two cells the body's row copies complete on, by their numbers in the pool: sixteen for the first endpoint's rows,
    sixteen for the second's. -/
abbrev osem1 : Fin 32 → SemLoc sig := fun j => (![SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54] : Fin 32 → SemLoc sig) j
/-- They are DMA cells, pairwise distinct, and none is a window's. -/
theorem ownSemFacts1 : Pipeline.OwnSemFacts spec1 osem1 := by decide
/-- All of them at zero, one by one. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0) := by
  rw [Pipeline.ownSems0_eq_of_list c osem1 [0, 1, 2, 3, 4, 5, 6, 7, 8, 9, 10, 11, 12, 13, 14, 15, 16, 17, 18, 19, 20, 21, 22, 23, 24, 25, 26, 27, 28, 29, 30, 31] (by decide) (by decide)]; rfl

/-! ## The adjacency array -/

/-- The one unscoped buffer the body copies from itself: neither a window's array nor a table. -/
def H1 : Finset (Ref sig .tc) := {main_arg1}
theorem H1_sub : H1 ⊆ Pipeline.restRefsP sig pre1 spec1 := by decide
/-- Its points-to at the region's entry contents. -/
theorem hbmPts1_eq (c : Dev nD) :
    (bigSep H1 (fun b => ((c : Thread nD τ).loc b) ↦{fullShare} V c b) : sProp 𝕄) = iprop(hbPt1 c hbM1_0 (V c main_arg1)) := by
  rw [BI.bigSep_eq_bigSepL_of_eq [main_arg1] (by decide) (by decide)]; rfl

/-- The full share of the array is the remainder after fifty-five halvings and the fifty-five right halves: a share is its left half
    composed with its right half, fifty-five times over. -/
theorem hbToks1 (c : Dev nD) (f : HbBuf1 (F := F) c hbM1_0) :
    (hbPt1 c hbM1_0 f : sProp 𝕄) ⊣⊢ iprop((hbM1_0.view.loc (c : Thread nD τ) ↦{Transfers.shareDrop fullShare 55} f) ∗ hbTok1 c 0 f ∗ hbTok1 c 1 f ∗ hbTok1 c 2 f ∗ hbTok1 c 3 f ∗ hbTok1 c 4 f ∗ hbTok1 c 5 f ∗ hbTok1 c 6 f ∗ hbTok1 c 7 f ∗ hbTok1 c 8 f ∗ hbTok1 c 9 f ∗ hbTok1 c 10 f ∗ hbTok1 c 11 f ∗ hbTok1 c 12 f ∗ hbTok1 c 13 f ∗ hbTok1 c 14 f ∗ hbTok1 c 15 f ∗ hbTok1 c 16 f ∗ hbTok1 c 17 f ∗ hbTok1 c 18 f ∗ hbTok1 c 19 f ∗ hbTok1 c 20 f ∗ hbTok1 c 21 f ∗ hbTok1 c 22 f ∗ hbTok1 c 23 f ∗ hbTok1 c 24 f ∗ hbTok1 c 25 f ∗ hbTok1 c 26 f ∗ hbTok1 c 27 f ∗ hbTok1 c 28 f ∗ hbTok1 c 29 f ∗ hbTok1 c 30 f ∗ hbTok1 c 31 f ∗ hbTok1 c 32 f ∗ hbTok1 c 33 f ∗ hbTok1 c 34 f ∗ hbTok1 c 35 f ∗ hbTok1 c 36 f ∗ hbTok1 c 37 f ∗ hbTok1 c 38 f ∗ hbTok1 c 39 f ∗ hbTok1 c 40 f ∗ hbTok1 c 41 f ∗ hbTok1 c 42 f ∗ hbTok1 c 43 f ∗ hbTok1 c 44 f ∗ hbTok1 c 45 f ∗ hbTok1 c 46 f ∗ hbTok1 c 47 f ∗ hbTok1 c 48 f ∗ hbTok1 c 49 f ∗ hbTok1 c 50 f ∗ hbTok1 c 51 f ∗ hbTok1 c 52 f ∗ hbTok1 c 53 f ∗ hbTok1 c 54 f) := by
  have h := Transfers.pointsTo_toks_range (Ix := Unit) (Name := ℕ) (U := Pipeline.UD sig nD τ) (Lvl := ℕ) (Val := Elt F)
    (ℓ := hbM1_0.view.loc (c : Thread nD τ)) (S := Finset.univ) (f := f) fullShare 55
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54] (by decide) (by decide)] at h
  exact h

/-- The same as an equation of assertions (two assertions that entail each other are equal). -/
theorem hbToks1_eq (c : Dev nD) (f : HbBuf1 (F := F) c hbM1_0) :
    (hbPt1 c hbM1_0 f : sProp 𝕄) = iprop((hbM1_0.view.loc (c : Thread nD τ) ↦{Transfers.shareDrop fullShare 55} f) ∗ hbTok1 c 0 f ∗ hbTok1 c 1 f ∗ hbTok1 c 2 f ∗ hbTok1 c 3 f ∗ hbTok1 c 4 f ∗ hbTok1 c 5 f ∗ hbTok1 c 6 f ∗ hbTok1 c 7 f ∗ hbTok1 c 8 f ∗ hbTok1 c 9 f ∗ hbTok1 c 10 f ∗ hbTok1 c 11 f ∗ hbTok1 c 12 f ∗ hbTok1 c 13 f ∗ hbTok1 c 14 f ∗ hbTok1 c 15 f ∗ hbTok1 c 16 f ∗ hbTok1 c 17 f ∗ hbTok1 c 18 f ∗ hbTok1 c 19 f ∗ hbTok1 c 20 f ∗ hbTok1 c 21 f ∗ hbTok1 c 22 f ∗ hbTok1 c 23 f ∗ hbTok1 c 24 f ∗ hbTok1 c 25 f ∗ hbTok1 c 26 f ∗ hbTok1 c 27 f ∗ hbTok1 c 28 f ∗ hbTok1 c 29 f ∗ hbTok1 c 30 f ∗ hbTok1 c 31 f ∗ hbTok1 c 32 f ∗ hbTok1 c 33 f ∗ hbTok1 c 34 f ∗ hbTok1 c 35 f ∗ hbTok1 c 36 f ∗ hbTok1 c 37 f ∗ hbTok1 c 38 f ∗ hbTok1 c 39 f ∗ hbTok1 c 40 f ∗ hbTok1 c 41 f ∗ hbTok1 c 42 f ∗ hbTok1 c 43 f ∗ hbTok1 c 44 f ∗ hbTok1 c 45 f ∗ hbTok1 c 46 f ∗ hbTok1 c 47 f ∗ hbTok1 c 48 f ∗ hbTok1 c 49 f ∗ hbTok1 c 50 f ∗ hbTok1 c 51 f ∗ hbTok1 c 52 f ∗ hbTok1 c 53 f ∗ hbTok1 c 54 f) :=
  BI.equiv_iff.mp ⟨(hbToks1 c f).1, (hbToks1 c f).2⟩

/-! ## The invariant, conjunct by conjunct -/

/-- The part of the invariant that is the same for any tables: the scoped rest — the other pipeline's staging buffers at some contents,
    the four scratch buffers owned at some contents —, the generator register, the cells at zero, the adjacency array whole. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
          ∗ (∃ r, prngReg c r)
          ∗ iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0)
          ∗ iprop(hbPt1 c hbM1_0 (V c main_arg1))) := by
  rw [Pipeline.ΦD_eq, scopedRest1_eq, ownSems01_eq, hbmPts1_eq]; simp only [scM1_0, scM1_1, scM1_2, scM1_3, owns_whole]; try rfl

/-- The tables' halves, table by table. -/
theorem PhiT1_eq (pf : pre1.Contents (Elt F)) (c : Dev nD) : (Pipeline.ΦT pre1 pf c : sProp 𝕄) = iprop(tbPt1 c tbM1_0 (pf 0) ∗ tbPt1 c tbM1_1 (pf 1)) := by
  unfold Pipeline.ΦT Pipeline.prefHeld
  rw [show (Finset.univ : Finset (Fin 2)) = insert (0 : Fin 2) {(1 : Fin 2)} from by decide, bigSep_insert (by decide), bigSep_singleton]
  rfl

/-! ## The side conditions the body assumes -/

/-- Every word of either table names a row of the adjacency array and of the feature matrices. -/
def Hyps1 (pf : pre1.Contents (Elt F)) : Prop :=
  (∀ e : S8192.Idx, ((pf 0 : S8192.Idx → BitVec 32) e).toNat < 8192) ∧ (∀ e : S8192.Idx, ((pf 1 : S8192.Idx → BitVec 32) e).toNat < 8192)

/-! Each side condition of the body at a grid point: the word is one of its table's words, so it is below 8192, and a word below 8192
    passes the condition. -/
theorem hw1 {pf : pre1.Contents (Elt F)} (hH : Hyps1 pf) (i : grid1.Coords) : k1_chk1 (tbM1_0.view.readAt (Elt F) (Rect.unit (s := S8192) (k1_off1 i) S1.size (k1_off1_inb i)).toLoadRect (pf 0) (Shape.Idx.first (numel1_S1.symm ▸ Nat.one_pos))) :=
  chk_of_lt_1 _ (word_lt_v1 _ hH.1 _ _ _)
theorem hw2 {pf : pre1.Contents (Elt F)} (hH : Hyps1 pf) (i : grid1.Coords) : k1_chk2 (tbM1_1.view.readAt (Elt F) (Rect.unit (s := S8192) (k1_off1 i) S1.size (k1_off1_inb i)).toLoadRect (pf 1) (Shape.Idx.first (numel1_S1.symm ▸ Nat.one_pos))) :=
  chk_of_lt_2 _ (word_lt_v3 _ hH.2 _ _ _)
theorem hw3 {pf : pre1.Contents (Elt F)} (hH : Hyps1 pf) (i : grid1.Coords) : k1_chk3 (tbM1_0.view.readAt (Elt F) (Rect.unit (s := S8192) (k1_off6 i) S1.size (k1_off6_inb i)).toLoadRect (pf 0) (Shape.Idx.first (numel1_S1.symm ▸ Nat.one_pos))) :=
  chk_of_lt_3 _ (word_lt_v1 _ hH.1 _ _ _)
theorem hw4 {pf : pre1.Contents (Elt F)} (hH : Hyps1 pf) (i : grid1.Coords) : k1_chk4 (tbM1_1.view.readAt (Elt F) (Rect.unit (s := S8192) (k1_off6 i) S1.size (k1_off6_inb i)).toLoadRect (pf 1) (Shape.Idx.first (numel1_S1.symm ▸ Nat.one_pos))) :=
  chk_of_lt_4 _ (word_lt_v3 _ hH.2 _ _ _)
theorem hw5 {pf : pre1.Contents (Elt F)} (hH : Hyps1 pf) (i : grid1.Coords) : k1_chk5 (tbM1_0.view.readAt (Elt F) (Rect.unit (s := S8192) (k1_off11 i) S1.size (k1_off11_inb i)).toLoadRect (pf 0) (Shape.Idx.first (numel1_S1.symm ▸ Nat.one_pos))) :=
  chk_of_lt_5 _ (word_lt_v1 _ hH.1 _ _ _)
theorem hw6 {pf : pre1.Contents (Elt F)} (hH : Hyps1 pf) (i : grid1.Coords) : k1_chk6 (tbM1_1.view.readAt (Elt F) (Rect.unit (s := S8192) (k1_off11 i) S1.size (k1_off11_inb i)).toLoadRect (pf 1) (Shape.Idx.first (numel1_S1.symm ▸ Nat.one_pos))) :=
  chk_of_lt_6 _ (word_lt_v3 _ hH.2 _ _ _)
theorem hw7 {pf : pre1.Contents (Elt F)} (hH : Hyps1 pf) (i : grid1.Coords) : k1_chk7 (tbM1_0.view.readAt (Elt F) (Rect.unit (s := S8192) (k1_off16 i) S1.size (k1_off16_inb i)).toLoadRect (pf 0) (Shape.Idx.first (numel1_S1.symm ▸ Nat.one_pos))) :=
  chk_of_lt_7 _ (word_lt_v1 _ hH.1 _ _ _)
theorem hw8 {pf : pre1.Contents (Elt F)} (hH : Hyps1 pf) (i : grid1.Coords) : k1_chk8 (tbM1_1.view.readAt (Elt F) (Rect.unit (s := S8192) (k1_off16 i) S1.size (k1_off16_inb i)).toLoadRect (pf 1) (Shape.Idx.first (numel1_S1.symm ▸ Nat.one_pos))) :=
  chk_of_lt_8 _ (word_lt_v3 _ hH.2 _ _ _)
theorem hw9 {pf : pre1.Contents (Elt F)} (hH : Hyps1 pf) (i : grid1.Coords) : k1_chk9 (tbM1_0.view.readAt (Elt F) (Rect.unit (s := S8192) (k1_off21 i) S1.size (k1_off21_inb i)).toLoadRect (pf 0) (Shape.Idx.first (numel1_S1.symm ▸ Nat.one_pos))) :=
  chk_of_lt_9 _ (word_lt_v1 _ hH.1 _ _ _)
theorem hw10 {pf : pre1.Contents (Elt F)} (hH : Hyps1 pf) (i : grid1.Coords) : k1_chk10 (tbM1_1.view.readAt (Elt F) (Rect.unit (s := S8192) (k1_off21 i) S1.size (k1_off21_inb i)).toLoadRect (pf 1) (Shape.Idx.first (numel1_S1.symm ▸ Nat.one_pos))) :=
  chk_of_lt_10 _ (word_lt_v3 _ hH.2 _ _ _)
theorem hw11 {pf : pre1.Contents (Elt F)} (hH : Hyps1 pf) (i : grid1.Coords) : k1_chk11 (tbM1_0.view.readAt (Elt F) (Rect.unit (s := S8192) (k1_off26 i) S1.size (k1_off26_inb i)).toLoadRect (pf 0) (Shape.Idx.first (numel1_S1.symm ▸ Nat.one_pos))) :=
  chk_of_lt_11 _ (word_lt_v1 _ hH.1 _ _ _)
theorem hw12 {pf : pre1.Contents (Elt F)} (hH : Hyps1 pf) (i : grid1.Coords) : k1_chk12 (tbM1_1.view.readAt (Elt F) (Rect.unit (s := S8192) (k1_off26 i) S1.size (k1_off26_inb i)).toLoadRect (pf 1) (Shape.Idx.first (numel1_S1.symm ▸ Nat.one_pos))) :=
  chk_of_lt_12 _ (word_lt_v3 _ hH.2 _ _ _)
theorem hw13 {pf : pre1.Contents (Elt F)} (hH : Hyps1 pf) (i : grid1.Coords) : k1_chk13 (tbM1_0.view.readAt (Elt F) (Rect.unit (s := S8192) (k1_off31 i) S1.size (k1_off31_inb i)).toLoadRect (pf 0) (Shape.Idx.first (numel1_S1.symm ▸ Nat.one_pos))) :=
  chk_of_lt_13 _ (word_lt_v1 _ hH.1 _ _ _)
theorem hw14 {pf : pre1.Contents (Elt F)} (hH : Hyps1 pf) (i : grid1.Coords) : k1_chk14 (tbM1_1.view.readAt (Elt F) (Rect.unit (s := S8192) (k1_off31 i) S1.size (k1_off31_inb i)).toLoadRect (pf 1) (Shape.Idx.first (numel1_S1.symm ▸ Nat.one_pos))) :=
  chk_of_lt_14 _ (word_lt_v3 _ hH.2 _ _ _)
theorem hw15 {pf : pre1.Contents (Elt F)} (hH : Hyps1 pf) (i : grid1.Coords) : k1_chk15 (tbM1_0.view.readAt (Elt F) (Rect.unit (s := S8192) (k1_off36 i) S1.size (k1_off36_inb i)).toLoadRect (pf 0) (Shape.Idx.first (numel1_S1.symm ▸ Nat.one_pos))) :=
  chk_of_lt_15 _ (word_lt_v1 _ hH.1 _ _ _)
theorem hw16 {pf : pre1.Contents (Elt F)} (hH : Hyps1 pf) (i : grid1.Coords) : k1_chk16 (tbM1_1.view.readAt (Elt F) (Rect.unit (s := S8192) (k1_off36 i) S1.size (k1_off36_inb i)).toLoadRect (pf 1) (Shape.Idx.first (numel1_S1.symm ▸ Nat.one_pos))) :=
  chk_of_lt_16 _ (word_lt_v3 _ hH.2 _ _ _)
theorem hw17 {pf : pre1.Contents (Elt F)} (hH : Hyps1 pf) (i : grid1.Coords) : k1_chk17 (tbM1_0.view.readAt (Elt F) (Rect.unit (s := S8192) (k1_off41 i) S1.size (k1_off41_inb i)).toLoadRect (pf 0) (Shape.Idx.first (numel1_S1.symm ▸ Nat.one_pos))) :=
  chk_of_lt_17 _ (word_lt_v1 _ hH.1 _ _ _)
theorem hw18 {pf : pre1.Contents (Elt F)} (hH : Hyps1 pf) (i : grid1.Coords) : k1_chk18 (tbM1_1.view.readAt (Elt F) (Rect.unit (s := S8192) (k1_off41 i) S1.size (k1_off41_inb i)).toLoadRect (pf 1) (Shape.Idx.first (numel1_S1.symm ▸ Nat.one_pos))) :=
  chk_of_lt_18 _ (word_lt_v3 _ hH.2 _ _ _)
theorem hw19 {pf : pre1.Contents (Elt F)} (hH : Hyps1 pf) (i : grid1.Coords) : k1_chk19 (tbM1_0.view.readAt (Elt F) (Rect.unit (s := S8192) (k1_off46 i) S1.size (k1_off46_inb i)).toLoadRect (pf 0) (Shape.Idx.first (numel1_S1.symm ▸ Nat.one_pos))) :=
  chk_of_lt_19 _ (word_lt_v1 _ hH.1 _ _ _)
theorem hw20 {pf : pre1.Contents (Elt F)} (hH : Hyps1 pf) (i : grid1.Coords) : k1_chk20 (tbM1_1.view.readAt (Elt F) (Rect.unit (s := S8192) (k1_off46 i) S1.size (k1_off46_inb i)).toLoadRect (pf 1) (Shape.Idx.first (numel1_S1.symm ▸ Nat.one_pos))) :=
  chk_of_lt_20 _ (word_lt_v3 _ hH.2 _ _ _)
theorem hw21 {pf : pre1.Contents (Elt F)} (hH : Hyps1 pf) (i : grid1.Coords) : k1_chk21 (tbM1_0.view.readAt (Elt F) (Rect.unit (s := S8192) (k1_off51 i) S1.size (k1_off51_inb i)).toLoadRect (pf 0) (Shape.Idx.first (numel1_S1.symm ▸ Nat.one_pos))) :=
  chk_of_lt_21 _ (word_lt_v1 _ hH.1 _ _ _)
theorem hw22 {pf : pre1.Contents (Elt F)} (hH : Hyps1 pf) (i : grid1.Coords) : k1_chk22 (tbM1_1.view.readAt (Elt F) (Rect.unit (s := S8192) (k1_off51 i) S1.size (k1_off51_inb i)).toLoadRect (pf 1) (Shape.Idx.first (numel1_S1.symm ▸ Nat.one_pos))) :=
  chk_of_lt_22 _ (word_lt_v3 _ hH.2 _ _ _)
theorem hw23 {pf : pre1.Contents (Elt F)} (hH : Hyps1 pf) (i : grid1.Coords) : k1_chk23 (tbM1_0.view.readAt (Elt F) (Rect.unit (s := S8192) (k1_off56 i) S1.size (k1_off56_inb i)).toLoadRect (pf 0) (Shape.Idx.first (numel1_S1.symm ▸ Nat.one_pos))) :=
  chk_of_lt_23 _ (word_lt_v1 _ hH.1 _ _ _)
theorem hw24 {pf : pre1.Contents (Elt F)} (hH : Hyps1 pf) (i : grid1.Coords) : k1_chk24 (tbM1_1.view.readAt (Elt F) (Rect.unit (s := S8192) (k1_off56 i) S1.size (k1_off56_inb i)).toLoadRect (pf 1) (Shape.Idx.first (numel1_S1.symm ▸ Nat.one_pos))) :=
  chk_of_lt_24 _ (word_lt_v3 _ hH.2 _ _ _)
theorem hw25 {pf : pre1.Contents (Elt F)} (hH : Hyps1 pf) (i : grid1.Coords) : k1_chk25 (tbM1_0.view.readAt (Elt F) (Rect.unit (s := S8192) (k1_off61 i) S1.size (k1_off61_inb i)).toLoadRect (pf 0) (Shape.Idx.first (numel1_S1.symm ▸ Nat.one_pos))) :=
  chk_of_lt_25 _ (word_lt_v1 _ hH.1 _ _ _)
theorem hw26 {pf : pre1.Contents (Elt F)} (hH : Hyps1 pf) (i : grid1.Coords) : k1_chk26 (tbM1_1.view.readAt (Elt F) (Rect.unit (s := S8192) (k1_off61 i) S1.size (k1_off61_inb i)).toLoadRect (pf 1) (Shape.Idx.first (numel1_S1.symm ▸ Nat.one_pos))) :=
  chk_of_lt_26 _ (word_lt_v3 _ hH.2 _ _ _)
theorem hw27 {pf : pre1.Contents (Elt F)} (hH : Hyps1 pf) (i : grid1.Coords) : k1_chk27 (tbM1_0.view.readAt (Elt F) (Rect.unit (s := S8192) (k1_off66 i) S1.size (k1_off66_inb i)).toLoadRect (pf 0) (Shape.Idx.first (numel1_S1.symm ▸ Nat.one_pos))) :=
  chk_of_lt_27 _ (word_lt_v1 _ hH.1 _ _ _)
theorem hw28 {pf : pre1.Contents (Elt F)} (hH : Hyps1 pf) (i : grid1.Coords) : k1_chk28 (tbM1_1.view.readAt (Elt F) (Rect.unit (s := S8192) (k1_off66 i) S1.size (k1_off66_inb i)).toLoadRect (pf 1) (Shape.Idx.first (numel1_S1.symm ▸ Nat.one_pos))) :=
  chk_of_lt_28 _ (word_lt_v3 _ hH.2 _ _ _)
theorem hw29 {pf : pre1.Contents (Elt F)} (hH : Hyps1 pf) (i : grid1.Coords) : k1_chk29 (tbM1_0.view.readAt (Elt F) (Rect.unit (s := S8192) (k1_off71 i) S1.size (k1_off71_inb i)).toLoadRect (pf 0) (Shape.Idx.first (numel1_S1.symm ▸ Nat.one_pos))) :=
  chk_of_lt_29 _ (word_lt_v1 _ hH.1 _ _ _)
theorem hw30 {pf : pre1.Contents (Elt F)} (hH : Hyps1 pf) (i : grid1.Coords) : k1_chk30 (tbM1_1.view.readAt (Elt F) (Rect.unit (s := S8192) (k1_off71 i) S1.size (k1_off71_inb i)).toLoadRect (pf 1) (Shape.Idx.first (numel1_S1.symm ▸ Nat.one_pos))) :=
  chk_of_lt_30 _ (word_lt_v3 _ hH.2 _ _ _)
theorem hw31 {pf : pre1.Contents (Elt F)} (hH : Hyps1 pf) (i : grid1.Coords) : k1_chk31 (tbM1_0.view.readAt (Elt F) (Rect.unit (s := S8192) (k1_off76 i) S1.size (k1_off76_inb i)).toLoadRect (pf 0) (Shape.Idx.first (numel1_S1.symm ▸ Nat.one_pos))) :=
  chk_of_lt_31 _ (word_lt_v1 _ hH.1 _ _ _)
theorem hw32 {pf : pre1.Contents (Elt F)} (hH : Hyps1 pf) (i : grid1.Coords) : k1_chk32 (tbM1_1.view.readAt (Elt F) (Rect.unit (s := S8192) (k1_off76 i) S1.size (k1_off76_inb i)).toLoadRect (pf 1) (Shape.Idx.first (numel1_S1.symm ▸ Nat.one_pos))) :=
  chk_of_lt_32 _ (word_lt_v3 _ hH.2 _ _ _)
theorem hw33 {pf : pre1.Contents (Elt F)} (hH : Hyps1 pf) (i : grid1.Coords) : k1_chk33 (tbM1_0.view.readAt (Elt F) (Rect.unit (s := S8192) (k1_off81 i) S1.size (k1_off81_inb i)).toLoadRect (pf 0) (Shape.Idx.first (numel1_S1.symm ▸ Nat.one_pos))) :=
  chk_of_lt_33 _ (word_lt_v1 _ hH.1 _ _ _)
theorem hw34 {pf : pre1.Contents (Elt F)} (hH : Hyps1 pf) (i : grid1.Coords) : k1_chk34 (tbM1_1.view.readAt (Elt F) (Rect.unit (s := S8192) (k1_off81 i) S1.size (k1_off81_inb i)).toLoadRect (pf 1) (Shape.Idx.first (numel1_S1.symm ▸ Nat.one_pos))) :=
  chk_of_lt_34 _ (word_lt_v3 _ hH.2 _ _ _)
theorem hw35 {pf : pre1.Contents (Elt F)} (hH : Hyps1 pf) (i : grid1.Coords) : k1_chk35 (tbM1_0.view.readAt (Elt F) (Rect.unit (s := S8192) (k1_off86 i) S1.size (k1_off86_inb i)).toLoadRect (pf 0) (Shape.Idx.first (numel1_S1.symm ▸ Nat.one_pos))) :=
  chk_of_lt_35 _ (word_lt_v1 _ hH.1 _ _ _)
theorem hw36 {pf : pre1.Contents (Elt F)} (hH : Hyps1 pf) (i : grid1.Coords) : k1_chk36 (tbM1_1.view.readAt (Elt F) (Rect.unit (s := S8192) (k1_off86 i) S1.size (k1_off86_inb i)).toLoadRect (pf 1) (Shape.Idx.first (numel1_S1.symm ▸ Nat.one_pos))) :=
  chk_of_lt_36 _ (word_lt_v3 _ hH.2 _ _ _)
theorem hw37 {pf : pre1.Contents (Elt F)} (hH : Hyps1 pf) (i : grid1.Coords) : k1_chk37 (tbM1_0.view.readAt (Elt F) (Rect.unit (s := S8192) (k1_off91 i) S1.size (k1_off91_inb i)).toLoadRect (pf 0) (Shape.Idx.first (numel1_S1.symm ▸ Nat.one_pos))) :=
  chk_of_lt_37 _ (word_lt_v1 _ hH.1 _ _ _)
theorem hw38 {pf : pre1.Contents (Elt F)} (hH : Hyps1 pf) (i : grid1.Coords) : k1_chk38 (tbM1_1.view.readAt (Elt F) (Rect.unit (s := S8192) (k1_off91 i) S1.size (k1_off91_inb i)).toLoadRect (pf 1) (Shape.Idx.first (numel1_S1.symm ▸ Nat.one_pos))) :=
  chk_of_lt_38 _ (word_lt_v3 _ hH.2 _ _ _)
theorem hw39 {pf : pre1.Contents (Elt F)} (hH : Hyps1 pf) (i : grid1.Coords) : k1_chk39 (tbM1_0.view.readAt (Elt F) (Rect.unit (s := S8192) (k1_off96 i) S1.size (k1_off96_inb i)).toLoadRect (pf 0) (Shape.Idx.first (numel1_S1.symm ▸ Nat.one_pos))) :=
  chk_of_lt_39 _ (word_lt_v1 _ hH.1 _ _ _)
theorem hw40 {pf : pre1.Contents (Elt F)} (hH : Hyps1 pf) (i : grid1.Coords) : k1_chk40 (tbM1_1.view.readAt (Elt F) (Rect.unit (s := S8192) (k1_off96 i) S1.size (k1_off96_inb i)).toLoadRect (pf 1) (Shape.Idx.first (numel1_S1.symm ▸ Nat.one_pos))) :=
  chk_of_lt_40 _ (word_lt_v3 _ hH.2 _ _ _)
theorem hw41 {pf : pre1.Contents (Elt F)} (hH : Hyps1 pf) (i : grid1.Coords) : k1_chk41 (tbM1_0.view.readAt (Elt F) (Rect.unit (s := S8192) (k1_off101 i) S1.size (k1_off101_inb i)).toLoadRect (pf 0) (Shape.Idx.first (numel1_S1.symm ▸ Nat.one_pos))) :=
  chk_of_lt_41 _ (word_lt_v1 _ hH.1 _ _ _)
theorem hw42 {pf : pre1.Contents (Elt F)} (hH : Hyps1 pf) (i : grid1.Coords) : k1_chk42 (tbM1_1.view.readAt (Elt F) (Rect.unit (s := S8192) (k1_off101 i) S1.size (k1_off101_inb i)).toLoadRect (pf 1) (Shape.Idx.first (numel1_S1.symm ▸ Nat.one_pos))) :=
  chk_of_lt_42 _ (word_lt_v3 _ hH.2 _ _ _)
theorem hw43 {pf : pre1.Contents (Elt F)} (hH : Hyps1 pf) (i : grid1.Coords) : k1_chk43 (tbM1_0.view.readAt (Elt F) (Rect.unit (s := S8192) (k1_off106 i) S1.size (k1_off106_inb i)).toLoadRect (pf 0) (Shape.Idx.first (numel1_S1.symm ▸ Nat.one_pos))) :=
  chk_of_lt_43 _ (word_lt_v1 _ hH.1 _ _ _)
theorem hw44 {pf : pre1.Contents (Elt F)} (hH : Hyps1 pf) (i : grid1.Coords) : k1_chk44 (tbM1_1.view.readAt (Elt F) (Rect.unit (s := S8192) (k1_off106 i) S1.size (k1_off106_inb i)).toLoadRect (pf 1) (Shape.Idx.first (numel1_S1.symm ▸ Nat.one_pos))) :=
  chk_of_lt_44 _ (word_lt_v3 _ hH.2 _ _ _)
theorem hw45 {pf : pre1.Contents (Elt F)} (hH : Hyps1 pf) (i : grid1.Coords) : k1_chk45 (tbM1_0.view.readAt (Elt F) (Rect.unit (s := S8192) (k1_off111 i) S1.size (k1_off111_inb i)).toLoadRect (pf 0) (Shape.Idx.first (numel1_S1.symm ▸ Nat.one_pos))) :=
  chk_of_lt_45 _ (word_lt_v1 _ hH.1 _ _ _)
theorem hw46 {pf : pre1.Contents (Elt F)} (hH : Hyps1 pf) (i : grid1.Coords) : k1_chk46 (tbM1_1.view.readAt (Elt F) (Rect.unit (s := S8192) (k1_off111 i) S1.size (k1_off111_inb i)).toLoadRect (pf 1) (Shape.Idx.first (numel1_S1.symm ▸ Nat.one_pos))) :=
  chk_of_lt_46 _ (word_lt_v3 _ hH.2 _ _ _)
theorem hw47 {pf : pre1.Contents (Elt F)} (hH : Hyps1 pf) (i : grid1.Coords) : k1_chk47 (tbM1_0.view.readAt (Elt F) (Rect.unit (s := S8192) (k1_off116 i) S1.size (k1_off116_inb i)).toLoadRect (pf 0) (Shape.Idx.first (numel1_S1.symm ▸ Nat.one_pos))) :=
  chk_of_lt_47 _ (word_lt_v1 _ hH.1 _ _ _)
theorem hw48 {pf : pre1.Contents (Elt F)} (hH : Hyps1 pf) (i : grid1.Coords) : k1_chk48 (tbM1_1.view.readAt (Elt F) (Rect.unit (s := S8192) (k1_off116 i) S1.size (k1_off116_inb i)).toLoadRect (pf 1) (Shape.Idx.first (numel1_S1.symm ▸ Nat.one_pos))) :=
  chk_of_lt_48 _ (word_lt_v3 _ hH.2 _ _ _)
theorem hw49 {pf : pre1.Contents (Elt F)} (hH : Hyps1 pf) (i : grid1.Coords) : k1_chk49 (tbM1_0.view.readAt (Elt F) (Rect.unit (s := S8192) (k1_off121 i) S1.size (k1_off121_inb i)).toLoadRect (pf 0) (Shape.Idx.first (numel1_S1.symm ▸ Nat.one_pos))) :=
  chk_of_lt_49 _ (word_lt_v1 _ hH.1 _ _ _)
theorem hw50 {pf : pre1.Contents (Elt F)} (hH : Hyps1 pf) (i : grid1.Coords) : k1_chk50 (tbM1_1.view.readAt (Elt F) (Rect.unit (s := S8192) (k1_off121 i) S1.size (k1_off121_inb i)).toLoadRect (pf 1) (Shape.Idx.first (numel1_S1.symm ▸ Nat.one_pos))) :=
  chk_of_lt_50 _ (word_lt_v3 _ hH.2 _ _ _)
theorem hw51 {pf : pre1.Contents (Elt F)} (hH : Hyps1 pf) (i : grid1.Coords) : k1_chk51 (tbM1_0.view.readAt (Elt F) (Rect.unit (s := S8192) (k1_off126 i) S1.size (k1_off126_inb i)).toLoadRect (pf 0) (Shape.Idx.first (numel1_S1.symm ▸ Nat.one_pos))) :=
  chk_of_lt_51 _ (word_lt_v1 _ hH.1 _ _ _)
theorem hw52 {pf : pre1.Contents (Elt F)} (hH : Hyps1 pf) (i : grid1.Coords) : k1_chk52 (tbM1_1.view.readAt (Elt F) (Rect.unit (s := S8192) (k1_off126 i) S1.size (k1_off126_inb i)).toLoadRect (pf 1) (Shape.Idx.first (numel1_S1.symm ▸ Nat.one_pos))) :=
  chk_of_lt_52 _ (word_lt_v3 _ hH.2 _ _ _)
theorem hw53 {pf : pre1.Contents (Elt F)} (hH : Hyps1 pf) (i : grid1.Coords) : k1_chk53 (tbM1_0.view.readAt (Elt F) (Rect.unit (s := S8192) (k1_off131 i) S1.size (k1_off131_inb i)).toLoadRect (pf 0) (Shape.Idx.first (numel1_S1.symm ▸ Nat.one_pos))) :=
  chk_of_lt_53 _ (word_lt_v1 _ hH.1 _ _ _)
theorem hw54 {pf : pre1.Contents (Elt F)} (hH : Hyps1 pf) (i : grid1.Coords) : k1_chk54 (tbM1_1.view.readAt (Elt F) (Rect.unit (s := S8192) (k1_off131 i) S1.size (k1_off131_inb i)).toLoadRect (pf 1) (Shape.Idx.first (numel1_S1.symm ▸ Nat.one_pos))) :=
  chk_of_lt_54 _ (word_lt_v3 _ hH.2 _ _ _)
theorem hw55 {pf : pre1.Contents (Elt F)} (hH : Hyps1 pf) (i : grid1.Coords) : k1_chk55 (tbM1_0.view.readAt (Elt F) (Rect.unit (s := S8192) (k1_off136 i) S1.size (k1_off136_inb i)).toLoadRect (pf 0) (Shape.Idx.first (numel1_S1.symm ▸ Nat.one_pos))) :=
  chk_of_lt_55 _ (word_lt_v1 _ hH.1 _ _ _)
theorem hw56 {pf : pre1.Contents (Elt F)} (hH : Hyps1 pf) (i : grid1.Coords) : k1_chk56 (tbM1_1.view.readAt (Elt F) (Rect.unit (s := S8192) (k1_off136 i) S1.size (k1_off136_inb i)).toLoadRect (pf 1) (Shape.Idx.first (numel1_S1.symm ▸ Nat.one_pos))) :=
  chk_of_lt_56 _ (word_lt_v3 _ hH.2 _ _ _)
theorem hw57 {pf : pre1.Contents (Elt F)} (hH : Hyps1 pf) (i : grid1.Coords) : k1_chk57 (tbM1_0.view.readAt (Elt F) (Rect.unit (s := S8192) (k1_off141 i) S1.size (k1_off141_inb i)).toLoadRect (pf 0) (Shape.Idx.first (numel1_S1.symm ▸ Nat.one_pos))) :=
  chk_of_lt_57 _ (word_lt_v1 _ hH.1 _ _ _)
theorem hw58 {pf : pre1.Contents (Elt F)} (hH : Hyps1 pf) (i : grid1.Coords) : k1_chk58 (tbM1_1.view.readAt (Elt F) (Rect.unit (s := S8192) (k1_off141 i) S1.size (k1_off141_inb i)).toLoadRect (pf 1) (Shape.Idx.first (numel1_S1.symm ▸ Nat.one_pos))) :=
  chk_of_lt_58 _ (word_lt_v3 _ hH.2 _ _ _)
theorem hw59 {pf : pre1.Contents (Elt F)} (hH : Hyps1 pf) (i : grid1.Coords) : k1_chk59 (tbM1_0.view.readAt (Elt F) (Rect.unit (s := S8192) (k1_off146 i) S1.size (k1_off146_inb i)).toLoadRect (pf 0) (Shape.Idx.first (numel1_S1.symm ▸ Nat.one_pos))) :=
  chk_of_lt_59 _ (word_lt_v1 _ hH.1 _ _ _)
theorem hw60 {pf : pre1.Contents (Elt F)} (hH : Hyps1 pf) (i : grid1.Coords) : k1_chk60 (tbM1_1.view.readAt (Elt F) (Rect.unit (s := S8192) (k1_off146 i) S1.size (k1_off146_inb i)).toLoadRect (pf 1) (Shape.Idx.first (numel1_S1.symm ▸ Nat.one_pos))) :=
  chk_of_lt_60 _ (word_lt_v3 _ hH.2 _ _ _)
theorem hw61 {pf : pre1.Contents (Elt F)} (hH : Hyps1 pf) (i : grid1.Coords) : k1_chk61 (tbM1_0.view.readAt (Elt F) (Rect.unit (s := S8192) (k1_off151 i) S1.size (k1_off151_inb i)).toLoadRect (pf 0) (Shape.Idx.first (numel1_S1.symm ▸ Nat.one_pos))) :=
  chk_of_lt_61 _ (word_lt_v1 _ hH.1 _ _ _)
theorem hw62 {pf : pre1.Contents (Elt F)} (hH : Hyps1 pf) (i : grid1.Coords) : k1_chk62 (tbM1_1.view.readAt (Elt F) (Rect.unit (s := S8192) (k1_off151 i) S1.size (k1_off151_inb i)).toLoadRect (pf 1) (Shape.Idx.first (numel1_S1.symm ▸ Nat.one_pos))) :=
  chk_of_lt_62 _ (word_lt_v3 _ hH.2 _ _ _)
theorem hw63 {pf : pre1.Contents (Elt F)} (hH : Hyps1 pf) (i : grid1.Coords) : k1_chk63 (tbM1_0.view.readAt (Elt F) (Rect.unit (s := S8192) (k1_off156 i) S1.size (k1_off156_inb i)).toLoadRect (pf 0) (Shape.Idx.first (numel1_S1.symm ▸ Nat.one_pos))) :=
  chk_of_lt_63 _ (word_lt_v1 _ hH.1 _ _ _)
theorem hw64 {pf : pre1.Contents (Elt F)} (hH : Hyps1 pf) (i : grid1.Coords) : k1_chk64 (tbM1_1.view.readAt (Elt F) (Rect.unit (s := S8192) (k1_off156 i) S1.size (k1_off156_inb i)).toLoadRect (pf 1) (Shape.Idx.first (numel1_S1.symm ▸ Nat.one_pos))) :=
  chk_of_lt_64 _ (word_lt_v3 _ hH.2 _ _ _)
theorem hw65 {pf : pre1.Contents (Elt F)} (hH : Hyps1 pf) (i : grid1.Coords) : k1_chk65 (tbM1_0.view.readAt (Elt F) (Rect.unit (s := S8192) (k1_off161 i) S1.size (k1_off161_inb i)).toLoadRect (pf 0) (Shape.Idx.first (numel1_S1.symm ▸ Nat.one_pos))) :=
  chk_of_lt_65 _ (word_lt_v1 _ hH.1 _ _ _)
theorem hw66 {pf : pre1.Contents (Elt F)} (hH : Hyps1 pf) (i : grid1.Coords) : k1_chk66 (tbM1_1.view.readAt (Elt F) (Rect.unit (s := S8192) (k1_off161 i) S1.size (k1_off161_inb i)).toLoadRect (pf 1) (Shape.Idx.first (numel1_S1.symm ▸ Nat.one_pos))) :=
  chk_of_lt_66 _ (word_lt_v3 _ hH.2 _ _ _)
theorem hw67 {pf : pre1.Contents (Elt F)} (hH : Hyps1 pf) (i : grid1.Coords) : k1_chk67 (tbM1_0.view.readAt (Elt F) (Rect.unit (s := S8192) (k1_off166 i) S1.size (k1_off166_inb i)).toLoadRect (pf 0) (Shape.Idx.first (numel1_S1.symm ▸ Nat.one_pos))) :=
  chk_of_lt_67 _ (word_lt_v1 _ hH.1 _ _ _)
theorem hw68 {pf : pre1.Contents (Elt F)} (hH : Hyps1 pf) (i : grid1.Coords) : k1_chk68 (tbM1_1.view.readAt (Elt F) (Rect.unit (s := S8192) (k1_off166 i) S1.size (k1_off166_inb i)).toLoadRect (pf 1) (Shape.Idx.first (numel1_S1.symm ▸ Nat.one_pos))) :=
  chk_of_lt_68 _ (word_lt_v3 _ hH.2 _ _ _)
theorem hw69 {pf : pre1.Contents (Elt F)} (hH : Hyps1 pf) (i : grid1.Coords) : k1_chk69 (tbM1_0.view.readAt (Elt F) (Rect.unit (s := S8192) (k1_off171 i) S1.size (k1_off171_inb i)).toLoadRect (pf 0) (Shape.Idx.first (numel1_S1.symm ▸ Nat.one_pos))) :=
  chk_of_lt_69 _ (word_lt_v1 _ hH.1 _ _ _)
theorem hw70 {pf : pre1.Contents (Elt F)} (hH : Hyps1 pf) (i : grid1.Coords) : k1_chk70 (tbM1_1.view.readAt (Elt F) (Rect.unit (s := S8192) (k1_off171 i) S1.size (k1_off171_inb i)).toLoadRect (pf 1) (Shape.Idx.first (numel1_S1.symm ▸ Nat.one_pos))) :=
  chk_of_lt_70 _ (word_lt_v3 _ hH.2 _ _ _)
theorem hw71 {pf : pre1.Contents (Elt F)} (hH : Hyps1 pf) (i : grid1.Coords) : k1_chk71 (tbM1_0.view.readAt (Elt F) (Rect.unit (s := S8192) (k1_off176 i) S1.size (k1_off176_inb i)).toLoadRect (pf 0) (Shape.Idx.first (numel1_S1.symm ▸ Nat.one_pos))) :=
  chk_of_lt_71 _ (word_lt_v1 _ hH.1 _ _ _)
theorem hw72 {pf : pre1.Contents (Elt F)} (hH : Hyps1 pf) (i : grid1.Coords) : k1_chk72 (tbM1_1.view.readAt (Elt F) (Rect.unit (s := S8192) (k1_off176 i) S1.size (k1_off176_inb i)).toLoadRect (pf 1) (Shape.Idx.first (numel1_S1.symm ▸ Nat.one_pos))) :=
  chk_of_lt_72 _ (word_lt_v3 _ hH.2 _ _ _)
theorem hw73 {pf : pre1.Contents (Elt F)} (hH : Hyps1 pf) (i : grid1.Coords) : k1_chk73 (tbM1_0.view.readAt (Elt F) (Rect.unit (s := S8192) (k1_off181 i) S1.size (k1_off181_inb i)).toLoadRect (pf 0) (Shape.Idx.first (numel1_S1.symm ▸ Nat.one_pos))) :=
  chk_of_lt_73 _ (word_lt_v1 _ hH.1 _ _ _)
theorem hw74 {pf : pre1.Contents (Elt F)} (hH : Hyps1 pf) (i : grid1.Coords) : k1_chk74 (tbM1_1.view.readAt (Elt F) (Rect.unit (s := S8192) (k1_off181 i) S1.size (k1_off181_inb i)).toLoadRect (pf 1) (Shape.Idx.first (numel1_S1.symm ▸ Nat.one_pos))) :=
  chk_of_lt_74 _ (word_lt_v3 _ hH.2 _ _ _)
theorem hw75 {pf : pre1.Contents (Elt F)} (hH : Hyps1 pf) (i : grid1.Coords) : k1_chk75 (tbM1_0.view.readAt (Elt F) (Rect.unit (s := S8192) (k1_off186 i) S1.size (k1_off186_inb i)).toLoadRect (pf 0) (Shape.Idx.first (numel1_S1.symm ▸ Nat.one_pos))) :=
  chk_of_lt_75 _ (word_lt_v1 _ hH.1 _ _ _)
theorem hw76 {pf : pre1.Contents (Elt F)} (hH : Hyps1 pf) (i : grid1.Coords) : k1_chk76 (tbM1_1.view.readAt (Elt F) (Rect.unit (s := S8192) (k1_off186 i) S1.size (k1_off186_inb i)).toLoadRect (pf 1) (Shape.Idx.first (numel1_S1.symm ▸ Nat.one_pos))) :=
  chk_of_lt_76 _ (word_lt_v3 _ hH.2 _ _ _)
theorem hw77 {pf : pre1.Contents (Elt F)} (hH : Hyps1 pf) (i : grid1.Coords) : k1_chk77 (tbM1_0.view.readAt (Elt F) (Rect.unit (s := S8192) (k1_off191 i) S1.size (k1_off191_inb i)).toLoadRect (pf 0) (Shape.Idx.first (numel1_S1.symm ▸ Nat.one_pos))) :=
  chk_of_lt_77 _ (word_lt_v1 _ hH.1 _ _ _)
theorem hw78 {pf : pre1.Contents (Elt F)} (hH : Hyps1 pf) (i : grid1.Coords) : k1_chk78 (tbM1_1.view.readAt (Elt F) (Rect.unit (s := S8192) (k1_off191 i) S1.size (k1_off191_inb i)).toLoadRect (pf 1) (Shape.Idx.first (numel1_S1.symm ▸ Nat.one_pos))) :=
  chk_of_lt_78 _ (word_lt_v3 _ hH.2 _ _ _)
theorem hw79 {pf : pre1.Contents (Elt F)} (hH : Hyps1 pf) (i : grid1.Coords) : k1_chk79 (tbM1_0.view.readAt (Elt F) (Rect.unit (s := S8192) (k1_off196 i) S1.size (k1_off196_inb i)).toLoadRect (pf 0) (Shape.Idx.first (numel1_S1.symm ▸ Nat.one_pos))) :=
  chk_of_lt_79 _ (word_lt_v1 _ hH.1 _ _ _)
theorem hw80 {pf : pre1.Contents (Elt F)} (hH : Hyps1 pf) (i : grid1.Coords) : k1_chk80 (tbM1_1.view.readAt (Elt F) (Rect.unit (s := S8192) (k1_off196 i) S1.size (k1_off196_inb i)).toLoadRect (pf 1) (Shape.Idx.first (numel1_S1.symm ▸ Nat.one_pos))) :=
  chk_of_lt_80 _ (word_lt_v3 _ hH.2 _ _ _)
theorem hw81 {pf : pre1.Contents (Elt F)} (hH : Hyps1 pf) (i : grid1.Coords) : k1_chk81 (tbM1_0.view.readAt (Elt F) (Rect.unit (s := S8192) (k1_off201 i) S1.size (k1_off201_inb i)).toLoadRect (pf 0) (Shape.Idx.first (numel1_S1.symm ▸ Nat.one_pos))) :=
  chk_of_lt_81 _ (word_lt_v1 _ hH.1 _ _ _)
theorem hw82 {pf : pre1.Contents (Elt F)} (hH : Hyps1 pf) (i : grid1.Coords) : k1_chk82 (tbM1_1.view.readAt (Elt F) (Rect.unit (s := S8192) (k1_off201 i) S1.size (k1_off201_inb i)).toLoadRect (pf 1) (Shape.Idx.first (numel1_S1.symm ▸ Nat.one_pos))) :=
  chk_of_lt_82 _ (word_lt_v3 _ hH.2 _ _ _)
theorem hw83 {pf : pre1.Contents (Elt F)} (hH : Hyps1 pf) (i : grid1.Coords) : k1_chk83 (tbM1_0.view.readAt (Elt F) (Rect.unit (s := S8192) (k1_off206 i) S1.size (k1_off206_inb i)).toLoadRect (pf 0) (Shape.Idx.first (numel1_S1.symm ▸ Nat.one_pos))) :=
  chk_of_lt_83 _ (word_lt_v1 _ hH.1 _ _ _)
theorem hw84 {pf : pre1.Contents (Elt F)} (hH : Hyps1 pf) (i : grid1.Coords) : k1_chk84 (tbM1_1.view.readAt (Elt F) (Rect.unit (s := S8192) (k1_off206 i) S1.size (k1_off206_inb i)).toLoadRect (pf 1) (Shape.Idx.first (numel1_S1.symm ▸ Nat.one_pos))) :=
  chk_of_lt_84 _ (word_lt_v3 _ hH.2 _ _ _)
theorem hw85 {pf : pre1.Contents (Elt F)} (hH : Hyps1 pf) (i : grid1.Coords) : k1_chk85 (tbM1_0.view.readAt (Elt F) (Rect.unit (s := S8192) (k1_off211 i) S1.size (k1_off211_inb i)).toLoadRect (pf 0) (Shape.Idx.first (numel1_S1.symm ▸ Nat.one_pos))) :=
  chk_of_lt_85 _ (word_lt_v1 _ hH.1 _ _ _)
theorem hw86 {pf : pre1.Contents (Elt F)} (hH : Hyps1 pf) (i : grid1.Coords) : k1_chk86 (tbM1_1.view.readAt (Elt F) (Rect.unit (s := S8192) (k1_off211 i) S1.size (k1_off211_inb i)).toLoadRect (pf 1) (Shape.Idx.first (numel1_S1.symm ▸ Nat.one_pos))) :=
  chk_of_lt_86 _ (word_lt_v3 _ hH.2 _ _ _)
theorem hw87 {pf : pre1.Contents (Elt F)} (hH : Hyps1 pf) (i : grid1.Coords) : k1_chk87 (tbM1_0.view.readAt (Elt F) (Rect.unit (s := S8192) (k1_off216 i) S1.size (k1_off216_inb i)).toLoadRect (pf 0) (Shape.Idx.first (numel1_S1.symm ▸ Nat.one_pos))) :=
  chk_of_lt_87 _ (word_lt_v1 _ hH.1 _ _ _)
theorem hw88 {pf : pre1.Contents (Elt F)} (hH : Hyps1 pf) (i : grid1.Coords) : k1_chk88 (tbM1_1.view.readAt (Elt F) (Rect.unit (s := S8192) (k1_off216 i) S1.size (k1_off216_inb i)).toLoadRect (pf 1) (Shape.Idx.first (numel1_S1.symm ▸ Nat.one_pos))) :=
  chk_of_lt_88 _ (word_lt_v3 _ hH.2 _ _ _)
theorem hw89 {pf : pre1.Contents (Elt F)} (hH : Hyps1 pf) (i : grid1.Coords) : k1_chk89 (tbM1_0.view.readAt (Elt F) (Rect.unit (s := S8192) (k1_off221 i) S1.size (k1_off221_inb i)).toLoadRect (pf 0) (Shape.Idx.first (numel1_S1.symm ▸ Nat.one_pos))) :=
  chk_of_lt_89 _ (word_lt_v1 _ hH.1 _ _ _)
theorem hw90 {pf : pre1.Contents (Elt F)} (hH : Hyps1 pf) (i : grid1.Coords) : k1_chk90 (tbM1_1.view.readAt (Elt F) (Rect.unit (s := S8192) (k1_off221 i) S1.size (k1_off221_inb i)).toLoadRect (pf 1) (Shape.Idx.first (numel1_S1.symm ▸ Nat.one_pos))) :=
  chk_of_lt_90 _ (word_lt_v3 _ hH.2 _ _ _)
theorem hw91 {pf : pre1.Contents (Elt F)} (hH : Hyps1 pf) (i : grid1.Coords) : k1_chk91 (tbM1_0.view.readAt (Elt F) (Rect.unit (s := S8192) (k1_off226 i) S1.size (k1_off226_inb i)).toLoadRect (pf 0) (Shape.Idx.first (numel1_S1.symm ▸ Nat.one_pos))) :=
  chk_of_lt_91 _ (word_lt_v1 _ hH.1 _ _ _)
theorem hw92 {pf : pre1.Contents (Elt F)} (hH : Hyps1 pf) (i : grid1.Coords) : k1_chk92 (tbM1_1.view.readAt (Elt F) (Rect.unit (s := S8192) (k1_off226 i) S1.size (k1_off226_inb i)).toLoadRect (pf 1) (Shape.Idx.first (numel1_S1.symm ▸ Nat.one_pos))) :=
  chk_of_lt_92 _ (word_lt_v3 _ hH.2 _ _ _)
theorem hw93 {pf : pre1.Contents (Elt F)} (hH : Hyps1 pf) (i : grid1.Coords) : k1_chk93 (tbM1_0.view.readAt (Elt F) (Rect.unit (s := S8192) (k1_off231 i) S1.size (k1_off231_inb i)).toLoadRect (pf 0) (Shape.Idx.first (numel1_S1.symm ▸ Nat.one_pos))) :=
  chk_of_lt_93 _ (word_lt_v1 _ hH.1 _ _ _)
theorem hw94 {pf : pre1.Contents (Elt F)} (hH : Hyps1 pf) (i : grid1.Coords) : k1_chk94 (tbM1_1.view.readAt (Elt F) (Rect.unit (s := S8192) (k1_off231 i) S1.size (k1_off231_inb i)).toLoadRect (pf 1) (Shape.Idx.first (numel1_S1.symm ▸ Nat.one_pos))) :=
  chk_of_lt_94 _ (word_lt_v3 _ hH.2 _ _ _)
theorem hw95 {pf : pre1.Contents (Elt F)} (hH : Hyps1 pf) (i : grid1.Coords) : k1_chk95 (tbM1_0.view.readAt (Elt F) (Rect.unit (s := S8192) (k1_off236 i) S1.size (k1_off236_inb i)).toLoadRect (pf 0) (Shape.Idx.first (numel1_S1.symm ▸ Nat.one_pos))) :=
  chk_of_lt_95 _ (word_lt_v1 _ hH.1 _ _ _)
theorem hw96 {pf : pre1.Contents (Elt F)} (hH : Hyps1 pf) (i : grid1.Coords) : k1_chk96 (tbM1_1.view.readAt (Elt F) (Rect.unit (s := S8192) (k1_off236 i) S1.size (k1_off236_inb i)).toLoadRect (pf 1) (Shape.Idx.first (numel1_S1.symm ▸ Nat.one_pos))) :=
  chk_of_lt_96 _ (word_lt_v3 _ hH.2 _ _ _)
theorem hw97 {pf : pre1.Contents (Elt F)} (hH : Hyps1 pf) (i : grid1.Coords) : k1_chk97 (tbM1_0.view.readAt (Elt F) (Rect.unit (s := S8192) (k1_off241 i) S1.size (k1_off241_inb i)).toLoadRect (pf 0) (Shape.Idx.first (numel1_S1.symm ▸ Nat.one_pos))) :=
  chk_of_lt_97 _ (word_lt_v1 _ hH.1 _ _ _)
theorem hw98 {pf : pre1.Contents (Elt F)} (hH : Hyps1 pf) (i : grid1.Coords) : k1_chk98 (tbM1_1.view.readAt (Elt F) (Rect.unit (s := S8192) (k1_off241 i) S1.size (k1_off241_inb i)).toLoadRect (pf 1) (Shape.Idx.first (numel1_S1.symm ▸ Nat.one_pos))) :=
  chk_of_lt_98 _ (word_lt_v3 _ hH.2 _ _ _)
theorem hw99 {pf : pre1.Contents (Elt F)} (hH : Hyps1 pf) (i : grid1.Coords) : k1_chk99 (tbM1_0.view.readAt (Elt F) (Rect.unit (s := S8192) (k1_off246 i) S1.size (k1_off246_inb i)).toLoadRect (pf 0) (Shape.Idx.first (numel1_S1.symm ▸ Nat.one_pos))) :=
  chk_of_lt_99 _ (word_lt_v1 _ hH.1 _ _ _)
theorem hw100 {pf : pre1.Contents (Elt F)} (hH : Hyps1 pf) (i : grid1.Coords) : k1_chk100 (tbM1_1.view.readAt (Elt F) (Rect.unit (s := S8192) (k1_off246 i) S1.size (k1_off246_inb i)).toLoadRect (pf 1) (Shape.Idx.first (numel1_S1.symm ▸ Nat.one_pos))) :=
  chk_of_lt_100 _ (word_lt_v3 _ hH.2 _ _ _)
theorem hw101 {pf : pre1.Contents (Elt F)} (hH : Hyps1 pf) (i : grid1.Coords) : k1_chk101 (tbM1_0.view.readAt (Elt F) (Rect.unit (s := S8192) (k1_off251 i) S1.size (k1_off251_inb i)).toLoadRect (pf 0) (Shape.Idx.first (numel1_S1.symm ▸ Nat.one_pos))) :=
  chk_of_lt_101 _ (word_lt_v1 _ hH.1 _ _ _)
theorem hw102 {pf : pre1.Contents (Elt F)} (hH : Hyps1 pf) (i : grid1.Coords) : k1_chk102 (tbM1_1.view.readAt (Elt F) (Rect.unit (s := S8192) (k1_off251 i) S1.size (k1_off251_inb i)).toLoadRect (pf 1) (Shape.Idx.first (numel1_S1.symm ▸ Nat.one_pos))) :=
  chk_of_lt_102 _ (word_lt_v3 _ hH.2 _ _ _)
theorem hw103 {pf : pre1.Contents (Elt F)} (hH : Hyps1 pf) (i : grid1.Coords) : k1_chk103 (tbM1_0.view.readAt (Elt F) (Rect.unit (s := S8192) (k1_off256 i) S1.size (k1_off256_inb i)).toLoadRect (pf 0) (Shape.Idx.first (numel1_S1.symm ▸ Nat.one_pos))) :=
  chk_of_lt_103 _ (word_lt_v1 _ hH.1 _ _ _)
theorem hw104 {pf : pre1.Contents (Elt F)} (hH : Hyps1 pf) (i : grid1.Coords) : k1_chk104 (tbM1_1.view.readAt (Elt F) (Rect.unit (s := S8192) (k1_off256 i) S1.size (k1_off256_inb i)).toLoadRect (pf 1) (Shape.Idx.first (numel1_S1.symm ▸ Nat.one_pos))) :=
  chk_of_lt_104 _ (word_lt_v3 _ hH.2 _ _ _)
theorem hw105 {pf : pre1.Contents (Elt F)} (hH : Hyps1 pf) (i : grid1.Coords) : k1_chk105 (tbM1_0.view.readAt (Elt F) (Rect.unit (s := S8192) (k1_off261 i) S1.size (k1_off261_inb i)).toLoadRect (pf 0) (Shape.Idx.first (numel1_S1.symm ▸ Nat.one_pos))) :=
  chk_of_lt_105 _ (word_lt_v1 _ hH.1 _ _ _)
theorem hw106 {pf : pre1.Contents (Elt F)} (hH : Hyps1 pf) (i : grid1.Coords) : k1_chk106 (tbM1_1.view.readAt (Elt F) (Rect.unit (s := S8192) (k1_off261 i) S1.size (k1_off261_inb i)).toLoadRect (pf 1) (Shape.Idx.first (numel1_S1.symm ▸ Nat.one_pos))) :=
  chk_of_lt_106 _ (word_lt_v3 _ hH.2 _ _ _)
theorem hw107 {pf : pre1.Contents (Elt F)} (hH : Hyps1 pf) (i : grid1.Coords) : k1_chk107 (tbM1_0.view.readAt (Elt F) (Rect.unit (s := S8192) (k1_off266 i) S1.size (k1_off266_inb i)).toLoadRect (pf 0) (Shape.Idx.first (numel1_S1.symm ▸ Nat.one_pos))) :=
  chk_of_lt_107 _ (word_lt_v1 _ hH.1 _ _ _)
theorem hw108 {pf : pre1.Contents (Elt F)} (hH : Hyps1 pf) (i : grid1.Coords) : k1_chk108 (tbM1_1.view.readAt (Elt F) (Rect.unit (s := S8192) (k1_off266 i) S1.size (k1_off266_inb i)).toLoadRect (pf 1) (Shape.Idx.first (numel1_S1.symm ▸ Nat.one_pos))) :=
  chk_of_lt_108 _ (word_lt_v3 _ hH.2 _ _ _)
theorem hw109 {pf : pre1.Contents (Elt F)} (hH : Hyps1 pf) (i : grid1.Coords) : k1_chk109 (tbM1_0.view.readAt (Elt F) (Rect.unit (s := S8192) (k1_off271 i) S1.size (k1_off271_inb i)).toLoadRect (pf 0) (Shape.Idx.first (numel1_S1.symm ▸ Nat.one_pos))) :=
  chk_of_lt_109 _ (word_lt_v1 _ hH.1 _ _ _)
theorem hw110 {pf : pre1.Contents (Elt F)} (hH : Hyps1 pf) (i : grid1.Coords) : k1_chk110 (tbM1_1.view.readAt (Elt F) (Rect.unit (s := S8192) (k1_off271 i) S1.size (k1_off271_inb i)).toLoadRect (pf 1) (Shape.Idx.first (numel1_S1.symm ▸ Nat.one_pos))) :=
  chk_of_lt_110 _ (word_lt_v3 _ hH.2 _ _ _)
theorem hw111 {pf : pre1.Contents (Elt F)} (hH : Hyps1 pf) (i : grid1.Coords) : k1_chk111 (tbM1_0.view.readAt (Elt F) (Rect.unit (s := S8192) (k1_off276 i) S1.size (k1_off276_inb i)).toLoadRect (pf 0) (Shape.Idx.first (numel1_S1.symm ▸ Nat.one_pos))) :=
  chk_of_lt_111 _ (word_lt_v1 _ hH.1 _ _ _)
theorem hw112 {pf : pre1.Contents (Elt F)} (hH : Hyps1 pf) (i : grid1.Coords) : k1_chk112 (tbM1_1.view.readAt (Elt F) (Rect.unit (s := S8192) (k1_off276 i) S1.size (k1_off276_inb i)).toLoadRect (pf 1) (Shape.Idx.first (numel1_S1.symm ▸ Nat.one_pos))) :=
  chk_of_lt_112 _ (word_lt_v3 _ hH.2 _ _ _)
theorem hw113 {pf : pre1.Contents (Elt F)} (hH : Hyps1 pf) (i : grid1.Coords) : k1_chk113 (tbM1_0.view.readAt (Elt F) (Rect.unit (s := S8192) (k1_off281 i) S1.size (k1_off281_inb i)).toLoadRect (pf 0) (Shape.Idx.first (numel1_S1.symm ▸ Nat.one_pos))) :=
  chk_of_lt_113 _ (word_lt_v1 _ hH.1 _ _ _)
theorem hw114 {pf : pre1.Contents (Elt F)} (hH : Hyps1 pf) (i : grid1.Coords) : k1_chk114 (tbM1_1.view.readAt (Elt F) (Rect.unit (s := S8192) (k1_off281 i) S1.size (k1_off281_inb i)).toLoadRect (pf 1) (Shape.Idx.first (numel1_S1.symm ▸ Nat.one_pos))) :=
  chk_of_lt_114 _ (word_lt_v3 _ hH.2 _ _ _)
theorem hw115 {pf : pre1.Contents (Elt F)} (hH : Hyps1 pf) (i : grid1.Coords) : k1_chk115 (tbM1_0.view.readAt (Elt F) (Rect.unit (s := S8192) (k1_off286 i) S1.size (k1_off286_inb i)).toLoadRect (pf 0) (Shape.Idx.first (numel1_S1.symm ▸ Nat.one_pos))) :=
  chk_of_lt_115 _ (word_lt_v1 _ hH.1 _ _ _)
theorem hw116 {pf : pre1.Contents (Elt F)} (hH : Hyps1 pf) (i : grid1.Coords) : k1_chk116 (tbM1_1.view.readAt (Elt F) (Rect.unit (s := S8192) (k1_off286 i) S1.size (k1_off286_inb i)).toLoadRect (pf 1) (Shape.Idx.first (numel1_S1.symm ▸ Nat.one_pos))) :=
  chk_of_lt_116 _ (word_lt_v3 _ hH.2 _ _ _)
theorem hw117 {pf : pre1.Contents (Elt F)} (hH : Hyps1 pf) (i : grid1.Coords) : k1_chk117 (tbM1_0.view.readAt (Elt F) (Rect.unit (s := S8192) (k1_off291 i) S1.size (k1_off291_inb i)).toLoadRect (pf 0) (Shape.Idx.first (numel1_S1.symm ▸ Nat.one_pos))) :=
  chk_of_lt_117 _ (word_lt_v1 _ hH.1 _ _ _)
theorem hw118 {pf : pre1.Contents (Elt F)} (hH : Hyps1 pf) (i : grid1.Coords) : k1_chk118 (tbM1_1.view.readAt (Elt F) (Rect.unit (s := S8192) (k1_off291 i) S1.size (k1_off291_inb i)).toLoadRect (pf 1) (Shape.Idx.first (numel1_S1.symm ▸ Nat.one_pos))) :=
  chk_of_lt_118 _ (word_lt_v3 _ hH.2 _ _ _)
theorem hw119 {pf : pre1.Contents (Elt F)} (hH : Hyps1 pf) (i : grid1.Coords) : k1_chk119 (tbM1_0.view.readAt (Elt F) (Rect.unit (s := S8192) (k1_off296 i) S1.size (k1_off296_inb i)).toLoadRect (pf 0) (Shape.Idx.first (numel1_S1.symm ▸ Nat.one_pos))) :=
  chk_of_lt_119 _ (word_lt_v1 _ hH.1 _ _ _)
theorem hw120 {pf : pre1.Contents (Elt F)} (hH : Hyps1 pf) (i : grid1.Coords) : k1_chk120 (tbM1_1.view.readAt (Elt F) (Rect.unit (s := S8192) (k1_off296 i) S1.size (k1_off296_inb i)).toLoadRect (pf 1) (Shape.Idx.first (numel1_S1.symm ▸ Nat.one_pos))) :=
  chk_of_lt_120 _ (word_lt_v3 _ hH.2 _ _ _)
theorem hw121 {pf : pre1.Contents (Elt F)} (hH : Hyps1 pf) (i : grid1.Coords) : k1_chk121 (tbM1_0.view.readAt (Elt F) (Rect.unit (s := S8192) (k1_off301 i) S1.size (k1_off301_inb i)).toLoadRect (pf 0) (Shape.Idx.first (numel1_S1.symm ▸ Nat.one_pos))) :=
  chk_of_lt_121 _ (word_lt_v1 _ hH.1 _ _ _)
theorem hw122 {pf : pre1.Contents (Elt F)} (hH : Hyps1 pf) (i : grid1.Coords) : k1_chk122 (tbM1_1.view.readAt (Elt F) (Rect.unit (s := S8192) (k1_off301 i) S1.size (k1_off301_inb i)).toLoadRect (pf 1) (Shape.Idx.first (numel1_S1.symm ▸ Nat.one_pos))) :=
  chk_of_lt_122 _ (word_lt_v3 _ hH.2 _ _ _)
theorem hw123 {pf : pre1.Contents (Elt F)} (hH : Hyps1 pf) (i : grid1.Coords) : k1_chk123 (tbM1_0.view.readAt (Elt F) (Rect.unit (s := S8192) (k1_off306 i) S1.size (k1_off306_inb i)).toLoadRect (pf 0) (Shape.Idx.first (numel1_S1.symm ▸ Nat.one_pos))) :=
  chk_of_lt_123 _ (word_lt_v1 _ hH.1 _ _ _)
theorem hw124 {pf : pre1.Contents (Elt F)} (hH : Hyps1 pf) (i : grid1.Coords) : k1_chk124 (tbM1_1.view.readAt (Elt F) (Rect.unit (s := S8192) (k1_off306 i) S1.size (k1_off306_inb i)).toLoadRect (pf 1) (Shape.Idx.first (numel1_S1.symm ▸ Nat.one_pos))) :=
  chk_of_lt_124 _ (word_lt_v3 _ hH.2 _ _ _)
theorem hw125 {pf : pre1.Contents (Elt F)} (hH : Hyps1 pf) (i : grid1.Coords) : k1_chk125 (tbM1_0.view.readAt (Elt F) (Rect.unit (s := S8192) (k1_off311 i) S1.size (k1_off311_inb i)).toLoadRect (pf 0) (Shape.Idx.first (numel1_S1.symm ▸ Nat.one_pos))) :=
  chk_of_lt_125 _ (word_lt_v1 _ hH.1 _ _ _)
theorem hw126 {pf : pre1.Contents (Elt F)} (hH : Hyps1 pf) (i : grid1.Coords) : k1_chk126 (tbM1_1.view.readAt (Elt F) (Rect.unit (s := S8192) (k1_off311 i) S1.size (k1_off311_inb i)).toLoadRect (pf 1) (Shape.Idx.first (numel1_S1.symm ▸ Nat.one_pos))) :=
  chk_of_lt_126 _ (word_lt_v3 _ hH.2 _ _ _)
theorem hw127 {pf : pre1.Contents (Elt F)} (hH : Hyps1 pf) (i : grid1.Coords) : k1_chk127 (tbM1_0.view.readAt (Elt F) (Rect.unit (s := S8192) (k1_off316 i) S1.size (k1_off316_inb i)).toLoadRect (pf 0) (Shape.Idx.first (numel1_S1.symm ▸ Nat.one_pos))) :=
  chk_of_lt_127 _ (word_lt_v1 _ hH.1 _ _ _)
theorem hw128 {pf : pre1.Contents (Elt F)} (hH : Hyps1 pf) (i : grid1.Coords) : k1_chk128 (tbM1_1.view.readAt (Elt F) (Rect.unit (s := S8192) (k1_off316 i) S1.size (k1_off316_inb i)).toLoadRect (pf 1) (Shape.Idx.first (numel1_S1.symm ▸ Nat.one_pos))) :=
  chk_of_lt_128 _ (word_lt_v3 _ hH.2 _ _ _)

/-! ## The body at a point -/

/-- Each window's current staging memref at a point, as the pipeline passes it to the body, and its wholeness. -/
abbrev ms1_0 (t : Fin (cfg1 a1).N) : Memref sig .tc .vmem S8192x256 .f32 := spec1_0.stage ((cfg1 a1).slots t 0)
abbrev hs1_0 (t : Fin (cfg1 a1).N) : (ms1_0 a1 t).IsWhole := hstage1_0 (((cfg1 a1).slots t 0).cast nbuf1_0)
abbrev ms1_1 (t : Fin (cfg1 a1).N) : Memref sig .tc .vmem S8192x256 .f32 := spec1_1.stage ((cfg1 a1).slots t 1)
abbrev hs1_1 (t : Fin (cfg1 a1).N) : (ms1_1 a1 t).IsWhole := hstage1_1 (((cfg1 a1).slots t 1).cast nbuf1_1)
abbrev ms1_2 (t : Fin (cfg1 a1).N) : Memref sig .tc .vmem S256x256 .f32 := spec1_2.stage ((cfg1 a1).slots t 2)
abbrev hs1_2 (t : Fin (cfg1 a1).N) : (ms1_2 a1 t).IsWhole := hstage1_2 (((cfg1 a1).slots t 2).cast nbuf1_2)
abbrev ms1_3 (t : Fin (cfg1 a1).N) : Memref sig .tc .vmem S1x256 .f32 := spec1_3.stage ((cfg1 a1).slots t 3)
abbrev hs1_3 (t : Fin (cfg1 a1).N) : (ms1_3 a1 t).IsWhole := hstage1_3 (((cfg1 a1).slots t 3).cast nbuf1_3)
abbrev ms1_4 (t : Fin (cfg1 a1).N) : Memref sig .tc .vmem S256x256 .f32 := spec1_4.stage ((cfg1 a1).slots t 4)
abbrev hs1_4 (t : Fin (cfg1 a1).N) : (ms1_4 a1 t).IsWhole := hstage1_4 (((cfg1 a1).slots t 4).cast nbuf1_4)
abbrev ms1_5 (t : Fin (cfg1 a1).N) : Memref sig .tc .vmem S1x256 .f32 := spec1_5.stage ((cfg1 a1).slots t 5)
abbrev hs1_5 (t : Fin (cfg1 a1).N) : (ms1_5 a1 t).IsWhole := hstage1_5 (((cfg1 a1).slots t 5).cast nbuf1_5)
abbrev ms1_6 (t : Fin (cfg1 a1).N) : Memref sig .tc .vmem S256x256 .f32 := spec1_6.stage ((cfg1 a1).slots t 6)
abbrev hs1_6 (t : Fin (cfg1 a1).N) : (ms1_6 a1 t).IsWhole := hstage1_6 (((cfg1 a1).slots t 6).cast nbuf1_6)
abbrev ms1_7 (t : Fin (cfg1 a1).N) : Memref sig .tc .vmem S1x256 .f32 := spec1_7.stage ((cfg1 a1).slots t 7)
abbrev hs1_7 (t : Fin (cfg1 a1).N) : (ms1_7 a1 t).IsWhole := hstage1_7 (((cfg1 a1).slots t 7).cast nbuf1_7)
abbrev ms1_8 (t : Fin (cfg1 a1).N) : Memref sig .tc .vmem S256x256 .f32 := spec1_8.stage ((cfg1 a1).slots t 8)
abbrev hs1_8 (t : Fin (cfg1 a1).N) : (ms1_8 a1 t).IsWhole := hstage1_8 (((cfg1 a1).slots t 8).cast nbuf1_8)
abbrev ms1_9 (t : Fin (cfg1 a1).N) : Memref sig .tc .vmem S1x256 .f32 := spec1_9.stage ((cfg1 a1).slots t 9)
abbrev hs1_9 (t : Fin (cfg1 a1).N) : (ms1_9 a1 t).IsWhole := hstage1_9 (((cfg1 a1).slots t 9).cast nbuf1_9)
abbrev ms1_10 (t : Fin (cfg1 a1).N) : Memref sig .tc .vmem S256x1 .f32 := spec1_10.stage ((cfg1 a1).slots t 10)
abbrev hs1_10 (t : Fin (cfg1 a1).N) : (ms1_10 a1 t).IsWhole := hstage1_10 (((cfg1 a1).slots t 10).cast nbuf1_10)
abbrev ms1_11 (t : Fin (cfg1 a1).N) : Memref sig .tc .vmem S1x1 .f32 := spec1_11.stage ((cfg1 a1).slots t 11)
abbrev hs1_11 (t : Fin (cfg1 a1).N) : (ms1_11 a1 t).IsWhole := hstage1_11 (((cfg1 a1).slots t 11).cast nbuf1_11)
abbrev ms1_12 (t : Fin (cfg1 a1).N) : Memref sig .tc .vmem S1x1 .f32 := spec1_12.stage ((cfg1 a1).slots t 12)
abbrev hs1_12 (t : Fin (cfg1 a1).N) : (ms1_12 a1 t).IsWhole := hstage1_12 (((cfg1 a1).slots t 12).cast nbuf1_12)
abbrev ms1_13 (t : Fin (cfg1 a1).N) : Memref sig .tc .vmem S64x1 .f32 := spec1_13.stage ((cfg1 a1).slots t 13)
abbrev hs1_13 (t : Fin (cfg1 a1).N) : (ms1_13 a1 t).IsWhole := hstage1_13 (((cfg1 a1).slots t 13).cast nbuf1_13)
/-- The body as the pipeline calls it at a point: the tables and the adjacency array whole, each window's current staging memref,
    the four scratch buffers whole, the two banks of semaphores. -/
abbrev bodyAt1 (t : Fin (cfg1 a1).N) : Prog (TpuEff nD τ sig (Elt F) Λ₀ .tc) PUnit :=
  cc1__main_kernel (grid1.coords t) (Memref.whole main_v1) (Memref.isWhole_whole _) (Memref.whole main_v3) (Memref.isWhole_whole _) (spec1_0.stage ((cfg1 a1).slots t 0)) (hstage1_0 (((cfg1 a1).slots t 0).cast nbuf1_0)) (spec1_1.stage ((cfg1 a1).slots t 1)) (hstage1_1 (((cfg1 a1).slots t 1).cast nbuf1_1)) (Memref.whole main_arg1) (Memref.isWhole_whole _) (spec1_2.stage ((cfg1 a1).slots t 2)) (hstage1_2 (((cfg1 a1).slots t 2).cast nbuf1_2)) (spec1_3.stage ((cfg1 a1).slots t 3)) (hstage1_3 (((cfg1 a1).slots t 3).cast nbuf1_3)) (spec1_4.stage ((cfg1 a1).slots t 4)) (hstage1_4 (((cfg1 a1).slots t 4).cast nbuf1_4)) (spec1_5.stage ((cfg1 a1).slots t 5)) (hstage1_5 (((cfg1 a1).slots t 5).cast nbuf1_5)) (spec1_6.stage ((cfg1 a1).slots t 6)) (hstage1_6 (((cfg1 a1).slots t 6).cast nbuf1_6)) (spec1_7.stage ((cfg1 a1).slots t 7)) (hstage1_7 (((cfg1 a1).slots t 7).cast nbuf1_7)) (spec1_8.stage ((cfg1 a1).slots t 8)) (hstage1_8 (((cfg1 a1).slots t 8).cast nbuf1_8)) (spec1_9.stage ((cfg1 a1).slots t 9)) (hstage1_9 (((cfg1 a1).slots t 9).cast nbuf1_9)) (spec1_10.stage ((cfg1 a1).slots t 10)) (hstage1_10 (((cfg1 a1).slots t 10).cast nbuf1_10)) (spec1_11.stage ((cfg1 a1).slots t 11)) (hstage1_11 (((cfg1 a1).slots t 11).cast nbuf1_11)) (spec1_12.stage ((cfg1 a1).slots t 12)) (hstage1_12 (((cfg1 a1).slots t 12).cast nbuf1_12)) (spec1_13.stage ((cfg1 a1).slots t 13)) (hstage1_13 (((cfg1 a1).slots t 13).cast nbuf1_13)) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5

/-- A window's block at a point, read off its array as the region finds it. -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

/-! ## What the body leaves in the output block -/

/-- One staging buffer of the output window, through which its contents are stated: a list of pieces that covers the block reads back
    the same through any view of the block's shape. -/
abbrev VO1_13 : View sig .tc .vmem S64x1 .f32 := (Memref.whole cc1_stg13_0 : Memref sig .tc .vmem S64x1 .f32).view
/-- Contents of the four scratch buffers at which the output is stated, fixed once: what the body leaves in the output block is the
    same whatever they held, since it overwrites every scratch row before reading it. -/
abbrev scJ1_0 : Vec F S64x8192 .f32 := scM1_0.view.read (Elt F) scM1_0.view.junk
abbrev scJ1_1 : Vec F S64x8192 .f32 := scM1_1.view.read (Elt F) scM1_1.view.junk
abbrev scJ1_2 : Vec F S64x256 .f32 := scM1_2.view.read (Elt F) scM1_2.view.junk
abbrev scJ1_3 : Vec F S64x256 .f32 := scM1_3.view.read (Elt F) scM1_3.view.junk

/-- The run's pieces for the output block tile it: the body's one store is the whole block. -/
theorem cover1_13 (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 : Vec F S64x8192 .f32) (xs2 xs3 : Vec F S64x256 .f32) (xt0 : TbBuf1 (F := F) c tbM1_0) (xt1 : TbBuf1 (F := F) c tbM1_1) (fh0 : HbBuf1 (F := F) c hbM1_0)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    ∀ y : S64x1.Idx, ∃ pc ∈ (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1, y ∈ pc.1.set :=
  fun y => View.cover_of_tiledL (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1 S64x1.size (by sl_kernel_rfl) y

/-- What the output's staging buffer holds after the body at a point: the run's pieces, at the point's memrefs, input blocks and
    table words and the fixed scratch contents, read back over arbitrary contents. -/
def outsAt1 (hH : Hyps1 a1.1) (c : Dev nD) (t : Fin (cfg1 a1).N) : Vec F S64x1 .f32 :=
  VO1_13.read (Elt F) (VO1_13.writes (Elt F) VO1_13.junk (kernelRun1 c (grid1.coords t) (ms1_0 a1 t) (hs1_0 a1 t) (ms1_1 a1 t) (hs1_1 a1 t) (ms1_2 a1 t) (hs1_2 a1 t) (ms1_3 a1 t) (hs1_3 a1 t) (ms1_4 a1 t) (hs1_4 a1 t) (ms1_5 a1 t) (hs1_5 a1 t) (ms1_6 a1 t) (hs1_6 a1 t) (ms1_7 a1 t) (hs1_7 a1 t) (ms1_8 a1 t) (hs1_8 a1 t) (ms1_9 a1 t) (hs1_9 a1 t) (ms1_10 a1 t) (hs1_10 a1 t) (ms1_11 a1 t) (hs1_11 a1 t) (ms1_12 a1 t) (hs1_12 a1 t) (ms1_13 a1 t) (hs1_13 a1 t) (iblk1 V a1 c 0 t) (iblk1 V a1 c 1 t) (iblk1 V a1 c 2 t) (iblk1 V a1 c 3 t) (iblk1 V a1 c 4 t) (iblk1 V a1 c 5 t) (iblk1 V a1 c 6 t) (iblk1 V a1 c 7 t) (iblk1 V a1 c 8 t) (iblk1 V a1 c 9 t) (iblk1 V a1 c 10 t) (iblk1 V a1 c 11 t) (iblk1 V a1 c 12 t) scJ1_0 scJ1_1 scJ1_2 scJ1_3 (a1.1 0) (a1.1 1) (V c main_arg1) (hw1 hH _) (hw2 hH _) (hw3 hH _) (hw4 hH _) (hw5 hH _) (hw6 hH _) (hw7 hH _) (hw8 hH _) (hw9 hH _) (hw10 hH _) (hw11 hH _) (hw12 hH _) (hw13 hH _) (hw14 hH _) (hw15 hH _) (hw16 hH _) (hw17 hH _) (hw18 hH _) (hw19 hH _) (hw20 hH _) (hw21 hH _) (hw22 hH _) (hw23 hH _) (hw24 hH _) (hw25 hH _) (hw26 hH _) (hw27 hH _) (hw28 hH _) (hw29 hH _) (hw30 hH _) (hw31 hH _) (hw32 hH _) (hw33 hH _) (hw34 hH _) (hw35 hH _) (hw36 hH _) (hw37 hH _) (hw38 hH _) (hw39 hH _) (hw40 hH _) (hw41 hH _) (hw42 hH _) (hw43 hH _) (hw44 hH _) (hw45 hH _) (hw46 hH _) (hw47 hH _) (hw48 hH _) (hw49 hH _) (hw50 hH _) (hw51 hH _) (hw52 hH _) (hw53 hH _) (hw54 hH _) (hw55 hH _) (hw56 hH _) (hw57 hH _) (hw58 hH _) (hw59 hH _) (hw60 hH _) (hw61 hH _) (hw62 hH _) (hw63 hH _) (hw64 hH _) (hw65 hH _) (hw66 hH _) (hw67 hH _) (hw68 hH _) (hw69 hH _) (hw70 hH _) (hw71 hH _) (hw72 hH _) (hw73 hH _) (hw74 hH _) (hw75 hH _) (hw76 hH _) (hw77 hH _) (hw78 hH _) (hw79 hH _) (hw80 hH _) (hw81 hH _) (hw82 hH _) (hw83 hH _) (hw84 hH _) (hw85 hH _) (hw86 hH _) (hw87 hH _) (hw88 hH _) (hw89 hH _) (hw90 hH _) (hw91 hH _) (hw92 hH _) (hw93 hH _) (hw94 hH _) (hw95 hH _) (hw96 hH _) (hw97 hH _) (hw98 hH _) (hw99 hH _) (hw100 hH _) (hw101 hH _) (hw102 hH _) (hw103 hH _) (hw104 hH _) (hw105 hH _) (hw106 hH _) (hw107 hH _) (hw108 hH _) (hw109 hH _) (hw110 hH _) (hw111 hH _) (hw112 hH _) (hw113 hH _) (hw114 hH _) (hw115 hH _) (hw116 hH _) (hw117 hH _) (hw118 hH _) (hw119 hH _) (hw120 hH _) (hw121 hH _) (hw122 hH _) (hw123 hH _) (hw124 hH _) (hw125 hH _) (hw126 hH _) (hw127 hH _) (hw128 hH _)).1)

/-! ## The proof data -/

/-- On a core: the arrays as the region finds them; after the body at a point each input's buffer still at its block and the
    output's at what the run leaves there; the invariant above; nothing owed between points; full shares. -/
def dat1 (hH : Hyps1 a1.1) (c : Dev nD) : Dat τ (Elt F) Unit ℕ (Pipeline.UD sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => iblk1 V a1 c 2 t
    | ⟨3, _⟩ => iblk1 V a1 c 3 t
    | ⟨4, _⟩ => iblk1 V a1 c 4 t
    | ⟨5, _⟩ => iblk1 V a1 c 5 t
    | ⟨6, _⟩ => iblk1 V a1 c 6 t
    | ⟨7, _⟩ => iblk1 V a1 c 7 t
    | ⟨8, _⟩ => iblk1 V a1 c 8 t
    | ⟨9, _⟩ => iblk1 V a1 c 9 t
    | ⟨10, _⟩ => iblk1 V a1 c 10 t
    | ⟨11, _⟩ => iblk1 V a1 c 11 t
    | ⟨12, _⟩ => iblk1 V a1 c 12 t
    | ⟨13, _⟩ => outsAt1 V a1 hH c t
  Φ _ := iprop(Pipeline.ΦD osem1 spec1 H1 V c ∗ Pipeline.ΦT pre1 a1.1 c)
  q _ := fullShare
  owed _ := 0

/-- The proof data's arrays are the region-entry contents. -/
theorem A_eq1 (hH : Hyps1 a1.1) (c : Dev nD) (w : Fin (cfg1 a1).W) : (dat1 V a1 hH c).A w = V c (Pipeline.arrRef spec1 w) := by
  dsimp only [dat1]

/-- What the body leaves, window by window. -/
theorem after1_0 (hH : Hyps1 a1.1) (c : Dev nD) (t : Fin (cfg1 a1).N) : (dat1 V a1 hH c).after 0 t = iblk1 V a1 c 0 t := by dsimp only [dat1]; try rfl
theorem after1_1 (hH : Hyps1 a1.1) (c : Dev nD) (t : Fin (cfg1 a1).N) : (dat1 V a1 hH c).after 1 t = iblk1 V a1 c 1 t := by dsimp only [dat1]; try rfl
theorem after1_2 (hH : Hyps1 a1.1) (c : Dev nD) (t : Fin (cfg1 a1).N) : (dat1 V a1 hH c).after 2 t = iblk1 V a1 c 2 t := by dsimp only [dat1]; try rfl
theorem after1_3 (hH : Hyps1 a1.1) (c : Dev nD) (t : Fin (cfg1 a1).N) : (dat1 V a1 hH c).after 3 t = iblk1 V a1 c 3 t := by dsimp only [dat1]; try rfl
theorem after1_4 (hH : Hyps1 a1.1) (c : Dev nD) (t : Fin (cfg1 a1).N) : (dat1 V a1 hH c).after 4 t = iblk1 V a1 c 4 t := by dsimp only [dat1]; try rfl
theorem after1_5 (hH : Hyps1 a1.1) (c : Dev nD) (t : Fin (cfg1 a1).N) : (dat1 V a1 hH c).after 5 t = iblk1 V a1 c 5 t := by dsimp only [dat1]; try rfl
theorem after1_6 (hH : Hyps1 a1.1) (c : Dev nD) (t : Fin (cfg1 a1).N) : (dat1 V a1 hH c).after 6 t = iblk1 V a1 c 6 t := by dsimp only [dat1]; try rfl
theorem after1_7 (hH : Hyps1 a1.1) (c : Dev nD) (t : Fin (cfg1 a1).N) : (dat1 V a1 hH c).after 7 t = iblk1 V a1 c 7 t := by dsimp only [dat1]; try rfl
theorem after1_8 (hH : Hyps1 a1.1) (c : Dev nD) (t : Fin (cfg1 a1).N) : (dat1 V a1 hH c).after 8 t = iblk1 V a1 c 8 t := by dsimp only [dat1]; try rfl
theorem after1_9 (hH : Hyps1 a1.1) (c : Dev nD) (t : Fin (cfg1 a1).N) : (dat1 V a1 hH c).after 9 t = iblk1 V a1 c 9 t := by dsimp only [dat1]; try rfl
theorem after1_10 (hH : Hyps1 a1.1) (c : Dev nD) (t : Fin (cfg1 a1).N) : (dat1 V a1 hH c).after 10 t = iblk1 V a1 c 10 t := by dsimp only [dat1]; try rfl
theorem after1_11 (hH : Hyps1 a1.1) (c : Dev nD) (t : Fin (cfg1 a1).N) : (dat1 V a1 hH c).after 11 t = iblk1 V a1 c 11 t := by dsimp only [dat1]; try rfl
theorem after1_12 (hH : Hyps1 a1.1) (c : Dev nD) (t : Fin (cfg1 a1).N) : (dat1 V a1 hH c).after 12 t = iblk1 V a1 c 12 t := by dsimp only [dat1]; try rfl
theorem after1_13 (hH : Hyps1 a1.1) (c : Dev nD) (t : Fin (cfg1 a1).N) : (dat1 V a1 hH c).after 13 t = outsAt1 V a1 hH c t := by dsimp only [dat1]; try rfl

/-! An input window's current staging buffer holds that window's block at every point, fetched there or not: each input's block is its
    whole array at every point, so the block index never moves after the first fetch, and the body leaves the block in place. -/
theorem before1_0 (hH : Hyps1 a1.1) (c : Dev nD) (t : Fin (cfg1 a1).N) (d) : (dat1 V a1 hH c).before 0 t d = iblk1 V a1 c 0 t :=
  ((dat1 V a1 hH c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (hH : Hyps1 a1.1) (c : Dev nD) (t : Fin (cfg1 a1).N) (d) : (dat1 V a1 hH c).before 1 t d = iblk1 V a1 c 1 t :=
  ((dat1 V a1 hH c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (hH : Hyps1 a1.1) (c : Dev nD) (t : Fin (cfg1 a1).N) (d) : (dat1 V a1 hH c).before 2 t d = iblk1 V a1 c 2 t :=
  ((dat1 V a1 hH c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (hH : Hyps1 a1.1) (c : Dev nD) (t : Fin (cfg1 a1).N) (d) : (dat1 V a1 hH c).before 3 t d = iblk1 V a1 c 3 t :=
  ((dat1 V a1 hH c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (hH : Hyps1 a1.1) (c : Dev nD) (t : Fin (cfg1 a1).N) (d) : (dat1 V a1 hH c).before 4 t d = iblk1 V a1 c 4 t :=
  ((dat1 V a1 hH c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (hH : Hyps1 a1.1) (c : Dev nD) (t : Fin (cfg1 a1).N) (d) : (dat1 V a1 hH c).before 5 t d = iblk1 V a1 c 5 t :=
  ((dat1 V a1 hH c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (hH : Hyps1 a1.1) (c : Dev nD) (t : Fin (cfg1 a1).N) (d) : (dat1 V a1 hH c).before 6 t d = iblk1 V a1 c 6 t :=
  ((dat1 V a1 hH c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (hH : Hyps1 a1.1) (c : Dev nD) (t : Fin (cfg1 a1).N) (d) : (dat1 V a1 hH c).before 7 t d = iblk1 V a1 c 7 t :=
  ((dat1 V a1 hH c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (hH : Hyps1 a1.1) (c : Dev nD) (t : Fin (cfg1 a1).N) (d) : (dat1 V a1 hH c).before 8 t d = iblk1 V a1 c 8 t :=
  ((dat1 V a1 hH c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (hH : Hyps1 a1.1) (c : Dev nD) (t : Fin (cfg1 a1).N) (d) : (dat1 V a1 hH c).before 9 t d = iblk1 V a1 c 9 t :=
  ((dat1 V a1 hH c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (hH : Hyps1 a1.1) (c : Dev nD) (t : Fin (cfg1 a1).N) (d) : (dat1 V a1 hH c).before 10 t d = iblk1 V a1 c 10 t :=
  ((dat1 V a1 hH c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (hH : Hyps1 a1.1) (c : Dev nD) (t : Fin (cfg1 a1).N) (d) : (dat1 V a1 hH c).before 11 t d = iblk1 V a1 c 11 t :=
  ((dat1 V a1 hH c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)
theorem before1_12 (hH : Hyps1 a1.1) (c : Dev nD) (t : Fin (cfg1 a1).N) (d) : (dat1 V a1 hH c).before 12 t d = iblk1 V a1 c 12 t :=
  ((dat1 V a1 hH c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)

/-! ## The body obligation, at a generic point -/

/-- What the body is called with at a point: the invariant, the core's tallies, and each window's current staging buffer at what the
    pipeline left there. -/
def bodyPre1 (hH : Hyps1 a1.1) (c : Dev nD) (t : Fin (cfg1 a1).N) : sProp 𝕄 :=
  iprop((dat1 V a1 hH c).Φ t.castSucc ∗ (dat1 V a1 hH c).owesAt () t.castSucc
    ∗ (∃ d, owns (c : Thread nD τ) (ms1_0 a1 t) fullShare ((dat1 V a1 hH c).before 0 t d))
    ∗ (∃ d, owns (c : Thread nD τ) (ms1_1 a1 t) fullShare ((dat1 V a1 hH c).before 1 t d))
    ∗ (∃ d, owns (c : Thread nD τ) (ms1_2 a1 t) fullShare ((dat1 V a1 hH c).before 2 t d))
    ∗ (∃ d, owns (c : Thread nD τ) (ms1_3 a1 t) fullShare ((dat1 V a1 hH c).before 3 t d))
    ∗ (∃ d, owns (c : Thread nD τ) (ms1_4 a1 t) fullShare ((dat1 V a1 hH c).before 4 t d))
    ∗ (∃ d, owns (c : Thread nD τ) (ms1_5 a1 t) fullShare ((dat1 V a1 hH c).before 5 t d))
    ∗ (∃ d, owns (c : Thread nD τ) (ms1_6 a1 t) fullShare ((dat1 V a1 hH c).before 6 t d))
    ∗ (∃ d, owns (c : Thread nD τ) (ms1_7 a1 t) fullShare ((dat1 V a1 hH c).before 7 t d))
    ∗ (∃ d, owns (c : Thread nD τ) (ms1_8 a1 t) fullShare ((dat1 V a1 hH c).before 8 t d))
    ∗ (∃ d, owns (c : Thread nD τ) (ms1_9 a1 t) fullShare ((dat1 V a1 hH c).before 9 t d))
    ∗ (∃ d, owns (c : Thread nD τ) (ms1_10 a1 t) fullShare ((dat1 V a1 hH c).before 10 t d))
    ∗ (∃ d, owns (c : Thread nD τ) (ms1_11 a1 t) fullShare ((dat1 V a1 hH c).before 11 t d))
    ∗ (∃ d, owns (c : Thread nD τ) (ms1_12 a1 t) fullShare ((dat1 V a1 hH c).before 12 t d))
    ∗ (∃ d, owns (c : Thread nD τ) (ms1_13 a1 t) fullShare ((dat1 V a1 hH c).before 13 t d)))

/-- What it returns: the same, each buffer at what the proof data say the body leaves. -/
def bodyPost1 (hH : Hyps1 a1.1) (c : Dev nD) (t : Fin (cfg1 a1).N) : sProp 𝕄 :=
  iprop((dat1 V a1 hH c).Φ t.succ ∗ (dat1 V a1 hH c).owesAt () t.succ
    ∗ owns (c : Thread nD τ) (ms1_0 a1 t) fullShare ((dat1 V a1 hH c).after 0 t)
    ∗ owns (c : Thread nD τ) (ms1_1 a1 t) fullShare ((dat1 V a1 hH c).after 1 t)
    ∗ owns (c : Thread nD τ) (ms1_2 a1 t) fullShare ((dat1 V a1 hH c).after 2 t)
    ∗ owns (c : Thread nD τ) (ms1_3 a1 t) fullShare ((dat1 V a1 hH c).after 3 t)
    ∗ owns (c : Thread nD τ) (ms1_4 a1 t) fullShare ((dat1 V a1 hH c).after 4 t)
    ∗ owns (c : Thread nD τ) (ms1_5 a1 t) fullShare ((dat1 V a1 hH c).after 5 t)
    ∗ owns (c : Thread nD τ) (ms1_6 a1 t) fullShare ((dat1 V a1 hH c).after 6 t)
    ∗ owns (c : Thread nD τ) (ms1_7 a1 t) fullShare ((dat1 V a1 hH c).after 7 t)
    ∗ owns (c : Thread nD τ) (ms1_8 a1 t) fullShare ((dat1 V a1 hH c).after 8 t)
    ∗ owns (c : Thread nD τ) (ms1_9 a1 t) fullShare ((dat1 V a1 hH c).after 9 t)
    ∗ owns (c : Thread nD τ) (ms1_10 a1 t) fullShare ((dat1 V a1 hH c).after 10 t)
    ∗ owns (c : Thread nD τ) (ms1_11 a1 t) fullShare ((dat1 V a1 hH c).after 11 t)
    ∗ owns (c : Thread nD τ) (ms1_12 a1 t) fullShare ((dat1 V a1 hH c).after 12 t)
    ∗ owns (c : Thread nD τ) (ms1_13 a1 t) fullShare ((dat1 V a1 hH c).after 13 t))

set_option maxHeartbeats 4000000 in set_option maxRecDepth 200000 in
/-- The body at any point. The inputs' buffers hold their blocks; the invariant hands the run its scratch at whatever it holds, its
    cells at zero and the tables' halves; of the adjacency array the run is lent the thirty-two shares of its cells, the other
    twenty-three and the remainder waiting aside; the run, taken at the scratch's actual contents, returns everything as it was and
    the output block overwritten whole, whose contents therefore read back the same through any view, and the same as at the fixed
    scratch contents the proof data name, since the pieces do not depend on what the scratch held; the parts of the array compose to
    the full share again; the core's tally goes in at what the earlier points recorded and comes back with this point's waits, which
    any bound admits. -/
theorem sound_body1 (hH : Hyps1 a1.1) (c : Dev nD) (t : Fin (cfg1 a1).N) :
    bodyPre1 V a1 hH c t ⊢ wp frame (wpE (defs₀ (F := F)) Variants.none c none) Set.univ (bodyAt1 a1 t) (fun _ => bodyPost1 V a1 hH c t) := by
  unfold bodyPre1 bodyPost1 bodyAt1
  simp only [before1_0, before1_1, before1_2, before1_3, before1_4, before1_5, before1_6, before1_7, before1_8, before1_9, before1_10, before1_11, before1_12]
  rw [show (dat1 V a1 hH c).Φ t.succ = (dat1 V a1 hH c).Φ t.castSucc from rfl,
    after1_0, after1_1, after1_2, after1_3, after1_4, after1_5, after1_6, after1_7, after1_8, after1_9, after1_10, after1_11, after1_12, after1_13]
  rw [show (dat1 V a1 hH c).Φ t.castSucc = iprop(Pipeline.ΦD osem1 spec1 H1 V c ∗ Pipeline.ΦT pre1 a1.1 c) from rfl, PhiD1_eq, PhiT1_eq,
    hbToks1_eq c (V c main_arg1)]
  unfold Dat.owesAt Pipeline.owesWithin
  rw [show (dat1 V a1 hH c).owed t.castSucc = 0 from rfl, show (dat1 V a1 hH c).owed t.succ = 0 from rfl]
  unfold outsAt1
  iintro ⟨⟨⟨⟨Hr0, Hr1, Hr2, Hr3, Hr4, Hr5, Hr6, Hr7, ⟨%ds0, HS0⟩, ⟨%ds1, HS1⟩, ⟨%ds2, HS2⟩, ⟨%ds3, HS3⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hrem, Hk0, Hk1, Hk2, Hk3, Hk4, Hk5, Hk6, Hk7, Hk8, Hk9, Hk10, Hk11, Hk12, Hk13, Hk14, Hk15, Hk16, Hk17, Hk18, Hk19, Hk20, Hk21, Hk22, Hk23, Hk24, Hk25, Hk26, Hk27, Hk28, Hk29, Hk30, Hk31, Hk32, Hk33, Hk34, Hk35, Hk36, Hk37, Hk38, Hk39, Hk40, Hk41, Hk42, Hk43, Hk44, Hk45, Hk46, Hk47, Hk48, Hk49, Hk50, Hk51, Hk52, Hk53, Hk54⟩⟩, ⟨HT0, HT1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun1 c (grid1.coords t) _ _ _ _ _ _ _ _ _ _ _ _ _ _ _ _ _ _ _ _ _ _ _ _ _ _ _ _ (iblk1 V a1 c 0 t) (iblk1 V a1 c 1 t) (iblk1 V a1 c 2 t) (iblk1 V a1 c 3 t) (iblk1 V a1 c 4 t) (iblk1 V a1 c 5 t) (iblk1 V a1 c 6 t) (iblk1 V a1 c 7 t) (iblk1 V a1 c 8 t) (iblk1 V a1 c 9 t) (iblk1 V a1 c 10 t) (iblk1 V a1 c 11 t) (iblk1 V a1 c 12 t) ds0 ds1 ds2 ds3 (a1.1 0) (a1.1 1) (V c main_arg1) (hw1 hH _) (hw2 hH _) (hw3 hH _) (hw4 hH _) (hw5 hH _) (hw6 hH _) (hw7 hH _) (hw8 hH _) (hw9 hH _) (hw10 hH _) (hw11 hH _) (hw12 hH _) (hw13 hH _) (hw14 hH _) (hw15 hH _) (hw16 hH _) (hw17 hH _) (hw18 hH _) (hw19 hH _) (hw20 hH _) (hw21 hH _) (hw22 hH _) (hw23 hH _) (hw24 hH _) (hw25 hH _) (hw26 hH _) (hw27 hH _) (hw28 hH _) (hw29 hH _) (hw30 hH _) (hw31 hH _) (hw32 hH _) (hw33 hH _) (hw34 hH _) (hw35 hH _) (hw36 hH _) (hw37 hH _) (hw38 hH _) (hw39 hH _) (hw40 hH _) (hw41 hH _) (hw42 hH _) (hw43 hH _) (hw44 hH _) (hw45 hH _) (hw46 hH _) (hw47 hH _) (hw48 hH _) (hw49 hH _) (hw50 hH _) (hw51 hH _) (hw52 hH _) (hw53 hH _) (hw54 hH _) (hw55 hH _) (hw56 hH _) (hw57 hH _) (hw58 hH _) (hw59 hH _) (hw60 hH _) (hw61 hH _) (hw62 hH _) (hw63 hH _) (hw64 hH _) (hw65 hH _) (hw66 hH _) (hw67 hH _) (hw68 hH _) (hw69 hH _) (hw70 hH _) (hw71 hH _) (hw72 hH _) (hw73 hH _) (hw74 hH _) (hw75 hH _) (hw76 hH _) (hw77 hH _) (hw78 hH _) (hw79 hH _) (hw80 hH _) (hw81 hH _) (hw82 hH _) (hw83 hH _) (hw84 hH _) (hw85 hH _) (hw86 hH _) (hw87 hH _) (hw88 hH _) (hw89 hH _) (hw90 hH _) (hw91 hH _) (hw92 hH _) (hw93 hH _) (hw94 hH _) (hw95 hH _) (hw96 hH _) (hw97 hH _) (hw98 hH _) (hw99 hH _) (hw100 hH _) (hw101 hH _) (hw102 hH _) (hw103 hH _) (hw104 hH _) (hw105 hH _) (hw106 hH _) (hw107 hH _) (hw108 hH _) (hw109 hH _) (hw110 hH _) (hw111 hH _) (hw112 hH _) (hw113 hH _) (hw114 hH _) (hw115 hH _) (hw116 hH _) (hw117 hH _) (hw118 hH _) (hw119 hH _) (hw120 hH _) (hw121 hH _) (hw122 hH _) (hw123 hH _) (hw124 hH _) (hw125 hH _) (hw126 hH _) (hw127 hH _) (hw128 hH _)).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  isplitl [HS2]; · iexact HS2
  isplitl [HS3]; · iexact HS3
  isplitl [HT0]; · iexact HT0
  isplitl [HT1]; · iexact HT1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hk23]; · iexact Hk23
  isplitl [Hk24]; · iexact Hk24
  isplitl [Hk25]; · iexact Hk25
  isplitl [Hk26]; · iexact Hk26
  isplitl [Hk27]; · iexact Hk27
  isplitl [Hk28]; · iexact Hk28
  isplitl [Hk29]; · iexact Hk29
  isplitl [Hk30]; · iexact Hk30
  isplitl [Hk31]; · iexact Hk31
  isplitl [Hk32]; · iexact Hk32
  isplitl [Hk33]; · iexact Hk33
  isplitl [Hk34]; · iexact Hk34
  isplitl [Hk35]; · iexact Hk35
  isplitl [Hk36]; · iexact Hk36
  isplitl [Hk37]; · iexact Hk37
  isplitl [Hk38]; · iexact Hk38
  isplitl [Hk39]; · iexact Hk39
  isplitl [Hk40]; · iexact Hk40
  isplitl [Hk41]; · iexact Hk41
  isplitl [Hk42]; · iexact Hk42
  isplitl [Hk43]; · iexact Hk43
  isplitl [Hk44]; · iexact Hk44
  isplitl [Hk45]; · iexact Hk45
  isplitl [Hk46]; · iexact Hk46
  isplitl [Hk47]; · iexact Hk47
  isplitl [Hk48]; · iexact Hk48
  isplitl [Hk49]; · iexact Hk49
  isplitl [Hk50]; · iexact Hk50
  isplitl [Hk51]; · iexact Hk51
  isplitl [Hk52]; · iexact Hk52
  isplitl [Hk53]; · iexact Hk53
  isplitl [Hk54]; · iexact Hk54
  isplitl [HW]; · iexact HW
  iintro ⟨H0, H1, H2, H3, H4, H5, H6, H7, H8, H9, H10, H11, H12, ⟨%e13, H13⟩, HS0, HS1, HS2, HS3, HT0, HT1, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hk23, Hk24, Hk25, Hk26, Hk27, Hk28, Hk29, Hk30, Hk31, Hk32, Hk33, Hk34, Hk35, Hk36, Hk37, Hk38, Hk39, Hk40, Hk41, Hk42, Hk43, Hk44, Hk45, Hk46, Hk47, Hk48, Hk49, Hk50, Hk51, Hk52, Hk53, Hk54, ⟨%W', HW'⟩⟩
  -- the invariant again: the scoped rest, the register, the cells, the array's parts in order, the tables
  isplitl [Hr0 Hr1 Hr2 Hr3 Hr4 Hr5 Hr6 Hr7 HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hrem Hk0 Hk1 Hk2 Hk3 Hk4 Hk5 Hk6 Hk7 Hk8 Hk9 Hk10 Hk11 Hk12 Hk13 Hk14 Hk15 Hk16 Hk17 Hk18 Hk19 Hk20 Hk21 Hk22 Hk23 Hk24 Hk25 Hk26 Hk27 Hk28 Hk29 Hk30 Hk31 Hk32 Hk33 Hk34 Hk35 Hk36 Hk37 Hk38 Hk39 Hk40 Hk41 Hk42 Hk43 Hk44 Hk45 Hk46 Hk47 Hk48 Hk49 Hk50 Hk51 Hk52 Hk53 Hk54 HT0 HT1]
  · isplitl [Hr0 Hr1 Hr2 Hr3 Hr4 Hr5 Hr6 Hr7 HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hrem Hk0 Hk1 Hk2 Hk3 Hk4 Hk5 Hk6 Hk7 Hk8 Hk9 Hk10 Hk11 Hk12 Hk13 Hk14 Hk15 Hk16 Hk17 Hk18 Hk19 Hk20 Hk21 Hk22 Hk23 Hk24 Hk25 Hk26 Hk27 Hk28 Hk29 Hk30 Hk31 Hk32 Hk33 Hk34 Hk35 Hk36 Hk37 Hk38 Hk39 Hk40 Hk41 Hk42 Hk43 Hk44 Hk45 Hk46 Hk47 Hk48 Hk49 Hk50 Hk51 Hk52 Hk53 Hk54]
    · isplitl [Hr0 Hr1 Hr2 Hr3 Hr4 Hr5 Hr6 Hr7 HS0 HS1 HS2 HS3]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        iexact HS3
      isplitl [Hg]; · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hq26]; · iexact Hq26
        isplitl [Hq27]; · iexact Hq27
        isplitl [Hq28]; · iexact Hq28
        isplitl [Hq29]; · iexact Hq29
        isplitl [Hq30]; · iexact Hq30
        iexact Hq31
      isplitl [Hrem]; · iexact Hrem
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hk8]; · iexact Hk8
      isplitl [Hk9]; · iexact Hk9
      isplitl [Hk10]; · iexact Hk10
      isplitl [Hk11]; · iexact Hk11
      isplitl [Hk12]; · iexact Hk12
      isplitl [Hk13]; · iexact Hk13
      isplitl [Hk14]; · iexact Hk14
      isplitl [Hk15]; · iexact Hk15
      isplitl [Hk16]; · iexact Hk16
      isplitl [Hk17]; · iexact Hk17
      isplitl [Hk18]; · iexact Hk18
      isplitl [Hk19]; · iexact Hk19
      isplitl [Hk20]; · iexact Hk20
      isplitl [Hk21]; · iexact Hk21
      isplitl [Hk22]; · iexact Hk22
      isplitl [Hk23]; · iexact Hk23
      isplitl [Hk24]; · iexact Hk24
      isplitl [Hk25]; · iexact Hk25
      isplitl [Hk26]; · iexact Hk26
      isplitl [Hk27]; · iexact Hk27
      isplitl [Hk28]; · iexact Hk28
      isplitl [Hk29]; · iexact Hk29
      isplitl [Hk30]; · iexact Hk30
      isplitl [Hk31]; · iexact Hk31
      isplitl [Hk32]; · iexact Hk32
      isplitl [Hk33]; · iexact Hk33
      isplitl [Hk34]; · iexact Hk34
      isplitl [Hk35]; · iexact Hk35
      isplitl [Hk36]; · iexact Hk36
      isplitl [Hk37]; · iexact Hk37
      isplitl [Hk38]; · iexact Hk38
      isplitl [Hk39]; · iexact Hk39
      isplitl [Hk40]; · iexact Hk40
      isplitl [Hk41]; · iexact Hk41
      isplitl [Hk42]; · iexact Hk42
      isplitl [Hk43]; · iexact Hk43
      isplitl [Hk44]; · iexact Hk44
      isplitl [Hk45]; · iexact Hk45
      isplitl [Hk46]; · iexact Hk46
      isplitl [Hk47]; · iexact Hk47
      isplitl [Hk48]; · iexact Hk48
      isplitl [Hk49]; · iexact Hk49
      isplitl [Hk50]; · iexact Hk50
      isplitl [Hk51]; · iexact Hk51
      isplitl [Hk52]; · iexact Hk52
      isplitl [Hk53]; · iexact Hk53
      iexact Hk54
    isplitl [HT0]; · iexact HT0
    iexact HT1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro
  refine (View.read_writes_of_cover _ _ VO1_13 VO1_13.junk _ (cover1_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
  exact congrArg (fun L => VO1_13.read (Elt F) (VO1_13.writes (Elt F) VO1_13.junk L)) (kernelRun1_indep (hx0 := hH.1) (hx1 := hH.2) ..)

-- the body's text at a point is compared with the body table's row for its label, argument by argument through fourteen windows
set_option maxRecDepth 200000 in
/-- The library's body obligation, at every point: its two conjunctions over the fourteen windows written out. -/
theorem body_obligation1 (hH : Hyps1 a1.1) (c : Dev nD) : BodyObligation (dat1 (F := F) V a1 hH c) (defs₀ (F := F)) Variants.none () Set.univ := fun t => by
  rw [bigSep_W1, bigSep_W1]
  exact sound_body1 V a1 hH c t

end Cert.Kernel.Hand

end
-- ==== Proof.K.Regs.lean ====
import proofs.«428817_j39556648796289_1_alg».proof.Proof.Gen.Kernel.Regions
import proofs.«428817_j39556648796289_1_alg».proof.Proof.K.R0
import proofs.«428817_j39556648796289_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Tactic

/-! # The two kernel regions as segments of @main, and the run

@main is: a stretch of host operations (the two index tables cut out of the edge list, two biases reshaped);
region 0 (the residual block h = x + relu(relu(x·w1+b1)·w2+b2), output array main_v6); a second stretch of
reshapes; region 1 (the common-neighbour scores, output array main_v13), which reads its row indices from the
two tables and copies rows of the adjacency matrix main_arg1 itself.

This module fixes the buffer contents at every boundary between two items as a fold from the launch memory,
gives each pipeline its proof data at its region's entry contents, states each region as a segment between two
such boundaries, and runs the four segments from the launch to the return. The conclusion: every unscoped buffer
of the core ends at the last boundary's contents. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (Pipeline.UD sig nD τ) ℕ

/-! ## The buffer contents at each boundary: a fold through @main from the launch memory -/

variable (m : (ℓ : Loc nD τ sig) → Buf (Elt F) ℓ)

/-- The core's buffers at launch. -/
abbrev W0 : Dev nD → Valuation τ sig (Elt F) := fun c b => m (c, b)
/-- After the first host stretch (region 0's entry): the tables and the reshaped biases written. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- At region 0's exit: its arrays at what the write-backs leave (an input as entered), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The two index tables as region 1 finds them: what the first host stretch wrote (nothing later writes them). -/
def tbl : pre1.Contents (Elt F) := fun k => V1 m 0 (pre1.ref k)
/-- Region 1's tables at those contents: the side condition on them is empty. -/
def adm1 : (pcfg1 (F := F)).Adm := ⟨tbl m, trivial⟩

/-! ### What the host stretches and region 0 leave unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
/-- An input window's array leaves region 0 as entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

/-- Region 1 finds the tables at tbl: the second host stretch and region 0 write neither. -/
theorem hpf1 (c : Dev nD) (k : Fin pre1.K) : V3 m c (pre1.ref k) = (adm1 m).1 k := by
  obtain rfl : c = 0 := Subsingleton.elim _ _
  have h1 : V3 m 0 main_v1 = V1 m 0 main_v1 := (W3_of m 0 main_v1 (by decide)).trans (W2_of_ne m 0 main_v1 (by decide))
  have h3 : V3 m 0 main_v3 = V1 m 0 main_v3 := (W3_of m 0 main_v3 (by decide)).trans (W2_of_ne m 0 main_v3 (by decide))
  match k with
  | ⟨0, _⟩ => exact h1
  | ⟨1, _⟩ => exact h3

/-- Region 1 finds region 0's result in main_v6: the second host stretch does not write it. -/
theorem V3_main_v6 (c : Dev nD) : V3 m c main_v6 = (dat0 (V1 m) c).arrAt 5 cfg0.N :=
  (W3_of m c main_v6 (by decide)).trans (W2_arr m c 5)

/-! ### Region 1's exit, under the bound on the tables' words its body assumes -/

variable (hH : Hyps1 (tbl m))

/-- At region 1's exit: its arrays at what the write-backs leave, every other buffer as entered. -/
def W4 (c : Dev nD) : Valuation τ sig (Elt F) :=
  Pipeline.withArrays spec1 c (W3 m c) fun w => (dat1 (V3 m) (adm1 m) hH c).arrAt w (cfg1 (adm1 m)).N
theorem W4_arr (c : Dev nD) (w : Fin (cfg1 (adm1 m)).W) :
    W4 m hH c (Proc.devRef .tc (Pipeline.arrRef spec1 w)) = (dat1 (V3 m) (adm1 m) hH c).arrAt w (cfg1 (adm1 m)).N := by
  unfold W4; exact Pipeline.withArrays_arr spec1 winFacts1.arr_inj c _ _ w
theorem W4_of_ne (c : Dev nD) (b : Ref sig .tc) (hb : ∀ w, Pipeline.arrRef spec1 w ≠ b) :
    W4 m hH c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m hH c b
/-- An input window's array leaves region 1 as entered. -/
theorem W4_in (c : Dev nD) (w : Fin (cfg1 (adm1 m)).W) (hin : ((cfg1 (adm1 m)).win w).isOut = false) :
    W4 m hH c (Proc.devRef .tc (Pipeline.arrRef spec1 w)) = W3 m c (Proc.devRef .tc (Pipeline.arrRef spec1 w)) :=
  (W4_arr m hH c w).trans (((dat1 (V3 m) (adm1 m) hH c).arrAt_in w hin _).trans rfl)

/-- The scores' array ends at what region 1's write-backs leave. -/
theorem W4_main_v13 (c : Dev nD) :
    W4 m hH c (Proc.devRef .tc main_v13) = (dat1 (V3 m) (adm1 m) hH c).arrAt 13 (cfg1 (adm1 m)).N :=
  W4_arr m hH c 13

/-! ### The arguments end as launched: no host operation writes one, and a region reads it through an input window or
    bypasses it, so the fold at an argument's buffer walks back to the launch memory -/

theorem W4_main_arg0 (c : Dev nD) : W4 m hH c (Proc.devRef .tc main_arg0) = m ((c : Thread nD τ).loc main_arg0) :=
  (W4_in m hH c 0 rfl).trans <| (W3_of m c main_arg0 (by decide)).trans <| (W2_in m c 0 rfl).trans <| (W1_of m c main_arg0 (by decide)).trans rfl
theorem W4_main_arg1 (c : Dev nD) : W4 m hH c (Proc.devRef .tc main_arg1) = m ((c : Thread nD τ).loc main_arg1) :=
  (W4_of_ne m hH c main_arg1 (by decide)).trans <| (W3_of m c main_arg1 (by decide)).trans <| (W2_of_ne m c main_arg1 (by decide)).trans <| (W1_of m c main_arg1 (by decide)).trans rfl
theorem W4_main_arg2 (c : Dev nD) : W4 m hH c (Proc.devRef .tc main_arg2) = m ((c : Thread nD τ).loc main_arg2) :=
  (W4_of_ne m hH c main_arg2 (by decide)).trans <| (W3_of m c main_arg2 (by decide)).trans <| (W2_of_ne m c main_arg2 (by decide)).trans <| (W1_of m c main_arg2 (by decide)).trans rfl
theorem W4_main_arg3 (c : Dev nD) : W4 m hH c (Proc.devRef .tc main_arg3) = m ((c : Thread nD τ).loc main_arg3) :=
  (W4_of_ne m hH c main_arg3 (by decide)).trans <| (W3_of m c main_arg3 (by decide)).trans <| (W2_in m c 1 rfl).trans <| (W1_of m c main_arg3 (by decide)).trans rfl
theorem W4_main_arg4 (c : Dev nD) : W4 m hH c (Proc.devRef .tc main_arg4) = m ((c : Thread nD τ).loc main_arg4) :=
  (W4_of_ne m hH c main_arg4 (by decide)).trans <| (W3_of m c main_arg4 (by decide)).trans <| (W2_of_ne m c main_arg4 (by decide)).trans <| (W1_of m c main_arg4 (by decide)).trans rfl
theorem W4_main_arg5 (c : Dev nD) : W4 m hH c (Proc.devRef .tc main_arg5) = m ((c : Thread nD τ).loc main_arg5) :=
  (W4_of_ne m hH c main_arg5 (by decide)).trans <| (W3_of m c main_arg5 (by decide)).trans <| (W2_in m c 3 rfl).trans <| (W1_of m c main_arg5 (by decide)).trans rfl
theorem W4_main_arg6 (c : Dev nD) : W4 m hH c (Proc.devRef .tc main_arg6) = m ((c : Thread nD τ).loc main_arg6) :=
  (W4_of_ne m hH c main_arg6 (by decide)).trans <| (W3_of m c main_arg6 (by decide)).trans <| (W2_of_ne m c main_arg6 (by decide)).trans <| (W1_of m c main_arg6 (by decide)).trans rfl
theorem W4_main_arg7 (c : Dev nD) : W4 m hH c (Proc.devRef .tc main_arg7) = m ((c : Thread nD τ).loc main_arg7) :=
  (W4_in m hH c 4 rfl).trans <| (W3_of m c main_arg7 (by decide)).trans <| (W2_of_ne m c main_arg7 (by decide)).trans <| (W1_of m c main_arg7 (by decide)).trans rfl
theorem W4_main_arg8 (c : Dev nD) : W4 m hH c (Proc.devRef .tc main_arg8) = m ((c : Thread nD τ).loc main_arg8) :=
  (W4_of_ne m hH c main_arg8 (by decide)).trans <| (W3_of m c main_arg8 (by decide)).trans <| (W2_of_ne m c main_arg8 (by decide)).trans <| (W1_of m c main_arg8 (by decide)).trans rfl
theorem W4_main_arg9 (c : Dev nD) : W4 m hH c (Proc.devRef .tc main_arg9) = m ((c : Thread nD τ).loc main_arg9) :=
  (W4_in m hH c 6 rfl).trans <| (W3_of m c main_arg9 (by decide)).trans <| (W2_of_ne m c main_arg9 (by decide)).trans <| (W1_of m c main_arg9 (by decide)).trans rfl
theorem W4_main_arg10 (c : Dev nD) : W4 m hH c (Proc.devRef .tc main_arg10) = m ((c : Thread nD τ).loc main_arg10) :=
  (W4_of_ne m hH c main_arg10 (by decide)).trans <| (W3_of m c main_arg10 (by decide)).trans <| (W2_of_ne m c main_arg10 (by decide)).trans <| (W1_of m c main_arg10 (by decide)).trans rfl
theorem W4_main_arg11 (c : Dev nD) : W4 m hH c (Proc.devRef .tc main_arg11) = m ((c : Thread nD τ).loc main_arg11) :=
  (W4_in m hH c 2 rfl).trans <| (W3_of m c main_arg11 (by decide)).trans <| (W2_of_ne m c main_arg11 (by decide)).trans <| (W1_of m c main_arg11 (by decide)).trans rfl
theorem W4_main_arg12 (c : Dev nD) : W4 m hH c (Proc.devRef .tc main_arg12) = m ((c : Thread nD τ).loc main_arg12) :=
  (W4_of_ne m hH c main_arg12 (by decide)).trans <| (W3_of m c main_arg12 (by decide)).trans <| (W2_of_ne m c main_arg12 (by decide)).trans <| (W1_of m c main_arg12 (by decide)).trans rfl
theorem W4_main_arg13 (c : Dev nD) : W4 m hH c (Proc.devRef .tc main_arg13) = m ((c : Thread nD τ).loc main_arg13) :=
  (W4_in m hH c 8 rfl).trans <| (W3_of m c main_arg13 (by decide)).trans <| (W2_of_ne m c main_arg13 (by decide)).trans <| (W1_of m c main_arg13 (by decide)).trans rfl
theorem W4_main_arg14 (c : Dev nD) : W4 m hH c (Proc.devRef .tc main_arg14) = m ((c : Thread nD τ).loc main_arg14) :=
  (W4_of_ne m hH c main_arg14 (by decide)).trans <| (W3_of m c main_arg14 (by decide)).trans <| (W2_of_ne m c main_arg14 (by decide)).trans <| (W1_of m c main_arg14 (by decide)).trans rfl
theorem W4_main_arg15 (c : Dev nD) : W4 m hH c (Proc.devRef .tc main_arg15) = m ((c : Thread nD τ).loc main_arg15) :=
  (W4_in m hH c 10 rfl).trans <| (W3_of m c main_arg15 (by decide)).trans <| (W2_of_ne m c main_arg15 (by decide)).trans <| (W1_of m c main_arg15 (by decide)).trans rfl
theorem W4_main_arg16 (c : Dev nD) : W4 m hH c (Proc.devRef .tc main_arg16) = m ((c : Thread nD τ).loc main_arg16) :=
  (W4_of_ne m hH c main_arg16 (by decide)).trans <| (W3_of m c main_arg16 (by decide)).trans <| (W2_of_ne m c main_arg16 (by decide)).trans <| (W1_of m c main_arg16 (by decide)).trans rfl
theorem W4_main_arg17 (c : Dev nD) : W4 m hH c (Proc.devRef .tc main_arg17) = m ((c : Thread nD τ).loc main_arg17) :=
  (W4_of_ne m hH c main_arg17 (by decide)).trans <| (W3_of m c main_arg17 (by decide)).trans <| (W2_of_ne m c main_arg17 (by decide)).trans <| (W1_of m c main_arg17 (by decide)).trans rfl

/-! ## The proof data of both pipelines, and the thread state -/

/-- Each pipeline's tables: pipeline 0 has none; pipeline 1's at tbl. -/
def adm : (p : Fin 2) → (pcfgs (F := F) p).Adm
  | ⟨0, _⟩ => cfg0.toPCfg_adm
  | ⟨1, _⟩ => adm1 m
  | ⟨_ + 2, h⟩ => absurd h (Nat.not_lt.2 (Nat.le_add_left _ _))

/-- Each pipeline's proof data at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (V1 m) c
  | ⟨1, _⟩ => fun c => dat1 (V3 m) (adm1 m) hH c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped buffers from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The adjacency matrix, which region 1's body copies rows of: whole at its entry contents. -/
abbrev adjPt (c : Dev nD) : sProp 𝕄 := bigSep H1 fun b => ((c : Thread nD τ).loc b) ↦{fullShare} V3 m c b
/-- The buffers that bypass region 1 altogether, whole at their entry contents. -/
abbrev bypass1 (c : Dev nD) : sProp 𝕄 :=
  bigSep (Pipeline.restRefsP sig pre1 spec1 \ H1) fun b => ((c : Thread nD τ).loc b) ↦{fullShare} V3 m c b

/-- The last thread state: region 1's arrays at what it leaves, the tables at the half share the body held them at,
    the adjacency matrix and the bypassing buffers at their entry contents, the generator register. -/
abbrev Tₙ (c : Dev nD) : sProp 𝕄 :=
  iprop((pdats m hH 1 c).arrays ((pdats m hH 1 c).arrAt · (Pipeline.pin (pcfgs (F := F)) (adm m) 1).N)
    ∗ Pipeline.ΦT pre1 (tbl m) c ∗ adjPt m c ∗ bypass1 m c ∗ ∃ r, prngReg c r)

/-! ## The regions as segments -/

set_option backward.isDefEq.respectTransparency.types false in
/-- REGION 0 over the thread state: entered from every unscoped buffer at W1, left at W2. Its arrays split out of the
    unscoped buffers and put back at the exit contents; the generator register into the invariant and out; nothing owed;
    no semaphore of the kernel's own. -/
def reg0 : Pipeline.RegionSeg (pcfgs (F := F)) (adm m) (pdats m hH) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) (adm m) (pdats m hH) (launch0 (F := F)).win (launch0 (F := F)).arr_whole c
      ((pdats m hH 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 0 c).Φ 0 = Φ0 c from rfl]; unfold Φ0
    iintro ⟨Hp, -, Hr⟩
    isplitl [Hr]; · iexact Hr
    iexact Hp
  hout c := by
    rw [Pipeline.ownSems0_none, show (pdats m hH 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hH) ((pdats m hH 0 c).share_full fun _ => rfl)
      (V1 m c) (V2 m c) ((pdats m hH 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W3, left at the last thread state. At entry its
    arrays, the two tables, the adjacency matrix and the bypassing buffers are sorted out of the unscoped buffers. The
    tables reach the invariant whole; the body keeps their right half and the left half is let go, so the exit holds the
    tables at the right half only: enough to read them at the end. The generator register, the own semaphores at zero and
    the adjacency matrix go into the invariant and come back out of it. -/
def reg1 : Pipeline.RegionSeg (pcfgs (F := F)) (adm m) (pdats m hH) () defs₀ 𝒱₀ L lv 1 where
  win := (launch1 (F := F)).win.to₀
  block_pos := (launch1 (F := F)).block_pos
  stage_whole := (launch1 (F := F)).stage_whole
  K := Fin 32
  osem := osem1
  ho := ownSemFacts1
  hbody c := (body_obligation1 (V3 m) (adm1 m) hH c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m hH c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ adjPt m c)
  Y c := iprop((∃ r, prngReg c r) ∗ adjPt m c ∗ Pipeline.ΦT pre1 (tbl m) c)
  Z c := bypass1 m c
  hentry c := by
    have hsplit := Pipeline.arrays_of_unscopedBufs (p := 1) (pcfgs (F := F)) (adm m) (pdats m hH) (launch1 (F := F)).win (launch1 (F := F)).arr_whole c
      ((pdats m hH 1 c).share_full fun _ => rfl) (V3 m c) fun _ => rfl
    rw [Pipeline.unscopedBufs_held] at hsplit
    have htab : (Pipeline.unscopedRest (Ix := Unit) (Name := ℕ) (U := Pipeline.UD sig nD τ) (Lvl := ℕ) spec1 c (V3 m c) : sProp 𝕄)
        ⊢ iprop(Pipeline.prefHeld pre1 c (fun _ => fullShare) (tbl m) ∗ adjPt m c ∗ bypass1 m c) := by
      rw [Pipeline.unscopedRest_split preFacts1 c (V3 m c), show (fun k => V3 m c (pre1.ref k)) = tbl m from funext (hpf1 m c),
        Pipeline.unscopedRestP_sdiff pre1 spec1 H1 H1_sub c (V3 m c)]
    iintro ⟨⟨Hub, Hp, HO⟩, Hos, -⟩
    ihave H := hsplit $$ Hub
    icases H with ⟨Ha, Hrest⟩
    ihave H := htab $$ Hrest
    icases H with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hH 1 c).Φ 0 = iprop(Pipeline.ΦD osem1 spec1 H1 (V3 m) c ∗ Pipeline.ΦT pre1 (tbl m) c) from rfl, Pipeline.ΦD_eq]
    have hhalf : (Pipeline.prefHeld (pcfgs (F := F) 1).pre c (fun _ => fullShare) (adm m 1).1 : sProp 𝕄) ⊢ Pipeline.ΦT pre1 (tbl m) c :=
      ((Pipeline.prefHeld_share pre1 c (PosShare.mem_left_op_right fullShare) (tbl m)).1).trans (by iintro ⟨-, H⟩; iexact H)
    iintro ⟨⟨Hp, Ho, HH⟩, Ht, Hr⟩
    ihave Htr := hhalf $$ Ht
    isplitr [Htr]
    · isplitl [Hr]; · iexact Hr
      isplitl [Hp]; · iexact Hp
      isplitl [Ho]; · iexact Ho
      iexact HH
    · iexact Htr
  hout c := by
    rw [show (pdats m hH 1 c).Φ (Fin.last _) = iprop(Pipeline.ΦD osem1 spec1 H1 (V3 m) c ∗ Pipeline.ΦT pre1 (tbl m) c) from rfl, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    iintro ⟨Ha, HO, ⟨Hp, HH, Ht⟩, HZ⟩
    imodintro
    isplitr [HO]
    · isplitl [Ha]; · iexact Ha
      isplitl [Ht]; · iexact Ht
      isplitl [HH]; · iexact HH
      isplitl [HZ]; · iexact HZ
      iexact Hp
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) (adm m) (pdats m hH) () defs₀ 𝒱₀ L lv) :=
  [ .host (hseg hostOps0 hostOps0_sub hostOps0_fresh (W0 m)),
    .region (reg0 m hH),
    .host (hseg hostOps1 hostOps1_sub hostOps1_fresh (W2 m)),
    .region (reg1 m hH) ]

/-- @main is the run of the four segments. -/
theorem main_run (c : Dev nD) : main (F := F) c = Pipeline.Seg.run (segs m hH) :=
  (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state's four readings cover every unscoped buffer: such a buffer is one of region 1's arrays, a
    table, the adjacency matrix, or bypasses the region. -/
theorem final_read (c : Dev nD) (s : MemSt nD τ sig (Elt F))
    (ha : ∀ w : Fin (cfg1 (adm1 m)).W, s.mem ((c : Thread nD τ).loc (Pipeline.arrRef spec1 w)) = (dat1 (V3 m) (adm1 m) hH c).arrAt w (cfg1 (adm1 m)).N)
    (ht : ∀ k, s.mem ((c : Thread nD τ).loc (pre1.ref k)) = tbl m k)
    (hA : ∀ b ∈ H1, s.mem ((c : Thread nD τ).loc b) = V3 m c b)
    (hZ : ∀ b ∈ Pipeline.restRefsP sig pre1 spec1 \ H1, s.mem ((c : Thread nD τ).loc b) = V3 m c b) :
    ∀ b ∈ Pipeline.ucRefs τ sig, s.mem (((c : Thread nD τ)).1, b) = W4 m hH c b := by
  classical
  intro b hb
  obtain ⟨hb1, hb2⟩ := Finset.mem_filter.mp hb
  obtain ⟨r, -, rfl⟩ := Finset.mem_map.mp hb1
  by_cases h1 : r ∈ Finset.univ.image (Pipeline.arrRef spec1)
  · obtain ⟨w, -, rfl⟩ := Finset.mem_image.mp h1
    exact (ha w).trans (W4_arr m hH c w).symm
  · have hne : ∀ w, Pipeline.arrRef spec1 w ≠ r := fun w e => h1 (Finset.mem_image.mpr ⟨w, Finset.mem_univ _, e⟩)
    refine Eq.trans ?_ (W4_of_ne m hH c r hne).symm
    by_cases h2 : r ∈ Finset.univ.image pre1.ref
    · obtain ⟨k, -, rfl⟩ := Finset.mem_image.mp h2
      exact (ht k).trans (hpf1 m c k).symm
    · have hr : r ∈ Pipeline.restRefsP sig pre1 spec1 :=
        Finset.mem_sdiff.mpr ⟨Finset.mem_sdiff.mpr ⟨Finset.mem_filter.mpr ⟨Finset.mem_univ _, hb2⟩, h1⟩, h2⟩
      by_cases h3 : r ∈ H1
      · exact hA r h3
      · exact hZ r (Finset.mem_sdiff.mpr ⟨hr, h3⟩)

set_option backward.isDefEq.respectTransparency.types false in
/-- THE RUN: every weakly fair execution of @main from memory m with zero counters terminates in a final state whose
    memory holds each unscoped buffer at the last boundary's contents. The launch element is the pipelines'
    own beside the unit of the transfers' counters; the last thread state is read piece by piece against the final state,
    the tables at the half share they are held at. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m hH c b) :=
  Pipeline.θ_run_regions_kit (pcfgs (F := F)) (adm m) (pdats m hH) () (cellOf_inj (adm m)) embL defs₀ 𝒱₀ L lv m ρ main (segs m hH)
    (fun c Q => by rw [main_run m hH c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hH)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m hH c b)
    (hfin := fun c s' => by
      iintro ⟨⟨Ha, Ht, HH, HZ, -⟩, HSI⟩
      ihave Hr := (Pipeline.arrays_read (p := 1) (pcfgs (F := F)) (adm m) (pdats m hH) (launch1 (F := F)).arr_whole c ((pdats m hH 1 c).share_full fun _ => rfl) _ s') $$ [Ha HSI]
      · isplitl [Ha] <;> iassumption
      icases Hr with ⟨%ha, HSI⟩
      ihave Hr := (pointsTo_read_all Finset.univ (fun k => (c : Thread nD τ).loc (pre1.ref k)) (tbl m) s' fullShare.right) $$ [Ht HSI]
      · isplitl [Ht]; · unfold Pipeline.ΦT Pipeline.prefHeld; iexact Ht
        iexact HSI
      icases Hr with ⟨%ht, HSI⟩
      ihave Hr := (pointsTo_read_all H1 (fun b => (c : Thread nD τ).loc b) (V3 m c) s') $$ [HH HSI]
      · isplitl [HH] <;> iassumption
      icases Hr with ⟨%hA, HSI⟩
      ihave Hr := (pointsTo_read_all (Pipeline.restRefsP sig pre1 spec1 \ H1) (fun b => (c : Thread nD τ).loc b) (V3 m c) s') $$ [HZ HSI]
      · isplitl [HZ] <;> iassumption
      icases Hr with ⟨%hZ, HSI⟩
      imodintro
      isplitr
      · ipureintro
        exact final_read m hH c s'.mem ha (fun k => ht k (Finset.mem_univ k)) hA hZ
      · iexact HSI)
    (hQ := fun s h => h)

/-- THE FRAME: every weakly fair execution of @main from memory m with zero counters terminates in a final state whose
    memory holds every argument array as launched: the run's conclusion read at each argument's buffer, which the fold
    walks back to the launch memory. -/
theorem frame_args (hH : Hyps1 (tbl m)) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨
    (h c _ (mem_uc main_arg0 (by decide))).trans (W4_main_arg0 m hH c),
    (h c _ (mem_uc main_arg1 (by decide))).trans (W4_main_arg1 m hH c),
    (h c _ (mem_uc main_arg2 (by decide))).trans (W4_main_arg2 m hH c),
    (h c _ (mem_uc main_arg3 (by decide))).trans (W4_main_arg3 m hH c),
    (h c _ (mem_uc main_arg4 (by decide))).trans (W4_main_arg4 m hH c),
    (h c _ (mem_uc main_arg5 (by decide))).trans (W4_main_arg5 m hH c),
    (h c _ (mem_uc main_arg6 (by decide))).trans (W4_main_arg6 m hH c),
    (h c _ (mem_uc main_arg7 (by decide))).trans (W4_main_arg7 m hH c),
    (h c _ (mem_uc main_arg8 (by decide))).trans (W4_main_arg8 m hH c),
    (h c _ (mem_uc main_arg9 (by decide))).trans (W4_main_arg9 m hH c),
    (h c _ (mem_uc main_arg10 (by decide))).trans (W4_main_arg10 m hH c),
    (h c _ (mem_uc main_arg11 (by decide))).trans (W4_main_arg11 m hH c),
    (h c _ (mem_uc main_arg12 (by decide))).trans (W4_main_arg12 m hH c),
    (h c _ (mem_uc main_arg13 (by decide))).trans (W4_main_arg13 m hH c),
    (h c _ (mem_uc main_arg14 (by decide))).trans (W4_main_arg14 m hH c),
    (h c _ (mem_uc main_arg15 (by decide))).trans (W4_main_arg15 m hH c),
    (h c _ (mem_uc main_arg16 (by decide))).trans (W4_main_arg16 m hH c),
    (h c _ (mem_uc main_arg17 (by decide))).trans (W4_main_arg17 m hH c)⟩) (run_all m hH ρ)

end Cert.Kernel.Hand

end
-- ==== Proof.K.Frames.lean ====
/-
  The frame of the whole program from the precondition: the precondition makes the tables' words row numbers, which is
  all the run of the four items asks; the run leaves each argument array at its launch contents.
-/
import proofs.«428817_j39556648796289_1_alg».proof.Proof.K.Regs
import proofs.«428817_j39556648796289_1_alg».proof.Proof.K.TablesWords

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)
variable [hP : Cert.Pre_finite_inputs.Facts]

/-- Under the precondition the second region's two tables hold row numbers: every word is below 8192. The tables are
    what the first host stretch leaves in the two table buffers on the core, rows 0 and 1 of the edge table. -/
theorem hyps1_of_pre (h : PreAt m) : Hyps1 (tbl m) :=
  And.intro (fun e => V1_main_v1_lt m h 0 e) (fun e => V1_main_v3_lt m h 0 e)

/-- The run with its result: under the precondition @main runs to the end without a fault, the result array holds what
    the second region's write-backs leave in its output window's array, and every argument array ends as launched. -/
theorem run_with_result (ρ : Dev nD → PrngReg) (h : PreAt m) :
    θ_run defs (onTc (τ := τ) (main (F := F))) ⟨m, fun _ => 0, ρ⟩ (fun r => ∀ c : Dev nD,
        r.2.mem ((c.tc : Thread nD τ).loc main_v13) = (dat1 (V3 m) (adm1 m) (hyps1_of_pre m h) c).arrAt 13 (cfg1 (adm1 m)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)) :=
  (θ_run defs _ _).mono (fun r hr c =>
    ⟨(hr c _ (mem_uc main_v13 (by decide))).trans (W4_main_v13 m (hyps1_of_pre m h) c),
      (hr c _ (mem_uc main_arg0 (by decide))).trans (W4_main_arg0 m (hyps1_of_pre m h) c),
      (hr c _ (mem_uc main_arg1 (by decide))).trans (W4_main_arg1 m (hyps1_of_pre m h) c),
      (hr c _ (mem_uc main_arg2 (by decide))).trans (W4_main_arg2 m (hyps1_of_pre m h) c),
      (hr c _ (mem_uc main_arg3 (by decide))).trans (W4_main_arg3 m (hyps1_of_pre m h) c),
      (hr c _ (mem_uc main_arg4 (by decide))).trans (W4_main_arg4 m (hyps1_of_pre m h) c),
      (hr c _ (mem_uc main_arg5 (by decide))).trans (W4_main_arg5 m (hyps1_of_pre m h) c),
      (hr c _ (mem_uc main_arg6 (by decide))).trans (W4_main_arg6 m (hyps1_of_pre m h) c),
      (hr c _ (mem_uc main_arg7 (by decide))).trans (W4_main_arg7 m (hyps1_of_pre m h) c),
      (hr c _ (mem_uc main_arg8 (by decide))).trans (W4_main_arg8 m (hyps1_of_pre m h) c),
      (hr c _ (mem_uc main_arg9 (by decide))).trans (W4_main_arg9 m (hyps1_of_pre m h) c),
      (hr c _ (mem_uc main_arg10 (by decide))).trans (W4_main_arg10 m (hyps1_of_pre m h) c),
      (hr c _ (mem_uc main_arg11 (by decide))).trans (W4_main_arg11 m (hyps1_of_pre m h) c),
      (hr c _ (mem_uc main_arg12 (by decide))).trans (W4_main_arg12 m (hyps1_of_pre m h) c),
      (hr c _ (mem_uc main_arg13 (by decide))).trans (W4_main_arg13 m (hyps1_of_pre m h) c),
      (hr c _ (mem_uc main_arg14 (by decide))).trans (W4_main_arg14 m (hyps1_of_pre m h) c),
      (hr c _ (mem_uc main_arg15 (by decide))).trans (W4_main_arg15 m (hyps1_of_pre m h) c),
      (hr c _ (mem_uc main_arg16 (by decide))).trans (W4_main_arg16 m (hyps1_of_pre m h) c),
      (hr c _ (mem_uc main_arg17 (by decide))).trans (W4_main_arg17 m (hyps1_of_pre m h) c)⟩)
    (run_all m (hyps1_of_pre m h) ρ)

/-- The frame: under the precondition @main runs to the end without a fault and every argument array ends as launched. -/
theorem frame_of_pre (ρ : Dev nD → PrngReg) (h : PreAt m) :
    θ_run defs (onTc (τ := τ) (main (F := F))) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)) :=
  (θ_run defs _ _).mono (fun r hr c => (hr c).2) (run_with_result m ρ h)

end Cert.Kernel.Hand

end
-- ==== Proof.KI.R0.lean ====
import proofs.«428817_j39556648796289_1_alg».proof.Proof.Gen.KernelIdeal.Launch
import proofs.«428817_j39556648796289_1_alg».proof.Proof.Gen.KernelIdeal.Skeleton
import proofs.«428817_j39556648796289_1_alg».proof.Proof.Gen.KernelIdeal.Points
import Idealize.ShloMosaic.Lib.Pipeline.FrameBody
import Idealize.ShloMosaic.Lib.Pipeline.Regions
import Idealize.ShloMosaic.Lib.Pipeline.Frame
import Idealize.ShloMosaic.Lib.Ring
import Idealize.ShloMosaic.Lib.Tactic

/-! # Region 0: the residual two-layer perceptron on one block of rows

At grid point `t` the body reads a block of 1024 rows of `x` (window 0), the two weight matrices (windows 1, 3)
and the two bias rows (windows 2, 4), and writes `x + relu (relu (x · w₁ + b₁) · w₂ + b₂)` over the block of the
output (window 5). Everything here is stated at a parameter `V`: the contents of the core's buffers when the
region is entered. -/

-- membership of an index in a rectangle of 1024 × 256: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each a whole buffer -/

abbrev rX : Rect S1024x256 := Rect.unit (s := S1024x256) ![0, 0] S1024x256.size inb_S1024x256_S1024x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-! ## What the body leaves in the output window's buffer -/

/-- The output buffer after the body, from the five input blocks: the one store, whose payload is the residual
    perceptron of the five whole-buffer reads. -/
def out0_5 (x0 : Vec F S1024x256 .f32) (x1 : Vec F S256x256 .f32) (x2 : Vec F S1x256 .f32) (x3 : Vec F S256x256 .f32) (x4 : Vec F S1x256 .f32) : Vec F S1024x256 .f32 :=
  View.canon [⟨rX, k0_pay1 (View.ld x0 rX) (View.ld x1 rW) (View.ld x2 rB) (View.ld x3 rW) (View.ld x4 rB)⟩]

/-! ## The invariant and the proof data -/

/-- What rides through every point untouched: the core's scoped buffers that are no staging buffer of this
    pipeline, each at some contents, and the generator register at some state. -/
def Φ0 (c : Dev nD) : sProp 𝕄 :=
  iprop(Pipeline.scopedRest (Ix := Unit) (Name := ℕ) (U := Pipeline.UD sig nD τ) (Lvl := ℕ) (Val := Elt F) spec0 c ∗ (∃ r, prngReg c r))

/-- The proof data on core `c`: the arrays as the region finds them; after the body at point `t` each input's
    buffer still at its block and the output's at `out0_5` of the five input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Φ0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What the body finds in each input window's buffer

An input window's current staging buffer holds that window's block at every point, whether the pipeline fetched it
there or not: where it did not, the block index has not moved since the last fetch, and the body left the block in
place. Window 0 is fetched at every point, windows 1 to 4 at the first point only; the one library lemma covers both. -/

theorem finds0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem finds0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem finds0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem finds0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem finds0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body's triple -/

/-- The one store is the whole output buffer, so it covers it. -/
theorem covers0_5 (p : Vec F S1024x256 .f32) (y : S1024x256.Idx) :
    ∃ pc ∈ ([⟨rX, p⟩] : List (View.Piece (Elt F) S1024x256 .f32)), y ∈ pc.1.set :=
  View.cover_of_tiled [⟨rX, p⟩] S1024x256.size (by rfl) y

set_option maxHeartbeats 1000000 in
/-- The body on whole staging memrefs, the five inputs' reading `x0 … x4` and the output's anything, runs to a
    continuation that holds the inputs' as they were and the output's at `out0_5 x0 … x4`: five whole-buffer loads
    feed the payload, a sixth load of the output's buffer is unused, and the one store overwrites that buffer whole. -/
theorem kernel0_triple (c : Dev nD) (E : Set ℕ) (i : grid0.Coords)
    (a1 : Memref sig .tc .vmem S1024x256 .f32) (h1 : a1.IsWhole) (a2 : Memref sig .tc .vmem S256x256 .f32) (h2 : a2.IsWhole)
    (a3 : Memref sig .tc .vmem S1x256 .f32) (h3 : a3.IsWhole) (a4 : Memref sig .tc .vmem S256x256 .f32) (h4 : a4.IsWhole)
    (a5 : Memref sig .tc .vmem S1x256 .f32) (h5 : a5.IsWhole) (a6 : Memref sig .tc .vmem S1024x256 .f32) (h6 : a6.IsWhole)
    (x0 : Vec F S1024x256 .f32) (x1 : Vec F S256x256 .f32) (x2 : Vec F S1x256 .f32) (x3 : Vec F S256x256 .f32) (x4 : Vec F S1x256 .f32)
    (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__h_kernel i a1 h1 a2 h2 a3 h3 a4 h4 a5 h5 a6 h6) K := by
  simp only [cc0__h_kernel_eq_skeleton]; unfold cc0__h_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers0_5 _)

/-! ## The body obligation, at a generic point -/

/-- What the body is called with at point `t`: the invariant, the core's tallies, and each window's current
    staging buffer at what the pipeline left there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same, each buffer at what the proof data say the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`finds0_W`), so the body's triple applies at the
    five blocks; the invariant and the tallies pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [finds0_0, finds0_1, finds0_2, finds0_3, finds0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernel0_triple c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: its two conjunctions over the six windows written out. -/
theorem body_obligation0 (c : Dev nD) : BodyObligation (dat0 (F := F) V c) (defs₀ (F := F)) Variants.none () Set.univ := fun t => by
  rw [bigSep_W0, bigSep_W0]
  exact body0_at V c t

end Cert.KernelIdeal.Hand

end
-- ==== Proof.KI.R1Run.lean ====
/- Region 1's body, run whole on any staging memrefs. The body owns its thirteen input blocks (read only), its output block, four scratch
  buffers, the two index tables at half share, thirty-two semaphore cells at zero and the adjacency array left in main memory; for each
  of the tile's 64 edges it reads the two endpoint words, starts one row copy per endpoint on that edge's pair of cells, and copies the
  endpoints' feature rows; after each group of sixteen edges it waits once on each cell, so every cell carries at most one copy at a
  time and is back at zero when the arithmetic begins. Each word is assumed to name a row (the hypotheses k1_hwN): under them every
  copy and load is in bounds. The run ends with the inputs, tables, cells and the adjacency array as they were and the output block
  overwritten by one whole store, recorded as the list of pieces the subtype carries. The four scratch buffers come in at named
  contents: the row copies land through one-row views, so the stored value is written as a term over those contents (every row is
  overwritten before it is read, so the value does not depend on them). -/
import proofs.«428817_j39556648796289_1_alg».proof.Proof.Gen.KernelIdeal.Launch
import proofs.«428817_j39556648796289_1_alg».proof.Proof.Gen.KernelIdeal.Skeleton
import proofs.«428817_j39556648796289_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two index tables as the body is handed them: whole scalar-memory buffers. -/
abbrev tbM1_0 : Memref sig .tc .smem S8192 .i32 := Memref.whole main_v1
abbrev htbM1_0 : tbM1_0.IsWhole := Memref.isWhole_whole _
abbrev tbM1_1 : Memref sig .tc .smem S8192 .i32 := Memref.whole main_v3
abbrev htbM1_1 : tbM1_1.IsWhole := Memref.isWhole_whole _
/-- A table's buffer on a core, and it held at half the full share (read only). -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare.right} f
/-- The four scratch buffers and the adjacency array left in main memory, whole. -/
abbrev scM1_0 : Memref sig .tc .vmem S64x8192 .f32 := Memref.whole cc1_scratch0
abbrev scM1_1 : Memref sig .tc .vmem S64x8192 .f32 := Memref.whole cc1_scratch1
abbrev scM1_2 : Memref sig .tc .vmem S64x256 .f32 := Memref.whole cc1_scratch2
abbrev scM1_3 : Memref sig .tc .vmem S64x256 .f32 := Memref.whole cc1_scratch3
abbrev hbM1_0 : Memref sig .tc .hbm S8192x8192 .f32 := Memref.whole main_arg1
abbrev hscM1_0 : scM1_0.IsWhole := Memref.isWhole_whole _
abbrev hscM1_1 : scM1_1.IsWhole := Memref.isWhole_whole _
abbrev hscM1_2 : scM1_2.IsWhole := Memref.isWhole_whole _
abbrev hscM1_3 : scM1_3.IsWhole := Memref.isWhole_whole _
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f
/-- One read share of the adjacency array per semaphore cell: the copy completing on cell n borrows share n, so that the
    two rows of one edge, and the rows of sixteen edges, may be in flight together. -/
abbrev hbTok1 (c : Dev nD) (n : ℕ) (f : HbBuf1 (F := F) c hbM1_0) : sProp 𝕄 :=
  hbM1_0.view.loc (c : Thread nD τ) ↦{Transfers.shareTokN fullShare n} f

set_option maxHeartbeats 0 in set_option sl_exec.dmaWindow true in set_option sl_exec.dmaWindowSet true in
/-- The pieces the body's one store leaves in the output block, with the proof that the body runs to its continuation. -/
noncomputable def kernelRun1 (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 : Vec F S64x8192 .f32) (xs2 xs3 : Vec F S64x256 .f32) (xt0 : TbBuf1 (F := F) c tbM1_0) (xt1 : TbBuf1 (F := F) c tbM1_1) (fh0 : HbBuf1 (F := F) c hbM1_0)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    { L13 : List (View.Piece (Elt F) S64x1 .f32) //
      ∀ (W : Waits sig Unit) (K : PUnit → sProp 𝕄),
        iprop(owns (c : Thread nD τ) arg3 fullShare x0 ∗ owns (c : Thread nD τ) arg4 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ (∃ d, owns (c : Thread nD τ) arg17 fullShare d) ∗ owns (c : Thread nD τ) scM1_0 fullShare xs0 ∗ owns (c : Thread nD τ) scM1_1 fullShare xs1 ∗ owns (c : Thread nD τ) scM1_2 fullShare xs2 ∗ owns (c : Thread nD τ) scM1_3 fullShare xs3 ∗ tbPt1 c tbM1_0 xt0 ∗ tbPt1 c tbM1_1 xt1 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ hbTok1 c 23 fh0 ∗ hbTok1 c 24 fh0 ∗ hbTok1 c 25 fh0 ∗ hbTok1 c 26 fh0 ∗ hbTok1 c 27 fh0 ∗ hbTok1 c 28 fh0 ∗ hbTok1 c 29 fh0 ∗ hbTok1 c 30 fh0 ∗ hbTok1 c 31 fh0 ∗ hbTok1 c 32 fh0 ∗ hbTok1 c 33 fh0 ∗ hbTok1 c 34 fh0 ∗ hbTok1 c 35 fh0 ∗ hbTok1 c 36 fh0 ∗ hbTok1 c 37 fh0 ∗ hbTok1 c 38 fh0 ∗ hbTok1 c 39 fh0 ∗ hbTok1 c 40 fh0 ∗ hbTok1 c 41 fh0 ∗ hbTok1 c 42 fh0 ∗ hbTok1 c 43 fh0 ∗ hbTok1 c 44 fh0 ∗ hbTok1 c 45 fh0 ∗ hbTok1 c 46 fh0 ∗ hbTok1 c 47 fh0 ∗ hbTok1 c 48 fh0 ∗ hbTok1 c 49 fh0 ∗ hbTok1 c 50 fh0 ∗ hbTok1 c 51 fh0 ∗ hbTok1 c 52 fh0 ∗ hbTok1 c 53 fh0 ∗ hbTok1 c 54 fh0 ∗ owes (c : Thread nD τ) 0 W
            ∗ (iprop(owns (c : Thread nD τ) arg3 fullShare x0 ∗ owns (c : Thread nD τ) arg4 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ (∃ f, arg17.view.loc (c : Thread nD τ) ↦[arg17.view.set]{fullShare} arg17.view.writes (Elt F) f L13) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ tbPt1 c tbM1_0 xt0 ∗ tbPt1 c tbM1_1 xt1 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ hbTok1 c 23 fh0 ∗ hbTok1 c 24 fh0 ∗ hbTok1 c 25 fh0 ∗ hbTok1 c 26 fh0 ∗ hbTok1 c 27 fh0 ∗ hbTok1 c 28 fh0 ∗ hbTok1 c 29 fh0 ∗ hbTok1 c 30 fh0 ∗ hbTok1 c 31 fh0 ∗ hbTok1 c 32 fh0 ∗ hbTok1 c 33 fh0 ∗ hbTok1 c 34 fh0 ∗ hbTok1 c 35 fh0 ∗ hbTok1 c 36 fh0 ∗ hbTok1 c 37 fh0 ∗ hbTok1 c 38 fh0 ∗ hbTok1 c 39 fh0 ∗ hbTok1 c 40 fh0 ∗ hbTok1 c 41 fh0 ∗ hbTok1 c 42 fh0 ∗ hbTok1 c 43 fh0 ∗ hbTok1 c 44 fh0 ∗ hbTok1 c 45 fh0 ∗ hbTok1 c 46 fh0 ∗ hbTok1 c 47 fh0 ∗ hbTok1 c 48 fh0 ∗ hbTok1 c 49 fh0 ∗ hbTok1 c 50 fh0 ∗ hbTok1 c 51 fh0 ∗ hbTok1 c 52 fh0 ∗ hbTok1 c 53 fh0 ∗ hbTok1 c 54 fh0 ∗ (∃ W', owes (c : Thread nD τ) 0 W')) -∗ K ⟨⟩))
          ⊢ wp frame (wpE (defs₀ (F := F)) Variants.none c none) Set.univ (cc1__main_kernel i tbM1_0 htbM1_0 tbM1_1 htbM1_1 arg3 harg3 arg4 harg4 hbM1_0 (Memref.isWhole_whole _) arg6 harg6 arg7 harg7 arg8 harg8 arg9 harg9 arg10 harg10 arg11 harg11 arg12 harg12 arg13 harg13 arg14 harg14 arg15 harg15 arg16 harg16 arg17 harg17 scM1_0 (Memref.isWhole_whole _) scM1_1 (Memref.isWhole_whole _) scM1_2 (Memref.isWhole_whole _) scM1_3 (Memref.isWhole_whole _) cc1_scratch4 cc1_scratch5) K } := by
  refine ⟨?_, fun W K => ?run⟩
  case run =>
    simp only [cc1__main_kernel_eq_skeleton]; unfold cc1__main_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%fs1, %hfs1, HS1⟩, ⟨%fs2, %hfs2, HS2⟩, ⟨%fs3, %hfs3, HS3⟩, HT0, HT1, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, HW, Hk⟩
    obtain rfl := harg3.eq_unread hf0; obtain rfl := harg4.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11; obtain rfl := harg16.eq_unread hf12
    obtain rfl := hscM1_0.eq_unread hfs0; obtain rfl := hscM1_1.eq_unread hfs1; obtain rfl := hscM1_2.eq_unread hfs2; obtain rfl := hscM1_3.eq_unread hfs3
    sl_exec (disch := first | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16 | sl_exact k1_hw17 | sl_exact k1_hw18 | sl_exact k1_hw19 | sl_exact k1_hw20 | sl_exact k1_hw21 | sl_exact k1_hw22 | sl_exact k1_hw23 | sl_exact k1_hw24 | sl_exact k1_hw25 | sl_exact k1_hw26 | sl_exact k1_hw27 | sl_exact k1_hw28 | sl_exact k1_hw29 | sl_exact k1_hw30 | sl_exact k1_hw31 | sl_exact k1_hw32 | sl_exact k1_hw33 | sl_exact k1_hw34 | sl_exact k1_hw35 | sl_exact k1_hw36 | sl_exact k1_hw37 | sl_exact k1_hw38 | sl_exact k1_hw39 | sl_exact k1_hw40 | sl_exact k1_hw41 | sl_exact k1_hw42 | sl_exact k1_hw43 | sl_exact k1_hw44 | sl_exact k1_hw45 | sl_exact k1_hw46 | sl_exact k1_hw47 | sl_exact k1_hw48 | sl_exact k1_hw49 | sl_exact k1_hw50 | sl_exact k1_hw51 | sl_exact k1_hw52 | sl_exact k1_hw53 | sl_exact k1_hw54 | sl_exact k1_hw55 | sl_exact k1_hw56 | sl_exact k1_hw57 | sl_exact k1_hw58 | sl_exact k1_hw59 | sl_exact k1_hw60 | sl_exact k1_hw61 | sl_exact k1_hw62 | sl_exact k1_hw63 | sl_exact k1_hw64 | sl_exact k1_hw65 | sl_exact k1_hw66 | sl_exact k1_hw67 | sl_exact k1_hw68 | sl_exact k1_hw69 | sl_exact k1_hw70 | sl_exact k1_hw71 | sl_exact k1_hw72 | sl_exact k1_hw73 | sl_exact k1_hw74 | sl_exact k1_hw75 | sl_exact k1_hw76 | sl_exact k1_hw77 | sl_exact k1_hw78 | sl_exact k1_hw79 | sl_exact k1_hw80 | sl_exact k1_hw81 | sl_exact k1_hw82 | sl_exact k1_hw83 | sl_exact k1_hw84 | sl_exact k1_hw85 | sl_exact k1_hw86 | sl_exact k1_hw87 | sl_exact k1_hw88 | sl_exact k1_hw89 | sl_exact k1_hw90 | sl_exact k1_hw91 | sl_exact k1_hw92 | sl_exact k1_hw93 | sl_exact k1_hw94 | sl_exact k1_hw95 | sl_exact k1_hw96 | sl_exact k1_hw97 | sl_exact k1_hw98 | sl_exact k1_hw99 | sl_exact k1_hw100 | sl_exact k1_hw101 | sl_exact k1_hw102 | sl_exact k1_hw103 | sl_exact k1_hw104 | sl_exact k1_hw105 | sl_exact k1_hw106 | sl_exact k1_hw107 | sl_exact k1_hw108 | sl_exact k1_hw109 | sl_exact k1_hw110 | sl_exact k1_hw111 | sl_exact k1_hw112 | sl_exact k1_hw113 | sl_exact k1_hw114 | sl_exact k1_hw115 | sl_exact k1_hw116 | sl_exact k1_hw117 | sl_exact k1_hw118 | sl_exact k1_hw119 | sl_exact k1_hw120 | sl_exact k1_hw121 | sl_exact k1_hw122 | sl_exact k1_hw123 | sl_exact k1_hw124 | sl_exact k1_hw125 | sl_exact k1_hw126 | sl_exact k1_hw127 | sl_exact k1_hw128)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]
    · iexists _; isplitr; · ipureintro; exact harg15.read_unread _
      iexact H11
    isplitl [H12]
    · iexists _; isplitr; · ipureintro; exact harg16.read_unread _
      iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HT0]; · iexact HT0
    isplitl [HT1]; · iexact HT1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    isplitl [Hh23]; · iexact Hh23
    isplitl [Hh24]; · iexact Hh24
    isplitl [Hh25]; · iexact Hh25
    isplitl [Hh26]; · iexact Hh26
    isplitl [Hh27]; · iexact Hh27
    isplitl [Hh28]; · iexact Hh28
    isplitl [Hh29]; · iexact Hh29
    isplitl [Hh30]; · iexact Hh30
    isplitl [Hh31]; · iexact Hh31
    iexists _; iexact HW

end Cert.KernelIdeal.Hand

end
-- ==== Proof.KI.R1Mem.lean ====
import proofs.«428817_j39556648796289_1_alg».proof.Proof.Gen.KernelIdeal.Skeleton
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.WholeRead

/-! # Region 1's scratch buffers, read back

The body fills four scratch buffers of 64 rows, one row per edge of the tile. The two adjacency buffers (64 × 8192)
are filled by row copies out of the adjacency array: once every copy has been waited for, such a buffer is its entry
contents overwritten row by row through the one-row views the copies name. The two feature buffers (64 × 256) are
filled by row stores of rows of the node table. Either way the buffer, read whole, holds at row `r` what landed in
row `r`. Generic in the values. -/

noncomputable section

namespace Cert.KernelIdeal.Hand

open Cert.KernelIdeal Cert.KernelIdeal.Gen
open Idealize.ShloMosaic
open Idealize.ShloMosaic.ValueIdx

variable {F : FTy → Type} [FloatOps F]
variable {Val : EltTy → Type} {sig' : RefSig} {κ : Kind} {sp : Space}

/-! ## One row of a two-axis buffer, as a vector

A row is named by slicing the buffer at `![n, 0]` to one row and dropping the unit axis. Through that view, element
`k` is the buffer's element `(n, k)`. Stated over any row count `A` and row length `B`, any offsets equal to `![n, 0]`. -/

/-- A one-row view's element `k` is the parent's element `(n, k)`. -/
theorem rowView_emb {A B : Nat} (M : Memref sig' κ sp ⟨2, ![A, B]⟩ .f32) (off : Fin 2 → Nat) (n : Nat) (hn : n < A) (hoff : off = ![n, 0])
    (inb : ∀ a, off a + (⟨2, ![1, B]⟩ : Shape).size a ≤ (⟨2, ![A, B]⟩ : Shape).size a) (hr) (hq : (⟨2, ![1, B]⟩ : Shape).Squeezes ⟨1, ![B]⟩) (k : Fin B) :
    ((M.slice (Rect.unit (s := ⟨2, ![A, B]⟩) off (⟨2, ![1, B]⟩ : Shape).size inb) hr).squeeze ⟨1, ![B]⟩ hq).view.emb (ValueIdx.ix1 k)
      = M.view.emb (ix2 (⟨n, hn⟩ : Fin A) k) := by
  subst hoff
  have h1 : ((M.slice (Rect.unit (s := ⟨2, ![A, B]⟩) ![n, 0] (⟨2, ![1, B]⟩ : Shape).size inb) hr).squeeze ⟨1, ![B]⟩ hq).view.emb (ValueIdx.ix1 k)
      = M.view.emb ((Rect.unit (s := ⟨2, ![A, B]⟩) ![n, 0] (⟨2, ![1, B]⟩ : Shape).size inb).emb (Shape.reshapeEquiv hq.numel_eq (ValueIdx.ix1 k))) := rfl
  rw [h1, Shape.reshapeEquiv_cons_one]
  refine congrArg M.view.emb (funext fun a => Fin.ext ?_)
  rw [Rect.emb_apply]
  match a with
  | ⟨0, _⟩ => show n + 1 * 0 = n; omega
  | ⟨1, _⟩ => show 0 + 1 * k.val = k.val; omega

/-- Reading through a one-row view is reading the parent at that row. -/
theorem rowView_read {A B : Nat} (M : Memref sig' κ sp ⟨2, ![A, B]⟩ .f32) (off : Fin 2 → Nat) (n : Nat) (hn : n < A) (hoff : off = ![n, 0])
    (inb : ∀ a, off a + (⟨2, ![1, B]⟩ : Shape).size a ≤ (⟨2, ![A, B]⟩ : Shape).size a) (hr) (hq : (⟨2, ![1, B]⟩ : Shape).Squeezes ⟨1, ![B]⟩)
    (f : M.view.ty.Contents Val) (k : Fin B) :
    ((M.slice (Rect.unit (s := ⟨2, ![A, B]⟩) off (⟨2, ![1, B]⟩ : Shape).size inb) hr).squeeze ⟨1, ![B]⟩ hq).view.read Val f (ValueIdx.ix1 k)
      = M.view.read Val f (ix2 (⟨n, hn⟩ : Fin A) k) := by
  rw [View.read_apply, View.read_apply, rowView_emb M off n hn hoff inb hr hq k]

/-- A row written whole through its one-row view, read back through the parent at that row: what was written. -/
theorem rowWrite_hit {A B : Nat} (M : Memref sig' κ sp ⟨2, ![A, B]⟩ .f32) (off : Fin 2 → Nat) (n : Nat) (hn : n < A) (hoff : off = ![n, 0])
    (inb : ∀ a, off a + (⟨2, ![1, B]⟩ : Shape).size a ≤ (⟨2, ![A, B]⟩ : Shape).size a) (hr) (hq : (⟨2, ![1, B]⟩ : Shape).Squeezes ⟨1, ![B]⟩)
    (f : M.view.ty.Contents Val) (w : (⟨1, ![B]⟩ : Shape).Idx → Val .f32) (k : Fin B) :
    M.view.read Val (((M.slice (Rect.unit (s := ⟨2, ![A, B]⟩) off (⟨2, ![1, B]⟩ : Shape).size inb) hr).squeeze ⟨1, ![B]⟩ hq).view.write Val f w Finset.univ)
        (ix2 (⟨n, hn⟩ : Fin A) k) = w (ValueIdx.ix1 k) := by
  rw [← rowView_read M off n hn hoff inb hr hq _ k]
  exact View.read_write_of_mem (v := ((M.slice (Rect.unit (s := ⟨2, ![A, B]⟩) off (⟨2, ![1, B]⟩ : Shape).size inb) hr).squeeze ⟨1, ![B]⟩ hq).view) f w (Finset.mem_univ _)

/-- and at another row: what the buffer held before. -/
theorem rowWrite_miss {A B : Nat} (M : Memref sig' κ sp ⟨2, ![A, B]⟩ .f32) (off : Fin 2 → Nat) (n : Nat) (hoff : off = ![n, 0])
    (inb : ∀ a, off a + (⟨2, ![1, B]⟩ : Shape).size a ≤ (⟨2, ![A, B]⟩ : Shape).size a) (hr) (hq : (⟨2, ![1, B]⟩ : Shape).Squeezes ⟨1, ![B]⟩)
    (f : M.view.ty.Contents Val) (w : (⟨1, ![B]⟩ : Shape).Idx → Val .f32) (Ms : Finset (⟨1, ![B]⟩ : Shape).Idx) (r : Fin A) (hne : r.val ≠ n) (k : Fin B) :
    M.view.read Val (((M.slice (Rect.unit (s := ⟨2, ![A, B]⟩) off (⟨2, ![1, B]⟩ : Shape).size inb) hr).squeeze ⟨1, ![B]⟩ hq).view.write Val f w Ms) (ix2 r k)
      = M.view.read Val f (ix2 r k) := by
  subst hoff
  apply View.read_congr_at
  apply View.write_of_not_mem
  intro hm
  obtain ⟨x, _, hx⟩ := Finset.mem_map.mp hm
  have e : ((M.slice (Rect.unit (s := ⟨2, ![A, B]⟩) ![n, 0] (⟨2, ![1, B]⟩ : Shape).size inb) hr).squeeze ⟨1, ![B]⟩ hq).view.emb x
      = M.view.emb ((Rect.unit (s := ⟨2, ![A, B]⟩) ![n, 0] (⟨2, ![1, B]⟩ : Shape).size inb).emb (Shape.reshapeEquiv hq.numel_eq x)) := rfl
  rw [e, Shape.reshapeEquiv_cons_one] at hx
  have h := M.view.emb.injective hx
  have h0 := congrArg (fun i : (⟨2, ![A, B]⟩ : Shape).Idx => (i 0 : ℕ)) h
  simp only [Rect.emb_apply] at h0
  have h4 : n + 1 * 0 = r.val := h0
  exact hne (by omega)

/-! ## A 64-row buffer after its rows have landed

The copies' destinations are the one-row views of the 64 × 8192 scratch buffer at literal rows; after the waits the
buffer is its entry contents with one whole-row write per landed row, the first waited innermost. As a function of the
list of (row, landed values), newest first: -/

/-- The one-row view of row `R` of a 64 × 8192 buffer, as the body's copies and waits name it. -/
abbrev rowOf (M : Memref sig' κ sp S64x8192 .f32) (R : Fin 64) : Memref sig' κ sp S8192 .f32 :=
  (M.slice (Rect.unit (s := S64x8192) ![R.val, 0] S1x8192.size (fun a => by
      match a with
      | ⟨0, _⟩ => show R.val + 1 ≤ 64; have := R.isLt; omega
      | ⟨1, _⟩ => show 0 + 8192 ≤ 8192; omega)) (fun _ => rfl)).squeeze S8192 squeezes_S1x8192_S8192

/-- The buffer after the rows of `L` (newest first) were written whole over `base`. -/
def landRows (M : Memref sig' κ sp S64x8192 .f32) (base : M.view.ty.Contents Val) :
    List (Fin 64 × (S8192.Idx → Val .f32)) → M.view.ty.Contents Val
  | [] => base
  | (R, v) :: L => (rowOf M R).view.write Val (landRows M base L) v Finset.univ

/-- With every row written at most once, the buffer holds at row `R` what landed there. -/
theorem read_landRows (M : Memref sig' κ sp S64x8192 .f32) (base : M.view.ty.Contents Val) :
    ∀ (L : List (Fin 64 × (S8192.Idx → Val .f32))), (L.map Prod.fst).Nodup →
      ∀ (R : Fin 64) (v : S8192.Idx → Val .f32), (R, v) ∈ L → ∀ k : Fin 8192,
        M.view.read Val (landRows M base L) (ix2 R k) = v (ValueIdx.ix1 k)
  | [], _, _, _, hm, _ => absurd hm List.not_mem_nil
  | (R', v') :: L, hnd, R, v, hm, k => by
    rw [List.map_cons, List.nodup_cons] at hnd
    show M.view.read Val ((rowOf M R').view.write Val (landRows M base L) v' Finset.univ) (ix2 R k) = v (ValueIdx.ix1 k)
    rcases List.mem_cons.mp hm with heq | hin
    · obtain ⟨rfl, rfl⟩ := Prod.mk.injEq .. ▸ heq
      exact rowWrite_hit M ![R.val, 0] R.val R.isLt rfl _ _ squeezes_S1x8192_S8192 _ v k
    · have hne : R.val ≠ R'.val := fun e => hnd.1 (by
        have : R = R' := Fin.ext e
        exact this ▸ List.mem_map.mpr ⟨(R, v), hin, rfl⟩)
      rw [rowWrite_miss M ![R'.val, 0] R'.val rfl _ _ squeezes_S1x8192_S8192 _ v' Finset.univ R hne k]
      exact read_landRows M base L hnd.2 R v hin k

/-- A whole-buffer load reads the buffer. -/
theorem readAt_whole64 {B : Nat} (v : View sig' κ sp ⟨2, ![64, B]⟩ .f32) (off : Fin 2 → Nat) (hoff : off = fun _ => 0)
    (inb : ∀ a, off a + (⟨2, ![64, B]⟩ : Shape).size a ≤ (⟨2, ![64, B]⟩ : Shape).size a) (f : v.ty.Contents Val) :
    v.readAt Val (Rect.unit (s := ⟨2, ![64, B]⟩) off (⟨2, ![64, B]⟩ : Shape).size inb).toLoadRect f = v.read Val f := by
  rw [View.readAt_eq_ld, View.ld_unit_zero hoff]

/-! ## A row of the adjacency array, and a row of the node table -/

/-- What a row copy lands: the source's elements as they are. -/
theorem landed_same {s : Shape} {e : EltTy} (x : s.Idx → Val e) : (ReadAs.same (s := s) (e := e)).apply x = x := rfl

/-- The copy's source: row `n` of the adjacency array left whole in main memory, read as a vector, is the array's row `n`. -/
theorem adjRow_read (off : Fin 2 → Nat) (n : Nat) (hn : n < 8192) (hoff : off = ![n, 0]) (inb : ∀ a, off a + S1x8192.size a ≤ S8192x8192.size a) (hr)
    (f : (Memref.whole (sig := sig) main_arg1 : Memref sig .tc .hbm S8192x8192 .f32).view.ty.Contents Val) (k : Fin 8192) :
    (((Memref.whole (sig := sig) main_arg1 : Memref sig .tc .hbm S8192x8192 .f32).slice (Rect.unit (s := S8192x8192) off S1x8192.size inb) hr).squeeze S8192
        squeezes_S1x8192_S8192).view.read Val f (ValueIdx.ix1 k) = f (ix2 (⟨n, hn⟩ : Fin 8192) k) :=
  rowView_read (Memref.whole (sig := sig) main_arg1 : Memref sig .tc .hbm S8192x8192 .f32) off n hn hoff inb hr squeezes_S1x8192_S8192 f k

/-- A row of the node table loaded through a whole window at read contents `x0`: row `n` of `x0`. -/
theorem xRow_read (arg3 : Memref sig' κ sp S8192x256 .f32) (harg3 : arg3.IsWhole) (x0 : S8192x256.Idx → Val .f32)
    (off : Fin 2 → Nat) (n : Nat) (hn : n < 8192) (hoff : off = ![n, 0]) (inb : ∀ a, off a + S1x256.size a ≤ S8192x256.size a) (k : Fin 256) :
    View.readAt Val arg3.view (Rect.unit (s := S8192x256) off S1x256.size inb).toLoadRect (harg3.unread x0) (ix2 (0 : Fin 1) k)
      = x0 (ix2 (⟨n, hn⟩ : Fin 8192) k) := by
  subst hoff
  rw [harg3.readAt_unread x0]
  refine congrArg x0 (funext fun a => Fin.ext ?_)
  match a with
  | ⟨0, _⟩ => show n + 1 * 0 = n; omega
  | ⟨1, _⟩ => show 0 + 1 * k.val = k.val; omega

/-- Where a one-row store of a 64 × 256 buffer puts channel `k`: row `R`, channel `k`. -/
theorem rowPiece_emb (off : Fin 2 → Nat) (R : Fin 64) (hoff : off = ![R.val, 0]) (inb : ∀ a, off a + S1x256.size a ≤ S64x256.size a) (k : Fin 256) :
    (Rect.unit (s := S64x256) off S1x256.size inb).emb (ix2 (0 : Fin 1) k) = ix2 R k := by
  subst hoff
  refine funext fun a => Fin.ext ?_
  rw [Rect.emb_apply]
  match a with
  | ⟨0, _⟩ => show R.val + 1 * 0 = R.val; omega
  | ⟨1, _⟩ => show 0 + 1 * k.val = k.val; omega

/-- An index of a one-row piece is `(0, k)`. -/
theorem rowIdx_eq (x : S1x256.Idx) : x = ix2 (0 : Fin 1) (x 1) := by
  refine funext fun a => Fin.ext ?_
  match a with
  | ⟨0, _⟩ => show (x 0).val = 0; have h1 : (x 0).val < 1 := (x 0).isLt; omega
  | ⟨1, _⟩ => rfl

/-! ## The row copies' payloads are the rows

Between the load of a table row and its store the body only casts the shape to a vector and back. -/

theorem k1_pay2_id (v : Vec F S1x256 .f32) : k1_pay2 (F := F) v = v := shapeCast_shapeCast v _ _
theorem k1_pay3_id (v : Vec F S1x256 .f32) : k1_pay3 (F := F) v = v := shapeCast_shapeCast v _ _
theorem k1_pay4_id (v : Vec F S1x256 .f32) : k1_pay4 (F := F) v = v := shapeCast_shapeCast v _ _
theorem k1_pay5_id (v : Vec F S1x256 .f32) : k1_pay5 (F := F) v = v := shapeCast_shapeCast v _ _
theorem k1_pay6_id (v : Vec F S1x256 .f32) : k1_pay6 (F := F) v = v := shapeCast_shapeCast v _ _
theorem k1_pay7_id (v : Vec F S1x256 .f32) : k1_pay7 (F := F) v = v := shapeCast_shapeCast v _ _
theorem k1_pay8_id (v : Vec F S1x256 .f32) : k1_pay8 (F := F) v = v := shapeCast_shapeCast v _ _
theorem k1_pay9_id (v : Vec F S1x256 .f32) : k1_pay9 (F := F) v = v := shapeCast_shapeCast v _ _
theorem k1_pay10_id (v : Vec F S1x256 .f32) : k1_pay10 (F := F) v = v := shapeCast_shapeCast v _ _
theorem k1_pay11_id (v : Vec F S1x256 .f32) : k1_pay11 (F := F) v = v := shapeCast_shapeCast v _ _
theorem k1_pay14_id (v : Vec F S1x256 .f32) : k1_pay14 (F := F) v = v := shapeCast_shapeCast v _ _
theorem k1_pay15_id (v : Vec F S1x256 .f32) : k1_pay15 (F := F) v = v := shapeCast_shapeCast v _ _
theorem k1_pay16_id (v : Vec F S1x256 .f32) : k1_pay16 (F := F) v = v := shapeCast_shapeCast v _ _
theorem k1_pay17_id (v : Vec F S1x256 .f32) : k1_pay17 (F := F) v = v := shapeCast_shapeCast v _ _
theorem k1_pay18_id (v : Vec F S1x256 .f32) : k1_pay18 (F := F) v = v := shapeCast_shapeCast v _ _
theorem k1_pay19_id (v : Vec F S1x256 .f32) : k1_pay19 (F := F) v = v := shapeCast_shapeCast v _ _
theorem k1_pay20_id (v : Vec F S1x256 .f32) : k1_pay20 (F := F) v = v := shapeCast_shapeCast v _ _
theorem k1_pay21_id (v : Vec F S1x256 .f32) : k1_pay21 (F := F) v = v := shapeCast_shapeCast v _ _
theorem k1_pay22_id (v : Vec F S1x256 .f32) : k1_pay22 (F := F) v = v := shapeCast_shapeCast v _ _
theorem k1_pay23_id (v : Vec F S1x256 .f32) : k1_pay23 (F := F) v = v := shapeCast_shapeCast v _ _
theorem k1_pay24_id (v : Vec F S1x256 .f32) : k1_pay24 (F := F) v = v := shapeCast_shapeCast v _ _
theorem k1_pay25_id (v : Vec F S1x256 .f32) : k1_pay25 (F := F) v = v := shapeCast_shapeCast v _ _
theorem k1_pay26_id (v : Vec F S1x256 .f32) : k1_pay26 (F := F) v = v := shapeCast_shapeCast v _ _
theorem k1_pay27_id (v : Vec F S1x256 .f32) : k1_pay27 (F := F) v = v := shapeCast_shapeCast v _ _
theorem k1_pay28_id (v : Vec F S1x256 .f32) : k1_pay28 (F := F) v = v := shapeCast_shapeCast v _ _
theorem k1_pay29_id (v : Vec F S1x256 .f32) : k1_pay29 (F := F) v = v := shapeCast_shapeCast v _ _
theorem k1_pay30_id (v : Vec F S1x256 .f32) : k1_pay30 (F := F) v = v := shapeCast_shapeCast v _ _
theorem k1_pay31_id (v : Vec F S1x256 .f32) : k1_pay31 (F := F) v = v := shapeCast_shapeCast v _ _
theorem k1_pay34_id (v : Vec F S1x256 .f32) : k1_pay34 (F := F) v = v := shapeCast_shapeCast v _ _
theorem k1_pay35_id (v : Vec F S1x256 .f32) : k1_pay35 (F := F) v = v := shapeCast_shapeCast v _ _
theorem k1_pay36_id (v : Vec F S1x256 .f32) : k1_pay36 (F := F) v = v := shapeCast_shapeCast v _ _
theorem k1_pay37_id (v : Vec F S1x256 .f32) : k1_pay37 (F := F) v = v := shapeCast_shapeCast v _ _
theorem k1_pay38_id (v : Vec F S1x256 .f32) : k1_pay38 (F := F) v = v := shapeCast_shapeCast v _ _
theorem k1_pay41_id (v : Vec F S1x256 .f32) : k1_pay41 (F := F) v = v := shapeCast_shapeCast v _ _
theorem k1_pay42_id (v : Vec F S1x256 .f32) : k1_pay42 (F := F) v = v := shapeCast_shapeCast v _ _
theorem k1_pay43_id (v : Vec F S1x256 .f32) : k1_pay43 (F := F) v = v := shapeCast_shapeCast v _ _
theorem k1_pay44_id (v : Vec F S1x256 .f32) : k1_pay44 (F := F) v = v := shapeCast_shapeCast v _ _
theorem k1_pay45_id (v : Vec F S1x256 .f32) : k1_pay45 (F := F) v = v := shapeCast_shapeCast v _ _
theorem k1_pay46_id (v : Vec F S1x256 .f32) : k1_pay46 (F := F) v = v := shapeCast_shapeCast v _ _
theorem k1_pay47_id (v : Vec F S1x256 .f32) : k1_pay47 (F := F) v = v := shapeCast_shapeCast v _ _
theorem k1_pay48_id (v : Vec F S1x256 .f32) : k1_pay48 (F := F) v = v := shapeCast_shapeCast v _ _
theorem k1_pay49_id (v : Vec F S1x256 .f32) : k1_pay49 (F := F) v = v := shapeCast_shapeCast v _ _
theorem k1_pay50_id (v : Vec F S1x256 .f32) : k1_pay50 (F := F) v = v := shapeCast_shapeCast v _ _
theorem k1_pay53_id (v : Vec F S1x256 .f32) : k1_pay53 (F := F) v = v := shapeCast_shapeCast v _ _
theorem k1_pay54_id (v : Vec F S1x256 .f32) : k1_pay54 (F := F) v = v := shapeCast_shapeCast v _ _
theorem k1_pay55_id (v : Vec F S1x256 .f32) : k1_pay55 (F := F) v = v := shapeCast_shapeCast v _ _
theorem k1_pay56_id (v : Vec F S1x256 .f32) : k1_pay56 (F := F) v = v := shapeCast_shapeCast v _ _
theorem k1_pay57_id (v : Vec F S1x256 .f32) : k1_pay57 (F := F) v = v := shapeCast_shapeCast v _ _
theorem k1_pay58_id (v : Vec F S1x256 .f32) : k1_pay58 (F := F) v = v := shapeCast_shapeCast v _ _
theorem k1_pay59_id (v : Vec F S1x256 .f32) : k1_pay59 (F := F) v = v := shapeCast_shapeCast v _ _
theorem k1_pay60_id (v : Vec F S1x256 .f32) : k1_pay60 (F := F) v = v := shapeCast_shapeCast v _ _
theorem k1_pay61_id (v : Vec F S1x256 .f32) : k1_pay61 (F := F) v = v := shapeCast_shapeCast v _ _
theorem k1_pay62_id (v : Vec F S1x256 .f32) : k1_pay62 (F := F) v = v := shapeCast_shapeCast v _ _
theorem k1_pay63_id (v : Vec F S1x256 .f32) : k1_pay63 (F := F) v = v := shapeCast_shapeCast v _ _
theorem k1_pay64_id (v : Vec F S1x256 .f32) : k1_pay64 (F := F) v = v := shapeCast_shapeCast v _ _
theorem k1_pay65_id (v : Vec F S1x256 .f32) : k1_pay65 (F := F) v = v := shapeCast_shapeCast v _ _
theorem k1_pay66_id (v : Vec F S1x256 .f32) : k1_pay66 (F := F) v = v := shapeCast_shapeCast v _ _
theorem k1_pay67_id (v : Vec F S1x256 .f32) : k1_pay67 (F := F) v = v := shapeCast_shapeCast v _ _
theorem k1_pay68_id (v : Vec F S1x256 .f32) : k1_pay68 (F := F) v = v := shapeCast_shapeCast v _ _
theorem k1_pay69_id (v : Vec F S1x256 .f32) : k1_pay69 (F := F) v = v := shapeCast_shapeCast v _ _
theorem k1_pay70_id (v : Vec F S1x256 .f32) : k1_pay70 (F := F) v = v := shapeCast_shapeCast v _ _
theorem k1_pay71_id (v : Vec F S1x256 .f32) : k1_pay71 (F := F) v = v := shapeCast_shapeCast v _ _
theorem k1_pay72_id (v : Vec F S1x256 .f32) : k1_pay72 (F := F) v = v := shapeCast_shapeCast v _ _
theorem k1_pay73_id (v : Vec F S1x256 .f32) : k1_pay73 (F := F) v = v := shapeCast_shapeCast v _ _
theorem k1_pay74_id (v : Vec F S1x256 .f32) : k1_pay74 (F := F) v = v := shapeCast_shapeCast v _ _
theorem k1_pay75_id (v : Vec F S1x256 .f32) : k1_pay75 (F := F) v = v := shapeCast_shapeCast v _ _
theorem k1_pay76_id (v : Vec F S1x256 .f32) : k1_pay76 (F := F) v = v := shapeCast_shapeCast v _ _
theorem k1_pay79_id (v : Vec F S1x256 .f32) : k1_pay79 (F := F) v = v := shapeCast_shapeCast v _ _
theorem k1_pay80_id (v : Vec F S1x256 .f32) : k1_pay80 (F := F) v = v := shapeCast_shapeCast v _ _
theorem k1_pay81_id (v : Vec F S1x256 .f32) : k1_pay81 (F := F) v = v := shapeCast_shapeCast v _ _
theorem k1_pay82_id (v : Vec F S1x256 .f32) : k1_pay82 (F := F) v = v := shapeCast_shapeCast v _ _
theorem k1_pay83_id (v : Vec F S1x256 .f32) : k1_pay83 (F := F) v = v := shapeCast_shapeCast v _ _
theorem k1_pay84_id (v : Vec F S1x256 .f32) : k1_pay84 (F := F) v = v := shapeCast_shapeCast v _ _
theorem k1_pay85_id (v : Vec F S1x256 .f32) : k1_pay85 (F := F) v = v := shapeCast_shapeCast v _ _
theorem k1_pay86_id (v : Vec F S1x256 .f32) : k1_pay86 (F := F) v = v := shapeCast_shapeCast v _ _
theorem k1_pay87_id (v : Vec F S1x256 .f32) : k1_pay87 (F := F) v = v := shapeCast_shapeCast v _ _
theorem k1_pay88_id (v : Vec F S1x256 .f32) : k1_pay88 (F := F) v = v := shapeCast_shapeCast v _ _
theorem k1_pay91_id (v : Vec F S1x256 .f32) : k1_pay91 (F := F) v = v := shapeCast_shapeCast v _ _
theorem k1_pay92_id (v : Vec F S1x256 .f32) : k1_pay92 (F := F) v = v := shapeCast_shapeCast v _ _
theorem k1_pay93_id (v : Vec F S1x256 .f32) : k1_pay93 (F := F) v = v := shapeCast_shapeCast v _ _
theorem k1_pay94_id (v : Vec F S1x256 .f32) : k1_pay94 (F := F) v = v := shapeCast_shapeCast v _ _
theorem k1_pay95_id (v : Vec F S1x256 .f32) : k1_pay95 (F := F) v = v := shapeCast_shapeCast v _ _
theorem k1_pay96_id (v : Vec F S1x256 .f32) : k1_pay96 (F := F) v = v := shapeCast_shapeCast v _ _
theorem k1_pay97_id (v : Vec F S1x256 .f32) : k1_pay97 (F := F) v = v := shapeCast_shapeCast v _ _
theorem k1_pay98_id (v : Vec F S1x256 .f32) : k1_pay98 (F := F) v = v := shapeCast_shapeCast v _ _
theorem k1_pay99_id (v : Vec F S1x256 .f32) : k1_pay99 (F := F) v = v := shapeCast_shapeCast v _ _
theorem k1_pay100_id (v : Vec F S1x256 .f32) : k1_pay100 (F := F) v = v := shapeCast_shapeCast v _ _
theorem k1_pay101_id (v : Vec F S1x256 .f32) : k1_pay101 (F := F) v = v := shapeCast_shapeCast v _ _
theorem k1_pay102_id (v : Vec F S1x256 .f32) : k1_pay102 (F := F) v = v := shapeCast_shapeCast v _ _
theorem k1_pay103_id (v : Vec F S1x256 .f32) : k1_pay103 (F := F) v = v := shapeCast_shapeCast v _ _
theorem k1_pay104_id (v : Vec F S1x256 .f32) : k1_pay104 (F := F) v = v := shapeCast_shapeCast v _ _
theorem k1_pay105_id (v : Vec F S1x256 .f32) : k1_pay105 (F := F) v = v := shapeCast_shapeCast v _ _
theorem k1_pay106_id (v : Vec F S1x256 .f32) : k1_pay106 (F := F) v = v := shapeCast_shapeCast v _ _
theorem k1_pay107_id (v : Vec F S1x256 .f32) : k1_pay107 (F := F) v = v := shapeCast_shapeCast v _ _
theorem k1_pay108_id (v : Vec F S1x256 .f32) : k1_pay108 (F := F) v = v := shapeCast_shapeCast v _ _
theorem k1_pay109_id (v : Vec F S1x256 .f32) : k1_pay109 (F := F) v = v := shapeCast_shapeCast v _ _
theorem k1_pay110_id (v : Vec F S1x256 .f32) : k1_pay110 (F := F) v = v := shapeCast_shapeCast v _ _
theorem k1_pay111_id (v : Vec F S1x256 .f32) : k1_pay111 (F := F) v = v := shapeCast_shapeCast v _ _
theorem k1_pay112_id (v : Vec F S1x256 .f32) : k1_pay112 (F := F) v = v := shapeCast_shapeCast v _ _
theorem k1_pay113_id (v : Vec F S1x256 .f32) : k1_pay113 (F := F) v = v := shapeCast_shapeCast v _ _
theorem k1_pay114_id (v : Vec F S1x256 .f32) : k1_pay114 (F := F) v = v := shapeCast_shapeCast v _ _
theorem k1_pay117_id (v : Vec F S1x256 .f32) : k1_pay117 (F := F) v = v := shapeCast_shapeCast v _ _
theorem k1_pay118_id (v : Vec F S1x256 .f32) : k1_pay118 (F := F) v = v := shapeCast_shapeCast v _ _
theorem k1_pay119_id (v : Vec F S1x256 .f32) : k1_pay119 (F := F) v = v := shapeCast_shapeCast v _ _
theorem k1_pay120_id (v : Vec F S1x256 .f32) : k1_pay120 (F := F) v = v := shapeCast_shapeCast v _ _
theorem k1_pay121_id (v : Vec F S1x256 .f32) : k1_pay121 (F := F) v = v := shapeCast_shapeCast v _ _
theorem k1_pay122_id (v : Vec F S1x256 .f32) : k1_pay122 (F := F) v = v := shapeCast_shapeCast v _ _
theorem k1_pay123_id (v : Vec F S1x256 .f32) : k1_pay123 (F := F) v = v := shapeCast_shapeCast v _ _
theorem k1_pay124_id (v : Vec F S1x256 .f32) : k1_pay124 (F := F) v = v := shapeCast_shapeCast v _ _
theorem k1_pay125_id (v : Vec F S1x256 .f32) : k1_pay125 (F := F) v = v := shapeCast_shapeCast v _ _
theorem k1_pay126_id (v : Vec F S1x256 .f32) : k1_pay126 (F := F) v = v := shapeCast_shapeCast v _ _
theorem k1_pay129_id (v : Vec F S1x256 .f32) : k1_pay129 (F := F) v = v := shapeCast_shapeCast v _ _
theorem k1_pay130_id (v : Vec F S1x256 .f32) : k1_pay130 (F := F) v = v := shapeCast_shapeCast v _ _
theorem k1_pay131_id (v : Vec F S1x256 .f32) : k1_pay131 (F := F) v = v := shapeCast_shapeCast v _ _
theorem k1_pay132_id (v : Vec F S1x256 .f32) : k1_pay132 (F := F) v = v := shapeCast_shapeCast v _ _
theorem k1_pay133_id (v : Vec F S1x256 .f32) : k1_pay133 (F := F) v = v := shapeCast_shapeCast v _ _
theorem k1_pay134_id (v : Vec F S1x256 .f32) : k1_pay134 (F := F) v = v := shapeCast_shapeCast v _ _
theorem k1_pay135_id (v : Vec F S1x256 .f32) : k1_pay135 (F := F) v = v := shapeCast_shapeCast v _ _
theorem k1_pay136_id (v : Vec F S1x256 .f32) : k1_pay136 (F := F) v = v := shapeCast_shapeCast v _ _
theorem k1_pay137_id (v : Vec F S1x256 .f32) : k1_pay137 (F := F) v = v := shapeCast_shapeCast v _ _

/-- Eight rows are cast to a vector at the end of one stretch of the body and back to a row at the start of the next. -/
theorem k1_pay13_pay12 (v : Vec F S1x256 .f32) : k1_pay13 (F := F) (k1_pay12 v) = v := shapeCast_shapeCast v _ _
theorem k1_pay33_pay32 (v : Vec F S1x256 .f32) : k1_pay33 (F := F) (k1_pay32 v) = v := shapeCast_shapeCast v _ _
theorem k1_pay40_pay39 (v : Vec F S1x256 .f32) : k1_pay40 (F := F) (k1_pay39 v) = v := shapeCast_shapeCast v _ _
theorem k1_pay52_pay51 (v : Vec F S1x256 .f32) : k1_pay52 (F := F) (k1_pay51 v) = v := shapeCast_shapeCast v _ _
theorem k1_pay78_pay77 (v : Vec F S1x256 .f32) : k1_pay78 (F := F) (k1_pay77 v) = v := shapeCast_shapeCast v _ _
theorem k1_pay90_pay89 (v : Vec F S1x256 .f32) : k1_pay90 (F := F) (k1_pay89 v) = v := shapeCast_shapeCast v _ _
theorem k1_pay116_pay115 (v : Vec F S1x256 .f32) : k1_pay116 (F := F) (k1_pay115 v) = v := shapeCast_shapeCast v _ _
theorem k1_pay128_pay127 (v : Vec F S1x256 .f32) : k1_pay128 (F := F) (k1_pay127 v) = v := shapeCast_shapeCast v _ _

end Cert.KernelIdeal.Hand

end
-- ==== Proof.KI.R1Rows.lean ====
import proofs.«428817_j39556648796289_1_alg».proof.Proof.KI.R1Mem
import proofs.«428817_j39556648796289_1_alg».proof.Proof.Spec
import Idealize.ShloMosaic.Lib.Writes
import Idealize.ShloMosaic.Lib.Pipeline.FrameBody
import Idealize.ShloMosaic.Lib.Pipeline.Value
import Idealize.ShloMosaic.Lib.ValueIdx
import Idealize.ShloMosaic.Lib.WholeRead

/-! # Region 1's rows, named by the tables' words

For each edge of a tile the body reads one word off each table and uses it as a row number: of the adjacency array
(the row it copies into the adjacency buffer) and of the node table (the row it stores into the feature buffer). Here
each such row is read in terms of the table's word, and the two kinds of 64-row buffer are read at a row given as a
variable, from the rows' contents given as a function of the row. Generic in the values. -/

noncomputable section

namespace Cert.KernelIdeal.Hand

open Cert.KernelIdeal Cert.KernelIdeal.Gen
open Idealize.ShloMosaic
open Idealize.ShloMosaic.ValueIdx

variable {Val : EltTy → Type} {sig' : RefSig} {κ : Kind} {sp : Space}

/-! ## The word read off a table -/

/-- The one word a one-element load at position `e` of the first table reads is the table's word `e`. -/
theorem tableWord_v1 (x : S8192.Idx → Val .i32) (off : Fin 1 → Nat) (e : Fin 8192) (hoff : off 0 = e.val)
    (inb : ∀ a, off a + S1.size a ≤ S8192.size a) (h1 : 0 < S1.numel) :
    (Memref.whole (sig := sig) main_v1).view.readAt Val (Rect.unit (s := S8192) off S1.size inb).toLoadRect x (Shape.Idx.first h1)
      = x (ValueIdx.ix1 e) := by
  show x ((Rect.unit (s := S8192) off S1.size inb).toLoadRect.idx (Shape.Idx.first h1)) = x (ValueIdx.ix1 e)
  refine congrArg x (funext fun a => Fin.ext ?_)
  match a with
  | ⟨0, _⟩ => show off 0 + 1 * 0 = e.val; omega

/-- The same for the second table. -/
theorem tableWord_v3 (x : S8192.Idx → Val .i32) (off : Fin 1 → Nat) (e : Fin 8192) (hoff : off 0 = e.val)
    (inb : ∀ a, off a + S1.size a ≤ S8192.size a) (h1 : 0 < S1.numel) :
    (Memref.whole (sig := sig) main_v3).view.readAt Val (Rect.unit (s := S8192) off S1.size inb).toLoadRect x (Shape.Idx.first h1)
      = x (ValueIdx.ix1 e) := by
  show x ((Rect.unit (s := S8192) off S1.size inb).toLoadRect.idx (Shape.Idx.first h1)) = x (ValueIdx.ix1 e)
  refine congrArg x (funext fun a => Fin.ext ?_)
  match a with
  | ⟨0, _⟩ => show off 0 + 1 * 0 = e.val; omega

/-! ## The rows a word names -/

/-- What a row copy out of the adjacency array lands, at channel `k`: the array at the row the word names. -/
theorem landedRow_eq (f : (Memref.whole (sig := sig) main_arg1 : Memref sig .tc .hbm S8192x8192 .f32).view.ty.Contents Val)
    (w : BitVec 32) (hw : w.toNat < 8192) (off : Fin 2 → Nat) (hoff : off = ![w.toNat, 0])
    (inb : ∀ a, off a + S1x8192.size a ≤ S8192x8192.size a) (hr) (k : Fin 8192) :
    (ReadAs.same (s := S8192) (e := .f32)).apply
        ((((Memref.whole (sig := sig) main_arg1 : Memref sig .tc .hbm S8192x8192 .f32).slice (Rect.unit (s := S8192x8192) off S1x8192.size inb) hr).squeeze S8192
          squeezes_S1x8192_S8192).view.read Val f) (ValueIdx.ix1 k)
      = f (ix2 (Cert.Spec.rowIx w) k) := by
  rw [landed_same, adjRow_read off w.toNat hw hoff inb hr f k, Cert.Spec.rowIx_of_lt hw]

/-- The row of the node table a word names, loaded through a whole window at read contents `x0`, at channel `k`. -/
theorem xRowAt_eq (arg3 : Memref sig' κ sp S8192x256 .f32) (harg3 : arg3.IsWhole) (x0 : S8192x256.Idx → Val .f32)
    (w : BitVec 32) (hw : w.toNat < 8192) (off : Fin 2 → Nat) (hoff : off = ![w.toNat, 0])
    (inb : ∀ a, off a + S1x256.size a ≤ S8192x256.size a) (k : Fin 256) :
    View.readAt Val arg3.view (Rect.unit (s := S8192x256) off S1x256.size inb).toLoadRect (harg3.unread x0) (ix2 (0 : Fin 1) k)
      = x0 (ix2 (Cert.Spec.rowIx w) k) := by
  rw [xRow_read arg3 harg3 x0 off w.toNat hw hoff inb k, Cert.Spec.rowIx_of_lt hw]

/-! ## A 64-row buffer read at a variable row -/

/-- The adjacency buffer after its rows landed in the order `order` (newest first), each row's contents a function of
    the row: at row `r` it holds that function at `r`. -/
theorem read_landRows_map (M : Memref sig' κ sp S64x8192 .f32) (base : M.view.ty.Contents Val) (order : List (Fin 64)) (hnd : order.Nodup)
    (vals : Fin 64 → S8192.Idx → Val .f32) (r : Fin 64) (hr : r ∈ order) (k : Fin 8192) :
    M.view.read Val (landRows M base (order.map fun R => (R, vals R))) (ix2 r k) = vals r (ValueIdx.ix1 k) :=
  read_landRows M base _ (by rw [List.map_map]; simpa [Function.comp_def] using hnd) r (vals r) (List.mem_map.mpr ⟨r, hr, rfl⟩) k

/-- The one-row rectangle of row `R` of a 64 × 256 buffer, as the body's row stores name it. -/
abbrev rowRect (R : Fin 64) : Rect S64x256 :=
  Rect.unit (s := S64x256) ![R.val, 0] S1x256.size (fun a => by
    match a with
    | ⟨0, _⟩ => show R.val + 1 ≤ 64; have := R.isLt; omega
    | ⟨1, _⟩ => show 0 + 256 ≤ 256; omega)

/-- Where a one-row store of a 64 × 256 buffer puts its index `x`: row `R`, channel `x 1`. -/
theorem rowRect_emb (R : Fin 64) (x : S1x256.Idx) : (rowRect R).emb x = ix2 R (x 1) := by
  refine funext fun a => Fin.ext ?_
  rw [Rect.emb_apply]
  match a with
  | ⟨0, _⟩ => show R.val + 1 * (x 0).val = R.val; have h1 : (x 0).val < 1 := (x 0).isLt; omega
  | ⟨1, _⟩ => show 0 + 1 * (x 1).val = (x 1).val; omega

/-- The feature buffer after one row store per row of `order`, each row's payload a function of the row: at row `r`
    it holds that payload. -/
theorem read_rowPieces_map (v : View sig' κ sp S64x256 .f32) (f : v.ty.Contents Val) (order : List (Fin 64))
    (pv : Fin 64 → S1x256.Idx → Val .f32) (r : Fin 64) (hr : r ∈ order) (k : Fin 256) :
    v.read Val (v.writes Val f (order.map fun R => (⟨rowRect R, pv R⟩ : View.Piece Val S64x256 .f32))) (ix2 r k)
      = pv r (ix2 (0 : Fin 1) k) :=
  View.read_writes_apply_of_pieces (v := v) (f := f) (fun i : S64x256.Idx => pv (i 0) (ix2 (0 : Fin 1) (i 1)))
    (order.map fun R => (⟨rowRect R, pv R⟩ : View.Piece Val S64x256 .f32))
    (fun p hp x => by
      obtain ⟨R, -, rfl⟩ := List.mem_map.mp hp
      have he : (rowRect R).emb x = ix2 R (x 1) := rowRect_emb R x
      have h1 : pv (((rowRect R).emb x) 0) (ix2 (0 : Fin 1) (((rowRect R).emb x) 1))
          = pv ((ix2 R (x 1) : S64x256.Idx) 0) (ix2 (0 : Fin 1) ((ix2 R (x 1) : S64x256.Idx) 1)) :=
        congrArg (fun z : S64x256.Idx => pv (z 0) (ix2 (0 : Fin 1) (z 1))) he
      exact (congrArg (pv R) (rowIdx_eq x)).trans h1.symm)
    (ix2 r k)
    ⟨⟨rowRect r, pv r⟩, List.mem_map.mpr ⟨r, hr, rfl⟩, by
      show ix2 r k ∈ (rowRect r).set
      rw [Rect.mem_set_unit]
      intro a
      match a with
      | ⟨0, _⟩ => exact ⟨le_refl _, by show r.val < r.val + 1; omega⟩
      | ⟨1, _⟩ => exact ⟨Nat.zero_le _, by show k.val < 0 + 256; have := k.isLt; omega⟩⟩

/-! ## A 64-row buffer loaded whole after every row was written

When every row is written, the whole-buffer load is the rows' contents as a function of the index: what the buffer
held before is read nowhere. -/

/-- The adjacency buffer, every row landed. -/
theorem readAt_landRows_all (M : Memref sig' κ sp S64x8192 .f32) (base : M.view.ty.Contents Val) (order : List (Fin 64)) (hnd : order.Nodup)
    (hall : ∀ r : Fin 64, r ∈ order) (vals : Fin 64 → S8192.Idx → Val .f32) (off : Fin 2 → Nat) (hoff : off = fun _ => 0)
    (inb : ∀ a, off a + S64x8192.size a ≤ S64x8192.size a) :
    View.readAt Val M.view (Rect.unit (s := S64x8192) off S64x8192.size inb).toLoadRect (landRows M base (order.map fun R => (R, vals R)))
      = fun (j : S64x8192.Idx) => vals (j 0) (ValueIdx.ix1 (j 1)) := by
  rw [readAt_whole64 M.view off hoff inb]
  refine funext fun (j : S64x8192.Idx) => ?_
  exact (congrArg (M.view.read Val (landRows M base (order.map fun R => (R, vals R)))) (eq_ix2 j)).trans
    (read_landRows_map M base order hnd vals (j 0) (hall _) (j 1))

/-- The feature buffer, every row stored, loaded after the stores. -/
theorem readAt_rowPieces_all (v : View sig' κ sp S64x256 .f32) (f : v.ty.Contents Val) (order : List (Fin 64)) (hall : ∀ r : Fin 64, r ∈ order)
    (pv : Fin 64 → S1x256.Idx → Val .f32) (off : Fin 2 → Nat) (hoff : off = fun _ => 0)
    (inb : ∀ a, off a + S64x256.size a ≤ S64x256.size a) :
    View.readAt Val v (Rect.unit (s := S64x256) off S64x256.size inb).toLoadRect
        (v.writes Val f (order.map fun R => (⟨rowRect R, pv R⟩ : View.Piece Val S64x256 .f32)))
      = fun (j : S64x256.Idx) => pv (j 0) (ix2 (0 : Fin 1) (j 1)) := by
  rw [readAt_whole64 v off hoff inb]
  refine funext fun (j : S64x256.Idx) => ?_
  exact (congrArg (v.read Val (v.writes Val f (order.map fun R => (⟨rowRect R, pv R⟩ : View.Piece Val S64x256 .f32)))) (eq_ix2 j)).trans
    (read_rowPieces_map v f order pv (j 0) (hall _) (j 1))

/-- The same when the load is read off the stores alone (a covered load names no prior contents). -/
theorem readCov_rowPieces_all [∀ e, Nonempty (Val e)] (v : View sig' κ sp S64x256 .f32) (order : List (Fin 64)) (hall : ∀ r : Fin 64, r ∈ order)
    (pv : Fin 64 → S1x256.Idx → Val .f32) (off : Fin 2 → Nat) (hoff : off = fun _ => 0)
    (inb : ∀ a, off a + S64x256.size a ≤ S64x256.size a) :
    v.readCov (order.map fun R => (⟨rowRect R, pv R⟩ : View.Piece Val S64x256 .f32)) (Rect.unit (s := S64x256) off S64x256.size inb).toLoadRect
      = fun (j : S64x256.Idx) => pv (j 0) (ix2 (0 : Fin 1) (j 1)) :=
  (View.readCov_eq_canon' v _ _).trans
    ((View.readAt_writes_junk_eq_canon v _ _).symm.trans (readAt_rowPieces_all v v.junk order hall pv off hoff inb))

/-! ## The same, between two prior contents

Stated on the list of rows itself: when every row occurs in it, two buffers that differ only in what they held before
the rows were written load the same. -/

/-- At a row that was written, the two buffers agree. -/
theorem read_landRows_indep (M : Memref sig' κ sp S64x8192 .f32) (base base' : M.view.ty.Contents Val)
    (L : List (Fin 64 × (S8192.Idx → Val .f32))) (hnd : (L.map Prod.fst).Nodup) (R : Fin 64) (hR : R ∈ L.map Prod.fst) (k : Fin 8192) :
    M.view.read Val (landRows M base L) (ix2 R k) = M.view.read Val (landRows M base' L) (ix2 R k) := by
  obtain ⟨⟨R', v⟩, hm, rfl⟩ := List.mem_map.mp hR
  exact (read_landRows M base L hnd R' v hm k).trans (read_landRows M base' L hnd R' v hm k).symm

/-- With every row written, the whole loads agree. -/
theorem readAt_landRows_indep (M : Memref sig' κ sp S64x8192 .f32) (base base' : M.view.ty.Contents Val)
    (L : List (Fin 64 × (S8192.Idx → Val .f32))) (hnd : (L.map Prod.fst).Nodup) (hall : ∀ r : Fin 64, r ∈ L.map Prod.fst)
    (off : Fin 2 → Nat) (hoff : off = fun _ => 0) (inb : ∀ a, off a + S64x8192.size a ≤ S64x8192.size a) :
    View.readAt Val M.view (Rect.unit (s := S64x8192) off S64x8192.size inb).toLoadRect (landRows M base L)
      = View.readAt Val M.view (Rect.unit (s := S64x8192) off S64x8192.size inb).toLoadRect (landRows M base' L) := by
  rw [readAt_whole64 M.view off hoff inb, readAt_whole64 M.view off hoff inb]
  refine funext fun (j : S64x8192.Idx) => ?_
  exact (congrArg (M.view.read Val (landRows M base L)) (eq_ix2 j)).trans
    ((read_landRows_indep M base base' L hnd (j 0) (hall _) (j 1)).trans (congrArg (M.view.read Val (landRows M base' L)) (eq_ix2 j)).symm)

/-- A buffer whose listed stores cover it loads the same whatever it held before them. -/
theorem readAt_writes_indep {S : Shape} (v : View sig' κ sp S .f32) (f f' : v.ty.Contents Val) (L : List (View.Piece Val S .f32))
    (hcov : ∀ y : S.Idx, ∃ p ∈ L, y ∈ p.1.set) (B : LoadRect S) :
    View.readAt Val v B (v.writes Val f L) = View.readAt Val v B (v.writes Val f' L) :=
  funext fun x => by
    rw [View.readAt_apply, View.readAt_apply]
    exact View.read_writes_apply_eq (v := v) (f := f) v f' (B.idx x) L (hcov _)

end Cert.KernelIdeal.Hand

end
-- ==== Proof.KI.Tables.lean ====
/-
  The index facts of the link-predictor kernel, generic in the float instance (an i32 element is a 32-bit word at
  every instance).
  (i)  The precondition's last conjunct, all(0 ≤ tar ∧ tar < 8192), read back: every word of the edge table is below
       8192 as a natural number.
  (ii) The two prefetched tables of the second region are rows 0 and 1 of the edge table: the host stretch slices a
       row and flattens it, so word e of a table is the edge table at (row, e).
  (iii) A word below 8192 names a row of the 8192×8192 adjacency and of the 8192×256 feature array: the one-row
       blocks at that row fit, which is what each side condition of the body asks of a word.
  (iv) The table position the body reads at grid point t for its r-th edge is 64·t + r (no wrap: t < 128, r < 64).
-/
import proofs.«428817_j39556648796289_1_alg».proof.Defs
import proofs.«428817_j39556648796289_1_alg».proof.Proof.Gen.KernelIdeal.Launch
import proofs.«428817_j39556648796289_1_alg».proof.Proof.Gen.KernelIdeal.Regions
import proofs.«428817_j39556648796289_1_alg».proof.Proof.Gen.Pre_finite_inputs
import Idealize.ShloMosaic.Lib.ReduceAll
import Idealize.ShloMosaic.Lib.StableHlo.Predicate
import Idealize.ShloMosaic.Lib.StableHlo.Run
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## (i) The edge table's words are below 8192 -/

/-- A word in [0, 8192) as a signed number is below 8192 as a natural number. -/
theorem toNat_lt_of_signed (w : BitVec 32) (h0 : IntOp.cmpi .sge w (0#32) = 1#1) (h1 : IntOp.cmpi .slt w (8192#32) = 1#1) :
    w.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  have hw := w.isLt
  rw [BitVec.toInt_eq_toNat_cond] at h0 h1
  split at h0 <;> omega

/-- The precondition's last conjunct: all(0 ≤ tar ∧ tar < 8192) came out 1, so every word of the edge table is below 8192. -/
theorem tar_lt_of_pre [hP : Cert.Pre_finite_inputs.Facts]
    (a0 : FVec F Cert.Pre_finite_inputs.S8192x256 .f32) (a1 : FVec F Cert.Pre_finite_inputs.S8192x8192 .f32)
    (tar : IVec Cert.Pre_finite_inputs.S2x8192 32)
    (a3 : FVec F Cert.Pre_finite_inputs.S256x256 .f32) (a4 : FVec F Cert.Pre_finite_inputs.S256 .f32)
    (a5 : FVec F Cert.Pre_finite_inputs.S256x256 .f32) (a6 : FVec F Cert.Pre_finite_inputs.S256 .f32)
    (a7 : FVec F Cert.Pre_finite_inputs.S256x256 .f32) (a8 : FVec F Cert.Pre_finite_inputs.S256 .f32)
    (a9 : FVec F Cert.Pre_finite_inputs.S256x256 .f32) (a10 : FVec F Cert.Pre_finite_inputs.S256 .f32)
    (a11 : FVec F Cert.Pre_finite_inputs.S256x256 .f32) (a12 : FVec F Cert.Pre_finite_inputs.S256 .f32)
    (a13 : FVec F Cert.Pre_finite_inputs.S256x256 .f32) (a14 : FVec F Cert.Pre_finite_inputs.S256 .f32)
    (a15 : FVec F Cert.Pre_finite_inputs.S256x1 .f32) (a16 : FVec F Cert.Pre_finite_inputs.S1 .f32)
    (a17 : FVec F Cert.Pre_finite_inputs.S1 .f32)
    (h : Cert.Pre_finite_inputs.fn (F := F) a0 a1 tar a3 a4 a5 a6 a7 a8 a9 a10 a11 a12 a13 a14 a15 a16 a17 = (fun _ => 1#1)) :
    ∀ (s : Fin 2) (e : Fin 8192), (tar (ValueIdx.ix2 s e)).toNat < 8192 := by
  intro s e
  -- the scalar shape has one index
  haveI : Subsingleton Cert.Pre_finite_inputs.S_.Idx := ⟨fun a b => funext fun d => d.elim0⟩
  -- the whole conjunction at the scalar's one index is the last part's result
  have h5 : Cert.Pre_finite_inputs.fn_part5 (F := F) tar _ _ ValueIdx.ix0 = 1#1 := congrFun h ValueIdx.ix0
  -- its last conjunct is the reduction by "and" of the elementwise test
  have hall := (IntOp.andi_eq_one.1 h5).2
  -- a reduction by "and" over all axes that is 1 met a 1 at every index
  have hel := Host.reduce_andi_all _ _ _ _ ValueIdx.ix0 hall (ValueIdx.ix2 s e)
  obtain ⟨hge, hlt⟩ := IntOp.andi_eq_one.1 hel
  exact toNat_lt_of_signed _ hge hlt

/-! ## (ii) The prefetched tables are the edge table's rows -/

variable (m : (ℓ : Loc nD τ sig) → Buf (Elt F) ℓ)

/-- Row ρ of the edge table, sliced off and flattened, read at e is the edge table at (ρ, e). -/
theorem flat_row_apply (x : S2x8192.Idx → BitVec 32) (ρ : Fin 2) (off : Fin 2 → Nat) (hoff0 : off 0 = ρ.val) (hoff1 : off 1 = 0)
    (hs : S2x8192.Slices off S1x8192) (hc : S1x8192.ShapeCasts S8192) (e : Fin 8192) :
    shapeCast S8192 (extractStridedSlice S1x8192 off x hs) hc (ValueIdx.ix1 e) = x (ValueIdx.ix2 ρ e) := by
  refine (shapeCast_apply _ hc (ValueIdx.ix1 e) (ValueIdx.ix2 (0 : Fin 1) e) ?_).trans ?_
  · rw [Shape.rowMajor_val_two, Shape.rowMajor_val_one]
    show 0 * 8192 + e.val = e.val
    omega
  · refine extractStridedSlice_apply off x hs _ (ValueIdx.ix2 ρ e) fun a => ?_
    match a with
    | ⟨0, _⟩ => show ρ.val = off 0 + 0; omega
    | ⟨1, _⟩ => show e.val = off 1 + e.val; omega

/-- The first table: word e is the edge table at (0, e). -/
theorem V1_main_v1_apply (c : Dev nD) (e : Fin 8192) :
    (Gen.V1 m c main_v1 : S8192.Idx → BitVec 32) (ValueIdx.ix1 e) = m ((c : Thread nD τ).loc main_arg2) (ValueIdx.ix2 0 e) := by
  have hv : (Gen.V1 m c main_v1 : S8192.Idx → BitVec 32)
      = shapeCast S8192 (extractStridedSlice S1x8192 ![0, 0] (m ((c : Thread nD τ).loc main_arg2)) slices_S2x8192_S1x8192_0_0) shapeCasts_S1x8192_S8192 := by
    dsimp only [Gen.V1, Gen.V0, Gen.hostOps0]; after_results; rfl
  rw [hv]
  exact flat_row_apply _ 0 ![0, 0] rfl rfl _ _ e

/-- The second table: word e is the edge table at (1, e). -/
theorem V1_main_v3_apply (c : Dev nD) (e : Fin 8192) :
    (Gen.V1 m c main_v3 : S8192.Idx → BitVec 32) (ValueIdx.ix1 e) = m ((c : Thread nD τ).loc main_arg2) (ValueIdx.ix2 1 e) := by
  have hv : (Gen.V1 m c main_v3 : S8192.Idx → BitVec 32)
      = shapeCast S8192 (extractStridedSlice S1x8192 ![1, 0] (m ((c : Thread nD τ).loc main_arg2)) slices_S2x8192_S1x8192_1_0) shapeCasts_S1x8192_S8192 := by
    dsimp only [Gen.V1, Gen.V0, Gen.hostOps0]; after_results; rfl
  rw [hv]
  exact flat_row_apply _ 1 ![1, 0] rfl rfl _ _ e

/-! ## (iii) A word below 8192 passes the body's side conditions -/

/-- The one-row blocks at row w of the adjacency and of the feature array fit when w < 8192. -/
theorem row_blocks_fit (w : BitVec 32) (h : w.toNat < 8192) :
    (∀ a, (![w.toNat, 0] : Fin 2 → Nat) a + S1x8192.size a ≤ S8192x8192.size a) ∧
    (∀ a, (![(Scalar.indexCast w).toNat, 0] : Fin 2 → Nat) a + S1x256.size a ≤ S8192x256.size a) := by
  have hc : (Scalar.indexCast w).toNat = w.toNat := rfl
  refine ⟨fun a => ?_, fun a => ?_⟩
  · match a with
    | ⟨0, _⟩ => show w.toNat + 1 ≤ 8192; omega
    | ⟨1, _⟩ => show 0 + 8192 ≤ 8192; omega
  · match a with
    | ⟨0, _⟩ => show (Scalar.indexCast w).toNat + 1 ≤ 8192; omega
    | ⟨1, _⟩ => show 0 + 256 ≤ 256; omega

/-! ## (iv) The table position read at grid point t for edge r of the tile -/

/-- 64·t + r computed in 32-bit words does not wrap for t < 128 and r < 64. -/
theorem table_pos (t : Nat) (ht : t < 128) (r : Nat) (hr : r < 64) :
    (Scalar.indexCast (Scalar.addi (Scalar.muli (BitVec.ofNat 32 t) (64#32)) (BitVec.ofNat 32 r))).toNat = 64 * t + r := by
  show (BitVec.ofNat 32 t * 64#32 + BitVec.ofNat 32 r).toNat = 64 * t + r
  rw [BitVec.toNat_add, BitVec.toNat_mul, BitVec.toNat_ofNat, BitVec.toNat_ofNat, BitVec.toNat_ofNat]
  omega

/-- A point's coordinate of the second region's grid is below 128. -/
theorem coord_lt (i : grid1.Coords) : (i 0).val < 128 := (i 0).isLt

end Cert.KernelIdeal.Hand

end
-- ==== Proof.KI.TablesCases.lean ====
/-
  The side conditions of the body, one per word it reads, and the table positions of its reads, one per edge of a tile:
  each side condition is row_blocks_fit at its own pair of offset functions, each position is table_pos at its own edge number.
-/
import proofs.«428817_j39556648796289_1_alg».proof.Proof.KI.Tables

noncomputable section

namespace Cert.KernelIdeal.Hand

open Cert.KernelIdeal Cert.KernelIdeal.Gen
open Idealize.ShloMosaic

/-! ## A word below 8192 passes each side condition -/

theorem chk_of_lt_1 (w : BitVec 32) (h : w.toNat < 8192) : k1_chk1 w := row_blocks_fit w h
theorem chk_of_lt_2 (w : BitVec 32) (h : w.toNat < 8192) : k1_chk2 w := row_blocks_fit w h
theorem chk_of_lt_3 (w : BitVec 32) (h : w.toNat < 8192) : k1_chk3 w := row_blocks_fit w h
theorem chk_of_lt_4 (w : BitVec 32) (h : w.toNat < 8192) : k1_chk4 w := row_blocks_fit w h
theorem chk_of_lt_5 (w : BitVec 32) (h : w.toNat < 8192) : k1_chk5 w := row_blocks_fit w h
theorem chk_of_lt_6 (w : BitVec 32) (h : w.toNat < 8192) : k1_chk6 w := row_blocks_fit w h
theorem chk_of_lt_7 (w : BitVec 32) (h : w.toNat < 8192) : k1_chk7 w := row_blocks_fit w h
theorem chk_of_lt_8 (w : BitVec 32) (h : w.toNat < 8192) : k1_chk8 w := row_blocks_fit w h
theorem chk_of_lt_9 (w : BitVec 32) (h : w.toNat < 8192) : k1_chk9 w := row_blocks_fit w h
theorem chk_of_lt_10 (w : BitVec 32) (h : w.toNat < 8192) : k1_chk10 w := row_blocks_fit w h
theorem chk_of_lt_11 (w : BitVec 32) (h : w.toNat < 8192) : k1_chk11 w := row_blocks_fit w h
theorem chk_of_lt_12 (w : BitVec 32) (h : w.toNat < 8192) : k1_chk12 w := row_blocks_fit w h
theorem chk_of_lt_13 (w : BitVec 32) (h : w.toNat < 8192) : k1_chk13 w := row_blocks_fit w h
theorem chk_of_lt_14 (w : BitVec 32) (h : w.toNat < 8192) : k1_chk14 w := row_blocks_fit w h
theorem chk_of_lt_15 (w : BitVec 32) (h : w.toNat < 8192) : k1_chk15 w := row_blocks_fit w h
theorem chk_of_lt_16 (w : BitVec 32) (h : w.toNat < 8192) : k1_chk16 w := row_blocks_fit w h
theorem chk_of_lt_17 (w : BitVec 32) (h : w.toNat < 8192) : k1_chk17 w := row_blocks_fit w h
theorem chk_of_lt_18 (w : BitVec 32) (h : w.toNat < 8192) : k1_chk18 w := row_blocks_fit w h
theorem chk_of_lt_19 (w : BitVec 32) (h : w.toNat < 8192) : k1_chk19 w := row_blocks_fit w h
theorem chk_of_lt_20 (w : BitVec 32) (h : w.toNat < 8192) : k1_chk20 w := row_blocks_fit w h
theorem chk_of_lt_21 (w : BitVec 32) (h : w.toNat < 8192) : k1_chk21 w := row_blocks_fit w h
theorem chk_of_lt_22 (w : BitVec 32) (h : w.toNat < 8192) : k1_chk22 w := row_blocks_fit w h
theorem chk_of_lt_23 (w : BitVec 32) (h : w.toNat < 8192) : k1_chk23 w := row_blocks_fit w h
theorem chk_of_lt_24 (w : BitVec 32) (h : w.toNat < 8192) : k1_chk24 w := row_blocks_fit w h
theorem chk_of_lt_25 (w : BitVec 32) (h : w.toNat < 8192) : k1_chk25 w := row_blocks_fit w h
theorem chk_of_lt_26 (w : BitVec 32) (h : w.toNat < 8192) : k1_chk26 w := row_blocks_fit w h
theorem chk_of_lt_27 (w : BitVec 32) (h : w.toNat < 8192) : k1_chk27 w := row_blocks_fit w h
theorem chk_of_lt_28 (w : BitVec 32) (h : w.toNat < 8192) : k1_chk28 w := row_blocks_fit w h
theorem chk_of_lt_29 (w : BitVec 32) (h : w.toNat < 8192) : k1_chk29 w := row_blocks_fit w h
theorem chk_of_lt_30 (w : BitVec 32) (h : w.toNat < 8192) : k1_chk30 w := row_blocks_fit w h
theorem chk_of_lt_31 (w : BitVec 32) (h : w.toNat < 8192) : k1_chk31 w := row_blocks_fit w h
theorem chk_of_lt_32 (w : BitVec 32) (h : w.toNat < 8192) : k1_chk32 w := row_blocks_fit w h
theorem chk_of_lt_33 (w : BitVec 32) (h : w.toNat < 8192) : k1_chk33 w := row_blocks_fit w h
theorem chk_of_lt_34 (w : BitVec 32) (h : w.toNat < 8192) : k1_chk34 w := row_blocks_fit w h
theorem chk_of_lt_35 (w : BitVec 32) (h : w.toNat < 8192) : k1_chk35 w := row_blocks_fit w h
theorem chk_of_lt_36 (w : BitVec 32) (h : w.toNat < 8192) : k1_chk36 w := row_blocks_fit w h
theorem chk_of_lt_37 (w : BitVec 32) (h : w.toNat < 8192) : k1_chk37 w := row_blocks_fit w h
theorem chk_of_lt_38 (w : BitVec 32) (h : w.toNat < 8192) : k1_chk38 w := row_blocks_fit w h
theorem chk_of_lt_39 (w : BitVec 32) (h : w.toNat < 8192) : k1_chk39 w := row_blocks_fit w h
theorem chk_of_lt_40 (w : BitVec 32) (h : w.toNat < 8192) : k1_chk40 w := row_blocks_fit w h
theorem chk_of_lt_41 (w : BitVec 32) (h : w.toNat < 8192) : k1_chk41 w := row_blocks_fit w h
theorem chk_of_lt_42 (w : BitVec 32) (h : w.toNat < 8192) : k1_chk42 w := row_blocks_fit w h
theorem chk_of_lt_43 (w : BitVec 32) (h : w.toNat < 8192) : k1_chk43 w := row_blocks_fit w h
theorem chk_of_lt_44 (w : BitVec 32) (h : w.toNat < 8192) : k1_chk44 w := row_blocks_fit w h
theorem chk_of_lt_45 (w : BitVec 32) (h : w.toNat < 8192) : k1_chk45 w := row_blocks_fit w h
theorem chk_of_lt_46 (w : BitVec 32) (h : w.toNat < 8192) : k1_chk46 w := row_blocks_fit w h
theorem chk_of_lt_47 (w : BitVec 32) (h : w.toNat < 8192) : k1_chk47 w := row_blocks_fit w h
theorem chk_of_lt_48 (w : BitVec 32) (h : w.toNat < 8192) : k1_chk48 w := row_blocks_fit w h
theorem chk_of_lt_49 (w : BitVec 32) (h : w.toNat < 8192) : k1_chk49 w := row_blocks_fit w h
theorem chk_of_lt_50 (w : BitVec 32) (h : w.toNat < 8192) : k1_chk50 w := row_blocks_fit w h
theorem chk_of_lt_51 (w : BitVec 32) (h : w.toNat < 8192) : k1_chk51 w := row_blocks_fit w h
theorem chk_of_lt_52 (w : BitVec 32) (h : w.toNat < 8192) : k1_chk52 w := row_blocks_fit w h
theorem chk_of_lt_53 (w : BitVec 32) (h : w.toNat < 8192) : k1_chk53 w := row_blocks_fit w h
theorem chk_of_lt_54 (w : BitVec 32) (h : w.toNat < 8192) : k1_chk54 w := row_blocks_fit w h
theorem chk_of_lt_55 (w : BitVec 32) (h : w.toNat < 8192) : k1_chk55 w := row_blocks_fit w h
theorem chk_of_lt_56 (w : BitVec 32) (h : w.toNat < 8192) : k1_chk56 w := row_blocks_fit w h
theorem chk_of_lt_57 (w : BitVec 32) (h : w.toNat < 8192) : k1_chk57 w := row_blocks_fit w h
theorem chk_of_lt_58 (w : BitVec 32) (h : w.toNat < 8192) : k1_chk58 w := row_blocks_fit w h
theorem chk_of_lt_59 (w : BitVec 32) (h : w.toNat < 8192) : k1_chk59 w := row_blocks_fit w h
theorem chk_of_lt_60 (w : BitVec 32) (h : w.toNat < 8192) : k1_chk60 w := row_blocks_fit w h
theorem chk_of_lt_61 (w : BitVec 32) (h : w.toNat < 8192) : k1_chk61 w := row_blocks_fit w h
theorem chk_of_lt_62 (w : BitVec 32) (h : w.toNat < 8192) : k1_chk62 w := row_blocks_fit w h
theorem chk_of_lt_63 (w : BitVec 32) (h : w.toNat < 8192) : k1_chk63 w := row_blocks_fit w h
theorem chk_of_lt_64 (w : BitVec 32) (h : w.toNat < 8192) : k1_chk64 w := row_blocks_fit w h
theorem chk_of_lt_65 (w : BitVec 32) (h : w.toNat < 8192) : k1_chk65 w := row_blocks_fit w h
theorem chk_of_lt_66 (w : BitVec 32) (h : w.toNat < 8192) : k1_chk66 w := row_blocks_fit w h
theorem chk_of_lt_67 (w : BitVec 32) (h : w.toNat < 8192) : k1_chk67 w := row_blocks_fit w h
theorem chk_of_lt_68 (w : BitVec 32) (h : w.toNat < 8192) : k1_chk68 w := row_blocks_fit w h
theorem chk_of_lt_69 (w : BitVec 32) (h : w.toNat < 8192) : k1_chk69 w := row_blocks_fit w h
theorem chk_of_lt_70 (w : BitVec 32) (h : w.toNat < 8192) : k1_chk70 w := row_blocks_fit w h
theorem chk_of_lt_71 (w : BitVec 32) (h : w.toNat < 8192) : k1_chk71 w := row_blocks_fit w h
theorem chk_of_lt_72 (w : BitVec 32) (h : w.toNat < 8192) : k1_chk72 w := row_blocks_fit w h
theorem chk_of_lt_73 (w : BitVec 32) (h : w.toNat < 8192) : k1_chk73 w := row_blocks_fit w h
theorem chk_of_lt_74 (w : BitVec 32) (h : w.toNat < 8192) : k1_chk74 w := row_blocks_fit w h
theorem chk_of_lt_75 (w : BitVec 32) (h : w.toNat < 8192) : k1_chk75 w := row_blocks_fit w h
theorem chk_of_lt_76 (w : BitVec 32) (h : w.toNat < 8192) : k1_chk76 w := row_blocks_fit w h
theorem chk_of_lt_77 (w : BitVec 32) (h : w.toNat < 8192) : k1_chk77 w := row_blocks_fit w h
theorem chk_of_lt_78 (w : BitVec 32) (h : w.toNat < 8192) : k1_chk78 w := row_blocks_fit w h
theorem chk_of_lt_79 (w : BitVec 32) (h : w.toNat < 8192) : k1_chk79 w := row_blocks_fit w h
theorem chk_of_lt_80 (w : BitVec 32) (h : w.toNat < 8192) : k1_chk80 w := row_blocks_fit w h
theorem chk_of_lt_81 (w : BitVec 32) (h : w.toNat < 8192) : k1_chk81 w := row_blocks_fit w h
theorem chk_of_lt_82 (w : BitVec 32) (h : w.toNat < 8192) : k1_chk82 w := row_blocks_fit w h
theorem chk_of_lt_83 (w : BitVec 32) (h : w.toNat < 8192) : k1_chk83 w := row_blocks_fit w h
theorem chk_of_lt_84 (w : BitVec 32) (h : w.toNat < 8192) : k1_chk84 w := row_blocks_fit w h
theorem chk_of_lt_85 (w : BitVec 32) (h : w.toNat < 8192) : k1_chk85 w := row_blocks_fit w h
theorem chk_of_lt_86 (w : BitVec 32) (h : w.toNat < 8192) : k1_chk86 w := row_blocks_fit w h
theorem chk_of_lt_87 (w : BitVec 32) (h : w.toNat < 8192) : k1_chk87 w := row_blocks_fit w h
theorem chk_of_lt_88 (w : BitVec 32) (h : w.toNat < 8192) : k1_chk88 w := row_blocks_fit w h
theorem chk_of_lt_89 (w : BitVec 32) (h : w.toNat < 8192) : k1_chk89 w := row_blocks_fit w h
theorem chk_of_lt_90 (w : BitVec 32) (h : w.toNat < 8192) : k1_chk90 w := row_blocks_fit w h
theorem chk_of_lt_91 (w : BitVec 32) (h : w.toNat < 8192) : k1_chk91 w := row_blocks_fit w h
theorem chk_of_lt_92 (w : BitVec 32) (h : w.toNat < 8192) : k1_chk92 w := row_blocks_fit w h
theorem chk_of_lt_93 (w : BitVec 32) (h : w.toNat < 8192) : k1_chk93 w := row_blocks_fit w h
theorem chk_of_lt_94 (w : BitVec 32) (h : w.toNat < 8192) : k1_chk94 w := row_blocks_fit w h
theorem chk_of_lt_95 (w : BitVec 32) (h : w.toNat < 8192) : k1_chk95 w := row_blocks_fit w h
theorem chk_of_lt_96 (w : BitVec 32) (h : w.toNat < 8192) : k1_chk96 w := row_blocks_fit w h
theorem chk_of_lt_97 (w : BitVec 32) (h : w.toNat < 8192) : k1_chk97 w := row_blocks_fit w h
theorem chk_of_lt_98 (w : BitVec 32) (h : w.toNat < 8192) : k1_chk98 w := row_blocks_fit w h
theorem chk_of_lt_99 (w : BitVec 32) (h : w.toNat < 8192) : k1_chk99 w := row_blocks_fit w h
theorem chk_of_lt_100 (w : BitVec 32) (h : w.toNat < 8192) : k1_chk100 w := row_blocks_fit w h
theorem chk_of_lt_101 (w : BitVec 32) (h : w.toNat < 8192) : k1_chk101 w := row_blocks_fit w h
theorem chk_of_lt_102 (w : BitVec 32) (h : w.toNat < 8192) : k1_chk102 w := row_blocks_fit w h
theorem chk_of_lt_103 (w : BitVec 32) (h : w.toNat < 8192) : k1_chk103 w := row_blocks_fit w h
theorem chk_of_lt_104 (w : BitVec 32) (h : w.toNat < 8192) : k1_chk104 w := row_blocks_fit w h
theorem chk_of_lt_105 (w : BitVec 32) (h : w.toNat < 8192) : k1_chk105 w := row_blocks_fit w h
theorem chk_of_lt_106 (w : BitVec 32) (h : w.toNat < 8192) : k1_chk106 w := row_blocks_fit w h
theorem chk_of_lt_107 (w : BitVec 32) (h : w.toNat < 8192) : k1_chk107 w := row_blocks_fit w h
theorem chk_of_lt_108 (w : BitVec 32) (h : w.toNat < 8192) : k1_chk108 w := row_blocks_fit w h
theorem chk_of_lt_109 (w : BitVec 32) (h : w.toNat < 8192) : k1_chk109 w := row_blocks_fit w h
theorem chk_of_lt_110 (w : BitVec 32) (h : w.toNat < 8192) : k1_chk110 w := row_blocks_fit w h
theorem chk_of_lt_111 (w : BitVec 32) (h : w.toNat < 8192) : k1_chk111 w := row_blocks_fit w h
theorem chk_of_lt_112 (w : BitVec 32) (h : w.toNat < 8192) : k1_chk112 w := row_blocks_fit w h
theorem chk_of_lt_113 (w : BitVec 32) (h : w.toNat < 8192) : k1_chk113 w := row_blocks_fit w h
theorem chk_of_lt_114 (w : BitVec 32) (h : w.toNat < 8192) : k1_chk114 w := row_blocks_fit w h
theorem chk_of_lt_115 (w : BitVec 32) (h : w.toNat < 8192) : k1_chk115 w := row_blocks_fit w h
theorem chk_of_lt_116 (w : BitVec 32) (h : w.toNat < 8192) : k1_chk116 w := row_blocks_fit w h
theorem chk_of_lt_117 (w : BitVec 32) (h : w.toNat < 8192) : k1_chk117 w := row_blocks_fit w h
theorem chk_of_lt_118 (w : BitVec 32) (h : w.toNat < 8192) : k1_chk118 w := row_blocks_fit w h
theorem chk_of_lt_119 (w : BitVec 32) (h : w.toNat < 8192) : k1_chk119 w := row_blocks_fit w h
theorem chk_of_lt_120 (w : BitVec 32) (h : w.toNat < 8192) : k1_chk120 w := row_blocks_fit w h
theorem chk_of_lt_121 (w : BitVec 32) (h : w.toNat < 8192) : k1_chk121 w := row_blocks_fit w h
theorem chk_of_lt_122 (w : BitVec 32) (h : w.toNat < 8192) : k1_chk122 w := row_blocks_fit w h
theorem chk_of_lt_123 (w : BitVec 32) (h : w.toNat < 8192) : k1_chk123 w := row_blocks_fit w h
theorem chk_of_lt_124 (w : BitVec 32) (h : w.toNat < 8192) : k1_chk124 w := row_blocks_fit w h
theorem chk_of_lt_125 (w : BitVec 32) (h : w.toNat < 8192) : k1_chk125 w := row_blocks_fit w h
theorem chk_of_lt_126 (w : BitVec 32) (h : w.toNat < 8192) : k1_chk126 w := row_blocks_fit w h
theorem chk_of_lt_127 (w : BitVec 32) (h : w.toNat < 8192) : k1_chk127 w := row_blocks_fit w h
theorem chk_of_lt_128 (w : BitVec 32) (h : w.toNat < 8192) : k1_chk128 w := row_blocks_fit w h

/-! ## The table position of edge r of tile t is 64·t + r -/

theorem k1_off1_zero (i : grid1.Coords) : (k1_off1 i) 0 = 64 * (i 0).val + 0 := table_pos _ (coord_lt i) 0 (by omega)
theorem k1_off6_zero (i : grid1.Coords) : (k1_off6 i) 0 = 64 * (i 0).val + 1 := table_pos _ (coord_lt i) 1 (by omega)
theorem k1_off11_zero (i : grid1.Coords) : (k1_off11 i) 0 = 64 * (i 0).val + 2 := table_pos _ (coord_lt i) 2 (by omega)
theorem k1_off16_zero (i : grid1.Coords) : (k1_off16 i) 0 = 64 * (i 0).val + 3 := table_pos _ (coord_lt i) 3 (by omega)
theorem k1_off21_zero (i : grid1.Coords) : (k1_off21 i) 0 = 64 * (i 0).val + 4 := table_pos _ (coord_lt i) 4 (by omega)
theorem k1_off26_zero (i : grid1.Coords) : (k1_off26 i) 0 = 64 * (i 0).val + 5 := table_pos _ (coord_lt i) 5 (by omega)
theorem k1_off31_zero (i : grid1.Coords) : (k1_off31 i) 0 = 64 * (i 0).val + 6 := table_pos _ (coord_lt i) 6 (by omega)
theorem k1_off36_zero (i : grid1.Coords) : (k1_off36 i) 0 = 64 * (i 0).val + 7 := table_pos _ (coord_lt i) 7 (by omega)
theorem k1_off41_zero (i : grid1.Coords) : (k1_off41 i) 0 = 64 * (i 0).val + 8 := table_pos _ (coord_lt i) 8 (by omega)
theorem k1_off46_zero (i : grid1.Coords) : (k1_off46 i) 0 = 64 * (i 0).val + 9 := table_pos _ (coord_lt i) 9 (by omega)
theorem k1_off51_zero (i : grid1.Coords) : (k1_off51 i) 0 = 64 * (i 0).val + 10 := table_pos _ (coord_lt i) 10 (by omega)
theorem k1_off56_zero (i : grid1.Coords) : (k1_off56 i) 0 = 64 * (i 0).val + 11 := table_pos _ (coord_lt i) 11 (by omega)
theorem k1_off61_zero (i : grid1.Coords) : (k1_off61 i) 0 = 64 * (i 0).val + 12 := table_pos _ (coord_lt i) 12 (by omega)
theorem k1_off66_zero (i : grid1.Coords) : (k1_off66 i) 0 = 64 * (i 0).val + 13 := table_pos _ (coord_lt i) 13 (by omega)
theorem k1_off71_zero (i : grid1.Coords) : (k1_off71 i) 0 = 64 * (i 0).val + 14 := table_pos _ (coord_lt i) 14 (by omega)
theorem k1_off76_zero (i : grid1.Coords) : (k1_off76 i) 0 = 64 * (i 0).val + 15 := table_pos _ (coord_lt i) 15 (by omega)
theorem k1_off81_zero (i : grid1.Coords) : (k1_off81 i) 0 = 64 * (i 0).val + 16 := table_pos _ (coord_lt i) 16 (by omega)
theorem k1_off86_zero (i : grid1.Coords) : (k1_off86 i) 0 = 64 * (i 0).val + 17 := table_pos _ (coord_lt i) 17 (by omega)
theorem k1_off91_zero (i : grid1.Coords) : (k1_off91 i) 0 = 64 * (i 0).val + 18 := table_pos _ (coord_lt i) 18 (by omega)
theorem k1_off96_zero (i : grid1.Coords) : (k1_off96 i) 0 = 64 * (i 0).val + 19 := table_pos _ (coord_lt i) 19 (by omega)
theorem k1_off101_zero (i : grid1.Coords) : (k1_off101 i) 0 = 64 * (i 0).val + 20 := table_pos _ (coord_lt i) 20 (by omega)
theorem k1_off106_zero (i : grid1.Coords) : (k1_off106 i) 0 = 64 * (i 0).val + 21 := table_pos _ (coord_lt i) 21 (by omega)
theorem k1_off111_zero (i : grid1.Coords) : (k1_off111 i) 0 = 64 * (i 0).val + 22 := table_pos _ (coord_lt i) 22 (by omega)
theorem k1_off116_zero (i : grid1.Coords) : (k1_off116 i) 0 = 64 * (i 0).val + 23 := table_pos _ (coord_lt i) 23 (by omega)
theorem k1_off121_zero (i : grid1.Coords) : (k1_off121 i) 0 = 64 * (i 0).val + 24 := table_pos _ (coord_lt i) 24 (by omega)
theorem k1_off126_zero (i : grid1.Coords) : (k1_off126 i) 0 = 64 * (i 0).val + 25 := table_pos _ (coord_lt i) 25 (by omega)
theorem k1_off131_zero (i : grid1.Coords) : (k1_off131 i) 0 = 64 * (i 0).val + 26 := table_pos _ (coord_lt i) 26 (by omega)
theorem k1_off136_zero (i : grid1.Coords) : (k1_off136 i) 0 = 64 * (i 0).val + 27 := table_pos _ (coord_lt i) 27 (by omega)
theorem k1_off141_zero (i : grid1.Coords) : (k1_off141 i) 0 = 64 * (i 0).val + 28 := table_pos _ (coord_lt i) 28 (by omega)
theorem k1_off146_zero (i : grid1.Coords) : (k1_off146 i) 0 = 64 * (i 0).val + 29 := table_pos _ (coord_lt i) 29 (by omega)
theorem k1_off151_zero (i : grid1.Coords) : (k1_off151 i) 0 = 64 * (i 0).val + 30 := table_pos _ (coord_lt i) 30 (by omega)
theorem k1_off156_zero (i : grid1.Coords) : (k1_off156 i) 0 = 64 * (i 0).val + 31 := table_pos _ (coord_lt i) 31 (by omega)
theorem k1_off161_zero (i : grid1.Coords) : (k1_off161 i) 0 = 64 * (i 0).val + 32 := table_pos _ (coord_lt i) 32 (by omega)
theorem k1_off166_zero (i : grid1.Coords) : (k1_off166 i) 0 = 64 * (i 0).val + 33 := table_pos _ (coord_lt i) 33 (by omega)
theorem k1_off171_zero (i : grid1.Coords) : (k1_off171 i) 0 = 64 * (i 0).val + 34 := table_pos _ (coord_lt i) 34 (by omega)
theorem k1_off176_zero (i : grid1.Coords) : (k1_off176 i) 0 = 64 * (i 0).val + 35 := table_pos _ (coord_lt i) 35 (by omega)
theorem k1_off181_zero (i : grid1.Coords) : (k1_off181 i) 0 = 64 * (i 0).val + 36 := table_pos _ (coord_lt i) 36 (by omega)
theorem k1_off186_zero (i : grid1.Coords) : (k1_off186 i) 0 = 64 * (i 0).val + 37 := table_pos _ (coord_lt i) 37 (by omega)
theorem k1_off191_zero (i : grid1.Coords) : (k1_off191 i) 0 = 64 * (i 0).val + 38 := table_pos _ (coord_lt i) 38 (by omega)
theorem k1_off196_zero (i : grid1.Coords) : (k1_off196 i) 0 = 64 * (i 0).val + 39 := table_pos _ (coord_lt i) 39 (by omega)
theorem k1_off201_zero (i : grid1.Coords) : (k1_off201 i) 0 = 64 * (i 0).val + 40 := table_pos _ (coord_lt i) 40 (by omega)
theorem k1_off206_zero (i : grid1.Coords) : (k1_off206 i) 0 = 64 * (i 0).val + 41 := table_pos _ (coord_lt i) 41 (by omega)
theorem k1_off211_zero (i : grid1.Coords) : (k1_off211 i) 0 = 64 * (i 0).val + 42 := table_pos _ (coord_lt i) 42 (by omega)
theorem k1_off216_zero (i : grid1.Coords) : (k1_off216 i) 0 = 64 * (i 0).val + 43 := table_pos _ (coord_lt i) 43 (by omega)
theorem k1_off221_zero (i : grid1.Coords) : (k1_off221 i) 0 = 64 * (i 0).val + 44 := table_pos _ (coord_lt i) 44 (by omega)
theorem k1_off226_zero (i : grid1.Coords) : (k1_off226 i) 0 = 64 * (i 0).val + 45 := table_pos _ (coord_lt i) 45 (by omega)
theorem k1_off231_zero (i : grid1.Coords) : (k1_off231 i) 0 = 64 * (i 0).val + 46 := table_pos _ (coord_lt i) 46 (by omega)
theorem k1_off236_zero (i : grid1.Coords) : (k1_off236 i) 0 = 64 * (i 0).val + 47 := table_pos _ (coord_lt i) 47 (by omega)
theorem k1_off241_zero (i : grid1.Coords) : (k1_off241 i) 0 = 64 * (i 0).val + 48 := table_pos _ (coord_lt i) 48 (by omega)
theorem k1_off246_zero (i : grid1.Coords) : (k1_off246 i) 0 = 64 * (i 0).val + 49 := table_pos _ (coord_lt i) 49 (by omega)
theorem k1_off251_zero (i : grid1.Coords) : (k1_off251 i) 0 = 64 * (i 0).val + 50 := table_pos _ (coord_lt i) 50 (by omega)
theorem k1_off256_zero (i : grid1.Coords) : (k1_off256 i) 0 = 64 * (i 0).val + 51 := table_pos _ (coord_lt i) 51 (by omega)
theorem k1_off261_zero (i : grid1.Coords) : (k1_off261 i) 0 = 64 * (i 0).val + 52 := table_pos _ (coord_lt i) 52 (by omega)
theorem k1_off266_zero (i : grid1.Coords) : (k1_off266 i) 0 = 64 * (i 0).val + 53 := table_pos _ (coord_lt i) 53 (by omega)
theorem k1_off271_zero (i : grid1.Coords) : (k1_off271 i) 0 = 64 * (i 0).val + 54 := table_pos _ (coord_lt i) 54 (by omega)
theorem k1_off276_zero (i : grid1.Coords) : (k1_off276 i) 0 = 64 * (i 0).val + 55 := table_pos _ (coord_lt i) 55 (by omega)
theorem k1_off281_zero (i : grid1.Coords) : (k1_off281 i) 0 = 64 * (i 0).val + 56 := table_pos _ (coord_lt i) 56 (by omega)
theorem k1_off286_zero (i : grid1.Coords) : (k1_off286 i) 0 = 64 * (i 0).val + 57 := table_pos _ (coord_lt i) 57 (by omega)
theorem k1_off291_zero (i : grid1.Coords) : (k1_off291 i) 0 = 64 * (i 0).val + 58 := table_pos _ (coord_lt i) 58 (by omega)
theorem k1_off296_zero (i : grid1.Coords) : (k1_off296 i) 0 = 64 * (i 0).val + 59 := table_pos _ (coord_lt i) 59 (by omega)
theorem k1_off301_zero (i : grid1.Coords) : (k1_off301 i) 0 = 64 * (i 0).val + 60 := table_pos _ (coord_lt i) 60 (by omega)
theorem k1_off306_zero (i : grid1.Coords) : (k1_off306 i) 0 = 64 * (i 0).val + 61 := table_pos _ (coord_lt i) 61 (by omega)
theorem k1_off311_zero (i : grid1.Coords) : (k1_off311 i) 0 = 64 * (i 0).val + 62 := table_pos _ (coord_lt i) 62 (by omega)
theorem k1_off316_zero (i : grid1.Coords) : (k1_off316 i) 0 = 64 * (i 0).val + 63 := table_pos _ (coord_lt i) 63 (by omega)

end Cert.KernelIdeal.Hand

end
-- ==== Proof.KI.R1TileRows.lean ====
import proofs.«428817_j39556648796289_1_alg».proof.Proof.Gen.KernelIdeal.Skeleton
import proofs.«428817_j39556648796289_1_alg».proof.Proof.KI.R1Rows
import proofs.«428817_j39556648796289_1_alg».proof.Proof.KI.TablesCases
import proofs.«428817_j39556648796289_1_alg».proof.Proof.Spec

/-! # The four scratch buffers of a tile, row by row

For edge `R` of the tile at grid point `i` the body reads word `64 i + R` of each table, copies the adjacency array's
row of that number into row `R` of an adjacency buffer, and stores the node table's row of that number into row `R`
of a feature buffer. Here are those 64 rows of each of the four buffers as functions of `R`, each equal to the row
the table's word names, and each buffer read at a row `r` given as a variable. The tables' words are assumed below
8192, which makes every row copy and row load in bounds. -/

set_option maxRecDepth 16384

noncomputable section

namespace Cert.KernelIdeal.Hand

open Cert.KernelIdeal Cert.KernelIdeal.Gen
open Idealize.ShloMosaic
open Idealize.ShloMosaic.ValueIdx

variable {F : FTy → Type} [FloatOps F]

/-- The table position of edge `R` of the tile at point `i`. -/
def edgeOf (i : grid1.Coords) (R : Fin 64) : Fin 8192 :=
  ⟨64 * (i 0).val + R.val, by have h1 := coord_lt i; have h2 := R.isLt; omega⟩

/-- The one word a one-element load at `off` reads off the first table, and off the second. -/
abbrev wd0 (xt0 : S8192.Idx → BitVec 32) (off : Fin 1 → Nat) (inb : ∀ a, off a + S1.size a ≤ S8192.size a) : BitVec 32 :=
  (Memref.whole (sig := sig) main_v1 : Memref sig .tc .smem S8192 .i32).view.readAt (Elt F) (Rect.unit (s := S8192) off S1.size inb).toLoadRect xt0
    (Shape.Idx.first (numel1_S1.symm ▸ Nat.one_pos))
abbrev wd1 (xt1 : S8192.Idx → BitVec 32) (off : Fin 1 → Nat) (inb : ∀ a, off a + S1.size a ≤ S8192.size a) : BitVec 32 :=
  (Memref.whole (sig := sig) main_v3 : Memref sig .tc .smem S8192 .i32).view.readAt (Elt F) (Rect.unit (s := S8192) off S1.size inb).toLoadRect xt1
    (Shape.Idx.first (numel1_S1.symm ▸ Nat.one_pos))

/-- What a copy of the one-row view at `off` of the adjacency array lands. -/
abbrev adjSrc (fh0 : S8192x8192.Idx → Elt F .f32) (off : Fin 2 → Nat) (inb : ∀ a, off a + S1x8192.size a ≤ S8192x8192.size a) : S8192.Idx → Elt F .f32 :=
  (ReadAs.same (s := S8192) (e := .f32)).apply
    ((((Memref.whole (sig := sig) main_arg1 : Memref sig .tc .hbm S8192x8192 .f32).slice (Rect.unit (s := S8192x8192) off S1x8192.size inb) (fun _ => rfl)).squeeze S8192
      squeezes_S1x8192_S8192).view.read (Elt F) fh0)

/-- What a one-row load at `off` reads through a whole window of the node table at read contents `x0`. -/
abbrev xLoad (arg3 : Memref sig .tc .vmem S8192x256 .f32) (harg3 : arg3.IsWhole) (x0 : Vec F S8192x256 .f32) (off : Fin 2 → Nat)
    (inb : ∀ a, off a + S1x256.size a ≤ S8192x256.size a) : S1x256.Idx → Elt F .f32 :=
  View.readAt (Elt F) arg3.view (Rect.unit (s := S8192x256) off S1x256.size inb).toLoadRect (harg3.unread x0)

/-! ## Which of the body's functions belong to edge `R`

Per edge the body has its own printed offset functions (the table position, the two adjacency rows, the two table rows)
and its own row payloads. These tables pick them by `R`; beside each, the one fact used of it. -/

/-- The table position's offset function of edge `R`. -/
def tabOff : Fin 64 → grid1.Coords → Fin 1 → Nat
  | ⟨0, _⟩ => k1_off1
  | ⟨1, _⟩ => k1_off6
  | ⟨2, _⟩ => k1_off11
  | ⟨3, _⟩ => k1_off16
  | ⟨4, _⟩ => k1_off21
  | ⟨5, _⟩ => k1_off26
  | ⟨6, _⟩ => k1_off31
  | ⟨7, _⟩ => k1_off36
  | ⟨8, _⟩ => k1_off41
  | ⟨9, _⟩ => k1_off46
  | ⟨10, _⟩ => k1_off51
  | ⟨11, _⟩ => k1_off56
  | ⟨12, _⟩ => k1_off61
  | ⟨13, _⟩ => k1_off66
  | ⟨14, _⟩ => k1_off71
  | ⟨15, _⟩ => k1_off76
  | ⟨16, _⟩ => k1_off81
  | ⟨17, _⟩ => k1_off86
  | ⟨18, _⟩ => k1_off91
  | ⟨19, _⟩ => k1_off96
  | ⟨20, _⟩ => k1_off101
  | ⟨21, _⟩ => k1_off106
  | ⟨22, _⟩ => k1_off111
  | ⟨23, _⟩ => k1_off116
  | ⟨24, _⟩ => k1_off121
  | ⟨25, _⟩ => k1_off126
  | ⟨26, _⟩ => k1_off131
  | ⟨27, _⟩ => k1_off136
  | ⟨28, _⟩ => k1_off141
  | ⟨29, _⟩ => k1_off146
  | ⟨30, _⟩ => k1_off151
  | ⟨31, _⟩ => k1_off156
  | ⟨32, _⟩ => k1_off161
  | ⟨33, _⟩ => k1_off166
  | ⟨34, _⟩ => k1_off171
  | ⟨35, _⟩ => k1_off176
  | ⟨36, _⟩ => k1_off181
  | ⟨37, _⟩ => k1_off186
  | ⟨38, _⟩ => k1_off191
  | ⟨39, _⟩ => k1_off196
  | ⟨40, _⟩ => k1_off201
  | ⟨41, _⟩ => k1_off206
  | ⟨42, _⟩ => k1_off211
  | ⟨43, _⟩ => k1_off216
  | ⟨44, _⟩ => k1_off221
  | ⟨45, _⟩ => k1_off226
  | ⟨46, _⟩ => k1_off231
  | ⟨47, _⟩ => k1_off236
  | ⟨48, _⟩ => k1_off241
  | ⟨49, _⟩ => k1_off246
  | ⟨50, _⟩ => k1_off251
  | ⟨51, _⟩ => k1_off256
  | ⟨52, _⟩ => k1_off261
  | ⟨53, _⟩ => k1_off266
  | ⟨54, _⟩ => k1_off271
  | ⟨55, _⟩ => k1_off276
  | ⟨56, _⟩ => k1_off281
  | ⟨57, _⟩ => k1_off286
  | ⟨58, _⟩ => k1_off291
  | ⟨59, _⟩ => k1_off296
  | ⟨60, _⟩ => k1_off301
  | ⟨61, _⟩ => k1_off306
  | ⟨62, _⟩ => k1_off311
  | ⟨63, _⟩ => k1_off316
  | ⟨n + 64, h⟩ => absurd h (by omega)
theorem tabOff_zero : ∀ (R : Fin 64) (i : grid1.Coords), tabOff R i 0 = 64 * (i 0).val + R.val
  | ⟨0, _⟩, i => k1_off1_zero i
  | ⟨1, _⟩, i => k1_off6_zero i
  | ⟨2, _⟩, i => k1_off11_zero i
  | ⟨3, _⟩, i => k1_off16_zero i
  | ⟨4, _⟩, i => k1_off21_zero i
  | ⟨5, _⟩, i => k1_off26_zero i
  | ⟨6, _⟩, i => k1_off31_zero i
  | ⟨7, _⟩, i => k1_off36_zero i
  | ⟨8, _⟩, i => k1_off41_zero i
  | ⟨9, _⟩, i => k1_off46_zero i
  | ⟨10, _⟩, i => k1_off51_zero i
  | ⟨11, _⟩, i => k1_off56_zero i
  | ⟨12, _⟩, i => k1_off61_zero i
  | ⟨13, _⟩, i => k1_off66_zero i
  | ⟨14, _⟩, i => k1_off71_zero i
  | ⟨15, _⟩, i => k1_off76_zero i
  | ⟨16, _⟩, i => k1_off81_zero i
  | ⟨17, _⟩, i => k1_off86_zero i
  | ⟨18, _⟩, i => k1_off91_zero i
  | ⟨19, _⟩, i => k1_off96_zero i
  | ⟨20, _⟩, i => k1_off101_zero i
  | ⟨21, _⟩, i => k1_off106_zero i
  | ⟨22, _⟩, i => k1_off111_zero i
  | ⟨23, _⟩, i => k1_off116_zero i
  | ⟨24, _⟩, i => k1_off121_zero i
  | ⟨25, _⟩, i => k1_off126_zero i
  | ⟨26, _⟩, i => k1_off131_zero i
  | ⟨27, _⟩, i => k1_off136_zero i
  | ⟨28, _⟩, i => k1_off141_zero i
  | ⟨29, _⟩, i => k1_off146_zero i
  | ⟨30, _⟩, i => k1_off151_zero i
  | ⟨31, _⟩, i => k1_off156_zero i
  | ⟨32, _⟩, i => k1_off161_zero i
  | ⟨33, _⟩, i => k1_off166_zero i
  | ⟨34, _⟩, i => k1_off171_zero i
  | ⟨35, _⟩, i => k1_off176_zero i
  | ⟨36, _⟩, i => k1_off181_zero i
  | ⟨37, _⟩, i => k1_off186_zero i
  | ⟨38, _⟩, i => k1_off191_zero i
  | ⟨39, _⟩, i => k1_off196_zero i
  | ⟨40, _⟩, i => k1_off201_zero i
  | ⟨41, _⟩, i => k1_off206_zero i
  | ⟨42, _⟩, i => k1_off211_zero i
  | ⟨43, _⟩, i => k1_off216_zero i
  | ⟨44, _⟩, i => k1_off221_zero i
  | ⟨45, _⟩, i => k1_off226_zero i
  | ⟨46, _⟩, i => k1_off231_zero i
  | ⟨47, _⟩, i => k1_off236_zero i
  | ⟨48, _⟩, i => k1_off241_zero i
  | ⟨49, _⟩, i => k1_off246_zero i
  | ⟨50, _⟩, i => k1_off251_zero i
  | ⟨51, _⟩, i => k1_off256_zero i
  | ⟨52, _⟩, i => k1_off261_zero i
  | ⟨53, _⟩, i => k1_off266_zero i
  | ⟨54, _⟩, i => k1_off271_zero i
  | ⟨55, _⟩, i => k1_off276_zero i
  | ⟨56, _⟩, i => k1_off281_zero i
  | ⟨57, _⟩, i => k1_off286_zero i
  | ⟨58, _⟩, i => k1_off291_zero i
  | ⟨59, _⟩, i => k1_off296_zero i
  | ⟨60, _⟩, i => k1_off301_zero i
  | ⟨61, _⟩, i => k1_off306_zero i
  | ⟨62, _⟩, i => k1_off311_zero i
  | ⟨63, _⟩, i => k1_off316_zero i
  | ⟨n + 64, h⟩, _ => absurd h (by omega)
theorem tabOff_inb (R : Fin 64) (i : grid1.Coords) : ∀ a, tabOff R i a + S1.size a ≤ S8192.size a := fun a => by
  match a with
  | ⟨0, _⟩ => show tabOff R i 0 + 1 ≤ 8192; rw [tabOff_zero]; have h1 := coord_lt i; have h2 := R.isLt; omega

/-- The offset function of edge `R`'s row of the adjacency array, for the first table's word; it is `![w, 0]`. -/
def adjOff0 : Fin 64 → BitVec 32 → Fin 2 → Nat
  | ⟨0, _⟩ => k1_off2
  | ⟨1, _⟩ => k1_off7
  | ⟨2, _⟩ => k1_off12
  | ⟨3, _⟩ => k1_off17
  | ⟨4, _⟩ => k1_off22
  | ⟨5, _⟩ => k1_off27
  | ⟨6, _⟩ => k1_off32
  | ⟨7, _⟩ => k1_off37
  | ⟨8, _⟩ => k1_off42
  | ⟨9, _⟩ => k1_off47
  | ⟨10, _⟩ => k1_off52
  | ⟨11, _⟩ => k1_off57
  | ⟨12, _⟩ => k1_off62
  | ⟨13, _⟩ => k1_off67
  | ⟨14, _⟩ => k1_off72
  | ⟨15, _⟩ => k1_off77
  | ⟨16, _⟩ => k1_off82
  | ⟨17, _⟩ => k1_off87
  | ⟨18, _⟩ => k1_off92
  | ⟨19, _⟩ => k1_off97
  | ⟨20, _⟩ => k1_off102
  | ⟨21, _⟩ => k1_off107
  | ⟨22, _⟩ => k1_off112
  | ⟨23, _⟩ => k1_off117
  | ⟨24, _⟩ => k1_off122
  | ⟨25, _⟩ => k1_off127
  | ⟨26, _⟩ => k1_off132
  | ⟨27, _⟩ => k1_off137
  | ⟨28, _⟩ => k1_off142
  | ⟨29, _⟩ => k1_off147
  | ⟨30, _⟩ => k1_off152
  | ⟨31, _⟩ => k1_off157
  | ⟨32, _⟩ => k1_off162
  | ⟨33, _⟩ => k1_off167
  | ⟨34, _⟩ => k1_off172
  | ⟨35, _⟩ => k1_off177
  | ⟨36, _⟩ => k1_off182
  | ⟨37, _⟩ => k1_off187
  | ⟨38, _⟩ => k1_off192
  | ⟨39, _⟩ => k1_off197
  | ⟨40, _⟩ => k1_off202
  | ⟨41, _⟩ => k1_off207
  | ⟨42, _⟩ => k1_off212
  | ⟨43, _⟩ => k1_off217
  | ⟨44, _⟩ => k1_off222
  | ⟨45, _⟩ => k1_off227
  | ⟨46, _⟩ => k1_off232
  | ⟨47, _⟩ => k1_off237
  | ⟨48, _⟩ => k1_off242
  | ⟨49, _⟩ => k1_off247
  | ⟨50, _⟩ => k1_off252
  | ⟨51, _⟩ => k1_off257
  | ⟨52, _⟩ => k1_off262
  | ⟨53, _⟩ => k1_off267
  | ⟨54, _⟩ => k1_off272
  | ⟨55, _⟩ => k1_off277
  | ⟨56, _⟩ => k1_off282
  | ⟨57, _⟩ => k1_off287
  | ⟨58, _⟩ => k1_off292
  | ⟨59, _⟩ => k1_off297
  | ⟨60, _⟩ => k1_off302
  | ⟨61, _⟩ => k1_off307
  | ⟨62, _⟩ => k1_off312
  | ⟨63, _⟩ => k1_off317
  | ⟨n + 64, h⟩ => absurd h (by omega)
theorem adjOff0_eq : ∀ (R : Fin 64) (w : BitVec 32), adjOff0 R w = ![w.toNat, 0]
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨23, _⟩, _ => rfl
  | ⟨24, _⟩, _ => rfl
  | ⟨25, _⟩, _ => rfl
  | ⟨26, _⟩, _ => rfl
  | ⟨27, _⟩, _ => rfl
  | ⟨28, _⟩, _ => rfl
  | ⟨29, _⟩, _ => rfl
  | ⟨30, _⟩, _ => rfl
  | ⟨31, _⟩, _ => rfl
  | ⟨32, _⟩, _ => rfl
  | ⟨33, _⟩, _ => rfl
  | ⟨34, _⟩, _ => rfl
  | ⟨35, _⟩, _ => rfl
  | ⟨36, _⟩, _ => rfl
  | ⟨37, _⟩, _ => rfl
  | ⟨38, _⟩, _ => rfl
  | ⟨39, _⟩, _ => rfl
  | ⟨40, _⟩, _ => rfl
  | ⟨41, _⟩, _ => rfl
  | ⟨42, _⟩, _ => rfl
  | ⟨43, _⟩, _ => rfl
  | ⟨44, _⟩, _ => rfl
  | ⟨45, _⟩, _ => rfl
  | ⟨46, _⟩, _ => rfl
  | ⟨47, _⟩, _ => rfl
  | ⟨48, _⟩, _ => rfl
  | ⟨49, _⟩, _ => rfl
  | ⟨50, _⟩, _ => rfl
  | ⟨51, _⟩, _ => rfl
  | ⟨52, _⟩, _ => rfl
  | ⟨53, _⟩, _ => rfl
  | ⟨54, _⟩, _ => rfl
  | ⟨55, _⟩, _ => rfl
  | ⟨56, _⟩, _ => rfl
  | ⟨57, _⟩, _ => rfl
  | ⟨58, _⟩, _ => rfl
  | ⟨59, _⟩, _ => rfl
  | ⟨60, _⟩, _ => rfl
  | ⟨61, _⟩, _ => rfl
  | ⟨62, _⟩, _ => rfl
  | ⟨63, _⟩, _ => rfl
  | ⟨n + 64, h⟩, _ => absurd h (by omega)
theorem adjOff0_inb (R : Fin 64) (w : BitVec 32) (hw : w.toNat < 8192) : ∀ a, adjOff0 R w a + S1x8192.size a ≤ S8192x8192.size a := fun a => by
  rw [adjOff0_eq]
  match a with
  | ⟨0, _⟩ => show w.toNat + 1 ≤ 8192; omega
  | ⟨1, _⟩ => show 0 + 8192 ≤ 8192; omega

/-- The offset function of edge `R`'s row of the node table, for the first table's word; it is `![w, 0]`. -/
def xOff0 : Fin 64 → BitVec 32 → Fin 2 → Nat
  | ⟨0, _⟩ => k1_off4
  | ⟨1, _⟩ => k1_off9
  | ⟨2, _⟩ => k1_off14
  | ⟨3, _⟩ => k1_off19
  | ⟨4, _⟩ => k1_off24
  | ⟨5, _⟩ => k1_off29
  | ⟨6, _⟩ => k1_off34
  | ⟨7, _⟩ => k1_off39
  | ⟨8, _⟩ => k1_off44
  | ⟨9, _⟩ => k1_off49
  | ⟨10, _⟩ => k1_off54
  | ⟨11, _⟩ => k1_off59
  | ⟨12, _⟩ => k1_off64
  | ⟨13, _⟩ => k1_off69
  | ⟨14, _⟩ => k1_off74
  | ⟨15, _⟩ => k1_off79
  | ⟨16, _⟩ => k1_off84
  | ⟨17, _⟩ => k1_off89
  | ⟨18, _⟩ => k1_off94
  | ⟨19, _⟩ => k1_off99
  | ⟨20, _⟩ => k1_off104
  | ⟨21, _⟩ => k1_off109
  | ⟨22, _⟩ => k1_off114
  | ⟨23, _⟩ => k1_off119
  | ⟨24, _⟩ => k1_off124
  | ⟨25, _⟩ => k1_off129
  | ⟨26, _⟩ => k1_off134
  | ⟨27, _⟩ => k1_off139
  | ⟨28, _⟩ => k1_off144
  | ⟨29, _⟩ => k1_off149
  | ⟨30, _⟩ => k1_off154
  | ⟨31, _⟩ => k1_off159
  | ⟨32, _⟩ => k1_off164
  | ⟨33, _⟩ => k1_off169
  | ⟨34, _⟩ => k1_off174
  | ⟨35, _⟩ => k1_off179
  | ⟨36, _⟩ => k1_off184
  | ⟨37, _⟩ => k1_off189
  | ⟨38, _⟩ => k1_off194
  | ⟨39, _⟩ => k1_off199
  | ⟨40, _⟩ => k1_off204
  | ⟨41, _⟩ => k1_off209
  | ⟨42, _⟩ => k1_off214
  | ⟨43, _⟩ => k1_off219
  | ⟨44, _⟩ => k1_off224
  | ⟨45, _⟩ => k1_off229
  | ⟨46, _⟩ => k1_off234
  | ⟨47, _⟩ => k1_off239
  | ⟨48, _⟩ => k1_off244
  | ⟨49, _⟩ => k1_off249
  | ⟨50, _⟩ => k1_off254
  | ⟨51, _⟩ => k1_off259
  | ⟨52, _⟩ => k1_off264
  | ⟨53, _⟩ => k1_off269
  | ⟨54, _⟩ => k1_off274
  | ⟨55, _⟩ => k1_off279
  | ⟨56, _⟩ => k1_off284
  | ⟨57, _⟩ => k1_off289
  | ⟨58, _⟩ => k1_off294
  | ⟨59, _⟩ => k1_off299
  | ⟨60, _⟩ => k1_off304
  | ⟨61, _⟩ => k1_off309
  | ⟨62, _⟩ => k1_off314
  | ⟨63, _⟩ => k1_off319
  | ⟨n + 64, h⟩ => absurd h (by omega)
theorem xOff0_eq : ∀ (R : Fin 64) (w : BitVec 32), xOff0 R w = ![w.toNat, 0]
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨23, _⟩, _ => rfl
  | ⟨24, _⟩, _ => rfl
  | ⟨25, _⟩, _ => rfl
  | ⟨26, _⟩, _ => rfl
  | ⟨27, _⟩, _ => rfl
  | ⟨28, _⟩, _ => rfl
  | ⟨29, _⟩, _ => rfl
  | ⟨30, _⟩, _ => rfl
  | ⟨31, _⟩, _ => rfl
  | ⟨32, _⟩, _ => rfl
  | ⟨33, _⟩, _ => rfl
  | ⟨34, _⟩, _ => rfl
  | ⟨35, _⟩, _ => rfl
  | ⟨36, _⟩, _ => rfl
  | ⟨37, _⟩, _ => rfl
  | ⟨38, _⟩, _ => rfl
  | ⟨39, _⟩, _ => rfl
  | ⟨40, _⟩, _ => rfl
  | ⟨41, _⟩, _ => rfl
  | ⟨42, _⟩, _ => rfl
  | ⟨43, _⟩, _ => rfl
  | ⟨44, _⟩, _ => rfl
  | ⟨45, _⟩, _ => rfl
  | ⟨46, _⟩, _ => rfl
  | ⟨47, _⟩, _ => rfl
  | ⟨48, _⟩, _ => rfl
  | ⟨49, _⟩, _ => rfl
  | ⟨50, _⟩, _ => rfl
  | ⟨51, _⟩, _ => rfl
  | ⟨52, _⟩, _ => rfl
  | ⟨53, _⟩, _ => rfl
  | ⟨54, _⟩, _ => rfl
  | ⟨55, _⟩, _ => rfl
  | ⟨56, _⟩, _ => rfl
  | ⟨57, _⟩, _ => rfl
  | ⟨58, _⟩, _ => rfl
  | ⟨59, _⟩, _ => rfl
  | ⟨60, _⟩, _ => rfl
  | ⟨61, _⟩, _ => rfl
  | ⟨62, _⟩, _ => rfl
  | ⟨63, _⟩, _ => rfl
  | ⟨n + 64, h⟩, _ => absurd h (by omega)
theorem xOff0_inb (R : Fin 64) (w : BitVec 32) (hw : w.toNat < 8192) : ∀ a, xOff0 R w a + S1x256.size a ≤ S8192x256.size a := fun a => by
  rw [xOff0_eq]
  match a with
  | ⟨0, _⟩ => show w.toNat + 1 ≤ 8192; omega
  | ⟨1, _⟩ => show 0 + 256 ≤ 256; omega

/-- The payload of edge `R`'s row store into the first feature buffer; it is the row itself. -/
def xPay0 : Fin 64 → Vec F S1x256 .f32 → FVec F S1x256 .f32
  | ⟨0, _⟩ => fun v => k1_pay2 (F := F) v
  | ⟨1, _⟩ => fun v => k1_pay4 (F := F) v
  | ⟨2, _⟩ => fun v => k1_pay6 (F := F) v
  | ⟨3, _⟩ => fun v => k1_pay8 (F := F) v
  | ⟨4, _⟩ => fun v => k1_pay10 (F := F) v
  | ⟨5, _⟩ => fun v => k1_pay13 (F := F) (k1_pay12 (F := F) v)
  | ⟨6, _⟩ => fun v => k1_pay15 (F := F) v
  | ⟨7, _⟩ => fun v => k1_pay17 (F := F) v
  | ⟨8, _⟩ => fun v => k1_pay19 (F := F) v
  | ⟨9, _⟩ => fun v => k1_pay21 (F := F) v
  | ⟨10, _⟩ => fun v => k1_pay23 (F := F) v
  | ⟨11, _⟩ => fun v => k1_pay25 (F := F) v
  | ⟨12, _⟩ => fun v => k1_pay27 (F := F) v
  | ⟨13, _⟩ => fun v => k1_pay29 (F := F) v
  | ⟨14, _⟩ => fun v => k1_pay31 (F := F) v
  | ⟨15, _⟩ => fun v => k1_pay34 (F := F) v
  | ⟨16, _⟩ => fun v => k1_pay36 (F := F) v
  | ⟨17, _⟩ => fun v => k1_pay38 (F := F) v
  | ⟨18, _⟩ => fun v => k1_pay41 (F := F) v
  | ⟨19, _⟩ => fun v => k1_pay43 (F := F) v
  | ⟨20, _⟩ => fun v => k1_pay45 (F := F) v
  | ⟨21, _⟩ => fun v => k1_pay47 (F := F) v
  | ⟨22, _⟩ => fun v => k1_pay49 (F := F) v
  | ⟨23, _⟩ => fun v => k1_pay52 (F := F) (k1_pay51 (F := F) v)
  | ⟨24, _⟩ => fun v => k1_pay54 (F := F) v
  | ⟨25, _⟩ => fun v => k1_pay56 (F := F) v
  | ⟨26, _⟩ => fun v => k1_pay58 (F := F) v
  | ⟨27, _⟩ => fun v => k1_pay60 (F := F) v
  | ⟨28, _⟩ => fun v => k1_pay62 (F := F) v
  | ⟨29, _⟩ => fun v => k1_pay64 (F := F) v
  | ⟨30, _⟩ => fun v => k1_pay66 (F := F) v
  | ⟨31, _⟩ => fun v => k1_pay68 (F := F) v
  | ⟨32, _⟩ => fun v => k1_pay70 (F := F) v
  | ⟨33, _⟩ => fun v => k1_pay72 (F := F) v
  | ⟨34, _⟩ => fun v => k1_pay74 (F := F) v
  | ⟨35, _⟩ => fun v => k1_pay76 (F := F) v
  | ⟨36, _⟩ => fun v => k1_pay79 (F := F) v
  | ⟨37, _⟩ => fun v => k1_pay81 (F := F) v
  | ⟨38, _⟩ => fun v => k1_pay83 (F := F) v
  | ⟨39, _⟩ => fun v => k1_pay85 (F := F) v
  | ⟨40, _⟩ => fun v => k1_pay87 (F := F) v
  | ⟨41, _⟩ => fun v => k1_pay90 (F := F) (k1_pay89 (F := F) v)
  | ⟨42, _⟩ => fun v => k1_pay92 (F := F) v
  | ⟨43, _⟩ => fun v => k1_pay94 (F := F) v
  | ⟨44, _⟩ => fun v => k1_pay96 (F := F) v
  | ⟨45, _⟩ => fun v => k1_pay98 (F := F) v
  | ⟨46, _⟩ => fun v => k1_pay100 (F := F) v
  | ⟨47, _⟩ => fun v => k1_pay102 (F := F) v
  | ⟨48, _⟩ => fun v => k1_pay104 (F := F) v
  | ⟨49, _⟩ => fun v => k1_pay106 (F := F) v
  | ⟨50, _⟩ => fun v => k1_pay108 (F := F) v
  | ⟨51, _⟩ => fun v => k1_pay110 (F := F) v
  | ⟨52, _⟩ => fun v => k1_pay112 (F := F) v
  | ⟨53, _⟩ => fun v => k1_pay114 (F := F) v
  | ⟨54, _⟩ => fun v => k1_pay117 (F := F) v
  | ⟨55, _⟩ => fun v => k1_pay119 (F := F) v
  | ⟨56, _⟩ => fun v => k1_pay121 (F := F) v
  | ⟨57, _⟩ => fun v => k1_pay123 (F := F) v
  | ⟨58, _⟩ => fun v => k1_pay125 (F := F) v
  | ⟨59, _⟩ => fun v => k1_pay128 (F := F) (k1_pay127 (F := F) v)
  | ⟨60, _⟩ => fun v => k1_pay130 (F := F) v
  | ⟨61, _⟩ => fun v => k1_pay132 (F := F) v
  | ⟨62, _⟩ => fun v => k1_pay134 (F := F) v
  | ⟨63, _⟩ => fun v => k1_pay136 (F := F) v
  | ⟨n + 64, h⟩ => absurd h (by omega)
theorem xPay0_id : ∀ (R : Fin 64) (v : Vec F S1x256 .f32), xPay0 (F := F) R v = v
  | ⟨0, _⟩, v => k1_pay2_id v
  | ⟨1, _⟩, v => k1_pay4_id v
  | ⟨2, _⟩, v => k1_pay6_id v
  | ⟨3, _⟩, v => k1_pay8_id v
  | ⟨4, _⟩, v => k1_pay10_id v
  | ⟨5, _⟩, v => k1_pay13_pay12 v
  | ⟨6, _⟩, v => k1_pay15_id v
  | ⟨7, _⟩, v => k1_pay17_id v
  | ⟨8, _⟩, v => k1_pay19_id v
  | ⟨9, _⟩, v => k1_pay21_id v
  | ⟨10, _⟩, v => k1_pay23_id v
  | ⟨11, _⟩, v => k1_pay25_id v
  | ⟨12, _⟩, v => k1_pay27_id v
  | ⟨13, _⟩, v => k1_pay29_id v
  | ⟨14, _⟩, v => k1_pay31_id v
  | ⟨15, _⟩, v => k1_pay34_id v
  | ⟨16, _⟩, v => k1_pay36_id v
  | ⟨17, _⟩, v => k1_pay38_id v
  | ⟨18, _⟩, v => k1_pay41_id v
  | ⟨19, _⟩, v => k1_pay43_id v
  | ⟨20, _⟩, v => k1_pay45_id v
  | ⟨21, _⟩, v => k1_pay47_id v
  | ⟨22, _⟩, v => k1_pay49_id v
  | ⟨23, _⟩, v => k1_pay52_pay51 v
  | ⟨24, _⟩, v => k1_pay54_id v
  | ⟨25, _⟩, v => k1_pay56_id v
  | ⟨26, _⟩, v => k1_pay58_id v
  | ⟨27, _⟩, v => k1_pay60_id v
  | ⟨28, _⟩, v => k1_pay62_id v
  | ⟨29, _⟩, v => k1_pay64_id v
  | ⟨30, _⟩, v => k1_pay66_id v
  | ⟨31, _⟩, v => k1_pay68_id v
  | ⟨32, _⟩, v => k1_pay70_id v
  | ⟨33, _⟩, v => k1_pay72_id v
  | ⟨34, _⟩, v => k1_pay74_id v
  | ⟨35, _⟩, v => k1_pay76_id v
  | ⟨36, _⟩, v => k1_pay79_id v
  | ⟨37, _⟩, v => k1_pay81_id v
  | ⟨38, _⟩, v => k1_pay83_id v
  | ⟨39, _⟩, v => k1_pay85_id v
  | ⟨40, _⟩, v => k1_pay87_id v
  | ⟨41, _⟩, v => k1_pay90_pay89 v
  | ⟨42, _⟩, v => k1_pay92_id v
  | ⟨43, _⟩, v => k1_pay94_id v
  | ⟨44, _⟩, v => k1_pay96_id v
  | ⟨45, _⟩, v => k1_pay98_id v
  | ⟨46, _⟩, v => k1_pay100_id v
  | ⟨47, _⟩, v => k1_pay102_id v
  | ⟨48, _⟩, v => k1_pay104_id v
  | ⟨49, _⟩, v => k1_pay106_id v
  | ⟨50, _⟩, v => k1_pay108_id v
  | ⟨51, _⟩, v => k1_pay110_id v
  | ⟨52, _⟩, v => k1_pay112_id v
  | ⟨53, _⟩, v => k1_pay114_id v
  | ⟨54, _⟩, v => k1_pay117_id v
  | ⟨55, _⟩, v => k1_pay119_id v
  | ⟨56, _⟩, v => k1_pay121_id v
  | ⟨57, _⟩, v => k1_pay123_id v
  | ⟨58, _⟩, v => k1_pay125_id v
  | ⟨59, _⟩, v => k1_pay128_pay127 v
  | ⟨60, _⟩, v => k1_pay130_id v
  | ⟨61, _⟩, v => k1_pay132_id v
  | ⟨62, _⟩, v => k1_pay134_id v
  | ⟨63, _⟩, v => k1_pay136_id v
  | ⟨n + 64, h⟩, _ => absurd h (by omega)

/-- The offset function of edge `R`'s row of the adjacency array, for the second table's word; it is `![w, 0]`. -/
def adjOff1 : Fin 64 → BitVec 32 → Fin 2 → Nat
  | ⟨0, _⟩ => k1_off3
  | ⟨1, _⟩ => k1_off8
  | ⟨2, _⟩ => k1_off13
  | ⟨3, _⟩ => k1_off18
  | ⟨4, _⟩ => k1_off23
  | ⟨5, _⟩ => k1_off28
  | ⟨6, _⟩ => k1_off33
  | ⟨7, _⟩ => k1_off38
  | ⟨8, _⟩ => k1_off43
  | ⟨9, _⟩ => k1_off48
  | ⟨10, _⟩ => k1_off53
  | ⟨11, _⟩ => k1_off58
  | ⟨12, _⟩ => k1_off63
  | ⟨13, _⟩ => k1_off68
  | ⟨14, _⟩ => k1_off73
  | ⟨15, _⟩ => k1_off78
  | ⟨16, _⟩ => k1_off83
  | ⟨17, _⟩ => k1_off88
  | ⟨18, _⟩ => k1_off93
  | ⟨19, _⟩ => k1_off98
  | ⟨20, _⟩ => k1_off103
  | ⟨21, _⟩ => k1_off108
  | ⟨22, _⟩ => k1_off113
  | ⟨23, _⟩ => k1_off118
  | ⟨24, _⟩ => k1_off123
  | ⟨25, _⟩ => k1_off128
  | ⟨26, _⟩ => k1_off133
  | ⟨27, _⟩ => k1_off138
  | ⟨28, _⟩ => k1_off143
  | ⟨29, _⟩ => k1_off148
  | ⟨30, _⟩ => k1_off153
  | ⟨31, _⟩ => k1_off158
  | ⟨32, _⟩ => k1_off163
  | ⟨33, _⟩ => k1_off168
  | ⟨34, _⟩ => k1_off173
  | ⟨35, _⟩ => k1_off178
  | ⟨36, _⟩ => k1_off183
  | ⟨37, _⟩ => k1_off188
  | ⟨38, _⟩ => k1_off193
  | ⟨39, _⟩ => k1_off198
  | ⟨40, _⟩ => k1_off203
  | ⟨41, _⟩ => k1_off208
  | ⟨42, _⟩ => k1_off213
  | ⟨43, _⟩ => k1_off218
  | ⟨44, _⟩ => k1_off223
  | ⟨45, _⟩ => k1_off228
  | ⟨46, _⟩ => k1_off233
  | ⟨47, _⟩ => k1_off238
  | ⟨48, _⟩ => k1_off243
  | ⟨49, _⟩ => k1_off248
  | ⟨50, _⟩ => k1_off253
  | ⟨51, _⟩ => k1_off258
  | ⟨52, _⟩ => k1_off263
  | ⟨53, _⟩ => k1_off268
  | ⟨54, _⟩ => k1_off273
  | ⟨55, _⟩ => k1_off278
  | ⟨56, _⟩ => k1_off283
  | ⟨57, _⟩ => k1_off288
  | ⟨58, _⟩ => k1_off293
  | ⟨59, _⟩ => k1_off298
  | ⟨60, _⟩ => k1_off303
  | ⟨61, _⟩ => k1_off308
  | ⟨62, _⟩ => k1_off313
  | ⟨63, _⟩ => k1_off318
  | ⟨n + 64, h⟩ => absurd h (by omega)
theorem adjOff1_eq : ∀ (R : Fin 64) (w : BitVec 32), adjOff1 R w = ![w.toNat, 0]
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨23, _⟩, _ => rfl
  | ⟨24, _⟩, _ => rfl
  | ⟨25, _⟩, _ => rfl
  | ⟨26, _⟩, _ => rfl
  | ⟨27, _⟩, _ => rfl
  | ⟨28, _⟩, _ => rfl
  | ⟨29, _⟩, _ => rfl
  | ⟨30, _⟩, _ => rfl
  | ⟨31, _⟩, _ => rfl
  | ⟨32, _⟩, _ => rfl
  | ⟨33, _⟩, _ => rfl
  | ⟨34, _⟩, _ => rfl
  | ⟨35, _⟩, _ => rfl
  | ⟨36, _⟩, _ => rfl
  | ⟨37, _⟩, _ => rfl
  | ⟨38, _⟩, _ => rfl
  | ⟨39, _⟩, _ => rfl
  | ⟨40, _⟩, _ => rfl
  | ⟨41, _⟩, _ => rfl
  | ⟨42, _⟩, _ => rfl
  | ⟨43, _⟩, _ => rfl
  | ⟨44, _⟩, _ => rfl
  | ⟨45, _⟩, _ => rfl
  | ⟨46, _⟩, _ => rfl
  | ⟨47, _⟩, _ => rfl
  | ⟨48, _⟩, _ => rfl
  | ⟨49, _⟩, _ => rfl
  | ⟨50, _⟩, _ => rfl
  | ⟨51, _⟩, _ => rfl
  | ⟨52, _⟩, _ => rfl
  | ⟨53, _⟩, _ => rfl
  | ⟨54, _⟩, _ => rfl
  | ⟨55, _⟩, _ => rfl
  | ⟨56, _⟩, _ => rfl
  | ⟨57, _⟩, _ => rfl
  | ⟨58, _⟩, _ => rfl
  | ⟨59, _⟩, _ => rfl
  | ⟨60, _⟩, _ => rfl
  | ⟨61, _⟩, _ => rfl
  | ⟨62, _⟩, _ => rfl
  | ⟨63, _⟩, _ => rfl
  | ⟨n + 64, h⟩, _ => absurd h (by omega)
theorem adjOff1_inb (R : Fin 64) (w : BitVec 32) (hw : w.toNat < 8192) : ∀ a, adjOff1 R w a + S1x8192.size a ≤ S8192x8192.size a := fun a => by
  rw [adjOff1_eq]
  match a with
  | ⟨0, _⟩ => show w.toNat + 1 ≤ 8192; omega
  | ⟨1, _⟩ => show 0 + 8192 ≤ 8192; omega

/-- The offset function of edge `R`'s row of the node table, for the second table's word; it is `![w, 0]`. -/
def xOff1 : Fin 64 → BitVec 32 → Fin 2 → Nat
  | ⟨0, _⟩ => k1_off5
  | ⟨1, _⟩ => k1_off10
  | ⟨2, _⟩ => k1_off15
  | ⟨3, _⟩ => k1_off20
  | ⟨4, _⟩ => k1_off25
  | ⟨5, _⟩ => k1_off30
  | ⟨6, _⟩ => k1_off35
  | ⟨7, _⟩ => k1_off40
  | ⟨8, _⟩ => k1_off45
  | ⟨9, _⟩ => k1_off50
  | ⟨10, _⟩ => k1_off55
  | ⟨11, _⟩ => k1_off60
  | ⟨12, _⟩ => k1_off65
  | ⟨13, _⟩ => k1_off70
  | ⟨14, _⟩ => k1_off75
  | ⟨15, _⟩ => k1_off80
  | ⟨16, _⟩ => k1_off85
  | ⟨17, _⟩ => k1_off90
  | ⟨18, _⟩ => k1_off95
  | ⟨19, _⟩ => k1_off100
  | ⟨20, _⟩ => k1_off105
  | ⟨21, _⟩ => k1_off110
  | ⟨22, _⟩ => k1_off115
  | ⟨23, _⟩ => k1_off120
  | ⟨24, _⟩ => k1_off125
  | ⟨25, _⟩ => k1_off130
  | ⟨26, _⟩ => k1_off135
  | ⟨27, _⟩ => k1_off140
  | ⟨28, _⟩ => k1_off145
  | ⟨29, _⟩ => k1_off150
  | ⟨30, _⟩ => k1_off155
  | ⟨31, _⟩ => k1_off160
  | ⟨32, _⟩ => k1_off165
  | ⟨33, _⟩ => k1_off170
  | ⟨34, _⟩ => k1_off175
  | ⟨35, _⟩ => k1_off180
  | ⟨36, _⟩ => k1_off185
  | ⟨37, _⟩ => k1_off190
  | ⟨38, _⟩ => k1_off195
  | ⟨39, _⟩ => k1_off200
  | ⟨40, _⟩ => k1_off205
  | ⟨41, _⟩ => k1_off210
  | ⟨42, _⟩ => k1_off215
  | ⟨43, _⟩ => k1_off220
  | ⟨44, _⟩ => k1_off225
  | ⟨45, _⟩ => k1_off230
  | ⟨46, _⟩ => k1_off235
  | ⟨47, _⟩ => k1_off240
  | ⟨48, _⟩ => k1_off245
  | ⟨49, _⟩ => k1_off250
  | ⟨50, _⟩ => k1_off255
  | ⟨51, _⟩ => k1_off260
  | ⟨52, _⟩ => k1_off265
  | ⟨53, _⟩ => k1_off270
  | ⟨54, _⟩ => k1_off275
  | ⟨55, _⟩ => k1_off280
  | ⟨56, _⟩ => k1_off285
  | ⟨57, _⟩ => k1_off290
  | ⟨58, _⟩ => k1_off295
  | ⟨59, _⟩ => k1_off300
  | ⟨60, _⟩ => k1_off305
  | ⟨61, _⟩ => k1_off310
  | ⟨62, _⟩ => k1_off315
  | ⟨63, _⟩ => k1_off320
  | ⟨n + 64, h⟩ => absurd h (by omega)
theorem xOff1_eq : ∀ (R : Fin 64) (w : BitVec 32), xOff1 R w = ![w.toNat, 0]
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨23, _⟩, _ => rfl
  | ⟨24, _⟩, _ => rfl
  | ⟨25, _⟩, _ => rfl
  | ⟨26, _⟩, _ => rfl
  | ⟨27, _⟩, _ => rfl
  | ⟨28, _⟩, _ => rfl
  | ⟨29, _⟩, _ => rfl
  | ⟨30, _⟩, _ => rfl
  | ⟨31, _⟩, _ => rfl
  | ⟨32, _⟩, _ => rfl
  | ⟨33, _⟩, _ => rfl
  | ⟨34, _⟩, _ => rfl
  | ⟨35, _⟩, _ => rfl
  | ⟨36, _⟩, _ => rfl
  | ⟨37, _⟩, _ => rfl
  | ⟨38, _⟩, _ => rfl
  | ⟨39, _⟩, _ => rfl
  | ⟨40, _⟩, _ => rfl
  | ⟨41, _⟩, _ => rfl
  | ⟨42, _⟩, _ => rfl
  | ⟨43, _⟩, _ => rfl
  | ⟨44, _⟩, _ => rfl
  | ⟨45, _⟩, _ => rfl
  | ⟨46, _⟩, _ => rfl
  | ⟨47, _⟩, _ => rfl
  | ⟨48, _⟩, _ => rfl
  | ⟨49, _⟩, _ => rfl
  | ⟨50, _⟩, _ => rfl
  | ⟨51, _⟩, _ => rfl
  | ⟨52, _⟩, _ => rfl
  | ⟨53, _⟩, _ => rfl
  | ⟨54, _⟩, _ => rfl
  | ⟨55, _⟩, _ => rfl
  | ⟨56, _⟩, _ => rfl
  | ⟨57, _⟩, _ => rfl
  | ⟨58, _⟩, _ => rfl
  | ⟨59, _⟩, _ => rfl
  | ⟨60, _⟩, _ => rfl
  | ⟨61, _⟩, _ => rfl
  | ⟨62, _⟩, _ => rfl
  | ⟨63, _⟩, _ => rfl
  | ⟨n + 64, h⟩, _ => absurd h (by omega)
theorem xOff1_inb (R : Fin 64) (w : BitVec 32) (hw : w.toNat < 8192) : ∀ a, xOff1 R w a + S1x256.size a ≤ S8192x256.size a := fun a => by
  rw [xOff1_eq]
  match a with
  | ⟨0, _⟩ => show w.toNat + 1 ≤ 8192; omega
  | ⟨1, _⟩ => show 0 + 256 ≤ 256; omega

/-- The payload of edge `R`'s row store into the second feature buffer; it is the row itself. -/
def xPay1 : Fin 64 → Vec F S1x256 .f32 → FVec F S1x256 .f32
  | ⟨0, _⟩ => fun v => k1_pay3 (F := F) v
  | ⟨1, _⟩ => fun v => k1_pay5 (F := F) v
  | ⟨2, _⟩ => fun v => k1_pay7 (F := F) v
  | ⟨3, _⟩ => fun v => k1_pay9 (F := F) v
  | ⟨4, _⟩ => fun v => k1_pay11 (F := F) v
  | ⟨5, _⟩ => fun v => k1_pay14 (F := F) v
  | ⟨6, _⟩ => fun v => k1_pay16 (F := F) v
  | ⟨7, _⟩ => fun v => k1_pay18 (F := F) v
  | ⟨8, _⟩ => fun v => k1_pay20 (F := F) v
  | ⟨9, _⟩ => fun v => k1_pay22 (F := F) v
  | ⟨10, _⟩ => fun v => k1_pay24 (F := F) v
  | ⟨11, _⟩ => fun v => k1_pay26 (F := F) v
  | ⟨12, _⟩ => fun v => k1_pay28 (F := F) v
  | ⟨13, _⟩ => fun v => k1_pay30 (F := F) v
  | ⟨14, _⟩ => fun v => k1_pay33 (F := F) (k1_pay32 (F := F) v)
  | ⟨15, _⟩ => fun v => k1_pay35 (F := F) v
  | ⟨16, _⟩ => fun v => k1_pay37 (F := F) v
  | ⟨17, _⟩ => fun v => k1_pay40 (F := F) (k1_pay39 (F := F) v)
  | ⟨18, _⟩ => fun v => k1_pay42 (F := F) v
  | ⟨19, _⟩ => fun v => k1_pay44 (F := F) v
  | ⟨20, _⟩ => fun v => k1_pay46 (F := F) v
  | ⟨21, _⟩ => fun v => k1_pay48 (F := F) v
  | ⟨22, _⟩ => fun v => k1_pay50 (F := F) v
  | ⟨23, _⟩ => fun v => k1_pay53 (F := F) v
  | ⟨24, _⟩ => fun v => k1_pay55 (F := F) v
  | ⟨25, _⟩ => fun v => k1_pay57 (F := F) v
  | ⟨26, _⟩ => fun v => k1_pay59 (F := F) v
  | ⟨27, _⟩ => fun v => k1_pay61 (F := F) v
  | ⟨28, _⟩ => fun v => k1_pay63 (F := F) v
  | ⟨29, _⟩ => fun v => k1_pay65 (F := F) v
  | ⟨30, _⟩ => fun v => k1_pay67 (F := F) v
  | ⟨31, _⟩ => fun v => k1_pay69 (F := F) v
  | ⟨32, _⟩ => fun v => k1_pay71 (F := F) v
  | ⟨33, _⟩ => fun v => k1_pay73 (F := F) v
  | ⟨34, _⟩ => fun v => k1_pay75 (F := F) v
  | ⟨35, _⟩ => fun v => k1_pay78 (F := F) (k1_pay77 (F := F) v)
  | ⟨36, _⟩ => fun v => k1_pay80 (F := F) v
  | ⟨37, _⟩ => fun v => k1_pay82 (F := F) v
  | ⟨38, _⟩ => fun v => k1_pay84 (F := F) v
  | ⟨39, _⟩ => fun v => k1_pay86 (F := F) v
  | ⟨40, _⟩ => fun v => k1_pay88 (F := F) v
  | ⟨41, _⟩ => fun v => k1_pay91 (F := F) v
  | ⟨42, _⟩ => fun v => k1_pay93 (F := F) v
  | ⟨43, _⟩ => fun v => k1_pay95 (F := F) v
  | ⟨44, _⟩ => fun v => k1_pay97 (F := F) v
  | ⟨45, _⟩ => fun v => k1_pay99 (F := F) v
  | ⟨46, _⟩ => fun v => k1_pay101 (F := F) v
  | ⟨47, _⟩ => fun v => k1_pay103 (F := F) v
  | ⟨48, _⟩ => fun v => k1_pay105 (F := F) v
  | ⟨49, _⟩ => fun v => k1_pay107 (F := F) v
  | ⟨50, _⟩ => fun v => k1_pay109 (F := F) v
  | ⟨51, _⟩ => fun v => k1_pay111 (F := F) v
  | ⟨52, _⟩ => fun v => k1_pay113 (F := F) v
  | ⟨53, _⟩ => fun v => k1_pay116 (F := F) (k1_pay115 (F := F) v)
  | ⟨54, _⟩ => fun v => k1_pay118 (F := F) v
  | ⟨55, _⟩ => fun v => k1_pay120 (F := F) v
  | ⟨56, _⟩ => fun v => k1_pay122 (F := F) v
  | ⟨57, _⟩ => fun v => k1_pay124 (F := F) v
  | ⟨58, _⟩ => fun v => k1_pay126 (F := F) v
  | ⟨59, _⟩ => fun v => k1_pay129 (F := F) v
  | ⟨60, _⟩ => fun v => k1_pay131 (F := F) v
  | ⟨61, _⟩ => fun v => k1_pay133 (F := F) v
  | ⟨62, _⟩ => fun v => k1_pay135 (F := F) v
  | ⟨63, _⟩ => fun v => k1_pay137 (F := F) v
  | ⟨n + 64, h⟩ => absurd h (by omega)
theorem xPay1_id : ∀ (R : Fin 64) (v : Vec F S1x256 .f32), xPay1 (F := F) R v = v
  | ⟨0, _⟩, v => k1_pay3_id v
  | ⟨1, _⟩, v => k1_pay5_id v
  | ⟨2, _⟩, v => k1_pay7_id v
  | ⟨3, _⟩, v => k1_pay9_id v
  | ⟨4, _⟩, v => k1_pay11_id v
  | ⟨5, _⟩, v => k1_pay14_id v
  | ⟨6, _⟩, v => k1_pay16_id v
  | ⟨7, _⟩, v => k1_pay18_id v
  | ⟨8, _⟩, v => k1_pay20_id v
  | ⟨9, _⟩, v => k1_pay22_id v
  | ⟨10, _⟩, v => k1_pay24_id v
  | ⟨11, _⟩, v => k1_pay26_id v
  | ⟨12, _⟩, v => k1_pay28_id v
  | ⟨13, _⟩, v => k1_pay30_id v
  | ⟨14, _⟩, v => k1_pay33_pay32 v
  | ⟨15, _⟩, v => k1_pay35_id v
  | ⟨16, _⟩, v => k1_pay37_id v
  | ⟨17, _⟩, v => k1_pay40_pay39 v
  | ⟨18, _⟩, v => k1_pay42_id v
  | ⟨19, _⟩, v => k1_pay44_id v
  | ⟨20, _⟩, v => k1_pay46_id v
  | ⟨21, _⟩, v => k1_pay48_id v
  | ⟨22, _⟩, v => k1_pay50_id v
  | ⟨23, _⟩, v => k1_pay53_id v
  | ⟨24, _⟩, v => k1_pay55_id v
  | ⟨25, _⟩, v => k1_pay57_id v
  | ⟨26, _⟩, v => k1_pay59_id v
  | ⟨27, _⟩, v => k1_pay61_id v
  | ⟨28, _⟩, v => k1_pay63_id v
  | ⟨29, _⟩, v => k1_pay65_id v
  | ⟨30, _⟩, v => k1_pay67_id v
  | ⟨31, _⟩, v => k1_pay69_id v
  | ⟨32, _⟩, v => k1_pay71_id v
  | ⟨33, _⟩, v => k1_pay73_id v
  | ⟨34, _⟩, v => k1_pay75_id v
  | ⟨35, _⟩, v => k1_pay78_pay77 v
  | ⟨36, _⟩, v => k1_pay80_id v
  | ⟨37, _⟩, v => k1_pay82_id v
  | ⟨38, _⟩, v => k1_pay84_id v
  | ⟨39, _⟩, v => k1_pay86_id v
  | ⟨40, _⟩, v => k1_pay88_id v
  | ⟨41, _⟩, v => k1_pay91_id v
  | ⟨42, _⟩, v => k1_pay93_id v
  | ⟨43, _⟩, v => k1_pay95_id v
  | ⟨44, _⟩, v => k1_pay97_id v
  | ⟨45, _⟩, v => k1_pay99_id v
  | ⟨46, _⟩, v => k1_pay101_id v
  | ⟨47, _⟩, v => k1_pay103_id v
  | ⟨48, _⟩, v => k1_pay105_id v
  | ⟨49, _⟩, v => k1_pay107_id v
  | ⟨50, _⟩, v => k1_pay109_id v
  | ⟨51, _⟩, v => k1_pay111_id v
  | ⟨52, _⟩, v => k1_pay113_id v
  | ⟨53, _⟩, v => k1_pay116_pay115 v
  | ⟨54, _⟩, v => k1_pay118_id v
  | ⟨55, _⟩, v => k1_pay120_id v
  | ⟨56, _⟩, v => k1_pay122_id v
  | ⟨57, _⟩, v => k1_pay124_id v
  | ⟨58, _⟩, v => k1_pay126_id v
  | ⟨59, _⟩, v => k1_pay129_id v
  | ⟨60, _⟩, v => k1_pay131_id v
  | ⟨61, _⟩, v => k1_pay133_id v
  | ⟨62, _⟩, v => k1_pay135_id v
  | ⟨63, _⟩, v => k1_pay137_id v
  | ⟨n + 64, h⟩, _ => absurd h (by omega)

/-! ## The first table's rows -/

/-- The word the body reads off the first table for edge `R` at point `i`; it is the table's word `64 i + R`. -/
def wordOf0 (i : grid1.Coords) (xt0 : S8192.Idx → BitVec 32) (R : Fin 64) : BitVec 32 :=
  wd0 (F := F) xt0 (tabOff R i) (tabOff_inb R i)
theorem wordOf0_eq (i : grid1.Coords) (xt0 : S8192.Idx → BitVec 32) (R : Fin 64) :
    wordOf0 (F := F) i xt0 R = xt0 (ValueIdx.ix1 (edgeOf i R)) := by
  unfold wordOf0
  exact tableWord_v1 (Val := Elt F) xt0 (tabOff R i) (edgeOf i R) (tabOff_zero R i) _ _

/-- What lands in row `R` of the first adjacency buffer: the adjacency array's row the word names, as the copy reads it. -/
def aiVals (i : grid1.Coords) (xt0 : S8192.Idx → BitVec 32) (hx0 : ∀ e : S8192.Idx, (xt0 e).toNat < 8192)
    (fh0 : S8192x8192.Idx → Elt F .f32) (R : Fin 64) : S8192.Idx → Elt F .f32 :=
  adjSrc fh0 (adjOff0 R (wordOf0 (F := F) i xt0 R)) (adjOff0_inb R _ (hx0 _))

theorem aiVals_eq (i : grid1.Coords) (xt0 : S8192.Idx → BitVec 32) (hx0 : ∀ e : S8192.Idx, (xt0 e).toNat < 8192)
    (fh0 : S8192x8192.Idx → Elt F .f32) (R : Fin 64) (k : Fin 8192) :
    aiVals i xt0 hx0 fh0 R (ValueIdx.ix1 k) = fh0 (ix2 (Cert.Spec.rowIx (xt0 (ValueIdx.ix1 (edgeOf i R)))) k) :=
  (landedRow_eq fh0 (wordOf0 (F := F) i xt0 R) (hx0 _) (adjOff0 R (wordOf0 (F := F) i xt0 R)) (adjOff0_eq R _) _ _ k).trans
    (congrArg (fun w => fh0 (ix2 (Cert.Spec.rowIx w) k)) (wordOf0_eq (F := F) i xt0 R))

/-- The first adjacency buffer after its rows landed, at a row `r`. -/
theorem aiBuf_read (M : Memref sig .tc .vmem S64x8192 .f32) (base : M.view.ty.Contents (Elt F)) (order : List (Fin 64)) (hnd : order.Nodup)
    (i : grid1.Coords) (xt0 : S8192.Idx → BitVec 32) (hx0 : ∀ e : S8192.Idx, (xt0 e).toNat < 8192) (fh0 : S8192x8192.Idx → Elt F .f32)
    (r : Fin 64) (hr : r ∈ order) (k : Fin 8192) :
    M.view.read (Elt F) (landRows M base (order.map fun R => (R, aiVals i xt0 hx0 fh0 R))) (ix2 r k)
      = fh0 (ix2 (Cert.Spec.rowIx (xt0 (ValueIdx.ix1 (edgeOf i r)))) k) :=
  (read_landRows_map M base order hnd _ r hr k).trans (aiVals_eq i xt0 hx0 fh0 r k)

/-- What the body stores in row `R` of the first feature buffer: the node table's row the word names, cast to a vector and back. -/
def xiPay (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32) (R : Fin 64) : S1x256.Idx → Elt F .f32 :=
  xPay0 (F := F) R (xLoad arg3 harg3 x0 (xOff0 R (wordOf0 (F := F) i xt0 R)) (xOff0_inb R _ (hx0 _)))

theorem xiPay_eq (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32) (R : Fin 64) (k : Fin 256) :
    xiPay i xt0 hx0 arg3 harg3 x0 R (ix2 (0 : Fin 1) k) = x0 (ix2 (Cert.Spec.rowIx (xt0 (ValueIdx.ix1 (edgeOf i R)))) k) :=
  (congrFun (xPay0_id (F := F) R _) (ix2 (0 : Fin 1) k)).trans
    ((xRowAt_eq arg3 harg3 x0 (wordOf0 (F := F) i xt0 R) (hx0 _) (xOff0 R (wordOf0 (F := F) i xt0 R)) (xOff0_eq R _) _ k).trans
      (congrArg (fun w => x0 (ix2 (Cert.Spec.rowIx w) k)) (wordOf0_eq (F := F) i xt0 R)))

/-- The first feature buffer after its row stores, at a row `r`. -/
theorem xiBuf_read (v : View sig .tc .vmem S64x256 .f32) (f : v.ty.Contents (Elt F)) (order : List (Fin 64))
    (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32)
    (r : Fin 64) (hr : r ∈ order) (k : Fin 256) :
    v.read (Elt F) (v.writes (Elt F) f (order.map fun R => (⟨rowRect R, xiPay i xt0 hx0 arg3 harg3 x0 R⟩ : View.Piece (Elt F) S64x256 .f32))) (ix2 r k)
      = x0 (ix2 (Cert.Spec.rowIx (xt0 (ValueIdx.ix1 (edgeOf i r)))) k) :=
  (read_rowPieces_map v f order _ r hr k).trans (xiPay_eq i xt0 hx0 arg3 harg3 x0 r k)

/-! ## The second table's rows -/

/-- The word the body reads off the second table for edge `R` at point `i`; it is the table's word `64 i + R`. -/
def wordOf1 (i : grid1.Coords) (xt1 : S8192.Idx → BitVec 32) (R : Fin 64) : BitVec 32 :=
  wd1 (F := F) xt1 (tabOff R i) (tabOff_inb R i)
theorem wordOf1_eq (i : grid1.Coords) (xt1 : S8192.Idx → BitVec 32) (R : Fin 64) :
    wordOf1 (F := F) i xt1 R = xt1 (ValueIdx.ix1 (edgeOf i R)) := by
  unfold wordOf1
  exact tableWord_v3 (Val := Elt F) xt1 (tabOff R i) (edgeOf i R) (tabOff_zero R i) _ _

/-- What lands in row `R` of the second adjacency buffer: the adjacency array's row the word names, as the copy reads it. -/
def ajVals (i : grid1.Coords) (xt1 : S8192.Idx → BitVec 32) (hx1 : ∀ e : S8192.Idx, (xt1 e).toNat < 8192)
    (fh0 : S8192x8192.Idx → Elt F .f32) (R : Fin 64) : S8192.Idx → Elt F .f32 :=
  adjSrc fh0 (adjOff1 R (wordOf1 (F := F) i xt1 R)) (adjOff1_inb R _ (hx1 _))

theorem ajVals_eq (i : grid1.Coords) (xt1 : S8192.Idx → BitVec 32) (hx1 : ∀ e : S8192.Idx, (xt1 e).toNat < 8192)
    (fh0 : S8192x8192.Idx → Elt F .f32) (R : Fin 64) (k : Fin 8192) :
    ajVals i xt1 hx1 fh0 R (ValueIdx.ix1 k) = fh0 (ix2 (Cert.Spec.rowIx (xt1 (ValueIdx.ix1 (edgeOf i R)))) k) :=
  (landedRow_eq fh0 (wordOf1 (F := F) i xt1 R) (hx1 _) (adjOff1 R (wordOf1 (F := F) i xt1 R)) (adjOff1_eq R _) _ _ k).trans
    (congrArg (fun w => fh0 (ix2 (Cert.Spec.rowIx w) k)) (wordOf1_eq (F := F) i xt1 R))

/-- The second adjacency buffer after its rows landed, at a row `r`. -/
theorem ajBuf_read (M : Memref sig .tc .vmem S64x8192 .f32) (base : M.view.ty.Contents (Elt F)) (order : List (Fin 64)) (hnd : order.Nodup)
    (i : grid1.Coords) (xt1 : S8192.Idx → BitVec 32) (hx1 : ∀ e : S8192.Idx, (xt1 e).toNat < 8192) (fh0 : S8192x8192.Idx → Elt F .f32)
    (r : Fin 64) (hr : r ∈ order) (k : Fin 8192) :
    M.view.read (Elt F) (landRows M base (order.map fun R => (R, ajVals i xt1 hx1 fh0 R))) (ix2 r k)
      = fh0 (ix2 (Cert.Spec.rowIx (xt1 (ValueIdx.ix1 (edgeOf i r)))) k) :=
  (read_landRows_map M base order hnd _ r hr k).trans (ajVals_eq i xt1 hx1 fh0 r k)

/-- What the body stores in row `R` of the second feature buffer: the node table's row the word names, cast to a vector and back. -/
def xjPay (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32) (R : Fin 64) : S1x256.Idx → Elt F .f32 :=
  xPay1 (F := F) R (xLoad arg3 harg3 x0 (xOff1 R (wordOf1 (F := F) i xt1 R)) (xOff1_inb R _ (hx1 _)))

theorem xjPay_eq (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32) (R : Fin 64) (k : Fin 256) :
    xjPay i xt1 hx1 arg3 harg3 x0 R (ix2 (0 : Fin 1) k) = x0 (ix2 (Cert.Spec.rowIx (xt1 (ValueIdx.ix1 (edgeOf i R)))) k) :=
  (congrFun (xPay1_id (F := F) R _) (ix2 (0 : Fin 1) k)).trans
    ((xRowAt_eq arg3 harg3 x0 (wordOf1 (F := F) i xt1 R) (hx1 _) (xOff1 R (wordOf1 (F := F) i xt1 R)) (xOff1_eq R _) _ k).trans
      (congrArg (fun w => x0 (ix2 (Cert.Spec.rowIx w) k)) (wordOf1_eq (F := F) i xt1 R)))

/-- The second feature buffer after its row stores, at a row `r`. -/
theorem xjBuf_read (v : View sig .tc .vmem S64x256 .f32) (f : v.ty.Contents (Elt F)) (order : List (Fin 64))
    (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32)
    (r : Fin 64) (hr : r ∈ order) (k : Fin 256) :
    v.read (Elt F) (v.writes (Elt F) f (order.map fun R => (⟨rowRect R, xjPay i xt1 hx1 arg3 harg3 x0 R⟩ : View.Piece (Elt F) S64x256 .f32))) (ix2 r k)
      = x0 (ix2 (Cert.Spec.rowIx (xt1 (ValueIdx.ix1 (edgeOf i r)))) k) :=
  (read_rowPieces_map v f order _ r hr k).trans (xjPay_eq i xt1 hx1 arg3 harg3 x0 r k)

/-! ## The four buffers as functions of the index, and the tile's payload from them

With every row written, each buffer is one function of its index that names no prior contents; the tile's one store is
the body's arithmetic of those four, the residual table and the weights. -/

/-- The first adjacency buffer with every row landed, as one function of the index. -/
def aiFull (i : grid1.Coords) (xt0 : S8192.Idx → BitVec 32) (hx0 : ∀ e : S8192.Idx, (xt0 e).toNat < 8192)
    (fh0 : S8192x8192.Idx → Elt F .f32) : Vec F S64x8192 .f32 :=
  fun j => aiVals i xt0 hx0 fh0 (j 0) (ValueIdx.ix1 (j 1))
theorem aiFull_at (i : grid1.Coords) (xt0 : S8192.Idx → BitVec 32) (hx0 : ∀ e : S8192.Idx, (xt0 e).toNat < 8192)
    (fh0 : S8192x8192.Idx → Elt F .f32) (r : Fin 64) (k : Fin 8192) :
    aiFull i xt0 hx0 fh0 (ix2 r k) = fh0 (ix2 (Cert.Spec.rowIx (xt0 (ValueIdx.ix1 (edgeOf i r)))) k) :=
  aiVals_eq i xt0 hx0 fh0 r k
/-- A whole load of it is that function, whatever the buffer held before the copies. -/
theorem aiLoad_eq (M : Memref sig .tc .vmem S64x8192 .f32) (base : M.view.ty.Contents (Elt F)) (order : List (Fin 64)) (hnd : order.Nodup)
    (hall : ∀ r : Fin 64, r ∈ order) (i : grid1.Coords) (xt0 : S8192.Idx → BitVec 32) (hx0 : ∀ e : S8192.Idx, (xt0 e).toNat < 8192)
    (fh0 : S8192x8192.Idx → Elt F .f32) (off : Fin 2 → Nat) (hoff : off = fun _ => 0) (inb : ∀ a, off a + S64x8192.size a ≤ S64x8192.size a) :
    View.readAt (Elt F) M.view (Rect.unit (s := S64x8192) off S64x8192.size inb).toLoadRect
        (landRows M base (order.map fun R => (R, aiVals i xt0 hx0 fh0 R)))
      = aiFull i xt0 hx0 fh0 :=
  readAt_landRows_all M base order hnd hall (aiVals i xt0 hx0 fh0) off hoff inb

/-- The first feature buffer with every row stored, as one function of the index. -/
def xiFull (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32) : Vec F S64x256 .f32 :=
  fun j => xiPay i xt0 hx0 arg3 harg3 x0 (j 0) (ix2 (0 : Fin 1) (j 1))
theorem xiFull_at (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32) (r : Fin 64) (k : Fin 256) :
    xiFull i xt0 hx0 arg3 harg3 x0 (ix2 r k) = x0 (ix2 (Cert.Spec.rowIx (xt0 (ValueIdx.ix1 (edgeOf i r)))) k) :=
  xiPay_eq i xt0 hx0 arg3 harg3 x0 r k
/-- A whole load of it after the stores is that function, whatever the buffer held before them; -/
theorem xiLoad_eq (v : View sig .tc .vmem S64x256 .f32) (f : v.ty.Contents (Elt F)) (order : List (Fin 64)) (hall : ∀ r : Fin 64, r ∈ order)
    (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32)
    (off : Fin 2 → Nat) (hoff : off = fun _ => 0) (inb : ∀ a, off a + S64x256.size a ≤ S64x256.size a) :
    View.readAt (Elt F) v (Rect.unit (s := S64x256) off S64x256.size inb).toLoadRect
        (v.writes (Elt F) f (order.map fun R => (⟨rowRect R, xiPay i xt0 hx0 arg3 harg3 x0 R⟩ : View.Piece (Elt F) S64x256 .f32)))
      = xiFull i xt0 hx0 arg3 harg3 x0 :=
  readAt_rowPieces_all v f order hall (xiPay i xt0 hx0 arg3 harg3 x0) off hoff inb
/-- and likewise when the load is read off the stores alone. -/
theorem xiCov_eq (v : View sig .tc .vmem S64x256 .f32) (order : List (Fin 64)) (hall : ∀ r : Fin 64, r ∈ order)
    (i : grid1.Coords) (xt0 : S8192.Idx → BitVec 32) (hx0 : ∀ e : S8192.Idx, (xt0 e).toNat < 8192)
    (arg3 : Memref sig .tc .vmem S8192x256 .f32) (harg3 : arg3.IsWhole) (x0 : Vec F S8192x256 .f32)
    (off : Fin 2 → Nat) (hoff : off = fun _ => 0) (inb : ∀ a, off a + S64x256.size a ≤ S64x256.size a) :
    v.readCov (order.map fun R => (⟨rowRect R, xiPay i xt0 hx0 arg3 harg3 x0 R⟩ : View.Piece (Elt F) S64x256 .f32))
        (Rect.unit (s := S64x256) off S64x256.size inb).toLoadRect
      = xiFull i xt0 hx0 arg3 harg3 x0 :=
  readCov_rowPieces_all v order hall (xiPay i xt0 hx0 arg3 harg3 x0) off hoff inb

/-- The second adjacency buffer with every row landed, as one function of the index. -/
def ajFull (i : grid1.Coords) (xt1 : S8192.Idx → BitVec 32) (hx1 : ∀ e : S8192.Idx, (xt1 e).toNat < 8192)
    (fh0 : S8192x8192.Idx → Elt F .f32) : Vec F S64x8192 .f32 :=
  fun j => ajVals i xt1 hx1 fh0 (j 0) (ValueIdx.ix1 (j 1))
theorem ajFull_at (i : grid1.Coords) (xt1 : S8192.Idx → BitVec 32) (hx1 : ∀ e : S8192.Idx, (xt1 e).toNat < 8192)
    (fh0 : S8192x8192.Idx → Elt F .f32) (r : Fin 64) (k : Fin 8192) :
    ajFull i xt1 hx1 fh0 (ix2 r k) = fh0 (ix2 (Cert.Spec.rowIx (xt1 (ValueIdx.ix1 (edgeOf i r)))) k) :=
  ajVals_eq i xt1 hx1 fh0 r k
/-- A whole load of it is that function, whatever the buffer held before the copies. -/
theorem ajLoad_eq (M : Memref sig .tc .vmem S64x8192 .f32) (base : M.view.ty.Contents (Elt F)) (order : List (Fin 64)) (hnd : order.Nodup)
    (hall : ∀ r : Fin 64, r ∈ order) (i : grid1.Coords) (xt1 : S8192.Idx → BitVec 32) (hx1 : ∀ e : S8192.Idx, (xt1 e).toNat < 8192)
    (fh0 : S8192x8192.Idx → Elt F .f32) (off : Fin 2 → Nat) (hoff : off = fun _ => 0) (inb : ∀ a, off a + S64x8192.size a ≤ S64x8192.size a) :
    View.readAt (Elt F) M.view (Rect.unit (s := S64x8192) off S64x8192.size inb).toLoadRect
        (landRows M base (order.map fun R => (R, ajVals i xt1 hx1 fh0 R)))
      = ajFull i xt1 hx1 fh0 :=
  readAt_landRows_all M base order hnd hall (ajVals i xt1 hx1 fh0) off hoff inb

/-- The second feature buffer with every row stored, as one function of the index. -/
def xjFull (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32) : Vec F S64x256 .f32 :=
  fun j => xjPay i xt1 hx1 arg3 harg3 x0 (j 0) (ix2 (0 : Fin 1) (j 1))
theorem xjFull_at (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32) (r : Fin 64) (k : Fin 256) :
    xjFull i xt1 hx1 arg3 harg3 x0 (ix2 r k) = x0 (ix2 (Cert.Spec.rowIx (xt1 (ValueIdx.ix1 (edgeOf i r)))) k) :=
  xjPay_eq i xt1 hx1 arg3 harg3 x0 r k
/-- A whole load of it after the stores is that function, whatever the buffer held before them; -/
theorem xjLoad_eq (v : View sig .tc .vmem S64x256 .f32) (f : v.ty.Contents (Elt F)) (order : List (Fin 64)) (hall : ∀ r : Fin 64, r ∈ order)
    (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32)
    (off : Fin 2 → Nat) (hoff : off = fun _ => 0) (inb : ∀ a, off a + S64x256.size a ≤ S64x256.size a) :
    View.readAt (Elt F) v (Rect.unit (s := S64x256) off S64x256.size inb).toLoadRect
        (v.writes (Elt F) f (order.map fun R => (⟨rowRect R, xjPay i xt1 hx1 arg3 harg3 x0 R⟩ : View.Piece (Elt F) S64x256 .f32)))
      = xjFull i xt1 hx1 arg3 harg3 x0 :=
  readAt_rowPieces_all v f order hall (xjPay i xt1 hx1 arg3 harg3 x0) off hoff inb
/-- and likewise when the load is read off the stores alone. -/
theorem xjCov_eq (v : View sig .tc .vmem S64x256 .f32) (order : List (Fin 64)) (hall : ∀ r : Fin 64, r ∈ order)
    (i : grid1.Coords) (xt1 : S8192.Idx → BitVec 32) (hx1 : ∀ e : S8192.Idx, (xt1 e).toNat < 8192)
    (arg3 : Memref sig .tc .vmem S8192x256 .f32) (harg3 : arg3.IsWhole) (x0 : Vec F S8192x256 .f32)
    (off : Fin 2 → Nat) (hoff : off = fun _ => 0) (inb : ∀ a, off a + S64x256.size a ≤ S64x256.size a) :
    v.readCov (order.map fun R => (⟨rowRect R, xjPay i xt1 hx1 arg3 harg3 x0 R⟩ : View.Piece (Elt F) S64x256 .f32))
        (Rect.unit (s := S64x256) off S64x256.size inb).toLoadRect
      = xjFull i xt1 hx1 arg3 harg3 x0 :=
  readCov_rowPieces_all v order hall (xjPay i xt1 hx1 arg3 harg3 x0) off hoff inb

/-- Every row: the rows 63 down to 0, each once. -/
def allRows : List (Fin 64) := [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
theorem allRows_nodup : allRows.Nodup := by decide
theorem mem_allRows : ∀ r : Fin 64, r ∈ allRows := by decide

end Cert.KernelIdeal.Hand

end
-- ==== Proof.KI.R1Indep.lean ====
import proofs.«428817_j39556648796289_1_alg».proof.Proof.KI.R1Run
import proofs.«428817_j39556648796289_1_alg».proof.Proof.KI.R1Rows
import proofs.«428817_j39556648796289_1_alg».proof.Proof.KI.R1TileRows
import Idealize.ShloMosaic.Lib.Pipeline.FrameBody
import Idealize.ShloMosaic.Lib.Pipeline.Value
import Idealize.ShloMosaic.Lib.Tactic

/-! # The run of the second region's body does not depend on what its scratch buffers held

The body overwrites every one of the 64 rows of each of its four scratch buffers before it loads them whole: the two
adjacency buffers row by row by copies out of the adjacency array, the two feature buffers row by row by stores of rows of
the node table. So the one piece it stores into the output block is the same whatever the four buffers held when the body
started. Generic in the values. -/

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The one piece, first as the run leaves it, then in a form that names no scratch contents -/

/-- A whole-buffer load of a staging memref at read contents `x` reads `x`. -/
theorem wholeLoad2 {a b : Nat} (m : Memref sig .tc .vmem ⟨2, ![a, b]⟩ .f32) (hm : m.IsWhole) (x : (⟨2, ![a, b]⟩ : Shape).Idx → Elt F .f32)
    (inb : ∀ q, (![0, 0] : Fin 2 → Nat) q + (⟨2, ![a, b]⟩ : Shape).size q ≤ (⟨2, ![a, b]⟩ : Shape).size q) :
    View.readAt (Elt F) m.view (Rect.unit (s := ⟨2, ![a, b]⟩) ![0, 0] (⟨2, ![a, b]⟩ : Shape).size inb).toLoadRect (hm.unread x) = x := by
  rw [View.readAt_eq_ld, hm.read_unread, View.ld_unit_zero (funext fun q => by fin_cases q <;> rfl)]

/-- What the body stores for the tile: its arithmetic of the four scratch buffers with every row written (each a function of
    the index that names no prior contents), the residual table and the weights as the windows read them. -/
def tilePay (i : grid1.Coords) (xt0 xt1 : S8192.Idx → BitVec 32) (hx0 : ∀ e : S8192.Idx, (xt0 e).toNat < 8192) (hx1 : ∀ e : S8192.Idx, (xt1 e).toNat < 8192)
    (fh0 : S8192x8192.Idx → Elt F .f32) (arg3 : Memref sig .tc .vmem S8192x256 .f32) (harg3 : arg3.IsWhole)
    (x0 : Vec F S8192x256 .f32) (x1 : Vec F S8192x256 .f32) (x2 : Vec F S256x256 .f32) (x3 : Vec F S1x256 .f32) (x4 : Vec F S256x256 .f32) (x5 : Vec F S1x256 .f32)
    (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) :
    FVec F S64x1 .f32 :=
  k1_pay1 (k1_pay140 (k1_pay138 (xiFull i xt0 hx0 arg3 harg3 x0) (xjFull i xt1 hx1 arg3 harg3 x0) x2 x3)
      (k1_pay139 (aiFull i xt0 hx0 fh0) (ajFull i xt1 hx1 fh0) x1 x4 x5) x6 x7 x12 x8 x9 x10) x11

set_option maxHeartbeats 8000000 in
/-- The run's one piece as the run leaves it: the whole output block; the two adjacency buffers loaded whole after their 64
    rows landed over what they held, the two feature buffers read off their 64 row stores, the thirteen windows loaded whole.
    The run's own names opened, nothing else. -/
theorem kernelRun1_pieces_raw (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 : Vec F S64x8192 .f32) (xs2 xs3 : Vec F S64x256 .f32) (xt0 : TbBuf1 (F := F) c tbM1_0) (xt1 : TbBuf1 (F := F) c tbM1_1) (fh0 : HbBuf1 (F := F) c hbM1_0)
    (hx0 : ∀ e : S8192.Idx, ((xt0 : S8192.Idx → BitVec 32) e).toNat < 8192) (hx1 : ∀ e : S8192.Idx, ((xt1 : S8192.Idx → BitVec 32) e).toNat < 8192)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1
      = [(⟨Rect.unit (s := S64x1) ![0, 0] S64x1.size inb_S64x1_S64x1_0_0,
        k1_pay1 (k1_pay140
          (k1_pay138
            (scM1_2.view.readCov (allRows.map fun R => (⟨rowRect R, xiPay i (xt0 : S8192.Idx → BitVec 32) hx0 arg3 harg3 x0 R⟩ : View.Piece (Elt F) S64x256 .f32))
              (Rect.unit (s := S64x256) ![0, 0] S64x256.size inb_S64x256_S64x256_0_0).toLoadRect)
            (scM1_3.view.readCov (allRows.map fun R => (⟨rowRect R, xjPay i (xt1 : S8192.Idx → BitVec 32) hx1 arg3 harg3 x0 R⟩ : View.Piece (Elt F) S64x256 .f32))
              (Rect.unit (s := S64x256) ![0, 0] S64x256.size inb_S64x256_S64x256_0_0).toLoadRect)
            (View.readAt (Elt F) arg6.view (Rect.unit (s := S256x256) ![0, 0] S256x256.size inb_S256x256_S256x256_0_0).toLoadRect (harg6.unread x2)) (View.readAt (Elt F) arg7.view (Rect.unit (s := S1x256) ![0, 0] S1x256.size inb_S1x256_S1x256_0_0).toLoadRect (harg7.unread x3)))
          (k1_pay139
            (View.readAt (Elt F) scM1_0.view (Rect.unit (s := S64x8192) ![0, 0] S64x8192.size inb_S64x8192_S64x8192_0_0).toLoadRect
              (landRows scM1_0 ((Memref.isWhole_whole _ : scM1_0.IsWhole).unread xs0) (allRows.map fun R => (R, aiVals i (xt0 : S8192.Idx → BitVec 32) hx0 (fh0 : S8192x8192.Idx → Elt F .f32) R))))
            (View.readAt (Elt F) scM1_1.view (Rect.unit (s := S64x8192) ![0, 0] S64x8192.size inb_S64x8192_S64x8192_0_0).toLoadRect
              (landRows scM1_1 ((Memref.isWhole_whole _ : scM1_1.IsWhole).unread xs1) (allRows.map fun R => (R, ajVals i (xt1 : S8192.Idx → BitVec 32) hx1 (fh0 : S8192x8192.Idx → Elt F .f32) R))))
            (View.readAt (Elt F) arg4.view (Rect.unit (s := S8192x256) ![0, 0] S8192x256.size inb_S8192x256_S8192x256_0_0).toLoadRect (harg4.unread x1)) (View.readAt (Elt F) arg8.view (Rect.unit (s := S256x256) ![0, 0] S256x256.size inb_S256x256_S256x256_0_0).toLoadRect (harg8.unread x4)) (View.readAt (Elt F) arg9.view (Rect.unit (s := S1x256) ![0, 0] S1x256.size inb_S1x256_S1x256_0_0).toLoadRect (harg9.unread x5)))
          (View.readAt (Elt F) arg10.view (Rect.unit (s := S256x256) ![0, 0] S256x256.size inb_S256x256_S256x256_0_0).toLoadRect (harg10.unread x6)) (View.readAt (Elt F) arg11.view (Rect.unit (s := S1x256) ![0, 0] S1x256.size inb_S1x256_S1x256_0_0).toLoadRect (harg11.unread x7)) (View.readAt (Elt F) arg16.view (Rect.unit (s := S1x1) ![0, 0] S1x1.size inb_S1x1_S1x1_0_0).toLoadRect (harg16.unread x12)) (View.readAt (Elt F) arg12.view (Rect.unit (s := S256x256) ![0, 0] S256x256.size inb_S256x256_S256x256_0_0).toLoadRect (harg12.unread x8)) (View.readAt (Elt F) arg13.view (Rect.unit (s := S1x256) ![0, 0] S1x256.size inb_S1x256_S1x256_0_0).toLoadRect (harg13.unread x9)) (View.readAt (Elt F) arg14.view (Rect.unit (s := S256x1) ![0, 0] S256x1.size inb_S256x1_S256x1_0_0).toLoadRect (harg14.unread x10)))
        (View.readAt (Elt F) arg15.view (Rect.unit (s := S1x1) ![0, 0] S1x1.size inb_S1x1_S1x1_0_0).toLoadRect (harg15.unread x11))⟩ : View.Piece (Elt F) S64x1 .f32)] := by
  unfold kernelRun1
  dsimp only
  sl_unfold_run_names
  rfl

/-- THE RUN'S ONE PIECE: the whole output block, holding `tilePay`. -/
theorem kernelRun1_pieces (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 : Vec F S64x8192 .f32) (xs2 xs3 : Vec F S64x256 .f32) (xt0 : TbBuf1 (F := F) c tbM1_0) (xt1 : TbBuf1 (F := F) c tbM1_1) (fh0 : HbBuf1 (F := F) c hbM1_0)
    (hx0 : ∀ e : S8192.Idx, ((xt0 : S8192.Idx → BitVec 32) e).toNat < 8192) (hx1 : ∀ e : S8192.Idx, ((xt1 : S8192.Idx → BitVec 32) e).toNat < 8192)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1
      = [(⟨Rect.unit (s := S64x1) ![0, 0] S64x1.size inb_S64x1_S64x1_0_0,
          tilePay i (xt0 : S8192.Idx → BitVec 32) (xt1 : S8192.Idx → BitVec 32) hx0 hx1 (fh0 : S8192x8192.Idx → Elt F .f32) arg3 harg3 x0 x1 x2 x3 x4 x5 x6 x7 x8 x9 x10 x11 x12⟩ : View.Piece (Elt F) S64x1 .f32)] := by
  rw [kernelRun1_pieces_raw c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 hx0 hx1 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128]
  rw [aiLoad_eq scM1_0 _ allRows allRows_nodup mem_allRows i (xt0 : S8192.Idx → BitVec 32) hx0 (fh0 : S8192x8192.Idx → Elt F .f32) ![0, 0] (funext fun q => by fin_cases q <;> rfl) inb_S64x8192_S64x8192_0_0,
    ajLoad_eq scM1_1 _ allRows allRows_nodup mem_allRows i (xt1 : S8192.Idx → BitVec 32) hx1 (fh0 : S8192x8192.Idx → Elt F .f32) ![0, 0] (funext fun q => by fin_cases q <;> rfl) inb_S64x8192_S64x8192_0_0,
    xiCov_eq scM1_2.view allRows mem_allRows i (xt0 : S8192.Idx → BitVec 32) hx0 arg3 harg3 x0 ![0, 0] (funext fun q => by fin_cases q <;> rfl) inb_S64x256_S64x256_0_0,
    xjCov_eq scM1_3.view allRows mem_allRows i (xt1 : S8192.Idx → BitVec 32) hx1 arg3 harg3 x0 ![0, 0] (funext fun q => by fin_cases q <;> rfl) inb_S64x256_S64x256_0_0]
  rw [wholeLoad2 arg4 harg4 x1 inb_S8192x256_S8192x256_0_0,
    wholeLoad2 arg6 harg6 x2 inb_S256x256_S256x256_0_0,
    wholeLoad2 arg7 harg7 x3 inb_S1x256_S1x256_0_0,
    wholeLoad2 arg8 harg8 x4 inb_S256x256_S256x256_0_0,
    wholeLoad2 arg9 harg9 x5 inb_S1x256_S1x256_0_0,
    wholeLoad2 arg10 harg10 x6 inb_S256x256_S256x256_0_0,
    wholeLoad2 arg11 harg11 x7 inb_S1x256_S1x256_0_0,
    wholeLoad2 arg12 harg12 x8 inb_S256x256_S256x256_0_0,
    wholeLoad2 arg13 harg13 x9 inb_S1x256_S1x256_0_0,
    wholeLoad2 arg14 harg14 x10 inb_S256x1_S256x1_0_0,
    wholeLoad2 arg15 harg15 x11 inb_S1x1_S1x1_0_0,
    wholeLoad2 arg16 harg16 x12 inb_S1x1_S1x1_0_0]
  rfl

set_option maxHeartbeats 4000000 in
/-- The pieces the run leaves in the output block are the same at any two contents of the four scratch buffers. -/
theorem kernelRun1_indep (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 xs0' xs1' : Vec F S64x8192 .f32) (xs2 xs3 xs2' xs3' : Vec F S64x256 .f32) (xt0 : TbBuf1 (F := F) c tbM1_0) (xt1 : TbBuf1 (F := F) c tbM1_1) (fh0 : HbBuf1 (F := F) c hbM1_0)
    (hx0 : ∀ e : S8192.Idx, ((xt0 : S8192.Idx → BitVec 32) e).toNat < 8192) (hx1 : ∀ e : S8192.Idx, ((xt1 : S8192.Idx → BitVec 32) e).toNat < 8192)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1
      = (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0' xs1' xs2' xs3' xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1 := by
  exact (kernelRun1_pieces c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 hx0 hx1 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).trans (kernelRun1_pieces c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0' xs1' xs2' xs3' xt0 xt1 fh0 hx0 hx1 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).symm

end Cert.KernelIdeal.Hand

end
-- ==== Proof.KI.TablesWords.lean ====
/-
  The words the second region's body reads off its two prefetched tables are below 8192 under the precondition:
  the precondition bounds the edge table's words, the tables are its two rows, and a read through any rectangle of a
  view returns one of the words the view reads.
-/
import proofs.«428817_j39556648796289_1_alg».proof.Proof.KI.Tables

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

/-! ## The tables' words under the precondition -/

/-- The precondition as the claim states it, at any instance: the printed test of the launch contents is all ones on
    every core. -/
def PreAt [hP : Cert.Pre_finite_inputs.Facts] : Prop :=
  ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) = (fun _ => 1#1)

variable [hP : Cert.Pre_finite_inputs.Facts]

/-- Every word of the launch's edge table is below 8192. -/
theorem edge_word_lt (h : PreAt m) (c : Dev nD) (s : Fin 2) (e : Fin 8192) :
    (m ((c : Thread nD τ).loc main_arg2) (ValueIdx.ix2 s e)).toNat < 8192 :=
  tar_lt_of_pre _ _ _ _ _ _ _ _ _ _ _ _ _ _ _ _ _ _ (h c) s e

/-- Every word of the launch's edge table is below 8192, at any index. -/
theorem tar_word_lt (h : PreAt m) (c : Dev nD) (i : S2x8192.Idx) :
    (m ((c : Thread nD τ).loc main_arg2) i).toNat < 8192 :=
  lt_of_eq_of_lt
    (congrArg BitVec.toNat (congrArg (m ((c : Thread nD τ).loc main_arg2) : S2x8192.Idx → BitVec 32) (ValueIdx.eq_ix2 i)))
    (edge_word_lt m h c (i 0) (i 1))

/-- Every word of the first table (row 0 of the edge table) is below 8192. -/
theorem V1_main_v1_lt (h : PreAt m) (c : Dev nD) (e : S8192.Idx) :
    ((Gen.V1 m c main_v1 : S8192.Idx → BitVec 32) e).toNat < 8192 := by
  have key : (Gen.V1 m c main_v1 : S8192.Idx → BitVec 32) e = m ((c : Thread nD τ).loc main_arg2) (ValueIdx.ix2 0 (e 0)) :=
    (congrArg (Gen.V1 m c main_v1 : S8192.Idx → BitVec 32) (ValueIdx.eq_ix1 e)).trans (V1_main_v1_apply m c (e 0))
  exact lt_of_eq_of_lt (congrArg BitVec.toNat key) (edge_word_lt m h c 0 (e 0))

/-- Every word of the second table (row 1 of the edge table) is below 8192. -/
theorem V1_main_v3_lt (h : PreAt m) (c : Dev nD) (e : S8192.Idx) :
    ((Gen.V1 m c main_v3 : S8192.Idx → BitVec 32) e).toNat < 8192 := by
  have key : (Gen.V1 m c main_v3 : S8192.Idx → BitVec 32) e = m ((c : Thread nD τ).loc main_arg2) (ValueIdx.ix2 1 (e 0)) :=
    (congrArg (Gen.V1 m c main_v3 : S8192.Idx → BitVec 32) (ValueIdx.eq_ix1 e)).trans (V1_main_v3_apply m c (e 0))
  exact lt_of_eq_of_lt (congrArg BitVec.toNat key) (edge_word_lt m h c 1 (e 0))

/-! ## A read returns one of the words read -/

/-- A load through any rectangle of a view of a table returns, at each index, one of the words the view reads: a bound
    on all of them bounds it. -/
theorem readAt_lt {κ : Kind} {sp : Space} (v : View sig κ sp S8192 .i32) (f : v.ty.Contents (Elt F))
    (hx : ∀ e : S8192.Idx, (v.read (Elt F) f e : BitVec 32).toNat < 8192) (r : LoadRect S8192) (y : r.shape.Idx) :
    (v.readAt (Elt F) r f y : BitVec 32).toNat < 8192 := hx (r.idx y)

/-- The one word the body reads off the first table at any position is below 8192 when all the table's words are. -/
theorem word_lt_v1 (x : S8192.Idx → BitVec 32) (hx : ∀ e : S8192.Idx, (x e).toNat < 8192) (off : Fin 1 → Nat)
    (inb : ∀ a, off a + S1.size a ≤ S8192.size a) (h1 : 0 < S1.numel) :
    ((Memref.whole (sig := sig) main_v1).view.readAt (Elt F) (Rect.unit (s := S8192) off S1.size inb).toLoadRect x (Shape.Idx.first h1) : BitVec 32).toNat < 8192 :=
  hx _

/-- The same for the second table. -/
theorem word_lt_v3 (x : S8192.Idx → BitVec 32) (hx : ∀ e : S8192.Idx, (x e).toNat < 8192) (off : Fin 1 → Nat)
    (inb : ∀ a, off a + S1.size a ≤ S8192.size a) (h1 : 0 < S1.numel) :
    ((Memref.whole (sig := sig) main_v3).view.readAt (Elt F) (Rect.unit (s := S8192) off S1.size inb).toLoadRect x (Shape.Idx.first h1) : BitVec 32).toNat < 8192 :=
  hx _

end Cert.KernelIdeal.Hand

end
-- ==== Proof.KI.R1.lean ====
/- Region 1 at a generic grid point: what its body is handed and what it hands back. Between points the region holds: the core's scoped
  buffers that are no staging buffer of this pipeline, each at some contents (the other pipeline's eight staging buffers ride through
  unread, the four scratch buffers are the body's to overwrite); the generator register at some state; the body's thirty-two semaphore
  cells at zero; the adjacency array whole at the contents the region found; and the two index tables at half share. At a point the body
  reads thirteen whole input blocks and the tables' words — each of which names a row when every word of both tables is below 8192 —,
  copies rows of the adjacency array with up to thirty-two copies in flight, one per cell, and overwrites the output block whole. One
  points-to cannot be lent to two copies at once, so the array's full share is halved fifty-five times: share n (the right half after n
  halvings) goes to the copy completing on cell n, for n = 23 … 54; shares 0 … 22 and the remainder stay aside; after the run the
  fifty-six parts compose to the full share again. -/
import proofs.«428817_j39556648796289_1_alg».proof.Proof.KI.R1Run
import proofs.«428817_j39556648796289_1_alg».proof.Proof.KI.R1Indep
import proofs.«428817_j39556648796289_1_alg».proof.Proof.KI.TablesCases
import proofs.«428817_j39556648796289_1_alg».proof.Proof.KI.TablesWords
import Idealize.ShloMosaic.Lib.Pipeline.FrameBody
import Idealize.ShloMosaic.Lib.Pipeline.Frame
import Idealize.ShloMosaic.Lib.Ring
import Idealize.ShloMosaic.Lib.Tactic

-- indices range over rectangles with long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered, and the tables' admissible contents the pipeline runs at
variable (V : (c : Dev nD) → (b : Ref sig .tc) → Buf (Elt F) ((c : Thread nD τ).loc b)) (a1 : (pcfg1 (F := F)).Adm)

/-! ## The body's own semaphore cells -/

/-- The thirty-two cells the body's row copies complete on, by their numbers in the pool: sixteen for the first endpoint's rows,
    sixteen for the second's. -/
abbrev osem1 : Fin 32 → SemLoc sig := fun j => (![SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54] : Fin 32 → SemLoc sig) j
/-- They are DMA cells, pairwise distinct, and none is a window's. -/
theorem ownSemFacts1 : Pipeline.OwnSemFacts spec1 osem1 := by decide
/-- All of them at zero, one by one. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0) := by
  rw [Pipeline.ownSems0_eq_of_list c osem1 [0, 1, 2, 3, 4, 5, 6, 7, 8, 9, 10, 11, 12, 13, 14, 15, 16, 17, 18, 19, 20, 21, 22, 23, 24, 25, 26, 27, 28, 29, 30, 31] (by decide) (by decide)]; rfl

/-! ## The adjacency array -/

/-- The one unscoped buffer the body copies from itself: neither a window's array nor a table. -/
def H1 : Finset (Ref sig .tc) := {main_arg1}
theorem H1_sub : H1 ⊆ Pipeline.restRefsP sig pre1 spec1 := by decide
/-- Its points-to at the region's entry contents. -/
theorem hbmPts1_eq (c : Dev nD) :
    (bigSep H1 (fun b => ((c : Thread nD τ).loc b) ↦{fullShare} V c b) : sProp 𝕄) = iprop(hbPt1 c hbM1_0 (V c main_arg1)) := by
  rw [BI.bigSep_eq_bigSepL_of_eq [main_arg1] (by decide) (by decide)]; rfl

/-- The full share of the array is the remainder after fifty-five halvings and the fifty-five right halves: a share is its left half
    composed with its right half, fifty-five times over. -/
theorem hbToks1 (c : Dev nD) (f : HbBuf1 (F := F) c hbM1_0) :
    (hbPt1 c hbM1_0 f : sProp 𝕄) ⊣⊢ iprop((hbM1_0.view.loc (c : Thread nD τ) ↦{Transfers.shareDrop fullShare 55} f) ∗ hbTok1 c 0 f ∗ hbTok1 c 1 f ∗ hbTok1 c 2 f ∗ hbTok1 c 3 f ∗ hbTok1 c 4 f ∗ hbTok1 c 5 f ∗ hbTok1 c 6 f ∗ hbTok1 c 7 f ∗ hbTok1 c 8 f ∗ hbTok1 c 9 f ∗ hbTok1 c 10 f ∗ hbTok1 c 11 f ∗ hbTok1 c 12 f ∗ hbTok1 c 13 f ∗ hbTok1 c 14 f ∗ hbTok1 c 15 f ∗ hbTok1 c 16 f ∗ hbTok1 c 17 f ∗ hbTok1 c 18 f ∗ hbTok1 c 19 f ∗ hbTok1 c 20 f ∗ hbTok1 c 21 f ∗ hbTok1 c 22 f ∗ hbTok1 c 23 f ∗ hbTok1 c 24 f ∗ hbTok1 c 25 f ∗ hbTok1 c 26 f ∗ hbTok1 c 27 f ∗ hbTok1 c 28 f ∗ hbTok1 c 29 f ∗ hbTok1 c 30 f ∗ hbTok1 c 31 f ∗ hbTok1 c 32 f ∗ hbTok1 c 33 f ∗ hbTok1 c 34 f ∗ hbTok1 c 35 f ∗ hbTok1 c 36 f ∗ hbTok1 c 37 f ∗ hbTok1 c 38 f ∗ hbTok1 c 39 f ∗ hbTok1 c 40 f ∗ hbTok1 c 41 f ∗ hbTok1 c 42 f ∗ hbTok1 c 43 f ∗ hbTok1 c 44 f ∗ hbTok1 c 45 f ∗ hbTok1 c 46 f ∗ hbTok1 c 47 f ∗ hbTok1 c 48 f ∗ hbTok1 c 49 f ∗ hbTok1 c 50 f ∗ hbTok1 c 51 f ∗ hbTok1 c 52 f ∗ hbTok1 c 53 f ∗ hbTok1 c 54 f) := by
  have h := Transfers.pointsTo_toks_range (Ix := Unit) (Name := ℕ) (U := Pipeline.UD sig nD τ) (Lvl := ℕ) (Val := Elt F)
    (ℓ := hbM1_0.view.loc (c : Thread nD τ)) (S := Finset.univ) (f := f) fullShare 55
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54] (by decide) (by decide)] at h
  exact h

/-- The same as an equation of assertions (two assertions that entail each other are equal). -/
theorem hbToks1_eq (c : Dev nD) (f : HbBuf1 (F := F) c hbM1_0) :
    (hbPt1 c hbM1_0 f : sProp 𝕄) = iprop((hbM1_0.view.loc (c : Thread nD τ) ↦{Transfers.shareDrop fullShare 55} f) ∗ hbTok1 c 0 f ∗ hbTok1 c 1 f ∗ hbTok1 c 2 f ∗ hbTok1 c 3 f ∗ hbTok1 c 4 f ∗ hbTok1 c 5 f ∗ hbTok1 c 6 f ∗ hbTok1 c 7 f ∗ hbTok1 c 8 f ∗ hbTok1 c 9 f ∗ hbTok1 c 10 f ∗ hbTok1 c 11 f ∗ hbTok1 c 12 f ∗ hbTok1 c 13 f ∗ hbTok1 c 14 f ∗ hbTok1 c 15 f ∗ hbTok1 c 16 f ∗ hbTok1 c 17 f ∗ hbTok1 c 18 f ∗ hbTok1 c 19 f ∗ hbTok1 c 20 f ∗ hbTok1 c 21 f ∗ hbTok1 c 22 f ∗ hbTok1 c 23 f ∗ hbTok1 c 24 f ∗ hbTok1 c 25 f ∗ hbTok1 c 26 f ∗ hbTok1 c 27 f ∗ hbTok1 c 28 f ∗ hbTok1 c 29 f ∗ hbTok1 c 30 f ∗ hbTok1 c 31 f ∗ hbTok1 c 32 f ∗ hbTok1 c 33 f ∗ hbTok1 c 34 f ∗ hbTok1 c 35 f ∗ hbTok1 c 36 f ∗ hbTok1 c 37 f ∗ hbTok1 c 38 f ∗ hbTok1 c 39 f ∗ hbTok1 c 40 f ∗ hbTok1 c 41 f ∗ hbTok1 c 42 f ∗ hbTok1 c 43 f ∗ hbTok1 c 44 f ∗ hbTok1 c 45 f ∗ hbTok1 c 46 f ∗ hbTok1 c 47 f ∗ hbTok1 c 48 f ∗ hbTok1 c 49 f ∗ hbTok1 c 50 f ∗ hbTok1 c 51 f ∗ hbTok1 c 52 f ∗ hbTok1 c 53 f ∗ hbTok1 c 54 f) :=
  BI.equiv_iff.mp ⟨(hbToks1 c f).1, (hbToks1 c f).2⟩

/-! ## The invariant, conjunct by conjunct -/

/-- The part of the invariant that is the same for any tables: the scoped rest — the other pipeline's staging buffers at some contents,
    the four scratch buffers owned at some contents —, the generator register, the cells at zero, the adjacency array whole. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
          ∗ (∃ r, prngReg c r)
          ∗ iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0)
          ∗ iprop(hbPt1 c hbM1_0 (V c main_arg1))) := by
  rw [Pipeline.ΦD_eq, scopedRest1_eq, ownSems01_eq, hbmPts1_eq]; simp only [scM1_0, scM1_1, scM1_2, scM1_3, owns_whole]; try rfl

/-- The tables' halves, table by table. -/
theorem PhiT1_eq (pf : pre1.Contents (Elt F)) (c : Dev nD) : (Pipeline.ΦT pre1 pf c : sProp 𝕄) = iprop(tbPt1 c tbM1_0 (pf 0) ∗ tbPt1 c tbM1_1 (pf 1)) := by
  unfold Pipeline.ΦT Pipeline.prefHeld
  rw [show (Finset.univ : Finset (Fin 2)) = insert (0 : Fin 2) {(1 : Fin 2)} from by decide, bigSep_insert (by decide), bigSep_singleton]
  rfl

/-! ## The side conditions the body assumes -/

/-- Every word of either table names a row of the adjacency array and of the feature matrices. -/
def Hyps1 (pf : pre1.Contents (Elt F)) : Prop :=
  (∀ e : S8192.Idx, ((pf 0 : S8192.Idx → BitVec 32) e).toNat < 8192) ∧ (∀ e : S8192.Idx, ((pf 1 : S8192.Idx → BitVec 32) e).toNat < 8192)

/-! Each side condition of the body at a grid point: the word is one of its table's words, so it is below 8192, and a word below 8192
    passes the condition. -/
theorem hw1 {pf : pre1.Contents (Elt F)} (hH : Hyps1 pf) (i : grid1.Coords) : k1_chk1 (tbM1_0.view.readAt (Elt F) (Rect.unit (s := S8192) (k1_off1 i) S1.size (k1_off1_inb i)).toLoadRect (pf 0) (Shape.Idx.first (numel1_S1.symm ▸ Nat.one_pos))) :=
  chk_of_lt_1 _ (word_lt_v1 _ hH.1 _ _ _)
theorem hw2 {pf : pre1.Contents (Elt F)} (hH : Hyps1 pf) (i : grid1.Coords) : k1_chk2 (tbM1_1.view.readAt (Elt F) (Rect.unit (s := S8192) (k1_off1 i) S1.size (k1_off1_inb i)).toLoadRect (pf 1) (Shape.Idx.first (numel1_S1.symm ▸ Nat.one_pos))) :=
  chk_of_lt_2 _ (word_lt_v3 _ hH.2 _ _ _)
theorem hw3 {pf : pre1.Contents (Elt F)} (hH : Hyps1 pf) (i : grid1.Coords) : k1_chk3 (tbM1_0.view.readAt (Elt F) (Rect.unit (s := S8192) (k1_off6 i) S1.size (k1_off6_inb i)).toLoadRect (pf 0) (Shape.Idx.first (numel1_S1.symm ▸ Nat.one_pos))) :=
  chk_of_lt_3 _ (word_lt_v1 _ hH.1 _ _ _)
theorem hw4 {pf : pre1.Contents (Elt F)} (hH : Hyps1 pf) (i : grid1.Coords) : k1_chk4 (tbM1_1.view.readAt (Elt F) (Rect.unit (s := S8192) (k1_off6 i) S1.size (k1_off6_inb i)).toLoadRect (pf 1) (Shape.Idx.first (numel1_S1.symm ▸ Nat.one_pos))) :=
  chk_of_lt_4 _ (word_lt_v3 _ hH.2 _ _ _)
theorem hw5 {pf : pre1.Contents (Elt F)} (hH : Hyps1 pf) (i : grid1.Coords) : k1_chk5 (tbM1_0.view.readAt (Elt F) (Rect.unit (s := S8192) (k1_off11 i) S1.size (k1_off11_inb i)).toLoadRect (pf 0) (Shape.Idx.first (numel1_S1.symm ▸ Nat.one_pos))) :=
  chk_of_lt_5 _ (word_lt_v1 _ hH.1 _ _ _)
theorem hw6 {pf : pre1.Contents (Elt F)} (hH : Hyps1 pf) (i : grid1.Coords) : k1_chk6 (tbM1_1.view.readAt (Elt F) (Rect.unit (s := S8192) (k1_off11 i) S1.size (k1_off11_inb i)).toLoadRect (pf 1) (Shape.Idx.first (numel1_S1.symm ▸ Nat.one_pos))) :=
  chk_of_lt_6 _ (word_lt_v3 _ hH.2 _ _ _)
theorem hw7 {pf : pre1.Contents (Elt F)} (hH : Hyps1 pf) (i : grid1.Coords) : k1_chk7 (tbM1_0.view.readAt (Elt F) (Rect.unit (s := S8192) (k1_off16 i) S1.size (k1_off16_inb i)).toLoadRect (pf 0) (Shape.Idx.first (numel1_S1.symm ▸ Nat.one_pos))) :=
  chk_of_lt_7 _ (word_lt_v1 _ hH.1 _ _ _)
theorem hw8 {pf : pre1.Contents (Elt F)} (hH : Hyps1 pf) (i : grid1.Coords) : k1_chk8 (tbM1_1.view.readAt (Elt F) (Rect.unit (s := S8192) (k1_off16 i) S1.size (k1_off16_inb i)).toLoadRect (pf 1) (Shape.Idx.first (numel1_S1.symm ▸ Nat.one_pos))) :=
  chk_of_lt_8 _ (word_lt_v3 _ hH.2 _ _ _)
theorem hw9 {pf : pre1.Contents (Elt F)} (hH : Hyps1 pf) (i : grid1.Coords) : k1_chk9 (tbM1_0.view.readAt (Elt F) (Rect.unit (s := S8192) (k1_off21 i) S1.size (k1_off21_inb i)).toLoadRect (pf 0) (Shape.Idx.first (numel1_S1.symm ▸ Nat.one_pos))) :=
  chk_of_lt_9 _ (word_lt_v1 _ hH.1 _ _ _)
theorem hw10 {pf : pre1.Contents (Elt F)} (hH : Hyps1 pf) (i : grid1.Coords) : k1_chk10 (tbM1_1.view.readAt (Elt F) (Rect.unit (s := S8192) (k1_off21 i) S1.size (k1_off21_inb i)).toLoadRect (pf 1) (Shape.Idx.first (numel1_S1.symm ▸ Nat.one_pos))) :=
  chk_of_lt_10 _ (word_lt_v3 _ hH.2 _ _ _)
theorem hw11 {pf : pre1.Contents (Elt F)} (hH : Hyps1 pf) (i : grid1.Coords) : k1_chk11 (tbM1_0.view.readAt (Elt F) (Rect.unit (s := S8192) (k1_off26 i) S1.size (k1_off26_inb i)).toLoadRect (pf 0) (Shape.Idx.first (numel1_S1.symm ▸ Nat.one_pos))) :=
  chk_of_lt_11 _ (word_lt_v1 _ hH.1 _ _ _)
theorem hw12 {pf : pre1.Contents (Elt F)} (hH : Hyps1 pf) (i : grid1.Coords) : k1_chk12 (tbM1_1.view.readAt (Elt F) (Rect.unit (s := S8192) (k1_off26 i) S1.size (k1_off26_inb i)).toLoadRect (pf 1) (Shape.Idx.first (numel1_S1.symm ▸ Nat.one_pos))) :=
  chk_of_lt_12 _ (word_lt_v3 _ hH.2 _ _ _)
theorem hw13 {pf : pre1.Contents (Elt F)} (hH : Hyps1 pf) (i : grid1.Coords) : k1_chk13 (tbM1_0.view.readAt (Elt F) (Rect.unit (s := S8192) (k1_off31 i) S1.size (k1_off31_inb i)).toLoadRect (pf 0) (Shape.Idx.first (numel1_S1.symm ▸ Nat.one_pos))) :=
  chk_of_lt_13 _ (word_lt_v1 _ hH.1 _ _ _)
theorem hw14 {pf : pre1.Contents (Elt F)} (hH : Hyps1 pf) (i : grid1.Coords) : k1_chk14 (tbM1_1.view.readAt (Elt F) (Rect.unit (s := S8192) (k1_off31 i) S1.size (k1_off31_inb i)).toLoadRect (pf 1) (Shape.Idx.first (numel1_S1.symm ▸ Nat.one_pos))) :=
  chk_of_lt_14 _ (word_lt_v3 _ hH.2 _ _ _)
theorem hw15 {pf : pre1.Contents (Elt F)} (hH : Hyps1 pf) (i : grid1.Coords) : k1_chk15 (tbM1_0.view.readAt (Elt F) (Rect.unit (s := S8192) (k1_off36 i) S1.size (k1_off36_inb i)).toLoadRect (pf 0) (Shape.Idx.first (numel1_S1.symm ▸ Nat.one_pos))) :=
  chk_of_lt_15 _ (word_lt_v1 _ hH.1 _ _ _)
theorem hw16 {pf : pre1.Contents (Elt F)} (hH : Hyps1 pf) (i : grid1.Coords) : k1_chk16 (tbM1_1.view.readAt (Elt F) (Rect.unit (s := S8192) (k1_off36 i) S1.size (k1_off36_inb i)).toLoadRect (pf 1) (Shape.Idx.first (numel1_S1.symm ▸ Nat.one_pos))) :=
  chk_of_lt_16 _ (word_lt_v3 _ hH.2 _ _ _)
theorem hw17 {pf : pre1.Contents (Elt F)} (hH : Hyps1 pf) (i : grid1.Coords) : k1_chk17 (tbM1_0.view.readAt (Elt F) (Rect.unit (s := S8192) (k1_off41 i) S1.size (k1_off41_inb i)).toLoadRect (pf 0) (Shape.Idx.first (numel1_S1.symm ▸ Nat.one_pos))) :=
  chk_of_lt_17 _ (word_lt_v1 _ hH.1 _ _ _)
theorem hw18 {pf : pre1.Contents (Elt F)} (hH : Hyps1 pf) (i : grid1.Coords) : k1_chk18 (tbM1_1.view.readAt (Elt F) (Rect.unit (s := S8192) (k1_off41 i) S1.size (k1_off41_inb i)).toLoadRect (pf 1) (Shape.Idx.first (numel1_S1.symm ▸ Nat.one_pos))) :=
  chk_of_lt_18 _ (word_lt_v3 _ hH.2 _ _ _)
theorem hw19 {pf : pre1.Contents (Elt F)} (hH : Hyps1 pf) (i : grid1.Coords) : k1_chk19 (tbM1_0.view.readAt (Elt F) (Rect.unit (s := S8192) (k1_off46 i) S1.size (k1_off46_inb i)).toLoadRect (pf 0) (Shape.Idx.first (numel1_S1.symm ▸ Nat.one_pos))) :=
  chk_of_lt_19 _ (word_lt_v1 _ hH.1 _ _ _)
theorem hw20 {pf : pre1.Contents (Elt F)} (hH : Hyps1 pf) (i : grid1.Coords) : k1_chk20 (tbM1_1.view.readAt (Elt F) (Rect.unit (s := S8192) (k1_off46 i) S1.size (k1_off46_inb i)).toLoadRect (pf 1) (Shape.Idx.first (numel1_S1.symm ▸ Nat.one_pos))) :=
  chk_of_lt_20 _ (word_lt_v3 _ hH.2 _ _ _)
theorem hw21 {pf : pre1.Contents (Elt F)} (hH : Hyps1 pf) (i : grid1.Coords) : k1_chk21 (tbM1_0.view.readAt (Elt F) (Rect.unit (s := S8192) (k1_off51 i) S1.size (k1_off51_inb i)).toLoadRect (pf 0) (Shape.Idx.first (numel1_S1.symm ▸ Nat.one_pos))) :=
  chk_of_lt_21 _ (word_lt_v1 _ hH.1 _ _ _)
theorem hw22 {pf : pre1.Contents (Elt F)} (hH : Hyps1 pf) (i : grid1.Coords) : k1_chk22 (tbM1_1.view.readAt (Elt F) (Rect.unit (s := S8192) (k1_off51 i) S1.size (k1_off51_inb i)).toLoadRect (pf 1) (Shape.Idx.first (numel1_S1.symm ▸ Nat.one_pos))) :=
  chk_of_lt_22 _ (word_lt_v3 _ hH.2 _ _ _)
theorem hw23 {pf : pre1.Contents (Elt F)} (hH : Hyps1 pf) (i : grid1.Coords) : k1_chk23 (tbM1_0.view.readAt (Elt F) (Rect.unit (s := S8192) (k1_off56 i) S1.size (k1_off56_inb i)).toLoadRect (pf 0) (Shape.Idx.first (numel1_S1.symm ▸ Nat.one_pos))) :=
  chk_of_lt_23 _ (word_lt_v1 _ hH.1 _ _ _)
theorem hw24 {pf : pre1.Contents (Elt F)} (hH : Hyps1 pf) (i : grid1.Coords) : k1_chk24 (tbM1_1.view.readAt (Elt F) (Rect.unit (s := S8192) (k1_off56 i) S1.size (k1_off56_inb i)).toLoadRect (pf 1) (Shape.Idx.first (numel1_S1.symm ▸ Nat.one_pos))) :=
  chk_of_lt_24 _ (word_lt_v3 _ hH.2 _ _ _)
theorem hw25 {pf : pre1.Contents (Elt F)} (hH : Hyps1 pf) (i : grid1.Coords) : k1_chk25 (tbM1_0.view.readAt (Elt F) (Rect.unit (s := S8192) (k1_off61 i) S1.size (k1_off61_inb i)).toLoadRect (pf 0) (Shape.Idx.first (numel1_S1.symm ▸ Nat.one_pos))) :=
  chk_of_lt_25 _ (word_lt_v1 _ hH.1 _ _ _)
theorem hw26 {pf : pre1.Contents (Elt F)} (hH : Hyps1 pf) (i : grid1.Coords) : k1_chk26 (tbM1_1.view.readAt (Elt F) (Rect.unit (s := S8192) (k1_off61 i) S1.size (k1_off61_inb i)).toLoadRect (pf 1) (Shape.Idx.first (numel1_S1.symm ▸ Nat.one_pos))) :=
  chk_of_lt_26 _ (word_lt_v3 _ hH.2 _ _ _)
theorem hw27 {pf : pre1.Contents (Elt F)} (hH : Hyps1 pf) (i : grid1.Coords) : k1_chk27 (tbM1_0.view.readAt (Elt F) (Rect.unit (s := S8192) (k1_off66 i) S1.size (k1_off66_inb i)).toLoadRect (pf 0) (Shape.Idx.first (numel1_S1.symm ▸ Nat.one_pos))) :=
  chk_of_lt_27 _ (word_lt_v1 _ hH.1 _ _ _)
theorem hw28 {pf : pre1.Contents (Elt F)} (hH : Hyps1 pf) (i : grid1.Coords) : k1_chk28 (tbM1_1.view.readAt (Elt F) (Rect.unit (s := S8192) (k1_off66 i) S1.size (k1_off66_inb i)).toLoadRect (pf 1) (Shape.Idx.first (numel1_S1.symm ▸ Nat.one_pos))) :=
  chk_of_lt_28 _ (word_lt_v3 _ hH.2 _ _ _)
theorem hw29 {pf : pre1.Contents (Elt F)} (hH : Hyps1 pf) (i : grid1.Coords) : k1_chk29 (tbM1_0.view.readAt (Elt F) (Rect.unit (s := S8192) (k1_off71 i) S1.size (k1_off71_inb i)).toLoadRect (pf 0) (Shape.Idx.first (numel1_S1.symm ▸ Nat.one_pos))) :=
  chk_of_lt_29 _ (word_lt_v1 _ hH.1 _ _ _)
theorem hw30 {pf : pre1.Contents (Elt F)} (hH : Hyps1 pf) (i : grid1.Coords) : k1_chk30 (tbM1_1.view.readAt (Elt F) (Rect.unit (s := S8192) (k1_off71 i) S1.size (k1_off71_inb i)).toLoadRect (pf 1) (Shape.Idx.first (numel1_S1.symm ▸ Nat.one_pos))) :=
  chk_of_lt_30 _ (word_lt_v3 _ hH.2 _ _ _)
theorem hw31 {pf : pre1.Contents (Elt F)} (hH : Hyps1 pf) (i : grid1.Coords) : k1_chk31 (tbM1_0.view.readAt (Elt F) (Rect.unit (s := S8192) (k1_off76 i) S1.size (k1_off76_inb i)).toLoadRect (pf 0) (Shape.Idx.first (numel1_S1.symm ▸ Nat.one_pos))) :=
  chk_of_lt_31 _ (word_lt_v1 _ hH.1 _ _ _)
theorem hw32 {pf : pre1.Contents (Elt F)} (hH : Hyps1 pf) (i : grid1.Coords) : k1_chk32 (tbM1_1.view.readAt (Elt F) (Rect.unit (s := S8192) (k1_off76 i) S1.size (k1_off76_inb i)).toLoadRect (pf 1) (Shape.Idx.first (numel1_S1.symm ▸ Nat.one_pos))) :=
  chk_of_lt_32 _ (word_lt_v3 _ hH.2 _ _ _)
theorem hw33 {pf : pre1.Contents (Elt F)} (hH : Hyps1 pf) (i : grid1.Coords) : k1_chk33 (tbM1_0.view.readAt (Elt F) (Rect.unit (s := S8192) (k1_off81 i) S1.size (k1_off81_inb i)).toLoadRect (pf 0) (Shape.Idx.first (numel1_S1.symm ▸ Nat.one_pos))) :=
  chk_of_lt_33 _ (word_lt_v1 _ hH.1 _ _ _)
theorem hw34 {pf : pre1.Contents (Elt F)} (hH : Hyps1 pf) (i : grid1.Coords) : k1_chk34 (tbM1_1.view.readAt (Elt F) (Rect.unit (s := S8192) (k1_off81 i) S1.size (k1_off81_inb i)).toLoadRect (pf 1) (Shape.Idx.first (numel1_S1.symm ▸ Nat.one_pos))) :=
  chk_of_lt_34 _ (word_lt_v3 _ hH.2 _ _ _)
theorem hw35 {pf : pre1.Contents (Elt F)} (hH : Hyps1 pf) (i : grid1.Coords) : k1_chk35 (tbM1_0.view.readAt (Elt F) (Rect.unit (s := S8192) (k1_off86 i) S1.size (k1_off86_inb i)).toLoadRect (pf 0) (Shape.Idx.first (numel1_S1.symm ▸ Nat.one_pos))) :=
  chk_of_lt_35 _ (word_lt_v1 _ hH.1 _ _ _)
theorem hw36 {pf : pre1.Contents (Elt F)} (hH : Hyps1 pf) (i : grid1.Coords) : k1_chk36 (tbM1_1.view.readAt (Elt F) (Rect.unit (s := S8192) (k1_off86 i) S1.size (k1_off86_inb i)).toLoadRect (pf 1) (Shape.Idx.first (numel1_S1.symm ▸ Nat.one_pos))) :=
  chk_of_lt_36 _ (word_lt_v3 _ hH.2 _ _ _)
theorem hw37 {pf : pre1.Contents (Elt F)} (hH : Hyps1 pf) (i : grid1.Coords) : k1_chk37 (tbM1_0.view.readAt (Elt F) (Rect.unit (s := S8192) (k1_off91 i) S1.size (k1_off91_inb i)).toLoadRect (pf 0) (Shape.Idx.first (numel1_S1.symm ▸ Nat.one_pos))) :=
  chk_of_lt_37 _ (word_lt_v1 _ hH.1 _ _ _)
theorem hw38 {pf : pre1.Contents (Elt F)} (hH : Hyps1 pf) (i : grid1.Coords) : k1_chk38 (tbM1_1.view.readAt (Elt F) (Rect.unit (s := S8192) (k1_off91 i) S1.size (k1_off91_inb i)).toLoadRect (pf 1) (Shape.Idx.first (numel1_S1.symm ▸ Nat.one_pos))) :=
  chk_of_lt_38 _ (word_lt_v3 _ hH.2 _ _ _)
theorem hw39 {pf : pre1.Contents (Elt F)} (hH : Hyps1 pf) (i : grid1.Coords) : k1_chk39 (tbM1_0.view.readAt (Elt F) (Rect.unit (s := S8192) (k1_off96 i) S1.size (k1_off96_inb i)).toLoadRect (pf 0) (Shape.Idx.first (numel1_S1.symm ▸ Nat.one_pos))) :=
  chk_of_lt_39 _ (word_lt_v1 _ hH.1 _ _ _)
theorem hw40 {pf : pre1.Contents (Elt F)} (hH : Hyps1 pf) (i : grid1.Coords) : k1_chk40 (tbM1_1.view.readAt (Elt F) (Rect.unit (s := S8192) (k1_off96 i) S1.size (k1_off96_inb i)).toLoadRect (pf 1) (Shape.Idx.first (numel1_S1.symm ▸ Nat.one_pos))) :=
  chk_of_lt_40 _ (word_lt_v3 _ hH.2 _ _ _)
theorem hw41 {pf : pre1.Contents (Elt F)} (hH : Hyps1 pf) (i : grid1.Coords) : k1_chk41 (tbM1_0.view.readAt (Elt F) (Rect.unit (s := S8192) (k1_off101 i) S1.size (k1_off101_inb i)).toLoadRect (pf 0) (Shape.Idx.first (numel1_S1.symm ▸ Nat.one_pos))) :=
  chk_of_lt_41 _ (word_lt_v1 _ hH.1 _ _ _)
theorem hw42 {pf : pre1.Contents (Elt F)} (hH : Hyps1 pf) (i : grid1.Coords) : k1_chk42 (tbM1_1.view.readAt (Elt F) (Rect.unit (s := S8192) (k1_off101 i) S1.size (k1_off101_inb i)).toLoadRect (pf 1) (Shape.Idx.first (numel1_S1.symm ▸ Nat.one_pos))) :=
  chk_of_lt_42 _ (word_lt_v3 _ hH.2 _ _ _)
theorem hw43 {pf : pre1.Contents (Elt F)} (hH : Hyps1 pf) (i : grid1.Coords) : k1_chk43 (tbM1_0.view.readAt (Elt F) (Rect.unit (s := S8192) (k1_off106 i) S1.size (k1_off106_inb i)).toLoadRect (pf 0) (Shape.Idx.first (numel1_S1.symm ▸ Nat.one_pos))) :=
  chk_of_lt_43 _ (word_lt_v1 _ hH.1 _ _ _)
theorem hw44 {pf : pre1.Contents (Elt F)} (hH : Hyps1 pf) (i : grid1.Coords) : k1_chk44 (tbM1_1.view.readAt (Elt F) (Rect.unit (s := S8192) (k1_off106 i) S1.size (k1_off106_inb i)).toLoadRect (pf 1) (Shape.Idx.first (numel1_S1.symm ▸ Nat.one_pos))) :=
  chk_of_lt_44 _ (word_lt_v3 _ hH.2 _ _ _)
theorem hw45 {pf : pre1.Contents (Elt F)} (hH : Hyps1 pf) (i : grid1.Coords) : k1_chk45 (tbM1_0.view.readAt (Elt F) (Rect.unit (s := S8192) (k1_off111 i) S1.size (k1_off111_inb i)).toLoadRect (pf 0) (Shape.Idx.first (numel1_S1.symm ▸ Nat.one_pos))) :=
  chk_of_lt_45 _ (word_lt_v1 _ hH.1 _ _ _)
theorem hw46 {pf : pre1.Contents (Elt F)} (hH : Hyps1 pf) (i : grid1.Coords) : k1_chk46 (tbM1_1.view.readAt (Elt F) (Rect.unit (s := S8192) (k1_off111 i) S1.size (k1_off111_inb i)).toLoadRect (pf 1) (Shape.Idx.first (numel1_S1.symm ▸ Nat.one_pos))) :=
  chk_of_lt_46 _ (word_lt_v3 _ hH.2 _ _ _)
theorem hw47 {pf : pre1.Contents (Elt F)} (hH : Hyps1 pf) (i : grid1.Coords) : k1_chk47 (tbM1_0.view.readAt (Elt F) (Rect.unit (s := S8192) (k1_off116 i) S1.size (k1_off116_inb i)).toLoadRect (pf 0) (Shape.Idx.first (numel1_S1.symm ▸ Nat.one_pos))) :=
  chk_of_lt_47 _ (word_lt_v1 _ hH.1 _ _ _)
theorem hw48 {pf : pre1.Contents (Elt F)} (hH : Hyps1 pf) (i : grid1.Coords) : k1_chk48 (tbM1_1.view.readAt (Elt F) (Rect.unit (s := S8192) (k1_off116 i) S1.size (k1_off116_inb i)).toLoadRect (pf 1) (Shape.Idx.first (numel1_S1.symm ▸ Nat.one_pos))) :=
  chk_of_lt_48 _ (word_lt_v3 _ hH.2 _ _ _)
theorem hw49 {pf : pre1.Contents (Elt F)} (hH : Hyps1 pf) (i : grid1.Coords) : k1_chk49 (tbM1_0.view.readAt (Elt F) (Rect.unit (s := S8192) (k1_off121 i) S1.size (k1_off121_inb i)).toLoadRect (pf 0) (Shape.Idx.first (numel1_S1.symm ▸ Nat.one_pos))) :=
  chk_of_lt_49 _ (word_lt_v1 _ hH.1 _ _ _)
theorem hw50 {pf : pre1.Contents (Elt F)} (hH : Hyps1 pf) (i : grid1.Coords) : k1_chk50 (tbM1_1.view.readAt (Elt F) (Rect.unit (s := S8192) (k1_off121 i) S1.size (k1_off121_inb i)).toLoadRect (pf 1) (Shape.Idx.first (numel1_S1.symm ▸ Nat.one_pos))) :=
  chk_of_lt_50 _ (word_lt_v3 _ hH.2 _ _ _)
theorem hw51 {pf : pre1.Contents (Elt F)} (hH : Hyps1 pf) (i : grid1.Coords) : k1_chk51 (tbM1_0.view.readAt (Elt F) (Rect.unit (s := S8192) (k1_off126 i) S1.size (k1_off126_inb i)).toLoadRect (pf 0) (Shape.Idx.first (numel1_S1.symm ▸ Nat.one_pos))) :=
  chk_of_lt_51 _ (word_lt_v1 _ hH.1 _ _ _)
theorem hw52 {pf : pre1.Contents (Elt F)} (hH : Hyps1 pf) (i : grid1.Coords) : k1_chk52 (tbM1_1.view.readAt (Elt F) (Rect.unit (s := S8192) (k1_off126 i) S1.size (k1_off126_inb i)).toLoadRect (pf 1) (Shape.Idx.first (numel1_S1.symm ▸ Nat.one_pos))) :=
  chk_of_lt_52 _ (word_lt_v3 _ hH.2 _ _ _)
theorem hw53 {pf : pre1.Contents (Elt F)} (hH : Hyps1 pf) (i : grid1.Coords) : k1_chk53 (tbM1_0.view.readAt (Elt F) (Rect.unit (s := S8192) (k1_off131 i) S1.size (k1_off131_inb i)).toLoadRect (pf 0) (Shape.Idx.first (numel1_S1.symm ▸ Nat.one_pos))) :=
  chk_of_lt_53 _ (word_lt_v1 _ hH.1 _ _ _)
theorem hw54 {pf : pre1.Contents (Elt F)} (hH : Hyps1 pf) (i : grid1.Coords) : k1_chk54 (tbM1_1.view.readAt (Elt F) (Rect.unit (s := S8192) (k1_off131 i) S1.size (k1_off131_inb i)).toLoadRect (pf 1) (Shape.Idx.first (numel1_S1.symm ▸ Nat.one_pos))) :=
  chk_of_lt_54 _ (word_lt_v3 _ hH.2 _ _ _)
theorem hw55 {pf : pre1.Contents (Elt F)} (hH : Hyps1 pf) (i : grid1.Coords) : k1_chk55 (tbM1_0.view.readAt (Elt F) (Rect.unit (s := S8192) (k1_off136 i) S1.size (k1_off136_inb i)).toLoadRect (pf 0) (Shape.Idx.first (numel1_S1.symm ▸ Nat.one_pos))) :=
  chk_of_lt_55 _ (word_lt_v1 _ hH.1 _ _ _)
theorem hw56 {pf : pre1.Contents (Elt F)} (hH : Hyps1 pf) (i : grid1.Coords) : k1_chk56 (tbM1_1.view.readAt (Elt F) (Rect.unit (s := S8192) (k1_off136 i) S1.size (k1_off136_inb i)).toLoadRect (pf 1) (Shape.Idx.first (numel1_S1.symm ▸ Nat.one_pos))) :=
  chk_of_lt_56 _ (word_lt_v3 _ hH.2 _ _ _)
theorem hw57 {pf : pre1.Contents (Elt F)} (hH : Hyps1 pf) (i : grid1.Coords) : k1_chk57 (tbM1_0.view.readAt (Elt F) (Rect.unit (s := S8192) (k1_off141 i) S1.size (k1_off141_inb i)).toLoadRect (pf 0) (Shape.Idx.first (numel1_S1.symm ▸ Nat.one_pos))) :=
  chk_of_lt_57 _ (word_lt_v1 _ hH.1 _ _ _)
theorem hw58 {pf : pre1.Contents (Elt F)} (hH : Hyps1 pf) (i : grid1.Coords) : k1_chk58 (tbM1_1.view.readAt (Elt F) (Rect.unit (s := S8192) (k1_off141 i) S1.size (k1_off141_inb i)).toLoadRect (pf 1) (Shape.Idx.first (numel1_S1.symm ▸ Nat.one_pos))) :=
  chk_of_lt_58 _ (word_lt_v3 _ hH.2 _ _ _)
theorem hw59 {pf : pre1.Contents (Elt F)} (hH : Hyps1 pf) (i : grid1.Coords) : k1_chk59 (tbM1_0.view.readAt (Elt F) (Rect.unit (s := S8192) (k1_off146 i) S1.size (k1_off146_inb i)).toLoadRect (pf 0) (Shape.Idx.first (numel1_S1.symm ▸ Nat.one_pos))) :=
  chk_of_lt_59 _ (word_lt_v1 _ hH.1 _ _ _)
theorem hw60 {pf : pre1.Contents (Elt F)} (hH : Hyps1 pf) (i : grid1.Coords) : k1_chk60 (tbM1_1.view.readAt (Elt F) (Rect.unit (s := S8192) (k1_off146 i) S1.size (k1_off146_inb i)).toLoadRect (pf 1) (Shape.Idx.first (numel1_S1.symm ▸ Nat.one_pos))) :=
  chk_of_lt_60 _ (word_lt_v3 _ hH.2 _ _ _)
theorem hw61 {pf : pre1.Contents (Elt F)} (hH : Hyps1 pf) (i : grid1.Coords) : k1_chk61 (tbM1_0.view.readAt (Elt F) (Rect.unit (s := S8192) (k1_off151 i) S1.size (k1_off151_inb i)).toLoadRect (pf 0) (Shape.Idx.first (numel1_S1.symm ▸ Nat.one_pos))) :=
  chk_of_lt_61 _ (word_lt_v1 _ hH.1 _ _ _)
theorem hw62 {pf : pre1.Contents (Elt F)} (hH : Hyps1 pf) (i : grid1.Coords) : k1_chk62 (tbM1_1.view.readAt (Elt F) (Rect.unit (s := S8192) (k1_off151 i) S1.size (k1_off151_inb i)).toLoadRect (pf 1) (Shape.Idx.first (numel1_S1.symm ▸ Nat.one_pos))) :=
  chk_of_lt_62 _ (word_lt_v3 _ hH.2 _ _ _)
theorem hw63 {pf : pre1.Contents (Elt F)} (hH : Hyps1 pf) (i : grid1.Coords) : k1_chk63 (tbM1_0.view.readAt (Elt F) (Rect.unit (s := S8192) (k1_off156 i) S1.size (k1_off156_inb i)).toLoadRect (pf 0) (Shape.Idx.first (numel1_S1.symm ▸ Nat.one_pos))) :=
  chk_of_lt_63 _ (word_lt_v1 _ hH.1 _ _ _)
theorem hw64 {pf : pre1.Contents (Elt F)} (hH : Hyps1 pf) (i : grid1.Coords) : k1_chk64 (tbM1_1.view.readAt (Elt F) (Rect.unit (s := S8192) (k1_off156 i) S1.size (k1_off156_inb i)).toLoadRect (pf 1) (Shape.Idx.first (numel1_S1.symm ▸ Nat.one_pos))) :=
  chk_of_lt_64 _ (word_lt_v3 _ hH.2 _ _ _)
theorem hw65 {pf : pre1.Contents (Elt F)} (hH : Hyps1 pf) (i : grid1.Coords) : k1_chk65 (tbM1_0.view.readAt (Elt F) (Rect.unit (s := S8192) (k1_off161 i) S1.size (k1_off161_inb i)).toLoadRect (pf 0) (Shape.Idx.first (numel1_S1.symm ▸ Nat.one_pos))) :=
  chk_of_lt_65 _ (word_lt_v1 _ hH.1 _ _ _)
theorem hw66 {pf : pre1.Contents (Elt F)} (hH : Hyps1 pf) (i : grid1.Coords) : k1_chk66 (tbM1_1.view.readAt (Elt F) (Rect.unit (s := S8192) (k1_off161 i) S1.size (k1_off161_inb i)).toLoadRect (pf 1) (Shape.Idx.first (numel1_S1.symm ▸ Nat.one_pos))) :=
  chk_of_lt_66 _ (word_lt_v3 _ hH.2 _ _ _)
theorem hw67 {pf : pre1.Contents (Elt F)} (hH : Hyps1 pf) (i : grid1.Coords) : k1_chk67 (tbM1_0.view.readAt (Elt F) (Rect.unit (s := S8192) (k1_off166 i) S1.size (k1_off166_inb i)).toLoadRect (pf 0) (Shape.Idx.first (numel1_S1.symm ▸ Nat.one_pos))) :=
  chk_of_lt_67 _ (word_lt_v1 _ hH.1 _ _ _)
theorem hw68 {pf : pre1.Contents (Elt F)} (hH : Hyps1 pf) (i : grid1.Coords) : k1_chk68 (tbM1_1.view.readAt (Elt F) (Rect.unit (s := S8192) (k1_off166 i) S1.size (k1_off166_inb i)).toLoadRect (pf 1) (Shape.Idx.first (numel1_S1.symm ▸ Nat.one_pos))) :=
  chk_of_lt_68 _ (word_lt_v3 _ hH.2 _ _ _)
theorem hw69 {pf : pre1.Contents (Elt F)} (hH : Hyps1 pf) (i : grid1.Coords) : k1_chk69 (tbM1_0.view.readAt (Elt F) (Rect.unit (s := S8192) (k1_off171 i) S1.size (k1_off171_inb i)).toLoadRect (pf 0) (Shape.Idx.first (numel1_S1.symm ▸ Nat.one_pos))) :=
  chk_of_lt_69 _ (word_lt_v1 _ hH.1 _ _ _)
theorem hw70 {pf : pre1.Contents (Elt F)} (hH : Hyps1 pf) (i : grid1.Coords) : k1_chk70 (tbM1_1.view.readAt (Elt F) (Rect.unit (s := S8192) (k1_off171 i) S1.size (k1_off171_inb i)).toLoadRect (pf 1) (Shape.Idx.first (numel1_S1.symm ▸ Nat.one_pos))) :=
  chk_of_lt_70 _ (word_lt_v3 _ hH.2 _ _ _)
theorem hw71 {pf : pre1.Contents (Elt F)} (hH : Hyps1 pf) (i : grid1.Coords) : k1_chk71 (tbM1_0.view.readAt (Elt F) (Rect.unit (s := S8192) (k1_off176 i) S1.size (k1_off176_inb i)).toLoadRect (pf 0) (Shape.Idx.first (numel1_S1.symm ▸ Nat.one_pos))) :=
  chk_of_lt_71 _ (word_lt_v1 _ hH.1 _ _ _)
theorem hw72 {pf : pre1.Contents (Elt F)} (hH : Hyps1 pf) (i : grid1.Coords) : k1_chk72 (tbM1_1.view.readAt (Elt F) (Rect.unit (s := S8192) (k1_off176 i) S1.size (k1_off176_inb i)).toLoadRect (pf 1) (Shape.Idx.first (numel1_S1.symm ▸ Nat.one_pos))) :=
  chk_of_lt_72 _ (word_lt_v3 _ hH.2 _ _ _)
theorem hw73 {pf : pre1.Contents (Elt F)} (hH : Hyps1 pf) (i : grid1.Coords) : k1_chk73 (tbM1_0.view.readAt (Elt F) (Rect.unit (s := S8192) (k1_off181 i) S1.size (k1_off181_inb i)).toLoadRect (pf 0) (Shape.Idx.first (numel1_S1.symm ▸ Nat.one_pos))) :=
  chk_of_lt_73 _ (word_lt_v1 _ hH.1 _ _ _)
theorem hw74 {pf : pre1.Contents (Elt F)} (hH : Hyps1 pf) (i : grid1.Coords) : k1_chk74 (tbM1_1.view.readAt (Elt F) (Rect.unit (s := S8192) (k1_off181 i) S1.size (k1_off181_inb i)).toLoadRect (pf 1) (Shape.Idx.first (numel1_S1.symm ▸ Nat.one_pos))) :=
  chk_of_lt_74 _ (word_lt_v3 _ hH.2 _ _ _)
theorem hw75 {pf : pre1.Contents (Elt F)} (hH : Hyps1 pf) (i : grid1.Coords) : k1_chk75 (tbM1_0.view.readAt (Elt F) (Rect.unit (s := S8192) (k1_off186 i) S1.size (k1_off186_inb i)).toLoadRect (pf 0) (Shape.Idx.first (numel1_S1.symm ▸ Nat.one_pos))) :=
  chk_of_lt_75 _ (word_lt_v1 _ hH.1 _ _ _)
theorem hw76 {pf : pre1.Contents (Elt F)} (hH : Hyps1 pf) (i : grid1.Coords) : k1_chk76 (tbM1_1.view.readAt (Elt F) (Rect.unit (s := S8192) (k1_off186 i) S1.size (k1_off186_inb i)).toLoadRect (pf 1) (Shape.Idx.first (numel1_S1.symm ▸ Nat.one_pos))) :=
  chk_of_lt_76 _ (word_lt_v3 _ hH.2 _ _ _)
theorem hw77 {pf : pre1.Contents (Elt F)} (hH : Hyps1 pf) (i : grid1.Coords) : k1_chk77 (tbM1_0.view.readAt (Elt F) (Rect.unit (s := S8192) (k1_off191 i) S1.size (k1_off191_inb i)).toLoadRect (pf 0) (Shape.Idx.first (numel1_S1.symm ▸ Nat.one_pos))) :=
  chk_of_lt_77 _ (word_lt_v1 _ hH.1 _ _ _)
theorem hw78 {pf : pre1.Contents (Elt F)} (hH : Hyps1 pf) (i : grid1.Coords) : k1_chk78 (tbM1_1.view.readAt (Elt F) (Rect.unit (s := S8192) (k1_off191 i) S1.size (k1_off191_inb i)).toLoadRect (pf 1) (Shape.Idx.first (numel1_S1.symm ▸ Nat.one_pos))) :=
  chk_of_lt_78 _ (word_lt_v3 _ hH.2 _ _ _)
theorem hw79 {pf : pre1.Contents (Elt F)} (hH : Hyps1 pf) (i : grid1.Coords) : k1_chk79 (tbM1_0.view.readAt (Elt F) (Rect.unit (s := S8192) (k1_off196 i) S1.size (k1_off196_inb i)).toLoadRect (pf 0) (Shape.Idx.first (numel1_S1.symm ▸ Nat.one_pos))) :=
  chk_of_lt_79 _ (word_lt_v1 _ hH.1 _ _ _)
theorem hw80 {pf : pre1.Contents (Elt F)} (hH : Hyps1 pf) (i : grid1.Coords) : k1_chk80 (tbM1_1.view.readAt (Elt F) (Rect.unit (s := S8192) (k1_off196 i) S1.size (k1_off196_inb i)).toLoadRect (pf 1) (Shape.Idx.first (numel1_S1.symm ▸ Nat.one_pos))) :=
  chk_of_lt_80 _ (word_lt_v3 _ hH.2 _ _ _)
theorem hw81 {pf : pre1.Contents (Elt F)} (hH : Hyps1 pf) (i : grid1.Coords) : k1_chk81 (tbM1_0.view.readAt (Elt F) (Rect.unit (s := S8192) (k1_off201 i) S1.size (k1_off201_inb i)).toLoadRect (pf 0) (Shape.Idx.first (numel1_S1.symm ▸ Nat.one_pos))) :=
  chk_of_lt_81 _ (word_lt_v1 _ hH.1 _ _ _)
theorem hw82 {pf : pre1.Contents (Elt F)} (hH : Hyps1 pf) (i : grid1.Coords) : k1_chk82 (tbM1_1.view.readAt (Elt F) (Rect.unit (s := S8192) (k1_off201 i) S1.size (k1_off201_inb i)).toLoadRect (pf 1) (Shape.Idx.first (numel1_S1.symm ▸ Nat.one_pos))) :=
  chk_of_lt_82 _ (word_lt_v3 _ hH.2 _ _ _)
theorem hw83 {pf : pre1.Contents (Elt F)} (hH : Hyps1 pf) (i : grid1.Coords) : k1_chk83 (tbM1_0.view.readAt (Elt F) (Rect.unit (s := S8192) (k1_off206 i) S1.size (k1_off206_inb i)).toLoadRect (pf 0) (Shape.Idx.first (numel1_S1.symm ▸ Nat.one_pos))) :=
  chk_of_lt_83 _ (word_lt_v1 _ hH.1 _ _ _)
theorem hw84 {pf : pre1.Contents (Elt F)} (hH : Hyps1 pf) (i : grid1.Coords) : k1_chk84 (tbM1_1.view.readAt (Elt F) (Rect.unit (s := S8192) (k1_off206 i) S1.size (k1_off206_inb i)).toLoadRect (pf 1) (Shape.Idx.first (numel1_S1.symm ▸ Nat.one_pos))) :=
  chk_of_lt_84 _ (word_lt_v3 _ hH.2 _ _ _)
theorem hw85 {pf : pre1.Contents (Elt F)} (hH : Hyps1 pf) (i : grid1.Coords) : k1_chk85 (tbM1_0.view.readAt (Elt F) (Rect.unit (s := S8192) (k1_off211 i) S1.size (k1_off211_inb i)).toLoadRect (pf 0) (Shape.Idx.first (numel1_S1.symm ▸ Nat.one_pos))) :=
  chk_of_lt_85 _ (word_lt_v1 _ hH.1 _ _ _)
theorem hw86 {pf : pre1.Contents (Elt F)} (hH : Hyps1 pf) (i : grid1.Coords) : k1_chk86 (tbM1_1.view.readAt (Elt F) (Rect.unit (s := S8192) (k1_off211 i) S1.size (k1_off211_inb i)).toLoadRect (pf 1) (Shape.Idx.first (numel1_S1.symm ▸ Nat.one_pos))) :=
  chk_of_lt_86 _ (word_lt_v3 _ hH.2 _ _ _)
theorem hw87 {pf : pre1.Contents (Elt F)} (hH : Hyps1 pf) (i : grid1.Coords) : k1_chk87 (tbM1_0.view.readAt (Elt F) (Rect.unit (s := S8192) (k1_off216 i) S1.size (k1_off216_inb i)).toLoadRect (pf 0) (Shape.Idx.first (numel1_S1.symm ▸ Nat.one_pos))) :=
  chk_of_lt_87 _ (word_lt_v1 _ hH.1 _ _ _)
theorem hw88 {pf : pre1.Contents (Elt F)} (hH : Hyps1 pf) (i : grid1.Coords) : k1_chk88 (tbM1_1.view.readAt (Elt F) (Rect.unit (s := S8192) (k1_off216 i) S1.size (k1_off216_inb i)).toLoadRect (pf 1) (Shape.Idx.first (numel1_S1.symm ▸ Nat.one_pos))) :=
  chk_of_lt_88 _ (word_lt_v3 _ hH.2 _ _ _)
theorem hw89 {pf : pre1.Contents (Elt F)} (hH : Hyps1 pf) (i : grid1.Coords) : k1_chk89 (tbM1_0.view.readAt (Elt F) (Rect.unit (s := S8192) (k1_off221 i) S1.size (k1_off221_inb i)).toLoadRect (pf 0) (Shape.Idx.first (numel1_S1.symm ▸ Nat.one_pos))) :=
  chk_of_lt_89 _ (word_lt_v1 _ hH.1 _ _ _)
theorem hw90 {pf : pre1.Contents (Elt F)} (hH : Hyps1 pf) (i : grid1.Coords) : k1_chk90 (tbM1_1.view.readAt (Elt F) (Rect.unit (s := S8192) (k1_off221 i) S1.size (k1_off221_inb i)).toLoadRect (pf 1) (Shape.Idx.first (numel1_S1.symm ▸ Nat.one_pos))) :=
  chk_of_lt_90 _ (word_lt_v3 _ hH.2 _ _ _)
theorem hw91 {pf : pre1.Contents (Elt F)} (hH : Hyps1 pf) (i : grid1.Coords) : k1_chk91 (tbM1_0.view.readAt (Elt F) (Rect.unit (s := S8192) (k1_off226 i) S1.size (k1_off226_inb i)).toLoadRect (pf 0) (Shape.Idx.first (numel1_S1.symm ▸ Nat.one_pos))) :=
  chk_of_lt_91 _ (word_lt_v1 _ hH.1 _ _ _)
theorem hw92 {pf : pre1.Contents (Elt F)} (hH : Hyps1 pf) (i : grid1.Coords) : k1_chk92 (tbM1_1.view.readAt (Elt F) (Rect.unit (s := S8192) (k1_off226 i) S1.size (k1_off226_inb i)).toLoadRect (pf 1) (Shape.Idx.first (numel1_S1.symm ▸ Nat.one_pos))) :=
  chk_of_lt_92 _ (word_lt_v3 _ hH.2 _ _ _)
theorem hw93 {pf : pre1.Contents (Elt F)} (hH : Hyps1 pf) (i : grid1.Coords) : k1_chk93 (tbM1_0.view.readAt (Elt F) (Rect.unit (s := S8192) (k1_off231 i) S1.size (k1_off231_inb i)).toLoadRect (pf 0) (Shape.Idx.first (numel1_S1.symm ▸ Nat.one_pos))) :=
  chk_of_lt_93 _ (word_lt_v1 _ hH.1 _ _ _)
theorem hw94 {pf : pre1.Contents (Elt F)} (hH : Hyps1 pf) (i : grid1.Coords) : k1_chk94 (tbM1_1.view.readAt (Elt F) (Rect.unit (s := S8192) (k1_off231 i) S1.size (k1_off231_inb i)).toLoadRect (pf 1) (Shape.Idx.first (numel1_S1.symm ▸ Nat.one_pos))) :=
  chk_of_lt_94 _ (word_lt_v3 _ hH.2 _ _ _)
theorem hw95 {pf : pre1.Contents (Elt F)} (hH : Hyps1 pf) (i : grid1.Coords) : k1_chk95 (tbM1_0.view.readAt (Elt F) (Rect.unit (s := S8192) (k1_off236 i) S1.size (k1_off236_inb i)).toLoadRect (pf 0) (Shape.Idx.first (numel1_S1.symm ▸ Nat.one_pos))) :=
  chk_of_lt_95 _ (word_lt_v1 _ hH.1 _ _ _)
theorem hw96 {pf : pre1.Contents (Elt F)} (hH : Hyps1 pf) (i : grid1.Coords) : k1_chk96 (tbM1_1.view.readAt (Elt F) (Rect.unit (s := S8192) (k1_off236 i) S1.size (k1_off236_inb i)).toLoadRect (pf 1) (Shape.Idx.first (numel1_S1.symm ▸ Nat.one_pos))) :=
  chk_of_lt_96 _ (word_lt_v3 _ hH.2 _ _ _)
theorem hw97 {pf : pre1.Contents (Elt F)} (hH : Hyps1 pf) (i : grid1.Coords) : k1_chk97 (tbM1_0.view.readAt (Elt F) (Rect.unit (s := S8192) (k1_off241 i) S1.size (k1_off241_inb i)).toLoadRect (pf 0) (Shape.Idx.first (numel1_S1.symm ▸ Nat.one_pos))) :=
  chk_of_lt_97 _ (word_lt_v1 _ hH.1 _ _ _)
theorem hw98 {pf : pre1.Contents (Elt F)} (hH : Hyps1 pf) (i : grid1.Coords) : k1_chk98 (tbM1_1.view.readAt (Elt F) (Rect.unit (s := S8192) (k1_off241 i) S1.size (k1_off241_inb i)).toLoadRect (pf 1) (Shape.Idx.first (numel1_S1.symm ▸ Nat.one_pos))) :=
  chk_of_lt_98 _ (word_lt_v3 _ hH.2 _ _ _)
theorem hw99 {pf : pre1.Contents (Elt F)} (hH : Hyps1 pf) (i : grid1.Coords) : k1_chk99 (tbM1_0.view.readAt (Elt F) (Rect.unit (s := S8192) (k1_off246 i) S1.size (k1_off246_inb i)).toLoadRect (pf 0) (Shape.Idx.first (numel1_S1.symm ▸ Nat.one_pos))) :=
  chk_of_lt_99 _ (word_lt_v1 _ hH.1 _ _ _)
theorem hw100 {pf : pre1.Contents (Elt F)} (hH : Hyps1 pf) (i : grid1.Coords) : k1_chk100 (tbM1_1.view.readAt (Elt F) (Rect.unit (s := S8192) (k1_off246 i) S1.size (k1_off246_inb i)).toLoadRect (pf 1) (Shape.Idx.first (numel1_S1.symm ▸ Nat.one_pos))) :=
  chk_of_lt_100 _ (word_lt_v3 _ hH.2 _ _ _)
theorem hw101 {pf : pre1.Contents (Elt F)} (hH : Hyps1 pf) (i : grid1.Coords) : k1_chk101 (tbM1_0.view.readAt (Elt F) (Rect.unit (s := S8192) (k1_off251 i) S1.size (k1_off251_inb i)).toLoadRect (pf 0) (Shape.Idx.first (numel1_S1.symm ▸ Nat.one_pos))) :=
  chk_of_lt_101 _ (word_lt_v1 _ hH.1 _ _ _)
theorem hw102 {pf : pre1.Contents (Elt F)} (hH : Hyps1 pf) (i : grid1.Coords) : k1_chk102 (tbM1_1.view.readAt (Elt F) (Rect.unit (s := S8192) (k1_off251 i) S1.size (k1_off251_inb i)).toLoadRect (pf 1) (Shape.Idx.first (numel1_S1.symm ▸ Nat.one_pos))) :=
  chk_of_lt_102 _ (word_lt_v3 _ hH.2 _ _ _)
theorem hw103 {pf : pre1.Contents (Elt F)} (hH : Hyps1 pf) (i : grid1.Coords) : k1_chk103 (tbM1_0.view.readAt (Elt F) (Rect.unit (s := S8192) (k1_off256 i) S1.size (k1_off256_inb i)).toLoadRect (pf 0) (Shape.Idx.first (numel1_S1.symm ▸ Nat.one_pos))) :=
  chk_of_lt_103 _ (word_lt_v1 _ hH.1 _ _ _)
theorem hw104 {pf : pre1.Contents (Elt F)} (hH : Hyps1 pf) (i : grid1.Coords) : k1_chk104 (tbM1_1.view.readAt (Elt F) (Rect.unit (s := S8192) (k1_off256 i) S1.size (k1_off256_inb i)).toLoadRect (pf 1) (Shape.Idx.first (numel1_S1.symm ▸ Nat.one_pos))) :=
  chk_of_lt_104 _ (word_lt_v3 _ hH.2 _ _ _)
theorem hw105 {pf : pre1.Contents (Elt F)} (hH : Hyps1 pf) (i : grid1.Coords) : k1_chk105 (tbM1_0.view.readAt (Elt F) (Rect.unit (s := S8192) (k1_off261 i) S1.size (k1_off261_inb i)).toLoadRect (pf 0) (Shape.Idx.first (numel1_S1.symm ▸ Nat.one_pos))) :=
  chk_of_lt_105 _ (word_lt_v1 _ hH.1 _ _ _)
theorem hw106 {pf : pre1.Contents (Elt F)} (hH : Hyps1 pf) (i : grid1.Coords) : k1_chk106 (tbM1_1.view.readAt (Elt F) (Rect.unit (s := S8192) (k1_off261 i) S1.size (k1_off261_inb i)).toLoadRect (pf 1) (Shape.Idx.first (numel1_S1.symm ▸ Nat.one_pos))) :=
  chk_of_lt_106 _ (word_lt_v3 _ hH.2 _ _ _)
theorem hw107 {pf : pre1.Contents (Elt F)} (hH : Hyps1 pf) (i : grid1.Coords) : k1_chk107 (tbM1_0.view.readAt (Elt F) (Rect.unit (s := S8192) (k1_off266 i) S1.size (k1_off266_inb i)).toLoadRect (pf 0) (Shape.Idx.first (numel1_S1.symm ▸ Nat.one_pos))) :=
  chk_of_lt_107 _ (word_lt_v1 _ hH.1 _ _ _)
theorem hw108 {pf : pre1.Contents (Elt F)} (hH : Hyps1 pf) (i : grid1.Coords) : k1_chk108 (tbM1_1.view.readAt (Elt F) (Rect.unit (s := S8192) (k1_off266 i) S1.size (k1_off266_inb i)).toLoadRect (pf 1) (Shape.Idx.first (numel1_S1.symm ▸ Nat.one_pos))) :=
  chk_of_lt_108 _ (word_lt_v3 _ hH.2 _ _ _)
theorem hw109 {pf : pre1.Contents (Elt F)} (hH : Hyps1 pf) (i : grid1.Coords) : k1_chk109 (tbM1_0.view.readAt (Elt F) (Rect.unit (s := S8192) (k1_off271 i) S1.size (k1_off271_inb i)).toLoadRect (pf 0) (Shape.Idx.first (numel1_S1.symm ▸ Nat.one_pos))) :=
  chk_of_lt_109 _ (word_lt_v1 _ hH.1 _ _ _)
theorem hw110 {pf : pre1.Contents (Elt F)} (hH : Hyps1 pf) (i : grid1.Coords) : k1_chk110 (tbM1_1.view.readAt (Elt F) (Rect.unit (s := S8192) (k1_off271 i) S1.size (k1_off271_inb i)).toLoadRect (pf 1) (Shape.Idx.first (numel1_S1.symm ▸ Nat.one_pos))) :=
  chk_of_lt_110 _ (word_lt_v3 _ hH.2 _ _ _)
theorem hw111 {pf : pre1.Contents (Elt F)} (hH : Hyps1 pf) (i : grid1.Coords) : k1_chk111 (tbM1_0.view.readAt (Elt F) (Rect.unit (s := S8192) (k1_off276 i) S1.size (k1_off276_inb i)).toLoadRect (pf 0) (Shape.Idx.first (numel1_S1.symm ▸ Nat.one_pos))) :=
  chk_of_lt_111 _ (word_lt_v1 _ hH.1 _ _ _)
theorem hw112 {pf : pre1.Contents (Elt F)} (hH : Hyps1 pf) (i : grid1.Coords) : k1_chk112 (tbM1_1.view.readAt (Elt F) (Rect.unit (s := S8192) (k1_off276 i) S1.size (k1_off276_inb i)).toLoadRect (pf 1) (Shape.Idx.first (numel1_S1.symm ▸ Nat.one_pos))) :=
  chk_of_lt_112 _ (word_lt_v3 _ hH.2 _ _ _)
theorem hw113 {pf : pre1.Contents (Elt F)} (hH : Hyps1 pf) (i : grid1.Coords) : k1_chk113 (tbM1_0.view.readAt (Elt F) (Rect.unit (s := S8192) (k1_off281 i) S1.size (k1_off281_inb i)).toLoadRect (pf 0) (Shape.Idx.first (numel1_S1.symm ▸ Nat.one_pos))) :=
  chk_of_lt_113 _ (word_lt_v1 _ hH.1 _ _ _)
theorem hw114 {pf : pre1.Contents (Elt F)} (hH : Hyps1 pf) (i : grid1.Coords) : k1_chk114 (tbM1_1.view.readAt (Elt F) (Rect.unit (s := S8192) (k1_off281 i) S1.size (k1_off281_inb i)).toLoadRect (pf 1) (Shape.Idx.first (numel1_S1.symm ▸ Nat.one_pos))) :=
  chk_of_lt_114 _ (word_lt_v3 _ hH.2 _ _ _)
theorem hw115 {pf : pre1.Contents (Elt F)} (hH : Hyps1 pf) (i : grid1.Coords) : k1_chk115 (tbM1_0.view.readAt (Elt F) (Rect.unit (s := S8192) (k1_off286 i) S1.size (k1_off286_inb i)).toLoadRect (pf 0) (Shape.Idx.first (numel1_S1.symm ▸ Nat.one_pos))) :=
  chk_of_lt_115 _ (word_lt_v1 _ hH.1 _ _ _)
theorem hw116 {pf : pre1.Contents (Elt F)} (hH : Hyps1 pf) (i : grid1.Coords) : k1_chk116 (tbM1_1.view.readAt (Elt F) (Rect.unit (s := S8192) (k1_off286 i) S1.size (k1_off286_inb i)).toLoadRect (pf 1) (Shape.Idx.first (numel1_S1.symm ▸ Nat.one_pos))) :=
  chk_of_lt_116 _ (word_lt_v3 _ hH.2 _ _ _)
theorem hw117 {pf : pre1.Contents (Elt F)} (hH : Hyps1 pf) (i : grid1.Coords) : k1_chk117 (tbM1_0.view.readAt (Elt F) (Rect.unit (s := S8192) (k1_off291 i) S1.size (k1_off291_inb i)).toLoadRect (pf 0) (Shape.Idx.first (numel1_S1.symm ▸ Nat.one_pos))) :=
  chk_of_lt_117 _ (word_lt_v1 _ hH.1 _ _ _)
theorem hw118 {pf : pre1.Contents (Elt F)} (hH : Hyps1 pf) (i : grid1.Coords) : k1_chk118 (tbM1_1.view.readAt (Elt F) (Rect.unit (s := S8192) (k1_off291 i) S1.size (k1_off291_inb i)).toLoadRect (pf 1) (Shape.Idx.first (numel1_S1.symm ▸ Nat.one_pos))) :=
  chk_of_lt_118 _ (word_lt_v3 _ hH.2 _ _ _)
theorem hw119 {pf : pre1.Contents (Elt F)} (hH : Hyps1 pf) (i : grid1.Coords) : k1_chk119 (tbM1_0.view.readAt (Elt F) (Rect.unit (s := S8192) (k1_off296 i) S1.size (k1_off296_inb i)).toLoadRect (pf 0) (Shape.Idx.first (numel1_S1.symm ▸ Nat.one_pos))) :=
  chk_of_lt_119 _ (word_lt_v1 _ hH.1 _ _ _)
theorem hw120 {pf : pre1.Contents (Elt F)} (hH : Hyps1 pf) (i : grid1.Coords) : k1_chk120 (tbM1_1.view.readAt (Elt F) (Rect.unit (s := S8192) (k1_off296 i) S1.size (k1_off296_inb i)).toLoadRect (pf 1) (Shape.Idx.first (numel1_S1.symm ▸ Nat.one_pos))) :=
  chk_of_lt_120 _ (word_lt_v3 _ hH.2 _ _ _)
theorem hw121 {pf : pre1.Contents (Elt F)} (hH : Hyps1 pf) (i : grid1.Coords) : k1_chk121 (tbM1_0.view.readAt (Elt F) (Rect.unit (s := S8192) (k1_off301 i) S1.size (k1_off301_inb i)).toLoadRect (pf 0) (Shape.Idx.first (numel1_S1.symm ▸ Nat.one_pos))) :=
  chk_of_lt_121 _ (word_lt_v1 _ hH.1 _ _ _)
theorem hw122 {pf : pre1.Contents (Elt F)} (hH : Hyps1 pf) (i : grid1.Coords) : k1_chk122 (tbM1_1.view.readAt (Elt F) (Rect.unit (s := S8192) (k1_off301 i) S1.size (k1_off301_inb i)).toLoadRect (pf 1) (Shape.Idx.first (numel1_S1.symm ▸ Nat.one_pos))) :=
  chk_of_lt_122 _ (word_lt_v3 _ hH.2 _ _ _)
theorem hw123 {pf : pre1.Contents (Elt F)} (hH : Hyps1 pf) (i : grid1.Coords) : k1_chk123 (tbM1_0.view.readAt (Elt F) (Rect.unit (s := S8192) (k1_off306 i) S1.size (k1_off306_inb i)).toLoadRect (pf 0) (Shape.Idx.first (numel1_S1.symm ▸ Nat.one_pos))) :=
  chk_of_lt_123 _ (word_lt_v1 _ hH.1 _ _ _)
theorem hw124 {pf : pre1.Contents (Elt F)} (hH : Hyps1 pf) (i : grid1.Coords) : k1_chk124 (tbM1_1.view.readAt (Elt F) (Rect.unit (s := S8192) (k1_off306 i) S1.size (k1_off306_inb i)).toLoadRect (pf 1) (Shape.Idx.first (numel1_S1.symm ▸ Nat.one_pos))) :=
  chk_of_lt_124 _ (word_lt_v3 _ hH.2 _ _ _)
theorem hw125 {pf : pre1.Contents (Elt F)} (hH : Hyps1 pf) (i : grid1.Coords) : k1_chk125 (tbM1_0.view.readAt (Elt F) (Rect.unit (s := S8192) (k1_off311 i) S1.size (k1_off311_inb i)).toLoadRect (pf 0) (Shape.Idx.first (numel1_S1.symm ▸ Nat.one_pos))) :=
  chk_of_lt_125 _ (word_lt_v1 _ hH.1 _ _ _)
theorem hw126 {pf : pre1.Contents (Elt F)} (hH : Hyps1 pf) (i : grid1.Coords) : k1_chk126 (tbM1_1.view.readAt (Elt F) (Rect.unit (s := S8192) (k1_off311 i) S1.size (k1_off311_inb i)).toLoadRect (pf 1) (Shape.Idx.first (numel1_S1.symm ▸ Nat.one_pos))) :=
  chk_of_lt_126 _ (word_lt_v3 _ hH.2 _ _ _)
theorem hw127 {pf : pre1.Contents (Elt F)} (hH : Hyps1 pf) (i : grid1.Coords) : k1_chk127 (tbM1_0.view.readAt (Elt F) (Rect.unit (s := S8192) (k1_off316 i) S1.size (k1_off316_inb i)).toLoadRect (pf 0) (Shape.Idx.first (numel1_S1.symm ▸ Nat.one_pos))) :=
  chk_of_lt_127 _ (word_lt_v1 _ hH.1 _ _ _)
theorem hw128 {pf : pre1.Contents (Elt F)} (hH : Hyps1 pf) (i : grid1.Coords) : k1_chk128 (tbM1_1.view.readAt (Elt F) (Rect.unit (s := S8192) (k1_off316 i) S1.size (k1_off316_inb i)).toLoadRect (pf 1) (Shape.Idx.first (numel1_S1.symm ▸ Nat.one_pos))) :=
  chk_of_lt_128 _ (word_lt_v3 _ hH.2 _ _ _)

/-! ## The body at a point -/

/-- Each window's current staging memref at a point, as the pipeline passes it to the body, and its wholeness. -/
abbrev ms1_0 (t : Fin (cfg1 a1).N) : Memref sig .tc .vmem S8192x256 .f32 := spec1_0.stage ((cfg1 a1).slots t 0)
abbrev hs1_0 (t : Fin (cfg1 a1).N) : (ms1_0 a1 t).IsWhole := hstage1_0 (((cfg1 a1).slots t 0).cast nbuf1_0)
abbrev ms1_1 (t : Fin (cfg1 a1).N) : Memref sig .tc .vmem S8192x256 .f32 := spec1_1.stage ((cfg1 a1).slots t 1)
abbrev hs1_1 (t : Fin (cfg1 a1).N) : (ms1_1 a1 t).IsWhole := hstage1_1 (((cfg1 a1).slots t 1).cast nbuf1_1)
abbrev ms1_2 (t : Fin (cfg1 a1).N) : Memref sig .tc .vmem S256x256 .f32 := spec1_2.stage ((cfg1 a1).slots t 2)
abbrev hs1_2 (t : Fin (cfg1 a1).N) : (ms1_2 a1 t).IsWhole := hstage1_2 (((cfg1 a1).slots t 2).cast nbuf1_2)
abbrev ms1_3 (t : Fin (cfg1 a1).N) : Memref sig .tc .vmem S1x256 .f32 := spec1_3.stage ((cfg1 a1).slots t 3)
abbrev hs1_3 (t : Fin (cfg1 a1).N) : (ms1_3 a1 t).IsWhole := hstage1_3 (((cfg1 a1).slots t 3).cast nbuf1_3)
abbrev ms1_4 (t : Fin (cfg1 a1).N) : Memref sig .tc .vmem S256x256 .f32 := spec1_4.stage ((cfg1 a1).slots t 4)
abbrev hs1_4 (t : Fin (cfg1 a1).N) : (ms1_4 a1 t).IsWhole := hstage1_4 (((cfg1 a1).slots t 4).cast nbuf1_4)
abbrev ms1_5 (t : Fin (cfg1 a1).N) : Memref sig .tc .vmem S1x256 .f32 := spec1_5.stage ((cfg1 a1).slots t 5)
abbrev hs1_5 (t : Fin (cfg1 a1).N) : (ms1_5 a1 t).IsWhole := hstage1_5 (((cfg1 a1).slots t 5).cast nbuf1_5)
abbrev ms1_6 (t : Fin (cfg1 a1).N) : Memref sig .tc .vmem S256x256 .f32 := spec1_6.stage ((cfg1 a1).slots t 6)
abbrev hs1_6 (t : Fin (cfg1 a1).N) : (ms1_6 a1 t).IsWhole := hstage1_6 (((cfg1 a1).slots t 6).cast nbuf1_6)
abbrev ms1_7 (t : Fin (cfg1 a1).N) : Memref sig .tc .vmem S1x256 .f32 := spec1_7.stage ((cfg1 a1).slots t 7)
abbrev hs1_7 (t : Fin (cfg1 a1).N) : (ms1_7 a1 t).IsWhole := hstage1_7 (((cfg1 a1).slots t 7).cast nbuf1_7)
abbrev ms1_8 (t : Fin (cfg1 a1).N) : Memref sig .tc .vmem S256x256 .f32 := spec1_8.stage ((cfg1 a1).slots t 8)
abbrev hs1_8 (t : Fin (cfg1 a1).N) : (ms1_8 a1 t).IsWhole := hstage1_8 (((cfg1 a1).slots t 8).cast nbuf1_8)
abbrev ms1_9 (t : Fin (cfg1 a1).N) : Memref sig .tc .vmem S1x256 .f32 := spec1_9.stage ((cfg1 a1).slots t 9)
abbrev hs1_9 (t : Fin (cfg1 a1).N) : (ms1_9 a1 t).IsWhole := hstage1_9 (((cfg1 a1).slots t 9).cast nbuf1_9)
abbrev ms1_10 (t : Fin (cfg1 a1).N) : Memref sig .tc .vmem S256x1 .f32 := spec1_10.stage ((cfg1 a1).slots t 10)
abbrev hs1_10 (t : Fin (cfg1 a1).N) : (ms1_10 a1 t).IsWhole := hstage1_10 (((cfg1 a1).slots t 10).cast nbuf1_10)
abbrev ms1_11 (t : Fin (cfg1 a1).N) : Memref sig .tc .vmem S1x1 .f32 := spec1_11.stage ((cfg1 a1).slots t 11)
abbrev hs1_11 (t : Fin (cfg1 a1).N) : (ms1_11 a1 t).IsWhole := hstage1_11 (((cfg1 a1).slots t 11).cast nbuf1_11)
abbrev ms1_12 (t : Fin (cfg1 a1).N) : Memref sig .tc .vmem S1x1 .f32 := spec1_12.stage ((cfg1 a1).slots t 12)
abbrev hs1_12 (t : Fin (cfg1 a1).N) : (ms1_12 a1 t).IsWhole := hstage1_12 (((cfg1 a1).slots t 12).cast nbuf1_12)
abbrev ms1_13 (t : Fin (cfg1 a1).N) : Memref sig .tc .vmem S64x1 .f32 := spec1_13.stage ((cfg1 a1).slots t 13)
abbrev hs1_13 (t : Fin (cfg1 a1).N) : (ms1_13 a1 t).IsWhole := hstage1_13 (((cfg1 a1).slots t 13).cast nbuf1_13)
/-- The body as the pipeline calls it at a point: the tables and the adjacency array whole, each window's current staging memref,
    the four scratch buffers whole, the two banks of semaphores. -/
abbrev bodyAt1 (t : Fin (cfg1 a1).N) : Prog (TpuEff nD τ sig (Elt F) Λ₀ .tc) PUnit :=
  cc1__main_kernel (grid1.coords t) (Memref.whole main_v1) (Memref.isWhole_whole _) (Memref.whole main_v3) (Memref.isWhole_whole _) (spec1_0.stage ((cfg1 a1).slots t 0)) (hstage1_0 (((cfg1 a1).slots t 0).cast nbuf1_0)) (spec1_1.stage ((cfg1 a1).slots t 1)) (hstage1_1 (((cfg1 a1).slots t 1).cast nbuf1_1)) (Memref.whole main_arg1) (Memref.isWhole_whole _) (spec1_2.stage ((cfg1 a1).slots t 2)) (hstage1_2 (((cfg1 a1).slots t 2).cast nbuf1_2)) (spec1_3.stage ((cfg1 a1).slots t 3)) (hstage1_3 (((cfg1 a1).slots t 3).cast nbuf1_3)) (spec1_4.stage ((cfg1 a1).slots t 4)) (hstage1_4 (((cfg1 a1).slots t 4).cast nbuf1_4)) (spec1_5.stage ((cfg1 a1).slots t 5)) (hstage1_5 (((cfg1 a1).slots t 5).cast nbuf1_5)) (spec1_6.stage ((cfg1 a1).slots t 6)) (hstage1_6 (((cfg1 a1).slots t 6).cast nbuf1_6)) (spec1_7.stage ((cfg1 a1).slots t 7)) (hstage1_7 (((cfg1 a1).slots t 7).cast nbuf1_7)) (spec1_8.stage ((cfg1 a1).slots t 8)) (hstage1_8 (((cfg1 a1).slots t 8).cast nbuf1_8)) (spec1_9.stage ((cfg1 a1).slots t 9)) (hstage1_9 (((cfg1 a1).slots t 9).cast nbuf1_9)) (spec1_10.stage ((cfg1 a1).slots t 10)) (hstage1_10 (((cfg1 a1).slots t 10).cast nbuf1_10)) (spec1_11.stage ((cfg1 a1).slots t 11)) (hstage1_11 (((cfg1 a1).slots t 11).cast nbuf1_11)) (spec1_12.stage ((cfg1 a1).slots t 12)) (hstage1_12 (((cfg1 a1).slots t 12).cast nbuf1_12)) (spec1_13.stage ((cfg1 a1).slots t 13)) (hstage1_13 (((cfg1 a1).slots t 13).cast nbuf1_13)) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5

/-- A window's block at a point, read off its array as the region finds it. -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

/-! ## What the body leaves in the output block -/

/-- One staging buffer of the output window, through which its contents are stated: a list of pieces that covers the block reads back
    the same through any view of the block's shape. -/
abbrev VO1_13 : View sig .tc .vmem S64x1 .f32 := (Memref.whole cc1_stg13_0 : Memref sig .tc .vmem S64x1 .f32).view
/-- Contents of the four scratch buffers at which the output is stated, fixed once: what the body leaves in the output block is the
    same whatever they held, since it overwrites every scratch row before reading it. -/
abbrev scJ1_0 : Vec F S64x8192 .f32 := scM1_0.view.read (Elt F) scM1_0.view.junk
abbrev scJ1_1 : Vec F S64x8192 .f32 := scM1_1.view.read (Elt F) scM1_1.view.junk
abbrev scJ1_2 : Vec F S64x256 .f32 := scM1_2.view.read (Elt F) scM1_2.view.junk
abbrev scJ1_3 : Vec F S64x256 .f32 := scM1_3.view.read (Elt F) scM1_3.view.junk

/-- The run's pieces for the output block tile it: the body's one store is the whole block. -/
theorem cover1_13 (c : Dev nD) (i : grid1.Coords) (arg3 : Memref sig .tc .vmem S8192x256 .f32) (harg3 : arg3.IsWhole) (arg4 : Memref sig .tc .vmem S8192x256 .f32) (harg4 : arg4.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S64x1 .f32) (harg17 : arg17.IsWhole)
    (x0 : Vec F S8192x256 .f32) (x1 : Vec F S8192x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x1 .f32) (x11 : Vec F S1x1 .f32) (x12 : Vec F S1x1 .f32) (xs0 xs1 : Vec F S64x8192 .f32) (xs2 xs3 : Vec F S64x256 .f32) (xt0 : TbBuf1 (F := F) c tbM1_0) (xt1 : TbBuf1 (F := F) c tbM1_1) (fh0 : HbBuf1 (F := F) c hbM1_0)
    (k1_hw1 : k1_chk1 (tbM1_0.view.readAt (Elt F) (Rect.unit (s := S8192) (k1_off1 i) S1.size (k1_off1_inb i)).toLoadRect xt0 (Shape.Idx.first (numel1_S1.symm ▸ Nat.one_pos))))
    (k1_hw2 : k1_chk2 (tbM1_1.view.readAt (Elt F) (Rect.unit (s := S8192) (k1_off1 i) S1.size (k1_off1_inb i)).toLoadRect xt1 (Shape.Idx.first (numel1_S1.symm ▸ Nat.one_pos))))
    (k1_hw3 : k1_chk3 (tbM1_0.view.readAt (Elt F) (Rect.unit (s := S8192) (k1_off6 i) S1.size (k1_off6_inb i)).toLoadRect xt0 (Shape.Idx.first (numel1_S1.symm ▸ Nat.one_pos))))
    (k1_hw4 : k1_chk4 (tbM1_1.view.readAt (Elt F) (Rect.unit (s := S8192) (k1_off6 i) S1.size (k1_off6_inb i)).toLoadRect xt1 (Shape.Idx.first (numel1_S1.symm ▸ Nat.one_pos))))
    (k1_hw5 : k1_chk5 (tbM1_0.view.readAt (Elt F) (Rect.unit (s := S8192) (k1_off11 i) S1.size (k1_off11_inb i)).toLoadRect xt0 (Shape.Idx.first (numel1_S1.symm ▸ Nat.one_pos))))
    (k1_hw6 : k1_chk6 (tbM1_1.view.readAt (Elt F) (Rect.unit (s := S8192) (k1_off11 i) S1.size (k1_off11_inb i)).toLoadRect xt1 (Shape.Idx.first (numel1_S1.symm ▸ Nat.one_pos))))
    (k1_hw7 : k1_chk7 (tbM1_0.view.readAt (Elt F) (Rect.unit (s := S8192) (k1_off16 i) S1.size (k1_off16_inb i)).toLoadRect xt0 (Shape.Idx.first (numel1_S1.symm ▸ Nat.one_pos))))
    (k1_hw8 : k1_chk8 (tbM1_1.view.readAt (Elt F) (Rect.unit (s := S8192) (k1_off16 i) S1.size (k1_off16_inb i)).toLoadRect xt1 (Shape.Idx.first (numel1_S1.symm ▸ Nat.one_pos))))
    (k1_hw9 : k1_chk9 (tbM1_0.view.readAt (Elt F) (Rect.unit (s := S8192) (k1_off21 i) S1.size (k1_off21_inb i)).toLoadRect xt0 (Shape.Idx.first (numel1_S1.symm ▸ Nat.one_pos))))
    (k1_hw10 : k1_chk10 (tbM1_1.view.readAt (Elt F) (Rect.unit (s := S8192) (k1_off21 i) S1.size (k1_off21_inb i)).toLoadRect xt1 (Shape.Idx.first (numel1_S1.symm ▸ Nat.one_pos))))
    (k1_hw11 : k1_chk11 (tbM1_0.view.readAt (Elt F) (Rect.unit (s := S8192) (k1_off26 i) S1.size (k1_off26_inb i)).toLoadRect xt0 (Shape.Idx.first (numel1_S1.symm ▸ Nat.one_pos))))
    (k1_hw12 : k1_chk12 (tbM1_1.view.readAt (Elt F) (Rect.unit (s := S8192) (k1_off26 i) S1.size (k1_off26_inb i)).toLoadRect xt1 (Shape.Idx.first (numel1_S1.symm ▸ Nat.one_pos))))
    (k1_hw13 : k1_chk13 (tbM1_0.view.readAt (Elt F) (Rect.unit (s := S8192) (k1_off31 i) S1.size (k1_off31_inb i)).toLoadRect xt0 (Shape.Idx.first (numel1_S1.symm ▸ Nat.one_pos))))
    (k1_hw14 : k1_chk14 (tbM1_1.view.readAt (Elt F) (Rect.unit (s := S8192) (k1_off31 i) S1.size (k1_off31_inb i)).toLoadRect xt1 (Shape.Idx.first (numel1_S1.symm ▸ Nat.one_pos))))
    (k1_hw15 : k1_chk15 (tbM1_0.view.readAt (Elt F) (Rect.unit (s := S8192) (k1_off36 i) S1.size (k1_off36_inb i)).toLoadRect xt0 (Shape.Idx.first (numel1_S1.symm ▸ Nat.one_pos))))
    (k1_hw16 : k1_chk16 (tbM1_1.view.readAt (Elt F) (Rect.unit (s := S8192) (k1_off36 i) S1.size (k1_off36_inb i)).toLoadRect xt1 (Shape.Idx.first (numel1_S1.symm ▸ Nat.one_pos))))
    (k1_hw17 : k1_chk17 (tbM1_0.view.readAt (Elt F) (Rect.unit (s := S8192) (k1_off41 i) S1.size (k1_off41_inb i)).toLoadRect xt0 (Shape.Idx.first (numel1_S1.symm ▸ Nat.one_pos))))
    (k1_hw18 : k1_chk18 (tbM1_1.view.readAt (Elt F) (Rect.unit (s := S8192) (k1_off41 i) S1.size (k1_off41_inb i)).toLoadRect xt1 (Shape.Idx.first (numel1_S1.symm ▸ Nat.one_pos))))
    (k1_hw19 : k1_chk19 (tbM1_0.view.readAt (Elt F) (Rect.unit (s := S8192) (k1_off46 i) S1.size (k1_off46_inb i)).toLoadRect xt0 (Shape.Idx.first (numel1_S1.symm ▸ Nat.one_pos))))
    (k1_hw20 : k1_chk20 (tbM1_1.view.readAt (Elt F) (Rect.unit (s := S8192) (k1_off46 i) S1.size (k1_off46_inb i)).toLoadRect xt1 (Shape.Idx.first (numel1_S1.symm ▸ Nat.one_pos))))
    (k1_hw21 : k1_chk21 (tbM1_0.view.readAt (Elt F) (Rect.unit (s := S8192) (k1_off51 i) S1.size (k1_off51_inb i)).toLoadRect xt0 (Shape.Idx.first (numel1_S1.symm ▸ Nat.one_pos))))
    (k1_hw22 : k1_chk22 (tbM1_1.view.readAt (Elt F) (Rect.unit (s := S8192) (k1_off51 i) S1.size (k1_off51_inb i)).toLoadRect xt1 (Shape.Idx.first (numel1_S1.symm ▸ Nat.one_pos))))
    (k1_hw23 : k1_chk23 (tbM1_0.view.readAt (Elt F) (Rect.unit (s := S8192) (k1_off56 i) S1.size (k1_off56_inb i)).toLoadRect xt0 (Shape.Idx.first (numel1_S1.symm ▸ Nat.one_pos))))
    (k1_hw24 : k1_chk24 (tbM1_1.view.readAt (Elt F) (Rect.unit (s := S8192) (k1_off56 i) S1.size (k1_off56_inb i)).toLoadRect xt1 (Shape.Idx.first (numel1_S1.symm ▸ Nat.one_pos))))
    (k1_hw25 : k1_chk25 (tbM1_0.view.readAt (Elt F) (Rect.unit (s := S8192) (k1_off61 i) S1.size (k1_off61_inb i)).toLoadRect xt0 (Shape.Idx.first (numel1_S1.symm ▸ Nat.one_pos))))
    (k1_hw26 : k1_chk26 (tbM1_1.view.readAt (Elt F) (Rect.unit (s := S8192) (k1_off61 i) S1.size (k1_off61_inb i)).toLoadRect xt1 (Shape.Idx.first (numel1_S1.symm ▸ Nat.one_pos))))
    (k1_hw27 : k1_chk27 (tbM1_0.view.readAt (Elt F) (Rect.unit (s := S8192) (k1_off66 i) S1.size (k1_off66_inb i)).toLoadRect xt0 (Shape.Idx.first (numel1_S1.symm ▸ Nat.one_pos))))
    (k1_hw28 : k1_chk28 (tbM1_1.view.readAt (Elt F) (Rect.unit (s := S8192) (k1_off66 i) S1.size (k1_off66_inb i)).toLoadRect xt1 (Shape.Idx.first (numel1_S1.symm ▸ Nat.one_pos))))
    (k1_hw29 : k1_chk29 (tbM1_0.view.readAt (Elt F) (Rect.unit (s := S8192) (k1_off71 i) S1.size (k1_off71_inb i)).toLoadRect xt0 (Shape.Idx.first (numel1_S1.symm ▸ Nat.one_pos))))
    (k1_hw30 : k1_chk30 (tbM1_1.view.readAt (Elt F) (Rect.unit (s := S8192) (k1_off71 i) S1.size (k1_off71_inb i)).toLoadRect xt1 (Shape.Idx.first (numel1_S1.symm ▸ Nat.one_pos))))
    (k1_hw31 : k1_chk31 (tbM1_0.view.readAt (Elt F) (Rect.unit (s := S8192) (k1_off76 i) S1.size (k1_off76_inb i)).toLoadRect xt0 (Shape.Idx.first (numel1_S1.symm ▸ Nat.one_pos))))
    (k1_hw32 : k1_chk32 (tbM1_1.view.readAt (Elt F) (Rect.unit (s := S8192) (k1_off76 i) S1.size (k1_off76_inb i)).toLoadRect xt1 (Shape.Idx.first (numel1_S1.symm ▸ Nat.one_pos))))
    (k1_hw33 : k1_chk33 (tbM1_0.view.readAt (Elt F) (Rect.unit (s := S8192) (k1_off81 i) S1.size (k1_off81_inb i)).toLoadRect xt0 (Shape.Idx.first (numel1_S1.symm ▸ Nat.one_pos))))
    (k1_hw34 : k1_chk34 (tbM1_1.view.readAt (Elt F) (Rect.unit (s := S8192) (k1_off81 i) S1.size (k1_off81_inb i)).toLoadRect xt1 (Shape.Idx.first (numel1_S1.symm ▸ Nat.one_pos))))
    (k1_hw35 : k1_chk35 (tbM1_0.view.readAt (Elt F) (Rect.unit (s := S8192) (k1_off86 i) S1.size (k1_off86_inb i)).toLoadRect xt0 (Shape.Idx.first (numel1_S1.symm ▸ Nat.one_pos))))
    (k1_hw36 : k1_chk36 (tbM1_1.view.readAt (Elt F) (Rect.unit (s := S8192) (k1_off86 i) S1.size (k1_off86_inb i)).toLoadRect xt1 (Shape.Idx.first (numel1_S1.symm ▸ Nat.one_pos))))
    (k1_hw37 : k1_chk37 (tbM1_0.view.readAt (Elt F) (Rect.unit (s := S8192) (k1_off91 i) S1.size (k1_off91_inb i)).toLoadRect xt0 (Shape.Idx.first (numel1_S1.symm ▸ Nat.one_pos))))
    (k1_hw38 : k1_chk38 (tbM1_1.view.readAt (Elt F) (Rect.unit (s := S8192) (k1_off91 i) S1.size (k1_off91_inb i)).toLoadRect xt1 (Shape.Idx.first (numel1_S1.symm ▸ Nat.one_pos))))
    (k1_hw39 : k1_chk39 (tbM1_0.view.readAt (Elt F) (Rect.unit (s := S8192) (k1_off96 i) S1.size (k1_off96_inb i)).toLoadRect xt0 (Shape.Idx.first (numel1_S1.symm ▸ Nat.one_pos))))
    (k1_hw40 : k1_chk40 (tbM1_1.view.readAt (Elt F) (Rect.unit (s := S8192) (k1_off96 i) S1.size (k1_off96_inb i)).toLoadRect xt1 (Shape.Idx.first (numel1_S1.symm ▸ Nat.one_pos))))
    (k1_hw41 : k1_chk41 (tbM1_0.view.readAt (Elt F) (Rect.unit (s := S8192) (k1_off101 i) S1.size (k1_off101_inb i)).toLoadRect xt0 (Shape.Idx.first (numel1_S1.symm ▸ Nat.one_pos))))
    (k1_hw42 : k1_chk42 (tbM1_1.view.readAt (Elt F) (Rect.unit (s := S8192) (k1_off101 i) S1.size (k1_off101_inb i)).toLoadRect xt1 (Shape.Idx.first (numel1_S1.symm ▸ Nat.one_pos))))
    (k1_hw43 : k1_chk43 (tbM1_0.view.readAt (Elt F) (Rect.unit (s := S8192) (k1_off106 i) S1.size (k1_off106_inb i)).toLoadRect xt0 (Shape.Idx.first (numel1_S1.symm ▸ Nat.one_pos))))
    (k1_hw44 : k1_chk44 (tbM1_1.view.readAt (Elt F) (Rect.unit (s := S8192) (k1_off106 i) S1.size (k1_off106_inb i)).toLoadRect xt1 (Shape.Idx.first (numel1_S1.symm ▸ Nat.one_pos))))
    (k1_hw45 : k1_chk45 (tbM1_0.view.readAt (Elt F) (Rect.unit (s := S8192) (k1_off111 i) S1.size (k1_off111_inb i)).toLoadRect xt0 (Shape.Idx.first (numel1_S1.symm ▸ Nat.one_pos))))
    (k1_hw46 : k1_chk46 (tbM1_1.view.readAt (Elt F) (Rect.unit (s := S8192) (k1_off111 i) S1.size (k1_off111_inb i)).toLoadRect xt1 (Shape.Idx.first (numel1_S1.symm ▸ Nat.one_pos))))
    (k1_hw47 : k1_chk47 (tbM1_0.view.readAt (Elt F) (Rect.unit (s := S8192) (k1_off116 i) S1.size (k1_off116_inb i)).toLoadRect xt0 (Shape.Idx.first (numel1_S1.symm ▸ Nat.one_pos))))
    (k1_hw48 : k1_chk48 (tbM1_1.view.readAt (Elt F) (Rect.unit (s := S8192) (k1_off116 i) S1.size (k1_off116_inb i)).toLoadRect xt1 (Shape.Idx.first (numel1_S1.symm ▸ Nat.one_pos))))
    (k1_hw49 : k1_chk49 (tbM1_0.view.readAt (Elt F) (Rect.unit (s := S8192) (k1_off121 i) S1.size (k1_off121_inb i)).toLoadRect xt0 (Shape.Idx.first (numel1_S1.symm ▸ Nat.one_pos))))
    (k1_hw50 : k1_chk50 (tbM1_1.view.readAt (Elt F) (Rect.unit (s := S8192) (k1_off121 i) S1.size (k1_off121_inb i)).toLoadRect xt1 (Shape.Idx.first (numel1_S1.symm ▸ Nat.one_pos))))
    (k1_hw51 : k1_chk51 (tbM1_0.view.readAt (Elt F) (Rect.unit (s := S8192) (k1_off126 i) S1.size (k1_off126_inb i)).toLoadRect xt0 (Shape.Idx.first (numel1_S1.symm ▸ Nat.one_pos))))
    (k1_hw52 : k1_chk52 (tbM1_1.view.readAt (Elt F) (Rect.unit (s := S8192) (k1_off126 i) S1.size (k1_off126_inb i)).toLoadRect xt1 (Shape.Idx.first (numel1_S1.symm ▸ Nat.one_pos))))
    (k1_hw53 : k1_chk53 (tbM1_0.view.readAt (Elt F) (Rect.unit (s := S8192) (k1_off131 i) S1.size (k1_off131_inb i)).toLoadRect xt0 (Shape.Idx.first (numel1_S1.symm ▸ Nat.one_pos))))
    (k1_hw54 : k1_chk54 (tbM1_1.view.readAt (Elt F) (Rect.unit (s := S8192) (k1_off131 i) S1.size (k1_off131_inb i)).toLoadRect xt1 (Shape.Idx.first (numel1_S1.symm ▸ Nat.one_pos))))
    (k1_hw55 : k1_chk55 (tbM1_0.view.readAt (Elt F) (Rect.unit (s := S8192) (k1_off136 i) S1.size (k1_off136_inb i)).toLoadRect xt0 (Shape.Idx.first (numel1_S1.symm ▸ Nat.one_pos))))
    (k1_hw56 : k1_chk56 (tbM1_1.view.readAt (Elt F) (Rect.unit (s := S8192) (k1_off136 i) S1.size (k1_off136_inb i)).toLoadRect xt1 (Shape.Idx.first (numel1_S1.symm ▸ Nat.one_pos))))
    (k1_hw57 : k1_chk57 (tbM1_0.view.readAt (Elt F) (Rect.unit (s := S8192) (k1_off141 i) S1.size (k1_off141_inb i)).toLoadRect xt0 (Shape.Idx.first (numel1_S1.symm ▸ Nat.one_pos))))
    (k1_hw58 : k1_chk58 (tbM1_1.view.readAt (Elt F) (Rect.unit (s := S8192) (k1_off141 i) S1.size (k1_off141_inb i)).toLoadRect xt1 (Shape.Idx.first (numel1_S1.symm ▸ Nat.one_pos))))
    (k1_hw59 : k1_chk59 (tbM1_0.view.readAt (Elt F) (Rect.unit (s := S8192) (k1_off146 i) S1.size (k1_off146_inb i)).toLoadRect xt0 (Shape.Idx.first (numel1_S1.symm ▸ Nat.one_pos))))
    (k1_hw60 : k1_chk60 (tbM1_1.view.readAt (Elt F) (Rect.unit (s := S8192) (k1_off146 i) S1.size (k1_off146_inb i)).toLoadRect xt1 (Shape.Idx.first (numel1_S1.symm ▸ Nat.one_pos))))
    (k1_hw61 : k1_chk61 (tbM1_0.view.readAt (Elt F) (Rect.unit (s := S8192) (k1_off151 i) S1.size (k1_off151_inb i)).toLoadRect xt0 (Shape.Idx.first (numel1_S1.symm ▸ Nat.one_pos))))
    (k1_hw62 : k1_chk62 (tbM1_1.view.readAt (Elt F) (Rect.unit (s := S8192) (k1_off151 i) S1.size (k1_off151_inb i)).toLoadRect xt1 (Shape.Idx.first (numel1_S1.symm ▸ Nat.one_pos))))
    (k1_hw63 : k1_chk63 (tbM1_0.view.readAt (Elt F) (Rect.unit (s := S8192) (k1_off156 i) S1.size (k1_off156_inb i)).toLoadRect xt0 (Shape.Idx.first (numel1_S1.symm ▸ Nat.one_pos))))
    (k1_hw64 : k1_chk64 (tbM1_1.view.readAt (Elt F) (Rect.unit (s := S8192) (k1_off156 i) S1.size (k1_off156_inb i)).toLoadRect xt1 (Shape.Idx.first (numel1_S1.symm ▸ Nat.one_pos))))
    (k1_hw65 : k1_chk65 (tbM1_0.view.readAt (Elt F) (Rect.unit (s := S8192) (k1_off161 i) S1.size (k1_off161_inb i)).toLoadRect xt0 (Shape.Idx.first (numel1_S1.symm ▸ Nat.one_pos))))
    (k1_hw66 : k1_chk66 (tbM1_1.view.readAt (Elt F) (Rect.unit (s := S8192) (k1_off161 i) S1.size (k1_off161_inb i)).toLoadRect xt1 (Shape.Idx.first (numel1_S1.symm ▸ Nat.one_pos))))
    (k1_hw67 : k1_chk67 (tbM1_0.view.readAt (Elt F) (Rect.unit (s := S8192) (k1_off166 i) S1.size (k1_off166_inb i)).toLoadRect xt0 (Shape.Idx.first (numel1_S1.symm ▸ Nat.one_pos))))
    (k1_hw68 : k1_chk68 (tbM1_1.view.readAt (Elt F) (Rect.unit (s := S8192) (k1_off166 i) S1.size (k1_off166_inb i)).toLoadRect xt1 (Shape.Idx.first (numel1_S1.symm ▸ Nat.one_pos))))
    (k1_hw69 : k1_chk69 (tbM1_0.view.readAt (Elt F) (Rect.unit (s := S8192) (k1_off171 i) S1.size (k1_off171_inb i)).toLoadRect xt0 (Shape.Idx.first (numel1_S1.symm ▸ Nat.one_pos))))
    (k1_hw70 : k1_chk70 (tbM1_1.view.readAt (Elt F) (Rect.unit (s := S8192) (k1_off171 i) S1.size (k1_off171_inb i)).toLoadRect xt1 (Shape.Idx.first (numel1_S1.symm ▸ Nat.one_pos))))
    (k1_hw71 : k1_chk71 (tbM1_0.view.readAt (Elt F) (Rect.unit (s := S8192) (k1_off176 i) S1.size (k1_off176_inb i)).toLoadRect xt0 (Shape.Idx.first (numel1_S1.symm ▸ Nat.one_pos))))
    (k1_hw72 : k1_chk72 (tbM1_1.view.readAt (Elt F) (Rect.unit (s := S8192) (k1_off176 i) S1.size (k1_off176_inb i)).toLoadRect xt1 (Shape.Idx.first (numel1_S1.symm ▸ Nat.one_pos))))
    (k1_hw73 : k1_chk73 (tbM1_0.view.readAt (Elt F) (Rect.unit (s := S8192) (k1_off181 i) S1.size (k1_off181_inb i)).toLoadRect xt0 (Shape.Idx.first (numel1_S1.symm ▸ Nat.one_pos))))
    (k1_hw74 : k1_chk74 (tbM1_1.view.readAt (Elt F) (Rect.unit (s := S8192) (k1_off181 i) S1.size (k1_off181_inb i)).toLoadRect xt1 (Shape.Idx.first (numel1_S1.symm ▸ Nat.one_pos))))
    (k1_hw75 : k1_chk75 (tbM1_0.view.readAt (Elt F) (Rect.unit (s := S8192) (k1_off186 i) S1.size (k1_off186_inb i)).toLoadRect xt0 (Shape.Idx.first (numel1_S1.symm ▸ Nat.one_pos))))
    (k1_hw76 : k1_chk76 (tbM1_1.view.readAt (Elt F) (Rect.unit (s := S8192) (k1_off186 i) S1.size (k1_off186_inb i)).toLoadRect xt1 (Shape.Idx.first (numel1_S1.symm ▸ Nat.one_pos))))
    (k1_hw77 : k1_chk77 (tbM1_0.view.readAt (Elt F) (Rect.unit (s := S8192) (k1_off191 i) S1.size (k1_off191_inb i)).toLoadRect xt0 (Shape.Idx.first (numel1_S1.symm ▸ Nat.one_pos))))
    (k1_hw78 : k1_chk78 (tbM1_1.view.readAt (Elt F) (Rect.unit (s := S8192) (k1_off191 i) S1.size (k1_off191_inb i)).toLoadRect xt1 (Shape.Idx.first (numel1_S1.symm ▸ Nat.one_pos))))
    (k1_hw79 : k1_chk79 (tbM1_0.view.readAt (Elt F) (Rect.unit (s := S8192) (k1_off196 i) S1.size (k1_off196_inb i)).toLoadRect xt0 (Shape.Idx.first (numel1_S1.symm ▸ Nat.one_pos))))
    (k1_hw80 : k1_chk80 (tbM1_1.view.readAt (Elt F) (Rect.unit (s := S8192) (k1_off196 i) S1.size (k1_off196_inb i)).toLoadRect xt1 (Shape.Idx.first (numel1_S1.symm ▸ Nat.one_pos))))
    (k1_hw81 : k1_chk81 (tbM1_0.view.readAt (Elt F) (Rect.unit (s := S8192) (k1_off201 i) S1.size (k1_off201_inb i)).toLoadRect xt0 (Shape.Idx.first (numel1_S1.symm ▸ Nat.one_pos))))
    (k1_hw82 : k1_chk82 (tbM1_1.view.readAt (Elt F) (Rect.unit (s := S8192) (k1_off201 i) S1.size (k1_off201_inb i)).toLoadRect xt1 (Shape.Idx.first (numel1_S1.symm ▸ Nat.one_pos))))
    (k1_hw83 : k1_chk83 (tbM1_0.view.readAt (Elt F) (Rect.unit (s := S8192) (k1_off206 i) S1.size (k1_off206_inb i)).toLoadRect xt0 (Shape.Idx.first (numel1_S1.symm ▸ Nat.one_pos))))
    (k1_hw84 : k1_chk84 (tbM1_1.view.readAt (Elt F) (Rect.unit (s := S8192) (k1_off206 i) S1.size (k1_off206_inb i)).toLoadRect xt1 (Shape.Idx.first (numel1_S1.symm ▸ Nat.one_pos))))
    (k1_hw85 : k1_chk85 (tbM1_0.view.readAt (Elt F) (Rect.unit (s := S8192) (k1_off211 i) S1.size (k1_off211_inb i)).toLoadRect xt0 (Shape.Idx.first (numel1_S1.symm ▸ Nat.one_pos))))
    (k1_hw86 : k1_chk86 (tbM1_1.view.readAt (Elt F) (Rect.unit (s := S8192) (k1_off211 i) S1.size (k1_off211_inb i)).toLoadRect xt1 (Shape.Idx.first (numel1_S1.symm ▸ Nat.one_pos))))
    (k1_hw87 : k1_chk87 (tbM1_0.view.readAt (Elt F) (Rect.unit (s := S8192) (k1_off216 i) S1.size (k1_off216_inb i)).toLoadRect xt0 (Shape.Idx.first (numel1_S1.symm ▸ Nat.one_pos))))
    (k1_hw88 : k1_chk88 (tbM1_1.view.readAt (Elt F) (Rect.unit (s := S8192) (k1_off216 i) S1.size (k1_off216_inb i)).toLoadRect xt1 (Shape.Idx.first (numel1_S1.symm ▸ Nat.one_pos))))
    (k1_hw89 : k1_chk89 (tbM1_0.view.readAt (Elt F) (Rect.unit (s := S8192) (k1_off221 i) S1.size (k1_off221_inb i)).toLoadRect xt0 (Shape.Idx.first (numel1_S1.symm ▸ Nat.one_pos))))
    (k1_hw90 : k1_chk90 (tbM1_1.view.readAt (Elt F) (Rect.unit (s := S8192) (k1_off221 i) S1.size (k1_off221_inb i)).toLoadRect xt1 (Shape.Idx.first (numel1_S1.symm ▸ Nat.one_pos))))
    (k1_hw91 : k1_chk91 (tbM1_0.view.readAt (Elt F) (Rect.unit (s := S8192) (k1_off226 i) S1.size (k1_off226_inb i)).toLoadRect xt0 (Shape.Idx.first (numel1_S1.symm ▸ Nat.one_pos))))
    (k1_hw92 : k1_chk92 (tbM1_1.view.readAt (Elt F) (Rect.unit (s := S8192) (k1_off226 i) S1.size (k1_off226_inb i)).toLoadRect xt1 (Shape.Idx.first (numel1_S1.symm ▸ Nat.one_pos))))
    (k1_hw93 : k1_chk93 (tbM1_0.view.readAt (Elt F) (Rect.unit (s := S8192) (k1_off231 i) S1.size (k1_off231_inb i)).toLoadRect xt0 (Shape.Idx.first (numel1_S1.symm ▸ Nat.one_pos))))
    (k1_hw94 : k1_chk94 (tbM1_1.view.readAt (Elt F) (Rect.unit (s := S8192) (k1_off231 i) S1.size (k1_off231_inb i)).toLoadRect xt1 (Shape.Idx.first (numel1_S1.symm ▸ Nat.one_pos))))
    (k1_hw95 : k1_chk95 (tbM1_0.view.readAt (Elt F) (Rect.unit (s := S8192) (k1_off236 i) S1.size (k1_off236_inb i)).toLoadRect xt0 (Shape.Idx.first (numel1_S1.symm ▸ Nat.one_pos))))
    (k1_hw96 : k1_chk96 (tbM1_1.view.readAt (Elt F) (Rect.unit (s := S8192) (k1_off236 i) S1.size (k1_off236_inb i)).toLoadRect xt1 (Shape.Idx.first (numel1_S1.symm ▸ Nat.one_pos))))
    (k1_hw97 : k1_chk97 (tbM1_0.view.readAt (Elt F) (Rect.unit (s := S8192) (k1_off241 i) S1.size (k1_off241_inb i)).toLoadRect xt0 (Shape.Idx.first (numel1_S1.symm ▸ Nat.one_pos))))
    (k1_hw98 : k1_chk98 (tbM1_1.view.readAt (Elt F) (Rect.unit (s := S8192) (k1_off241 i) S1.size (k1_off241_inb i)).toLoadRect xt1 (Shape.Idx.first (numel1_S1.symm ▸ Nat.one_pos))))
    (k1_hw99 : k1_chk99 (tbM1_0.view.readAt (Elt F) (Rect.unit (s := S8192) (k1_off246 i) S1.size (k1_off246_inb i)).toLoadRect xt0 (Shape.Idx.first (numel1_S1.symm ▸ Nat.one_pos))))
    (k1_hw100 : k1_chk100 (tbM1_1.view.readAt (Elt F) (Rect.unit (s := S8192) (k1_off246 i) S1.size (k1_off246_inb i)).toLoadRect xt1 (Shape.Idx.first (numel1_S1.symm ▸ Nat.one_pos))))
    (k1_hw101 : k1_chk101 (tbM1_0.view.readAt (Elt F) (Rect.unit (s := S8192) (k1_off251 i) S1.size (k1_off251_inb i)).toLoadRect xt0 (Shape.Idx.first (numel1_S1.symm ▸ Nat.one_pos))))
    (k1_hw102 : k1_chk102 (tbM1_1.view.readAt (Elt F) (Rect.unit (s := S8192) (k1_off251 i) S1.size (k1_off251_inb i)).toLoadRect xt1 (Shape.Idx.first (numel1_S1.symm ▸ Nat.one_pos))))
    (k1_hw103 : k1_chk103 (tbM1_0.view.readAt (Elt F) (Rect.unit (s := S8192) (k1_off256 i) S1.size (k1_off256_inb i)).toLoadRect xt0 (Shape.Idx.first (numel1_S1.symm ▸ Nat.one_pos))))
    (k1_hw104 : k1_chk104 (tbM1_1.view.readAt (Elt F) (Rect.unit (s := S8192) (k1_off256 i) S1.size (k1_off256_inb i)).toLoadRect xt1 (Shape.Idx.first (numel1_S1.symm ▸ Nat.one_pos))))
    (k1_hw105 : k1_chk105 (tbM1_0.view.readAt (Elt F) (Rect.unit (s := S8192) (k1_off261 i) S1.size (k1_off261_inb i)).toLoadRect xt0 (Shape.Idx.first (numel1_S1.symm ▸ Nat.one_pos))))
    (k1_hw106 : k1_chk106 (tbM1_1.view.readAt (Elt F) (Rect.unit (s := S8192) (k1_off261 i) S1.size (k1_off261_inb i)).toLoadRect xt1 (Shape.Idx.first (numel1_S1.symm ▸ Nat.one_pos))))
    (k1_hw107 : k1_chk107 (tbM1_0.view.readAt (Elt F) (Rect.unit (s := S8192) (k1_off266 i) S1.size (k1_off266_inb i)).toLoadRect xt0 (Shape.Idx.first (numel1_S1.symm ▸ Nat.one_pos))))
    (k1_hw108 : k1_chk108 (tbM1_1.view.readAt (Elt F) (Rect.unit (s := S8192) (k1_off266 i) S1.size (k1_off266_inb i)).toLoadRect xt1 (Shape.Idx.first (numel1_S1.symm ▸ Nat.one_pos))))
    (k1_hw109 : k1_chk109 (tbM1_0.view.readAt (Elt F) (Rect.unit (s := S8192) (k1_off271 i) S1.size (k1_off271_inb i)).toLoadRect xt0 (Shape.Idx.first (numel1_S1.symm ▸ Nat.one_pos))))
    (k1_hw110 : k1_chk110 (tbM1_1.view.readAt (Elt F) (Rect.unit (s := S8192) (k1_off271 i) S1.size (k1_off271_inb i)).toLoadRect xt1 (Shape.Idx.first (numel1_S1.symm ▸ Nat.one_pos))))
    (k1_hw111 : k1_chk111 (tbM1_0.view.readAt (Elt F) (Rect.unit (s := S8192) (k1_off276 i) S1.size (k1_off276_inb i)).toLoadRect xt0 (Shape.Idx.first (numel1_S1.symm ▸ Nat.one_pos))))
    (k1_hw112 : k1_chk112 (tbM1_1.view.readAt (Elt F) (Rect.unit (s := S8192) (k1_off276 i) S1.size (k1_off276_inb i)).toLoadRect xt1 (Shape.Idx.first (numel1_S1.symm ▸ Nat.one_pos))))
    (k1_hw113 : k1_chk113 (tbM1_0.view.readAt (Elt F) (Rect.unit (s := S8192) (k1_off281 i) S1.size (k1_off281_inb i)).toLoadRect xt0 (Shape.Idx.first (numel1_S1.symm ▸ Nat.one_pos))))
    (k1_hw114 : k1_chk114 (tbM1_1.view.readAt (Elt F) (Rect.unit (s := S8192) (k1_off281 i) S1.size (k1_off281_inb i)).toLoadRect xt1 (Shape.Idx.first (numel1_S1.symm ▸ Nat.one_pos))))
    (k1_hw115 : k1_chk115 (tbM1_0.view.readAt (Elt F) (Rect.unit (s := S8192) (k1_off286 i) S1.size (k1_off286_inb i)).toLoadRect xt0 (Shape.Idx.first (numel1_S1.symm ▸ Nat.one_pos))))
    (k1_hw116 : k1_chk116 (tbM1_1.view.readAt (Elt F) (Rect.unit (s := S8192) (k1_off286 i) S1.size (k1_off286_inb i)).toLoadRect xt1 (Shape.Idx.first (numel1_S1.symm ▸ Nat.one_pos))))
    (k1_hw117 : k1_chk117 (tbM1_0.view.readAt (Elt F) (Rect.unit (s := S8192) (k1_off291 i) S1.size (k1_off291_inb i)).toLoadRect xt0 (Shape.Idx.first (numel1_S1.symm ▸ Nat.one_pos))))
    (k1_hw118 : k1_chk118 (tbM1_1.view.readAt (Elt F) (Rect.unit (s := S8192) (k1_off291 i) S1.size (k1_off291_inb i)).toLoadRect xt1 (Shape.Idx.first (numel1_S1.symm ▸ Nat.one_pos))))
    (k1_hw119 : k1_chk119 (tbM1_0.view.readAt (Elt F) (Rect.unit (s := S8192) (k1_off296 i) S1.size (k1_off296_inb i)).toLoadRect xt0 (Shape.Idx.first (numel1_S1.symm ▸ Nat.one_pos))))
    (k1_hw120 : k1_chk120 (tbM1_1.view.readAt (Elt F) (Rect.unit (s := S8192) (k1_off296 i) S1.size (k1_off296_inb i)).toLoadRect xt1 (Shape.Idx.first (numel1_S1.symm ▸ Nat.one_pos))))
    (k1_hw121 : k1_chk121 (tbM1_0.view.readAt (Elt F) (Rect.unit (s := S8192) (k1_off301 i) S1.size (k1_off301_inb i)).toLoadRect xt0 (Shape.Idx.first (numel1_S1.symm ▸ Nat.one_pos))))
    (k1_hw122 : k1_chk122 (tbM1_1.view.readAt (Elt F) (Rect.unit (s := S8192) (k1_off301 i) S1.size (k1_off301_inb i)).toLoadRect xt1 (Shape.Idx.first (numel1_S1.symm ▸ Nat.one_pos))))
    (k1_hw123 : k1_chk123 (tbM1_0.view.readAt (Elt F) (Rect.unit (s := S8192) (k1_off306 i) S1.size (k1_off306_inb i)).toLoadRect xt0 (Shape.Idx.first (numel1_S1.symm ▸ Nat.one_pos))))
    (k1_hw124 : k1_chk124 (tbM1_1.view.readAt (Elt F) (Rect.unit (s := S8192) (k1_off306 i) S1.size (k1_off306_inb i)).toLoadRect xt1 (Shape.Idx.first (numel1_S1.symm ▸ Nat.one_pos))))
    (k1_hw125 : k1_chk125 (tbM1_0.view.readAt (Elt F) (Rect.unit (s := S8192) (k1_off311 i) S1.size (k1_off311_inb i)).toLoadRect xt0 (Shape.Idx.first (numel1_S1.symm ▸ Nat.one_pos))))
    (k1_hw126 : k1_chk126 (tbM1_1.view.readAt (Elt F) (Rect.unit (s := S8192) (k1_off311 i) S1.size (k1_off311_inb i)).toLoadRect xt1 (Shape.Idx.first (numel1_S1.symm ▸ Nat.one_pos))))
    (k1_hw127 : k1_chk127 (tbM1_0.view.readAt (Elt F) (Rect.unit (s := S8192) (k1_off316 i) S1.size (k1_off316_inb i)).toLoadRect xt0 (Shape.Idx.first (numel1_S1.symm ▸ Nat.one_pos))))
    (k1_hw128 : k1_chk128 (tbM1_1.view.readAt (Elt F) (Rect.unit (s := S8192) (k1_off316 i) S1.size (k1_off316_inb i)).toLoadRect xt1 (Shape.Idx.first (numel1_S1.symm ▸ Nat.one_pos)))) :
    ∀ y : S64x1.Idx, ∃ pc ∈ (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1, y ∈ pc.1.set :=
  fun y => View.cover_of_tiledL (kernelRun1 c i arg3 harg3 arg4 harg4 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 xs0 xs1 xs2 xs3 xt0 xt1 fh0 k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32 k1_hw33 k1_hw34 k1_hw35 k1_hw36 k1_hw37 k1_hw38 k1_hw39 k1_hw40 k1_hw41 k1_hw42 k1_hw43 k1_hw44 k1_hw45 k1_hw46 k1_hw47 k1_hw48 k1_hw49 k1_hw50 k1_hw51 k1_hw52 k1_hw53 k1_hw54 k1_hw55 k1_hw56 k1_hw57 k1_hw58 k1_hw59 k1_hw60 k1_hw61 k1_hw62 k1_hw63 k1_hw64 k1_hw65 k1_hw66 k1_hw67 k1_hw68 k1_hw69 k1_hw70 k1_hw71 k1_hw72 k1_hw73 k1_hw74 k1_hw75 k1_hw76 k1_hw77 k1_hw78 k1_hw79 k1_hw80 k1_hw81 k1_hw82 k1_hw83 k1_hw84 k1_hw85 k1_hw86 k1_hw87 k1_hw88 k1_hw89 k1_hw90 k1_hw91 k1_hw92 k1_hw93 k1_hw94 k1_hw95 k1_hw96 k1_hw97 k1_hw98 k1_hw99 k1_hw100 k1_hw101 k1_hw102 k1_hw103 k1_hw104 k1_hw105 k1_hw106 k1_hw107 k1_hw108 k1_hw109 k1_hw110 k1_hw111 k1_hw112 k1_hw113 k1_hw114 k1_hw115 k1_hw116 k1_hw117 k1_hw118 k1_hw119 k1_hw120 k1_hw121 k1_hw122 k1_hw123 k1_hw124 k1_hw125 k1_hw126 k1_hw127 k1_hw128).1 S64x1.size (by sl_kernel_rfl) y

/-- What the output's staging buffer holds after the body at a point: the run's pieces, at the point's memrefs, input blocks and
    table words and the fixed scratch contents, read back over arbitrary contents. -/
def outsAt1 (hH : Hyps1 a1.1) (c : Dev nD) (t : Fin (cfg1 a1).N) : Vec F S64x1 .f32 :=
  VO1_13.read (Elt F) (VO1_13.writes (Elt F) VO1_13.junk (kernelRun1 c (grid1.coords t) (ms1_0 a1 t) (hs1_0 a1 t) (ms1_1 a1 t) (hs1_1 a1 t) (ms1_2 a1 t) (hs1_2 a1 t) (ms1_3 a1 t) (hs1_3 a1 t) (ms1_4 a1 t) (hs1_4 a1 t) (ms1_5 a1 t) (hs1_5 a1 t) (ms1_6 a1 t) (hs1_6 a1 t) (ms1_7 a1 t) (hs1_7 a1 t) (ms1_8 a1 t) (hs1_8 a1 t) (ms1_9 a1 t) (hs1_9 a1 t) (ms1_10 a1 t) (hs1_10 a1 t) (ms1_11 a1 t) (hs1_11 a1 t) (ms1_12 a1 t) (hs1_12 a1 t) (ms1_13 a1 t) (hs1_13 a1 t) (iblk1 V a1 c 0 t) (iblk1 V a1 c 1 t) (iblk1 V a1 c 2 t) (iblk1 V a1 c 3 t) (iblk1 V a1 c 4 t) (iblk1 V a1 c 5 t) (iblk1 V a1 c 6 t) (iblk1 V a1 c 7 t) (iblk1 V a1 c 8 t) (iblk1 V a1 c 9 t) (iblk1 V a1 c 10 t) (iblk1 V a1 c 11 t) (iblk1 V a1 c 12 t) scJ1_0 scJ1_1 scJ1_2 scJ1_3 (a1.1 0) (a1.1 1) (V c main_arg1) (hw1 hH _) (hw2 hH _) (hw3 hH _) (hw4 hH _) (hw5 hH _) (hw6 hH _) (hw7 hH _) (hw8 hH _) (hw9 hH _) (hw10 hH _) (hw11 hH _) (hw12 hH _) (hw13 hH _) (hw14 hH _) (hw15 hH _) (hw16 hH _) (hw17 hH _) (hw18 hH _) (hw19 hH _) (hw20 hH _) (hw21 hH _) (hw22 hH _) (hw23 hH _) (hw24 hH _) (hw25 hH _) (hw26 hH _) (hw27 hH _) (hw28 hH _) (hw29 hH _) (hw30 hH _) (hw31 hH _) (hw32 hH _) (hw33 hH _) (hw34 hH _) (hw35 hH _) (hw36 hH _) (hw37 hH _) (hw38 hH _) (hw39 hH _) (hw40 hH _) (hw41 hH _) (hw42 hH _) (hw43 hH _) (hw44 hH _) (hw45 hH _) (hw46 hH _) (hw47 hH _) (hw48 hH _) (hw49 hH _) (hw50 hH _) (hw51 hH _) (hw52 hH _) (hw53 hH _) (hw54 hH _) (hw55 hH _) (hw56 hH _) (hw57 hH _) (hw58 hH _) (hw59 hH _) (hw60 hH _) (hw61 hH _) (hw62 hH _) (hw63 hH _) (hw64 hH _) (hw65 hH _) (hw66 hH _) (hw67 hH _) (hw68 hH _) (hw69 hH _) (hw70 hH _) (hw71 hH _) (hw72 hH _) (hw73 hH _) (hw74 hH _) (hw75 hH _) (hw76 hH _) (hw77 hH _) (hw78 hH _) (hw79 hH _) (hw80 hH _) (hw81 hH _) (hw82 hH _) (hw83 hH _) (hw84 hH _) (hw85 hH _) (hw86 hH _) (hw87 hH _) (hw88 hH _) (hw89 hH _) (hw90 hH _) (hw91 hH _) (hw92 hH _) (hw93 hH _) (hw94 hH _) (hw95 hH _) (hw96 hH _) (hw97 hH _) (hw98 hH _) (hw99 hH _) (hw100 hH _) (hw101 hH _) (hw102 hH _) (hw103 hH _) (hw104 hH _) (hw105 hH _) (hw106 hH _) (hw107 hH _) (hw108 hH _) (hw109 hH _) (hw110 hH _) (hw111 hH _) (hw112 hH _) (hw113 hH _) (hw114 hH _) (hw115 hH _) (hw116 hH _) (hw117 hH _) (hw118 hH _) (hw119 hH _) (hw120 hH _) (hw121 hH _) (hw122 hH _) (hw123 hH _) (hw124 hH _) (hw125 hH _) (hw126 hH _) (hw127 hH _) (hw128 hH _)).1)

/-! ## The proof data -/

/-- On a core: the arrays as the region finds them; after the body at a point each input's buffer still at its block and the
    output's at what the run leaves there; the invariant above; nothing owed between points; full shares. -/
def dat1 (hH : Hyps1 a1.1) (c : Dev nD) : Dat τ (Elt F) Unit ℕ (Pipeline.UD sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => iblk1 V a1 c 2 t
    | ⟨3, _⟩ => iblk1 V a1 c 3 t
    | ⟨4, _⟩ => iblk1 V a1 c 4 t
    | ⟨5, _⟩ => iblk1 V a1 c 5 t
    | ⟨6, _⟩ => iblk1 V a1 c 6 t
    | ⟨7, _⟩ => iblk1 V a1 c 7 t
    | ⟨8, _⟩ => iblk1 V a1 c 8 t
    | ⟨9, _⟩ => iblk1 V a1 c 9 t
    | ⟨10, _⟩ => iblk1 V a1 c 10 t
    | ⟨11, _⟩ => iblk1 V a1 c 11 t
    | ⟨12, _⟩ => iblk1 V a1 c 12 t
    | ⟨13, _⟩ => outsAt1 V a1 hH c t
  Φ _ := iprop(Pipeline.ΦD osem1 spec1 H1 V c ∗ Pipeline.ΦT pre1 a1.1 c)
  q _ := fullShare
  owed _ := 0

/-- The proof data's arrays are the region-entry contents. -/
theorem A_eq1 (hH : Hyps1 a1.1) (c : Dev nD) (w : Fin (cfg1 a1).W) : (dat1 V a1 hH c).A w = V c (Pipeline.arrRef spec1 w) := by
  dsimp only [dat1]

/-- What the body leaves, window by window. -/
theorem after1_0 (hH : Hyps1 a1.1) (c : Dev nD) (t : Fin (cfg1 a1).N) : (dat1 V a1 hH c).after 0 t = iblk1 V a1 c 0 t := by dsimp only [dat1]; try rfl
theorem after1_1 (hH : Hyps1 a1.1) (c : Dev nD) (t : Fin (cfg1 a1).N) : (dat1 V a1 hH c).after 1 t = iblk1 V a1 c 1 t := by dsimp only [dat1]; try rfl
theorem after1_2 (hH : Hyps1 a1.1) (c : Dev nD) (t : Fin (cfg1 a1).N) : (dat1 V a1 hH c).after 2 t = iblk1 V a1 c 2 t := by dsimp only [dat1]; try rfl
theorem after1_3 (hH : Hyps1 a1.1) (c : Dev nD) (t : Fin (cfg1 a1).N) : (dat1 V a1 hH c).after 3 t = iblk1 V a1 c 3 t := by dsimp only [dat1]; try rfl
theorem after1_4 (hH : Hyps1 a1.1) (c : Dev nD) (t : Fin (cfg1 a1).N) : (dat1 V a1 hH c).after 4 t = iblk1 V a1 c 4 t := by dsimp only [dat1]; try rfl
theorem after1_5 (hH : Hyps1 a1.1) (c : Dev nD) (t : Fin (cfg1 a1).N) : (dat1 V a1 hH c).after 5 t = iblk1 V a1 c 5 t := by dsimp only [dat1]; try rfl
theorem after1_6 (hH : Hyps1 a1.1) (c : Dev nD) (t : Fin (cfg1 a1).N) : (dat1 V a1 hH c).after 6 t = iblk1 V a1 c 6 t := by dsimp only [dat1]; try rfl
theorem after1_7 (hH : Hyps1 a1.1) (c : Dev nD) (t : Fin (cfg1 a1).N) : (dat1 V a1 hH c).after 7 t = iblk1 V a1 c 7 t := by dsimp only [dat1]; try rfl
theorem after1_8 (hH : Hyps1 a1.1) (c : Dev nD) (t : Fin (cfg1 a1).N) : (dat1 V a1 hH c).after 8 t = iblk1 V a1 c 8 t := by dsimp only [dat1]; try rfl
theorem after1_9 (hH : Hyps1 a1.1) (c : Dev nD) (t : Fin (cfg1 a1).N) : (dat1 V a1 hH c).after 9 t = iblk1 V a1 c 9 t := by dsimp only [dat1]; try rfl
theorem after1_10 (hH : Hyps1 a1.1) (c : Dev nD) (t : Fin (cfg1 a1).N) : (dat1 V a1 hH c).after 10 t = iblk1 V a1 c 10 t := by dsimp only [dat1]; try rfl
theorem after1_11 (hH : Hyps1 a1.1) (c : Dev nD) (t : Fin (cfg1 a1).N) : (dat1 V a1 hH c).after 11 t = iblk1 V a1 c 11 t := by dsimp only [dat1]; try rfl
theorem after1_12 (hH : Hyps1 a1.1) (c : Dev nD) (t : Fin (cfg1 a1).N) : (dat1 V a1 hH c).after 12 t = iblk1 V a1 c 12 t := by dsimp only [dat1]; try rfl
theorem after1_13 (hH : Hyps1 a1.1) (c : Dev nD) (t : Fin (cfg1 a1).N) : (dat1 V a1 hH c).after 13 t = outsAt1 V a1 hH c t := by dsimp only [dat1]; try rfl

/-! An input window's current staging buffer holds that window's block at every point, fetched there or not: each input's block is its
    whole array at every point, so the block index never moves after the first fetch, and the body leaves the block in place. -/
theorem before1_0 (hH : Hyps1 a1.1) (c : Dev nD) (t : Fin (cfg1 a1).N) (d) : (dat1 V a1 hH c).before 0 t d = iblk1 V a1 c 0 t :=
  ((dat1 V a1 hH c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (hH : Hyps1 a1.1) (c : Dev nD) (t : Fin (cfg1 a1).N) (d) : (dat1 V a1 hH c).before 1 t d = iblk1 V a1 c 1 t :=
  ((dat1 V a1 hH c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (hH : Hyps1 a1.1) (c : Dev nD) (t : Fin (cfg1 a1).N) (d) : (dat1 V a1 hH c).before 2 t d = iblk1 V a1 c 2 t :=
  ((dat1 V a1 hH c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (hH : Hyps1 a1.1) (c : Dev nD) (t : Fin (cfg1 a1).N) (d) : (dat1 V a1 hH c).before 3 t d = iblk1 V a1 c 3 t :=
  ((dat1 V a1 hH c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (hH : Hyps1 a1.1) (c : Dev nD) (t : Fin (cfg1 a1).N) (d) : (dat1 V a1 hH c).before 4 t d = iblk1 V a1 c 4 t :=
  ((dat1 V a1 hH c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (hH : Hyps1 a1.1) (c : Dev nD) (t : Fin (cfg1 a1).N) (d) : (dat1 V a1 hH c).before 5 t d = iblk1 V a1 c 5 t :=
  ((dat1 V a1 hH c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (hH : Hyps1 a1.1) (c : Dev nD) (t : Fin (cfg1 a1).N) (d) : (dat1 V a1 hH c).before 6 t d = iblk1 V a1 c 6 t :=
  ((dat1 V a1 hH c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (hH : Hyps1 a1.1) (c : Dev nD) (t : Fin (cfg1 a1).N) (d) : (dat1 V a1 hH c).before 7 t d = iblk1 V a1 c 7 t :=
  ((dat1 V a1 hH c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (hH : Hyps1 a1.1) (c : Dev nD) (t : Fin (cfg1 a1).N) (d) : (dat1 V a1 hH c).before 8 t d = iblk1 V a1 c 8 t :=
  ((dat1 V a1 hH c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (hH : Hyps1 a1.1) (c : Dev nD) (t : Fin (cfg1 a1).N) (d) : (dat1 V a1 hH c).before 9 t d = iblk1 V a1 c 9 t :=
  ((dat1 V a1 hH c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (hH : Hyps1 a1.1) (c : Dev nD) (t : Fin (cfg1 a1).N) (d) : (dat1 V a1 hH c).before 10 t d = iblk1 V a1 c 10 t :=
  ((dat1 V a1 hH c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (hH : Hyps1 a1.1) (c : Dev nD) (t : Fin (cfg1 a1).N) (d) : (dat1 V a1 hH c).before 11 t d = iblk1 V a1 c 11 t :=
  ((dat1 V a1 hH c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)
theorem before1_12 (hH : Hyps1 a1.1) (c : Dev nD) (t : Fin (cfg1 a1).N) (d) : (dat1 V a1 hH c).before 12 t d = iblk1 V a1 c 12 t :=
  ((dat1 V a1 hH c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)

/-! ## The body obligation, at a generic point -/

/-- What the body is called with at a point: the invariant, the core's tallies, and each window's current staging buffer at what the
    pipeline left there. -/
def bodyPre1 (hH : Hyps1 a1.1) (c : Dev nD) (t : Fin (cfg1 a1).N) : sProp 𝕄 :=
  iprop((dat1 V a1 hH c).Φ t.castSucc ∗ (dat1 V a1 hH c).owesAt () t.castSucc
    ∗ (∃ d, owns (c : Thread nD τ) (ms1_0 a1 t) fullShare ((dat1 V a1 hH c).before 0 t d))
    ∗ (∃ d, owns (c : Thread nD τ) (ms1_1 a1 t) fullShare ((dat1 V a1 hH c).before 1 t d))
    ∗ (∃ d, owns (c : Thread nD τ) (ms1_2 a1 t) fullShare ((dat1 V a1 hH c).before 2 t d))
    ∗ (∃ d, owns (c : Thread nD τ) (ms1_3 a1 t) fullShare ((dat1 V a1 hH c).before 3 t d))
    ∗ (∃ d, owns (c : Thread nD τ) (ms1_4 a1 t) fullShare ((dat1 V a1 hH c).before 4 t d))
    ∗ (∃ d, owns (c : Thread nD τ) (ms1_5 a1 t) fullShare ((dat1 V a1 hH c).before 5 t d))
    ∗ (∃ d, owns (c : Thread nD τ) (ms1_6 a1 t) fullShare ((dat1 V a1 hH c).before 6 t d))
    ∗ (∃ d, owns (c : Thread nD τ) (ms1_7 a1 t) fullShare ((dat1 V a1 hH c).before 7 t d))
    ∗ (∃ d, owns (c : Thread nD τ) (ms1_8 a1 t) fullShare ((dat1 V a1 hH c).before 8 t d))
    ∗ (∃ d, owns (c : Thread nD τ) (ms1_9 a1 t) fullShare ((dat1 V a1 hH c).before 9 t d))
    ∗ (∃ d, owns (c : Thread nD τ) (ms1_10 a1 t) fullShare ((dat1 V a1 hH c).before 10 t d))
    ∗ (∃ d, owns (c : Thread nD τ) (ms1_11 a1 t) fullShare ((dat1 V a1 hH c).before 11 t d))
    ∗ (∃ d, owns (c : Thread nD τ) (ms1_12 a1 t) fullShare ((dat1 V a1 hH c).before 12 t d))
    ∗ (∃ d, owns (c : Thread nD τ) (ms1_13 a1 t) fullShare ((dat1 V a1 hH c).before 13 t d)))

/-- What it returns: the same, each buffer at what the proof data say the body leaves. -/
def bodyPost1 (hH : Hyps1 a1.1) (c : Dev nD) (t : Fin (cfg1 a1).N) : sProp 𝕄 :=
  iprop((dat1 V a1 hH c).Φ t.succ ∗ (dat1 V a1 hH c).owesAt () t.succ
    ∗ owns (c : Thread nD τ) (ms1_0 a1 t) fullShare ((dat1 V a1 hH c).after 0 t)
    ∗ owns (c : Thread nD τ) (ms1_1 a1 t) fullShare ((dat1 V a1 hH c).after 1 t)
    ∗ owns (c : Thread nD τ) (ms1_2 a1 t) fullShare ((dat1 V a1 hH c).after 2 t)
    ∗ owns (c : Thread nD τ) (ms1_3 a1 t) fullShare ((dat1 V a1 hH c).after 3 t)
    ∗ owns (c : Thread nD τ) (ms1_4 a1 t) fullShare ((dat1 V a1 hH c).after 4 t)
    ∗ owns (c : Thread nD τ) (ms1_5 a1 t) fullShare ((dat1 V a1 hH c).after 5 t)
    ∗ owns (c : Thread nD τ) (ms1_6 a1 t) fullShare ((dat1 V a1 hH c).after 6 t)
    ∗ owns (c : Thread nD τ) (ms1_7 a1 t) fullShare ((dat1 V a1 hH c).after 7 t)
    ∗ owns (c : Thread nD τ) (ms1_8 a1 t) fullShare ((dat1 V a1 hH c).after 8 t)
    ∗ owns (c : Thread nD τ) (ms1_9 a1 t) fullShare ((dat1 V a1 hH c).after 9 t)
    ∗ owns (c : Thread nD τ) (ms1_10 a1 t) fullShare ((dat1 V a1 hH c).after 10 t)
    ∗ owns (c : Thread nD τ) (ms1_11 a1 t) fullShare ((dat1 V a1 hH c).after 11 t)
    ∗ owns (c : Thread nD τ) (ms1_12 a1 t) fullShare ((dat1 V a1 hH c).after 12 t)
    ∗ owns (c : Thread nD τ) (ms1_13 a1 t) fullShare ((dat1 V a1 hH c).after 13 t))

set_option maxHeartbeats 4000000 in set_option maxRecDepth 200000 in
/-- The body at any point. The inputs' buffers hold their blocks; the invariant hands the run its scratch at whatever it holds, its
    cells at zero and the tables' halves; of the adjacency array the run is lent the thirty-two shares of its cells, the other
    twenty-three and the remainder waiting aside; the run, taken at the scratch's actual contents, returns everything as it was and
    the output block overwritten whole, whose contents therefore read back the same through any view, and the same as at the fixed
    scratch contents the proof data name, since the pieces do not depend on what the scratch held; the parts of the array compose to
    the full share again; the core's tally goes in at what the earlier points recorded and comes back with this point's waits, which
    any bound admits. -/
theorem sound_body1 (hH : Hyps1 a1.1) (c : Dev nD) (t : Fin (cfg1 a1).N) :
    bodyPre1 V a1 hH c t ⊢ wp frame (wpE (defs₀ (F := F)) Variants.none c none) Set.univ (bodyAt1 a1 t) (fun _ => bodyPost1 V a1 hH c t) := by
  unfold bodyPre1 bodyPost1 bodyAt1
  simp only [before1_0, before1_1, before1_2, before1_3, before1_4, before1_5, before1_6, before1_7, before1_8, before1_9, before1_10, before1_11, before1_12]
  rw [show (dat1 V a1 hH c).Φ t.succ = (dat1 V a1 hH c).Φ t.castSucc from rfl,
    after1_0, after1_1, after1_2, after1_3, after1_4, after1_5, after1_6, after1_7, after1_8, after1_9, after1_10, after1_11, after1_12, after1_13]
  rw [show (dat1 V a1 hH c).Φ t.castSucc = iprop(Pipeline.ΦD osem1 spec1 H1 V c ∗ Pipeline.ΦT pre1 a1.1 c) from rfl, PhiD1_eq, PhiT1_eq,
    hbToks1_eq c (V c main_arg1)]
  unfold Dat.owesAt Pipeline.owesWithin
  rw [show (dat1 V a1 hH c).owed t.castSucc = 0 from rfl, show (dat1 V a1 hH c).owed t.succ = 0 from rfl]
  unfold outsAt1
  iintro ⟨⟨⟨⟨Hr0, Hr1, Hr2, Hr3, Hr4, Hr5, Hr6, Hr7, ⟨%ds0, HS0⟩, ⟨%ds1, HS1⟩, ⟨%ds2, HS2⟩, ⟨%ds3, HS3⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hrem, Hk0, Hk1, Hk2, Hk3, Hk4, Hk5, Hk6, Hk7, Hk8, Hk9, Hk10, Hk11, Hk12, Hk13, Hk14, Hk15, Hk16, Hk17, Hk18, Hk19, Hk20, Hk21, Hk22, Hk23, Hk24, Hk25, Hk26, Hk27, Hk28, Hk29, Hk30, Hk31, Hk32, Hk33, Hk34, Hk35, Hk36, Hk37, Hk38, Hk39, Hk40, Hk41, Hk42, Hk43, Hk44, Hk45, Hk46, Hk47, Hk48, Hk49, Hk50, Hk51, Hk52, Hk53, Hk54⟩⟩, ⟨HT0, HT1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun1 c (grid1.coords t) _ _ _ _ _ _ _ _ _ _ _ _ _ _ _ _ _ _ _ _ _ _ _ _ _ _ _ _ (iblk1 V a1 c 0 t) (iblk1 V a1 c 1 t) (iblk1 V a1 c 2 t) (iblk1 V a1 c 3 t) (iblk1 V a1 c 4 t) (iblk1 V a1 c 5 t) (iblk1 V a1 c 6 t) (iblk1 V a1 c 7 t) (iblk1 V a1 c 8 t) (iblk1 V a1 c 9 t) (iblk1 V a1 c 10 t) (iblk1 V a1 c 11 t) (iblk1 V a1 c 12 t) ds0 ds1 ds2 ds3 (a1.1 0) (a1.1 1) (V c main_arg1) (hw1 hH _) (hw2 hH _) (hw3 hH _) (hw4 hH _) (hw5 hH _) (hw6 hH _) (hw7 hH _) (hw8 hH _) (hw9 hH _) (hw10 hH _) (hw11 hH _) (hw12 hH _) (hw13 hH _) (hw14 hH _) (hw15 hH _) (hw16 hH _) (hw17 hH _) (hw18 hH _) (hw19 hH _) (hw20 hH _) (hw21 hH _) (hw22 hH _) (hw23 hH _) (hw24 hH _) (hw25 hH _) (hw26 hH _) (hw27 hH _) (hw28 hH _) (hw29 hH _) (hw30 hH _) (hw31 hH _) (hw32 hH _) (hw33 hH _) (hw34 hH _) (hw35 hH _) (hw36 hH _) (hw37 hH _) (hw38 hH _) (hw39 hH _) (hw40 hH _) (hw41 hH _) (hw42 hH _) (hw43 hH _) (hw44 hH _) (hw45 hH _) (hw46 hH _) (hw47 hH _) (hw48 hH _) (hw49 hH _) (hw50 hH _) (hw51 hH _) (hw52 hH _) (hw53 hH _) (hw54 hH _) (hw55 hH _) (hw56 hH _) (hw57 hH _) (hw58 hH _) (hw59 hH _) (hw60 hH _) (hw61 hH _) (hw62 hH _) (hw63 hH _) (hw64 hH _) (hw65 hH _) (hw66 hH _) (hw67 hH _) (hw68 hH _) (hw69 hH _) (hw70 hH _) (hw71 hH _) (hw72 hH _) (hw73 hH _) (hw74 hH _) (hw75 hH _) (hw76 hH _) (hw77 hH _) (hw78 hH _) (hw79 hH _) (hw80 hH _) (hw81 hH _) (hw82 hH _) (hw83 hH _) (hw84 hH _) (hw85 hH _) (hw86 hH _) (hw87 hH _) (hw88 hH _) (hw89 hH _) (hw90 hH _) (hw91 hH _) (hw92 hH _) (hw93 hH _) (hw94 hH _) (hw95 hH _) (hw96 hH _) (hw97 hH _) (hw98 hH _) (hw99 hH _) (hw100 hH _) (hw101 hH _) (hw102 hH _) (hw103 hH _) (hw104 hH _) (hw105 hH _) (hw106 hH _) (hw107 hH _) (hw108 hH _) (hw109 hH _) (hw110 hH _) (hw111 hH _) (hw112 hH _) (hw113 hH _) (hw114 hH _) (hw115 hH _) (hw116 hH _) (hw117 hH _) (hw118 hH _) (hw119 hH _) (hw120 hH _) (hw121 hH _) (hw122 hH _) (hw123 hH _) (hw124 hH _) (hw125 hH _) (hw126 hH _) (hw127 hH _) (hw128 hH _)).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  isplitl [HS2]; · iexact HS2
  isplitl [HS3]; · iexact HS3
  isplitl [HT0]; · iexact HT0
  isplitl [HT1]; · iexact HT1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hk23]; · iexact Hk23
  isplitl [Hk24]; · iexact Hk24
  isplitl [Hk25]; · iexact Hk25
  isplitl [Hk26]; · iexact Hk26
  isplitl [Hk27]; · iexact Hk27
  isplitl [Hk28]; · iexact Hk28
  isplitl [Hk29]; · iexact Hk29
  isplitl [Hk30]; · iexact Hk30
  isplitl [Hk31]; · iexact Hk31
  isplitl [Hk32]; · iexact Hk32
  isplitl [Hk33]; · iexact Hk33
  isplitl [Hk34]; · iexact Hk34
  isplitl [Hk35]; · iexact Hk35
  isplitl [Hk36]; · iexact Hk36
  isplitl [Hk37]; · iexact Hk37
  isplitl [Hk38]; · iexact Hk38
  isplitl [Hk39]; · iexact Hk39
  isplitl [Hk40]; · iexact Hk40
  isplitl [Hk41]; · iexact Hk41
  isplitl [Hk42]; · iexact Hk42
  isplitl [Hk43]; · iexact Hk43
  isplitl [Hk44]; · iexact Hk44
  isplitl [Hk45]; · iexact Hk45
  isplitl [Hk46]; · iexact Hk46
  isplitl [Hk47]; · iexact Hk47
  isplitl [Hk48]; · iexact Hk48
  isplitl [Hk49]; · iexact Hk49
  isplitl [Hk50]; · iexact Hk50
  isplitl [Hk51]; · iexact Hk51
  isplitl [Hk52]; · iexact Hk52
  isplitl [Hk53]; · iexact Hk53
  isplitl [Hk54]; · iexact Hk54
  isplitl [HW]; · iexact HW
  iintro ⟨H0, H1, H2, H3, H4, H5, H6, H7, H8, H9, H10, H11, H12, ⟨%e13, H13⟩, HS0, HS1, HS2, HS3, HT0, HT1, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hk23, Hk24, Hk25, Hk26, Hk27, Hk28, Hk29, Hk30, Hk31, Hk32, Hk33, Hk34, Hk35, Hk36, Hk37, Hk38, Hk39, Hk40, Hk41, Hk42, Hk43, Hk44, Hk45, Hk46, Hk47, Hk48, Hk49, Hk50, Hk51, Hk52, Hk53, Hk54, ⟨%W', HW'⟩⟩
  -- the invariant again: the scoped rest, the register, the cells, the array's parts in order, the tables
  isplitl [Hr0 Hr1 Hr2 Hr3 Hr4 Hr5 Hr6 Hr7 HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hrem Hk0 Hk1 Hk2 Hk3 Hk4 Hk5 Hk6 Hk7 Hk8 Hk9 Hk10 Hk11 Hk12 Hk13 Hk14 Hk15 Hk16 Hk17 Hk18 Hk19 Hk20 Hk21 Hk22 Hk23 Hk24 Hk25 Hk26 Hk27 Hk28 Hk29 Hk30 Hk31 Hk32 Hk33 Hk34 Hk35 Hk36 Hk37 Hk38 Hk39 Hk40 Hk41 Hk42 Hk43 Hk44 Hk45 Hk46 Hk47 Hk48 Hk49 Hk50 Hk51 Hk52 Hk53 Hk54 HT0 HT1]
  · isplitl [Hr0 Hr1 Hr2 Hr3 Hr4 Hr5 Hr6 Hr7 HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hrem Hk0 Hk1 Hk2 Hk3 Hk4 Hk5 Hk6 Hk7 Hk8 Hk9 Hk10 Hk11 Hk12 Hk13 Hk14 Hk15 Hk16 Hk17 Hk18 Hk19 Hk20 Hk21 Hk22 Hk23 Hk24 Hk25 Hk26 Hk27 Hk28 Hk29 Hk30 Hk31 Hk32 Hk33 Hk34 Hk35 Hk36 Hk37 Hk38 Hk39 Hk40 Hk41 Hk42 Hk43 Hk44 Hk45 Hk46 Hk47 Hk48 Hk49 Hk50 Hk51 Hk52 Hk53 Hk54]
    · isplitl [Hr0 Hr1 Hr2 Hr3 Hr4 Hr5 Hr6 Hr7 HS0 HS1 HS2 HS3]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        iexact HS3
      isplitl [Hg]; · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hq26]; · iexact Hq26
        isplitl [Hq27]; · iexact Hq27
        isplitl [Hq28]; · iexact Hq28
        isplitl [Hq29]; · iexact Hq29
        isplitl [Hq30]; · iexact Hq30
        iexact Hq31
      isplitl [Hrem]; · iexact Hrem
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hk8]; · iexact Hk8
      isplitl [Hk9]; · iexact Hk9
      isplitl [Hk10]; · iexact Hk10
      isplitl [Hk11]; · iexact Hk11
      isplitl [Hk12]; · iexact Hk12
      isplitl [Hk13]; · iexact Hk13
      isplitl [Hk14]; · iexact Hk14
      isplitl [Hk15]; · iexact Hk15
      isplitl [Hk16]; · iexact Hk16
      isplitl [Hk17]; · iexact Hk17
      isplitl [Hk18]; · iexact Hk18
      isplitl [Hk19]; · iexact Hk19
      isplitl [Hk20]; · iexact Hk20
      isplitl [Hk21]; · iexact Hk21
      isplitl [Hk22]; · iexact Hk22
      isplitl [Hk23]; · iexact Hk23
      isplitl [Hk24]; · iexact Hk24
      isplitl [Hk25]; · iexact Hk25
      isplitl [Hk26]; · iexact Hk26
      isplitl [Hk27]; · iexact Hk27
      isplitl [Hk28]; · iexact Hk28
      isplitl [Hk29]; · iexact Hk29
      isplitl [Hk30]; · iexact Hk30
      isplitl [Hk31]; · iexact Hk31
      isplitl [Hk32]; · iexact Hk32
      isplitl [Hk33]; · iexact Hk33
      isplitl [Hk34]; · iexact Hk34
      isplitl [Hk35]; · iexact Hk35
      isplitl [Hk36]; · iexact Hk36
      isplitl [Hk37]; · iexact Hk37
      isplitl [Hk38]; · iexact Hk38
      isplitl [Hk39]; · iexact Hk39
      isplitl [Hk40]; · iexact Hk40
      isplitl [Hk41]; · iexact Hk41
      isplitl [Hk42]; · iexact Hk42
      isplitl [Hk43]; · iexact Hk43
      isplitl [Hk44]; · iexact Hk44
      isplitl [Hk45]; · iexact Hk45
      isplitl [Hk46]; · iexact Hk46
      isplitl [Hk47]; · iexact Hk47
      isplitl [Hk48]; · iexact Hk48
      isplitl [Hk49]; · iexact Hk49
      isplitl [Hk50]; · iexact Hk50
      isplitl [Hk51]; · iexact Hk51
      isplitl [Hk52]; · iexact Hk52
      isplitl [Hk53]; · iexact Hk53
      iexact Hk54
    isplitl [HT0]; · iexact HT0
    iexact HT1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro
  refine (View.read_writes_of_cover _ _ VO1_13 VO1_13.junk _ (cover1_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
  exact congrArg (fun L => VO1_13.read (Elt F) (VO1_13.writes (Elt F) VO1_13.junk L)) (kernelRun1_indep (hx0 := hH.1) (hx1 := hH.2) ..)

-- the body's text at a point is compared with the body table's row for its label, argument by argument through fourteen windows
set_option maxRecDepth 200000 in
/-- The library's body obligation, at every point: its two conjunctions over the fourteen windows written out. -/
theorem body_obligation1 (hH : Hyps1 a1.1) (c : Dev nD) : BodyObligation (dat1 (F := F) V a1 hH c) (defs₀ (F := F)) Variants.none () Set.univ := fun t => by
  rw [bigSep_W1, bigSep_W1]
  exact sound_body1 V a1 hH c t

end Cert.KernelIdeal.Hand

end
-- ==== Proof.KI.Regs.lean ====
import proofs.«428817_j39556648796289_1_alg».proof.Proof.Gen.KernelIdeal.Regions
import proofs.«428817_j39556648796289_1_alg».proof.Proof.KI.R0
import proofs.«428817_j39556648796289_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Tactic

/-! # The two kernel regions as segments of @main, and the run

@main is: a stretch of host operations (the two index tables cut out of the edge list, two biases reshaped);
region 0 (the residual block h = x + relu(relu(x·w1+b1)·w2+b2), output array main_v6); a second stretch of
reshapes; region 1 (the common-neighbour scores, output array main_v13), which reads its row indices from the
two tables and copies rows of the adjacency matrix main_arg1 itself.

This module fixes the buffer contents at every boundary between two items as a fold from the launch memory,
gives each pipeline its proof data at its region's entry contents, states each region as a segment between two
such boundaries, and runs the four segments from the launch to the return. The conclusion: every unscoped buffer
of the core ends at the last boundary's contents. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (Pipeline.UD sig nD τ) ℕ

/-! ## The buffer contents at each boundary: a fold through @main from the launch memory -/

variable (m : (ℓ : Loc nD τ sig) → Buf (Elt F) ℓ)

/-- The core's buffers at launch. -/
abbrev W0 : Dev nD → Valuation τ sig (Elt F) := fun c b => m (c, b)
/-- After the first host stretch (region 0's entry): the tables and the reshaped biases written. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- At region 0's exit: its arrays at what the write-backs leave (an input as entered), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The two index tables as region 1 finds them: what the first host stretch wrote (nothing later writes them). -/
def tbl : pre1.Contents (Elt F) := fun k => V1 m 0 (pre1.ref k)
/-- Region 1's tables at those contents: the side condition on them is empty. -/
def adm1 : (pcfg1 (F := F)).Adm := ⟨tbl m, trivial⟩

/-! ### What the host stretches and region 0 leave unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
/-- An input window's array leaves region 0 as entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

/-- Region 1 finds the tables at tbl: the second host stretch and region 0 write neither. -/
theorem hpf1 (c : Dev nD) (k : Fin pre1.K) : V3 m c (pre1.ref k) = (adm1 m).1 k := by
  obtain rfl : c = 0 := Subsingleton.elim _ _
  have h1 : V3 m 0 main_v1 = V1 m 0 main_v1 := (W3_of m 0 main_v1 (by decide)).trans (W2_of_ne m 0 main_v1 (by decide))
  have h3 : V3 m 0 main_v3 = V1 m 0 main_v3 := (W3_of m 0 main_v3 (by decide)).trans (W2_of_ne m 0 main_v3 (by decide))
  match k with
  | ⟨0, _⟩ => exact h1
  | ⟨1, _⟩ => exact h3

/-- Region 1 finds region 0's result in main_v6: the second host stretch does not write it. -/
theorem V3_main_v6 (c : Dev nD) : V3 m c main_v6 = (dat0 (V1 m) c).arrAt 5 cfg0.N :=
  (W3_of m c main_v6 (by decide)).trans (W2_arr m c 5)

/-! ### Region 1's exit, under the bound on the tables' words its body assumes -/

variable (hH : Hyps1 (tbl m))

/-- At region 1's exit: its arrays at what the write-backs leave, every other buffer as entered. -/
def W4 (c : Dev nD) : Valuation τ sig (Elt F) :=
  Pipeline.withArrays spec1 c (W3 m c) fun w => (dat1 (V3 m) (adm1 m) hH c).arrAt w (cfg1 (adm1 m)).N
theorem W4_arr (c : Dev nD) (w : Fin (cfg1 (adm1 m)).W) :
    W4 m hH c (Proc.devRef .tc (Pipeline.arrRef spec1 w)) = (dat1 (V3 m) (adm1 m) hH c).arrAt w (cfg1 (adm1 m)).N := by
  unfold W4; exact Pipeline.withArrays_arr spec1 winFacts1.arr_inj c _ _ w
theorem W4_of_ne (c : Dev nD) (b : Ref sig .tc) (hb : ∀ w, Pipeline.arrRef spec1 w ≠ b) :
    W4 m hH c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m hH c b
/-- An input window's array leaves region 1 as entered. -/
theorem W4_in (c : Dev nD) (w : Fin (cfg1 (adm1 m)).W) (hin : ((cfg1 (adm1 m)).win w).isOut = false) :
    W4 m hH c (Proc.devRef .tc (Pipeline.arrRef spec1 w)) = W3 m c (Proc.devRef .tc (Pipeline.arrRef spec1 w)) :=
  (W4_arr m hH c w).trans (((dat1 (V3 m) (adm1 m) hH c).arrAt_in w hin _).trans rfl)

/-- The scores' array ends at what region 1's write-backs leave. -/
theorem W4_main_v13 (c : Dev nD) :
    W4 m hH c (Proc.devRef .tc main_v13) = (dat1 (V3 m) (adm1 m) hH c).arrAt 13 (cfg1 (adm1 m)).N :=
  W4_arr m hH c 13

/-! ### The arguments end as launched: no host operation writes one, and a region reads it through an input window or
    bypasses it, so the fold at an argument's buffer walks back to the launch memory -/

theorem W4_main_arg0 (c : Dev nD) : W4 m hH c (Proc.devRef .tc main_arg0) = m ((c : Thread nD τ).loc main_arg0) :=
  (W4_in m hH c 0 rfl).trans <| (W3_of m c main_arg0 (by decide)).trans <| (W2_in m c 0 rfl).trans <| (W1_of m c main_arg0 (by decide)).trans rfl
theorem W4_main_arg1 (c : Dev nD) : W4 m hH c (Proc.devRef .tc main_arg1) = m ((c : Thread nD τ).loc main_arg1) :=
  (W4_of_ne m hH c main_arg1 (by decide)).trans <| (W3_of m c main_arg1 (by decide)).trans <| (W2_of_ne m c main_arg1 (by decide)).trans <| (W1_of m c main_arg1 (by decide)).trans rfl
theorem W4_main_arg2 (c : Dev nD) : W4 m hH c (Proc.devRef .tc main_arg2) = m ((c : Thread nD τ).loc main_arg2) :=
  (W4_of_ne m hH c main_arg2 (by decide)).trans <| (W3_of m c main_arg2 (by decide)).trans <| (W2_of_ne m c main_arg2 (by decide)).trans <| (W1_of m c main_arg2 (by decide)).trans rfl
theorem W4_main_arg3 (c : Dev nD) : W4 m hH c (Proc.devRef .tc main_arg3) = m ((c : Thread nD τ).loc main_arg3) :=
  (W4_of_ne m hH c main_arg3 (by decide)).trans <| (W3_of m c main_arg3 (by decide)).trans <| (W2_in m c 1 rfl).trans <| (W1_of m c main_arg3 (by decide)).trans rfl
theorem W4_main_arg4 (c : Dev nD) : W4 m hH c (Proc.devRef .tc main_arg4) = m ((c : Thread nD τ).loc main_arg4) :=
  (W4_of_ne m hH c main_arg4 (by decide)).trans <| (W3_of m c main_arg4 (by decide)).trans <| (W2_of_ne m c main_arg4 (by decide)).trans <| (W1_of m c main_arg4 (by decide)).trans rfl
theorem W4_main_arg5 (c : Dev nD) : W4 m hH c (Proc.devRef .tc main_arg5) = m ((c : Thread nD τ).loc main_arg5) :=
  (W4_of_ne m hH c main_arg5 (by decide)).trans <| (W3_of m c main_arg5 (by decide)).trans <| (W2_in m c 3 rfl).trans <| (W1_of m c main_arg5 (by decide)).trans rfl
theorem W4_main_arg6 (c : Dev nD) : W4 m hH c (Proc.devRef .tc main_arg6) = m ((c : Thread nD τ).loc main_arg6) :=
  (W4_of_ne m hH c main_arg6 (by decide)).trans <| (W3_of m c main_arg6 (by decide)).trans <| (W2_of_ne m c main_arg6 (by decide)).trans <| (W1_of m c main_arg6 (by decide)).trans rfl
theorem W4_main_arg7 (c : Dev nD) : W4 m hH c (Proc.devRef .tc main_arg7) = m ((c : Thread nD τ).loc main_arg7) :=
  (W4_in m hH c 4 rfl).trans <| (W3_of m c main_arg7 (by decide)).trans <| (W2_of_ne m c main_arg7 (by decide)).trans <| (W1_of m c main_arg7 (by decide)).trans rfl
theorem W4_main_arg8 (c : Dev nD) : W4 m hH c (Proc.devRef .tc main_arg8) = m ((c : Thread nD τ).loc main_arg8) :=
  (W4_of_ne m hH c main_arg8 (by decide)).trans <| (W3_of m c main_arg8 (by decide)).trans <| (W2_of_ne m c main_arg8 (by decide)).trans <| (W1_of m c main_arg8 (by decide)).trans rfl
theorem W4_main_arg9 (c : Dev nD) : W4 m hH c (Proc.devRef .tc main_arg9) = m ((c : Thread nD τ).loc main_arg9) :=
  (W4_in m hH c 6 rfl).trans <| (W3_of m c main_arg9 (by decide)).trans <| (W2_of_ne m c main_arg9 (by decide)).trans <| (W1_of m c main_arg9 (by decide)).trans rfl
theorem W4_main_arg10 (c : Dev nD) : W4 m hH c (Proc.devRef .tc main_arg10) = m ((c : Thread nD τ).loc main_arg10) :=
  (W4_of_ne m hH c main_arg10 (by decide)).trans <| (W3_of m c main_arg10 (by decide)).trans <| (W2_of_ne m c main_arg10 (by decide)).trans <| (W1_of m c main_arg10 (by decide)).trans rfl
theorem W4_main_arg11 (c : Dev nD) : W4 m hH c (Proc.devRef .tc main_arg11) = m ((c : Thread nD τ).loc main_arg11) :=
  (W4_in m hH c 2 rfl).trans <| (W3_of m c main_arg11 (by decide)).trans <| (W2_of_ne m c main_arg11 (by decide)).trans <| (W1_of m c main_arg11 (by decide)).trans rfl
theorem W4_main_arg12 (c : Dev nD) : W4 m hH c (Proc.devRef .tc main_arg12) = m ((c : Thread nD τ).loc main_arg12) :=
  (W4_of_ne m hH c main_arg12 (by decide)).trans <| (W3_of m c main_arg12 (by decide)).trans <| (W2_of_ne m c main_arg12 (by decide)).trans <| (W1_of m c main_arg12 (by decide)).trans rfl
theorem W4_main_arg13 (c : Dev nD) : W4 m hH c (Proc.devRef .tc main_arg13) = m ((c : Thread nD τ).loc main_arg13) :=
  (W4_in m hH c 8 rfl).trans <| (W3_of m c main_arg13 (by decide)).trans <| (W2_of_ne m c main_arg13 (by decide)).trans <| (W1_of m c main_arg13 (by decide)).trans rfl
theorem W4_main_arg14 (c : Dev nD) : W4 m hH c (Proc.devRef .tc main_arg14) = m ((c : Thread nD τ).loc main_arg14) :=
  (W4_of_ne m hH c main_arg14 (by decide)).trans <| (W3_of m c main_arg14 (by decide)).trans <| (W2_of_ne m c main_arg14 (by decide)).trans <| (W1_of m c main_arg14 (by decide)).trans rfl
theorem W4_main_arg15 (c : Dev nD) : W4 m hH c (Proc.devRef .tc main_arg15) = m ((c : Thread nD τ).loc main_arg15) :=
  (W4_in m hH c 10 rfl).trans <| (W3_of m c main_arg15 (by decide)).trans <| (W2_of_ne m c main_arg15 (by decide)).trans <| (W1_of m c main_arg15 (by decide)).trans rfl
theorem W4_main_arg16 (c : Dev nD) : W4 m hH c (Proc.devRef .tc main_arg16) = m ((c : Thread nD τ).loc main_arg16) :=
  (W4_of_ne m hH c main_arg16 (by decide)).trans <| (W3_of m c main_arg16 (by decide)).trans <| (W2_of_ne m c main_arg16 (by decide)).trans <| (W1_of m c main_arg16 (by decide)).trans rfl
theorem W4_main_arg17 (c : Dev nD) : W4 m hH c (Proc.devRef .tc main_arg17) = m ((c : Thread nD τ).loc main_arg17) :=
  (W4_of_ne m hH c main_arg17 (by decide)).trans <| (W3_of m c main_arg17 (by decide)).trans <| (W2_of_ne m c main_arg17 (by decide)).trans <| (W1_of m c main_arg17 (by decide)).trans rfl

/-! ## The proof data of both pipelines, and the thread state -/

/-- Each pipeline's tables: pipeline 0 has none; pipeline 1's at tbl. -/
def adm : (p : Fin 2) → (pcfgs (F := F) p).Adm
  | ⟨0, _⟩ => cfg0.toPCfg_adm
  | ⟨1, _⟩ => adm1 m
  | ⟨_ + 2, h⟩ => absurd h (Nat.not_lt.2 (Nat.le_add_left _ _))

/-- Each pipeline's proof data at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (V1 m) c
  | ⟨1, _⟩ => fun c => dat1 (V3 m) (adm1 m) hH c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped buffers from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The adjacency matrix, which region 1's body copies rows of: whole at its entry contents. -/
abbrev adjPt (c : Dev nD) : sProp 𝕄 := bigSep H1 fun b => ((c : Thread nD τ).loc b) ↦{fullShare} V3 m c b
/-- The buffers that bypass region 1 altogether, whole at their entry contents. -/
abbrev bypass1 (c : Dev nD) : sProp 𝕄 :=
  bigSep (Pipeline.restRefsP sig pre1 spec1 \ H1) fun b => ((c : Thread nD τ).loc b) ↦{fullShare} V3 m c b

/-- The last thread state: region 1's arrays at what it leaves, the tables at the half share the body held them at,
    the adjacency matrix and the bypassing buffers at their entry contents, the generator register. -/
abbrev Tₙ (c : Dev nD) : sProp 𝕄 :=
  iprop((pdats m hH 1 c).arrays ((pdats m hH 1 c).arrAt · (Pipeline.pin (pcfgs (F := F)) (adm m) 1).N)
    ∗ Pipeline.ΦT pre1 (tbl m) c ∗ adjPt m c ∗ bypass1 m c ∗ ∃ r, prngReg c r)

/-! ## The regions as segments -/

set_option backward.isDefEq.respectTransparency.types false in
/-- REGION 0 over the thread state: entered from every unscoped buffer at W1, left at W2. Its arrays split out of the
    unscoped buffers and put back at the exit contents; the generator register into the invariant and out; nothing owed;
    no semaphore of the kernel's own. -/
def reg0 : Pipeline.RegionSeg (pcfgs (F := F)) (adm m) (pdats m hH) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) (adm m) (pdats m hH) (launch0 (F := F)).win (launch0 (F := F)).arr_whole c
      ((pdats m hH 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 0 c).Φ 0 = Φ0 c from rfl]; unfold Φ0
    iintro ⟨Hp, -, Hr⟩
    isplitl [Hr]; · iexact Hr
    iexact Hp
  hout c := by
    rw [Pipeline.ownSems0_none, show (pdats m hH 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hH) ((pdats m hH 0 c).share_full fun _ => rfl)
      (V1 m c) (V2 m c) ((pdats m hH 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W3, left at the last thread state. At entry its
    arrays, the two tables, the adjacency matrix and the bypassing buffers are sorted out of the unscoped buffers. The
    tables reach the invariant whole; the body keeps their right half and the left half is let go, so the exit holds the
    tables at the right half only: enough to read them at the end. The generator register, the own semaphores at zero and
    the adjacency matrix go into the invariant and come back out of it. -/
def reg1 : Pipeline.RegionSeg (pcfgs (F := F)) (adm m) (pdats m hH) () defs₀ 𝒱₀ L lv 1 where
  win := (launch1 (F := F)).win.to₀
  block_pos := (launch1 (F := F)).block_pos
  stage_whole := (launch1 (F := F)).stage_whole
  K := Fin 32
  osem := osem1
  ho := ownSemFacts1
  hbody c := (body_obligation1 (V3 m) (adm1 m) hH c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m hH c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ adjPt m c)
  Y c := iprop((∃ r, prngReg c r) ∗ adjPt m c ∗ Pipeline.ΦT pre1 (tbl m) c)
  Z c := bypass1 m c
  hentry c := by
    have hsplit := Pipeline.arrays_of_unscopedBufs (p := 1) (pcfgs (F := F)) (adm m) (pdats m hH) (launch1 (F := F)).win (launch1 (F := F)).arr_whole c
      ((pdats m hH 1 c).share_full fun _ => rfl) (V3 m c) fun _ => rfl
    rw [Pipeline.unscopedBufs_held] at hsplit
    have htab : (Pipeline.unscopedRest (Ix := Unit) (Name := ℕ) (U := Pipeline.UD sig nD τ) (Lvl := ℕ) spec1 c (V3 m c) : sProp 𝕄)
        ⊢ iprop(Pipeline.prefHeld pre1 c (fun _ => fullShare) (tbl m) ∗ adjPt m c ∗ bypass1 m c) := by
      rw [Pipeline.unscopedRest_split preFacts1 c (V3 m c), show (fun k => V3 m c (pre1.ref k)) = tbl m from funext (hpf1 m c),
        Pipeline.unscopedRestP_sdiff pre1 spec1 H1 H1_sub c (V3 m c)]
    iintro ⟨⟨Hub, Hp, HO⟩, Hos, -⟩
    ihave H := hsplit $$ Hub
    icases H with ⟨Ha, Hrest⟩
    ihave H := htab $$ Hrest
    icases H with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hH 1 c).Φ 0 = iprop(Pipeline.ΦD osem1 spec1 H1 (V3 m) c ∗ Pipeline.ΦT pre1 (tbl m) c) from rfl, Pipeline.ΦD_eq]
    have hhalf : (Pipeline.prefHeld (pcfgs (F := F) 1).pre c (fun _ => fullShare) (adm m 1).1 : sProp 𝕄) ⊢ Pipeline.ΦT pre1 (tbl m) c :=
      ((Pipeline.prefHeld_share pre1 c (PosShare.mem_left_op_right fullShare) (tbl m)).1).trans (by iintro ⟨-, H⟩; iexact H)
    iintro ⟨⟨Hp, Ho, HH⟩, Ht, Hr⟩
    ihave Htr := hhalf $$ Ht
    isplitr [Htr]
    · isplitl [Hr]; · iexact Hr
      isplitl [Hp]; · iexact Hp
      isplitl [Ho]; · iexact Ho
      iexact HH
    · iexact Htr
  hout c := by
    rw [show (pdats m hH 1 c).Φ (Fin.last _) = iprop(Pipeline.ΦD osem1 spec1 H1 (V3 m) c ∗ Pipeline.ΦT pre1 (tbl m) c) from rfl, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    iintro ⟨Ha, HO, ⟨Hp, HH, Ht⟩, HZ⟩
    imodintro
    isplitr [HO]
    · isplitl [Ha]; · iexact Ha
      isplitl [Ht]; · iexact Ht
      isplitl [HH]; · iexact HH
      isplitl [HZ]; · iexact HZ
      iexact Hp
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) (adm m) (pdats m hH) () defs₀ 𝒱₀ L lv) :=
  [ .host (hseg hostOps0 hostOps0_sub hostOps0_fresh (W0 m)),
    .region (reg0 m hH),
    .host (hseg hostOps1 hostOps1_sub hostOps1_fresh (W2 m)),
    .region (reg1 m hH) ]

/-- @main is the run of the four segments. -/
theorem main_run (c : Dev nD) : main (F := F) c = Pipeline.Seg.run (segs m hH) :=
  (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state's four readings cover every unscoped buffer: such a buffer is one of region 1's arrays, a
    table, the adjacency matrix, or bypasses the region. -/
theorem final_read (c : Dev nD) (s : MemSt nD τ sig (Elt F))
    (ha : ∀ w : Fin (cfg1 (adm1 m)).W, s.mem ((c : Thread nD τ).loc (Pipeline.arrRef spec1 w)) = (dat1 (V3 m) (adm1 m) hH c).arrAt w (cfg1 (adm1 m)).N)
    (ht : ∀ k, s.mem ((c : Thread nD τ).loc (pre1.ref k)) = tbl m k)
    (hA : ∀ b ∈ H1, s.mem ((c : Thread nD τ).loc b) = V3 m c b)
    (hZ : ∀ b ∈ Pipeline.restRefsP sig pre1 spec1 \ H1, s.mem ((c : Thread nD τ).loc b) = V3 m c b) :
    ∀ b ∈ Pipeline.ucRefs τ sig, s.mem (((c : Thread nD τ)).1, b) = W4 m hH c b := by
  classical
  intro b hb
  obtain ⟨hb1, hb2⟩ := Finset.mem_filter.mp hb
  obtain ⟨r, -, rfl⟩ := Finset.mem_map.mp hb1
  by_cases h1 : r ∈ Finset.univ.image (Pipeline.arrRef spec1)
  · obtain ⟨w, -, rfl⟩ := Finset.mem_image.mp h1
    exact (ha w).trans (W4_arr m hH c w).symm
  · have hne : ∀ w, Pipeline.arrRef spec1 w ≠ r := fun w e => h1 (Finset.mem_image.mpr ⟨w, Finset.mem_univ _, e⟩)
    refine Eq.trans ?_ (W4_of_ne m hH c r hne).symm
    by_cases h2 : r ∈ Finset.univ.image pre1.ref
    · obtain ⟨k, -, rfl⟩ := Finset.mem_image.mp h2
      exact (ht k).trans (hpf1 m c k).symm
    · have hr : r ∈ Pipeline.restRefsP sig pre1 spec1 :=
        Finset.mem_sdiff.mpr ⟨Finset.mem_sdiff.mpr ⟨Finset.mem_filter.mpr ⟨Finset.mem_univ _, hb2⟩, h1⟩, h2⟩
      by_cases h3 : r ∈ H1
      · exact hA r h3
      · exact hZ r (Finset.mem_sdiff.mpr ⟨hr, h3⟩)

set_option backward.isDefEq.respectTransparency.types false in
/-- THE RUN: every weakly fair execution of @main from memory m with zero counters terminates in a final state whose
    memory holds each unscoped buffer at the last boundary's contents. The launch element is the pipelines'
    own beside the unit of the transfers' counters; the last thread state is read piece by piece against the final state,
    the tables at the half share they are held at. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m hH c b) :=
  Pipeline.θ_run_regions_kit (pcfgs (F := F)) (adm m) (pdats m hH) () (cellOf_inj (adm m)) embL defs₀ 𝒱₀ L lv m ρ main (segs m hH)
    (fun c Q => by rw [main_run m hH c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hH)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m hH c b)
    (hfin := fun c s' => by
      iintro ⟨⟨Ha, Ht, HH, HZ, -⟩, HSI⟩
      ihave Hr := (Pipeline.arrays_read (p := 1) (pcfgs (F := F)) (adm m) (pdats m hH) (launch1 (F := F)).arr_whole c ((pdats m hH 1 c).share_full fun _ => rfl) _ s') $$ [Ha HSI]
      · isplitl [Ha] <;> iassumption
      icases Hr with ⟨%ha, HSI⟩
      ihave Hr := (pointsTo_read_all Finset.univ (fun k => (c : Thread nD τ).loc (pre1.ref k)) (tbl m) s' fullShare.right) $$ [Ht HSI]
      · isplitl [Ht]; · unfold Pipeline.ΦT Pipeline.prefHeld; iexact Ht
        iexact HSI
      icases Hr with ⟨%ht, HSI⟩
      ihave Hr := (pointsTo_read_all H1 (fun b => (c : Thread nD τ).loc b) (V3 m c) s') $$ [HH HSI]
      · isplitl [HH] <;> iassumption
      icases Hr with ⟨%hA, HSI⟩
      ihave Hr := (pointsTo_read_all (Pipeline.restRefsP sig pre1 spec1 \ H1) (fun b => (c : Thread nD τ).loc b) (V3 m c) s') $$ [HZ HSI]
      · isplitl [HZ] <;> iassumption
      icases Hr with ⟨%hZ, HSI⟩
      imodintro
      isplitr
      · ipureintro
        exact final_read m hH c s'.mem ha (fun k => ht k (Finset.mem_univ k)) hA hZ
      · iexact HSI)
    (hQ := fun s h => h)

/-- THE FRAME: every weakly fair execution of @main from memory m with zero counters terminates in a final state whose
    memory holds every argument array as launched: the run's conclusion read at each argument's buffer, which the fold
    walks back to the launch memory. -/
theorem frame_args (hH : Hyps1 (tbl m)) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨
    (h c _ (mem_uc main_arg0 (by decide))).trans (W4_main_arg0 m hH c),
    (h c _ (mem_uc main_arg1 (by decide))).trans (W4_main_arg1 m hH c),
    (h c _ (mem_uc main_arg2 (by decide))).trans (W4_main_arg2 m hH c),
    (h c _ (mem_uc main_arg3 (by decide))).trans (W4_main_arg3 m hH c),
    (h c _ (mem_uc main_arg4 (by decide))).trans (W4_main_arg4 m hH c),
    (h c _ (mem_uc main_arg5 (by decide))).trans (W4_main_arg5 m hH c),
    (h c _ (mem_uc main_arg6 (by decide))).trans (W4_main_arg6 m hH c),
    (h c _ (mem_uc main_arg7 (by decide))).trans (W4_main_arg7 m hH c),
    (h c _ (mem_uc main_arg8 (by decide))).trans (W4_main_arg8 m hH c),
    (h c _ (mem_uc main_arg9 (by decide))).trans (W4_main_arg9 m hH c),
    (h c _ (mem_uc main_arg10 (by decide))).trans (W4_main_arg10 m hH c),
    (h c _ (mem_uc main_arg11 (by decide))).trans (W4_main_arg11 m hH c),
    (h c _ (mem_uc main_arg12 (by decide))).trans (W4_main_arg12 m hH c),
    (h c _ (mem_uc main_arg13 (by decide))).trans (W4_main_arg13 m hH c),
    (h c _ (mem_uc main_arg14 (by decide))).trans (W4_main_arg14 m hH c),
    (h c _ (mem_uc main_arg15 (by decide))).trans (W4_main_arg15 m hH c),
    (h c _ (mem_uc main_arg16 (by decide))).trans (W4_main_arg16 m hH c),
    (h c _ (mem_uc main_arg17 (by decide))).trans (W4_main_arg17 m hH c)⟩) (run_all m hH ρ)

end Cert.KernelIdeal.Hand

end
-- ==== Proof.KI.Frames.lean ====
/-
  The frame of the whole program from the precondition: the precondition makes the tables' words row numbers, which is
  all the run of the four items asks; the run leaves each argument array at its launch contents.
-/
import proofs.«428817_j39556648796289_1_alg».proof.Proof.KI.Regs
import proofs.«428817_j39556648796289_1_alg».proof.Proof.KI.TablesWords

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)
variable [hP : Cert.Pre_finite_inputs.Facts]

/-- Under the precondition the second region's two tables hold row numbers: every word is below 8192. The tables are
    what the first host stretch leaves in the two table buffers on the core, rows 0 and 1 of the edge table. -/
theorem hyps1_of_pre (h : PreAt m) : Hyps1 (tbl m) :=
  And.intro (fun e => V1_main_v1_lt m h 0 e) (fun e => V1_main_v3_lt m h 0 e)

/-- The run with its result: under the precondition @main runs to the end without a fault, the result array holds what
    the second region's write-backs leave in its output window's array, and every argument array ends as launched. -/
theorem run_with_result (ρ : Dev nD → PrngReg) (h : PreAt m) :
    θ_run defs (onTc (τ := τ) (main (F := F))) ⟨m, fun _ => 0, ρ⟩ (fun r => ∀ c : Dev nD,
        r.2.mem ((c.tc : Thread nD τ).loc main_v13) = (dat1 (V3 m) (adm1 m) (hyps1_of_pre m h) c).arrAt 13 (cfg1 (adm1 m)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)) :=
  (θ_run defs _ _).mono (fun r hr c =>
    ⟨(hr c _ (mem_uc main_v13 (by decide))).trans (W4_main_v13 m (hyps1_of_pre m h) c),
      (hr c _ (mem_uc main_arg0 (by decide))).trans (W4_main_arg0 m (hyps1_of_pre m h) c),
      (hr c _ (mem_uc main_arg1 (by decide))).trans (W4_main_arg1 m (hyps1_of_pre m h) c),
      (hr c _ (mem_uc main_arg2 (by decide))).trans (W4_main_arg2 m (hyps1_of_pre m h) c),
      (hr c _ (mem_uc main_arg3 (by decide))).trans (W4_main_arg3 m (hyps1_of_pre m h) c),
      (hr c _ (mem_uc main_arg4 (by decide))).trans (W4_main_arg4 m (hyps1_of_pre m h) c),
      (hr c _ (mem_uc main_arg5 (by decide))).trans (W4_main_arg5 m (hyps1_of_pre m h) c),
      (hr c _ (mem_uc main_arg6 (by decide))).trans (W4_main_arg6 m (hyps1_of_pre m h) c),
      (hr c _ (mem_uc main_arg7 (by decide))).trans (W4_main_arg7 m (hyps1_of_pre m h) c),
      (hr c _ (mem_uc main_arg8 (by decide))).trans (W4_main_arg8 m (hyps1_of_pre m h) c),
      (hr c _ (mem_uc main_arg9 (by decide))).trans (W4_main_arg9 m (hyps1_of_pre m h) c),
      (hr c _ (mem_uc main_arg10 (by decide))).trans (W4_main_arg10 m (hyps1_of_pre m h) c),
      (hr c _ (mem_uc main_arg11 (by decide))).trans (W4_main_arg11 m (hyps1_of_pre m h) c),
      (hr c _ (mem_uc main_arg12 (by decide))).trans (W4_main_arg12 m (hyps1_of_pre m h) c),
      (hr c _ (mem_uc main_arg13 (by decide))).trans (W4_main_arg13 m (hyps1_of_pre m h) c),
      (hr c _ (mem_uc main_arg14 (by decide))).trans (W4_main_arg14 m (hyps1_of_pre m h) c),
      (hr c _ (mem_uc main_arg15 (by decide))).trans (W4_main_arg15 m (hyps1_of_pre m h) c),
      (hr c _ (mem_uc main_arg16 (by decide))).trans (W4_main_arg16 m (hyps1_of_pre m h) c),
      (hr c _ (mem_uc main_arg17 (by decide))).trans (W4_main_arg17 m (hyps1_of_pre m h) c)⟩)
    (run_all m (hyps1_of_pre m h) ρ)

/-- The frame: under the precondition @main runs to the end without a fault and every argument array ends as launched. -/
theorem frame_of_pre (ρ : Dev nD → PrngReg) (h : PreAt m) :
    θ_run defs (onTc (τ := τ) (main (F := F))) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)) :=
  (θ_run defs _ _).mono (fun r hr c => (hr c).2) (run_with_result m ρ h)

end Cert.KernelIdeal.Hand

end
-- ==== Proof.KI.R1Out.lean ====
import proofs.«428817_j39556648796289_1_alg».proof.Proof.Gen.KernelIdeal.Launch
import proofs.«428817_j39556648796289_1_alg».proof.Proof.Gen.KernelIdeal.Skeleton
import proofs.«428817_j39556648796289_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.ValueLayout
import Idealize.ShloMosaic.PureOps.Ideal.Laws

/-! # The second region's output window on its grid

The output window of the second region is the [8192, 1] score array cut into 128 blocks of 64 rows: grid point `t`
writes rows `64 t … 64 t + 63`, at every point, and the 128 blocks cover the array. None of this reads the tables. -/

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The output window's schedule, whatever the tables hold -/

/-- The grid has 128 points. -/
theorem N1 (a1 : (pcfg1 (F := Ideal)).Adm) : (cfg1 a1).N = 128 := rfl

/-- The output window's block index at a point is the printed index map at the point's coordinate: it reads no table. -/
theorem index13 (a1 : (pcfg1 (F := Ideal)).Adm) (t : Fin (cfg1 a1).N) :
    ((cfg1 a1).win 13).index t = cc1_transform_14 (grid1.coords t) := rfl

/-- That map over the 128 points: block `t` of the rows, the one column. -/
theorem idx_facts13 : ∀ t : Fin grid1.N, cc1_transform_14 (grid1.coords t) (0 : Fin 2) = t.val
    ∧ cc1_transform_14 (grid1.coords t) (1 : Fin 2) = 0 :=
  (by decide +kernel : ∀ t : Fin grid1.N, _)

/-- The output window is written back at every point: consecutive points have different blocks. -/
theorem flush1_13 (a1 : (pcfg1 (F := Ideal)).Adm) (t : Fin (cfg1 a1).N) : ((cfg1 a1).win 13).flush t = true := by
  have hN := N1 a1
  have ht : t.val < 128 := lt_of_lt_of_eq t.isLt hN
  unfold Pipeline.Window.flush
  rw [show ((cfg1 a1).win 13).isOut = true from rfl, Bool.true_and, Bool.or_eq_true, decide_eq_true_eq, decide_eq_true_eq]
  by_cases hl : t.val + 1 = (cfg1 a1).grid.N
  · exact Or.inl hl
  · have hlt : t.val + 1 < (cfg1 a1).grid.N := by
      have : (cfg1 a1).grid.N = 128 := hN
      omega
    refine Or.inr ⟨hlt, fun he => ?_⟩
    have h0 := congrFun he (0 : Fin 2)
    rw [index13, index13, (idx_facts13 _).1, (idx_facts13 _).1] at h0
    exact absurd h0 (by show ¬ (t.val + 1 = t.val); omega)

/-! ## The blocks in the array -/

/-- The row of the score array that local row `r` of point `t`'s block is. -/
def edgeAt (a1 : (pcfg1 (F := Ideal)).Adm) (t : Fin (cfg1 a1).N) (r : Fin 64) : Fin 8192 :=
  ⟨64 * t.val + r.val, by have ht : t.val < 128 := lt_of_lt_of_eq t.isLt (N1 a1); have hr := r.isLt; omega⟩

/-- The output's block at point `t` sits at rows `64 t + ·` of its array. -/
theorem outBlock13_emb (a1 : (pcfg1 (F := Ideal)).Adm) (t : Fin (cfg1 a1).N) (r : Fin 64) :
    (((cfg1 a1).win 13).blk t).view.emb (ix2 r (0 : Fin 1)) = ix2 (edgeAt a1 t r) (0 : Fin 1) := by
  obtain ⟨e0, e1⟩ := idx_facts13 t
  refine funext fun a => Fin.ext ?_
  match a with
  | ⟨0, _⟩ =>
    show ((cfg1 a1).win 13).index t (0 : Fin 2) * 64 + 1 * r.val = 64 * t.val + r.val
    rw [index13, e0]; omega
  | ⟨1, _⟩ =>
    show ((cfg1 a1).win 13).index t (1 : Fin 2) * 1 + 1 * 0 = 0
    rw [index13, e1]

/-- An index of the score array is in point `t`'s block iff each coordinate is in the block's range on its axis. -/
theorem mem_blk13 (a1 : (pcfg1 (F := Ideal)).Adm) (t : Fin (cfg1 a1).N) (i : S8192x1.Idx) :
    i ∈ (((cfg1 a1).win 13).blk t).view.set ↔ ∀ a : Fin 2, ((cfg1 a1).win 13).index t a * S64x1.size a ≤ (i a).val
      ∧ (i a).val < ((cfg1 a1).win 13).index t a * S64x1.size a + S64x1.size a := by
  have hs : (((cfg1 a1).win 13).blk t).view.set = (((cfg1 a1).win 13).rect t).set := View.set_slice_whole main_v13 _
  rw [hs]
  exact Rect.mem_set_unit

/-- Every index of the array is in some point's block: row `e` is in the block of point `e / 64`. -/
theorem cover13 (a1 : (pcfg1 (F := Ideal)).Adm) (i : S8192x1.Idx) :
    ∃ t : Fin (cfg1 a1).N, ((cfg1 a1).win 13).flush t = true ∧ i ∈ (((cfg1 a1).win 13).blk t).view.set := by
  have hi0 : (i 0).val < 8192 := (i 0).isLt
  have hi1 : (i 1).val < 1 := (i 1).isLt
  have hN : (cfg1 a1).N = 128 := N1 a1
  refine ⟨⟨(i 0).val / 64, by rw [hN]; omega⟩, flush1_13 a1 _, ?_⟩
  rw [mem_blk13]
  obtain ⟨e0, e1⟩ := idx_facts13 ⟨(i 0).val / 64, by show (i 0).val / 64 < 128; omega⟩
  intro a
  match a with
  | ⟨0, _⟩ =>
    show ((cfg1 a1).win 13).index ⟨(i 0).val / 64, _⟩ (0 : Fin 2) * 64 ≤ (i 0).val
      ∧ (i 0).val < ((cfg1 a1).win 13).index ⟨(i 0).val / 64, _⟩ (0 : Fin 2) * 64 + 64
    rw [index13, e0]; show (i 0).val / 64 * 64 ≤ (i 0).val ∧ (i 0).val < (i 0).val / 64 * 64 + 64; omega
  | ⟨1, _⟩ =>
    show ((cfg1 a1).win 13).index ⟨(i 0).val / 64, _⟩ (1 : Fin 2) * 1 ≤ (i 1).val
      ∧ (i 1).val < ((cfg1 a1).win 13).index ⟨(i 0).val / 64, _⟩ (1 : Fin 2) * 1 + 1
    rw [index13, e1]; omega

end Cert.KernelIdeal.Hand

end
-- ==== Proof.KI.R1Value.lean ====
import proofs.«428817_j39556648796289_1_alg».proof.Proof.KI.R1
import proofs.«428817_j39556648796289_1_alg».proof.Proof.KI.R1Out
import Idealize.ShloMosaic.Lib.Pipeline.Value
import Idealize.ShloMosaic.Lib.ValueIdx

/-! # The second region's output array from its tiles

If what the body leaves in the output block at every grid point `t`, at local row `r`, is `g (64 t + r)` for one
function `g` of the edge number, then each write-back writes block `t` of `g` of the row, the 128 blocks cover the
[8192, 1] score array, and the array the region leaves is `g` of the row. -/

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- WHAT POINT `t` WRITES BACK is block `t` of `g` of the row, when every tile is `g` of its rows. -/
theorem flushed13_eq (a1 : (pcfg1 (F := Ideal)).Adm) (hH : Hyps1 a1.1) (c : Dev nD) (g : Fin 8192 → EReal)
    (htile : ∀ (t : Fin (cfg1 a1).N) (r : Fin 64),
      outsAt1 V a1 hH c t (ix2 r (0 : Fin 1)) = g (edgeAt a1 t r)) (t : Fin (cfg1 a1).N) :
    (dat1 V a1 hH c).flushed 13 t
      = (((cfg1 a1).win 13).blk t).view.read (Elt Ideal) (fun i : S8192x1.Idx => g (i 0)) := by
  show ((cfg1 a1).win 13).cut ((cfg1 a1).grid.coords t) ((dat1 V a1 hH c).after 13 t) = _
  rw [after1_13]
  refine funext fun (j : S64x1.Idx) => ?_
  obtain ⟨r, q, rfl⟩ : ∃ (r : Fin 64) (q : Fin 1), j = ix2 r q := ⟨j 0, j 1, eq_ix2 j⟩
  obtain rfl : q = 0 := Subsingleton.elim _ _
  show outsAt1 V a1 hH c t (ix2 r (0 : Fin 1))
    = (fun i : S8192x1.Idx => g (i 0)) ((((cfg1 a1).win 13).blk t).view.emb (ix2 r (0 : Fin 1)))
  rw [outBlock13_emb, htile t r]

/-- THE ARRAY the region leaves in the output window's buffer is `g` of the row. -/
theorem out_arr_of_tiles (a1 : (pcfg1 (F := Ideal)).Adm) (hH : Hyps1 a1.1) (c : Dev nD) (g : Fin 8192 → EReal)
    (htile : ∀ (t : Fin (cfg1 a1).N) (r : Fin 64),
      outsAt1 V a1 hH c t (ix2 r (0 : Fin 1)) = g (edgeAt a1 t r)) :
    (dat1 V a1 hH c).arrAt 13 (cfg1 a1).N = fun i : S8192x1.Idx => g (i 0) :=
  (dat1 V a1 hH c).arrAt_eq_of_cover 13 _ (fun t _ => flushed13_eq V a1 hH c g htile t) (cover13 a1)

end Cert.KernelIdeal.Hand

end
-- ==== Proof.KI.R0Value.lean ====
import proofs.«428817_j39556648796289_1_alg».proof.Proof.KI.R0
import proofs.«428817_j39556648796289_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 0's result as one function of what it finds

On the extended reals, the array the output window writes is, row by row and channel by channel,
`x + relu (relu (x · w₁ + b₁) · w₂ + b₂)` of the five arrays the input windows read: each grid point writes its
block of 1024 rows of that one function, and the eight blocks fill the 8192 rows. -/

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The function -/

/-- A bias kept as one row of 256 channels, read as the vector of its 256 channels. -/
def rowVec (b : Vec Ideal S1x256 .f32) : FVec Ideal Cert.Spec.SB .f32 := fun i => b (ix2 (0 : Fin 1) (i 0))

theorem rowVec_apply (b : Vec Ideal S1x256 .f32) (d : Fin 256) : rowVec b (ValueIdx.ix1 d) = b (ix2 (0 : Fin 1) d) := rfl

/-- A vector of 256 channels kept as one row (a unit axis added in front), read back as the vector, is the vector. -/
theorem rowVec_shapeCast (b : Vec Ideal S256 .f32) (h : S256.ShapeCasts S1x256) : rowVec (shapeCast S1x256 b h) = b := by
  funext i
  show shapeCast S1x256 b h (ix2 (0 : Fin 1) (i 0)) = b i
  rw [shapeCast_addUnit_apply ![256] b h (ix2 (0 : Fin 1) (i 0))]
  refine congrArg b (funext fun a => ?_)
  match a with
  | ⟨0, _⟩ => rfl

/-- The residual perceptron of the node table `x`, the weights `w1`, `w2` and the bias rows `b1`, `b2`: the
    specification's function at the rows read as vectors. -/
def hfun (x : Vec Ideal S8192x256 .f32) (w1 : Vec Ideal S256x256 .f32) (b1 : Vec Ideal S1x256 .f32)
    (w2 : Vec Ideal S256x256 .f32) (b2 : Vec Ideal S1x256 .f32) : Vec Ideal S8192x256 .f32 :=
  Cert.Spec.hArr x w1 (rowVec b1) w2 (rowVec b2)

/-- At row `r` and channel `d`, written out. -/
theorem hfun_apply (x : Vec Ideal S8192x256 .f32) (w1 : Vec Ideal S256x256 .f32) (b1 : Vec Ideal S1x256 .f32)
    (w2 : Vec Ideal S256x256 .f32) (b2 : Vec Ideal S1x256 .f32) (r : Fin 8192) (d : Fin 256) :
    hfun x w1 b1 w2 b2 (ix2 r d)
      = x (ix2 r d) + max ((∑ k : Fin 256, max ((∑ k' : Fin 256, x (ix2 r k') * w1 (ix2 k' k)) + b1 (ix2 (0 : Fin 1) k))
            (Ideal.ofBits .f32 0x00000000#32) * w2 (ix2 k d)) + b2 (ix2 (0 : Fin 1) d)) (Ideal.ofBits .f32 0x00000000#32) := rfl

variable (V : (c : Dev nD) → (b : Ref sig .tc) → Buf (Elt Ideal) ((c : Thread nD τ).loc b))

/-! ## The body's block product at an index

The product of a block of 1024 rows by a 256 × 256 weight into the zero accumulator is, at row `p` and channel `d`,
the sum over the contracted coordinate `k` of `a (p, k) * w (k, d)`: the contraction's one axis is the left operand's
axis 1 and the right operand's axis 0. -/

theorem mm_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mm_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem mm_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem mm_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

theorem blockProd_at (a : FVec Ideal S1024x256 .f32) (w : FVec Ideal S256x256 .f32) (p : Fin 1024) (d : Fin 256) :
    matmul dot_S1024x256_S256x256_S1024x256_1_0_0_1_n_n none a w (constant S1024x256 .f32 0x00000000#32) (ix2 p d)
      = ∑ k : Fin 256, a (ix2 p k) * w (ix2 k d) := by
  show FloatOps.matmul dot_S1024x256_S256x256_S1024x256_1_0_0_1_n_n none a w (constant S1024x256 .f32 0x00000000#32) (ix2 p d) = _
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p d) ((contrEquiv1 dot_S1024x256_S256x256_S1024x256_1_0_0_1_n_n 256 rfl rfl).symm k) = ix2 p k := funext fun a => Fin.ext (by
    match a with
    | ⟨0, _⟩ => exact mm_lhs_0 _ _
    | ⟨1, _⟩ => exact (mm_lhs_1 _ _).trans hk)
  have er : dot_S1024x256_S256x256_S1024x256_1_0_0_1_n_n.rhsIdx (ix2 p d) ((contrEquiv1 dot_S1024x256_S256x256_S1024x256_1_0_0_1_n_n 256 rfl rfl).symm k) = ix2 k d := funext fun a => Fin.ext (by
    match a with
    | ⟨0, _⟩ => exact (mm_rhs_0 _ _).trans hk
    | ⟨1, _⟩ => exact mm_rhs_1 _ _)
  rw [el, er]

/-- A bias row spread over the 1024 rows of a block reads, at any row, the row's channel. -/
theorem biasRow_at {α : Type} (b : S1x256.Idx → α) (p : Fin 1024) (d : Fin 256) :
    broadcastTo S1024x256 b broadcasts_S1x256_S1024x256 (ix2 p d) = b (ix2 (0 : Fin 1) d) :=
  broadcastTo_apply b broadcasts_S1x256_S1024x256 (ix2 p d) (ix2 (0 : Fin 1) d) (fun a => match a with
    | ⟨0, _⟩ => by show (0 : Nat) = if (1 : Nat) = 1 then 0 else _; rw [if_pos rfl]
    | ⟨1, _⟩ => by show d.val = if (256 : Nat) = 1 then 0 else d.val; rw [if_neg (by decide)])

/-! ## The body's payload at an index -/

/-- What the body stores at row `p` and channel `d` of its block, from the five buffers it loaded. -/
theorem pay_at (x0 : Vec Ideal S1024x256 .f32) (x1 : Vec Ideal S256x256 .f32) (x2 : Vec Ideal S1x256 .f32)
    (x3 : Vec Ideal S256x256 .f32) (x4 : Vec Ideal S1x256 .f32) (p : Fin 1024) (d : Fin 256) :
    k0_pay1 (F := Ideal) x0 x1 x2 x3 x4 (ix2 p d)
      = x0 (ix2 p d) + max ((∑ k : Fin 256, max ((∑ k' : Fin 256, x0 (ix2 p k') * x1 (ix2 k' k)) + x2 (ix2 (0 : Fin 1) k))
            (Ideal.ofBits .f32 0x00000000#32) * x3 (ix2 k d)) + x4 (ix2 (0 : Fin 1) d)) (Ideal.ofBits .f32 0x00000000#32) := by
  unfold k0_pay1
  simp only [addf_apply, maximumf_apply, broadcast_apply, blockProd_at, biasRow_at, shapeCast_self]
  rfl

/-! ## From blocks to the array -/

theorem zeroOff : (![0, 0] : Fin 2 → Nat) = fun _ => 0 := funext fun a => by fin_cases a <;> rfl

/-- The printed index maps over the eight points: the output's block and `x`'s block are block `t` of the rows, all
    256 channels; the weights and the bias rows are whole at every point. -/
theorem idx_facts0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The row of the table that local row `p` of point `t`'s block is. -/
def rowAt (t : Fin cfg0.N) (p : Fin 1024) : Fin 8192 :=
  ⟨t.val * 1024 + p.val, by have ht : t.val < 8 := lt_of_lt_of_eq t.isLt N_0; have hp := p.isLt; omega⟩

theorem rowAt_val (t : Fin cfg0.N) (p : Fin 1024) : (rowAt t p).val = t.val * 1024 + p.val := rfl

/-- `x`'s block at point `t`, read at local row `p`, is the table's row `rowAt t p`. -/
theorem xBlock_at (c : Dev nD) (t : Fin cfg0.N) (p : Fin 1024) (k : Fin 256) :
    iblk0 V c 0 t (ix2 p k) = V c main_arg0 (ix2 (rowAt t p) k) := by
  obtain ⟨-, -, e0, e1, -⟩ := idx_facts0 t
  show V c main_arg0 (((cfg0.win 0).blk t).view.emb (ix2 p k)) = V c main_arg0 (ix2 (rowAt t p) k)
  refine congrArg (V c main_arg0) (funext fun a => Fin.ext ?_)
  match a with
  | ⟨0, _⟩ => show win0_0.index t (0 : Fin 2) * 1024 + 1 * p.val = t.val * 1024 + p.val; omega
  | ⟨1, _⟩ => show win0_0.index t (1 : Fin 2) * 256 + 1 * k.val = k.val; omega

/-- The weights' and the bias rows' blocks are their arrays, at every point. -/
theorem w1Block_at (c : Dev nD) (t : Fin cfg0.N) (k : Fin 256) (d : Fin 256) :
    iblk0 V c 1 t (ix2 k d) = V c main_arg3 (ix2 k d) := by
  obtain ⟨-, -, -, -, e0, e1, -⟩ := idx_facts0 t
  show V c main_arg3 (((cfg0.win 1).blk t).view.emb (ix2 k d)) = V c main_arg3 (ix2 k d)
  refine congrArg (V c main_arg3) (funext fun a => Fin.ext ?_)
  match a with
  | ⟨0, _⟩ => show win0_1.index t (0 : Fin 2) * 256 + 1 * k.val = k.val; omega
  | ⟨1, _⟩ => show win0_1.index t (1 : Fin 2) * 256 + 1 * d.val = d.val; omega
theorem b1Block_at (c : Dev nD) (t : Fin cfg0.N) (d : Fin 256) :
    iblk0 V c 2 t (ix2 (0 : Fin 1) d) = V c main_v4 (ix2 (0 : Fin 1) d) := by
  obtain ⟨-, -, -, -, -, -, e0, e1, -⟩ := idx_facts0 t
  show V c main_v4 (((cfg0.win 2).blk t).view.emb (ix2 (0 : Fin 1) d)) = V c main_v4 (ix2 (0 : Fin 1) d)
  refine congrArg (V c main_v4) (funext fun a => Fin.ext ?_)
  match a with
  | ⟨0, _⟩ => show win0_2.index t (0 : Fin 2) * 1 + 1 * 0 = 0; omega
  | ⟨1, _⟩ => show win0_2.index t (1 : Fin 2) * 256 + 1 * d.val = d.val; omega
theorem w2Block_at (c : Dev nD) (t : Fin cfg0.N) (k : Fin 256) (d : Fin 256) :
    iblk0 V c 3 t (ix2 k d) = V c main_arg5 (ix2 k d) := by
  obtain ⟨-, -, -, -, -, -, -, -, e0, e1, -⟩ := idx_facts0 t
  show V c main_arg5 (((cfg0.win 3).blk t).view.emb (ix2 k d)) = V c main_arg5 (ix2 k d)
  refine congrArg (V c main_arg5) (funext fun a => Fin.ext ?_)
  match a with
  | ⟨0, _⟩ => show win0_3.index t (0 : Fin 2) * 256 + 1 * k.val = k.val; omega
  | ⟨1, _⟩ => show win0_3.index t (1 : Fin 2) * 256 + 1 * d.val = d.val; omega
theorem b2Block_at (c : Dev nD) (t : Fin cfg0.N) (d : Fin 256) :
    iblk0 V c 4 t (ix2 (0 : Fin 1) d) = V c main_v5 (ix2 (0 : Fin 1) d) := by
  obtain ⟨-, -, -, -, -, -, -, -, -, -, e0, e1⟩ := idx_facts0 t
  show V c main_v5 (((cfg0.win 4).blk t).view.emb (ix2 (0 : Fin 1) d)) = V c main_v5 (ix2 (0 : Fin 1) d)
  refine congrArg (V c main_v5) (funext fun a => Fin.ext ?_)
  match a with
  | ⟨0, _⟩ => show win0_4.index t (0 : Fin 2) * 1 + 1 * 0 = 0; omega
  | ⟨1, _⟩ => show win0_4.index t (1 : Fin 2) * 256 + 1 * d.val = d.val; omega

/-- The output's block at point `t` sits at rows `rowAt t ·` of its array. -/
theorem outBlock_emb (t : Fin cfg0.N) (p : Fin 1024) (d : Fin 256) :
    ((cfg0.win 5).blk t).view.emb (ix2 p d) = ix2 (rowAt t p) d := by
  obtain ⟨e0, e1, -⟩ := idx_facts0 t
  refine funext fun a => Fin.ext ?_
  match a with
  | ⟨0, _⟩ => show win0_5.index t (0 : Fin 2) * 1024 + 1 * p.val = t.val * 1024 + p.val; omega
  | ⟨1, _⟩ => show win0_5.index t (1 : Fin 2) * 256 + 1 * d.val = d.val; omega

/-- WHAT POINT `t` WRITES BACK is block `t` of the residual perceptron of the arrays the region found. -/
theorem flushed5_eq (c : Dev nD) (t : Fin cfg0.N) :
    (dat0 (F := Ideal) V c).flushed 5 t
      = ((cfg0.win 5).blk t).view.read (Elt Ideal) (hfun (V c main_arg0) (V c main_arg3) (V c main_v4) (V c main_arg5) (V c main_v5)) := by
  show (cfg0.win 5).cut (grid0.coords t) ((dat0 (F := Ideal) V c).after 5 t) = _
  rw [after0_5]
  unfold out0_5
  rw [View.canon_unit_zero zeroOff]
  simp only [View.ld_unit_zero (S := S1024x256) zeroOff, View.ld_unit_zero (S := S256x256) zeroOff, View.ld_unit_zero (S := S1x256) zeroOff]
  funext j
  obtain ⟨p, d, rfl⟩ : ∃ (p : Fin 1024) (d : Fin 256), j = ix2 p d := ⟨j 0, j 1, eq_ix2 j⟩
  show k0_pay1 (F := Ideal) (iblk0 V c 0 t) (iblk0 V c 1 t) (iblk0 V c 2 t) (iblk0 V c 3 t) (iblk0 V c 4 t) (ix2 p d)
    = hfun (V c main_arg0) (V c main_arg3) (V c main_v4) (V c main_arg5) (V c main_v5) (((cfg0.win 5).blk t).view.emb (ix2 p d))
  rw [outBlock_emb, hfun_apply, pay_at]
  simp only [xBlock_at, w1Block_at, b1Block_at, w2Block_at, b2Block_at]

/-- An index of the output's array is in point `t`'s block iff each coordinate is in the block's range on its axis. -/
theorem mem_blk5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v6).slice (win0_5.rect t)).set ↔ _
  rw [View.set_slice_whole, Rect.mem_set_unit]
  exact Iff.rfl

/-- Every index of the array is in some point's block: row `r` is in the block of point `r / 1024`. -/
theorem cover5 (i : S8192x256.Idx) : ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 8 := N_0
  refine ⟨⟨(i 0).val / 1024, by rw [hN]; omega⟩, flush0_5 _, ?_⟩
  rw [mem_blk5]
  obtain ⟨e0, e1, -⟩ := idx_facts0 ⟨(i 0).val / 1024, by rw [hN]; omega⟩
  intro a
  match a with
  | ⟨0, _⟩ =>
    show win0_5.index ⟨(i 0).val / 1024, _⟩ (0 : Fin 2) * 1024 ≤ (i 0).val ∧ (i 0).val < win0_5.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, _⟩ (1 : Fin 2) * 256 ≤ (i 1).val ∧ (i 1).val < win0_5.index ⟨(i 0).val / 1024, _⟩ (1 : Fin 2) * 256 + 256
    rw [e1]; omega

/-- THE ARRAY the region leaves in the output window's buffer: the residual perceptron of the five arrays it found. -/
theorem h_arr (c : Dev nD) :
    (dat0 (F := Ideal) V c).arrAt 5 cfg0.N = hfun (V c main_arg0) (V c main_arg3) (V c main_v4) (V c main_arg5) (V c main_v5) :=
  (dat0 (F := Ideal) V c).arrAt_eq_of_cover 5 _ (fun t _ => flushed5_eq V c t) cover5

end Cert.KernelIdeal.Hand

end
-- ==== Proof.KI.R1Arith.lean ====
import proofs.«428817_j39556648796289_1_alg».proof.Proof.Gen.KernelIdeal.Skeleton
import proofs.«428817_j39556648796289_1_alg».proof.Proof.Spec
import proofs.«428817_j39556648796289_1_alg».proof.Proof.KI.R0Value
import Idealize.ShloMosaic.Lib.Pipeline.Value
import Idealize.ShloMosaic.Lib.ValueIdx
import Idealize.ShloMosaic.Lib.ValueLayout
import Idealize.ShloMosaic.PureOps.Ideal.Laws

/-! # The arithmetic of one tile of region 1

A tile is 64 edges. From the two stacks of 64 adjacency rows (`ai`, `aj`), the table `h` of region 0, the two stacks of
64 feature rows (`xi`, `xj`) and the weights, the body computes one score per edge. Read at edge `r` of the tile it
is the specification's score of a row: the common-neighbour indicator `ai r · * aj r ·` contracted with `h`, two
rectified dense layers over it, times `beta`, plus the rectified dense layer of `xi r · * xj r ·`; then the output
head's rectified dense layer and its last column. On the extended reals; no memory. -/

noncomputable section

open scoped BigOperators

namespace Cert.KernelIdeal.Hand

open Cert.KernelIdeal Cert.KernelIdeal.Gen
open Idealize.ShloMosaic
open Idealize.ShloMosaic.ValueIdx

/-! ## A one-element bias -/

/-- A scalar kept as a 1 × 1 block, read as the vector of its one element. -/
def oneVec (b : Vec Ideal S1x1 .f32) : FVec Ideal Cert.Spec.SOne .f32 := fun i => b (ix2 (0 : Fin 1) (i 0))

theorem oneVec_apply (b : Vec Ideal S1x1 .f32) : oneVec b (ValueIdx.ix1 (0 : Fin 1)) = b (ix2 (0 : Fin 1) (0 : Fin 1)) := rfl

/-- A one-element vector kept as a 1 × 1 block (a unit axis added in front), read back as the vector, is the vector. -/
theorem oneVec_shapeCast (b : Vec Ideal S1 .f32) (h : S1.ShapeCasts S1x1) : oneVec (shapeCast S1x1 b h) = b := by
  funext i
  show shapeCast S1x1 b h (ix2 (0 : Fin 1) (i 0)) = b i
  rw [shapeCast_addUnit_apply ![1] b h (ix2 (0 : Fin 1) (i 0))]
  refine congrArg b (funext fun a => ?_)
  match a with
  | ⟨0, _⟩ => rfl

/-! ## The tile's result, as the body computes it -/

/-- What the body stores for one tile: the four payloads composed, from the five whole-buffer loads and the weights. -/
def tileOut (ai aj : Vec Ideal S64x8192 .f32) (hb : Vec Ideal S8192x256 .f32) (xi xj : Vec Ideal S64x256 .f32) (xij_w : Vec Ideal S256x256 .f32) (xij_b : Vec Ideal S1x256 .f32) (xcn_w1 : Vec Ideal S256x256 .f32) (xcn_b1 : Vec Ideal S1x256 .f32) (xcn_w2 : Vec Ideal S256x256 .f32) (xcn_b2 : Vec Ideal S1x256 .f32) (lin_w1 : Vec Ideal S256x256 .f32) (lin_b1 : Vec Ideal S1x256 .f32) (lin_w2 : Vec Ideal S256x1 .f32) (lin_b2 : Vec Ideal S1x1 .f32) (beta : Vec Ideal S1x1 .f32) : FVec Ideal S64x1 .f32 :=
  k1_pay1 (k1_pay140 (k1_pay138 xi xj xij_w xij_b) (k1_pay139 ai aj hb xcn_w1 xcn_b1) xcn_w2 xcn_b2 beta lin_w1 lin_b1 lin_w2) lin_b2

/-! ## The score of one row, from the specification's layers -/

/-- The score of an edge from its common-neighbour indicator `cn`, the table `hAt`, and its two end nodes' feature
    rows: the specification's layers (`Cert.Spec.relu`, `Cert.Spec.dense`) in the specification's order. -/
def rowOut (cn : Fin 8192 → EReal) (hAt : Fin 8192 → Fin 256 → EReal) (xiRow xjRow : Fin 256 → EReal)
    (xij_w : FVec Ideal Cert.Spec.SW .f32) (xij_b : FVec Ideal Cert.Spec.SB .f32) (xcn_w1 : FVec Ideal Cert.Spec.SW .f32) (xcn_b1 : FVec Ideal Cert.Spec.SB .f32) (xcn_w2 : FVec Ideal Cert.Spec.SW .f32) (xcn_b2 : FVec Ideal Cert.Spec.SB .f32) (lin_w1 : FVec Ideal Cert.Spec.SW .f32) (lin_b1 : FVec Ideal Cert.Spec.SB .f32) (lin_w2 : FVec Ideal Cert.Spec.SWOut .f32) (lin_b2 : FVec Ideal Cert.Spec.SOne .f32) (beta : FVec Ideal Cert.Spec.SOne .f32) : EReal :=
  (∑ k : Fin 256,
      Cert.Spec.relu (Cert.Spec.dense (fun k₁ =>
          Cert.Spec.relu (Cert.Spec.dense (fun k₂ =>
              Cert.Spec.relu (Cert.Spec.dense (fun k₃ => ∑ n : Fin 8192, cn n * hAt n k₃) xcn_w1 xcn_b1 k₂)) xcn_w2 xcn_b2 k₁)
            * beta (ValueIdx.ix1 (0 : Fin 1))
          + Cert.Spec.relu (Cert.Spec.dense (fun k₂ => xiRow k₂ * xjRow k₂) xij_w xij_b k₁)) lin_w1 lin_b1 k)
        * lin_w2 (ix2 k (0 : Fin 1)))
    + lin_b2 (ValueIdx.ix1 (0 : Fin 1))

/-- The specification's score of edge `e` is the row score at that edge's indicator, the residual table, and its end
    nodes' rows: the specification's definitions unfolded. -/
theorem outAt_eq_rowOut (x : FVec Ideal Cert.Spec.SFeat .f32) (adj : FVec Ideal Cert.Spec.SAdj .f32) (tar : IVec Cert.Spec.SEdges 32)
    (xlin_w1 : FVec Ideal Cert.Spec.SW .f32) (xlin_b1 : FVec Ideal Cert.Spec.SB .f32) (xlin_w2 : FVec Ideal Cert.Spec.SW .f32) (xlin_b2 : FVec Ideal Cert.Spec.SB .f32)
    (xij_w : FVec Ideal Cert.Spec.SW .f32) (xij_b : FVec Ideal Cert.Spec.SB .f32) (xcn_w1 : FVec Ideal Cert.Spec.SW .f32) (xcn_b1 : FVec Ideal Cert.Spec.SB .f32) (xcn_w2 : FVec Ideal Cert.Spec.SW .f32) (xcn_b2 : FVec Ideal Cert.Spec.SB .f32) (lin_w1 : FVec Ideal Cert.Spec.SW .f32) (lin_b1 : FVec Ideal Cert.Spec.SB .f32) (lin_w2 : FVec Ideal Cert.Spec.SWOut .f32) (lin_b2 : FVec Ideal Cert.Spec.SOne .f32) (beta : FVec Ideal Cert.Spec.SOne .f32) (e : Fin 8192) :
    Cert.Spec.outAt x adj tar xlin_w1 xlin_b1 xlin_w2 xlin_b2 xcn_w1 xcn_b1 xcn_w2 xcn_b2 xij_w xij_b lin_w1 lin_b1 lin_w2 lin_b2 beta e
      = rowOut (fun k => Cert.Spec.cnAt adj tar e k) (fun k d => Cert.Spec.hAt x xlin_w1 xlin_b1 xlin_w2 xlin_b2 k d)
          (fun k => x (ix2 (Cert.Spec.endI tar e) k)) (fun k => x (ix2 (Cert.Spec.endJ tar e) k))
          xij_w xij_b xcn_w1 xcn_b1 xcn_w2 xcn_b2 lin_w1 lin_b1 lin_w2 lin_b2 beta := rfl

/-! ## The body's three products at an index

Each contracts the left operand's axis 1 with the right operand's axis 0 into the zero accumulator: at row `p` and
column `d` the sum over the contracted coordinate `k` of `a (p, k) * w (k, d)`. -/

/-- A stack of 64 rows of 256 channels by a 256 × 256 weight. -/
theorem layerProd_lhs_0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem layerProd_lhs_1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
theorem layerProd_rhs_0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
theorem layerProd_rhs_1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl
theorem layerProd_at {φ₁ φ₂ : FTy} (a : FVec Ideal S64x256 φ₁) (w : FVec Ideal S256x256 φ₂) (p : Fin 64) (d : Fin 256) :
    matmul dot_S64x256_S256x256_S64x256_1_0_0_1_n_n none a w (constant S64x256 .f32 0x00000000#32) (ix2 p d)
      = ∑ k : Fin 256, a (ix2 p k) * w (ix2 k d) := by
  show FloatOps.matmul dot_S64x256_S256x256_S64x256_1_0_0_1_n_n none a w (constant S64x256 .f32 0x00000000#32) (ix2 p d) = _
  rw [Ideal.matmul_constant_zero_apply, ← Equiv.sum_comp (contrEquiv1 dot_S64x256_S256x256_S64x256_1_0_0_1_n_n 256 rfl rfl).symm]
  refine Finset.sum_congr rfl fun k _ => ?_
  have hk := contrEquiv1_symm_val dot_S64x256_S256x256_S64x256_1_0_0_1_n_n 256 rfl rfl k
  have el : dot_S64x256_S256x256_S64x256_1_0_0_1_n_n.lhsIdx (ix2 p d) ((contrEquiv1 dot_S64x256_S256x256_S64x256_1_0_0_1_n_n 256 rfl rfl).symm k) = ix2 p k := funext fun a => Fin.ext (by
    match a with
    | ⟨0, _⟩ => exact layerProd_lhs_0 _ _
    | ⟨1, _⟩ => exact (layerProd_lhs_1 _ _).trans hk)
  have er : dot_S64x256_S256x256_S64x256_1_0_0_1_n_n.rhsIdx (ix2 p d) ((contrEquiv1 dot_S64x256_S256x256_S64x256_1_0_0_1_n_n 256 rfl rfl).symm k) = ix2 k d := funext fun a => Fin.ext (by
    match a with
    | ⟨0, _⟩ => exact (layerProd_rhs_0 _ _).trans hk
    | ⟨1, _⟩ => exact layerProd_rhs_1 _ _)
  rw [el, er]

/-- A stack of 64 indicator rows over the 8192 nodes by the 8192 × 256 table. -/
theorem nbrProd_lhs_0 (i : S64x256.Idx) (q : dot_S64x8192_S8192x256_S64x256_1_0_0_1_n_n.contr.Idx) :
    (dot_S64x8192_S8192x256_S64x256_1_0_0_1_n_n.lhsIdx i q 0).val = (i 0).val := by
  unfold DotDims.lhsIdx
  rw [dif_neg (show ¬(0 : Fin S64x8192.rank) ∈ dot_S64x8192_S8192x256_S64x256_1_0_0_1_n_n.lhsBatch by decide), dif_pos (show (0 : Fin S64x8192.rank) ∈ dot_S64x8192_S8192x256_S64x256_1_0_0_1_n_n.lhsNonContracting by decide)]
  rfl
theorem nbrProd_lhs_1 (i : S64x256.Idx) (q : dot_S64x8192_S8192x256_S64x256_1_0_0_1_n_n.contr.Idx) :
    (dot_S64x8192_S8192x256_S64x256_1_0_0_1_n_n.lhsIdx i q 1).val = (q ⟨0, by decide⟩).val :=
  dot_S64x8192_S8192x256_S64x256_1_0_0_1_n_n.lhsIdx_val_of_single rfl i q
theorem nbrProd_rhs_0 (i : S64x256.Idx) (q : dot_S64x8192_S8192x256_S64x256_1_0_0_1_n_n.contr.Idx) :
    (dot_S64x8192_S8192x256_S64x256_1_0_0_1_n_n.rhsIdx i q 0).val = (q ⟨0, by decide⟩).val :=
  dot_S64x8192_S8192x256_S64x256_1_0_0_1_n_n.rhsIdx_val_of_single rfl i q
theorem nbrProd_rhs_1 (i : S64x256.Idx) (q : dot_S64x8192_S8192x256_S64x256_1_0_0_1_n_n.contr.Idx) :
    (dot_S64x8192_S8192x256_S64x256_1_0_0_1_n_n.rhsIdx i q 1).val = (i 1).val := by
  unfold DotDims.rhsIdx
  rw [dif_neg (show ¬(1 : Fin S8192x256.rank) ∈ dot_S64x8192_S8192x256_S64x256_1_0_0_1_n_n.rhsBatch by decide), dif_pos (show (1 : Fin S8192x256.rank) ∈ dot_S64x8192_S8192x256_S64x256_1_0_0_1_n_n.rhsNonContracting by decide)]
  rfl
theorem nbrProd_at {φ₁ φ₂ : FTy} (a : FVec Ideal S64x8192 φ₁) (w : FVec Ideal S8192x256 φ₂) (p : Fin 64) (d : Fin 256) :
    matmul dot_S64x8192_S8192x256_S64x256_1_0_0_1_n_n none a w (constant S64x256 .f32 0x00000000#32) (ix2 p d)
      = ∑ k : Fin 8192, a (ix2 p k) * w (ix2 k d) := by
  show FloatOps.matmul dot_S64x8192_S8192x256_S64x256_1_0_0_1_n_n none a w (constant S64x256 .f32 0x00000000#32) (ix2 p d) = _
  rw [Ideal.matmul_constant_zero_apply, ← Equiv.sum_comp (contrEquiv1 dot_S64x8192_S8192x256_S64x256_1_0_0_1_n_n 8192 rfl rfl).symm]
  refine Finset.sum_congr rfl fun k _ => ?_
  have hk := contrEquiv1_symm_val dot_S64x8192_S8192x256_S64x256_1_0_0_1_n_n 8192 rfl rfl k
  have el : dot_S64x8192_S8192x256_S64x256_1_0_0_1_n_n.lhsIdx (ix2 p d) ((contrEquiv1 dot_S64x8192_S8192x256_S64x256_1_0_0_1_n_n 8192 rfl rfl).symm k) = ix2 p k := funext fun a => Fin.ext (by
    match a with
    | ⟨0, _⟩ => exact nbrProd_lhs_0 _ _
    | ⟨1, _⟩ => exact (nbrProd_lhs_1 _ _).trans hk)
  have er : dot_S64x8192_S8192x256_S64x256_1_0_0_1_n_n.rhsIdx (ix2 p d) ((contrEquiv1 dot_S64x8192_S8192x256_S64x256_1_0_0_1_n_n 8192 rfl rfl).symm k) = ix2 k d := funext fun a => Fin.ext (by
    match a with
    | ⟨0, _⟩ => exact (nbrProd_rhs_0 _ _).trans hk
    | ⟨1, _⟩ => exact nbrProd_rhs_1 _ _)
  rw [el, er]

/-- A stack of 64 rows of 256 channels by the last layer's 256 × 1 column. -/
theorem headProd_lhs_0 (i : S64x1.Idx) (q : dot_S64x256_S256x1_S64x1_1_0_0_1_n_n.contr.Idx) :
    (dot_S64x256_S256x1_S64x1_1_0_0_1_n_n.lhsIdx i q 0).val = (i 0).val := by
  unfold DotDims.lhsIdx
  rw [dif_neg (show ¬(0 : Fin S64x256.rank) ∈ dot_S64x256_S256x1_S64x1_1_0_0_1_n_n.lhsBatch by decide), dif_pos (show (0 : Fin S64x256.rank) ∈ dot_S64x256_S256x1_S64x1_1_0_0_1_n_n.lhsNonContracting by decide)]
  rfl
theorem headProd_lhs_1 (i : S64x1.Idx) (q : dot_S64x256_S256x1_S64x1_1_0_0_1_n_n.contr.Idx) :
    (dot_S64x256_S256x1_S64x1_1_0_0_1_n_n.lhsIdx i q 1).val = (q ⟨0, by decide⟩).val :=
  dot_S64x256_S256x1_S64x1_1_0_0_1_n_n.lhsIdx_val_of_single rfl i q
theorem headProd_rhs_0 (i : S64x1.Idx) (q : dot_S64x256_S256x1_S64x1_1_0_0_1_n_n.contr.Idx) :
    (dot_S64x256_S256x1_S64x1_1_0_0_1_n_n.rhsIdx i q 0).val = (q ⟨0, by decide⟩).val :=
  dot_S64x256_S256x1_S64x1_1_0_0_1_n_n.rhsIdx_val_of_single rfl i q
theorem headProd_rhs_1 (i : S64x1.Idx) (q : dot_S64x256_S256x1_S64x1_1_0_0_1_n_n.contr.Idx) :
    (dot_S64x256_S256x1_S64x1_1_0_0_1_n_n.rhsIdx i q 1).val = (i 1).val := by
  unfold DotDims.rhsIdx
  rw [dif_neg (show ¬(1 : Fin S256x1.rank) ∈ dot_S64x256_S256x1_S64x1_1_0_0_1_n_n.rhsBatch by decide), dif_pos (show (1 : Fin S256x1.rank) ∈ dot_S64x256_S256x1_S64x1_1_0_0_1_n_n.rhsNonContracting by decide)]
  rfl
theorem headProd_at {φ₁ φ₂ : FTy} (a : FVec Ideal S64x256 φ₁) (w : FVec Ideal S256x1 φ₂) (p : Fin 64) (d : Fin 1) :
    matmul dot_S64x256_S256x1_S64x1_1_0_0_1_n_n none a w (constant S64x1 .f32 0x00000000#32) (ix2 p d)
      = ∑ k : Fin 256, a (ix2 p k) * w (ix2 k d) := by
  show FloatOps.matmul dot_S64x256_S256x1_S64x1_1_0_0_1_n_n none a w (constant S64x1 .f32 0x00000000#32) (ix2 p d) = _
  rw [Ideal.matmul_constant_zero_apply, ← Equiv.sum_comp (contrEquiv1 dot_S64x256_S256x1_S64x1_1_0_0_1_n_n 256 rfl rfl).symm]
  refine Finset.sum_congr rfl fun k _ => ?_
  have hk := contrEquiv1_symm_val dot_S64x256_S256x1_S64x1_1_0_0_1_n_n 256 rfl rfl k
  have el : dot_S64x256_S256x1_S64x1_1_0_0_1_n_n.lhsIdx (ix2 p d) ((contrEquiv1 dot_S64x256_S256x1_S64x1_1_0_0_1_n_n 256 rfl rfl).symm k) = ix2 p k := funext fun a => Fin.ext (by
    match a with
    | ⟨0, _⟩ => exact headProd_lhs_0 _ _
    | ⟨1, _⟩ => exact (headProd_lhs_1 _ _).trans hk)
  have er : dot_S64x256_S256x1_S64x1_1_0_0_1_n_n.rhsIdx (ix2 p d) ((contrEquiv1 dot_S64x256_S256x1_S64x1_1_0_0_1_n_n 256 rfl rfl).symm k) = ix2 k d := funext fun a => Fin.ext (by
    match a with
    | ⟨0, _⟩ => exact (headProd_rhs_0 _ _).trans hk
    | ⟨1, _⟩ => exact headProd_rhs_1 _ _)
  rw [el, er]

/-! ## Layout operations at an index -/

/-- A bias row spread over the 64 rows of a tile reads, at any row, the row's channel. -/
theorem tileBias_at {α : Type} (b : S1x256.Idx → α) (p : Fin 64) (d : Fin 256) :
    broadcastTo S64x256 b broadcasts_S1x256_S64x256 (ix2 p d) = b (ix2 (0 : Fin 1) d) :=
  broadcastTo_apply b broadcasts_S1x256_S64x256 (ix2 p d) (ix2 (0 : Fin 1) d) (fun a => match a with
    | ⟨0, _⟩ => by show (0 : Nat) = if (1 : Nat) = 1 then 0 else _; rw [if_pos rfl]
    | ⟨1, _⟩ => by show d.val = if (256 : Nat) = 1 then 0 else d.val; rw [if_neg (by decide)])

/-- A 1 × 1 block spread over the 64 × 1 column reads its one element at every row. -/
theorem tileOne_at {α : Type} (b : S1x1.Idx → α) (p : Fin 64) :
    broadcastTo S64x1 b broadcasts_S1x1_S64x1 (ix2 p (0 : Fin 1)) = b (ix2 (0 : Fin 1) (0 : Fin 1)) :=
  broadcastTo_apply b broadcasts_S1x1_S64x1 (ix2 p (0 : Fin 1)) (ix2 (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl])

/-- The element of a 1 × 1 block at position (0, 0). -/
theorem extract00 {α : Type} (v : S1x1.Idx → α) (h : ∀ a, (![0, 0] : Fin 2 → Nat) a < S1x1.size a) :
    extractAt ![0, 0] v h = v (ix2 (0 : Fin 1) (0 : Fin 1)) := by
  unfold extractAt
  refine congrArg v (funext fun a => ?_)
  match a with
  | ⟨0, _⟩ => rfl
  | ⟨1, _⟩ => rfl

/-! ## The four payloads at an index -/

/-- The pair head at edge `r`, channel `d`: the rectified dense layer of the two feature rows' product. -/
theorem pay138_at (xi xj : Vec Ideal S64x256 .f32) (w : Vec Ideal S256x256 .f32) (b : Vec Ideal S1x256 .f32) (r : Fin 64) (d : Fin 256) :
    k1_pay138 (F := Ideal) xi xj w b (ix2 r d)
      = Cert.Spec.relu (Cert.Spec.dense (fun k => xi (ix2 r k) * xj (ix2 r k)) w (rowVec b) d) := by
  unfold k1_pay138
  simp only [addf_apply, mulf_apply, maximumf_apply, broadcast_apply, layerProd_at, tileBias_at, shapeCast_self]
  rfl

/-- The first common-neighbour layer at edge `r`, channel `d`: the indicator row contracted with the table (the
    narrowing of both operands is the identity on the extended reals), then a rectified dense layer. -/
theorem pay139_at (ai aj : Vec Ideal S64x8192 .f32) (hb : Vec Ideal S8192x256 .f32) (w : Vec Ideal S256x256 .f32) (b : Vec Ideal S1x256 .f32)
    (r : Fin 64) (d : Fin 256) :
    k1_pay139 (F := Ideal) ai aj hb w b (ix2 r d)
      = Cert.Spec.relu (Cert.Spec.dense (fun k => ∑ n : Fin 8192, (ai (ix2 r n) * aj (ix2 r n)) * hb (ix2 n k)) w (rowVec b) d) := by
  unfold k1_pay139
  simp only [addf_apply, mulf_apply, maximumf_apply, broadcast_apply, truncf_apply, layerProd_at, nbrProd_at, tileBias_at, shapeCast_self]
  rfl

/-- The second common-neighbour layer times `beta` plus the pair head, the output head's hidden layer, and its last
    column, at edge `r`. -/
theorem pay140_at (xij xcn1 : FVec Ideal S64x256 .f32) (xcn_w2 : Vec Ideal S256x256 .f32) (xcn_b2 : Vec Ideal S1x256 .f32)
    (beta : Vec Ideal S1x1 .f32) (lin_w1 : Vec Ideal S256x256 .f32) (lin_b1 : Vec Ideal S1x256 .f32) (lin_w2 : Vec Ideal S256x1 .f32) (r : Fin 64) :
    k1_pay140 (F := Ideal) xij xcn1 xcn_w2 xcn_b2 beta lin_w1 lin_b1 lin_w2 (ix2 r (0 : Fin 1))
      = ∑ k : Fin 256,
          Cert.Spec.relu (Cert.Spec.dense (fun k₁ =>
              Cert.Spec.relu (Cert.Spec.dense (fun k₂ => xcn1 (ix2 r k₂)) xcn_w2 (rowVec xcn_b2) k₁) * oneVec beta (ValueIdx.ix1 (0 : Fin 1))
                + xij (ix2 r k₁)) lin_w1 (rowVec lin_b1) k)
            * lin_w2 (ix2 k (0 : Fin 1)) := by
  unfold k1_pay140
  simp only [addf_apply, mulf_apply, maximumf_apply, broadcast_apply, layerProd_at, headProd_at, tileBias_at, shapeCast_self, extract00]
  rfl

/-- The last bias added, at edge `r`. -/
theorem pay1_at (v : FVec Ideal S64x1 .f32) (b : Vec Ideal S1x1 .f32) (r : Fin 64) :
    k1_pay1 (F := Ideal) v b (ix2 r (0 : Fin 1)) = v (ix2 r (0 : Fin 1)) + oneVec b (ValueIdx.ix1 (0 : Fin 1)) := by
  unfold k1_pay1
  simp only [addf_apply, tileOne_at, shapeCast_self]
  rfl

/-- THE TILE AT EDGE `r`: what the body stores there is the row score of that edge's two adjacency rows, the table, and
    its two feature rows. -/
theorem tile_row (ai aj : Vec Ideal S64x8192 .f32) (hb : Vec Ideal S8192x256 .f32) (xi xj : Vec Ideal S64x256 .f32) (xij_w : Vec Ideal S256x256 .f32) (xij_b : Vec Ideal S1x256 .f32) (xcn_w1 : Vec Ideal S256x256 .f32) (xcn_b1 : Vec Ideal S1x256 .f32) (xcn_w2 : Vec Ideal S256x256 .f32) (xcn_b2 : Vec Ideal S1x256 .f32) (lin_w1 : Vec Ideal S256x256 .f32) (lin_b1 : Vec Ideal S1x256 .f32) (lin_w2 : Vec Ideal S256x1 .f32) (lin_b2 : Vec Ideal S1x1 .f32) (beta : Vec Ideal S1x1 .f32) (r : Fin 64) :
    tileOut ai aj hb xi xj xij_w xij_b xcn_w1 xcn_b1 xcn_w2 xcn_b2 lin_w1 lin_b1 lin_w2 lin_b2 beta (ValueIdx.ix2 r (0 : Fin 1))
      = rowOut (fun k => ai (ValueIdx.ix2 r k) * aj (ValueIdx.ix2 r k)) (fun k d => hb (ValueIdx.ix2 k d))
          (fun k => xi (ValueIdx.ix2 r k)) (fun k => xj (ValueIdx.ix2 r k))
          xij_w (rowVec xij_b) xcn_w1 (rowVec xcn_b1) xcn_w2 (rowVec xcn_b2) lin_w1 (rowVec lin_b1) lin_w2 (oneVec lin_b2) (oneVec beta) := by
  unfold tileOut
  rw [pay1_at, pay140_at]
  simp only [pay138_at, pay139_at]
  rfl

end Cert.KernelIdeal.Hand

end
-- ==== Proof.KI.EdgeScore.lean ====
import proofs.«428817_j39556648796289_1_alg».proof.Proof.KI.R1Arith
import proofs.«428817_j39556648796289_1_alg».proof.Proof.KI.R0Value
import proofs.«428817_j39556648796289_1_alg».proof.Proof.Spec
import Idealize.ShloMosaic.Lib.ValueIdx

/-! # The score of one edge from what the second region reads

What the second region computes for an edge is one score from the arrays it reads: the two end nodes' adjacency rows
and feature rows (named by the two tables' words), the residual table the first region left, and the weights. Under
the equations that say what those arrays are in terms of the launch's argument arrays, that score is the
specification's score of the edge. -/

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

/-! ## The score of an edge from what the region finds -/

/-- The score of edge `e` from the arrays the region reads: the row score of the two adjacency rows and the two feature
    rows that the tables' words of `e` name, the residual table, and the weights (the biases kept as rows, the two
    scalars as 1 × 1 blocks). -/
def edgeScore (x hb : Vec Ideal S8192x256 .f32) (adj : Vec Ideal S8192x8192 .f32) (t0 t1 : S8192.Idx → BitVec 32)
    (xij_w : Vec Ideal S256x256 .f32) (xij_b : Vec Ideal S1x256 .f32) (xcn_w1 : Vec Ideal S256x256 .f32) (xcn_b1 : Vec Ideal S1x256 .f32)
    (xcn_w2 : Vec Ideal S256x256 .f32) (xcn_b2 : Vec Ideal S1x256 .f32) (lin_w1 : Vec Ideal S256x256 .f32) (lin_b1 : Vec Ideal S1x256 .f32)
    (lin_w2 : Vec Ideal S256x1 .f32) (lin_b2 beta : Vec Ideal S1x1 .f32) (e : Fin 8192) : EReal :=
  rowOut
    (fun k => adj (ix2 (Cert.Spec.rowIx (t0 (ValueIdx.ix1 e))) k) * adj (ix2 (Cert.Spec.rowIx (t1 (ValueIdx.ix1 e))) k))
    (fun k d => hb (ix2 k d))
    (fun k => x (ix2 (Cert.Spec.rowIx (t0 (ValueIdx.ix1 e))) k))
    (fun k => x (ix2 (Cert.Spec.rowIx (t1 (ValueIdx.ix1 e))) k))
    xij_w (rowVec xij_b) xcn_w1 (rowVec xcn_b1) xcn_w2 (rowVec xcn_b2) lin_w1 (rowVec lin_b1) lin_w2 (oneVec lin_b2) (oneVec beta)

/-- The same at the core's arrays `V` as the region finds them and the two tables `pf`: the feature table, the residual
    table, the adjacency, and the eleven weight windows' arrays. -/
def gOf (V : (c : Dev nD) → (b : Ref sig .tc) → Buf (Elt Ideal) ((c : Thread nD τ).loc b)) (pf : pre1.Contents (Elt Ideal))
    (c : Dev nD) (e : Fin 8192) : EReal :=
  edgeScore (V c main_arg0) (V c main_v6) (V c main_arg1) (pf 0) (pf 1)
    (V c main_arg11) (V c main_v7) (V c main_arg7) (V c main_v8) (V c main_arg9) (V c main_v9)
    (V c main_arg13) (V c main_v10) (V c main_arg15) (V c main_v11) (V c main_v12) e

/-- When the arrays read are the launch's arguments (the feature table, the adjacency, the weights; the biases and
    scalars read back as vectors), the residual table is the specification's, and the tables' words are the edge
    table's two rows, the score is the specification's score of the edge. -/
theorem edgeScore_eq_outAt
    (x : FVec Ideal Cert.Spec.SFeat .f32) (adj : FVec Ideal Cert.Spec.SAdj .f32) (tar : IVec Cert.Spec.SEdges 32)
    (xlin_w1 : FVec Ideal Cert.Spec.SW .f32) (xlin_b1 : FVec Ideal Cert.Spec.SB .f32) (xlin_w2 : FVec Ideal Cert.Spec.SW .f32) (xlin_b2 : FVec Ideal Cert.Spec.SB .f32)
    (xcn_w1 : FVec Ideal Cert.Spec.SW .f32) (xcn_b1 : FVec Ideal Cert.Spec.SB .f32) (xcn_w2 : FVec Ideal Cert.Spec.SW .f32) (xcn_b2 : FVec Ideal Cert.Spec.SB .f32)
    (xij_w : FVec Ideal Cert.Spec.SW .f32) (xij_b : FVec Ideal Cert.Spec.SB .f32)
    (lin_w1 : FVec Ideal Cert.Spec.SW .f32) (lin_b1 : FVec Ideal Cert.Spec.SB .f32) (lin_w2 : FVec Ideal Cert.Spec.SWOut .f32) (lin_b2 : FVec Ideal Cert.Spec.SOne .f32)
    (beta : FVec Ideal Cert.Spec.SOne .f32)
    (hb : Vec Ideal S8192x256 .f32) (t0 t1 : S8192.Idx → BitVec 32)
    (b7 b8 b9 b10 : Vec Ideal S1x256 .f32) (b11 b12 : Vec Ideal S1x1 .f32)
    (hh : hb = Cert.Spec.hArr x xlin_w1 xlin_b1 xlin_w2 xlin_b2)
    (ht0 : ∀ e : Fin 8192, t0 (ValueIdx.ix1 e) = tar (ix2 (0 : Fin 2) e))
    (ht1 : ∀ e : Fin 8192, t1 (ValueIdx.ix1 e) = tar (ix2 (1 : Fin 2) e))
    (h7 : rowVec b7 = xij_b) (h8 : rowVec b8 = xcn_b1) (h9 : rowVec b9 = xcn_b2) (h10 : rowVec b10 = lin_b1)
    (h11 : oneVec b11 = lin_b2) (h12 : oneVec b12 = beta) (e : Fin 8192) :
    edgeScore x hb adj t0 t1 xij_w b7 xcn_w1 b8 xcn_w2 b9 lin_w1 b10 lin_w2 b11 b12 e
      = Cert.Spec.outAt x adj tar xlin_w1 xlin_b1 xlin_w2 xlin_b2 xcn_w1 xcn_b1 xcn_w2 xcn_b2 xij_w xij_b
          lin_w1 lin_b1 lin_w2 lin_b2 beta e := by
  rw [outAt_eq_rowOut]
  unfold edgeScore
  rw [hh, ht0, ht1, h7, h8, h9, h10, h11, h12]
  rfl

end Cert.KernelIdeal.Hand

end
-- ==== Proof.KI.AlgGlue.lean ====
import proofs.«428817_j39556648796289_1_alg».proof.Proof.KI.Regs
import proofs.«428817_j39556648796289_1_alg».proof.Proof.KI.R1Value
import proofs.«428817_j39556648796289_1_alg».proof.Proof.KI.EdgeScore
import proofs.«428817_j39556648796289_1_alg».proof.Proof.KI.R0Value
import proofs.«428817_j39556648796289_1_alg».proof.Proof.KI.R1Arith
import proofs.«428817_j39556648796289_1_alg».proof.Proof.KI.Tables
import proofs.«428817_j39556648796289_1_alg».proof.Proof.Spec
import Idealize.ShloMosaic.Lib.StableHlo.Run
import Idealize.ShloMosaic.Lib.Tactic

/-! # The second region's result is the specification

What the second region finds at its entry, read back through the two host stretches and the first region: the feature
table, the adjacency and the weight matrices as launched; the biases and the two scalars as launched, kept as rows and
1 × 1 blocks; the first region's output array, which is the specification's residual block; the two tables, which are
the edge table's two rows. With these the edge score of what the region finds is the specification's score, and an
output array made of such tiles is the specification's result. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Idealize.ShloMosaic.ValueIdx

/-! ## What the second region finds, in terms of the launch's arrays -/

variable (m : (ℓ : Loc nD τ sig) → Buf (Elt Ideal) ℓ)

/-- An array that neither host stretch writes and the first region does not window reaches the second region as launched. -/
theorem V3_untouched (c : Dev nD) (b : Ref sig .tc) (h1 : b ∉ hostOps1_W) (h0 : ∀ w, Pipeline.arrRef spec0 w ≠ b)
    (h : b ∉ hostOps0_W) : V3 m c b = m ((c : Thread nD τ).loc b) :=
  (W3_of m c b h1).trans ((W2_of_ne m c b h0).trans (W1_of m c b h))

theorem V3_main_arg1 (c : Dev nD) : V3 m c main_arg1 = m ((c : Thread nD τ).loc main_arg1) :=
  V3_untouched m c main_arg1 (by decide) (by decide) (by decide)
theorem V3_main_arg7 (c : Dev nD) : V3 m c main_arg7 = m ((c : Thread nD τ).loc main_arg7) :=
  V3_untouched m c main_arg7 (by decide) (by decide) (by decide)
theorem V3_main_arg9 (c : Dev nD) : V3 m c main_arg9 = m ((c : Thread nD τ).loc main_arg9) :=
  V3_untouched m c main_arg9 (by decide) (by decide) (by decide)
theorem V3_main_arg11 (c : Dev nD) : V3 m c main_arg11 = m ((c : Thread nD τ).loc main_arg11) :=
  V3_untouched m c main_arg11 (by decide) (by decide) (by decide)
theorem V3_main_arg13 (c : Dev nD) : V3 m c main_arg13 = m ((c : Thread nD τ).loc main_arg13) :=
  V3_untouched m c main_arg13 (by decide) (by decide) (by decide)
theorem V3_main_arg15 (c : Dev nD) : V3 m c main_arg15 = m ((c : Thread nD τ).loc main_arg15) :=
  V3_untouched m c main_arg15 (by decide) (by decide) (by decide)

/-- The feature table is an input window of the first region: it leaves it as entered. -/
theorem V3_main_arg0 (c : Dev nD) : V3 m c main_arg0 = m ((c : Thread nD τ).loc main_arg0) :=
  (W3_of m c main_arg0 (by decide)).trans ((W2_in m c 0 rfl).trans (W1_of m c main_arg0 (by decide)))

/-! ### The reshaped biases and scalars, read back -/

/-- The first host stretch keeps the residual block's two biases as rows. -/
theorem V1_main_v4 (c : Dev nD) :
    (V1 m c main_v4 : Vec Ideal S1x256 .f32) = shapeCast S1x256 (m ((c : Thread nD τ).loc main_arg4)) shapeCasts_S256_S1x256 := by
  dsimp only [V1, W1, W0, hostOps0]; after_results; rfl
theorem V1_main_v5 (c : Dev nD) :
    (V1 m c main_v5 : Vec Ideal S1x256 .f32) = shapeCast S1x256 (m ((c : Thread nD τ).loc main_arg6)) shapeCasts_S256_S1x256 := by
  dsimp only [V1, W1, W0, hostOps0]; after_results; rfl

/-- An array the first region does not window and the first host stretch does not write is, at the second host
    stretch's entry, as launched. -/
theorem W2_untouched (c : Dev nD) (b : Ref sig .tc) (h0 : ∀ w, Pipeline.arrRef spec0 w ≠ b) (h : b ∉ hostOps0_W) :
    W2 m c (Proc.devRef .tc b) = m ((c : Thread nD τ).loc b) :=
  (W2_of_ne m c b h0).trans (W1_of m c b h)

/-- The second host stretch keeps four biases as rows and the two scalars as 1 × 1 blocks. -/
theorem V3_main_v7 (c : Dev nD) :
    (V3 m c main_v7 : Vec Ideal S1x256 .f32) = shapeCast S1x256 (m ((c : Thread nD τ).loc main_arg12)) shapeCasts_S256_S1x256 := by
  have hv : (V3 m c main_v7 : Vec Ideal S1x256 .f32) = shapeCast S1x256 (W2 m c (Proc.devRef .tc main_arg12)) shapeCasts_S256_S1x256 := by
    dsimp only [V3, W3, hostOps1]; after_results; rfl
  rw [hv, W2_untouched m c main_arg12 (by decide) (by decide)]
theorem V3_main_v8 (c : Dev nD) :
    (V3 m c main_v8 : Vec Ideal S1x256 .f32) = shapeCast S1x256 (m ((c : Thread nD τ).loc main_arg8)) shapeCasts_S256_S1x256 := by
  have hv : (V3 m c main_v8 : Vec Ideal S1x256 .f32) = shapeCast S1x256 (W2 m c (Proc.devRef .tc main_arg8)) shapeCasts_S256_S1x256 := by
    dsimp only [V3, W3, hostOps1]; after_results; rfl
  rw [hv, W2_untouched m c main_arg8 (by decide) (by decide)]
theorem V3_main_v9 (c : Dev nD) :
    (V3 m c main_v9 : Vec Ideal S1x256 .f32) = shapeCast S1x256 (m ((c : Thread nD τ).loc main_arg10)) shapeCasts_S256_S1x256 := by
  have hv : (V3 m c main_v9 : Vec Ideal S1x256 .f32) = shapeCast S1x256 (W2 m c (Proc.devRef .tc main_arg10)) shapeCasts_S256_S1x256 := by
    dsimp only [V3, W3, hostOps1]; after_results; rfl
  rw [hv, W2_untouched m c main_arg10 (by decide) (by decide)]
theorem V3_main_v10 (c : Dev nD) :
    (V3 m c main_v10 : Vec Ideal S1x256 .f32) = shapeCast S1x256 (m ((c : Thread nD τ).loc main_arg14)) shapeCasts_S256_S1x256 := by
  have hv : (V3 m c main_v10 : Vec Ideal S1x256 .f32) = shapeCast S1x256 (W2 m c (Proc.devRef .tc main_arg14)) shapeCasts_S256_S1x256 := by
    dsimp only [V3, W3, hostOps1]; after_results; rfl
  rw [hv, W2_untouched m c main_arg14 (by decide) (by decide)]
theorem V3_main_v11 (c : Dev nD) :
    (V3 m c main_v11 : Vec Ideal S1x1 .f32) = shapeCast S1x1 (m ((c : Thread nD τ).loc main_arg16)) shapeCasts_S1_S1x1 := by
  have hv : (V3 m c main_v11 : Vec Ideal S1x1 .f32) = shapeCast S1x1 (W2 m c (Proc.devRef .tc main_arg16)) shapeCasts_S1_S1x1 := by
    dsimp only [V3, W3, hostOps1]; after_results; rfl
  rw [hv, W2_untouched m c main_arg16 (by decide) (by decide)]
theorem V3_main_v12 (c : Dev nD) :
    (V3 m c main_v12 : Vec Ideal S1x1 .f32) = shapeCast S1x1 (m ((c : Thread nD τ).loc main_arg17)) shapeCasts_S1_S1x1 := by
  have hv : (V3 m c main_v12 : Vec Ideal S1x1 .f32) = shapeCast S1x1 (W2 m c (Proc.devRef .tc main_arg17)) shapeCasts_S1_S1x1 := by
    dsimp only [V3, W3, hostOps1]; after_results; rfl
  rw [hv, W2_untouched m c main_arg17 (by decide) (by decide)]

/-! ### The residual table -/

/-- The second region finds, in the first region's output array, the specification's residual block of the launch's
    arrays. -/
theorem V3_main_v6_spec (c : Dev nD) :
    (V3 m c main_v6 : Vec Ideal S8192x256 .f32)
      = Cert.Spec.hArr (m ((c : Thread nD τ).loc main_arg0)) (m ((c : Thread nD τ).loc main_arg3)) (m ((c : Thread nD τ).loc main_arg4))
          (m ((c : Thread nD τ).loc main_arg5)) (m ((c : Thread nD τ).loc main_arg6)) := by
  rw [V3_main_v6, h_arr (V1 m) c]
  unfold hfun
  rw [V1_main_v4, V1_main_v5, rowVec_shapeCast, rowVec_shapeCast,
    show V1 m c main_arg0 = m ((c : Thread nD τ).loc main_arg0) from W1_of m c main_arg0 (by decide),
    show V1 m c main_arg3 = m ((c : Thread nD τ).loc main_arg3) from W1_of m c main_arg3 (by decide),
    show V1 m c main_arg5 = m ((c : Thread nD τ).loc main_arg5) from W1_of m c main_arg5 (by decide)]

/-! ### The tables' words -/

/-- Word `e` of the first table is the edge table's first row at `e`; of the second, its second row. -/
theorem tbl0_apply (c : Dev nD) (e : Fin 8192) :
    ((adm1 m).1 0 : S8192.Idx → BitVec 32) (ValueIdx.ix1 e) = m ((c : Thread nD τ).loc main_arg2) (ix2 (0 : Fin 2) e) := by
  obtain rfl : c = 0 := Subsingleton.elim _ _
  exact V1_main_v1_apply m 0 e
theorem tbl1_apply (c : Dev nD) (e : Fin 8192) :
    ((adm1 m).1 1 : S8192.Idx → BitVec 32) (ValueIdx.ix1 e) = m ((c : Thread nD τ).loc main_arg2) (ix2 (1 : Fin 2) e) := by
  obtain rfl : c = 0 := Subsingleton.elim _ _
  exact V1_main_v3_apply m 0 e

/-! ## The second region's result is the specification -/

/-- THE RESULT: if every tile holds, at each of its rows, the edge score of what the region finds, the array the
    second region leaves is the specification's result of the launch's argument arrays. -/
theorem result_eq_G (hH : Hyps1 (adm1 m).1) (c : Dev nD)
    (htile : ∀ (t : Fin (cfg1 (adm1 m)).N) (r : Fin 64),
      outsAt1 (V3 m) (adm1 m) hH c t (ix2 r (0 : Fin 1)) = gOf (V3 m) (adm1 m).1 c (edgeAt (adm1 m) t r)) :
    (dat1 (V3 m) (adm1 m) hH c).arrAt 13 (cfg1 (adm1 m)).N
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [out_arr_of_tiles (V3 m) (adm1 m) hH c (gOf (V3 m) (adm1 m).1 c) htile]
  funext i
  show gOf (V3 m) (adm1 m).1 c (i 0) = Cert.Spec.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (i 0)
  unfold gOf
  rw [V3_main_arg0, V3_main_arg1, V3_main_arg7, V3_main_arg9, V3_main_arg11, V3_main_arg13, V3_main_arg15]
  exact edgeScore_eq_outAt _ _ (m ((c : Thread nD τ).loc main_arg2)) _ _ _ _ _ _ _ _ _ _ _ _ _ _ _
    (V3 m c main_v6) ((adm1 m).1 0) ((adm1 m).1 1) (V3 m c main_v7) (V3 m c main_v8) (V3 m c main_v9) (V3 m c main_v10)
    (V3 m c main_v11) (V3 m c main_v12)
    (V3_main_v6_spec m c) (tbl0_apply m c) (tbl1_apply m c)
    (by rw [V3_main_v7, rowVec_shapeCast]) (by rw [V3_main_v8, rowVec_shapeCast]) (by rw [V3_main_v9, rowVec_shapeCast])
    (by rw [V3_main_v10, rowVec_shapeCast]) (by rw [V3_main_v11, oneVec_shapeCast]) (by rw [V3_main_v12, oneVec_shapeCast]) (i 0)

end Cert.KernelIdeal.Hand

end
-- ==== Proof.KI.R1Blocks.lean ====
import proofs.«428817_j39556648796289_1_alg».proof.Proof.Gen.KernelIdeal
import Idealize.ShloMosaic.Lib.Pipeline.Value
import Idealize.ShloMosaic.Lib.ValueIdx

/-! # The second region's input windows read their arrays whole

Each of the thirteen input windows of the second region is its array taken whole at every grid point: the printed index
map is constantly zero and the block is the array's shape. So a window's block, read off the array's contents, is the
contents. Whatever the tables hold. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable {F : FTy → Type} [FloatOps F]

/-! ## The printed index maps are zero -/

theorem zeroMap_0 : ∀ i : grid1.Coords, cc1_transform_0 i (0 : Fin 2) = 0 ∧ cc1_transform_0 i (1 : Fin 2) = 0 := fun _ => ⟨rfl, rfl⟩
theorem zeroMap_1 : ∀ i : grid1.Coords, cc1_transform_1 i (0 : Fin 2) = 0 ∧ cc1_transform_1 i (1 : Fin 2) = 0 := fun _ => ⟨rfl, rfl⟩
theorem zeroMap_3 : ∀ i : grid1.Coords, cc1_transform_3 i (0 : Fin 2) = 0 ∧ cc1_transform_3 i (1 : Fin 2) = 0 := fun _ => ⟨rfl, rfl⟩
theorem zeroMap_4 : ∀ i : grid1.Coords, cc1_transform_4 i (0 : Fin 2) = 0 ∧ cc1_transform_4 i (1 : Fin 2) = 0 := fun _ => ⟨rfl, rfl⟩
theorem zeroMap_5 : ∀ i : grid1.Coords, cc1_transform_5 i (0 : Fin 2) = 0 ∧ cc1_transform_5 i (1 : Fin 2) = 0 := fun _ => ⟨rfl, rfl⟩
theorem zeroMap_6 : ∀ i : grid1.Coords, cc1_transform_6 i (0 : Fin 2) = 0 ∧ cc1_transform_6 i (1 : Fin 2) = 0 := fun _ => ⟨rfl, rfl⟩
theorem zeroMap_7 : ∀ i : grid1.Coords, cc1_transform_7 i (0 : Fin 2) = 0 ∧ cc1_transform_7 i (1 : Fin 2) = 0 := fun _ => ⟨rfl, rfl⟩
theorem zeroMap_8 : ∀ i : grid1.Coords, cc1_transform_8 i (0 : Fin 2) = 0 ∧ cc1_transform_8 i (1 : Fin 2) = 0 := fun _ => ⟨rfl, rfl⟩
theorem zeroMap_9 : ∀ i : grid1.Coords, cc1_transform_9 i (0 : Fin 2) = 0 ∧ cc1_transform_9 i (1 : Fin 2) = 0 := fun _ => ⟨rfl, rfl⟩
theorem zeroMap_10 : ∀ i : grid1.Coords, cc1_transform_10 i (0 : Fin 2) = 0 ∧ cc1_transform_10 i (1 : Fin 2) = 0 := fun _ => ⟨rfl, rfl⟩
theorem zeroMap_11 : ∀ i : grid1.Coords, cc1_transform_11 i (0 : Fin 2) = 0 ∧ cc1_transform_11 i (1 : Fin 2) = 0 := fun _ => ⟨rfl, rfl⟩
theorem zeroMap_12 : ∀ i : grid1.Coords, cc1_transform_12 i (0 : Fin 2) = 0 ∧ cc1_transform_12 i (1 : Fin 2) = 0 := fun _ => ⟨rfl, rfl⟩
theorem zeroMap_13 : ∀ i : grid1.Coords, cc1_transform_13 i (0 : Fin 2) = 0 ∧ cc1_transform_13 i (1 : Fin 2) = 0 := fun _ => ⟨rfl, rfl⟩

/-! ## Each window's block is its array -/

theorem index1_0 (a1 : (pcfg1 (F := F)).Adm) (t : Fin (cfg1 a1).N) : ((cfg1 a1).win 0).index t = cc1_transform_0 (grid1.coords t) := rfl
theorem blk1_0_read (a1 : (pcfg1 (F := F)).Adm) (t : Fin (cfg1 a1).N) (A : S8192x256.Idx → Elt F .f32) :
    (((cfg1 a1).win 0).blk t).view.read (Elt F) A = A := by
  refine funext fun (y : S8192x256.Idx) => ?_
  show A ((((cfg1 a1).win 0).blk t).view.emb y) = A y
  refine congrArg A (funext fun a => Fin.ext ?_)
  match a with
  | ⟨0, _⟩ => show ((cfg1 a1).win 0).index t (0 : Fin 2) * 8192 + 1 * (y 0).val = (y 0).val; rw [index1_0, (zeroMap_0 _).1]; omega
  | ⟨1, _⟩ => show ((cfg1 a1).win 0).index t (1 : Fin 2) * 256 + 1 * (y 1).val = (y 1).val; rw [index1_0, (zeroMap_0 _).2]; omega

theorem index1_1 (a1 : (pcfg1 (F := F)).Adm) (t : Fin (cfg1 a1).N) : ((cfg1 a1).win 1).index t = cc1_transform_1 (grid1.coords t) := rfl
theorem blk1_1_read (a1 : (pcfg1 (F := F)).Adm) (t : Fin (cfg1 a1).N) (A : S8192x256.Idx → Elt F .f32) :
    (((cfg1 a1).win 1).blk t).view.read (Elt F) A = A := by
  refine funext fun (y : S8192x256.Idx) => ?_
  show A ((((cfg1 a1).win 1).blk t).view.emb y) = A y
  refine congrArg A (funext fun a => Fin.ext ?_)
  match a with
  | ⟨0, _⟩ => show ((cfg1 a1).win 1).index t (0 : Fin 2) * 8192 + 1 * (y 0).val = (y 0).val; rw [index1_1, (zeroMap_1 _).1]; omega
  | ⟨1, _⟩ => show ((cfg1 a1).win 1).index t (1 : Fin 2) * 256 + 1 * (y 1).val = (y 1).val; rw [index1_1, (zeroMap_1 _).2]; omega

theorem index1_2 (a1 : (pcfg1 (F := F)).Adm) (t : Fin (cfg1 a1).N) : ((cfg1 a1).win 2).index t = cc1_transform_3 (grid1.coords t) := rfl
theorem blk1_2_read (a1 : (pcfg1 (F := F)).Adm) (t : Fin (cfg1 a1).N) (A : S256x256.Idx → Elt F .f32) :
    (((cfg1 a1).win 2).blk t).view.read (Elt F) A = A := by
  refine funext fun (y : S256x256.Idx) => ?_
  show A ((((cfg1 a1).win 2).blk t).view.emb y) = A y
  refine congrArg A (funext fun a => Fin.ext ?_)
  match a with
  | ⟨0, _⟩ => show ((cfg1 a1).win 2).index t (0 : Fin 2) * 256 + 1 * (y 0).val = (y 0).val; rw [index1_2, (zeroMap_3 _).1]; omega
  | ⟨1, _⟩ => show ((cfg1 a1).win 2).index t (1 : Fin 2) * 256 + 1 * (y 1).val = (y 1).val; rw [index1_2, (zeroMap_3 _).2]; omega

theorem index1_3 (a1 : (pcfg1 (F := F)).Adm) (t : Fin (cfg1 a1).N) : ((cfg1 a1).win 3).index t = cc1_transform_4 (grid1.coords t) := rfl
theorem blk1_3_read (a1 : (pcfg1 (F := F)).Adm) (t : Fin (cfg1 a1).N) (A : S1x256.Idx → Elt F .f32) :
    (((cfg1 a1).win 3).blk t).view.read (Elt F) A = A := by
  refine funext fun (y : S1x256.Idx) => ?_
  show A ((((cfg1 a1).win 3).blk t).view.emb y) = A y
  refine congrArg A (funext fun a => Fin.ext ?_)
  match a with
  | ⟨0, _⟩ => show ((cfg1 a1).win 3).index t (0 : Fin 2) * 1 + 1 * (y 0).val = (y 0).val; rw [index1_3, (zeroMap_4 _).1]; omega
  | ⟨1, _⟩ => show ((cfg1 a1).win 3).index t (1 : Fin 2) * 256 + 1 * (y 1).val = (y 1).val; rw [index1_3, (zeroMap_4 _).2]; omega

theorem index1_4 (a1 : (pcfg1 (F := F)).Adm) (t : Fin (cfg1 a1).N) : ((cfg1 a1).win 4).index t = cc1_transform_5 (grid1.coords t) := rfl
theorem blk1_4_read (a1 : (pcfg1 (F := F)).Adm) (t : Fin (cfg1 a1).N) (A : S256x256.Idx → Elt F .f32) :
    (((cfg1 a1).win 4).blk t).view.read (Elt F) A = A := by
  refine funext fun (y : S256x256.Idx) => ?_
  show A ((((cfg1 a1).win 4).blk t).view.emb y) = A y
  refine congrArg A (funext fun a => Fin.ext ?_)
  match a with
  | ⟨0, _⟩ => show ((cfg1 a1).win 4).index t (0 : Fin 2) * 256 + 1 * (y 0).val = (y 0).val; rw [index1_4, (zeroMap_5 _).1]; omega
  | ⟨1, _⟩ => show ((cfg1 a1).win 4).index t (1 : Fin 2) * 256 + 1 * (y 1).val = (y 1).val; rw [index1_4, (zeroMap_5 _).2]; omega

theorem index1_5 (a1 : (pcfg1 (F := F)).Adm) (t : Fin (cfg1 a1).N) : ((cfg1 a1).win 5).index t = cc1_transform_6 (grid1.coords t) := rfl
theorem blk1_5_read (a1 : (pcfg1 (F := F)).Adm) (t : Fin (cfg1 a1).N) (A : S1x256.Idx → Elt F .f32) :
    (((cfg1 a1).win 5).blk t).view.read (Elt F) A = A := by
  refine funext fun (y : S1x256.Idx) => ?_
  show A ((((cfg1 a1).win 5).blk t).view.emb y) = A y
  refine congrArg A (funext fun a => Fin.ext ?_)
  match a with
  | ⟨0, _⟩ => show ((cfg1 a1).win 5).index t (0 : Fin 2) * 1 + 1 * (y 0).val = (y 0).val; rw [index1_5, (zeroMap_6 _).1]; omega
  | ⟨1, _⟩ => show ((cfg1 a1).win 5).index t (1 : Fin 2) * 256 + 1 * (y 1).val = (y 1).val; rw [index1_5, (zeroMap_6 _).2]; omega

theorem index1_6 (a1 : (pcfg1 (F := F)).Adm) (t : Fin (cfg1 a1).N) : ((cfg1 a1).win 6).index t = cc1_transform_7 (grid1.coords t) := rfl
theorem blk1_6_read (a1 : (pcfg1 (F := F)).Adm) (t : Fin (cfg1 a1).N) (A : S256x256.Idx → Elt F .f32) :
    (((cfg1 a1).win 6).blk t).view.read (Elt F) A = A := by
  refine funext fun (y : S256x256.Idx) => ?_
  show A ((((cfg1 a1).win 6).blk t).view.emb y) = A y
  refine congrArg A (funext fun a => Fin.ext ?_)
  match a with
  | ⟨0, _⟩ => show ((cfg1 a1).win 6).index t (0 : Fin 2) * 256 + 1 * (y 0).val = (y 0).val; rw [index1_6, (zeroMap_7 _).1]; omega
  | ⟨1, _⟩ => show ((cfg1 a1).win 6).index t (1 : Fin 2) * 256 + 1 * (y 1).val = (y 1).val; rw [index1_6, (zeroMap_7 _).2]; omega

theorem index1_7 (a1 : (pcfg1 (F := F)).Adm) (t : Fin (cfg1 a1).N) : ((cfg1 a1).win 7).index t = cc1_transform_8 (grid1.coords t) := rfl
theorem blk1_7_read (a1 : (pcfg1 (F := F)).Adm) (t : Fin (cfg1 a1).N) (A : S1x256.Idx → Elt F .f32) :
    (((cfg1 a1).win 7).blk t).view.read (Elt F) A = A := by
  refine funext fun (y : S1x256.Idx) => ?_
  show A ((((cfg1 a1).win 7).blk t).view.emb y) = A y
  refine congrArg A (funext fun a => Fin.ext ?_)
  match a with
  | ⟨0, _⟩ => show ((cfg1 a1).win 7).index t (0 : Fin 2) * 1 + 1 * (y 0).val = (y 0).val; rw [index1_7, (zeroMap_8 _).1]; omega
  | ⟨1, _⟩ => show ((cfg1 a1).win 7).index t (1 : Fin 2) * 256 + 1 * (y 1).val = (y 1).val; rw [index1_7, (zeroMap_8 _).2]; omega

theorem index1_8 (a1 : (pcfg1 (F := F)).Adm) (t : Fin (cfg1 a1).N) : ((cfg1 a1).win 8).index t = cc1_transform_9 (grid1.coords t) := rfl
theorem blk1_8_read (a1 : (pcfg1 (F := F)).Adm) (t : Fin (cfg1 a1).N) (A : S256x256.Idx → Elt F .f32) :
    (((cfg1 a1).win 8).blk t).view.read (Elt F) A = A := by
  refine funext fun (y : S256x256.Idx) => ?_
  show A ((((cfg1 a1).win 8).blk t).view.emb y) = A y
  refine congrArg A (funext fun a => Fin.ext ?_)
  match a with
  | ⟨0, _⟩ => show ((cfg1 a1).win 8).index t (0 : Fin 2) * 256 + 1 * (y 0).val = (y 0).val; rw [index1_8, (zeroMap_9 _).1]; omega
  | ⟨1, _⟩ => show ((cfg1 a1).win 8).index t (1 : Fin 2) * 256 + 1 * (y 1).val = (y 1).val; rw [index1_8, (zeroMap_9 _).2]; omega

theorem index1_9 (a1 : (pcfg1 (F := F)).Adm) (t : Fin (cfg1 a1).N) : ((cfg1 a1).win 9).index t = cc1_transform_10 (grid1.coords t) := rfl
theorem blk1_9_read (a1 : (pcfg1 (F := F)).Adm) (t : Fin (cfg1 a1).N) (A : S1x256.Idx → Elt F .f32) :
    (((cfg1 a1).win 9).blk t).view.read (Elt F) A = A := by
  refine funext fun (y : S1x256.Idx) => ?_
  show A ((((cfg1 a1).win 9).blk t).view.emb y) = A y
  refine congrArg A (funext fun a => Fin.ext ?_)
  match a with
  | ⟨0, _⟩ => show ((cfg1 a1).win 9).index t (0 : Fin 2) * 1 + 1 * (y 0).val = (y 0).val; rw [index1_9, (zeroMap_10 _).1]; omega
  | ⟨1, _⟩ => show ((cfg1 a1).win 9).index t (1 : Fin 2) * 256 + 1 * (y 1).val = (y 1).val; rw [index1_9, (zeroMap_10 _).2]; omega

theorem index1_10 (a1 : (pcfg1 (F := F)).Adm) (t : Fin (cfg1 a1).N) : ((cfg1 a1).win 10).index t = cc1_transform_11 (grid1.coords t) := rfl
theorem blk1_10_read (a1 : (pcfg1 (F := F)).Adm) (t : Fin (cfg1 a1).N) (A : S256x1.Idx → Elt F .f32) :
    (((cfg1 a1).win 10).blk t).view.read (Elt F) A = A := by
  refine funext fun (y : S256x1.Idx) => ?_
  show A ((((cfg1 a1).win 10).blk t).view.emb y) = A y
  refine congrArg A (funext fun a => Fin.ext ?_)
  match a with
  | ⟨0, _⟩ => show ((cfg1 a1).win 10).index t (0 : Fin 2) * 256 + 1 * (y 0).val = (y 0).val; rw [index1_10, (zeroMap_11 _).1]; omega
  | ⟨1, _⟩ => show ((cfg1 a1).win 10).index t (1 : Fin 2) * 1 + 1 * (y 1).val = (y 1).val; rw [index1_10, (zeroMap_11 _).2]; omega

theorem index1_11 (a1 : (pcfg1 (F := F)).Adm) (t : Fin (cfg1 a1).N) : ((cfg1 a1).win 11).index t = cc1_transform_12 (grid1.coords t) := rfl
theorem blk1_11_read (a1 : (pcfg1 (F := F)).Adm) (t : Fin (cfg1 a1).N) (A : S1x1.Idx → Elt F .f32) :
    (((cfg1 a1).win 11).blk t).view.read (Elt F) A = A := by
  refine funext fun (y : S1x1.Idx) => ?_
  show A ((((cfg1 a1).win 11).blk t).view.emb y) = A y
  refine congrArg A (funext fun a => Fin.ext ?_)
  match a with
  | ⟨0, _⟩ => show ((cfg1 a1).win 11).index t (0 : Fin 2) * 1 + 1 * (y 0).val = (y 0).val; rw [index1_11, (zeroMap_12 _).1]; omega
  | ⟨1, _⟩ => show ((cfg1 a1).win 11).index t (1 : Fin 2) * 1 + 1 * (y 1).val = (y 1).val; rw [index1_11, (zeroMap_12 _).2]; omega

theorem index1_12 (a1 : (pcfg1 (F := F)).Adm) (t : Fin (cfg1 a1).N) : ((cfg1 a1).win 12).index t = cc1_transform_13 (grid1.coords t) := rfl
theorem blk1_12_read (a1 : (pcfg1 (F := F)).Adm) (t : Fin (cfg1 a1).N) (A : S1x1.Idx → Elt F .f32) :
    (((cfg1 a1).win 12).blk t).view.read (Elt F) A = A := by
  refine funext fun (y : S1x1.Idx) => ?_
  show A ((((cfg1 a1).win 12).blk t).view.emb y) = A y
  refine congrArg A (funext fun a => Fin.ext ?_)
  match a with
  | ⟨0, _⟩ => show ((cfg1 a1).win 12).index t (0 : Fin 2) * 1 + 1 * (y 0).val = (y 0).val; rw [index1_12, (zeroMap_13 _).1]; omega
  | ⟨1, _⟩ => show ((cfg1 a1).win 12).index t (1 : Fin 2) * 1 + 1 * (y 1).val = (y 1).val; rw [index1_12, (zeroMap_13 _).2]; omega

end Cert.KernelIdeal.Hand

end
-- ==== Proof.KI.R1TileAux.lean ====
import proofs.«428817_j39556648796289_1_alg».proof.Proof.KI.R1
import proofs.«428817_j39556648796289_1_alg».proof.Proof.KI.R1TileRows
import proofs.«428817_j39556648796289_1_alg».proof.Proof.KI.R1Blocks
import proofs.«428817_j39556648796289_1_alg».proof.Proof.KI.R1Out
import Idealize.ShloMosaic.Lib.Pipeline.Value
import Idealize.ShloMosaic.Lib.ValueIdx

/-! # A tile's point, its edges, and the input windows' blocks

On the one-axis grid of the second region a point's coordinate is its number, so edge `r` of the tile at point `t`
is edge `64 t + r` of the tables. Each of the thirteen input windows spans its whole array at every point: its block,
read off the array as the region finds it, is the array. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (a1 : (pcfg1 (F := Ideal)).Adm)

/-! ## The point and its edges -/

/-- On the one-axis grid a point's coordinate is its number. -/
theorem coord1_val : ∀ t : Fin grid1.N, ((grid1.coords t) 0).val = t.val := by decide +kernel

/-- Edge `r` of the tile at point `t` is edge `64 t + r` of the tables. -/
theorem edgeOf_coords (t : Fin (cfg1 a1).N) (r : Fin 64) : edgeOf (grid1.coords t) r = edgeAt a1 t r :=
  Fin.ext (by show 64 * ((grid1.coords t) 0).val + r.val = 64 * t.val + r.val; rw [coord1_val t])

/-! ## The input windows' blocks are their arrays -/

/-- Window 0: the feature table. -/
theorem iblk1_0_eq (c : Dev nD) (t : Fin (cfg1 a1).N) : iblk1 V a1 c 0 t = V c main_arg0 := by
  unfold iblk1
  exact blk1_0_read a1 t (V c main_arg0)
/-- Window 1: the residual table. -/
theorem iblk1_1_eq (c : Dev nD) (t : Fin (cfg1 a1).N) : iblk1 V a1 c 1 t = V c main_v6 := by
  unfold iblk1
  exact blk1_1_read a1 t (V c main_v6)
/-- Window 2: the pair head's weight. -/
theorem iblk1_2_eq (c : Dev nD) (t : Fin (cfg1 a1).N) : iblk1 V a1 c 2 t = V c main_arg11 := by
  unfold iblk1
  exact blk1_2_read a1 t (V c main_arg11)
/-- Window 3: the pair head's bias row. -/
theorem iblk1_3_eq (c : Dev nD) (t : Fin (cfg1 a1).N) : iblk1 V a1 c 3 t = V c main_v7 := by
  unfold iblk1
  exact blk1_3_read a1 t (V c main_v7)
/-- Window 4: the first common-neighbour weight. -/
theorem iblk1_4_eq (c : Dev nD) (t : Fin (cfg1 a1).N) : iblk1 V a1 c 4 t = V c main_arg7 := by
  unfold iblk1
  exact blk1_4_read a1 t (V c main_arg7)
/-- Window 5: its bias row. -/
theorem iblk1_5_eq (c : Dev nD) (t : Fin (cfg1 a1).N) : iblk1 V a1 c 5 t = V c main_v8 := by
  unfold iblk1
  exact blk1_5_read a1 t (V c main_v8)
/-- Window 6: the second common-neighbour weight. -/
theorem iblk1_6_eq (c : Dev nD) (t : Fin (cfg1 a1).N) : iblk1 V a1 c 6 t = V c main_arg9 := by
  unfold iblk1
  exact blk1_6_read a1 t (V c main_arg9)
/-- Window 7: its bias row. -/
theorem iblk1_7_eq (c : Dev nD) (t : Fin (cfg1 a1).N) : iblk1 V a1 c 7 t = V c main_v9 := by
  unfold iblk1
  exact blk1_7_read a1 t (V c main_v9)
/-- Window 8: the output head's hidden weight. -/
theorem iblk1_8_eq (c : Dev nD) (t : Fin (cfg1 a1).N) : iblk1 V a1 c 8 t = V c main_arg13 := by
  unfold iblk1
  exact blk1_8_read a1 t (V c main_arg13)
/-- Window 9: its bias row. -/
theorem iblk1_9_eq (c : Dev nD) (t : Fin (cfg1 a1).N) : iblk1 V a1 c 9 t = V c main_v10 := by
  unfold iblk1
  exact blk1_9_read a1 t (V c main_v10)
/-- Window 10: the output head's last weight. -/
theorem iblk1_10_eq (c : Dev nD) (t : Fin (cfg1 a1).N) : iblk1 V a1 c 10 t = V c main_arg15 := by
  unfold iblk1
  exact blk1_10_read a1 t (V c main_arg15)
/-- Window 11: its bias, a 1 × 1 block. -/
theorem iblk1_11_eq (c : Dev nD) (t : Fin (cfg1 a1).N) : iblk1 V a1 c 11 t = V c main_v11 := by
  unfold iblk1
  exact blk1_11_read a1 t (V c main_v11)
/-- Window 12: the combining scalar, a 1 × 1 block. -/
theorem iblk1_12_eq (c : Dev nD) (t : Fin (cfg1 a1).N) : iblk1 V a1 c 12 t = V c main_v12 := by
  unfold iblk1
  exact blk1_12_read a1 t (V c main_v12)

end Cert.KernelIdeal.Hand

end
-- ==== Proof.KI.R1Tile.lean ====
import proofs.«428817_j39556648796289_1_alg».proof.Proof.KI.R1
import proofs.«428817_j39556648796289_1_alg».proof.Proof.KI.R1Indep
import proofs.«428817_j39556648796289_1_alg».proof.Proof.KI.R1TileAux
import proofs.«428817_j39556648796289_1_alg».proof.Proof.KI.R1Arith
import proofs.«428817_j39556648796289_1_alg».proof.Proof.KI.R1Out
import proofs.«428817_j39556648796289_1_alg».proof.Proof.KI.EdgeScore
import Idealize.ShloMosaic.Lib.Pipeline.FrameBody
import Idealize.ShloMosaic.Lib.Pipeline.Value
import Idealize.ShloMosaic.Lib.ValueIdx

/-! # One tile of the second region is the edges' scores

What the body leaves in the output block at grid point `t`, read at edge `r` of the tile, is the score of edge
`64 t + r` from the arrays the region finds and the two tables. The run's one piece is the tile's arithmetic of the four
scratch buffers, the residual table and the weights; read at edge `r` that is the row score of the buffers' rows `r`;
those rows are the rows of the adjacency array and of the node table that the tables' words for edge `64 t + r` name;
and the windows' blocks are their arrays. On the extended reals. -/

set_option maxRecDepth 65536

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.ValueIdx
open Idealize.ShloMosaic.Pipeline (Dat)

/-- The row score depends only on the values of its four row functions and on its weights. -/
theorem rowOut_congr {cn cn' : Fin 8192 → EReal} {hAt hAt' : Fin 8192 → Fin 256 → EReal} {xiRow xiRow' xjRow xjRow' : Fin 256 → EReal}
    {xij_w xij_w' : FVec Ideal Cert.Spec.SW .f32} {xij_b xij_b' : FVec Ideal Cert.Spec.SB .f32} {xcn_w1 xcn_w1' : FVec Ideal Cert.Spec.SW .f32} {xcn_b1 xcn_b1' : FVec Ideal Cert.Spec.SB .f32} {xcn_w2 xcn_w2' : FVec Ideal Cert.Spec.SW .f32} {xcn_b2 xcn_b2' : FVec Ideal Cert.Spec.SB .f32} {lin_w1 lin_w1' : FVec Ideal Cert.Spec.SW .f32} {lin_b1 lin_b1' : FVec Ideal Cert.Spec.SB .f32} {lin_w2 lin_w2' : FVec Ideal Cert.Spec.SWOut .f32} {lin_b2 lin_b2' : FVec Ideal Cert.Spec.SOne .f32} {beta beta' : FVec Ideal Cert.Spec.SOne .f32}
    (h1 : ∀ k, cn k = cn' k) (h2 : ∀ k d, hAt k d = hAt' k d) (h3 : ∀ k, xiRow k = xiRow' k) (h4 : ∀ k, xjRow k = xjRow' k)
    (e_xij_w : xij_w = xij_w') (e_xij_b : xij_b = xij_b') (e_xcn_w1 : xcn_w1 = xcn_w1') (e_xcn_b1 : xcn_b1 = xcn_b1') (e_xcn_w2 : xcn_w2 = xcn_w2') (e_xcn_b2 : xcn_b2 = xcn_b2') (e_lin_w1 : lin_w1 = lin_w1') (e_lin_b1 : lin_b1 = lin_b1') (e_lin_w2 : lin_w2 = lin_w2') (e_lin_b2 : lin_b2 = lin_b2') (e_beta : beta = beta') :
    rowOut cn hAt xiRow xjRow xij_w xij_b xcn_w1 xcn_b1 xcn_w2 xcn_b2 lin_w1 lin_b1 lin_w2 lin_b2 beta = rowOut cn' hAt' xiRow' xjRow' xij_w' xij_b' xcn_w1' xcn_b1' xcn_w2' xcn_b2' lin_w1' lin_b1' lin_w2' lin_b2' beta' := by
  obtain rfl : cn = cn' := funext h1
  obtain rfl : hAt = hAt' := funext fun k => funext (h2 k)
  obtain rfl : xiRow = xiRow' := funext h3
  obtain rfl : xjRow = xjRow' := funext h4
  subst e_xij_w e_xij_b e_xcn_w1 e_xcn_b1 e_xcn_w2 e_xcn_b2 e_lin_w1 e_lin_b1 e_lin_w2 e_lin_b2 e_beta
  rfl

variable (V : (c : Dev nD) → (b : Ref sig .tc) → Buf (Elt Ideal) ((c : Thread nD τ).loc b)) (a1 : (pcfg1 (F := Ideal)).Adm)

/-- The run's piece at point `t`, read back: the tile's payload of the point's blocks and the tables. -/
theorem outsAt1_eq_tilePay (hH : Hyps1 a1.1) (c : Dev nD) (t : Fin (cfg1 a1).N) :
    outsAt1 (F := Ideal) V a1 hH c t
      = tilePay (grid1.coords t) (a1.1 0 : S8192.Idx → BitVec 32) (a1.1 1 : S8192.Idx → BitVec 32) hH.1 hH.2 (V c main_arg1 : S8192x8192.Idx → Elt Ideal .f32)
          (ms1_0 a1 t) (hs1_0 a1 t) (iblk1 V a1 c 0 t) (iblk1 V a1 c 1 t) (iblk1 V a1 c 2 t) (iblk1 V a1 c 3 t) (iblk1 V a1 c 4 t) (iblk1 V a1 c 5 t) (iblk1 V a1 c 6 t) (iblk1 V a1 c 7 t) (iblk1 V a1 c 8 t) (iblk1 V a1 c 9 t) (iblk1 V a1 c 10 t) (iblk1 V a1 c 11 t) (iblk1 V a1 c 12 t) := by
  unfold outsAt1
  rw [kernelRun1_pieces c (grid1.coords t) (ms1_0 a1 t) (hs1_0 a1 t) (ms1_1 a1 t) (hs1_1 a1 t) (ms1_2 a1 t) (hs1_2 a1 t) (ms1_3 a1 t) (hs1_3 a1 t) (ms1_4 a1 t) (hs1_4 a1 t) (ms1_5 a1 t) (hs1_5 a1 t) (ms1_6 a1 t) (hs1_6 a1 t) (ms1_7 a1 t) (hs1_7 a1 t) (ms1_8 a1 t) (hs1_8 a1 t) (ms1_9 a1 t) (hs1_9 a1 t) (ms1_10 a1 t) (hs1_10 a1 t) (ms1_11 a1 t) (hs1_11 a1 t) (ms1_12 a1 t) (hs1_12 a1 t) (ms1_13 a1 t) (hs1_13 a1 t) (iblk1 V a1 c 0 t) (iblk1 V a1 c 1 t) (iblk1 V a1 c 2 t) (iblk1 V a1 c 3 t) (iblk1 V a1 c 4 t) (iblk1 V a1 c 5 t) (iblk1 V a1 c 6 t) (iblk1 V a1 c 7 t) (iblk1 V a1 c 8 t) (iblk1 V a1 c 9 t) (iblk1 V a1 c 10 t) (iblk1 V a1 c 11 t) (iblk1 V a1 c 12 t) scJ1_0 scJ1_1 scJ1_2 scJ1_3 (a1.1 0) (a1.1 1) (V c main_arg1) hH.1 hH.2 (hw1 hH _) (hw2 hH _) (hw3 hH _) (hw4 hH _) (hw5 hH _) (hw6 hH _) (hw7 hH _) (hw8 hH _) (hw9 hH _) (hw10 hH _) (hw11 hH _) (hw12 hH _) (hw13 hH _) (hw14 hH _) (hw15 hH _) (hw16 hH _) (hw17 hH _) (hw18 hH _) (hw19 hH _) (hw20 hH _) (hw21 hH _) (hw22 hH _) (hw23 hH _) (hw24 hH _) (hw25 hH _) (hw26 hH _) (hw27 hH _) (hw28 hH _) (hw29 hH _) (hw30 hH _) (hw31 hH _) (hw32 hH _) (hw33 hH _) (hw34 hH _) (hw35 hH _) (hw36 hH _) (hw37 hH _) (hw38 hH _) (hw39 hH _) (hw40 hH _) (hw41 hH _) (hw42 hH _) (hw43 hH _) (hw44 hH _) (hw45 hH _) (hw46 hH _) (hw47 hH _) (hw48 hH _) (hw49 hH _) (hw50 hH _) (hw51 hH _) (hw52 hH _) (hw53 hH _) (hw54 hH _) (hw55 hH _) (hw56 hH _) (hw57 hH _) (hw58 hH _) (hw59 hH _) (hw60 hH _) (hw61 hH _) (hw62 hH _) (hw63 hH _) (hw64 hH _) (hw65 hH _) (hw66 hH _) (hw67 hH _) (hw68 hH _) (hw69 hH _) (hw70 hH _) (hw71 hH _) (hw72 hH _) (hw73 hH _) (hw74 hH _) (hw75 hH _) (hw76 hH _) (hw77 hH _) (hw78 hH _) (hw79 hH _) (hw80 hH _) (hw81 hH _) (hw82 hH _) (hw83 hH _) (hw84 hH _) (hw85 hH _) (hw86 hH _) (hw87 hH _) (hw88 hH _) (hw89 hH _) (hw90 hH _) (hw91 hH _) (hw92 hH _) (hw93 hH _) (hw94 hH _) (hw95 hH _) (hw96 hH _) (hw97 hH _) (hw98 hH _) (hw99 hH _) (hw100 hH _) (hw101 hH _) (hw102 hH _) (hw103 hH _) (hw104 hH _) (hw105 hH _) (hw106 hH _) (hw107 hH _) (hw108 hH _) (hw109 hH _) (hw110 hH _) (hw111 hH _) (hw112 hH _) (hw113 hH _) (hw114 hH _) (hw115 hH _) (hw116 hH _) (hw117 hH _) (hw118 hH _) (hw119 hH _) (hw120 hH _) (hw121 hH _) (hw122 hH _) (hw123 hH _) (hw124 hH _) (hw125 hH _) (hw126 hH _) (hw127 hH _) (hw128 hH _)]
  rw [View.read_writes_junk_eq_canon, View.canon_unit_zero zeroOff]

/-- THE TILE AT EDGE `r`: the score of edge `64 t + r`. -/
theorem tile_eq_gOf (hH : Hyps1 a1.1) (c : Dev nD) (t : Fin (cfg1 a1).N) (r : Fin 64) :
    outsAt1 (F := Ideal) V a1 hH c t (ValueIdx.ix2 r (0 : Fin 1)) = gOf V a1.1 c (edgeAt a1 t r) := by
  rw [outsAt1_eq_tilePay]
  show tileOut
      (aiFull (grid1.coords t) (a1.1 0 : S8192.Idx → BitVec 32) hH.1 (V c main_arg1 : S8192x8192.Idx → Elt Ideal .f32))
      (ajFull (grid1.coords t) (a1.1 1 : S8192.Idx → BitVec 32) hH.2 (V c main_arg1 : S8192x8192.Idx → Elt Ideal .f32))
      (iblk1 V a1 c 1 t)
      (xiFull (grid1.coords t) (a1.1 0 : S8192.Idx → BitVec 32) hH.1 (ms1_0 a1 t) (hs1_0 a1 t) (iblk1 V a1 c 0 t))
      (xjFull (grid1.coords t) (a1.1 1 : S8192.Idx → BitVec 32) hH.2 (ms1_0 a1 t) (hs1_0 a1 t) (iblk1 V a1 c 0 t))
      (iblk1 V a1 c 2 t) (iblk1 V a1 c 3 t) (iblk1 V a1 c 4 t) (iblk1 V a1 c 5 t) (iblk1 V a1 c 6 t) (iblk1 V a1 c 7 t)
      (iblk1 V a1 c 8 t) (iblk1 V a1 c 9 t) (iblk1 V a1 c 10 t) (iblk1 V a1 c 11 t) (iblk1 V a1 c 12 t) (ValueIdx.ix2 r (0 : Fin 1)) = _
  refine (tile_row _ _ _ _ _ _ _ _ _ _ _ _ _ _ _ _ r).trans ?_
  have he : edgeOf (grid1.coords t) r = edgeAt a1 t r := edgeOf_coords a1 t r
  have hai : ∀ k : Fin 8192, aiFull (grid1.coords t) (a1.1 0 : S8192.Idx → BitVec 32) hH.1 (V c main_arg1 : S8192x8192.Idx → Elt Ideal .f32) (ix2 r k)
      = (V c main_arg1 : S8192x8192.Idx → Elt Ideal .f32) (ix2 (Cert.Spec.rowIx ((a1.1 0 : S8192.Idx → BitVec 32) (ValueIdx.ix1 (edgeAt a1 t r)))) k) := fun k =>
    (aiFull_at (grid1.coords t) (a1.1 0 : S8192.Idx → BitVec 32) hH.1 (V c main_arg1 : S8192x8192.Idx → Elt Ideal .f32) r k).trans
      (congrArg (fun e : Fin 8192 => (V c main_arg1 : S8192x8192.Idx → Elt Ideal .f32) (ix2 (Cert.Spec.rowIx ((a1.1 0 : S8192.Idx → BitVec 32) (ValueIdx.ix1 e))) k)) he)
  have haj : ∀ k : Fin 8192, ajFull (grid1.coords t) (a1.1 1 : S8192.Idx → BitVec 32) hH.2 (V c main_arg1 : S8192x8192.Idx → Elt Ideal .f32) (ix2 r k)
      = (V c main_arg1 : S8192x8192.Idx → Elt Ideal .f32) (ix2 (Cert.Spec.rowIx ((a1.1 1 : S8192.Idx → BitVec 32) (ValueIdx.ix1 (edgeAt a1 t r)))) k) := fun k =>
    (ajFull_at (grid1.coords t) (a1.1 1 : S8192.Idx → BitVec 32) hH.2 (V c main_arg1 : S8192x8192.Idx → Elt Ideal .f32) r k).trans
      (congrArg (fun e : Fin 8192 => (V c main_arg1 : S8192x8192.Idx → Elt Ideal .f32) (ix2 (Cert.Spec.rowIx ((a1.1 1 : S8192.Idx → BitVec 32) (ValueIdx.ix1 e))) k)) he)
  have hxi : ∀ k : Fin 256, xiFull (grid1.coords t) (a1.1 0 : S8192.Idx → BitVec 32) hH.1 (ms1_0 a1 t) (hs1_0 a1 t) (iblk1 V a1 c 0 t) (ix2 r k)
      = (V c main_arg0 : S8192x256.Idx → Elt Ideal .f32) (ix2 (Cert.Spec.rowIx ((a1.1 0 : S8192.Idx → BitVec 32) (ValueIdx.ix1 (edgeAt a1 t r)))) k) := fun k =>
    ((xiFull_at (grid1.coords t) (a1.1 0 : S8192.Idx → BitVec 32) hH.1 (ms1_0 a1 t) (hs1_0 a1 t) (iblk1 V a1 c 0 t) r k).trans
      (congrFun (iblk1_0_eq V a1 c t) _)).trans
      (congrArg (fun e : Fin 8192 => (V c main_arg0 : S8192x256.Idx → Elt Ideal .f32) (ix2 (Cert.Spec.rowIx ((a1.1 0 : S8192.Idx → BitVec 32) (ValueIdx.ix1 e))) k)) he)
  have hxj : ∀ k : Fin 256, xjFull (grid1.coords t) (a1.1 1 : S8192.Idx → BitVec 32) hH.2 (ms1_0 a1 t) (hs1_0 a1 t) (iblk1 V a1 c 0 t) (ix2 r k)
      = (V c main_arg0 : S8192x256.Idx → Elt Ideal .f32) (ix2 (Cert.Spec.rowIx ((a1.1 1 : S8192.Idx → BitVec 32) (ValueIdx.ix1 (edgeAt a1 t r)))) k) := fun k =>
    ((xjFull_at (grid1.coords t) (a1.1 1 : S8192.Idx → BitVec 32) hH.2 (ms1_0 a1 t) (hs1_0 a1 t) (iblk1 V a1 c 0 t) r k).trans
      (congrFun (iblk1_0_eq V a1 c t) _)).trans
      (congrArg (fun e : Fin 8192 => (V c main_arg0 : S8192x256.Idx → Elt Ideal .f32) (ix2 (Cert.Spec.rowIx ((a1.1 1 : S8192.Idx → BitVec 32) (ValueIdx.ix1 e))) k)) he)
  unfold gOf edgeScore
  exact rowOut_congr
    (fun k => congrArg₂ (· * ·) (hai k) (haj k))
    (fun k d => congrFun (iblk1_1_eq V a1 c t) (ix2 k d))
    hxi hxj
    (iblk1_2_eq V a1 c t) (congrArg rowVec (iblk1_3_eq V a1 c t)) (iblk1_4_eq V a1 c t) (congrArg rowVec (iblk1_5_eq V a1 c t))
    (iblk1_6_eq V a1 c t) (congrArg rowVec (iblk1_7_eq V a1 c t)) (iblk1_8_eq V a1 c t) (congrArg rowVec (iblk1_9_eq V a1 c t))
    (iblk1_10_eq V a1 c t) (congrArg oneVec (iblk1_11_eq V a1 c t)) (congrArg oneVec (iblk1_12_eq V a1 c t))

end Cert.KernelIdeal.Hand

end
-- ==== Proof.lean ====
/-
  The certificate's five claims, assembled.

  Both printed kernel programs are one text (the ideal pass rewrote nothing), so their frames are one argument read at two float
  instances: @main is two stretches of reshapes and slices around two kernel regions. Region 0 computes, row block by row block,
  h = x + relu (relu (x · w₁ + b₁) · w₂ + b₂); region 1, for each tile of 64 target edges, copies the two endpoint rows of the
  adjacency array and of x into scratch (the endpoints read from the two index tables the first stretch cut out of tar_ei), forms the
  common-neighbour mask cn = adj[i] ∗ adj[j], multiplies it into h and runs the three small perceptrons. Every copy and row load is in
  bounds because the precondition puts every word of tar_ei in [0, 8192); under it each program runs to the end without a fault and
  leaves its arguments unchanged. The reference's frame is its generated run with the result dropped. The ideal pass recorded no
  rewrite, so `preserves` is `True`. For the algebraic claim both runs end at one function of the arguments, `Cert.Spec.G`: the
  reference's composed term by reading its 94 operations index by index, the kernel's result array by reading region 0's blocks, the
  rows region 1 gathers and the tile arithmetic; no law of the extended reals beyond the definitions is used, the two sides summing
  the same terms in the same order.
-/
import proofs.«428817_j39556648796289_1_alg».proof.Defs
import proofs.«428817_j39556648796289_1_alg».proof.Proof.Gen.Kernel
import proofs.«428817_j39556648796289_1_alg».proof.Proof.Gen.KernelIdeal
import proofs.«428817_j39556648796289_1_alg».proof.Proof.Gen.ReferenceIdeal
import proofs.«428817_j39556648796289_1_alg».proof.Proof.Gen.Pre_finite_inputs
import proofs.«428817_j39556648796289_1_alg».proof.Proof.RefFrame
import proofs.«428817_j39556648796289_1_alg».proof.Proof.RefIsSpec
import proofs.«428817_j39556648796289_1_alg».proof.Proof.K.Frames
import proofs.«428817_j39556648796289_1_alg».proof.Proof.KI.Frames
import proofs.«428817_j39556648796289_1_alg».proof.Proof.KI.AlgGlue
import proofs.«428817_j39556648796289_1_alg».proof.Proof.KI.R1Tile
import Idealize.ShloMosaic.Adequacy
import Idealize.ShloMosaic.Init

noncomputable section

namespace Cert.Proof

open Idealize.ShloMosaic Idealize.ShloMosaic.TcCoe Idealize.SL.Sem

/-- The two idealized programs end at the same array: the kernel's run names its result (the last region's output array after
    its 128 tiles) and `result_eq_G` reads it as `Cert.Spec.G` of the arguments; the reference's run ends at its composed term,
    which `ref_eq_G` reads as the same function of arguments that agree. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ⟨(h c).1.trans ?_, (h c).2⟩)
      (Cert.KernelIdeal.Hand.run_with_result (F := Ideal) m ρ hpre)
    exact Cert.KernelIdeal.Hand.result_eq_G m (Cert.KernelIdeal.Hand.hyps1_of_pre m hpre) c
      (fun t r => Cert.KernelIdeal.Hand.tile_eq_gOf (Cert.KernelIdeal.Hand.V3 m) (Cert.KernelIdeal.Hand.adm1 m) _ c t r)
  · refine (θ_run Cert.ReferenceIdeal.defs _ _).mono (fun _ h c => ⟨?_, (h c).2⟩)
      (Cert.ReferenceIdeal.Value.run (F := Ideal) m' ρ')
    have ha := hagree c
    rw [(h c).1, Cert.ReferenceIdeal.Read.val_main_v73_eq, ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2.1, ha.2.2.2.2.2.2.2.2.2.2.2.2.1, ha.2.2.2.2.2.2.2.2.2.2.2.2.2.1, ha.2.2.2.2.2.2.2.2.2.2.2.2.2.2.1, ha.2.2.2.2.2.2.2.2.2.2.2.2.2.2.2.1, ha.2.2.2.2.2.2.2.2.2.2.2.2.2.2.2.2.1, ha.2.2.2.2.2.2.2.2.2.2.2.2.2.2.2.2.2]
    exact Cert.ReferenceIdeal.RefValue.ref_eq_G _ _ _ _ _ _ _ _ _ _ _ _ _ _ _ _ _ _
      (fun i => Cert.KernelIdeal.Hand.tar_word_lt m hpre c i)

theorem claim : Cert.Claim := ⟨Cert.Kernel.Gen.facts, Cert.KernelIdeal.Gen.facts, Cert.ReferenceIdeal.Gen.facts, Cert.Pre_finite_inputs.Gen.facts,
  fun m ρ h => Cert.Kernel.Hand.frame_of_pre m ρ h,
  fun m ρ h => Cert.KernelIdeal.Hand.frame_of_pre m ρ h,
  Cert.Proof.RefFrame.frame_ri,
  trivial,
  algebraic⟩

end Cert.Proof

end
